-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v360)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v158)) (v3 : (c : Dev Cert.KernelIdeal.nD) → Buf (Elt Ideal) ((c.tc : Thread Cert.KernelIdeal.nD Cert.KernelIdeal.τ).loc Cert.KernelIdeal.main_v236)) (v4 : (c : Dev Cert.KernelIdeal.nD) → Buf (Elt Ideal) ((c.tc : Thread Cert.KernelIdeal.nD Cert.KernelIdeal.τ).loc Cert.KernelIdeal.main_v314)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v360) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v158) = v2 c
          ∧ r.2.mem ((c.tc : Thread Cert.KernelIdeal.nD Cert.KernelIdeal.τ).loc Cert.KernelIdeal.main_v236) = v3 c
          ∧ r.2.mem ((c.tc : Thread Cert.KernelIdeal.nD Cert.KernelIdeal.τ).loc Cert.KernelIdeal.main_v314) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v476) = v0 c
          ∧ r.2.mem ((c.tc : Thread Cert.ReferenceIdeal.nD Cert.ReferenceIdeal.τ).loc Cert.ReferenceIdeal.main_v421) = v1 c
          ∧ r.2.mem ((c.tc : Thread Cert.ReferenceIdeal.nD Cert.ReferenceIdeal.τ).loc Cert.ReferenceIdeal.main_v424) = v2 c
          ∧ r.2.mem ((c.tc : Thread Cert.ReferenceIdeal.nD Cert.ReferenceIdeal.τ).loc Cert.ReferenceIdeal.main_v427) = v3 c
          ∧ r.2.mem ((c.tc : Thread Cert.ReferenceIdeal.nD Cert.ReferenceIdeal.τ).loc Cert.ReferenceIdeal.main_v430) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1 : Shape := ⟨1, ![1]⟩
abbrev S1600000 : Shape := ⟨1, ![1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S5x128x64 : Shape := ⟨3, ![5, 128, 64]⟩
abbrev S5x64 : Shape := ⟨2, ![5, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S4 : S_.BroadcastsInDim S4 (![] : Fin 0 → Fin S4.rank)
  reducesTo_S4_S_d0 : S4.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S5x128x64 : S_.BroadcastsInDim S5x128x64 (![] : Fin 0 → Fin S5x128x64.rank)
  reducesTo_S5x128x64_S_d0_1_2 : S5x128x64.ReducesTo [0, 1, 2] S_
  bcast_S_S5x64 : S_.BroadcastsInDim S5x64 (![] : Fin 0 → Fin S5x64.rank)
  reducesTo_S5x64_S_d0_1 : S5x64.ReducesTo [0, 1] S_

variable [Facts]

def fn_part4 {F : FTy → Type} [FloatOps F] (main_arg17 : FVec F S5x64 .f32) (main_v63 : IVec S_ 1) (main_v67 : IVec S_ 1) : IVec S_ 1 :=
  let main_v68 : IVec S_ 1 := andi main_v63 main_v67
  let main_v69 : FVec F S5x64 .f32 := Host.absf main_arg17
  let main_cst_26 : FVec F S_ .f32 := constant S_ .f32 0x7F800000#32
  let main_v70 : FVec F S5x64 .f32 := broadcastInDim S5x64 ![] bcast_S_S5x64 main_cst_26
  let main_v71 : IVec S5x64 1 := cmpf .olt main_v69 main_v70
  let main_c_27 : IVec S_ 1 := constantI S_ 1 1#1
  let main_v72 : IVec S_ 1 := (fun x v => Host.reduce IntOp.andi x v reducesTo_S5x64_S_d0_1 h_S_) main_v71 main_c_27
  let main_v73 : IVec S_ 1 := andi main_v68 main_v72
  main_v73

def fn_part3 {F : FTy → Type} [FloatOps F] (main_arg14 : FVec F S4x128 .f32) (main_arg15 : FVec F S4x128 .f32) (main_arg16 : FVec F S5x128x64 .f32) (main_arg17 : FVec F S5x64 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg14
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg15
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S5x128x64 .f32 := Host.absf main_arg16
  let main_cst_24 : FVec F S_ .f32 := constant S_ .f32 0x7F800000#32
  let main_v65 : FVec F S5x128x64 .f32 := broadcastInDim S5x128x64 ![] bcast_S_S5x128x64 main_cst_24
  let main_v66 : IVec S5x128x64 1 := cmpf .olt main_v64 main_v65
  let main_c_25 : IVec S_ 1 := constantI S_ 1 1#1
  let main_v67 : IVec S_ 1 := (fun x v => Host.reduce IntOp.andi x v reducesTo_S5x128x64_S_d0_1_2 h_S_) main_v66 main_c_25
  fn_part4 (F := F) main_arg17 main_v63 main_v67

def fn_part2 {F : FTy → Type} [FloatOps F] (main_arg10 : FVec F S4x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S5x128x64 .f32) (main_arg17 : FVec F S5x64 .f32) (main_v33 : IVec S_ 1) : IVec S_ 1 :=
  let main_v34 : FVec F S4x128 .f32 := Host.absf main_arg10
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg11
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg12
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg13
  let main_cst_18 : FVec F S_ .f32 := constant S_ .f32 0x7F800000#32
  let main_v50 : FVec F S4x128 .f32 := broadcastInDim S4x128 ![] bcast_S_S4x128 main_cst_18
  fn_part3 (F := F) main_arg14 main_arg15 main_arg16 main_arg17 main_v48 main_v49 main_v50

def fn_part1 {F : FTy → Type} [FloatOps F] (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S5x128x64 .f32) (main_arg17 : FVec F S5x64 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128x128 .f32 := Host.absf main_arg8
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg9
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S100000x128 .f32) (main_arg1 : FVec F S1 .f32) (main_arg2 : IVec S1600000 32) (main_arg3 : IVec S1600000 32) (main_arg4 : IVec S100000 32) (main_arg5 : FVec F S4 .f32) (main_arg6 : FVec F S4x128x128 .f32) (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S4x128 .f32) (main_arg15 : FVec F S4x128 .f32) (main_arg16 : FVec F S5x128x64 .f32) (main_arg17 : FVec F S5x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S4 .f32 := Host.absf main_arg5
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x128x128 .f32 := Host.absf main_arg6
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S1 : Shape := ⟨1, ![1]⟩
abbrev S1600000 : Shape := ⟨1, ![1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S5x128x64 : Shape := ⟨3, ![5, 128, 64]⟩
abbrev S5x64 : Shape := ⟨2, ![5, 64]⟩
abbrev S100000x1 : Shape := ⟨2, ![100000, 1]⟩
abbrev S20x64x128 : Shape := ⟨3, ![20, 64, 128]⟩
abbrev S5000x128 : Shape := ⟨2, ![5000, 128]⟩
abbrev S5000x1 : Shape := ⟨2, ![5000, 1]⟩
abbrev S1x64x128 : Shape := ⟨3, ![1, 64, 128]⟩
abbrev S5000x64 : Shape := ⟨2, ![5000, 64]⟩
abbrev S64x5000 : Shape := ⟨2, ![64, 5000]⟩
abbrev S64x128 : Shape := ⟨2, ![64, 128]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S20x1x128 : Shape := ⟨3, ![20, 1, 128]⟩
abbrev S1x1x128 : Shape := ⟨3, ![1, 1, 128]⟩
abbrev S1x128x64 : Shape := ⟨3, ![1, 128, 64]⟩
abbrev S128x64 : Shape := ⟨2, ![128, 64]⟩
abbrev S64x64 : Shape := ⟨2, ![64, 64]⟩
abbrev S1x64 : Shape := ⟨2, ![1, 64]⟩
abbrev S64 : Shape := ⟨1, ![64]⟩

abbrev nBuf : Space → Nat
  | .hbm => 485
  | .vmem => 218
  | .smem => 0
  | _ => 0

abbrev hbmTy0_0 (i : Nat) : BufTy := match i % 128 with
  | 0 => ⟨S100000x128, .f32⟩
  | 1 => ⟨S1, .f32⟩
  | 2 => ⟨S1600000, .i32⟩
  | 3 => ⟨S1600000, .i32⟩
  | 4 => ⟨S100000, .i32⟩
  | 5 => ⟨S4, .f32⟩
  | 6 => ⟨S4x128x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S5x128x64, .f32⟩
  | 17 => ⟨S5x64, .f32⟩
  | 18 => ⟨S100000x1, .i32⟩
  | 19 => ⟨S20x64x128, .f32⟩
  | 20 => ⟨S_, .f32⟩
  | 21 => ⟨S64x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S1, .f32⟩
  | 36 => ⟨S_, .f32⟩
  | 37 => ⟨S_, .f32⟩
  | 38 => ⟨S_, .f32⟩
  | 39 => ⟨S1x1, .f32⟩
  | 40 => ⟨S1x128, .f32⟩
  | 41 => ⟨S1x128, .f32⟩
  | 42 => ⟨S128, .f32⟩
  | 43 => ⟨S1x128, .f32⟩
  | 44 => ⟨S1x128x128, .f32⟩
  | 45 => ⟨S128x128, .f32⟩
  | 46 => ⟨S100000x128, .f32⟩
  | 47 => ⟨S20x1x128, .f32⟩
  | 48 => ⟨S20x1x128, .f32⟩
  | 49 => ⟨S_, .f32⟩
  | 50 => ⟨S1x128, .f32⟩
  | 51 => ⟨S_, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S1x128, .f32⟩
  | 71 => ⟨S128, .f32⟩
  | 72 => ⟨S1x128, .f32⟩
  | 73 => ⟨S1x128x128, .f32⟩
  | 74 => ⟨S128x128, .f32⟩
  | 75 => ⟨S100000x128, .f32⟩
  | 76 => ⟨S20x1x128, .f32⟩
  | 77 => ⟨S20x1x128, .f32⟩
  | 78 => ⟨S_, .f32⟩
  | 79 => ⟨S1x128, .f32⟩
  | 80 => ⟨S_, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S20x1x128, .f32⟩
  | 100 => ⟨S20x1x128, .f32⟩
  | 101 => ⟨S_, .f32⟩
  | 102 => ⟨S1x128, .f32⟩
  | 103 => ⟨S_, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S128, .f32⟩
  | 118 => ⟨S1x128, .f32⟩
  | 119 => ⟨S1x128, .f32⟩
  | 120 => ⟨S128, .f32⟩
  | 121 => ⟨S1x128, .f32⟩
  | 122 => ⟨S100000x128, .f32⟩
  | 123 => ⟨S20x64x128, .f32⟩
  | 124 => ⟨S_, .f32⟩
  | 125 => ⟨S64x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S1, .f32⟩
  | 12 => ⟨S_, .f32⟩
  | 13 => ⟨S_, .f32⟩
  | 14 => ⟨S_, .f32⟩
  | 15 => ⟨S1x1, .f32⟩
  | 16 => ⟨S1x128, .f32⟩
  | 17 => ⟨S1x128, .f32⟩
  | 18 => ⟨S128, .f32⟩
  | 19 => ⟨S1x128, .f32⟩
  | 20 => ⟨S1x128x128, .f32⟩
  | 21 => ⟨S128x128, .f32⟩
  | 22 => ⟨S100000x128, .f32⟩
  | 23 => ⟨S20x1x128, .f32⟩
  | 24 => ⟨S20x1x128, .f32⟩
  | 25 => ⟨S_, .f32⟩
  | 26 => ⟨S1x128, .f32⟩
  | 27 => ⟨S_, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S1x128x128, .f32⟩
  | 50 => ⟨S128x128, .f32⟩
  | 51 => ⟨S100000x128, .f32⟩
  | 52 => ⟨S20x1x128, .f32⟩
  | 53 => ⟨S20x1x128, .f32⟩
  | 54 => ⟨S_, .f32⟩
  | 55 => ⟨S1x128, .f32⟩
  | 56 => ⟨S_, .f32⟩
  | 57 => ⟨S1x128, .f32⟩
  | 58 => ⟨S_, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S20x1x128, .f32⟩
  | 76 => ⟨S20x1x128, .f32⟩
  | 77 => ⟨S_, .f32⟩
  | 78 => ⟨S1x128, .f32⟩
  | 79 => ⟨S_, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S128, .f32⟩
  | 94 => ⟨S1x128, .f32⟩
  | 95 => ⟨S1x128, .f32⟩
  | 96 => ⟨S128, .f32⟩
  | 97 => ⟨S1x128, .f32⟩
  | 98 => ⟨S100000x128, .f32⟩
  | 99 => ⟨S20x64x128, .f32⟩
  | 100 => ⟨S_, .f32⟩
  | 101 => ⟨S64x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S1, .f32⟩
  | 116 => ⟨S_, .f32⟩
  | 117 => ⟨S_, .f32⟩
  | 118 => ⟨S_, .f32⟩
  | 119 => ⟨S1x1, .f32⟩
  | 120 => ⟨S1x128, .f32⟩
  | 121 => ⟨S1x128, .f32⟩
  | 122 => ⟨S128, .f32⟩
  | 123 => ⟨S1x128, .f32⟩
  | 124 => ⟨S1x128x128, .f32⟩
  | 125 => ⟨S128x128, .f32⟩
  | 126 => ⟨S100000x128, .f32⟩
  | 127 => ⟨S20x1x128, .f32⟩
  | _ => ⟨S100000x128, .f32⟩

abbrev hbmTy0_2 (i : Nat) : BufTy := match i % 128 with
  | 0 => ⟨S20x1x128, .f32⟩
  | 1 => ⟨S_, .f32⟩
  | 2 => ⟨S1x128, .f32⟩
  | 3 => ⟨S_, .f32⟩
  | 4 => ⟨S1x128, .f32⟩
  | 5 => ⟨S_, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S128, .f32⟩
  | 18 => ⟨S1x128, .f32⟩
  | 19 => ⟨S1x128, .f32⟩
  | 20 => ⟨S128, .f32⟩
  | 21 => ⟨S1x128, .f32⟩
  | 22 => ⟨S1x128, .f32⟩
  | 23 => ⟨S128, .f32⟩
  | 24 => ⟨S1x128, .f32⟩
  | 25 => ⟨S1x128x128, .f32⟩
  | 26 => ⟨S128x128, .f32⟩
  | 27 => ⟨S100000x128, .f32⟩
  | 28 => ⟨S20x1x128, .f32⟩
  | 29 => ⟨S20x1x128, .f32⟩
  | 30 => ⟨S_, .f32⟩
  | 31 => ⟨S1x128, .f32⟩
  | 32 => ⟨S_, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S20x1x128, .f32⟩
  | 52 => ⟨S20x1x128, .f32⟩
  | 53 => ⟨S_, .f32⟩
  | 54 => ⟨S1x128, .f32⟩
  | 55 => ⟨S_, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S100000x128, .f32⟩
  | 75 => ⟨S20x64x128, .f32⟩
  | 76 => ⟨S_, .f32⟩
  | 77 => ⟨S64x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1, .f32⟩
  | 92 => ⟨S_, .f32⟩
  | 93 => ⟨S_, .f32⟩
  | 94 => ⟨S_, .f32⟩
  | 95 => ⟨S1x1, .f32⟩
  | 96 => ⟨S1x128, .f32⟩
  | 97 => ⟨S1x128, .f32⟩
  | 98 => ⟨S128, .f32⟩
  | 99 => ⟨S1x128, .f32⟩
  | 100 => ⟨S1x128x128, .f32⟩
  | 101 => ⟨S128x128, .f32⟩
  | 102 => ⟨S100000x128, .f32⟩
  | 103 => ⟨S20x1x128, .f32⟩
  | 104 => ⟨S20x1x128, .f32⟩
  | 105 => ⟨S_, .f32⟩
  | 106 => ⟨S1x128, .f32⟩
  | 107 => ⟨S_, .f32⟩
  | 108 => ⟨S1x128, .f32⟩
  | 109 => ⟨S_, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S128, .f32⟩
  | 122 => ⟨S1x128, .f32⟩
  | 123 => ⟨S1x128, .f32⟩
  | 124 => ⟨S128, .f32⟩
  | 125 => ⟨S1x128, .f32⟩
  | 126 => ⟨S1x128, .f32⟩
  | 127 => ⟨S128, .f32⟩
  | _ => ⟨S100000x128, .f32⟩

abbrev hbmTy0_3 (i : Nat) : BufTy := match i % 128 with
  | 0 => ⟨S1x128, .f32⟩
  | 1 => ⟨S1x128x128, .f32⟩
  | 2 => ⟨S128x128, .f32⟩
  | 3 => ⟨S100000x128, .f32⟩
  | 4 => ⟨S20x1x128, .f32⟩
  | 5 => ⟨S20x1x128, .f32⟩
  | 6 => ⟨S_, .f32⟩
  | 7 => ⟨S1x128, .f32⟩
  | 8 => ⟨S_, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S1x128, .f32⟩
  | 22 => ⟨S128, .f32⟩
  | 23 => ⟨S1x128, .f32⟩
  | 24 => ⟨S1x128, .f32⟩
  | 25 => ⟨S128, .f32⟩
  | 26 => ⟨S1x128, .f32⟩
  | 27 => ⟨S20x1x128, .f32⟩
  | 28 => ⟨S20x1x128, .f32⟩
  | 29 => ⟨S_, .f32⟩
  | 30 => ⟨S1x128, .f32⟩
  | 31 => ⟨S_, .f32⟩
  | 32 => ⟨S1x128, .f32⟩
  | 33 => ⟨S_, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S100000x128, .f32⟩
  | 51 => ⟨S20x64x128, .f32⟩
  | 52 => ⟨S_, .f32⟩
  | 53 => ⟨S64x128, .f32⟩
  | 54 => ⟨S1x128x64, .f32⟩
  | 55 => ⟨S128x64, .f32⟩
  | 56 => ⟨S64x64, .f32⟩
  | 57 => ⟨S1x64, .f32⟩
  | 58 => ⟨S64, .f32⟩
  | 59 => ⟨S1x64, .f32⟩
  | 60 => ⟨S64x64, .f32⟩
  | 61 => ⟨S64x64, .f32⟩
  | 62 => ⟨S_, .f32⟩
  | 63 => ⟨S64x64, .f32⟩
  | 64 => ⟨S64x64, .f32⟩
  | 65 => ⟨S1x128x64, .f32⟩
  | 66 => ⟨S128x64, .f32⟩
  | 67 => ⟨S64x64, .f32⟩
  | 68 => ⟨S1x64, .f32⟩
  | 69 => ⟨S64, .f32⟩
  | 70 => ⟨S1x64, .f32⟩
  | 71 => ⟨S64x64, .f32⟩
  | 72 => ⟨S64x64, .f32⟩
  | 73 => ⟨S64x64, .f32⟩
  | 74 => ⟨S1x128x64, .f32⟩
  | 75 => ⟨S128x64, .f32⟩
  | 76 => ⟨S64x64, .f32⟩
  | 77 => ⟨S1x64, .f32⟩
  | 78 => ⟨S64, .f32⟩
  | 79 => ⟨S1x64, .f32⟩
  | 80 => ⟨S64x64, .f32⟩
  | 81 => ⟨S64x64, .f32⟩
  | 82 => ⟨S64x64, .f32⟩
  | 83 => ⟨S1x128x64, .f32⟩
  | 84 => ⟨S128x64, .f32⟩
  | 85 => ⟨S64x64, .f32⟩
  | 86 => ⟨S1x64, .f32⟩
  | 87 => ⟨S64, .f32⟩
  | 88 => ⟨S1x64, .f32⟩
  | 89 => ⟨S64x64, .f32⟩
  | 90 => ⟨S64x64, .f32⟩
  | 91 => ⟨S64x64, .f32⟩
  | 92 => ⟨S1x128x64, .f32⟩
  | 93 => ⟨S128x64, .f32⟩
  | 94 => ⟨S64x64, .f32⟩
  | 95 => ⟨S1x64, .f32⟩
  | 96 => ⟨S64, .f32⟩
  | 97 => ⟨S1x64, .f32⟩
  | 98 => ⟨S64x64, .f32⟩
  | 99 => ⟨S64x64, .f32⟩
  | 100 => ⟨S64x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev vmemTy0_0 (i : Nat) : BufTy := match i % 128 with
  | 0 => ⟨S5000x128, .f32⟩
  | 1 => ⟨S5000x128, .f32⟩
  | 2 => ⟨S5000x1, .i32⟩
  | 3 => ⟨S5000x1, .i32⟩
  | 4 => ⟨S1x64x128, .f32⟩
  | 5 => ⟨S1x64x128, .f32⟩
  | 6 => ⟨S5000x128, .f32⟩
  | 7 => ⟨S5000x128, .f32⟩
  | 8 => ⟨S5000x128, .f32⟩
  | 9 => ⟨S5000x128, .f32⟩
  | 10 => ⟨S1x128, .f32⟩
  | 11 => ⟨S128x128, .f32⟩
  | 12 => ⟨S1x128, .f32⟩
  | 13 => ⟨S5000x128, .f32⟩
  | 14 => ⟨S5000x128, .f32⟩
  | 15 => ⟨S1x1x128, .f32⟩
  | 16 => ⟨S1x1x128, .f32⟩
  | 17 => ⟨S1x1x128, .f32⟩
  | 18 => ⟨S1x1x128, .f32⟩
  | 19 => ⟨S5000x128, .f32⟩
  | 20 => ⟨S5000x128, .f32⟩
  | 21 => ⟨S1x128, .f32⟩
  | 22 => ⟨S1x128, .f32⟩
  | 23 => ⟨S1x128, .f32⟩
  | 24 => ⟨S1x128, .f32⟩
  | 25 => ⟨S128x128, .f32⟩
  | 26 => ⟨S1x128, .f32⟩
  | 27 => ⟨S5000x128, .f32⟩
  | 28 => ⟨S5000x128, .f32⟩
  | 29 => ⟨S1x1x128, .f32⟩
  | 30 => ⟨S1x1x128, .f32⟩
  | 31 => ⟨S1x1x128, .f32⟩
  | 32 => ⟨S1x1x128, .f32⟩
  | 33 => ⟨S5000x128, .f32⟩
  | 34 => ⟨S5000x128, .f32⟩
  | 35 => ⟨S1x128, .f32⟩
  | 36 => ⟨S1x128, .f32⟩
  | 37 => ⟨S1x128, .f32⟩
  | 38 => ⟨S1x128, .f32⟩
  | 39 => ⟨S1x1x128, .f32⟩
  | 40 => ⟨S1x1x128, .f32⟩
  | 41 => ⟨S1x1x128, .f32⟩
  | 42 => ⟨S1x1x128, .f32⟩
  | 43 => ⟨S5000x128, .f32⟩
  | 44 => ⟨S5000x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S5000x1, .i32⟩
  | 54 => ⟨S5000x1, .i32⟩
  | 55 => ⟨S5000x128, .f32⟩
  | 56 => ⟨S5000x128, .f32⟩
  | 57 => ⟨S1x64x128, .f32⟩
  | 58 => ⟨S1x64x128, .f32⟩
  | 59 => ⟨S5000x128, .f32⟩
  | 60 => ⟨S5000x128, .f32⟩
  | 61 => ⟨S5000x128, .f32⟩
  | 62 => ⟨S5000x128, .f32⟩
  | 63 => ⟨S1x128, .f32⟩
  | 64 => ⟨S128x128, .f32⟩
  | 65 => ⟨S1x128, .f32⟩
  | 66 => ⟨S5000x128, .f32⟩
  | 67 => ⟨S5000x128, .f32⟩
  | 68 => ⟨S1x1x128, .f32⟩
  | 69 => ⟨S1x1x128, .f32⟩
  | 70 => ⟨S1x1x128, .f32⟩
  | 71 => ⟨S1x1x128, .f32⟩
  | 72 => ⟨S5000x128, .f32⟩
  | 73 => ⟨S5000x128, .f32⟩
  | 74 => ⟨S1x128, .f32⟩
  | 75 => ⟨S1x128, .f32⟩
  | 76 => ⟨S1x128, .f32⟩
  | 77 => ⟨S1x128, .f32⟩
  | 78 => ⟨S128x128, .f32⟩
  | 79 => ⟨S1x128, .f32⟩
  | 80 => ⟨S5000x128, .f32⟩
  | 81 => ⟨S5000x128, .f32⟩
  | 82 => ⟨S1x1x128, .f32⟩
  | 83 => ⟨S1x1x128, .f32⟩
  | 84 => ⟨S1x1x128, .f32⟩
  | 85 => ⟨S1x1x128, .f32⟩
  | 86 => ⟨S5000x128, .f32⟩
  | 87 => ⟨S5000x128, .f32⟩
  | 88 => ⟨S1x128, .f32⟩
  | 89 => ⟨S1x128, .f32⟩
  | 90 => ⟨S1x128, .f32⟩
  | 91 => ⟨S1x128, .f32⟩
  | 92 => ⟨S1x1x128, .f32⟩
  | 93 => ⟨S1x1x128, .f32⟩
  | 94 => ⟨S1x1x128, .f32⟩
  | 95 => ⟨S1x1x128, .f32⟩
  | 96 => ⟨S5000x128, .f32⟩
  | 97 => ⟨S5000x128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S5000x1, .i32⟩
  | 107 => ⟨S5000x1, .i32⟩
  | 108 => ⟨S5000x128, .f32⟩
  | 109 => ⟨S5000x128, .f32⟩
  | 110 => ⟨S1x64x128, .f32⟩
  | 111 => ⟨S1x64x128, .f32⟩
  | 112 => ⟨S5000x128, .f32⟩
  | 113 => ⟨S5000x128, .f32⟩
  | 114 => ⟨S5000x128, .f32⟩
  | 115 => ⟨S5000x128, .f32⟩
  | 116 => ⟨S1x128, .f32⟩
  | 117 => ⟨S128x128, .f32⟩
  | 118 => ⟨S1x128, .f32⟩
  | 119 => ⟨S5000x128, .f32⟩
  | 120 => ⟨S5000x128, .f32⟩
  | 121 => ⟨S1x1x128, .f32⟩
  | 122 => ⟨S1x1x128, .f32⟩
  | 123 => ⟨S1x1x128, .f32⟩
  | 124 => ⟨S1x1x128, .f32⟩
  | 125 => ⟨S5000x128, .f32⟩
  | 126 => ⟨S5000x128, .f32⟩
  | 127 => ⟨S1x128, .f32⟩
  | _ => ⟨S100000x128, .f32⟩

abbrev vmemTy0_1 (i : Nat) : BufTy := match i % 128 with
  | 0 => ⟨S1x128, .f32⟩
  | 1 => ⟨S1x128, .f32⟩
  | 2 => ⟨S1x128, .f32⟩
  | 3 => ⟨S128x128, .f32⟩
  | 4 => ⟨S1x128, .f32⟩
  | 5 => ⟨S5000x128, .f32⟩
  | 6 => ⟨S5000x128, .f32⟩
  | 7 => ⟨S1x1x128, .f32⟩
  | 8 => ⟨S1x1x128, .f32⟩
  | 9 => ⟨S1x1x128, .f32⟩
  | 10 => ⟨S1x1x128, .f32⟩
  | 11 => ⟨S5000x128, .f32⟩
  | 12 => ⟨S5000x128, .f32⟩
  | 13 => ⟨S1x128, .f32⟩
  | 14 => ⟨S1x128, .f32⟩
  | 15 => ⟨S1x128, .f32⟩
  | 16 => ⟨S1x128, .f32⟩
  | 17 => ⟨S1x1x128, .f32⟩
  | 18 => ⟨S1x1x128, .f32⟩
  | 19 => ⟨S1x1x128, .f32⟩
  | 20 => ⟨S1x1x128, .f32⟩
  | 21 => ⟨S5000x128, .f32⟩
  | 22 => ⟨S5000x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S1x128, .f32⟩
  | 31 => ⟨S5000x1, .i32⟩
  | 32 => ⟨S5000x1, .i32⟩
  | 33 => ⟨S5000x128, .f32⟩
  | 34 => ⟨S5000x128, .f32⟩
  | 35 => ⟨S1x64x128, .f32⟩
  | 36 => ⟨S1x64x128, .f32⟩
  | 37 => ⟨S5000x128, .f32⟩
  | 38 => ⟨S5000x128, .f32⟩
  | 39 => ⟨S5000x128, .f32⟩
  | 40 => ⟨S5000x128, .f32⟩
  | 41 => ⟨S1x128, .f32⟩
  | 42 => ⟨S128x128, .f32⟩
  | 43 => ⟨S1x128, .f32⟩
  | 44 => ⟨S5000x128, .f32⟩
  | 45 => ⟨S5000x128, .f32⟩
  | 46 => ⟨S1x1x128, .f32⟩
  | 47 => ⟨S1x1x128, .f32⟩
  | 48 => ⟨S1x1x128, .f32⟩
  | 49 => ⟨S1x1x128, .f32⟩
  | 50 => ⟨S5000x128, .f32⟩
  | 51 => ⟨S5000x128, .f32⟩
  | 52 => ⟨S1x128, .f32⟩
  | 53 => ⟨S1x128, .f32⟩
  | 54 => ⟨S1x128, .f32⟩
  | 55 => ⟨S1x128, .f32⟩
  | 56 => ⟨S128x128, .f32⟩
  | 57 => ⟨S1x128, .f32⟩
  | 58 => ⟨S5000x128, .f32⟩
  | 59 => ⟨S5000x128, .f32⟩
  | 60 => ⟨S1x1x128, .f32⟩
  | 61 => ⟨S1x1x128, .f32⟩
  | 62 => ⟨S1x1x128, .f32⟩
  | 63 => ⟨S1x1x128, .f32⟩
  | 64 => ⟨S5000x128, .f32⟩
  | 65 => ⟨S5000x128, .f32⟩
  | 66 => ⟨S1x128, .f32⟩
  | 67 => ⟨S1x128, .f32⟩
  | 68 => ⟨S1x128, .f32⟩
  | 69 => ⟨S1x128, .f32⟩
  | 70 => ⟨S1x1x128, .f32⟩
  | 71 => ⟨S1x1x128, .f32⟩
  | 72 => ⟨S1x1x128, .f32⟩
  | 73 => ⟨S1x1x128, .f32⟩
  | 74 => ⟨S5000x128, .f32⟩
  | 75 => ⟨S5000x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S5000x1, .i32⟩
  | 85 => ⟨S5000x1, .i32⟩
  | 86 => ⟨S5000x128, .f32⟩
  | 87 => ⟨S5000x128, .f32⟩
  | 88 => ⟨S1x64x128, .f32⟩
  | 89 => ⟨S1x64x128, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 218 → Bool
  | ⟨i, _⟩ => dmaSemScopedAt i

abbrev sig : RefSig :=
  ofTc nBuf bufTy 0 218 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev main_cst_3 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_cst_5 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_7 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45_0 : Ref sig .tc := ⟨.hbm, 75, rfl⟩
abbrev main_v45_1 : Ref sig .tc := ⟨.hbm, 76, rfl⟩
abbrev main_v45_2 : Ref sig .tc := ⟨.hbm, 77, rfl⟩
abbrev main_cst_8 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_cst_11 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_12 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62_0 : Ref sig .tc := ⟨.hbm, 99, rfl⟩
abbrev main_v62_1 : Ref sig .tc := ⟨.hbm, 100, rfl⟩
abbrev main_cst_13 : Ref sig .tc := ⟨.hbm, 101, rfl⟩
abbrev main_v63 : Ref sig .tc := ⟨.hbm, 102, rfl⟩
abbrev main_cst_14 : Ref sig .tc := ⟨.hbm, 103, rfl⟩
abbrev main_v64 : Ref sig .tc := ⟨.hbm, 104, rfl⟩
abbrev main_cst_15 : Ref sig .tc := ⟨.hbm, 105, rfl⟩
abbrev main_v65 : Ref sig .tc := ⟨.hbm, 106, rfl⟩
abbrev main_v66 : Ref sig .tc := ⟨.hbm, 107, rfl⟩
abbrev main_cst_16 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_17 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79_0 : Ref sig .tc := ⟨.hbm, 122, rfl⟩
abbrev main_v79_1 : Ref sig .tc := ⟨.hbm, 123, rfl⟩
abbrev main_cst_18 : Ref sig .tc := ⟨.hbm, 124, rfl⟩
abbrev main_v80 : Ref sig .tc := ⟨.hbm, 125, rfl⟩
abbrev main_c_19 : Ref sig .tc := ⟨.hbm, 126, rfl⟩
abbrev main_v81 : Ref sig .tc := ⟨.hbm, 127, rfl⟩
abbrev main_v82 : Ref sig .tc := ⟨.hbm, 128, rfl⟩
abbrev main_c_20 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_21 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_22 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101_0 : Ref sig .tc := ⟨.hbm, 150, rfl⟩
abbrev main_v101_1 : Ref sig .tc := ⟨.hbm, 151, rfl⟩
abbrev main_v101_2 : Ref sig .tc := ⟨.hbm, 152, rfl⟩
abbrev main_cst_23 : Ref sig .tc := ⟨.hbm, 153, rfl⟩
abbrev main_v102 : Ref sig .tc := ⟨.hbm, 154, rfl⟩
abbrev main_cst_24 : Ref sig .tc := ⟨.hbm, 155, rfl⟩
abbrev main_v103 : Ref sig .tc := ⟨.hbm, 156, rfl⟩
abbrev main_cst_25 : Ref sig .tc := ⟨.hbm, 157, rfl⟩
abbrev main_v104 : Ref sig .tc := ⟨.hbm, 158, rfl⟩
abbrev main_v105 : Ref sig .tc := ⟨.hbm, 159, rfl⟩
abbrev main_cst_26 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_27 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123_0 : Ref sig .tc := ⟨.hbm, 179, rfl⟩
abbrev main_v123_1 : Ref sig .tc := ⟨.hbm, 180, rfl⟩
abbrev main_v123_2 : Ref sig .tc := ⟨.hbm, 181, rfl⟩
abbrev main_cst_28 : Ref sig .tc := ⟨.hbm, 182, rfl⟩
abbrev main_v124 : Ref sig .tc := ⟨.hbm, 183, rfl⟩
abbrev main_cst_29 : Ref sig .tc := ⟨.hbm, 184, rfl⟩
abbrev main_v125 : Ref sig .tc := ⟨.hbm, 185, rfl⟩
abbrev main_cst_30 : Ref sig .tc := ⟨.hbm, 186, rfl⟩
abbrev main_v126 : Ref sig .tc := ⟨.hbm, 187, rfl⟩
abbrev main_v127 : Ref sig .tc := ⟨.hbm, 188, rfl⟩
abbrev main_cst_31 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_32 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140_0 : Ref sig .tc := ⟨.hbm, 203, rfl⟩
abbrev main_v140_1 : Ref sig .tc := ⟨.hbm, 204, rfl⟩
abbrev main_cst_33 : Ref sig .tc := ⟨.hbm, 205, rfl⟩
abbrev main_v141 : Ref sig .tc := ⟨.hbm, 206, rfl⟩
abbrev main_cst_34 : Ref sig .tc := ⟨.hbm, 207, rfl⟩
abbrev main_v142 : Ref sig .tc := ⟨.hbm, 208, rfl⟩
abbrev main_cst_35 : Ref sig .tc := ⟨.hbm, 209, rfl⟩
abbrev main_v143 : Ref sig .tc := ⟨.hbm, 210, rfl⟩
abbrev main_v144 : Ref sig .tc := ⟨.hbm, 211, rfl⟩
abbrev main_cst_36 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_37 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157_0 : Ref sig .tc := ⟨.hbm, 226, rfl⟩
abbrev main_v157_1 : Ref sig .tc := ⟨.hbm, 227, rfl⟩
abbrev main_cst_38 : Ref sig .tc := ⟨.hbm, 228, rfl⟩
abbrev main_v158 : Ref sig .tc := ⟨.hbm, 229, rfl⟩
abbrev main_c_39 : Ref sig .tc := ⟨.hbm, 230, rfl⟩
abbrev main_v159 : Ref sig .tc := ⟨.hbm, 231, rfl⟩
abbrev main_v160 : Ref sig .tc := ⟨.hbm, 232, rfl⟩
abbrev main_c_40 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_41 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_42 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179_0 : Ref sig .tc := ⟨.hbm, 254, rfl⟩
abbrev main_v179_1 : Ref sig .tc := ⟨.hbm, 255, rfl⟩
abbrev main_v179_2 : Ref sig .tc := ⟨.hbm, 256, rfl⟩
abbrev main_cst_43 : Ref sig .tc := ⟨.hbm, 257, rfl⟩
abbrev main_v180 : Ref sig .tc := ⟨.hbm, 258, rfl⟩
abbrev main_cst_44 : Ref sig .tc := ⟨.hbm, 259, rfl⟩
abbrev main_v181 : Ref sig .tc := ⟨.hbm, 260, rfl⟩
abbrev main_cst_45 : Ref sig .tc := ⟨.hbm, 261, rfl⟩
abbrev main_v182 : Ref sig .tc := ⟨.hbm, 262, rfl⟩
abbrev main_v183 : Ref sig .tc := ⟨.hbm, 263, rfl⟩
abbrev main_cst_46 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_cst_47 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201_0 : Ref sig .tc := ⟨.hbm, 283, rfl⟩
abbrev main_v201_1 : Ref sig .tc := ⟨.hbm, 284, rfl⟩
abbrev main_v201_2 : Ref sig .tc := ⟨.hbm, 285, rfl⟩
abbrev main_cst_48 : Ref sig .tc := ⟨.hbm, 286, rfl⟩
abbrev main_v202 : Ref sig .tc := ⟨.hbm, 287, rfl⟩
abbrev main_cst_49 : Ref sig .tc := ⟨.hbm, 288, rfl⟩
abbrev main_v203 : Ref sig .tc := ⟨.hbm, 289, rfl⟩
abbrev main_cst_50 : Ref sig .tc := ⟨.hbm, 290, rfl⟩
abbrev main_v204 : Ref sig .tc := ⟨.hbm, 291, rfl⟩
abbrev main_v205 : Ref sig .tc := ⟨.hbm, 292, rfl⟩
abbrev main_cst_51 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_cst_52 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218_0 : Ref sig .tc := ⟨.hbm, 307, rfl⟩
abbrev main_v218_1 : Ref sig .tc := ⟨.hbm, 308, rfl⟩
abbrev main_cst_53 : Ref sig .tc := ⟨.hbm, 309, rfl⟩
abbrev main_v219 : Ref sig .tc := ⟨.hbm, 310, rfl⟩
abbrev main_cst_54 : Ref sig .tc := ⟨.hbm, 311, rfl⟩
abbrev main_v220 : Ref sig .tc := ⟨.hbm, 312, rfl⟩
abbrev main_cst_55 : Ref sig .tc := ⟨.hbm, 313, rfl⟩
abbrev main_v221 : Ref sig .tc := ⟨.hbm, 314, rfl⟩
abbrev main_v222 : Ref sig .tc := ⟨.hbm, 315, rfl⟩
abbrev main_cst_56 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_cst_57 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235_0 : Ref sig .tc := ⟨.hbm, 330, rfl⟩
abbrev main_v235_1 : Ref sig .tc := ⟨.hbm, 331, rfl⟩
abbrev main_cst_58 : Ref sig .tc := ⟨.hbm, 332, rfl⟩
abbrev main_v236 : Ref sig .tc := ⟨.hbm, 333, rfl⟩
abbrev main_c_59 : Ref sig .tc := ⟨.hbm, 334, rfl⟩
abbrev main_v237 : Ref sig .tc := ⟨.hbm, 335, rfl⟩
abbrev main_v238 : Ref sig .tc := ⟨.hbm, 336, rfl⟩
abbrev main_c_60 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_cst_61 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_cst_62 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_v257_0 : Ref sig .tc := ⟨.hbm, 358, rfl⟩
abbrev main_v257_1 : Ref sig .tc := ⟨.hbm, 359, rfl⟩
abbrev main_v257_2 : Ref sig .tc := ⟨.hbm, 360, rfl⟩
abbrev main_cst_63 : Ref sig .tc := ⟨.hbm, 361, rfl⟩
abbrev main_v258 : Ref sig .tc := ⟨.hbm, 362, rfl⟩
abbrev main_cst_64 : Ref sig .tc := ⟨.hbm, 363, rfl⟩
abbrev main_v259 : Ref sig .tc := ⟨.hbm, 364, rfl⟩
abbrev main_cst_65 : Ref sig .tc := ⟨.hbm, 365, rfl⟩
abbrev main_v260 : Ref sig .tc := ⟨.hbm, 366, rfl⟩
abbrev main_v261 : Ref sig .tc := ⟨.hbm, 367, rfl⟩
abbrev main_cst_66 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_cst_67 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_v274 : Ref sig .tc := ⟨.hbm, 382, rfl⟩
abbrev main_v275 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_v279_0 : Ref sig .tc := ⟨.hbm, 387, rfl⟩
abbrev main_v279_1 : Ref sig .tc := ⟨.hbm, 388, rfl⟩
abbrev main_v279_2 : Ref sig .tc := ⟨.hbm, 389, rfl⟩
abbrev main_cst_68 : Ref sig .tc := ⟨.hbm, 390, rfl⟩
abbrev main_v280 : Ref sig .tc := ⟨.hbm, 391, rfl⟩
abbrev main_cst_69 : Ref sig .tc := ⟨.hbm, 392, rfl⟩
abbrev main_v281 : Ref sig .tc := ⟨.hbm, 393, rfl⟩
abbrev main_cst_70 : Ref sig .tc := ⟨.hbm, 394, rfl⟩
abbrev main_v282 : Ref sig .tc := ⟨.hbm, 395, rfl⟩
abbrev main_v283 : Ref sig .tc := ⟨.hbm, 396, rfl⟩
abbrev main_cst_71 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_cst_72 : Ref sig .tc := ⟨.hbm, 402, rfl⟩
abbrev main_v288 : Ref sig .tc := ⟨.hbm, 403, rfl⟩
abbrev main_v289 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296_0 : Ref sig .tc := ⟨.hbm, 411, rfl⟩
abbrev main_v296_1 : Ref sig .tc := ⟨.hbm, 412, rfl⟩
abbrev main_cst_73 : Ref sig .tc := ⟨.hbm, 413, rfl⟩
abbrev main_v297 : Ref sig .tc := ⟨.hbm, 414, rfl⟩
abbrev main_cst_74 : Ref sig .tc := ⟨.hbm, 415, rfl⟩
abbrev main_v298 : Ref sig .tc := ⟨.hbm, 416, rfl⟩
abbrev main_cst_75 : Ref sig .tc := ⟨.hbm, 417, rfl⟩
abbrev main_v299 : Ref sig .tc := ⟨.hbm, 418, rfl⟩
abbrev main_v300 : Ref sig .tc := ⟨.hbm, 419, rfl⟩
abbrev main_cst_76 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_cst_77 : Ref sig .tc := ⟨.hbm, 425, rfl⟩
abbrev main_v305 : Ref sig .tc := ⟨.hbm, 426, rfl⟩
abbrev main_v306 : Ref sig .tc := ⟨.hbm, 427, rfl⟩
abbrev main_v307 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_v313_0 : Ref sig .tc := ⟨.hbm, 434, rfl⟩
abbrev main_v313_1 : Ref sig .tc := ⟨.hbm, 435, rfl⟩
abbrev main_cst_78 : Ref sig .tc := ⟨.hbm, 436, rfl⟩
abbrev main_v314 : Ref sig .tc := ⟨.hbm, 437, rfl⟩
abbrev main_v315 : Ref sig .tc := ⟨.hbm, 438, rfl⟩
abbrev main_v316 : Ref sig .tc := ⟨.hbm, 439, rfl⟩
abbrev main_v317 : Ref sig .tc := ⟨.hbm, 440, rfl⟩
abbrev main_v318 : Ref sig .tc := ⟨.hbm, 441, rfl⟩
abbrev main_v319 : Ref sig .tc := ⟨.hbm, 442, rfl⟩
abbrev main_v320 : Ref sig .tc := ⟨.hbm, 443, rfl⟩
abbrev main_v321 : Ref sig .tc := ⟨.hbm, 444, rfl⟩
abbrev main_v322 : Ref sig .tc := ⟨.hbm, 445, rfl⟩
abbrev main_cst_79 : Ref sig .tc := ⟨.hbm, 446, rfl⟩
abbrev main_v323 : Ref sig .tc := ⟨.hbm, 447, rfl⟩
abbrev main_v324 : Ref sig .tc := ⟨.hbm, 448, rfl⟩
abbrev main_v325 : Ref sig .tc := ⟨.hbm, 449, rfl⟩
abbrev main_v326 : Ref sig .tc := ⟨.hbm, 450, rfl⟩
abbrev main_v327 : Ref sig .tc := ⟨.hbm, 451, rfl⟩
abbrev main_v328 : Ref sig .tc := ⟨.hbm, 452, rfl⟩
abbrev main_v329 : Ref sig .tc := ⟨.hbm, 453, rfl⟩
abbrev main_v330 : Ref sig .tc := ⟨.hbm, 454, rfl⟩
abbrev main_v331 : Ref sig .tc := ⟨.hbm, 455, rfl⟩
abbrev main_v332 : Ref sig .tc := ⟨.hbm, 456, rfl⟩
abbrev main_v333 : Ref sig .tc := ⟨.hbm, 457, rfl⟩
abbrev main_v334 : Ref sig .tc := ⟨.hbm, 458, rfl⟩
abbrev main_v335 : Ref sig .tc := ⟨.hbm, 459, rfl⟩
abbrev main_v336 : Ref sig .tc := ⟨.hbm, 460, rfl⟩
abbrev main_v337 : Ref sig .tc := ⟨.hbm, 461, rfl⟩
abbrev main_v338 : Ref sig .tc := ⟨.hbm, 462, rfl⟩
abbrev main_v339 : Ref sig .tc := ⟨.hbm, 463, rfl⟩
abbrev main_v340 : Ref sig .tc := ⟨.hbm, 464, rfl⟩
abbrev main_v341 : Ref sig .tc := ⟨.hbm, 465, rfl⟩
abbrev main_v342 : Ref sig .tc := ⟨.hbm, 466, rfl⟩
abbrev main_v343 : Ref sig .tc := ⟨.hbm, 467, rfl⟩
abbrev main_v344 : Ref sig .tc := ⟨.hbm, 468, rfl⟩
abbrev main_v345 : Ref sig .tc := ⟨.hbm, 469, rfl⟩
abbrev main_v346 : Ref sig .tc := ⟨.hbm, 470, rfl⟩
abbrev main_v347 : Ref sig .tc := ⟨.hbm, 471, rfl⟩
abbrev main_v348 : Ref sig .tc := ⟨.hbm, 472, rfl⟩
abbrev main_v349 : Ref sig .tc := ⟨.hbm, 473, rfl⟩
abbrev main_v350 : Ref sig .tc := ⟨.hbm, 474, rfl⟩
abbrev main_v351 : Ref sig .tc := ⟨.hbm, 475, rfl⟩
abbrev main_v352 : Ref sig .tc := ⟨.hbm, 476, rfl⟩
abbrev main_v353 : Ref sig .tc := ⟨.hbm, 477, rfl⟩
abbrev main_v354 : Ref sig .tc := ⟨.hbm, 478, rfl⟩
abbrev main_v355 : Ref sig .tc := ⟨.hbm, 479, rfl⟩
abbrev main_v356 : Ref sig .tc := ⟨.hbm, 480, rfl⟩
abbrev main_v357 : Ref sig .tc := ⟨.hbm, 481, rfl⟩
abbrev main_v358 : Ref sig .tc := ⟨.hbm, 482, rfl⟩
abbrev main_v359 : Ref sig .tc := ⟨.hbm, 483, rfl⟩
abbrev main_v360 : Ref sig .tc := ⟨.hbm, 484, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg6_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg9_0 : Ref sig .tc := ⟨.vmem, 53, rfl⟩
abbrev cc4_stg9_1 : Ref sig .tc := ⟨.vmem, 54, rfl⟩
abbrev cc4_stg10_0 : Ref sig .tc := ⟨.vmem, 55, rfl⟩
abbrev cc4_stg10_1 : Ref sig .tc := ⟨.vmem, 56, rfl⟩
abbrev cc4_stg11_0 : Ref sig .tc := ⟨.vmem, 57, rfl⟩
abbrev cc4_stg11_1 : Ref sig .tc := ⟨.vmem, 58, rfl⟩
abbrev cc5_stg0_0 : Ref sig .tc := ⟨.vmem, 59, rfl⟩
abbrev cc5_stg0_1 : Ref sig .tc := ⟨.vmem, 60, rfl⟩
abbrev cc5_stg1_0 : Ref sig .tc := ⟨.vmem, 61, rfl⟩
abbrev cc5_stg1_1 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc5_stg7_0 : Ref sig .tc := ⟨.vmem, 70, rfl⟩
abbrev cc5_stg7_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg6_0 : Ref sig .tc := ⟨.vmem, 79, rfl⟩
abbrev cc6_stg7_0 : Ref sig .tc := ⟨.vmem, 80, rfl⟩
abbrev cc6_stg7_1 : Ref sig .tc := ⟨.vmem, 81, rfl⟩
abbrev cc6_stg8_0 : Ref sig .tc := ⟨.vmem, 82, rfl⟩
abbrev cc6_stg8_1 : Ref sig .tc := ⟨.vmem, 83, rfl⟩
abbrev cc6_stg9_0 : Ref sig .tc := ⟨.vmem, 84, rfl⟩
abbrev cc6_stg9_1 : Ref sig .tc := ⟨.vmem, 85, rfl⟩
abbrev cc7_stg0_0 : Ref sig .tc := ⟨.vmem, 86, rfl⟩
abbrev cc7_stg0_1 : Ref sig .tc := ⟨.vmem, 87, rfl⟩
abbrev cc7_stg1_0 : Ref sig .tc := ⟨.vmem, 88, rfl⟩
abbrev cc7_stg2_0 : Ref sig .tc := ⟨.vmem, 89, rfl⟩
abbrev cc7_stg3_0 : Ref sig .tc := ⟨.vmem, 90, rfl⟩
abbrev cc7_stg4_0 : Ref sig .tc := ⟨.vmem, 91, rfl⟩
abbrev cc7_stg5_0 : Ref sig .tc := ⟨.vmem, 92, rfl⟩
abbrev cc7_stg5_1 : Ref sig .tc := ⟨.vmem, 93, rfl⟩
abbrev cc7_stg6_0 : Ref sig .tc := ⟨.vmem, 94, rfl⟩
abbrev cc7_stg6_1 : Ref sig .tc := ⟨.vmem, 95, rfl⟩
abbrev cc8_stg0_0 : Ref sig .tc := ⟨.vmem, 96, rfl⟩
abbrev cc8_stg0_1 : Ref sig .tc := ⟨.vmem, 97, rfl⟩
abbrev cc8_stg1_0 : Ref sig .tc := ⟨.vmem, 98, rfl⟩
abbrev cc8_stg2_0 : Ref sig .tc := ⟨.vmem, 99, rfl⟩
abbrev cc8_stg3_0 : Ref sig .tc := ⟨.vmem, 100, rfl⟩
abbrev cc8_stg4_0 : Ref sig .tc := ⟨.vmem, 101, rfl⟩
abbrev cc8_stg5_0 : Ref sig .tc := ⟨.vmem, 102, rfl⟩
abbrev cc8_stg6_0 : Ref sig .tc := ⟨.vmem, 103, rfl⟩
abbrev cc8_stg7_0 : Ref sig .tc := ⟨.vmem, 104, rfl⟩
abbrev cc8_stg8_0 : Ref sig .tc := ⟨.vmem, 105, rfl⟩
abbrev cc8_stg9_0 : Ref sig .tc := ⟨.vmem, 106, rfl⟩
abbrev cc8_stg9_1 : Ref sig .tc := ⟨.vmem, 107, rfl⟩
abbrev cc8_stg10_0 : Ref sig .tc := ⟨.vmem, 108, rfl⟩
abbrev cc8_stg10_1 : Ref sig .tc := ⟨.vmem, 109, rfl⟩
abbrev cc8_stg11_0 : Ref sig .tc := ⟨.vmem, 110, rfl⟩
abbrev cc8_stg11_1 : Ref sig .tc := ⟨.vmem, 111, rfl⟩
abbrev cc9_stg0_0 : Ref sig .tc := ⟨.vmem, 112, rfl⟩
abbrev cc9_stg0_1 : Ref sig .tc := ⟨.vmem, 113, rfl⟩
abbrev cc9_stg1_0 : Ref sig .tc := ⟨.vmem, 114, rfl⟩
abbrev cc9_stg1_1 : Ref sig .tc := ⟨.vmem, 115, rfl⟩
abbrev cc9_stg2_0 : Ref sig .tc := ⟨.vmem, 116, rfl⟩
abbrev cc9_stg3_0 : Ref sig .tc := ⟨.vmem, 117, rfl⟩
abbrev cc9_stg4_0 : Ref sig .tc := ⟨.vmem, 118, rfl⟩
abbrev cc9_stg5_0 : Ref sig .tc := ⟨.vmem, 119, rfl⟩
abbrev cc9_stg5_1 : Ref sig .tc := ⟨.vmem, 120, rfl⟩
abbrev cc9_stg6_0 : Ref sig .tc := ⟨.vmem, 121, rfl⟩
abbrev cc9_stg6_1 : Ref sig .tc := ⟨.vmem, 122, rfl⟩
abbrev cc9_stg7_0 : Ref sig .tc := ⟨.vmem, 123, rfl⟩
abbrev cc9_stg7_1 : Ref sig .tc := ⟨.vmem, 124, rfl⟩
abbrev cc10_stg0_0 : Ref sig .tc := ⟨.vmem, 125, rfl⟩
abbrev cc10_stg0_1 : Ref sig .tc := ⟨.vmem, 126, rfl⟩
abbrev cc10_stg1_0 : Ref sig .tc := ⟨.vmem, 127, rfl⟩
abbrev cc10_stg2_0 : Ref sig .tc := ⟨.vmem, 128, rfl⟩
abbrev cc10_stg3_0 : Ref sig .tc := ⟨.vmem, 129, rfl⟩
abbrev cc10_stg4_0 : Ref sig .tc := ⟨.vmem, 130, rfl⟩
abbrev cc10_stg5_0 : Ref sig .tc := ⟨.vmem, 131, rfl⟩
abbrev cc10_stg6_0 : Ref sig .tc := ⟨.vmem, 132, rfl⟩
abbrev cc10_stg7_0 : Ref sig .tc := ⟨.vmem, 133, rfl⟩
abbrev cc10_stg7_1 : Ref sig .tc := ⟨.vmem, 134, rfl⟩
abbrev cc10_stg8_0 : Ref sig .tc := ⟨.vmem, 135, rfl⟩
abbrev cc10_stg8_1 : Ref sig .tc := ⟨.vmem, 136, rfl⟩
abbrev cc10_stg9_0 : Ref sig .tc := ⟨.vmem, 137, rfl⟩
abbrev cc10_stg9_1 : Ref sig .tc := ⟨.vmem, 138, rfl⟩
abbrev cc11_stg0_0 : Ref sig .tc := ⟨.vmem, 139, rfl⟩
abbrev cc11_stg0_1 : Ref sig .tc := ⟨.vmem, 140, rfl⟩
abbrev cc11_stg1_0 : Ref sig .tc := ⟨.vmem, 141, rfl⟩
abbrev cc11_stg2_0 : Ref sig .tc := ⟨.vmem, 142, rfl⟩
abbrev cc11_stg3_0 : Ref sig .tc := ⟨.vmem, 143, rfl⟩
abbrev cc11_stg4_0 : Ref sig .tc := ⟨.vmem, 144, rfl⟩
abbrev cc11_stg5_0 : Ref sig .tc := ⟨.vmem, 145, rfl⟩
abbrev cc11_stg5_1 : Ref sig .tc := ⟨.vmem, 146, rfl⟩
abbrev cc11_stg6_0 : Ref sig .tc := ⟨.vmem, 147, rfl⟩
abbrev cc11_stg6_1 : Ref sig .tc := ⟨.vmem, 148, rfl⟩
abbrev cc12_stg0_0 : Ref sig .tc := ⟨.vmem, 149, rfl⟩
abbrev cc12_stg0_1 : Ref sig .tc := ⟨.vmem, 150, rfl⟩
abbrev cc12_stg1_0 : Ref sig .tc := ⟨.vmem, 151, rfl⟩
abbrev cc12_stg2_0 : Ref sig .tc := ⟨.vmem, 152, rfl⟩
abbrev cc12_stg3_0 : Ref sig .tc := ⟨.vmem, 153, rfl⟩
abbrev cc12_stg4_0 : Ref sig .tc := ⟨.vmem, 154, rfl⟩
abbrev cc12_stg5_0 : Ref sig .tc := ⟨.vmem, 155, rfl⟩
abbrev cc12_stg6_0 : Ref sig .tc := ⟨.vmem, 156, rfl⟩
abbrev cc12_stg7_0 : Ref sig .tc := ⟨.vmem, 157, rfl⟩
abbrev cc12_stg8_0 : Ref sig .tc := ⟨.vmem, 158, rfl⟩
abbrev cc12_stg9_0 : Ref sig .tc := ⟨.vmem, 159, rfl⟩
abbrev cc12_stg9_1 : Ref sig .tc := ⟨.vmem, 160, rfl⟩
abbrev cc12_stg10_0 : Ref sig .tc := ⟨.vmem, 161, rfl⟩
abbrev cc12_stg10_1 : Ref sig .tc := ⟨.vmem, 162, rfl⟩
abbrev cc12_stg11_0 : Ref sig .tc := ⟨.vmem, 163, rfl⟩
abbrev cc12_stg11_1 : Ref sig .tc := ⟨.vmem, 164, rfl⟩
abbrev cc13_stg0_0 : Ref sig .tc := ⟨.vmem, 165, rfl⟩
abbrev cc13_stg0_1 : Ref sig .tc := ⟨.vmem, 166, rfl⟩
abbrev cc13_stg1_0 : Ref sig .tc := ⟨.vmem, 167, rfl⟩
abbrev cc13_stg1_1 : Ref sig .tc := ⟨.vmem, 168, rfl⟩
abbrev cc13_stg2_0 : Ref sig .tc := ⟨.vmem, 169, rfl⟩
abbrev cc13_stg3_0 : Ref sig .tc := ⟨.vmem, 170, rfl⟩
abbrev cc13_stg4_0 : Ref sig .tc := ⟨.vmem, 171, rfl⟩
abbrev cc13_stg5_0 : Ref sig .tc := ⟨.vmem, 172, rfl⟩
abbrev cc13_stg5_1 : Ref sig .tc := ⟨.vmem, 173, rfl⟩
abbrev cc13_stg6_0 : Ref sig .tc := ⟨.vmem, 174, rfl⟩
abbrev cc13_stg6_1 : Ref sig .tc := ⟨.vmem, 175, rfl⟩
abbrev cc13_stg7_0 : Ref sig .tc := ⟨.vmem, 176, rfl⟩
abbrev cc13_stg7_1 : Ref sig .tc := ⟨.vmem, 177, rfl⟩
abbrev cc14_stg0_0 : Ref sig .tc := ⟨.vmem, 178, rfl⟩
abbrev cc14_stg0_1 : Ref sig .tc := ⟨.vmem, 179, rfl⟩
abbrev cc14_stg1_0 : Ref sig .tc := ⟨.vmem, 180, rfl⟩
abbrev cc14_stg2_0 : Ref sig .tc := ⟨.vmem, 181, rfl⟩
abbrev cc14_stg3_0 : Ref sig .tc := ⟨.vmem, 182, rfl⟩
abbrev cc14_stg4_0 : Ref sig .tc := ⟨.vmem, 183, rfl⟩
abbrev cc14_stg5_0 : Ref sig .tc := ⟨.vmem, 184, rfl⟩
abbrev cc14_stg6_0 : Ref sig .tc := ⟨.vmem, 185, rfl⟩
abbrev cc14_stg7_0 : Ref sig .tc := ⟨.vmem, 186, rfl⟩
abbrev cc14_stg7_1 : Ref sig .tc := ⟨.vmem, 187, rfl⟩
abbrev cc14_stg8_0 : Ref sig .tc := ⟨.vmem, 188, rfl⟩
abbrev cc14_stg8_1 : Ref sig .tc := ⟨.vmem, 189, rfl⟩
abbrev cc14_stg9_0 : Ref sig .tc := ⟨.vmem, 190, rfl⟩
abbrev cc14_stg9_1 : Ref sig .tc := ⟨.vmem, 191, rfl⟩
abbrev cc15_stg0_0 : Ref sig .tc := ⟨.vmem, 192, rfl⟩
abbrev cc15_stg0_1 : Ref sig .tc := ⟨.vmem, 193, rfl⟩
abbrev cc15_stg1_0 : Ref sig .tc := ⟨.vmem, 194, rfl⟩
abbrev cc15_stg2_0 : Ref sig .tc := ⟨.vmem, 195, rfl⟩
abbrev cc15_stg3_0 : Ref sig .tc := ⟨.vmem, 196, rfl⟩
abbrev cc15_stg4_0 : Ref sig .tc := ⟨.vmem, 197, rfl⟩
abbrev cc15_stg5_0 : Ref sig .tc := ⟨.vmem, 198, rfl⟩
abbrev cc15_stg5_1 : Ref sig .tc := ⟨.vmem, 199, rfl⟩
abbrev cc15_stg6_0 : Ref sig .tc := ⟨.vmem, 200, rfl⟩
abbrev cc15_stg6_1 : Ref sig .tc := ⟨.vmem, 201, rfl⟩
abbrev cc16_stg0_0 : Ref sig .tc := ⟨.vmem, 202, rfl⟩
abbrev cc16_stg0_1 : Ref sig .tc := ⟨.vmem, 203, rfl⟩
abbrev cc16_stg1_0 : Ref sig .tc := ⟨.vmem, 204, rfl⟩
abbrev cc16_stg2_0 : Ref sig .tc := ⟨.vmem, 205, rfl⟩
abbrev cc16_stg3_0 : Ref sig .tc := ⟨.vmem, 206, rfl⟩
abbrev cc16_stg4_0 : Ref sig .tc := ⟨.vmem, 207, rfl⟩
abbrev cc16_stg5_0 : Ref sig .tc := ⟨.vmem, 208, rfl⟩
abbrev cc16_stg6_0 : Ref sig .tc := ⟨.vmem, 209, rfl⟩
abbrev cc16_stg7_0 : Ref sig .tc := ⟨.vmem, 210, rfl⟩
abbrev cc16_stg8_0 : Ref sig .tc := ⟨.vmem, 211, rfl⟩
abbrev cc16_stg9_0 : Ref sig .tc := ⟨.vmem, 212, rfl⟩
abbrev cc16_stg9_1 : Ref sig .tc := ⟨.vmem, 213, rfl⟩
abbrev cc16_stg10_0 : Ref sig .tc := ⟨.vmem, 214, rfl⟩
abbrev cc16_stg10_1 : Ref sig .tc := ⟨.vmem, 215, rfl⟩
abbrev cc16_stg11_0 : Ref sig .tc := ⟨.vmem, 216, rfl⟩
abbrev cc16_stg11_1 : Ref sig .tc := ⟨.vmem, 217, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc3_sem6_1 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem9_1 : DmaSem sig := 54
abbrev cc4_sem10_0 : DmaSem sig := 55
abbrev cc4_sem10_1 : DmaSem sig := 56
abbrev cc4_sem11_0 : DmaSem sig := 57
abbrev cc4_sem11_1 : DmaSem sig := 58
abbrev cc5_sem0_0 : DmaSem sig := 59
abbrev cc5_sem0_1 : DmaSem sig := 60
abbrev cc5_sem1_0 : DmaSem sig := 61
abbrev cc5_sem1_1 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem5_1 : DmaSem sig := 67
abbrev cc5_sem6_0 : DmaSem sig := 68
abbrev cc5_sem6_1 : DmaSem sig := 69
abbrev cc5_sem7_0 : DmaSem sig := 70
abbrev cc5_sem7_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem6_0 : DmaSem sig := 79
abbrev cc6_sem7_0 : DmaSem sig := 80
abbrev cc6_sem7_1 : DmaSem sig := 81
abbrev cc6_sem8_0 : DmaSem sig := 82
abbrev cc6_sem8_1 : DmaSem sig := 83
abbrev cc6_sem9_0 : DmaSem sig := 84
abbrev cc6_sem9_1 : DmaSem sig := 85
abbrev cc7_sem0_0 : DmaSem sig := 86
abbrev cc7_sem0_1 : DmaSem sig := 87
abbrev cc7_sem1_0 : DmaSem sig := 88
abbrev cc7_sem2_0 : DmaSem sig := 89
abbrev cc7_sem3_0 : DmaSem sig := 90
abbrev cc7_sem4_0 : DmaSem sig := 91
abbrev cc7_sem5_0 : DmaSem sig := 92
abbrev cc7_sem5_1 : DmaSem sig := 93
abbrev cc7_sem6_0 : DmaSem sig := 94
abbrev cc7_sem6_1 : DmaSem sig := 95
abbrev cc8_sem0_0 : DmaSem sig := 96
abbrev cc8_sem0_1 : DmaSem sig := 97
abbrev cc8_sem1_0 : DmaSem sig := 98
abbrev cc8_sem2_0 : DmaSem sig := 99
abbrev cc8_sem3_0 : DmaSem sig := 100
abbrev cc8_sem4_0 : DmaSem sig := 101
abbrev cc8_sem5_0 : DmaSem sig := 102
abbrev cc8_sem6_0 : DmaSem sig := 103
abbrev cc8_sem7_0 : DmaSem sig := 104
abbrev cc8_sem8_0 : DmaSem sig := 105
abbrev cc8_sem9_0 : DmaSem sig := 106
abbrev cc8_sem9_1 : DmaSem sig := 107
abbrev cc8_sem10_0 : DmaSem sig := 108
abbrev cc8_sem10_1 : DmaSem sig := 109
abbrev cc8_sem11_0 : DmaSem sig := 110
abbrev cc8_sem11_1 : DmaSem sig := 111
abbrev cc9_sem0_0 : DmaSem sig := 112
abbrev cc9_sem0_1 : DmaSem sig := 113
abbrev cc9_sem1_0 : DmaSem sig := 114
abbrev cc9_sem1_1 : DmaSem sig := 115
abbrev cc9_sem2_0 : DmaSem sig := 116
abbrev cc9_sem3_0 : DmaSem sig := 117
abbrev cc9_sem4_0 : DmaSem sig := 118
abbrev cc9_sem5_0 : DmaSem sig := 119
abbrev cc9_sem5_1 : DmaSem sig := 120
abbrev cc9_sem6_0 : DmaSem sig := 121
abbrev cc9_sem6_1 : DmaSem sig := 122
abbrev cc9_sem7_0 : DmaSem sig := 123
abbrev cc9_sem7_1 : DmaSem sig := 124
abbrev cc10_sem0_0 : DmaSem sig := 125
abbrev cc10_sem0_1 : DmaSem sig := 126
abbrev cc10_sem1_0 : DmaSem sig := 127
abbrev cc10_sem2_0 : DmaSem sig := 128
abbrev cc10_sem3_0 : DmaSem sig := 129
abbrev cc10_sem4_0 : DmaSem sig := 130
abbrev cc10_sem5_0 : DmaSem sig := 131
abbrev cc10_sem6_0 : DmaSem sig := 132
abbrev cc10_sem7_0 : DmaSem sig := 133
abbrev cc10_sem7_1 : DmaSem sig := 134
abbrev cc10_sem8_0 : DmaSem sig := 135
abbrev cc10_sem8_1 : DmaSem sig := 136
abbrev cc10_sem9_0 : DmaSem sig := 137
abbrev cc10_sem9_1 : DmaSem sig := 138
abbrev cc11_sem0_0 : DmaSem sig := 139
abbrev cc11_sem0_1 : DmaSem sig := 140
abbrev cc11_sem1_0 : DmaSem sig := 141
abbrev cc11_sem2_0 : DmaSem sig := 142
abbrev cc11_sem3_0 : DmaSem sig := 143
abbrev cc11_sem4_0 : DmaSem sig := 144
abbrev cc11_sem5_0 : DmaSem sig := 145
abbrev cc11_sem5_1 : DmaSem sig := 146
abbrev cc11_sem6_0 : DmaSem sig := 147
abbrev cc11_sem6_1 : DmaSem sig := 148
abbrev cc12_sem0_0 : DmaSem sig := 149
abbrev cc12_sem0_1 : DmaSem sig := 150
abbrev cc12_sem1_0 : DmaSem sig := 151
abbrev cc12_sem2_0 : DmaSem sig := 152
abbrev cc12_sem3_0 : DmaSem sig := 153
abbrev cc12_sem4_0 : DmaSem sig := 154
abbrev cc12_sem5_0 : DmaSem sig := 155
abbrev cc12_sem6_0 : DmaSem sig := 156
abbrev cc12_sem7_0 : DmaSem sig := 157
abbrev cc12_sem8_0 : DmaSem sig := 158
abbrev cc12_sem9_0 : DmaSem sig := 159
abbrev cc12_sem9_1 : DmaSem sig := 160
abbrev cc12_sem10_0 : DmaSem sig := 161
abbrev cc12_sem10_1 : DmaSem sig := 162
abbrev cc12_sem11_0 : DmaSem sig := 163
abbrev cc12_sem11_1 : DmaSem sig := 164
abbrev cc13_sem0_0 : DmaSem sig := 165
abbrev cc13_sem0_1 : DmaSem sig := 166
abbrev cc13_sem1_0 : DmaSem sig := 167
abbrev cc13_sem1_1 : DmaSem sig := 168
abbrev cc13_sem2_0 : DmaSem sig := 169
abbrev cc13_sem3_0 : DmaSem sig := 170
abbrev cc13_sem4_0 : DmaSem sig := 171
abbrev cc13_sem5_0 : DmaSem sig := 172
abbrev cc13_sem5_1 : DmaSem sig := 173
abbrev cc13_sem6_0 : DmaSem sig := 174
abbrev cc13_sem6_1 : DmaSem sig := 175
abbrev cc13_sem7_0 : DmaSem sig := 176
abbrev cc13_sem7_1 : DmaSem sig := 177
abbrev cc14_sem0_0 : DmaSem sig := 178
abbrev cc14_sem0_1 : DmaSem sig := 179
abbrev cc14_sem1_0 : DmaSem sig := 180
abbrev cc14_sem2_0 : DmaSem sig := 181
abbrev cc14_sem3_0 : DmaSem sig := 182
abbrev cc14_sem4_0 : DmaSem sig := 183
abbrev cc14_sem5_0 : DmaSem sig := 184
abbrev cc14_sem6_0 : DmaSem sig := 185
abbrev cc14_sem7_0 : DmaSem sig := 186
abbrev cc14_sem7_1 : DmaSem sig := 187
abbrev cc14_sem8_0 : DmaSem sig := 188
abbrev cc14_sem8_1 : DmaSem sig := 189
abbrev cc14_sem9_0 : DmaSem sig := 190
abbrev cc14_sem9_1 : DmaSem sig := 191
abbrev cc15_sem0_0 : DmaSem sig := 192
abbrev cc15_sem0_1 : DmaSem sig := 193
abbrev cc15_sem1_0 : DmaSem sig := 194
abbrev cc15_sem2_0 : DmaSem sig := 195
abbrev cc15_sem3_0 : DmaSem sig := 196
abbrev cc15_sem4_0 : DmaSem sig := 197
abbrev cc15_sem5_0 : DmaSem sig := 198
abbrev cc15_sem5_1 : DmaSem sig := 199
abbrev cc15_sem6_0 : DmaSem sig := 200
abbrev cc15_sem6_1 : DmaSem sig := 201
abbrev cc16_sem0_0 : DmaSem sig := 202
abbrev cc16_sem0_1 : DmaSem sig := 203
abbrev cc16_sem1_0 : DmaSem sig := 204
abbrev cc16_sem2_0 : DmaSem sig := 205
abbrev cc16_sem3_0 : DmaSem sig := 206
abbrev cc16_sem4_0 : DmaSem sig := 207
abbrev cc16_sem5_0 : DmaSem sig := 208
abbrev cc16_sem6_0 : DmaSem sig := 209
abbrev cc16_sem7_0 : DmaSem sig := 210
abbrev cc16_sem8_0 : DmaSem sig := 211
abbrev cc16_sem9_0 : DmaSem sig := 212
abbrev cc16_sem9_1 : DmaSem sig := 213
abbrev cc16_sem10_0 : DmaSem sig := 214
abbrev cc16_sem10_1 : DmaSem sig := 215
abbrev cc16_sem11_0 : DmaSem sig := 216
abbrev cc16_sem11_1 : DmaSem sig := 217

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x1 .i32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S5000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 2 → Memref sig .tc .vmem S1x64x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S1x1x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1x1x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_9 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1x1x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S1x1x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_6 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x1x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1x1x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_11 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S5000x1 .i32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev stage8_10 : Fin 2 → Memref sig .tc .vmem S5000x128 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S1x64x128 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1x1x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S1x1x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_9 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1x1x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S1x1x128 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_6 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S1x1x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S1x1x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_10 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_11 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S5000x1 .i32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev stage12_10 : Fin 2 → Memref sig .tc .vmem S5000x128 .f32 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true]

abbrev stage12_11 : Fin 2 → Memref sig .tc .vmem S1x64x128 .f32 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_7 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 2 → Memref sig .tc .vmem S1x1x128 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev stage13_7 : Fin 2 → Memref sig .tc .vmem S1x1x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_8 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_9 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S128x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S5000x128 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev stage14_8 : Fin 2 → Memref sig .tc .vmem S1x1x128 .f32 := fun | 0 => Memref.whole cc14_stg8_0 | 1 => Memref.whole cc14_stg8_1 | ⟨_ + 2, h⟩ => absurd h (Nat.not_lt.2 (Nat.le_add_left _ _))
abbrev sem14_8 : Fin 2 → DmaSem sig := fun | 0 => cc14_sem8_0 | 1 => cc14_sem8_1 | ⟨_ + 2, h⟩ => absurd h (Nat.not_lt.2 (Nat.le_add_left _ _))
abbrev reads14_8 : Fin grid14.rank → Bool := ![true]

abbrev stage14_9 : Fin 2 → Memref sig .tc .vmem S1x1x128 .f32 := fun | 0 => Memref.whole cc14_stg9_0 | 1 => Memref.whole cc14_stg9_1 | ⟨_ + 2, h⟩ => absurd h (Nat.not_lt.2 (Nat.le_add_left _ _))
abbrev sem14_9 : Fin 2 → DmaSem sig := fun | 0 => cc14_sem9_0 | 1 => cc14_sem9_1 | ⟨_ + 2, h⟩ => absurd h (Nat.not_lt.2 (Nat.le_add_left _ _))
abbrev reads14_9 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_6 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S1x1x128 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev stage15_6 : Fin 2 → Memref sig .tc .vmem S1x1x128 .f32 := fun | 0 => Memref.whole cc15_stg6_0 | 1 => Memref.whole cc15_stg6_1 | ⟨_ + 2, h⟩ => absurd h (Nat.not_lt.2 (Nat.le_add_left _ _))
abbrev sem15_6 : Fin 2 → DmaSem sig := fun | 0 => cc15_sem6_0 | 1 => cc15_sem6_1 | ⟨_ + 2, h⟩ => absurd h (Nat.not_lt.2 (Nat.le_add_left _ _))
abbrev reads15_6 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_8 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_9 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_10 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_11 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S5000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x128 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x128 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x128 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S1x128 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev stage16_8 : Fin 1 → Memref sig .tc .vmem S1x128 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))
abbrev reads16_8 : Fin grid16.rank → Bool := ![false]

abbrev stage16_9 : Fin 2 → Memref sig .tc .vmem S5000x1 .i32 := fun | 0 => Memref.whole cc16_stg9_0 | 1 => Memref.whole cc16_stg9_1 | ⟨_ + 2, h⟩ => absurd h (Nat.not_lt.2 (Nat.le_add_left _ _))
abbrev sem16_9 : Fin 2 → DmaSem sig := fun | 0 => cc16_sem9_0 | 1 => cc16_sem9_1 | ⟨_ + 2, h⟩ => absurd h (Nat.not_lt.2 (Nat.le_add_left _ _))
abbrev reads16_9 : Fin grid16.rank → Bool := ![true]

abbrev stage16_10 : Fin 2 → Memref sig .tc .vmem S5000x128 .f32 := fun | 0 => Memref.whole cc16_stg10_0 | 1 => Memref.whole cc16_stg10_1 | ⟨_ + 2, h⟩ => absurd h (Nat.not_lt.2 (Nat.le_add_left _ _))
abbrev sem16_10 : Fin 2 → DmaSem sig := fun | 0 => cc16_sem10_0 | 1 => cc16_sem10_1 | ⟨_ + 2, h⟩ => absurd h (Nat.not_lt.2 (Nat.le_add_left _ _))
abbrev reads16_10 : Fin grid16.rank → Bool := ![true]

abbrev stage16_11 : Fin 2 → Memref sig .tc .vmem S1x64x128 .f32 := fun | 0 => Memref.whole cc16_stg11_0 | 1 => Memref.whole cc16_stg11_1 | ⟨_ + 2, h⟩ => absurd h (Nat.not_lt.2 (Nat.le_add_left _ _))
abbrev sem16_11 : Fin 2 → DmaSem sig := fun | 0 => cc16_sem11_0 | 1 => cc16_sem11_1 | ⟨_ + 2, h⟩ => absurd h (Nat.not_lt.2 (Nat.le_add_left _ _))
abbrev reads16_11 : Fin grid16.rank → Bool := ![true]

class Facts₀ : Prop where
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  shapeCasts_S64x128_S1x64x128 : S64x128.ShapeCasts S1x64x128
  inb_S1x64x128_S1x64x128_0_0_0 : ∀ a, (![0, 0, 0] : Fin 3 → Nat) a + S1x64x128.size a ≤ S1x64x128.size a
  h_S1x64x128 : 0 < S1x64x128.numel
  reducesTo_S20x64x128_S64x128_d0 : S20x64x128.ReducesTo [0] S64x128
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  shapeCasts_S_S1x1 : S_.ShapeCasts S1x1
  bcast_S1x1_S1x128_0_1 : S1x1.BroadcastsInDim S1x128 (![0, 1] : Fin 2 → Fin S1x128.rank)
  slices_S4x128_S1x128_0_0 : S4x128.Slices ![0, 0] S1x128
  shapeCasts_S1x128_S128 : S1x128.ShapeCasts S128
  shapeCasts_S128_S1x128 : S128.ShapeCasts S1x128
  slices_S4x128x128_S1x128x128_0_0_0 : S4x128x128.Slices ![0, 0, 0] S1x128x128
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  bcast_S_S1x128 : S_.BroadcastsInDim S1x128 (![] : Fin 0 → Fin S1x128.rank)
  slices_S4_S1_1 : S4.Slices ![1] S1
  slices_S4x128_S1x128_1_0 : S4x128.Slices ![1, 0] S1x128
  slices_S4x128x128_S1x128x128_1_0_0 : S4x128x128.Slices ![1, 0, 0] S1x128x128
  slices_S4_S1_2 : S4.Slices ![2] S1
  slices_S4x128_S1x128_2_0 : S4x128.Slices ![2, 0] S1x128
  slices_S4x128x128_S1x128x128_2_0_0 : S4x128x128.Slices ![2, 0, 0] S1x128x128
  slices_S4_S1_3 : S4.Slices ![3] S1
  slices_S4x128_S1x128_3_0 : S4x128.Slices ![3, 0] S1x128
  slices_S4x128x128_S1x128x128_3_0_0 : S4x128x128.Slices ![3, 0, 0] S1x128x128
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  slices_S5x128x64_S1x128x64_1_0_0 : S5x128x64.Slices ![1, 0, 0] S1x128x64
  slices_S5x64_S1x64_1_0 : S5x64.Slices ![1, 0] S1x64
  slices_S5x128x64_S1x128x64_2_0_0 : S5x128x64.Slices ![2, 0, 0] S1x128x64
  slices_S5x64_S1x64_2_0 : S5x64.Slices ![2, 0] S1x64
  slices_S5x128x64_S1x128x64_3_0_0 : S5x128x64.Slices ![3, 0, 0] S1x128x64
  slices_S5x64_S1x64_3_0 : S5x64.Slices ![3, 0] S1x64
  slices_S5x128x64_S1x128x64_4_0_0 : S5x128x64.Slices ![4, 0, 0] S1x128x64
  slices_S5x64_S1x64_4_0 : S5x64.Slices ![4, 0] S1x64
  dot_S64x5000_S5000x128_S64x128_1_0_0_1_n_n_wf : DotDims.WF S64x5000 S5000x128 S64x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .i32 = 32 ∨ (Rect.block (s := S100000x1) S5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S20x64x128.size a
  hwx0_2 : ∀ i : grid0.Coords, EltTy.bits .f32 = 32 ∨ (Rect.block (s := S20x64x128) S1x64x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S20x1x128.size a
  hwx1_6 : ∀ i : grid1.Coords, EltTy.bits .f32 = 32 ∨ (Rect.block (s := S20x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S20x1x128.size a
  hwx1_7 : ∀ i : grid1.Coords, EltTy.bits .f32 = 32 ∨ (Rect.block (s := S20x1x128) S1x1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S20x1x128.size a
  hwx2_8 : ∀ i : grid2.Coords, EltTy.bits .f32 = 32 ∨ (Rect.block (s := S20x1x128) S1x1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x128.size a ≤ S20x1x128.size a
  hwx2_9 : ∀ i : grid2.Coords, EltTy.bits .f32 = 32 ∨ (Rect.block (s := S20x1x128) S1x1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x128.size a ≤ S20x1x128.size a
  hwx3_5 : ∀ i : grid3.Coords, EltTy.bits .f32 = 32 ∨ (Rect.block (s := S20x1x128) S1x1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x128.size a ≤ S20x1x128.size a
  hwx3_6 : ∀ i : grid3.Coords, EltTy.bits .f32 = 32 ∨ (Rect.block (s := S20x1x128) S1x1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x1.size a ≤ S100000x1.size a
  hwx4_9 : ∀ i : grid4.Coords, EltTy.bits .i32 = 32 ∨ (Rect.block (s := S100000x1) S5000x1.size (cc4_transform_9 i) (hinb4_9 i)).WholeWords (EltTy.packing .i32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x128.size a ≤ S100000x128.size a
  hwx4_10 : ∀ i : grid4.Coords, EltTy.bits .f32 = 32 ∨ (Rect.block (s := S100000x128) S5000x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1x64x128.size a ≤ S20x64x128.size a
  hwx4_11 : ∀ i : grid4.Coords, EltTy.bits .f32 = 32 ∨ (Rect.block (s := S20x64x128) S1x64x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1x1x128.size a ≤ S20x1x128.size a
  hwx5_6 : ∀ i : grid5.Coords, EltTy.bits .f32 = 32 ∨ (Rect.block (s := S20x1x128) S1x1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x1x128.size a ≤ S20x1x128.size a
  hwx5_7 : ∀ i : grid5.Coords, EltTy.bits .f32 = 32 ∨ (Rect.block (s := S20x1x128) S1x1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S100000x128.size a
  hwx6_7 : ∀ i : grid6.Coords, EltTy.bits .f32 = 32 ∨ (Rect.block (s := S100000x128) S5000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x1x128.size a ≤ S20x1x128.size a
  hwx6_8 : ∀ i : grid6.Coords, EltTy.bits .f32 = 32 ∨ (Rect.block (s := S20x1x128) S1x1x128.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S1x1x128.size a ≤ S20x1x128.size a
  hwx6_9 : ∀ i : grid6.Coords, EltTy.bits .f32 = 32 ∨ (Rect.block (s := S20x1x128) S1x1x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x1x128.size a ≤ S20x1x128.size a
  hwx7_5 : ∀ i : grid7.Coords, EltTy.bits .f32 = 32 ∨ (Rect.block (s := S20x1x128) S1x1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1x1x128.size a ≤ S20x1x128.size a
  hwx7_6 : ∀ i : grid7.Coords, EltTy.bits .f32 = 32 ∨ (Rect.block (s := S20x1x128) S1x1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S5000x1.size a ≤ S100000x1.size a
  hwx8_9 : ∀ i : grid8.Coords, EltTy.bits .i32 = 32 ∨ (Rect.block (s := S100000x1) S5000x1.size (cc8_transform_9 i) (hinb8_9 i)).WholeWords (EltTy.packing .i32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S5000x128.size a ≤ S100000x128.size a
  hwx8_10 : ∀ i : grid8.Coords, EltTy.bits .f32 = 32 ∨ (Rect.block (s := S100000x128) S5000x128.size (cc8_transform_10 i) (hinb8_10 i)).WholeWords (EltTy.packing .f32)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S1x64x128.size a ≤ S20x64x128.size a
  hwx8_11 : ∀ i : grid8.Coords, EltTy.bits .f32 = 32 ∨ (Rect.block (s := S20x64x128) S1x64x128.size (cc8_transform_11 i) (hinb8_11 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x1x128.size a ≤ S20x1x128.size a
  hwx9_6 : ∀ i : grid9.Coords, EltTy.bits .f32 = 32 ∨ (Rect.block (s := S20x1x128) S1x1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1x1x128.size a ≤ S20x1x128.size a
  hwx9_7 : ∀ i : grid9.Coords, EltTy.bits .f32 = 32 ∨ (Rect.block (s := S20x1x128) S1x1x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S100000x128.size a
  hwx10_7 : ∀ i : grid10.Coords, EltTy.bits .f32 = 32 ∨ (Rect.block (s := S100000x128) S5000x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S1x1x128.size a ≤ S20x1x128.size a
  hwx10_8 : ∀ i : grid10.Coords, EltTy.bits .f32 = 32 ∨ (Rect.block (s := S20x1x128) S1x1x128.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S1x1x128.size a ≤ S20x1x128.size a
  hwx10_9 : ∀ i : grid10.Coords, EltTy.bits .f32 = 32 ∨ (Rect.block (s := S20x1x128) S1x1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S1x1x128.size a ≤ S20x1x128.size a
  hwx11_5 : ∀ i : grid11.Coords, EltTy.bits .f32 = 32 ∨ (Rect.block (s := S20x1x128) S1x1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S1x1x128.size a ≤ S20x1x128.size a
  hwx11_6 : ∀ i : grid11.Coords, EltTy.bits .f32 = 32 ∨ (Rect.block (s := S20x1x128) S1x1x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x128.size a ≤ S1x128.size a
  hwx12_1 : ∀ i : grid12.Coords, EltTy.bits .f32 = 32 ∨ (Rect.block (s := S1x128) S1x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x128.size a ≤ S1x128.size a
  hwx12_7 : ∀ i : grid12.Coords, EltTy.bits .f32 = 32 ∨ (Rect.block (s := S1x128) S1x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S5000x1.size a ≤ S100000x1.size a
  hwx12_9 : ∀ i : grid12.Coords, EltTy.bits .i32 = 32 ∨ (Rect.block (s := S100000x1) S5000x1.size (cc12_transform_9 i) (hinb12_9 i)).WholeWords (EltTy.packing .i32)
  hstage12_10 : ∀ j, (stage12_10 j).IsWhole
  nbuf12_10 : grid12.bufCount reads12_10 false = 2
  hreads12_10 : ∀ i i' : grid12.Coords, (∀ a, reads12_10 a = true → i a = i' a) → cc12_transform_10 i = cc12_transform_10 i'
  hinb12_10 : ∀ (i : grid12.Coords) a, (cc12_transform_10 i a + 1) * S5000x128.size a ≤ S100000x128.size a
  hwx12_10 : ∀ i : grid12.Coords, EltTy.bits .f32 = 32 ∨ (Rect.block (s := S100000x128) S5000x128.size (cc12_transform_10 i) (hinb12_10 i)).WholeWords (EltTy.packing .f32)
  hstage12_11 : ∀ j, (stage12_11 j).IsWhole
  nbuf12_11 : grid12.bufCount reads12_11 false = 2
  hreads12_11 : ∀ i i' : grid12.Coords, (∀ a, reads12_11 a = true → i a = i' a) → cc12_transform_11 i = cc12_transform_11 i'
  hinb12_11 : ∀ (i : grid12.Coords) a, (cc12_transform_11 i a + 1) * S1x64x128.size a ≤ S20x64x128.size a
  hwx12_11 : ∀ i : grid12.Coords, EltTy.bits .f32 = 32 ∨ (Rect.block (s := S20x64x128) S1x64x128.size (cc12_transform_11 i) (hinb12_11 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S100000x128.size a
  hwx13_1 : ∀ i : grid13.Coords, EltTy.bits .f32 = 32 ∨ (Rect.block (s := S100000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S100000x128.size a
  hwx13_5 : ∀ i : grid13.Coords, EltTy.bits .f32 = 32 ∨ (Rect.block (s := S100000x128) S5000x128.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S1x1x128.size a ≤ S20x1x128.size a
  hwx13_6 : ∀ i : grid13.Coords, EltTy.bits .f32 = 32 ∨ (Rect.block (s := S20x1x128) S1x1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S1x1x128.size a ≤ S20x1x128.size a
  hwx13_7 : ∀ i : grid13.Coords, EltTy.bits .f32 = 32 ∨ (Rect.block (s := S20x1x128) S1x1x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x128.size a ≤ S128x128.size a
  hwx14_5 : ∀ i : grid14.Coords, EltTy.bits .f32 = 32 ∨ (Rect.block (s := S128x128) S128x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x128.size a ≤ S100000x128.size a
  hwx14_7 : ∀ i : grid14.Coords, EltTy.bits .f32 = 32 ∨ (Rect.block (s := S100000x128) S5000x128.size (cc14_transform_7 i) (hinb14_7 i)).WholeWords (EltTy.packing .f32)
  hstage14_8 : ∀ j, (stage14_8 j).IsWhole
  nbuf14_8 : grid14.bufCount reads14_8 false = 2
  hreads14_8 : ∀ i i' : grid14.Coords, (∀ a, reads14_8 a = true → i a = i' a) → cc14_transform_8 i = cc14_transform_8 i'
  hinb14_8 : ∀ (i : grid14.Coords) a, (cc14_transform_8 i a + 1) * S1x1x128.size a ≤ S20x1x128.size a
  hwx14_8 : ∀ i : grid14.Coords, EltTy.bits .f32 = 32 ∨ (Rect.block (s := S20x1x128) S1x1x128.size (cc14_transform_8 i) (hinb14_8 i)).WholeWords (EltTy.packing .f32)
  hstage14_9 : ∀ j, (stage14_9 j).IsWhole
  nbuf14_9 : grid14.bufCount reads14_9 false = 2
  hreads14_9 : ∀ i i' : grid14.Coords, (∀ a, reads14_9 a = true → i a = i' a) → cc14_transform_9 i = cc14_transform_9 i'
  hinb14_9 : ∀ (i : grid14.Coords) a, (cc14_transform_9 i a + 1) * S1x1x128.size a ≤ S20x1x128.size a
  hwx14_9 : ∀ i : grid14.Coords, EltTy.bits .f32 = 32 ∨ (Rect.block (s := S20x1x128) S1x1x128.size (cc14_transform_9 i) (hinb14_9 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S100000x128.size a
  hwx15_0 : ∀ i : grid15.Coords, EltTy.bits .f32 = 32 ∨ (Rect.block (s := S100000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S1x1x128.size a ≤ S20x1x128.size a
  hwx15_5 : ∀ i : grid15.Coords, EltTy.bits .f32 = 32 ∨ (Rect.block (s := S20x1x128) S1x1x128.size (cc15_transform_5 i) (hinb15_5 i)).WholeWords (EltTy.packing .f32)
  hstage15_6 : ∀ j, (stage15_6 j).IsWhole
  nbuf15_6 : grid15.bufCount reads15_6 false = 2
  hreads15_6 : ∀ i i' : grid15.Coords, (∀ a, reads15_6 a = true → i a = i' a) → cc15_transform_6 i = cc15_transform_6 i'
  hinb15_6 : ∀ (i : grid15.Coords) a, (cc15_transform_6 i a + 1) * S1x1x128.size a ≤ S20x1x128.size a
  hwx15_6 : ∀ i : grid15.Coords, EltTy.bits .f32 = 32 ∨ (Rect.block (s := S20x1x128) S1x1x128.size (cc15_transform_6 i) (hinb15_6 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x128.size a ≤ S100000x128.size a
  hwx16_0 : ∀ i : grid16.Coords, EltTy.bits .f32 = 32 ∨ (Rect.block (s := S100000x128) S5000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x128.size a ≤ S1x128.size a
  hwx16_1 : ∀ i : grid16.Coords, EltTy.bits .f32 = 32 ∨ (Rect.block (s := S1x128) S1x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x128.size a ≤ S1x128.size a
  hwx16_4 : ∀ i : grid16.Coords, EltTy.bits .f32 = 32 ∨ (Rect.block (s := S1x128) S1x128.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x128.size a ≤ S1x128.size a
  hwx16_5 : ∀ i : grid16.Coords, EltTy.bits .f32 = 32 ∨ (Rect.block (s := S1x128) S1x128.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S1x128.size a ≤ S1x128.size a
  hwx16_6 : ∀ i : grid16.Coords, EltTy.bits .f32 = 32 ∨ (Rect.block (s := S1x128) S1x128.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S1x128.size a ≤ S1x128.size a
  hwx16_7 : ∀ i : grid16.Coords, EltTy.bits .f32 = 32 ∨ (Rect.block (s := S1x128) S1x128.size (cc16_transform_7 i) (hinb16_7 i)).WholeWords (EltTy.packing .f32)
  hstage16_8 : ∀ j, (stage16_8 j).IsWhole
  nbuf16_8 : grid16.bufCount reads16_8 true = 1
  hreads16_8 : ∀ i i' : grid16.Coords, (∀ a, reads16_8 a = true → i a = i' a) → cc16_transform_8 i = cc16_transform_8 i'
  hinb16_8 : ∀ (i : grid16.Coords) a, (cc16_transform_8 i a + 1) * S1x128.size a ≤ S1x128.size a
  hwx16_8 : ∀ i : grid16.Coords, EltTy.bits .f32 = 32 ∨ (Rect.block (s := S1x128) S1x128.size (cc16_transform_8 i) (hinb16_8 i)).WholeWords (EltTy.packing .f32)
  hstage16_9 : ∀ j, (stage16_9 j).IsWhole
  nbuf16_9 : grid16.bufCount reads16_9 false = 2
  hreads16_9 : ∀ i i' : grid16.Coords, (∀ a, reads16_9 a = true → i a = i' a) → cc16_transform_9 i = cc16_transform_9 i'
  hinb16_9 : ∀ (i : grid16.Coords) a, (cc16_transform_9 i a + 1) * S5000x1.size a ≤ S100000x1.size a
  hwx16_9 : ∀ i : grid16.Coords, EltTy.bits .i32 = 32 ∨ (Rect.block (s := S100000x1) S5000x1.size (cc16_transform_9 i) (hinb16_9 i)).WholeWords (EltTy.packing .i32)
  hstage16_10 : ∀ j, (stage16_10 j).IsWhole
  nbuf16_10 : grid16.bufCount reads16_10 false = 2
  hreads16_10 : ∀ i i' : grid16.Coords, (∀ a, reads16_10 a = true → i a = i' a) → cc16_transform_10 i = cc16_transform_10 i'
  hinb16_10 : ∀ (i : grid16.Coords) a, (cc16_transform_10 i a + 1) * S5000x128.size a ≤ S100000x128.size a
  hwx16_10 : ∀ i : grid16.Coords, EltTy.bits .f32 = 32 ∨ (Rect.block (s := S100000x128) S5000x128.size (cc16_transform_10 i) (hinb16_10 i)).WholeWords (EltTy.packing .f32)
  hstage16_11 : ∀ j, (stage16_11 j).IsWhole
  nbuf16_11 : grid16.bufCount reads16_11 false = 2
  hreads16_11 : ∀ i i' : grid16.Coords, (∀ a, reads16_11 a = true → i a = i' a) → cc16_transform_11 i = cc16_transform_11 i'
  hinb16_11 : ∀ (i : grid16.Coords) a, (cc16_transform_11 i a + 1) * S1x64x128.size a ≤ S20x64x128.size a
  hwx16_11 : ∀ i : grid16.Coords, EltTy.bits .f32 = 32 ∨ (Rect.block (s := S20x64x128) S1x64x128.size (cc16_transform_11 i) (hinb16_11 i)).WholeWords (EltTy.packing .f32)

variable [Facts₀]

def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S1x1x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v23_2) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v23_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v45_1) S1x1x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v45_2) S1x1x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62_0) S1x1x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v62_1) S1x1x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v45_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v75) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v78) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v0) S5000x1.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_v79_0) S5000x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v79_1) S1x64x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v79_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v101_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v101_1) S1x1x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v101_2) S1x1x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v101_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v114) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v117) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v122) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v120) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v123_0) S5000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v123_1) S1x1x128.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v123_2) S1x1x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v123_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v127) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v139) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v140_0) S1x1x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v140_1) S1x1x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v123_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v127) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v133) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v136) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v139) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v144) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v150) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v153) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v156) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v0) S5000x1.size cc8_transform_9 reads8_9 false false 2 stage8_9 sem8_9
    hrank8 hreads8_9 hinb8_9 nbuf8_9 (Memref.isWhole_whole _) hwx8_9 hstage8_9

abbrev win8_10 : Pipeline.Window sig grid8 :=
  Pipeline.Window.ofSpec (Memref.whole main_v157_0) S5000x128.size cc8_transform_10 reads8_10 true false 2 stage8_10 sem8_10
    hrank8 hreads8_10 hinb8_10 nbuf8_10 (Memref.isWhole_whole _) hwx8_10 hstage8_10

abbrev win8_11 : Pipeline.Window sig grid8 :=
  Pipeline.Window.ofSpec (Memref.whole main_v157_1) S1x64x128.size cc8_transform_11 reads8_11 true false 2 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

abbrev win9_0 : Pipeline.Window sig grid9 :=
  Pipeline.Window.ofSpec (Memref.whole main_v157_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v168) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v173) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v178) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v176) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v179_0) S5000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v179_1) S1x1x128.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v179_2) S1x1x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v179_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v183) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v189) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v192) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v195) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v200) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v198) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v201_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v201_1) S1x1x128.size cc10_transform_8 reads10_8 true false 2 stage10_8 sem10_8
    hrank10 hreads10_8 hinb10_8 nbuf10_8 (Memref.isWhole_whole _) hwx10_8 hstage10_8

abbrev win10_9 : Pipeline.Window sig grid10 :=
  Pipeline.Window.ofSpec (Memref.whole main_v201_2) S1x1x128.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v201_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v205) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v211) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v214) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v217) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v218_0) S1x1x128.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v218_1) S1x1x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v201_0) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v205) S1x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v211) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v214) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v217) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v222) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v228) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v231) S1x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v234) S1x128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v0) S5000x1.size cc12_transform_9 reads12_9 false false 2 stage12_9 sem12_9
    hrank12 hreads12_9 hinb12_9 nbuf12_9 (Memref.isWhole_whole _) hwx12_9 hstage12_9

abbrev win12_10 : Pipeline.Window sig grid12 :=
  Pipeline.Window.ofSpec (Memref.whole main_v235_0) S5000x128.size cc12_transform_10 reads12_10 true false 2 stage12_10 sem12_10
    hrank12 hreads12_10 hinb12_10 nbuf12_10 (Memref.isWhole_whole _) hwx12_10 hstage12_10

abbrev win12_11 : Pipeline.Window sig grid12 :=
  Pipeline.Window.ofSpec (Memref.whole main_v235_1) S1x64x128.size cc12_transform_11 reads12_11 true false 2 stage12_11 sem12_11
    hrank12 hreads12_11 hinb12_11 nbuf12_11 (Memref.isWhole_whole _) hwx12_11 hstage12_11

abbrev win12 : Fin 12 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | ⟨_ + 12, h⟩ => absurd h (Nat.not_lt.2 (Nat.le_add_left _ _))
abbrev spec12 : Fin 12 → Pipeline.WinSpec sig grid12.rank := fun w => (win12 w).toWinSpec

abbrev win13_0 : Pipeline.Window sig grid13 :=
  Pipeline.Window.ofSpec (Memref.whole main_v235_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v246) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v251) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v256) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v254) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v257_0) S5000x128.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v257_1) S1x1x128.size cc13_transform_6 reads13_6 true false 2 stage13_6 sem13_6
    hrank13 hreads13_6 hinb13_6 nbuf13_6 (Memref.isWhole_whole _) hwx13_6 hstage13_6

abbrev win13_7 : Pipeline.Window sig grid13 :=
  Pipeline.Window.ofSpec (Memref.whole main_v257_2) S1x1x128.size cc13_transform_7 reads13_7 true false 2 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v257_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v261) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v267) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v270) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v273) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v278) S128x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v276) S1x128.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v279_0) S5000x128.size cc14_transform_7 reads14_7 true false 2 stage14_7 sem14_7
    hrank14 hreads14_7 hinb14_7 nbuf14_7 (Memref.isWhole_whole _) hwx14_7 hstage14_7

abbrev win14_8 : Pipeline.Window sig grid14 :=
  Pipeline.Window.ofSpec (Memref.whole main_v279_1) S1x1x128.size cc14_transform_8 reads14_8 true false 2 stage14_8 sem14_8
    hrank14 hreads14_8 hinb14_8 nbuf14_8 (Memref.isWhole_whole _) hwx14_8 hstage14_8

abbrev win14_9 : Pipeline.Window sig grid14 :=
  Pipeline.Window.ofSpec (Memref.whole main_v279_2) S1x1x128.size cc14_transform_9 reads14_9 true false 2 stage14_9 sem14_9
    hrank14 hreads14_9 hinb14_9 nbuf14_9 (Memref.isWhole_whole _) hwx14_9 hstage14_9

abbrev win14 : Fin 10 → Pipeline.Window sig grid14 := fun | 0 => win14_0 | 1 => win14_1 | 2 => win14_2 | 3 => win14_3 | 4 => win14_4 | 5 => win14_5 | 6 => win14_6 | 7 => win14_7 | 8 => win14_8 | 9 => win14_9 | ⟨_ + 10, h⟩ => absurd h (Nat.not_lt.2 (Nat.le_add_left _ _))
abbrev spec14 : Fin 10 → Pipeline.WinSpec sig grid14.rank := fun w => (win14 w).toWinSpec

abbrev win15_0 : Pipeline.Window sig grid15 :=
  Pipeline.Window.ofSpec (Memref.whole main_v279_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v283) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v289) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v292) S1x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v295) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v296_0) S1x1x128.size cc15_transform_5 reads15_5 true false 2 stage15_5 sem15_5
    hrank15 hreads15_5 hinb15_5 nbuf15_5 (Memref.isWhole_whole _) hwx15_5 hstage15_5

abbrev win15_6 : Pipeline.Window sig grid15 :=
  Pipeline.Window.ofSpec (Memref.whole main_v296_1) S1x1x128.size cc15_transform_6 reads15_6 true false 2 stage15_6 sem15_6
    hrank15 hreads15_6 hinb15_6 nbuf15_6 (Memref.isWhole_whole _) hwx15_6 hstage15_6

abbrev win15 : Fin 7 → Pipeline.Window sig grid15 := fun | 0 => win15_0 | 1 => win15_1 | 2 => win15_2 | 3 => win15_3 | 4 => win15_4 | 5 => win15_5 | 6 => win15_6 | ⟨_ + 7, h⟩ => absurd h (Nat.not_lt.2 (Nat.le_add_left _ _))
abbrev spec15 : Fin 7 → Pipeline.WinSpec sig grid15.rank := fun w => (win15 w).toWinSpec

abbrev win16_0 : Pipeline.Window sig grid16 :=
  Pipeline.Window.ofSpec (Memref.whole main_v279_0) S5000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v283) S1x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v289) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v292) S1x128.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v295) S1x128.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v300) S1x128.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_v306) S1x128.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v309) S1x128.size cc16_transform_7 reads16_7 false true 1 stage16_7 sem16_7
    hrank16 hreads16_7 hinb16_7 nbuf16_7 (Memref.isWhole_whole _) hwx16_7 hstage16_7

abbrev win16_8 : Pipeline.Window sig grid16 :=
  Pipeline.Window.ofSpec (Memref.whole main_v312) S1x128.size cc16_transform_8 reads16_8 false true 1 stage16_8 sem16_8
    hrank16 hreads16_8 hinb16_8 nbuf16_8 (Memref.isWhole_whole _) hwx16_8 hstage16_8

abbrev win16_9 : Pipeline.Window sig grid16 :=
  Pipeline.Window.ofSpec (Memref.whole main_v0) S5000x1.size cc16_transform_9 reads16_9 false false 2 stage16_9 sem16_9
    hrank16 hreads16_9 hinb16_9 nbuf16_9 (Memref.isWhole_whole _) hwx16_9 hstage16_9

abbrev win16_10 : Pipeline.Window sig grid16 :=
  Pipeline.Window.ofSpec (Memref.whole main_v313_0) S5000x128.size cc16_transform_10 reads16_10 true false 2 stage16_10 sem16_10
    hrank16 hreads16_10 hinb16_10 nbuf16_10 (Memref.isWhole_whole _) hwx16_10 hstage16_10

abbrev win16_11 : Pipeline.Window sig grid16 :=
  Pipeline.Window.ofSpec (Memref.whole main_v313_1) S1x64x128.size cc16_transform_11 reads16_11 true false 2 stage16_11 sem16_11
    hrank16 hreads16_11 hinb16_11 nbuf16_11 (Memref.isWhole_whole _) hwx16_11 hstage16_11

abbrev win16 : Fin 12 → Pipeline.Window sig grid16 := fun | 0 => win16_0 | 1 => win16_1 | 2 => win16_2 | 3 => win16_3 | 4 => win16_4 | 5 => win16_5 | 6 => win16_6 | 7 => win16_7 | 8 => win16_8 | 9 => win16_9 | 10 => win16_10 | 11 => win16_11 | ⟨_ + 12, h⟩ => absurd h (Nat.not_lt.2 (Nat.le_add_left _ _))
abbrev spec16 : Fin 12 → Pipeline.WinSpec sig grid16.rank := fun w => (win16 w).toWinSpec

class Facts : Prop extends Facts₀ where

variable [Facts]
-- ==== ReferenceIdeal.lean ====
abbrev S100000x128 : Shape := ⟨2, ![100000, 128]⟩
abbrev S1 : Shape := ⟨1, ![1]⟩
abbrev S1600000 : Shape := ⟨1, ![1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S5x128x64 : Shape := ⟨3, ![5, 128, 64]⟩
abbrev S5x64 : Shape := ⟨2, ![5, 64]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S100000x1 : Shape := ⟨2, ![100000, 1]⟩
abbrev S1x128x64 : Shape := ⟨3, ![1, 128, 64]⟩
abbrev S128x64 : Shape := ⟨2, ![128, 64]⟩
abbrev S64x64 : Shape := ⟨2, ![64, 64]⟩
abbrev S1x64 : Shape := ⟨2, ![1, 64]⟩
abbrev S64 : Shape := ⟨1, ![64]⟩

abbrev nBuf : Space → Nat
  | .hbm => 841
  | .vmem => 0
  | .smem => 0
  | _ => 0

abbrev hbmTy0_0 (i : Nat) : BufTy := match i % 128 with
  | 0 => ⟨S100000x128, .f32⟩
  | 1 => ⟨S1, .f32⟩
  | 2 => ⟨S1600000, .i32⟩
  | 3 => ⟨S1600000, .i32⟩
  | 4 => ⟨S100000, .i32⟩
  | 5 => ⟨S4, .f32⟩
  | 6 => ⟨S4x128x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S4x128, .f32⟩
  | 15 => ⟨S4x128, .f32⟩
  | 16 => ⟨S5x128x64, .f32⟩
  | 17 => ⟨S5x64, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S100000x128, .f32⟩
  | 29 => ⟨S1600000x1, .i32⟩
  | 30 => ⟨S100000x128, .f32⟩
  | 31 => ⟨S1, .f32⟩
  | 32 => ⟨S_, .f32⟩
  | 33 => ⟨S_, .f32⟩
  | 34 => ⟨S_, .f32⟩
  | 35 => ⟨S100000x128, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S1, .f32⟩
  | 93 => ⟨S_, .f32⟩
  | 94 => ⟨S_, .f32⟩
  | 95 => ⟨S_, .f32⟩
  | 96 => ⟨S100000x128, .f32⟩
  | 97 => ⟨S100000x128, .f32⟩
  | 98 => ⟨S100000x128, .f32⟩
  | 99 => ⟨S1x128x128, .f32⟩
  | 100 => ⟨S128x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S_, .f32⟩
  | _ => ⟨S100000x128, .f32⟩

abbrev hbmTy0_2 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S1x128x128, .f32⟩
  | 31 => ⟨S128x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_3 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S1, .f32⟩
  | 26 => ⟨S_, .f32⟩
  | 27 => ⟨S_, .f32⟩
  | 28 => ⟨S_, .f32⟩
  | 29 => ⟨S100000x128, .f32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S100000x128, .f32⟩

abbrev hbmTy0_4 (i : Nat) : BufTy := match i % 128 with
  | 0 => ⟨S_, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S_, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S100000x128, .f32⟩
  | 39 => ⟨S100000x128, .f32⟩
  | 40 => ⟨S100000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S1, .f32⟩
  | 87 => ⟨S_, .f32⟩
  | 88 => ⟨S_, .f32⟩
  | 89 => ⟨S_, .f32⟩
  | 90 => ⟨S100000x128, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S100000x128, .f32⟩
  | 118 => ⟨S100000x128, .f32⟩
  | 119 => ⟨S100000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S100000x128, .f32⟩

abbrev hbmTy0_5 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_6 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S64x128, .f32⟩
  | 8 => ⟨S100000x1, .i32⟩
  | 9 => ⟨S64x128, .f32⟩
  | 10 => ⟨S_, .f32⟩
  | 11 => ⟨S64x128, .f32⟩
  | 12 => ⟨S100000x1, .i32⟩
  | 13 => ⟨S64x128, .f32⟩
  | 14 => ⟨S_, .f32⟩
  | 15 => ⟨S64x128, .f32⟩
  | 16 => ⟨S100000x1, .i32⟩
  | 17 => ⟨S64x128, .f32⟩
  | 18 => ⟨S_, .f32⟩
  | 19 => ⟨S64x128, .f32⟩
  | 20 => ⟨S100000x1, .i32⟩
  | 21 => ⟨S64x128, .f32⟩
  | 22 => ⟨S_, .f32⟩
  | 23 => ⟨S64x128, .f32⟩
  | 24 => ⟨S100000x1, .i32⟩
  | 25 => ⟨S64x128, .f32⟩
  | 26 => ⟨S1x128x64, .f32⟩
  | 27 => ⟨S128x64, .f32⟩
  | 28 => ⟨S64x64, .f32⟩
  | 29 => ⟨S1x64, .f32⟩
  | 30 => ⟨S64, .f32⟩
  | 31 => ⟨S1x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S1x128x64, .f32⟩
  | 38 => ⟨S128x64, .f32⟩
  | 39 => ⟨S64x64, .f32⟩
  | 40 => ⟨S1x64, .f32⟩
  | 41 => ⟨S64, .f32⟩
  | 42 => ⟨S1x64, .f32⟩
  | 43 => ⟨S64x64, .f32⟩
  | 44 => ⟨S64x64, .f32⟩
  | 45 => ⟨S64x64, .f32⟩
  | 46 => ⟨S1x128x64, .f32⟩
  | 47 => ⟨S128x64, .f32⟩
  | 48 => ⟨S64x64, .f32⟩
  | 49 => ⟨S1x64, .f32⟩
  | 50 => ⟨S64, .f32⟩
  | 51 => ⟨S1x64, .f32⟩
  | 52 => ⟨S64x64, .f32⟩
  | 53 => ⟨S64x64, .f32⟩
  | 54 => ⟨S64x64, .f32⟩
  | 55 => ⟨S1x128x64, .f32⟩
  | 56 => ⟨S128x64, .f32⟩
  | 57 => ⟨S64x64, .f32⟩
  | 58 => ⟨S1x64, .f32⟩
  | 59 => ⟨S64, .f32⟩
  | 60 => ⟨S1x64, .f32⟩
  | 61 => ⟨S64x64, .f32⟩
  | 62 => ⟨S64x64, .f32⟩
  | 63 => ⟨S64x64, .f32⟩
  | 64 => ⟨S1x128x64, .f32⟩
  | 65 => ⟨S128x64, .f32⟩
  | 66 => ⟨S64x64, .f32⟩
  | 67 => ⟨S1x64, .f32⟩
  | 68 => ⟨S64, .f32⟩
  | 69 => ⟨S1x64, .f32⟩
  | 70 => ⟨S64x64, .f32⟩
  | 71 => ⟨S64x64, .f32⟩
  | 72 => ⟨S64x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_call1_cst : Ref sig .tc := ⟨.hbm, 94, rfl⟩
abbrev main_call1_v0 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_6 : Ref sig .tc := ⟨.hbm, 109, rfl⟩
abbrev main_v60 : Ref sig .tc := ⟨.hbm, 110, rfl⟩
abbrev main_cst_7 : Ref sig .tc := ⟨.hbm, 111, rfl⟩
abbrev main_v61 : Ref sig .tc := ⟨.hbm, 112, rfl⟩
abbrev main_v62 : Ref sig .tc := ⟨.hbm, 113, rfl⟩
abbrev main_c_8 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_cst_3 : Ref sig .tc := ⟨.hbm, 131, rfl⟩
abbrev main_call2_v12 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_9 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_call3_cst : Ref sig .tc := ⟨.hbm, 153, rfl⟩
abbrev main_call3_v0 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_10 : Ref sig .tc := ⟨.hbm, 160, rfl⟩
abbrev main_v84 : Ref sig .tc := ⟨.hbm, 161, rfl⟩
abbrev main_cst_11 : Ref sig .tc := ⟨.hbm, 162, rfl⟩
abbrev main_v85 : Ref sig .tc := ⟨.hbm, 163, rfl⟩
abbrev main_v86 : Ref sig .tc := ⟨.hbm, 164, rfl⟩
abbrev main_c_12 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_cst_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_cst_1 : Ref sig .tc := ⟨.hbm, 176, rfl⟩
abbrev main_call4_v8 : Ref sig .tc := ⟨.hbm, 177, rfl⟩
abbrev main_call4_cst_2 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_cst_3 : Ref sig .tc := ⟨.hbm, 182, rfl⟩
abbrev main_call4_v12 : Ref sig .tc := ⟨.hbm, 183, rfl⟩
abbrev main_call4_cst_4 : Ref sig .tc := ⟨.hbm, 184, rfl⟩
abbrev main_call4_call0_v0 : Ref sig .tc := ⟨.hbm, 185, rfl⟩
abbrev main_call4_call0_v1 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_cst_13 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_call5_cst : Ref sig .tc := ⟨.hbm, 204, rfl⟩
abbrev main_call5_v0 : Ref sig .tc := ⟨.hbm, 205, rfl⟩
abbrev main_v103 : Ref sig .tc := ⟨.hbm, 206, rfl⟩
abbrev main_c_14 : Ref sig .tc := ⟨.hbm, 207, rfl⟩
abbrev main_v104 : Ref sig .tc := ⟨.hbm, 208, rfl⟩
abbrev main_v105 : Ref sig .tc := ⟨.hbm, 209, rfl⟩
abbrev main_c_15 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_cst_16 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_v115 : Ref sig .tc := ⟨.hbm, 221, rfl⟩
abbrev main_cst_17 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_cst_18 : Ref sig .tc := ⟨.hbm, 239, rfl⟩
abbrev main_v132 : Ref sig .tc := ⟨.hbm, 240, rfl⟩
abbrev main_cst_19 : Ref sig .tc := ⟨.hbm, 241, rfl⟩
abbrev main_v133 : Ref sig .tc := ⟨.hbm, 242, rfl⟩
abbrev main_v134 : Ref sig .tc := ⟨.hbm, 243, rfl⟩
abbrev main_c_20 : Ref sig .tc := ⟨.hbm, 244, rfl⟩
abbrev main_call6_cst : Ref sig .tc := ⟨.hbm, 245, rfl⟩
abbrev main_call6_v0 : Ref sig .tc := ⟨.hbm, 246, rfl⟩
abbrev main_call6_v1 : Ref sig .tc := ⟨.hbm, 247, rfl⟩
abbrev main_call6_cst_0 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_call6_v5 : Ref sig .tc := ⟨.hbm, 252, rfl⟩
abbrev main_call6_v6 : Ref sig .tc := ⟨.hbm, 253, rfl⟩
abbrev main_call6_v7 : Ref sig .tc := ⟨.hbm, 254, rfl⟩
abbrev main_call6_cst_1 : Ref sig .tc := ⟨.hbm, 255, rfl⟩
abbrev main_call6_v8 : Ref sig .tc := ⟨.hbm, 256, rfl⟩
abbrev main_call6_cst_2 : Ref sig .tc := ⟨.hbm, 257, rfl⟩
abbrev main_call6_v9 : Ref sig .tc := ⟨.hbm, 258, rfl⟩
abbrev main_call6_v10 : Ref sig .tc := ⟨.hbm, 259, rfl⟩
abbrev main_call6_v11 : Ref sig .tc := ⟨.hbm, 260, rfl⟩
abbrev main_call6_cst_3 : Ref sig .tc := ⟨.hbm, 261, rfl⟩
abbrev main_call6_v12 : Ref sig .tc := ⟨.hbm, 262, rfl⟩
abbrev main_call6_cst_4 : Ref sig .tc := ⟨.hbm, 263, rfl⟩
abbrev main_call6_call0_v0 : Ref sig .tc := ⟨.hbm, 264, rfl⟩
abbrev main_call6_call0_v1 : Ref sig .tc := ⟨.hbm, 265, rfl⟩
abbrev main_v135 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_cst_21 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_v146 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_call7_cst : Ref sig .tc := ⟨.hbm, 283, rfl⟩
abbrev main_call7_v0 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_cst_22 : Ref sig .tc := ⟨.hbm, 298, rfl⟩
abbrev main_v164 : Ref sig .tc := ⟨.hbm, 299, rfl⟩
abbrev main_cst_23 : Ref sig .tc := ⟨.hbm, 300, rfl⟩
abbrev main_v165 : Ref sig .tc := ⟨.hbm, 301, rfl⟩
abbrev main_v166 : Ref sig .tc := ⟨.hbm, 302, rfl⟩
abbrev main_c_24 : Ref sig .tc := ⟨.hbm, 303, rfl⟩
abbrev main_call8_cst : Ref sig .tc := ⟨.hbm, 304, rfl⟩
abbrev main_call8_v0 : Ref sig .tc := ⟨.hbm, 305, rfl⟩
abbrev main_call8_v1 : Ref sig .tc := ⟨.hbm, 306, rfl⟩
abbrev main_call8_cst_0 : Ref sig .tc := ⟨.hbm, 307, rfl⟩
abbrev main_call8_v2 : Ref sig .tc := ⟨.hbm, 308, rfl⟩
abbrev main_call8_v3 : Ref sig .tc := ⟨.hbm, 309, rfl⟩
abbrev main_call8_v4 : Ref sig .tc := ⟨.hbm, 310, rfl⟩
abbrev main_call8_v5 : Ref sig .tc := ⟨.hbm, 311, rfl⟩
abbrev main_call8_v6 : Ref sig .tc := ⟨.hbm, 312, rfl⟩
abbrev main_call8_v7 : Ref sig .tc := ⟨.hbm, 313, rfl⟩
abbrev main_call8_cst_1 : Ref sig .tc := ⟨.hbm, 314, rfl⟩
abbrev main_call8_v8 : Ref sig .tc := ⟨.hbm, 315, rfl⟩
abbrev main_call8_cst_2 : Ref sig .tc := ⟨.hbm, 316, rfl⟩
abbrev main_call8_v9 : Ref sig .tc := ⟨.hbm, 317, rfl⟩
abbrev main_call8_v10 : Ref sig .tc := ⟨.hbm, 318, rfl⟩
abbrev main_call8_v11 : Ref sig .tc := ⟨.hbm, 319, rfl⟩
abbrev main_call8_cst_3 : Ref sig .tc := ⟨.hbm, 320, rfl⟩
abbrev main_call8_v12 : Ref sig .tc := ⟨.hbm, 321, rfl⟩
abbrev main_call8_cst_4 : Ref sig .tc := ⟨.hbm, 322, rfl⟩
abbrev main_call8_call0_v0 : Ref sig .tc := ⟨.hbm, 323, rfl⟩
abbrev main_call8_call0_v1 : Ref sig .tc := ⟨.hbm, 324, rfl⟩
abbrev main_v167 : Ref sig .tc := ⟨.hbm, 325, rfl⟩
abbrev main_v168 : Ref sig .tc := ⟨.hbm, 326, rfl⟩
abbrev main_v169 : Ref sig .tc := ⟨.hbm, 327, rfl⟩
abbrev main_v170 : Ref sig .tc := ⟨.hbm, 328, rfl⟩
abbrev main_cst_25 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_v175 : Ref sig .tc := ⟨.hbm, 334, rfl⟩
abbrev main_v176 : Ref sig .tc := ⟨.hbm, 335, rfl⟩
abbrev main_v177 : Ref sig .tc := ⟨.hbm, 336, rfl⟩
abbrev main_v178 : Ref sig .tc := ⟨.hbm, 337, rfl⟩
abbrev main_v179 : Ref sig .tc := ⟨.hbm, 338, rfl⟩
abbrev main_v180 : Ref sig .tc := ⟨.hbm, 339, rfl⟩
abbrev main_v181 : Ref sig .tc := ⟨.hbm, 340, rfl⟩
abbrev main_v182 : Ref sig .tc := ⟨.hbm, 341, rfl⟩
abbrev main_call9_cst : Ref sig .tc := ⟨.hbm, 342, rfl⟩
abbrev main_call9_v0 : Ref sig .tc := ⟨.hbm, 343, rfl⟩
abbrev main_v183 : Ref sig .tc := ⟨.hbm, 344, rfl⟩
abbrev main_v184 : Ref sig .tc := ⟨.hbm, 345, rfl⟩
abbrev main_v185 : Ref sig .tc := ⟨.hbm, 346, rfl⟩
abbrev main_v186 : Ref sig .tc := ⟨.hbm, 347, rfl⟩
abbrev main_v187 : Ref sig .tc := ⟨.hbm, 348, rfl⟩
abbrev main_cst_26 : Ref sig .tc := ⟨.hbm, 349, rfl⟩
abbrev main_v188 : Ref sig .tc := ⟨.hbm, 350, rfl⟩
abbrev main_cst_27 : Ref sig .tc := ⟨.hbm, 351, rfl⟩
abbrev main_v189 : Ref sig .tc := ⟨.hbm, 352, rfl⟩
abbrev main_v190 : Ref sig .tc := ⟨.hbm, 353, rfl⟩
abbrev main_c_28 : Ref sig .tc := ⟨.hbm, 354, rfl⟩
abbrev main_call10_cst : Ref sig .tc := ⟨.hbm, 355, rfl⟩
abbrev main_call10_v0 : Ref sig .tc := ⟨.hbm, 356, rfl⟩
abbrev main_call10_v1 : Ref sig .tc := ⟨.hbm, 357, rfl⟩
abbrev main_call10_cst_0 : Ref sig .tc := ⟨.hbm, 358, rfl⟩
abbrev main_call10_v2 : Ref sig .tc := ⟨.hbm, 359, rfl⟩
abbrev main_call10_v3 : Ref sig .tc := ⟨.hbm, 360, rfl⟩
abbrev main_call10_v4 : Ref sig .tc := ⟨.hbm, 361, rfl⟩
abbrev main_call10_v5 : Ref sig .tc := ⟨.hbm, 362, rfl⟩
abbrev main_call10_v6 : Ref sig .tc := ⟨.hbm, 363, rfl⟩
abbrev main_call10_v7 : Ref sig .tc := ⟨.hbm, 364, rfl⟩
abbrev main_call10_cst_1 : Ref sig .tc := ⟨.hbm, 365, rfl⟩
abbrev main_call10_v8 : Ref sig .tc := ⟨.hbm, 366, rfl⟩
abbrev main_call10_cst_2 : Ref sig .tc := ⟨.hbm, 367, rfl⟩
abbrev main_call10_v9 : Ref sig .tc := ⟨.hbm, 368, rfl⟩
abbrev main_call10_v10 : Ref sig .tc := ⟨.hbm, 369, rfl⟩
abbrev main_call10_v11 : Ref sig .tc := ⟨.hbm, 370, rfl⟩
abbrev main_call10_cst_3 : Ref sig .tc := ⟨.hbm, 371, rfl⟩
abbrev main_call10_v12 : Ref sig .tc := ⟨.hbm, 372, rfl⟩
abbrev main_call10_cst_4 : Ref sig .tc := ⟨.hbm, 373, rfl⟩
abbrev main_call10_call0_v0 : Ref sig .tc := ⟨.hbm, 374, rfl⟩
abbrev main_call10_call0_v1 : Ref sig .tc := ⟨.hbm, 375, rfl⟩
abbrev main_v191 : Ref sig .tc := ⟨.hbm, 376, rfl⟩
abbrev main_v192 : Ref sig .tc := ⟨.hbm, 377, rfl⟩
abbrev main_v193 : Ref sig .tc := ⟨.hbm, 378, rfl⟩
abbrev main_v194 : Ref sig .tc := ⟨.hbm, 379, rfl⟩
abbrev main_cst_29 : Ref sig .tc := ⟨.hbm, 380, rfl⟩
abbrev main_v195 : Ref sig .tc := ⟨.hbm, 381, rfl⟩
abbrev main_v196 : Ref sig .tc := ⟨.hbm, 382, rfl⟩
abbrev main_v197 : Ref sig .tc := ⟨.hbm, 383, rfl⟩
abbrev main_v198 : Ref sig .tc := ⟨.hbm, 384, rfl⟩
abbrev main_v199 : Ref sig .tc := ⟨.hbm, 385, rfl⟩
abbrev main_v200 : Ref sig .tc := ⟨.hbm, 386, rfl⟩
abbrev main_v201 : Ref sig .tc := ⟨.hbm, 387, rfl⟩
abbrev main_v202 : Ref sig .tc := ⟨.hbm, 388, rfl⟩
abbrev main_v203 : Ref sig .tc := ⟨.hbm, 389, rfl⟩
abbrev main_v204 : Ref sig .tc := ⟨.hbm, 390, rfl⟩
abbrev main_v205 : Ref sig .tc := ⟨.hbm, 391, rfl⟩
abbrev main_v206 : Ref sig .tc := ⟨.hbm, 392, rfl⟩
abbrev main_call11_cst : Ref sig .tc := ⟨.hbm, 393, rfl⟩
abbrev main_call11_v0 : Ref sig .tc := ⟨.hbm, 394, rfl⟩
abbrev main_v207 : Ref sig .tc := ⟨.hbm, 395, rfl⟩
abbrev main_c_30 : Ref sig .tc := ⟨.hbm, 396, rfl⟩
abbrev main_v208 : Ref sig .tc := ⟨.hbm, 397, rfl⟩
abbrev main_v209 : Ref sig .tc := ⟨.hbm, 398, rfl⟩
abbrev main_c_31 : Ref sig .tc := ⟨.hbm, 399, rfl⟩
abbrev main_v210 : Ref sig .tc := ⟨.hbm, 400, rfl⟩
abbrev main_v211 : Ref sig .tc := ⟨.hbm, 401, rfl⟩
abbrev main_v212 : Ref sig .tc := ⟨.hbm, 402, rfl⟩
abbrev main_v213 : Ref sig .tc := ⟨.hbm, 403, rfl⟩
abbrev main_v214 : Ref sig .tc := ⟨.hbm, 404, rfl⟩
abbrev main_cst_32 : Ref sig .tc := ⟨.hbm, 405, rfl⟩
abbrev main_v215 : Ref sig .tc := ⟨.hbm, 406, rfl⟩
abbrev main_v216 : Ref sig .tc := ⟨.hbm, 407, rfl⟩
abbrev main_v217 : Ref sig .tc := ⟨.hbm, 408, rfl⟩
abbrev main_v218 : Ref sig .tc := ⟨.hbm, 409, rfl⟩
abbrev main_v219 : Ref sig .tc := ⟨.hbm, 410, rfl⟩
abbrev main_cst_33 : Ref sig .tc := ⟨.hbm, 411, rfl⟩
abbrev main_v220 : Ref sig .tc := ⟨.hbm, 412, rfl⟩
abbrev main_v221 : Ref sig .tc := ⟨.hbm, 413, rfl⟩
abbrev main_v222 : Ref sig .tc := ⟨.hbm, 414, rfl⟩
abbrev main_v223 : Ref sig .tc := ⟨.hbm, 415, rfl⟩
abbrev main_v224 : Ref sig .tc := ⟨.hbm, 416, rfl⟩
abbrev main_v225 : Ref sig .tc := ⟨.hbm, 417, rfl⟩
abbrev main_v226 : Ref sig .tc := ⟨.hbm, 418, rfl⟩
abbrev main_v227 : Ref sig .tc := ⟨.hbm, 419, rfl⟩
abbrev main_v228 : Ref sig .tc := ⟨.hbm, 420, rfl⟩
abbrev main_v229 : Ref sig .tc := ⟨.hbm, 421, rfl⟩
abbrev main_v230 : Ref sig .tc := ⟨.hbm, 422, rfl⟩
abbrev main_v231 : Ref sig .tc := ⟨.hbm, 423, rfl⟩
abbrev main_v232 : Ref sig .tc := ⟨.hbm, 424, rfl⟩
abbrev main_v233 : Ref sig .tc := ⟨.hbm, 425, rfl⟩
abbrev main_v234 : Ref sig .tc := ⟨.hbm, 426, rfl⟩
abbrev main_v235 : Ref sig .tc := ⟨.hbm, 427, rfl⟩
abbrev main_cst_34 : Ref sig .tc := ⟨.hbm, 428, rfl⟩
abbrev main_v236 : Ref sig .tc := ⟨.hbm, 429, rfl⟩
abbrev main_cst_35 : Ref sig .tc := ⟨.hbm, 430, rfl⟩
abbrev main_v237 : Ref sig .tc := ⟨.hbm, 431, rfl⟩
abbrev main_v238 : Ref sig .tc := ⟨.hbm, 432, rfl⟩
abbrev main_c_36 : Ref sig .tc := ⟨.hbm, 433, rfl⟩
abbrev main_call12_cst : Ref sig .tc := ⟨.hbm, 434, rfl⟩
abbrev main_call12_v0 : Ref sig .tc := ⟨.hbm, 435, rfl⟩
abbrev main_call12_v1 : Ref sig .tc := ⟨.hbm, 436, rfl⟩
abbrev main_call12_cst_0 : Ref sig .tc := ⟨.hbm, 437, rfl⟩
abbrev main_call12_v2 : Ref sig .tc := ⟨.hbm, 438, rfl⟩
abbrev main_call12_v3 : Ref sig .tc := ⟨.hbm, 439, rfl⟩
abbrev main_call12_v4 : Ref sig .tc := ⟨.hbm, 440, rfl⟩
abbrev main_call12_v5 : Ref sig .tc := ⟨.hbm, 441, rfl⟩
abbrev main_call12_v6 : Ref sig .tc := ⟨.hbm, 442, rfl⟩
abbrev main_call12_v7 : Ref sig .tc := ⟨.hbm, 443, rfl⟩
abbrev main_call12_cst_1 : Ref sig .tc := ⟨.hbm, 444, rfl⟩
abbrev main_call12_v8 : Ref sig .tc := ⟨.hbm, 445, rfl⟩
abbrev main_call12_cst_2 : Ref sig .tc := ⟨.hbm, 446, rfl⟩
abbrev main_call12_v9 : Ref sig .tc := ⟨.hbm, 447, rfl⟩
abbrev main_call12_v10 : Ref sig .tc := ⟨.hbm, 448, rfl⟩
abbrev main_call12_v11 : Ref sig .tc := ⟨.hbm, 449, rfl⟩
abbrev main_call12_cst_3 : Ref sig .tc := ⟨.hbm, 450, rfl⟩
abbrev main_call12_v12 : Ref sig .tc := ⟨.hbm, 451, rfl⟩
abbrev main_call12_cst_4 : Ref sig .tc := ⟨.hbm, 452, rfl⟩
abbrev main_call12_call0_v0 : Ref sig .tc := ⟨.hbm, 453, rfl⟩
abbrev main_call12_call0_v1 : Ref sig .tc := ⟨.hbm, 454, rfl⟩
abbrev main_v239 : Ref sig .tc := ⟨.hbm, 455, rfl⟩
abbrev main_v240 : Ref sig .tc := ⟨.hbm, 456, rfl⟩
abbrev main_v241 : Ref sig .tc := ⟨.hbm, 457, rfl⟩
abbrev main_v242 : Ref sig .tc := ⟨.hbm, 458, rfl⟩
abbrev main_cst_37 : Ref sig .tc := ⟨.hbm, 459, rfl⟩
abbrev main_v243 : Ref sig .tc := ⟨.hbm, 460, rfl⟩
abbrev main_v244 : Ref sig .tc := ⟨.hbm, 461, rfl⟩
abbrev main_v245 : Ref sig .tc := ⟨.hbm, 462, rfl⟩
abbrev main_v246 : Ref sig .tc := ⟨.hbm, 463, rfl⟩
abbrev main_v247 : Ref sig .tc := ⟨.hbm, 464, rfl⟩
abbrev main_v248 : Ref sig .tc := ⟨.hbm, 465, rfl⟩
abbrev main_v249 : Ref sig .tc := ⟨.hbm, 466, rfl⟩
abbrev main_v250 : Ref sig .tc := ⟨.hbm, 467, rfl⟩
abbrev main_v251 : Ref sig .tc := ⟨.hbm, 468, rfl⟩
abbrev main_v252 : Ref sig .tc := ⟨.hbm, 469, rfl⟩
abbrev main_v253 : Ref sig .tc := ⟨.hbm, 470, rfl⟩
abbrev main_v254 : Ref sig .tc := ⟨.hbm, 471, rfl⟩
abbrev main_call13_cst : Ref sig .tc := ⟨.hbm, 472, rfl⟩
abbrev main_call13_v0 : Ref sig .tc := ⟨.hbm, 473, rfl⟩
abbrev main_v255 : Ref sig .tc := ⟨.hbm, 474, rfl⟩
abbrev main_v256 : Ref sig .tc := ⟨.hbm, 475, rfl⟩
abbrev main_v257 : Ref sig .tc := ⟨.hbm, 476, rfl⟩
abbrev main_v258 : Ref sig .tc := ⟨.hbm, 477, rfl⟩
abbrev main_v259 : Ref sig .tc := ⟨.hbm, 478, rfl⟩
abbrev main_v260 : Ref sig .tc := ⟨.hbm, 479, rfl⟩
abbrev main_v261 : Ref sig .tc := ⟨.hbm, 480, rfl⟩
abbrev main_v262 : Ref sig .tc := ⟨.hbm, 481, rfl⟩
abbrev main_v263 : Ref sig .tc := ⟨.hbm, 482, rfl⟩
abbrev main_v264 : Ref sig .tc := ⟨.hbm, 483, rfl⟩
abbrev main_v265 : Ref sig .tc := ⟨.hbm, 484, rfl⟩
abbrev main_v266 : Ref sig .tc := ⟨.hbm, 485, rfl⟩
abbrev main_v267 : Ref sig .tc := ⟨.hbm, 486, rfl⟩
abbrev main_cst_38 : Ref sig .tc := ⟨.hbm, 487, rfl⟩
abbrev main_v268 : Ref sig .tc := ⟨.hbm, 488, rfl⟩
abbrev main_cst_39 : Ref sig .tc := ⟨.hbm, 489, rfl⟩
abbrev main_v269 : Ref sig .tc := ⟨.hbm, 490, rfl⟩
abbrev main_v270 : Ref sig .tc := ⟨.hbm, 491, rfl⟩
abbrev main_c_40 : Ref sig .tc := ⟨.hbm, 492, rfl⟩
abbrev main_call14_cst : Ref sig .tc := ⟨.hbm, 493, rfl⟩
abbrev main_call14_v0 : Ref sig .tc := ⟨.hbm, 494, rfl⟩
abbrev main_call14_v1 : Ref sig .tc := ⟨.hbm, 495, rfl⟩
abbrev main_call14_cst_0 : Ref sig .tc := ⟨.hbm, 496, rfl⟩
abbrev main_call14_v2 : Ref sig .tc := ⟨.hbm, 497, rfl⟩
abbrev main_call14_v3 : Ref sig .tc := ⟨.hbm, 498, rfl⟩
abbrev main_call14_v4 : Ref sig .tc := ⟨.hbm, 499, rfl⟩
abbrev main_call14_v5 : Ref sig .tc := ⟨.hbm, 500, rfl⟩
abbrev main_call14_v6 : Ref sig .tc := ⟨.hbm, 501, rfl⟩
abbrev main_call14_v7 : Ref sig .tc := ⟨.hbm, 502, rfl⟩
abbrev main_call14_cst_1 : Ref sig .tc := ⟨.hbm, 503, rfl⟩
abbrev main_call14_v8 : Ref sig .tc := ⟨.hbm, 504, rfl⟩
abbrev main_call14_cst_2 : Ref sig .tc := ⟨.hbm, 505, rfl⟩
abbrev main_call14_v9 : Ref sig .tc := ⟨.hbm, 506, rfl⟩
abbrev main_call14_v10 : Ref sig .tc := ⟨.hbm, 507, rfl⟩
abbrev main_call14_v11 : Ref sig .tc := ⟨.hbm, 508, rfl⟩
abbrev main_call14_cst_3 : Ref sig .tc := ⟨.hbm, 509, rfl⟩
abbrev main_call14_v12 : Ref sig .tc := ⟨.hbm, 510, rfl⟩
abbrev main_call14_cst_4 : Ref sig .tc := ⟨.hbm, 511, rfl⟩
abbrev main_call14_call0_v0 : Ref sig .tc := ⟨.hbm, 512, rfl⟩
abbrev main_call14_call0_v1 : Ref sig .tc := ⟨.hbm, 513, rfl⟩
abbrev main_v271 : Ref sig .tc := ⟨.hbm, 514, rfl⟩
abbrev main_v272 : Ref sig .tc := ⟨.hbm, 515, rfl⟩
abbrev main_v273 : Ref sig .tc := ⟨.hbm, 516, rfl⟩
abbrev main_v274 : Ref sig .tc := ⟨.hbm, 517, rfl⟩
abbrev main_cst_41 : Ref sig .tc := ⟨.hbm, 518, rfl⟩
abbrev main_v275 : Ref sig .tc := ⟨.hbm, 519, rfl⟩
abbrev main_v276 : Ref sig .tc := ⟨.hbm, 520, rfl⟩
abbrev main_v277 : Ref sig .tc := ⟨.hbm, 521, rfl⟩
abbrev main_v278 : Ref sig .tc := ⟨.hbm, 522, rfl⟩
abbrev main_v279 : Ref sig .tc := ⟨.hbm, 523, rfl⟩
abbrev main_v280 : Ref sig .tc := ⟨.hbm, 524, rfl⟩
abbrev main_v281 : Ref sig .tc := ⟨.hbm, 525, rfl⟩
abbrev main_v282 : Ref sig .tc := ⟨.hbm, 526, rfl⟩
abbrev main_v283 : Ref sig .tc := ⟨.hbm, 527, rfl⟩
abbrev main_v284 : Ref sig .tc := ⟨.hbm, 528, rfl⟩
abbrev main_v285 : Ref sig .tc := ⟨.hbm, 529, rfl⟩
abbrev main_v286 : Ref sig .tc := ⟨.hbm, 530, rfl⟩
abbrev main_call15_cst : Ref sig .tc := ⟨.hbm, 531, rfl⟩
abbrev main_call15_v0 : Ref sig .tc := ⟨.hbm, 532, rfl⟩
abbrev main_v287 : Ref sig .tc := ⟨.hbm, 533, rfl⟩
abbrev main_v288 : Ref sig .tc := ⟨.hbm, 534, rfl⟩
abbrev main_v289 : Ref sig .tc := ⟨.hbm, 535, rfl⟩
abbrev main_v290 : Ref sig .tc := ⟨.hbm, 536, rfl⟩
abbrev main_v291 : Ref sig .tc := ⟨.hbm, 537, rfl⟩
abbrev main_cst_42 : Ref sig .tc := ⟨.hbm, 538, rfl⟩
abbrev main_v292 : Ref sig .tc := ⟨.hbm, 539, rfl⟩
abbrev main_cst_43 : Ref sig .tc := ⟨.hbm, 540, rfl⟩
abbrev main_v293 : Ref sig .tc := ⟨.hbm, 541, rfl⟩
abbrev main_v294 : Ref sig .tc := ⟨.hbm, 542, rfl⟩
abbrev main_c_44 : Ref sig .tc := ⟨.hbm, 543, rfl⟩
abbrev main_call16_cst : Ref sig .tc := ⟨.hbm, 544, rfl⟩
abbrev main_call16_v0 : Ref sig .tc := ⟨.hbm, 545, rfl⟩
abbrev main_call16_v1 : Ref sig .tc := ⟨.hbm, 546, rfl⟩
abbrev main_call16_cst_0 : Ref sig .tc := ⟨.hbm, 547, rfl⟩
abbrev main_call16_v2 : Ref sig .tc := ⟨.hbm, 548, rfl⟩
abbrev main_call16_v3 : Ref sig .tc := ⟨.hbm, 549, rfl⟩
abbrev main_call16_v4 : Ref sig .tc := ⟨.hbm, 550, rfl⟩
abbrev main_call16_v5 : Ref sig .tc := ⟨.hbm, 551, rfl⟩
abbrev main_call16_v6 : Ref sig .tc := ⟨.hbm, 552, rfl⟩
abbrev main_call16_v7 : Ref sig .tc := ⟨.hbm, 553, rfl⟩
abbrev main_call16_cst_1 : Ref sig .tc := ⟨.hbm, 554, rfl⟩
abbrev main_call16_v8 : Ref sig .tc := ⟨.hbm, 555, rfl⟩
abbrev main_call16_cst_2 : Ref sig .tc := ⟨.hbm, 556, rfl⟩
abbrev main_call16_v9 : Ref sig .tc := ⟨.hbm, 557, rfl⟩
abbrev main_call16_v10 : Ref sig .tc := ⟨.hbm, 558, rfl⟩
abbrev main_call16_v11 : Ref sig .tc := ⟨.hbm, 559, rfl⟩
abbrev main_call16_cst_3 : Ref sig .tc := ⟨.hbm, 560, rfl⟩
abbrev main_call16_v12 : Ref sig .tc := ⟨.hbm, 561, rfl⟩
abbrev main_call16_cst_4 : Ref sig .tc := ⟨.hbm, 562, rfl⟩
abbrev main_call16_call0_v0 : Ref sig .tc := ⟨.hbm, 563, rfl⟩
abbrev main_call16_call0_v1 : Ref sig .tc := ⟨.hbm, 564, rfl⟩
abbrev main_v295 : Ref sig .tc := ⟨.hbm, 565, rfl⟩
abbrev main_v296 : Ref sig .tc := ⟨.hbm, 566, rfl⟩
abbrev main_v297 : Ref sig .tc := ⟨.hbm, 567, rfl⟩
abbrev main_v298 : Ref sig .tc := ⟨.hbm, 568, rfl⟩
abbrev main_cst_45 : Ref sig .tc := ⟨.hbm, 569, rfl⟩
abbrev main_v299 : Ref sig .tc := ⟨.hbm, 570, rfl⟩
abbrev main_v300 : Ref sig .tc := ⟨.hbm, 571, rfl⟩
abbrev main_v301 : Ref sig .tc := ⟨.hbm, 572, rfl⟩
abbrev main_v302 : Ref sig .tc := ⟨.hbm, 573, rfl⟩
abbrev main_v303 : Ref sig .tc := ⟨.hbm, 574, rfl⟩
abbrev main_v304 : Ref sig .tc := ⟨.hbm, 575, rfl⟩
abbrev main_v305 : Ref sig .tc := ⟨.hbm, 576, rfl⟩
abbrev main_v306 : Ref sig .tc := ⟨.hbm, 577, rfl⟩
abbrev main_v307 : Ref sig .tc := ⟨.hbm, 578, rfl⟩
abbrev main_v308 : Ref sig .tc := ⟨.hbm, 579, rfl⟩
abbrev main_v309 : Ref sig .tc := ⟨.hbm, 580, rfl⟩
abbrev main_v310 : Ref sig .tc := ⟨.hbm, 581, rfl⟩
abbrev main_call17_cst : Ref sig .tc := ⟨.hbm, 582, rfl⟩
abbrev main_call17_v0 : Ref sig .tc := ⟨.hbm, 583, rfl⟩
abbrev main_v311 : Ref sig .tc := ⟨.hbm, 584, rfl⟩
abbrev main_c_46 : Ref sig .tc := ⟨.hbm, 585, rfl⟩
abbrev main_v312 : Ref sig .tc := ⟨.hbm, 586, rfl⟩
abbrev main_v313 : Ref sig .tc := ⟨.hbm, 587, rfl⟩
abbrev main_c_47 : Ref sig .tc := ⟨.hbm, 588, rfl⟩
abbrev main_v314 : Ref sig .tc := ⟨.hbm, 589, rfl⟩
abbrev main_v315 : Ref sig .tc := ⟨.hbm, 590, rfl⟩
abbrev main_v316 : Ref sig .tc := ⟨.hbm, 591, rfl⟩
abbrev main_v317 : Ref sig .tc := ⟨.hbm, 592, rfl⟩
abbrev main_v318 : Ref sig .tc := ⟨.hbm, 593, rfl⟩
abbrev main_cst_48 : Ref sig .tc := ⟨.hbm, 594, rfl⟩
abbrev main_v319 : Ref sig .tc := ⟨.hbm, 595, rfl⟩
abbrev main_v320 : Ref sig .tc := ⟨.hbm, 596, rfl⟩
abbrev main_v321 : Ref sig .tc := ⟨.hbm, 597, rfl⟩
abbrev main_v322 : Ref sig .tc := ⟨.hbm, 598, rfl⟩
abbrev main_v323 : Ref sig .tc := ⟨.hbm, 599, rfl⟩
abbrev main_cst_49 : Ref sig .tc := ⟨.hbm, 600, rfl⟩
abbrev main_v324 : Ref sig .tc := ⟨.hbm, 601, rfl⟩
abbrev main_v325 : Ref sig .tc := ⟨.hbm, 602, rfl⟩
abbrev main_v326 : Ref sig .tc := ⟨.hbm, 603, rfl⟩
abbrev main_v327 : Ref sig .tc := ⟨.hbm, 604, rfl⟩
abbrev main_v328 : Ref sig .tc := ⟨.hbm, 605, rfl⟩
abbrev main_v329 : Ref sig .tc := ⟨.hbm, 606, rfl⟩
abbrev main_v330 : Ref sig .tc := ⟨.hbm, 607, rfl⟩
abbrev main_v331 : Ref sig .tc := ⟨.hbm, 608, rfl⟩
abbrev main_v332 : Ref sig .tc := ⟨.hbm, 609, rfl⟩
abbrev main_v333 : Ref sig .tc := ⟨.hbm, 610, rfl⟩
abbrev main_v334 : Ref sig .tc := ⟨.hbm, 611, rfl⟩
abbrev main_v335 : Ref sig .tc := ⟨.hbm, 612, rfl⟩
abbrev main_v336 : Ref sig .tc := ⟨.hbm, 613, rfl⟩
abbrev main_v337 : Ref sig .tc := ⟨.hbm, 614, rfl⟩
abbrev main_v338 : Ref sig .tc := ⟨.hbm, 615, rfl⟩
abbrev main_v339 : Ref sig .tc := ⟨.hbm, 616, rfl⟩
abbrev main_cst_50 : Ref sig .tc := ⟨.hbm, 617, rfl⟩
abbrev main_v340 : Ref sig .tc := ⟨.hbm, 618, rfl⟩
abbrev main_cst_51 : Ref sig .tc := ⟨.hbm, 619, rfl⟩
abbrev main_v341 : Ref sig .tc := ⟨.hbm, 620, rfl⟩
abbrev main_v342 : Ref sig .tc := ⟨.hbm, 621, rfl⟩
abbrev main_c_52 : Ref sig .tc := ⟨.hbm, 622, rfl⟩
abbrev main_call18_cst : Ref sig .tc := ⟨.hbm, 623, rfl⟩
abbrev main_call18_v0 : Ref sig .tc := ⟨.hbm, 624, rfl⟩
abbrev main_call18_v1 : Ref sig .tc := ⟨.hbm, 625, rfl⟩
abbrev main_call18_cst_0 : Ref sig .tc := ⟨.hbm, 626, rfl⟩
abbrev main_call18_v2 : Ref sig .tc := ⟨.hbm, 627, rfl⟩
abbrev main_call18_v3 : Ref sig .tc := ⟨.hbm, 628, rfl⟩
abbrev main_call18_v4 : Ref sig .tc := ⟨.hbm, 629, rfl⟩
abbrev main_call18_v5 : Ref sig .tc := ⟨.hbm, 630, rfl⟩
abbrev main_call18_v6 : Ref sig .tc := ⟨.hbm, 631, rfl⟩
abbrev main_call18_v7 : Ref sig .tc := ⟨.hbm, 632, rfl⟩
abbrev main_call18_cst_1 : Ref sig .tc := ⟨.hbm, 633, rfl⟩
abbrev main_call18_v8 : Ref sig .tc := ⟨.hbm, 634, rfl⟩
abbrev main_call18_cst_2 : Ref sig .tc := ⟨.hbm, 635, rfl⟩
abbrev main_call18_v9 : Ref sig .tc := ⟨.hbm, 636, rfl⟩
abbrev main_call18_v10 : Ref sig .tc := ⟨.hbm, 637, rfl⟩
abbrev main_call18_v11 : Ref sig .tc := ⟨.hbm, 638, rfl⟩
abbrev main_call18_cst_3 : Ref sig .tc := ⟨.hbm, 639, rfl⟩
abbrev main_call18_v12 : Ref sig .tc := ⟨.hbm, 640, rfl⟩
abbrev main_call18_cst_4 : Ref sig .tc := ⟨.hbm, 641, rfl⟩
abbrev main_call18_call0_v0 : Ref sig .tc := ⟨.hbm, 642, rfl⟩
abbrev main_call18_call0_v1 : Ref sig .tc := ⟨.hbm, 643, rfl⟩
abbrev main_v343 : Ref sig .tc := ⟨.hbm, 644, rfl⟩
abbrev main_v344 : Ref sig .tc := ⟨.hbm, 645, rfl⟩
abbrev main_v345 : Ref sig .tc := ⟨.hbm, 646, rfl⟩
abbrev main_v346 : Ref sig .tc := ⟨.hbm, 647, rfl⟩
abbrev main_cst_53 : Ref sig .tc := ⟨.hbm, 648, rfl⟩
abbrev main_v347 : Ref sig .tc := ⟨.hbm, 649, rfl⟩
abbrev main_v348 : Ref sig .tc := ⟨.hbm, 650, rfl⟩
abbrev main_v349 : Ref sig .tc := ⟨.hbm, 651, rfl⟩
abbrev main_v350 : Ref sig .tc := ⟨.hbm, 652, rfl⟩
abbrev main_v351 : Ref sig .tc := ⟨.hbm, 653, rfl⟩
abbrev main_v352 : Ref sig .tc := ⟨.hbm, 654, rfl⟩
abbrev main_v353 : Ref sig .tc := ⟨.hbm, 655, rfl⟩
abbrev main_v354 : Ref sig .tc := ⟨.hbm, 656, rfl⟩
abbrev main_v355 : Ref sig .tc := ⟨.hbm, 657, rfl⟩
abbrev main_v356 : Ref sig .tc := ⟨.hbm, 658, rfl⟩
abbrev main_v357 : Ref sig .tc := ⟨.hbm, 659, rfl⟩
abbrev main_v358 : Ref sig .tc := ⟨.hbm, 660, rfl⟩
abbrev main_call19_cst : Ref sig .tc := ⟨.hbm, 661, rfl⟩
abbrev main_call19_v0 : Ref sig .tc := ⟨.hbm, 662, rfl⟩
abbrev main_v359 : Ref sig .tc := ⟨.hbm, 663, rfl⟩
abbrev main_v360 : Ref sig .tc := ⟨.hbm, 664, rfl⟩
abbrev main_v361 : Ref sig .tc := ⟨.hbm, 665, rfl⟩
abbrev main_v362 : Ref sig .tc := ⟨.hbm, 666, rfl⟩
abbrev main_v363 : Ref sig .tc := ⟨.hbm, 667, rfl⟩
abbrev main_v364 : Ref sig .tc := ⟨.hbm, 668, rfl⟩
abbrev main_v365 : Ref sig .tc := ⟨.hbm, 669, rfl⟩
abbrev main_v366 : Ref sig .tc := ⟨.hbm, 670, rfl⟩
abbrev main_v367 : Ref sig .tc := ⟨.hbm, 671, rfl⟩
abbrev main_v368 : Ref sig .tc := ⟨.hbm, 672, rfl⟩
abbrev main_v369 : Ref sig .tc := ⟨.hbm, 673, rfl⟩
abbrev main_v370 : Ref sig .tc := ⟨.hbm, 674, rfl⟩
abbrev main_v371 : Ref sig .tc := ⟨.hbm, 675, rfl⟩
abbrev main_cst_54 : Ref sig .tc := ⟨.hbm, 676, rfl⟩
abbrev main_v372 : Ref sig .tc := ⟨.hbm, 677, rfl⟩
abbrev main_cst_55 : Ref sig .tc := ⟨.hbm, 678, rfl⟩
abbrev main_v373 : Ref sig .tc := ⟨.hbm, 679, rfl⟩
abbrev main_v374 : Ref sig .tc := ⟨.hbm, 680, rfl⟩
abbrev main_c_56 : Ref sig .tc := ⟨.hbm, 681, rfl⟩
abbrev main_call20_cst : Ref sig .tc := ⟨.hbm, 682, rfl⟩
abbrev main_call20_v0 : Ref sig .tc := ⟨.hbm, 683, rfl⟩
abbrev main_call20_v1 : Ref sig .tc := ⟨.hbm, 684, rfl⟩
abbrev main_call20_cst_0 : Ref sig .tc := ⟨.hbm, 685, rfl⟩
abbrev main_call20_v2 : Ref sig .tc := ⟨.hbm, 686, rfl⟩
abbrev main_call20_v3 : Ref sig .tc := ⟨.hbm, 687, rfl⟩
abbrev main_call20_v4 : Ref sig .tc := ⟨.hbm, 688, rfl⟩
abbrev main_call20_v5 : Ref sig .tc := ⟨.hbm, 689, rfl⟩
abbrev main_call20_v6 : Ref sig .tc := ⟨.hbm, 690, rfl⟩
abbrev main_call20_v7 : Ref sig .tc := ⟨.hbm, 691, rfl⟩
abbrev main_call20_cst_1 : Ref sig .tc := ⟨.hbm, 692, rfl⟩
abbrev main_call20_v8 : Ref sig .tc := ⟨.hbm, 693, rfl⟩
abbrev main_call20_cst_2 : Ref sig .tc := ⟨.hbm, 694, rfl⟩
abbrev main_call20_v9 : Ref sig .tc := ⟨.hbm, 695, rfl⟩
abbrev main_call20_v10 : Ref sig .tc := ⟨.hbm, 696, rfl⟩
abbrev main_call20_v11 : Ref sig .tc := ⟨.hbm, 697, rfl⟩
abbrev main_call20_cst_3 : Ref sig .tc := ⟨.hbm, 698, rfl⟩
abbrev main_call20_v12 : Ref sig .tc := ⟨.hbm, 699, rfl⟩
abbrev main_call20_cst_4 : Ref sig .tc := ⟨.hbm, 700, rfl⟩
abbrev main_call20_call0_v0 : Ref sig .tc := ⟨.hbm, 701, rfl⟩
abbrev main_call20_call0_v1 : Ref sig .tc := ⟨.hbm, 702, rfl⟩
abbrev main_v375 : Ref sig .tc := ⟨.hbm, 703, rfl⟩
abbrev main_v376 : Ref sig .tc := ⟨.hbm, 704, rfl⟩
abbrev main_v377 : Ref sig .tc := ⟨.hbm, 705, rfl⟩
abbrev main_v378 : Ref sig .tc := ⟨.hbm, 706, rfl⟩
abbrev main_cst_57 : Ref sig .tc := ⟨.hbm, 707, rfl⟩
abbrev main_v379 : Ref sig .tc := ⟨.hbm, 708, rfl⟩
abbrev main_v380 : Ref sig .tc := ⟨.hbm, 709, rfl⟩
abbrev main_v381 : Ref sig .tc := ⟨.hbm, 710, rfl⟩
abbrev main_v382 : Ref sig .tc := ⟨.hbm, 711, rfl⟩
abbrev main_v383 : Ref sig .tc := ⟨.hbm, 712, rfl⟩
abbrev main_v384 : Ref sig .tc := ⟨.hbm, 713, rfl⟩
abbrev main_v385 : Ref sig .tc := ⟨.hbm, 714, rfl⟩
abbrev main_v386 : Ref sig .tc := ⟨.hbm, 715, rfl⟩
abbrev main_v387 : Ref sig .tc := ⟨.hbm, 716, rfl⟩
abbrev main_v388 : Ref sig .tc := ⟨.hbm, 717, rfl⟩
abbrev main_v389 : Ref sig .tc := ⟨.hbm, 718, rfl⟩
abbrev main_v390 : Ref sig .tc := ⟨.hbm, 719, rfl⟩
abbrev main_call21_cst : Ref sig .tc := ⟨.hbm, 720, rfl⟩
abbrev main_call21_v0 : Ref sig .tc := ⟨.hbm, 721, rfl⟩
abbrev main_v391 : Ref sig .tc := ⟨.hbm, 722, rfl⟩
abbrev main_v392 : Ref sig .tc := ⟨.hbm, 723, rfl⟩
abbrev main_v393 : Ref sig .tc := ⟨.hbm, 724, rfl⟩
abbrev main_v394 : Ref sig .tc := ⟨.hbm, 725, rfl⟩
abbrev main_v395 : Ref sig .tc := ⟨.hbm, 726, rfl⟩
abbrev main_cst_58 : Ref sig .tc := ⟨.hbm, 727, rfl⟩
abbrev main_v396 : Ref sig .tc := ⟨.hbm, 728, rfl⟩
abbrev main_cst_59 : Ref sig .tc := ⟨.hbm, 729, rfl⟩
abbrev main_v397 : Ref sig .tc := ⟨.hbm, 730, rfl⟩
abbrev main_v398 : Ref sig .tc := ⟨.hbm, 731, rfl⟩
abbrev main_c_60 : Ref sig .tc := ⟨.hbm, 732, rfl⟩
abbrev main_call22_cst : Ref sig .tc := ⟨.hbm, 733, rfl⟩
abbrev main_call22_v0 : Ref sig .tc := ⟨.hbm, 734, rfl⟩
abbrev main_call22_v1 : Ref sig .tc := ⟨.hbm, 735, rfl⟩
abbrev main_call22_cst_0 : Ref sig .tc := ⟨.hbm, 736, rfl⟩
abbrev main_call22_v2 : Ref sig .tc := ⟨.hbm, 737, rfl⟩
abbrev main_call22_v3 : Ref sig .tc := ⟨.hbm, 738, rfl⟩
abbrev main_call22_v4 : Ref sig .tc := ⟨.hbm, 739, rfl⟩
abbrev main_call22_v5 : Ref sig .tc := ⟨.hbm, 740, rfl⟩
abbrev main_call22_v6 : Ref sig .tc := ⟨.hbm, 741, rfl⟩
abbrev main_call22_v7 : Ref sig .tc := ⟨.hbm, 742, rfl⟩
abbrev main_call22_cst_1 : Ref sig .tc := ⟨.hbm, 743, rfl⟩
abbrev main_call22_v8 : Ref sig .tc := ⟨.hbm, 744, rfl⟩
abbrev main_call22_cst_2 : Ref sig .tc := ⟨.hbm, 745, rfl⟩
abbrev main_call22_v9 : Ref sig .tc := ⟨.hbm, 746, rfl⟩
abbrev main_call22_v10 : Ref sig .tc := ⟨.hbm, 747, rfl⟩
abbrev main_call22_v11 : Ref sig .tc := ⟨.hbm, 748, rfl⟩
abbrev main_call22_cst_3 : Ref sig .tc := ⟨.hbm, 749, rfl⟩
abbrev main_call22_v12 : Ref sig .tc := ⟨.hbm, 750, rfl⟩
abbrev main_call22_cst_4 : Ref sig .tc := ⟨.hbm, 751, rfl⟩
abbrev main_call22_call0_v0 : Ref sig .tc := ⟨.hbm, 752, rfl⟩
abbrev main_call22_call0_v1 : Ref sig .tc := ⟨.hbm, 753, rfl⟩
abbrev main_v399 : Ref sig .tc := ⟨.hbm, 754, rfl⟩
abbrev main_v400 : Ref sig .tc := ⟨.hbm, 755, rfl⟩
abbrev main_v401 : Ref sig .tc := ⟨.hbm, 756, rfl⟩
abbrev main_v402 : Ref sig .tc := ⟨.hbm, 757, rfl⟩
abbrev main_cst_61 : Ref sig .tc := ⟨.hbm, 758, rfl⟩
abbrev main_v403 : Ref sig .tc := ⟨.hbm, 759, rfl⟩
abbrev main_v404 : Ref sig .tc := ⟨.hbm, 760, rfl⟩
abbrev main_v405 : Ref sig .tc := ⟨.hbm, 761, rfl⟩
abbrev main_v406 : Ref sig .tc := ⟨.hbm, 762, rfl⟩
abbrev main_v407 : Ref sig .tc := ⟨.hbm, 763, rfl⟩
abbrev main_v408 : Ref sig .tc := ⟨.hbm, 764, rfl⟩
abbrev main_v409 : Ref sig .tc := ⟨.hbm, 765, rfl⟩
abbrev main_v410 : Ref sig .tc := ⟨.hbm, 766, rfl⟩
abbrev main_v411 : Ref sig .tc := ⟨.hbm, 767, rfl⟩
abbrev main_v412 : Ref sig .tc := ⟨.hbm, 768, rfl⟩
abbrev main_v413 : Ref sig .tc := ⟨.hbm, 769, rfl⟩
abbrev main_v414 : Ref sig .tc := ⟨.hbm, 770, rfl⟩
abbrev main_call23_cst : Ref sig .tc := ⟨.hbm, 771, rfl⟩
abbrev main_call23_v0 : Ref sig .tc := ⟨.hbm, 772, rfl⟩
abbrev main_v415 : Ref sig .tc := ⟨.hbm, 773, rfl⟩
abbrev main_cst_62 : Ref sig .tc := ⟨.hbm, 774, rfl⟩
abbrev main_v416 : Ref sig .tc := ⟨.hbm, 775, rfl⟩
abbrev main_v417 : Ref sig .tc := ⟨.hbm, 776, rfl⟩
abbrev main_v418 : Ref sig .tc := ⟨.hbm, 777, rfl⟩
abbrev main_cst_63 : Ref sig .tc := ⟨.hbm, 778, rfl⟩
abbrev main_v419 : Ref sig .tc := ⟨.hbm, 779, rfl⟩
abbrev main_v420 : Ref sig .tc := ⟨.hbm, 780, rfl⟩
abbrev main_v421 : Ref sig .tc := ⟨.hbm, 781, rfl⟩
abbrev main_cst_64 : Ref sig .tc := ⟨.hbm, 782, rfl⟩
abbrev main_v422 : Ref sig .tc := ⟨.hbm, 783, rfl⟩
abbrev main_v423 : Ref sig .tc := ⟨.hbm, 784, rfl⟩
abbrev main_v424 : Ref sig .tc := ⟨.hbm, 785, rfl⟩
abbrev main_cst_65 : Ref sig .tc := ⟨.hbm, 786, rfl⟩
abbrev main_v425 : Ref sig .tc := ⟨.hbm, 787, rfl⟩
abbrev main_v426 : Ref sig .tc := ⟨.hbm, 788, rfl⟩
abbrev main_v427 : Ref sig .tc := ⟨.hbm, 789, rfl⟩
abbrev main_cst_66 : Ref sig .tc := ⟨.hbm, 790, rfl⟩
abbrev main_v428 : Ref sig .tc := ⟨.hbm, 791, rfl⟩
abbrev main_v429 : Ref sig .tc := ⟨.hbm, 792, rfl⟩
abbrev main_v430 : Ref sig .tc := ⟨.hbm, 793, rfl⟩
abbrev main_v431 : Ref sig .tc := ⟨.hbm, 794, rfl⟩
abbrev main_v432 : Ref sig .tc := ⟨.hbm, 795, rfl⟩
abbrev main_v433 : Ref sig .tc := ⟨.hbm, 796, rfl⟩
abbrev main_v434 : Ref sig .tc := ⟨.hbm, 797, rfl⟩
abbrev main_v435 : Ref sig .tc := ⟨.hbm, 798, rfl⟩
abbrev main_v436 : Ref sig .tc := ⟨.hbm, 799, rfl⟩
abbrev main_v437 : Ref sig .tc := ⟨.hbm, 800, rfl⟩
abbrev main_v438 : Ref sig .tc := ⟨.hbm, 801, rfl⟩
abbrev main_cst_67 : Ref sig .tc := ⟨.hbm, 802, rfl⟩
abbrev main_v439 : Ref sig .tc := ⟨.hbm, 803, rfl⟩
abbrev main_v440 : Ref sig .tc := ⟨.hbm, 804, rfl⟩
abbrev main_v441 : Ref sig .tc := ⟨.hbm, 805, rfl⟩
abbrev main_v442 : Ref sig .tc := ⟨.hbm, 806, rfl⟩
abbrev main_v443 : Ref sig .tc := ⟨.hbm, 807, rfl⟩
abbrev main_v444 : Ref sig .tc := ⟨.hbm, 808, rfl⟩
abbrev main_v445 : Ref sig .tc := ⟨.hbm, 809, rfl⟩
abbrev main_v446 : Ref sig .tc := ⟨.hbm, 810, rfl⟩
abbrev main_v447 : Ref sig .tc := ⟨.hbm, 811, rfl⟩
abbrev main_v448 : Ref sig .tc := ⟨.hbm, 812, rfl⟩
abbrev main_v449 : Ref sig .tc := ⟨.hbm, 813, rfl⟩
abbrev main_v450 : Ref sig .tc := ⟨.hbm, 814, rfl⟩
abbrev main_v451 : Ref sig .tc := ⟨.hbm, 815, rfl⟩
abbrev main_v452 : Ref sig .tc := ⟨.hbm, 816, rfl⟩
abbrev main_v453 : Ref sig .tc := ⟨.hbm, 817, rfl⟩
abbrev main_v454 : Ref sig .tc := ⟨.hbm, 818, rfl⟩
abbrev main_v455 : Ref sig .tc := ⟨.hbm, 819, rfl⟩
abbrev main_v456 : Ref sig .tc := ⟨.hbm, 820, rfl⟩
abbrev main_v457 : Ref sig .tc := ⟨.hbm, 821, rfl⟩
abbrev main_v458 : Ref sig .tc := ⟨.hbm, 822, rfl⟩
abbrev main_v459 : Ref sig .tc := ⟨.hbm, 823, rfl⟩
abbrev main_v460 : Ref sig .tc := ⟨.hbm, 824, rfl⟩
abbrev main_v461 : Ref sig .tc := ⟨.hbm, 825, rfl⟩
abbrev main_v462 : Ref sig .tc := ⟨.hbm, 826, rfl⟩
abbrev main_v463 : Ref sig .tc := ⟨.hbm, 827, rfl⟩
abbrev main_v464 : Ref sig .tc := ⟨.hbm, 828, rfl⟩
abbrev main_v465 : Ref sig .tc := ⟨.hbm, 829, rfl⟩
abbrev main_v466 : Ref sig .tc := ⟨.hbm, 830, rfl⟩
abbrev main_v467 : Ref sig .tc := ⟨.hbm, 831, rfl⟩
abbrev main_v468 : Ref sig .tc := ⟨.hbm, 832, rfl⟩
abbrev main_v469 : Ref sig .tc := ⟨.hbm, 833, rfl⟩
abbrev main_v470 : Ref sig .tc := ⟨.hbm, 834, rfl⟩
abbrev main_v471 : Ref sig .tc := ⟨.hbm, 835, rfl⟩
abbrev main_v472 : Ref sig .tc := ⟨.hbm, 836, rfl⟩
abbrev main_v473 : Ref sig .tc := ⟨.hbm, 837, rfl⟩
abbrev main_v474 : Ref sig .tc := ⟨.hbm, 838, rfl⟩
abbrev main_v475 : Ref sig .tc := ⟨.hbm, 839, rfl⟩
abbrev main_v476 : Ref sig .tc := ⟨.hbm, 840, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  slices_S5x128x64_S1x128x64_0_0_0 : S5x128x64.Slices ![0, 0, 0] S1x128x64
  shapeCasts_S1x128x64_S128x64 : S1x128x64.ShapeCasts S128x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  slices_S5x128x64_S1x128x64_1_0_0 : S5x128x64.Slices ![1, 0, 0] S1x128x64
  slices_S5x64_S1x64_1_0 : S5x64.Slices ![1, 0] S1x64
  slices_S5x128x64_S1x128x64_2_0_0 : S5x128x64.Slices ![2, 0, 0] S1x128x64
  slices_S5x64_S1x64_2_0 : S5x64.Slices ![2, 0] S1x64
  slices_S5x128x64_S1x128x64_3_0_0 : S5x128x64.Slices ![3, 0, 0] S1x128x64
  slices_S5x64_S1x64_3_0 : S5x64.Slices ![3, 0] S1x64
  slices_S5x128x64_S1x128x64_4_0_0 : S5x128x64.Slices ![4, 0, 0] S1x128x64
  slices_S5x64_S1x64_4_0 : S5x64.Slices ![4, 0] S1x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.Spec.lean ====
/-
  The two programs as functions of their arguments, over plain finite index types and the extended reals.

  Nodes are the 100000 rows of a matrix with 128 columns; the idealized kernel walks them as 20 tiles of 5000
  rows, the reference walks them whole. One layer is

      x  = (1 + eps) * h + agg,   l1 = x W1 + b1,   z1 = relu (bn l1),   l2 = z1 W2 + b2,
      z2 = relu (bn l2),          h' = relu (bn z2),

  where bn subtracts the column mean, multiplies by the reciprocal square root of the column variance plus a small
  constant, scales and shifts. The two sides differ in three places only:

  * the kernel multiplies  h * scale,  the reference  scale * h;
  * the kernel's column sums are sums over tiles of sums inside a tile, the reference's are one sum;
  * the kernel's variance is  max (mean of squares - square of mean) 0,  the reference's is the mean of the
    squared deviations from the mean.

  Pooling per graph: the kernel multiplies a one-hot matrix of the graph ids into each tile and adds the tiles; the
  reference adds into row g the rows whose id, read as a signed integer, is g.
-/
import Idealize.ShloMosaic.PureOps.Ideal
import Idealize.ShloMosaic.PureOps.Ideal.Laws

noncomputable section

namespace Cert.Spec

open Idealize.ShloMosaic

/-- An extended real that is a real number. -/
def IsReal (x : EReal) : Prop := ∃ r : ℝ, x = (r : EReal)

abbrev Mat (n d : ℕ) := Fin n → Fin d → EReal
abbrev Row (d : ℕ) := Fin d → EReal

/-- Row `r` of tile `t`: node `5000 t + r`. -/
def tileRow (t : Fin 20) (r : Fin 5000) : Fin 100000 := ⟨t.val * 5000 + r.val, by omega⟩

/-- The number of nodes as both programs spell it: the binary32 word of 100000. -/
def cN : EReal := Ideal.ofBits .f32 0x47C35000#32
/-- The variance offset as both programs spell it: the binary32 word nearest 1e-5. -/
def cEps : EReal := Ideal.ofBits .f32 0x3727C5AC#32

/-- A matrix product with 128 contracted columns, plus a bias row. -/
def lin (x : Mat 100000 128) (W : Mat 128 128) (b : Row 128) : Mat 100000 128 :=
  fun n j => (∑ k : Fin 128, x n k * W k j) + b j

/-- Entrywise square. -/
def sq (x : Mat 100000 128) : Mat 100000 128 := fun n j => x n j * x n j

/-- Column sums over all nodes at once. -/
def colSum (x : Mat 100000 128) : Row 128 := fun j => ∑ n : Fin 100000, x n j

/-- Column sums inside one tile. -/
def tileSum (x : Mat 100000 128) (t : Fin 20) : Row 128 := fun j => ∑ r : Fin 5000, x (tileRow t r) j

/-- The kernel's column mean: tile sums added, divided by the node count. -/
def meanK (x : Mat 100000 128) : Row 128 := fun j => Ideal.div (∑ t : Fin 20, tileSum x t j) cN

/-- The kernel's column variance: mean of squares minus square of mean, clamped at zero. -/
def varK (x : Mat 100000 128) : Row 128 :=
  fun j => max (Ideal.div (∑ t : Fin 20, tileSum (sq x) t j) cN - meanK x j * meanK x j) 0

/-- The reference's column mean. -/
def meanR (x : Mat 100000 128) : Row 128 := fun j => Ideal.div (colSum x j) cN

/-- The reference's column variance: the mean of the squared deviations from the mean. -/
def varR (x : Mat 100000 128) : Row 128 :=
  fun j => Ideal.div (∑ n : Fin 100000, (x n j - meanR x j) * (x n j - meanR x j)) cN

/-- Normalise by given column statistics, scale, shift, clamp below at zero. -/
def bnRelu (x : Mat 100000 128) (mu var g be : Row 128) : Mat 100000 128 :=
  fun n j => max ((x n j - mu j) * Ideal.rsqrt (var j + cEps) * g j + be j) 0

/-- One layer's parameters. -/
structure Params where
  scale : EReal
  W1 : Mat 128 128
  b1 : Row 128
  g1 : Row 128
  be1 : Row 128
  W2 : Mat 128 128
  b2 : Row 128
  g2 : Row 128
  be2 : Row 128
  g3 : Row 128
  be3 : Row 128

/-- The first affine map of a layer as the kernel computes it. -/
def lin1K (P : Params) (h agg : Mat 100000 128) : Mat 100000 128 :=
  lin (fun n k => h n k * P.scale + agg n k) P.W1 P.b1
/-- The same as the reference computes it. -/
def lin1R (P : Params) (h agg : Mat 100000 128) : Mat 100000 128 :=
  lin (fun n k => P.scale * h n k + agg n k) P.W1 P.b1

def z1K (P : Params) (l1 : Mat 100000 128) : Mat 100000 128 := bnRelu l1 (meanK l1) (varK l1) P.g1 P.be1
def z1R (P : Params) (l1 : Mat 100000 128) : Mat 100000 128 := bnRelu l1 (meanR l1) (varR l1) P.g1 P.be1
def lin2 (P : Params) (z1 : Mat 100000 128) : Mat 100000 128 := lin z1 P.W2 P.b2
def z2K (P : Params) (l2 : Mat 100000 128) : Mat 100000 128 := bnRelu l2 (meanK l2) (varK l2) P.g2 P.be2
def z2R (P : Params) (l2 : Mat 100000 128) : Mat 100000 128 := bnRelu l2 (meanR l2) (varR l2) P.g2 P.be2
def outK (P : Params) (z2 : Mat 100000 128) : Mat 100000 128 := bnRelu z2 (meanK z2) (varK z2) P.g3 P.be3
def outR (P : Params) (z2 : Mat 100000 128) : Mat 100000 128 := bnRelu z2 (meanR z2) (varR z2) P.g3 P.be3

/-- One layer, the kernel's way. -/
def layerK (P : Params) (h agg : Mat 100000 128) : Mat 100000 128 :=
  outK P (z2K P (lin2 P (z1K P (lin1K P h agg))))
/-- One layer, the reference's way. -/
def layerR (P : Params) (h agg : Mat 100000 128) : Mat 100000 128 :=
  outR P (z2R P (lin2 P (z1R P (lin1R P h agg))))

/-- The one-hot entry: is the id word the graph number? -/
def oneHot (w : BitVec 32) (g : Fin 64) : EReal := if w = BitVec.ofNat 32 g.val then 1 else 0

/-- The kernel's pooling: per tile a one-hot product, the tiles added. -/
def poolK (h : Mat 100000 128) (gid : Fin 100000 → BitVec 32) : Mat 64 128 :=
  fun g d => ∑ t : Fin 20, ∑ r : Fin 5000, oneHot (gid (tileRow t r)) g * h (tileRow t r) d

/-- The reference's pooling: the rows whose id, read signed, is the graph number, added. -/
def poolR (h : Mat 100000 128) (gid : Fin 100000 → BitVec 32) : Mat 64 128 :=
  fun g d => ∑ n ∈ Finset.univ.filter (fun n : Fin 100000 => (gid n).toInt = (g.val : ℤ)), h n d

/-- Every entry a real number. -/
def RealMat {n d : ℕ} (x : Mat n d) : Prop := ∀ i j, IsReal (x i j)
def RealRow {d : ℕ} (x : Row d) : Prop := ∀ j, IsReal (x j)
def RealParams (P : Params) : Prop :=
  IsReal P.scale ∧ RealMat P.W1 ∧ RealRow P.b1 ∧ RealRow P.g1 ∧ RealRow P.be1 ∧ RealMat P.W2 ∧ RealRow P.b2
    ∧ RealRow P.g2 ∧ RealRow P.be2 ∧ RealRow P.g3 ∧ RealRow P.be3

end Cert.Spec

end
-- ==== Proof.Conv.lean ====
/-
  Reading an array indexed by a shape as a matrix or a row indexed by plain finite types, and back.
-/
import proofs.«412161_j3753801416792_2_alg».proof.Proof.Spec
import Idealize.ShloMosaic.Lib.ValueIdx

noncomputable section

namespace Cert.Conv

open Idealize.ShloMosaic Idealize.ShloMosaic.ValueIdx Cert.Spec

/-- A rank-2 array as a matrix. -/
def toMat {n d : ℕ} (v : (⟨2, ![n, d]⟩ : Shape).Idx → EReal) : Mat n d := fun i j => v (ix2 i j)
/-- A matrix as a rank-2 array. -/
def ofMat {n d : ℕ} (x : Mat n d) : (⟨2, ![n, d]⟩ : Shape).Idx → EReal := fun i => x (i 0) (i 1)
/-- A one-row rank-2 array as a row. -/
def toRow {d : ℕ} (v : (⟨2, ![1, d]⟩ : Shape).Idx → EReal) : Row d := fun j => v (ix2 (0 : Fin 1) j)
/-- A row as a one-row rank-2 array. -/
def ofRow {d : ℕ} (x : Row d) : (⟨2, ![1, d]⟩ : Shape).Idx → EReal := fun i => x (i 1)
/-- A rank-1 array as a row. -/
def toRow1 {d : ℕ} (v : (⟨1, ![d]⟩ : Shape).Idx → EReal) : Row d := fun j => v (ix1 j)
/-- A column of integer words as a function of the row. -/
def toCol {n w : ℕ} (v : (⟨2, ![n, 1]⟩ : Shape).Idx → BitVec w) : Fin n → BitVec w := fun i => v (ix2 i (0 : Fin 1))

/-- One tile's share of the kernel's pooling: the one-hot product over the tile's 5000 rows. -/
def poolTile (h : Mat 100000 128) (gid : Fin 100000 → BitVec 32) (t : Fin 20) : Mat 64 128 :=
  fun g d => ∑ r : Fin 5000, oneHot (gid (tileRow t r)) g * h (tileRow t r) d

theorem poolK_eq_sum_tiles (h : Mat 100000 128) (gid : Fin 100000 → BitVec 32) :
    poolK h gid = fun g d => ∑ t : Fin 20, poolTile h gid t g d := rfl

/-- The kernel's first-stage input: the features times a ROW of scales, plus the aggregate. -/
def xRow (h agg : Mat 100000 128) (sc : Row 128) : Mat 100000 128 := fun n k => h n k * sc k + agg n k

theorem toMat_ofMat {n d : ℕ} (x : Mat n d) : toMat (ofMat x) = x := rfl
theorem ofMat_toMat {n d : ℕ} (v : (⟨2, ![n, d]⟩ : Shape).Idx → EReal) : ofMat (toMat v) = v :=
  funext fun i => congrArg v (eq_ix2 i).symm
theorem toRow_ofRow {d : ℕ} (x : Row d) : toRow (ofRow x) = x := rfl
theorem ofRow_toRow {d : ℕ} (v : (⟨2, ![1, d]⟩ : Shape).Idx → EReal) : ofRow (toRow v) = v :=
  funext fun i => congrArg v (by
    funext a; match a with
    | ⟨0, _⟩ => exact Fin.ext (by have := (i 0).isLt; simp at this ⊢; omega)
    | ⟨1, _⟩ => rfl)

end Cert.Conv

end
-- ==== Proof.PoolEq.lean ====
/-
  Pooling per graph, the two ways, is one function.

  The kernel's way multiplies each row by a one-hot factor (one where the row's id word is the graph number, zero
  elsewhere) and adds, tile by tile; the reference's way adds the rows whose id, read as a signed integer, is the
  graph number. Three facts make them equal, for every matrix of extended reals:

  * a 32-bit word read signed is a number below 64 exactly when it is that number's word;
  * in the extended reals  1 * x = x  and  0 * x = 0  for every x, infinite ones included, so the one-hot factor
    selects without any finiteness assumption;
  * the pairs (tile, row inside the tile) are the nodes, by  n = 5000 t + r.

  A finite sum of real numbers is a real number, so the reference's pooling of a real matrix is real.
-/
import proofs.«412161_j3753801416792_2_alg».proof.Proof.Spec
import Mathlib.Data.EReal.Basic
import Mathlib.Data.EReal.Operations
import Mathlib.Algebra.BigOperators.Fin
import Mathlib.Algebra.BigOperators.Group.Finset.Basic
import Mathlib.Logic.Equiv.Fin.Basic
import Mathlib.Data.Fintype.BigOperators

noncomputable section

namespace Cert.PoolEq

open Cert.Spec

/-- A 32-bit word read as a signed integer equals a number below 64 exactly when it is that number's word. -/
theorem toInt_eq_iff (w : BitVec 32) (g : Fin 64) :
    w.toInt = (g.val : ℤ) ↔ w = BitVec.ofNat 32 g.val := by
  have hg : g.val < 64 := g.isLt
  have hw : w.toNat < 2 ^ 32 := w.isLt
  constructor
  · intro h
    apply BitVec.eq_of_toNat_eq
    rw [BitVec.toNat_ofNat]
    rw [BitVec.toInt_eq_toNat_cond] at h
    split_ifs at h <;> omega
  · rintro rfl
    rw [BitVec.toInt_eq_toNat_cond, BitVec.toNat_ofNat]
    split_ifs <;> omega

/-- The pair (tile, row inside the tile) and the node number are the same datum. -/
def tileEquiv : Fin 20 × Fin 5000 ≃ Fin 100000 where
  toFun p := tileRow p.1 p.2
  invFun n := (⟨n.val / 5000, by omega⟩, ⟨n.val % 5000, by omega⟩)
  left_inv := by
    rintro ⟨⟨t, ht⟩, ⟨r, hr⟩⟩
    simp only [tileRow, Prod.mk.injEq, Fin.mk.injEq]
    constructor <;> omega
  right_inv := by
    rintro ⟨n, hn⟩
    simp only [tileRow, Fin.mk.injEq]
    omega

/-- A finite sum of real numbers is a real number. -/
theorem real_filter_sum {ι : Type*} [DecidableEq ι] (s : Finset ι) (f : ι → EReal)
    (hf : ∀ i ∈ s, IsReal (f i)) : IsReal (∑ i ∈ s, f i) := by
  induction s using Finset.induction_on with
  | empty => exact ⟨0, by simp⟩
  | insert a s ha ih =>
    obtain ⟨x, hx⟩ := hf a (Finset.mem_insert_self a s)
    obtain ⟨y, hy⟩ := ih (fun i hi => hf i (Finset.mem_insert_of_mem hi))
    refine ⟨x + y, ?_⟩
    rw [Finset.sum_insert ha, hx, hy, EReal.coe_add]

/-- The one-hot factor selects: multiplying by it keeps the entry or replaces it by zero. -/
theorem oneHot_mul (w : BitVec 32) (g : Fin 64) (x : EReal) :
    oneHot w g * x = if w.toInt = (g.val : ℤ) then x else 0 := by
  unfold oneHot
  by_cases h : w = BitVec.ofNat 32 g.val
  · rw [if_pos h, if_pos ((toInt_eq_iff w g).2 h), one_mul]
  · rw [if_neg h, if_neg (fun h' => h ((toInt_eq_iff w g).1 h')), zero_mul]

theorem pool_eq (h : Mat 100000 128) (gid : Fin 100000 → BitVec 32) : poolK h gid = poolR h gid := by
  funext g d
  unfold poolK poolR
  rw [Finset.sum_filter, ← Finset.sum_product']
  rw [Finset.univ_product_univ]
  rw [← Equiv.sum_comp tileEquiv]
  refine Finset.sum_congr rfl ?_
  rintro ⟨t, r⟩ _
  exact oneHot_mul _ _ _

theorem real_poolR (h : Mat 100000 128) (gid : Fin 100000 → BitVec 32) (hh : RealMat h) :
    RealMat (poolR h gid) := by
  intro g d
  unfold poolR
  exact real_filter_sum _ _ (fun n _ => hh n d)

end Cert.PoolEq

end
-- ==== Proof.Agg.lean ====
/-
  The edge aggregation both programs share, as one named function, and its finiteness.

  Each edge carries a source id and a destination id. The row of `h` at the source id (a negative id first has the
  node count added) is gathered, and the gathered rows are added into a zero matrix at the rows their destination
  ids name. Every entry of the result is therefore zero plus a finite sum of entries of `h`: real when `h` is.

  The three facts are stated over arbitrary shapes and dimension records first (a gather entry is an operand entry;
  a broadcast entry is an operand entry; an accumulating scatter entry is an operand entry plus a finite sum of
  update entries) and meet the program's shapes only in the last line.
-/
import proofs.«412161_j3753801416792_2_alg».proof.KernelIdeal
import proofs.«412161_j3753801416792_2_alg».proof.Proof.Spec
import proofs.«412161_j3753801416792_2_alg».proof.Proof.PoolEq
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Group.Finset.Basic

noncomputable section

namespace Cert.Agg

open Idealize.ShloMosaic

/-- The sum of two real numbers is a real number. -/
theorem isReal_add {x y : EReal} (hx : Cert.Spec.IsReal x) (hy : Cert.Spec.IsReal y) : Cert.Spec.IsReal (x + y) := by
  obtain ⟨a, rfl⟩ := hx
  obtain ⟨b, rfl⟩ := hy
  exact ⟨a + b, (EReal.coe_add a b).symm⟩

/-- A gather of a real array is real: each entry of the gather is an entry of the array. -/
theorem gather_real {s si t : Shape} {w : Nat} (d : GatherDims s si t) (x : s.Idx → EReal) (idx : IVec si w)
    (hx : ∀ i, Cert.Spec.IsReal (x i)) : ∀ j, Cert.Spec.IsReal (Host.gather d x idx j) :=
  fun j => hx (d.operandIdx j idx)

/-- A broadcast of a real array is real: each entry of the broadcast is an entry of the array. -/
theorem bcast_real {s t : Shape} (dims : Fin s.rank → Fin t.rank) (hb : s.BroadcastsInDim t dims) (x : s.Idx → EReal)
    (hx : ∀ i, Cert.Spec.IsReal (x i)) : ∀ j, Cert.Spec.IsReal (broadcastInDim t dims hb x j) := by
  intro j
  unfold broadcastInDim
  exact hx _

/-- The zero constant is real. -/
theorem zero_real {s : Shape} : ∀ i, Cert.Spec.IsReal (constant (F := Ideal) s .f32 0x00000000#32 i) := by
  intro i
  show Cert.Spec.IsReal (Ideal.ofBits .f32 0x00000000#32)
  rw [Ideal.ofBits_zero_f32]
  exact ⟨0, rfl⟩

/-- An accumulating scatter of real updates into a real operand is real: each entry is an operand entry plus a
    finite sum of update entries. -/
theorem scatterAdd_real {s si su : Shape} {w : Nat} (d : ScatterDims s si su) (x : FVec Ideal s .f32) (idx : IVec si w)
    (upd : FVec Ideal su .f32) (hx : ∀ i, Cert.Spec.IsReal (x i)) (hu : ∀ j, Cert.Spec.IsReal (upd j)) :
    ∀ i, Cert.Spec.IsReal (Host.scatterAdd d x idx upd i) := by
  intro i
  show Cert.Spec.IsReal (Ideal.hostScatterAdd d x idx upd i)
  unfold Ideal.hostScatterAdd
  exact isReal_add (hx i) (Cert.PoolEq.real_filter_sum _ _ (fun j _ => hu j))

end Cert.Agg

namespace Cert.Agg

open Cert.KernelIdeal Idealize.ShloMosaic Idealize.ShloMosaic.ValueIdx

variable [Facts₀]
open Facts₀

/-- The source ids as the gather's start indices: a negative id has the node count added (the wrap of a
    negative index), then the vector is laid out as a column. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The edge aggregation: gather the rows of `h` at the source ids, scatter-add them into a zero matrix at the
    destination ids. -/
def aggT (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h (srcIdx src))

set_option maxHeartbeats 200000 in
/-- The aggregation of a real matrix is real: each entry is zero plus a finite sum of entries of `h`. -/
theorem agg_real (h : FVec Ideal S100000x128 .f32) (hh : ∀ i, Cert.Spec.IsReal (h i)) (src dst : IVec S1600000 32) :
    ∀ i, Cert.Spec.IsReal (aggT h src dst i) :=
  scatterAdd_real _ _ _ _ (bcast_real _ _ _ zero_real) (gather_real _ _ _ hh)

end Cert.Agg

end
-- ==== Proof.KKeep.lean ====
/-
  For each stretch of host operations between two kernel regions: the buffers its operations write, and the fact that
  every other buffer holds after the stretch what it held before it.
-/
import proofs.«412161_j3753801416792_2_alg».proof.Proof.Gen.KernelIdeal.Launch
import Idealize.ShloMosaic.Lib.StableHlo.Run

set_option maxRecDepth 16384

noncomputable section

namespace Cert.KKeep

open Cert.KernelIdeal Cert.KernelIdeal.Gen Idealize.ShloMosaic Idealize.ShloMosaic.TcCoe Idealize.ShloMosaic.StableHlo

variable {F : FTy → Type} [FloatOps F]

/-- The buffers stretch 0 writes. -/
abbrev written0 : List (Ref sig .tc) := [main_v0]
/-- A buffer stretch 0 does not write keeps its contents across it. -/
theorem keep0 (V : Valuation τ sig (Elt F)) (b : Ref sig .tc) (hb : b ∉ written0) :
    StableHlo.after hostOps0 V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 1 writes. -/
abbrev written1 : List (Ref sig .tc) := [main_cst, main_v2, main_c, main_v3, main_v4, main_c_0, main_v5, main_v6, main_v7, main_v8, main_v9, main_cst_1, main_v10, main_v11, main_v12, main_v13, main_v14, main_cst_2, main_v15, main_v16, main_v17, main_v18, main_v19, main_v20, main_v21, main_v22]
/-- A buffer stretch 1 does not write keeps its contents across it. -/
theorem keep1 (V : Valuation τ sig (Elt F)) (b : Ref sig .tc) (hb : b ∉ written1) :
    StableHlo.after hostOps1 V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 2 writes. -/
abbrev written2 : List (Ref sig .tc) := [main_cst_3, main_v24, main_cst_4, main_v25, main_cst_5, main_v26, main_v27, main_cst_6, main_v28, main_v29, main_v30, main_v31, main_cst_7, main_v32, main_v33, main_v34, main_v35, main_v36, main_v37, main_v38, main_v39, main_v40, main_v41, main_v42, main_v43, main_v44]
/-- A buffer stretch 2 does not write keeps its contents across it. -/
theorem keep2 (V : Valuation τ sig (Elt F)) (b : Ref sig .tc) (hb : b ∉ written2) :
    StableHlo.after hostOps2 V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 3 writes. -/
abbrev written3 : List (Ref sig .tc) := [main_cst_8, main_v46, main_cst_9, main_v47, main_cst_10, main_v48, main_v49, main_cst_11, main_v50, main_v51, main_v52, main_v53, main_cst_12, main_v54, main_v55, main_v56, main_v57, main_v58, main_v59, main_v60, main_v61]
/-- A buffer stretch 3 does not write keeps its contents across it. -/
theorem keep3 (V : Valuation τ sig (Elt F)) (b : Ref sig .tc) (hb : b ∉ written3) :
    StableHlo.after hostOps3 V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 4 writes. -/
abbrev written4 : List (Ref sig .tc) := [main_cst_13, main_v63, main_cst_14, main_v64, main_cst_15, main_v65, main_v66, main_cst_16, main_v67, main_v68, main_v69, main_v70, main_cst_17, main_v71, main_v72, main_v73, main_v74, main_v75, main_v76, main_v77, main_v78]
/-- A buffer stretch 4 does not write keeps its contents across it. -/
theorem keep4 (V : Valuation τ sig (Elt F)) (b : Ref sig .tc) (hb : b ∉ written4) :
    StableHlo.after hostOps4 V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 5 writes. -/
abbrev written5 : List (Ref sig .tc) := [main_cst_18, main_v80, main_c_19, main_v81, main_v82, main_c_20, main_v83, main_v84, main_v85, main_v86, main_v87, main_cst_21, main_v88, main_v89, main_v90, main_v91, main_v92, main_cst_22, main_v93, main_v94, main_v95, main_v96, main_v97, main_v98, main_v99, main_v100]
/-- A buffer stretch 5 does not write keeps its contents across it. -/
theorem keep5 (V : Valuation τ sig (Elt F)) (b : Ref sig .tc) (hb : b ∉ written5) :
    StableHlo.after hostOps5 V (Proc.devRef .tc b) = V (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 6 writes. -/
abbrev written6 : List (Ref sig .tc) := [main_cst_23, main_v102, main_cst_24, main_v103, main_cst_25, main_v104, main_v105, main_cst_26, main_v106, main_v107, main_v108, main_v109, main_cst_27, main_v110, main_v111, main_v112, main_v113, main_v114, main_v115, main_v116, main_v117, main_v118, main_v119, main_v120, main_v121, main_v122]
/-- A buffer stretch 6 does not write keeps its contents across it. -/
theorem keep6 (V : Valuation τ sig (Elt F)) (b : Ref sig .tc) (hb : b ∉ written6) :
    StableHlo.after hostOps6 V (Proc.devRef .tc b) = V (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 7 writes. -/
abbrev written7 : List (Ref sig .tc) := [main_cst_28, main_v124, main_cst_29, main_v125, main_cst_30, main_v126, main_v127, main_cst_31, main_v128, main_v129, main_v130, main_v131, main_cst_32, main_v132, main_v133, main_v134, main_v135, main_v136, main_v137, main_v138, main_v139]
/-- A buffer stretch 7 does not write keeps its contents across it. -/
theorem keep7 (V : Valuation τ sig (Elt F)) (b : Ref sig .tc) (hb : b ∉ written7) :
    StableHlo.after hostOps7 V (Proc.devRef .tc b) = V (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 8 writes. -/
abbrev written8 : List (Ref sig .tc) := [main_cst_33, main_v141, main_cst_34, main_v142, main_cst_35, main_v143, main_v144, main_cst_36, main_v145, main_v146, main_v147, main_v148, main_cst_37, main_v149, main_v150, main_v151, main_v152, main_v153, main_v154, main_v155, main_v156]
/-- A buffer stretch 8 does not write keeps its contents across it. -/
theorem keep8 (V : Valuation τ sig (Elt F)) (b : Ref sig .tc) (hb : b ∉ written8) :
    StableHlo.after hostOps8 V (Proc.devRef .tc b) = V (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 9 writes. -/
abbrev written9 : List (Ref sig .tc) := [main_cst_38, main_v158, main_c_39, main_v159, main_v160, main_c_40, main_v161, main_v162, main_v163, main_v164, main_v165, main_cst_41, main_v166, main_v167, main_v168, main_v169, main_v170, main_cst_42, main_v171, main_v172, main_v173, main_v174, main_v175, main_v176, main_v177, main_v178]
/-- A buffer stretch 9 does not write keeps its contents across it. -/
theorem keep9 (V : Valuation τ sig (Elt F)) (b : Ref sig .tc) (hb : b ∉ written9) :
    StableHlo.after hostOps9 V (Proc.devRef .tc b) = V (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 10 writes. -/
abbrev written10 : List (Ref sig .tc) := [main_cst_43, main_v180, main_cst_44, main_v181, main_cst_45, main_v182, main_v183, main_cst_46, main_v184, main_v185, main_v186, main_v187, main_cst_47, main_v188, main_v189, main_v190, main_v191, main_v192, main_v193, main_v194, main_v195, main_v196, main_v197, main_v198, main_v199, main_v200]
/-- A buffer stretch 10 does not write keeps its contents across it. -/
theorem keep10 (V : Valuation τ sig (Elt F)) (b : Ref sig .tc) (hb : b ∉ written10) :
    StableHlo.after hostOps10 V (Proc.devRef .tc b) = V (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 11 writes. -/
abbrev written11 : List (Ref sig .tc) := [main_cst_48, main_v202, main_cst_49, main_v203, main_cst_50, main_v204, main_v205, main_cst_51, main_v206, main_v207, main_v208, main_v209, main_cst_52, main_v210, main_v211, main_v212, main_v213, main_v214, main_v215, main_v216, main_v217]
/-- A buffer stretch 11 does not write keeps its contents across it. -/
theorem keep11 (V : Valuation τ sig (Elt F)) (b : Ref sig .tc) (hb : b ∉ written11) :
    StableHlo.after hostOps11 V (Proc.devRef .tc b) = V (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 12 writes. -/
abbrev written12 : List (Ref sig .tc) := [main_cst_53, main_v219, main_cst_54, main_v220, main_cst_55, main_v221, main_v222, main_cst_56, main_v223, main_v224, main_v225, main_v226, main_cst_57, main_v227, main_v228, main_v229, main_v230, main_v231, main_v232, main_v233, main_v234]
/-- A buffer stretch 12 does not write keeps its contents across it. -/
theorem keep12 (V : Valuation τ sig (Elt F)) (b : Ref sig .tc) (hb : b ∉ written12) :
    StableHlo.after hostOps12 V (Proc.devRef .tc b) = V (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 13 writes. -/
abbrev written13 : List (Ref sig .tc) := [main_cst_58, main_v236, main_c_59, main_v237, main_v238, main_c_60, main_v239, main_v240, main_v241, main_v242, main_v243, main_cst_61, main_v244, main_v245, main_v246, main_v247, main_v248, main_cst_62, main_v249, main_v250, main_v251, main_v252, main_v253, main_v254, main_v255, main_v256]
/-- A buffer stretch 13 does not write keeps its contents across it. -/
theorem keep13 (V : Valuation τ sig (Elt F)) (b : Ref sig .tc) (hb : b ∉ written13) :
    StableHlo.after hostOps13 V (Proc.devRef .tc b) = V (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 14 writes. -/
abbrev written14 : List (Ref sig .tc) := [main_cst_63, main_v258, main_cst_64, main_v259, main_cst_65, main_v260, main_v261, main_cst_66, main_v262, main_v263, main_v264, main_v265, main_cst_67, main_v266, main_v267, main_v268, main_v269, main_v270, main_v271, main_v272, main_v273, main_v274, main_v275, main_v276, main_v277, main_v278]
/-- A buffer stretch 14 does not write keeps its contents across it. -/
theorem keep14 (V : Valuation τ sig (Elt F)) (b : Ref sig .tc) (hb : b ∉ written14) :
    StableHlo.after hostOps14 V (Proc.devRef .tc b) = V (Proc.devRef .tc b) :=
  StableHlo.after_of_forall_not_mem (b := Proc.devRef .tc b) _ _ (List.forall_iff_forall_mem.mp (by
    simp only [hostOps14, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 15 writes. -/
abbrev written15 : List (Ref sig .tc) := [main_cst_68, main_v280, main_cst_69, main_v281, main_cst_70, main_v282, main_v283, main_cst_71, main_v284, main_v285, main_v286, main_v287, main_cst_72, main_v288, main_v289, main_v290, main_v291, main_v292, main_v293, main_v294, main_v295]
/-- A buffer stretch 15 does not write keeps its contents across it. -/
theorem keep15 (V : Valuation τ sig (Elt F)) (b : Ref sig .tc) (hb : b ∉ written15) :
    StableHlo.after hostOps15 V (Proc.devRef .tc b) = V (Proc.devRef .tc b) :=
  StableHlo.after_of_forall_not_mem (b := Proc.devRef .tc b) _ _ (List.forall_iff_forall_mem.mp (by
    simp only [hostOps15, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 16 writes. -/
abbrev written16 : List (Ref sig .tc) := [main_cst_73, main_v297, main_cst_74, main_v298, main_cst_75, main_v299, main_v300, main_cst_76, main_v301, main_v302, main_v303, main_v304, main_cst_77, main_v305, main_v306, main_v307, main_v308, main_v309, main_v310, main_v311, main_v312]
/-- A buffer stretch 16 does not write keeps its contents across it. -/
theorem keep16 (V : Valuation τ sig (Elt F)) (b : Ref sig .tc) (hb : b ∉ written16) :
    StableHlo.after hostOps16 V (Proc.devRef .tc b) = V (Proc.devRef .tc b) :=
  StableHlo.after_of_forall_not_mem (b := Proc.devRef .tc b) _ _ (List.forall_iff_forall_mem.mp (by
    simp only [hostOps16, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

/-- The buffers stretch 17 writes. -/
abbrev written17 : List (Ref sig .tc) := [main_cst_78, main_v314, main_v315, main_v316, main_v317, main_v318, main_v319, main_v320, main_v321, main_v322, main_cst_79, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360]
/-- A buffer stretch 17 does not write keeps its contents across it. -/
theorem keep17 (V : Valuation τ sig (Elt F)) (b : Ref sig .tc) (hb : b ∉ written17) :
    StableHlo.after hostOps17 V (Proc.devRef .tc b) = V (Proc.devRef .tc b) :=
  StableHlo.after_of_forall_not_mem (b := Proc.devRef .tc b) _ _ (List.forall_iff_forall_mem.mp (by
    simp only [hostOps17, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals (apply StableHlo.devRef_ne_of_ne; intro e; subst e; exact hb (by decide))))

end Cert.KKeep

end
-- ==== Proof.KCarry.lean ====
/-
  The idealized kernel program writes every buffer once. A buffer read several boundaries later holds there what it
  held where it was written: each boundary in between is either a stretch of host operations that does not write it, a
  kernel region that reads it through an input window, or a kernel region that does not touch it.
-/
import proofs.«412161_j3753801416792_2_alg».proof.Proof.KIFrameW
import proofs.«412161_j3753801416792_2_alg».proof.Proof.KKeep

set_option maxRecDepth 16384

noncomputable section

namespace Cert.KCarry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem at5_main_v23_0 (c : Dev nD) : W5 m ρ c (Proc.devRef .tc main_v23_0) = W4 m ρ c (Proc.devRef .tc main_v23_0) :=
  calc W5 m ρ c (Proc.devRef .tc main_v23_0)
    _ = W4 m ρ c (Proc.devRef .tc main_v23_0) := Cert.KKeep.keep2 (W4 m ρ c) main_v23_0 (by decide)

theorem at7_main_v45_0 (c : Dev nD) : W7 m ρ c (Proc.devRef .tc main_v45_0) = W6 m ρ c (Proc.devRef .tc main_v45_0) :=
  calc W7 m ρ c (Proc.devRef .tc main_v45_0)
    _ = W6 m ρ c (Proc.devRef .tc main_v45_0) := Cert.KKeep.keep3 (W6 m ρ c) main_v45_0 (by decide)

theorem at9_main_v45_0 (c : Dev nD) : W9 m ρ c (Proc.devRef .tc main_v45_0) = W6 m ρ c (Proc.devRef .tc main_v45_0) :=
  calc W9 m ρ c (Proc.devRef .tc main_v45_0)
    _ = W8 m ρ c (Proc.devRef .tc main_v45_0) := Cert.KKeep.keep4 (W8 m ρ c) main_v45_0 (by decide)
    _ = W7 m ρ c (Proc.devRef .tc main_v45_0) := (W8_arr m ρ c 0).trans (((dat3 (V7 m ρ) c).arrAt_in 0 rfl _).trans (A_eq3 (V7 m ρ) c 0))
    _ = W6 m ρ c (Proc.devRef .tc main_v45_0) := at7_main_v45_0 m ρ c

theorem at9_main_v49 (c : Dev nD) : W9 m ρ c (Proc.devRef .tc main_v49) = W7 m ρ c (Proc.devRef .tc main_v49) :=
  calc W9 m ρ c (Proc.devRef .tc main_v49)
    _ = W8 m ρ c (Proc.devRef .tc main_v49) := Cert.KKeep.keep4 (W8 m ρ c) main_v49 (by decide)
    _ = W7 m ρ c (Proc.devRef .tc main_v49) := (W8_arr m ρ c 1).trans (((dat3 (V7 m ρ) c).arrAt_in 1 rfl _).trans (A_eq3 (V7 m ρ) c 1))

theorem at9_main_v55 (c : Dev nD) : W9 m ρ c (Proc.devRef .tc main_v55) = W7 m ρ c (Proc.devRef .tc main_v55) :=
  calc W9 m ρ c (Proc.devRef .tc main_v55)
    _ = W8 m ρ c (Proc.devRef .tc main_v55) := Cert.KKeep.keep4 (W8 m ρ c) main_v55 (by decide)
    _ = W7 m ρ c (Proc.devRef .tc main_v55) := (W8_arr m ρ c 2).trans (((dat3 (V7 m ρ) c).arrAt_in 2 rfl _).trans (A_eq3 (V7 m ρ) c 2))

theorem at9_main_v58 (c : Dev nD) : W9 m ρ c (Proc.devRef .tc main_v58) = W7 m ρ c (Proc.devRef .tc main_v58) :=
  calc W9 m ρ c (Proc.devRef .tc main_v58)
    _ = W8 m ρ c (Proc.devRef .tc main_v58) := Cert.KKeep.keep4 (W8 m ρ c) main_v58 (by decide)
    _ = W7 m ρ c (Proc.devRef .tc main_v58) := (W8_arr m ρ c 3).trans (((dat3 (V7 m ρ) c).arrAt_in 3 rfl _).trans (A_eq3 (V7 m ρ) c 3))

theorem at9_main_v61 (c : Dev nD) : W9 m ρ c (Proc.devRef .tc main_v61) = W7 m ρ c (Proc.devRef .tc main_v61) :=
  calc W9 m ρ c (Proc.devRef .tc main_v61)
    _ = W8 m ρ c (Proc.devRef .tc main_v61) := Cert.KKeep.keep4 (W8 m ρ c) main_v61 (by decide)
    _ = W7 m ρ c (Proc.devRef .tc main_v61) := (W8_arr m ρ c 4).trans (((dat3 (V7 m ρ) c).arrAt_in 4 rfl _).trans (A_eq3 (V7 m ρ) c 4))

theorem at11_main_v79_0 (c : Dev nD) : W11 m ρ c (Proc.devRef .tc main_v79_0) = W10 m ρ c (Proc.devRef .tc main_v79_0) :=
  calc W11 m ρ c (Proc.devRef .tc main_v79_0)
    _ = W10 m ρ c (Proc.devRef .tc main_v79_0) := Cert.KKeep.keep5 (W10 m ρ c) main_v79_0 (by decide)

theorem at13_main_v101_0 (c : Dev nD) : W13 m ρ c (Proc.devRef .tc main_v101_0) = W12 m ρ c (Proc.devRef .tc main_v101_0) :=
  calc W13 m ρ c (Proc.devRef .tc main_v101_0)
    _ = W12 m ρ c (Proc.devRef .tc main_v101_0) := Cert.KKeep.keep6 (W12 m ρ c) main_v101_0 (by decide)

theorem at15_main_v123_0 (c : Dev nD) : W15 m ρ c (Proc.devRef .tc main_v123_0) = W14 m ρ c (Proc.devRef .tc main_v123_0) :=
  calc W15 m ρ c (Proc.devRef .tc main_v123_0)
    _ = W14 m ρ c (Proc.devRef .tc main_v123_0) := Cert.KKeep.keep7 (W14 m ρ c) main_v123_0 (by decide)

theorem at17_main_v123_0 (c : Dev nD) : W17 m ρ c (Proc.devRef .tc main_v123_0) = W14 m ρ c (Proc.devRef .tc main_v123_0) :=
  calc W17 m ρ c (Proc.devRef .tc main_v123_0)
    _ = W16 m ρ c (Proc.devRef .tc main_v123_0) := Cert.KKeep.keep8 (W16 m ρ c) main_v123_0 (by decide)
    _ = W15 m ρ c (Proc.devRef .tc main_v123_0) := (W16_arr m ρ c 0).trans (((dat7 (V15 m ρ) c).arrAt_in 0 rfl _).trans (A_eq7 (V15 m ρ) c 0))
    _ = W14 m ρ c (Proc.devRef .tc main_v123_0) := at15_main_v123_0 m ρ c

theorem at17_main_v127 (c : Dev nD) : W17 m ρ c (Proc.devRef .tc main_v127) = W15 m ρ c (Proc.devRef .tc main_v127) :=
  calc W17 m ρ c (Proc.devRef .tc main_v127)
    _ = W16 m ρ c (Proc.devRef .tc main_v127) := Cert.KKeep.keep8 (W16 m ρ c) main_v127 (by decide)
    _ = W15 m ρ c (Proc.devRef .tc main_v127) := (W16_arr m ρ c 1).trans (((dat7 (V15 m ρ) c).arrAt_in 1 rfl _).trans (A_eq7 (V15 m ρ) c 1))

theorem at17_main_v133 (c : Dev nD) : W17 m ρ c (Proc.devRef .tc main_v133) = W15 m ρ c (Proc.devRef .tc main_v133) :=
  calc W17 m ρ c (Proc.devRef .tc main_v133)
    _ = W16 m ρ c (Proc.devRef .tc main_v133) := Cert.KKeep.keep8 (W16 m ρ c) main_v133 (by decide)
    _ = W15 m ρ c (Proc.devRef .tc main_v133) := (W16_arr m ρ c 2).trans (((dat7 (V15 m ρ) c).arrAt_in 2 rfl _).trans (A_eq7 (V15 m ρ) c 2))

theorem at17_main_v136 (c : Dev nD) : W17 m ρ c (Proc.devRef .tc main_v136) = W15 m ρ c (Proc.devRef .tc main_v136) :=
  calc W17 m ρ c (Proc.devRef .tc main_v136)
    _ = W16 m ρ c (Proc.devRef .tc main_v136) := Cert.KKeep.keep8 (W16 m ρ c) main_v136 (by decide)
    _ = W15 m ρ c (Proc.devRef .tc main_v136) := (W16_arr m ρ c 3).trans (((dat7 (V15 m ρ) c).arrAt_in 3 rfl _).trans (A_eq7 (V15 m ρ) c 3))

theorem at17_main_v139 (c : Dev nD) : W17 m ρ c (Proc.devRef .tc main_v139) = W15 m ρ c (Proc.devRef .tc main_v139) :=
  calc W17 m ρ c (Proc.devRef .tc main_v139)
    _ = W16 m ρ c (Proc.devRef .tc main_v139) := Cert.KKeep.keep8 (W16 m ρ c) main_v139 (by decide)
    _ = W15 m ρ c (Proc.devRef .tc main_v139) := (W16_arr m ρ c 4).trans (((dat7 (V15 m ρ) c).arrAt_in 4 rfl _).trans (A_eq7 (V15 m ρ) c 4))

theorem at19_main_v157_0 (c : Dev nD) : W19 m ρ c (Proc.devRef .tc main_v157_0) = W18 m ρ c (Proc.devRef .tc main_v157_0) :=
  calc W19 m ρ c (Proc.devRef .tc main_v157_0)
    _ = W18 m ρ c (Proc.devRef .tc main_v157_0) := Cert.KKeep.keep9 (W18 m ρ c) main_v157_0 (by decide)

theorem at21_main_v179_0 (c : Dev nD) : W21 m ρ c (Proc.devRef .tc main_v179_0) = W20 m ρ c (Proc.devRef .tc main_v179_0) :=
  calc W21 m ρ c (Proc.devRef .tc main_v179_0)
    _ = W20 m ρ c (Proc.devRef .tc main_v179_0) := Cert.KKeep.keep10 (W20 m ρ c) main_v179_0 (by decide)

theorem at23_main_v201_0 (c : Dev nD) : W23 m ρ c (Proc.devRef .tc main_v201_0) = W22 m ρ c (Proc.devRef .tc main_v201_0) :=
  calc W23 m ρ c (Proc.devRef .tc main_v201_0)
    _ = W22 m ρ c (Proc.devRef .tc main_v201_0) := Cert.KKeep.keep11 (W22 m ρ c) main_v201_0 (by decide)

theorem at25_main_v201_0 (c : Dev nD) : W25 m ρ c (Proc.devRef .tc main_v201_0) = W22 m ρ c (Proc.devRef .tc main_v201_0) :=
  calc W25 m ρ c (Proc.devRef .tc main_v201_0)
    _ = W24 m ρ c (Proc.devRef .tc main_v201_0) := Cert.KKeep.keep12 (W24 m ρ c) main_v201_0 (by decide)
    _ = W23 m ρ c (Proc.devRef .tc main_v201_0) := (W24_arr m ρ c 0).trans (((dat11 (V23 m ρ) c).arrAt_in 0 rfl _).trans (A_eq11 (V23 m ρ) c 0))
    _ = W22 m ρ c (Proc.devRef .tc main_v201_0) := at23_main_v201_0 m ρ c

theorem at25_main_v205 (c : Dev nD) : W25 m ρ c (Proc.devRef .tc main_v205) = W23 m ρ c (Proc.devRef .tc main_v205) :=
  calc W25 m ρ c (Proc.devRef .tc main_v205)
    _ = W24 m ρ c (Proc.devRef .tc main_v205) := Cert.KKeep.keep12 (W24 m ρ c) main_v205 (by decide)
    _ = W23 m ρ c (Proc.devRef .tc main_v205) := (W24_arr m ρ c 1).trans (((dat11 (V23 m ρ) c).arrAt_in 1 rfl _).trans (A_eq11 (V23 m ρ) c 1))

theorem at25_main_v211 (c : Dev nD) : W25 m ρ c (Proc.devRef .tc main_v211) = W23 m ρ c (Proc.devRef .tc main_v211) :=
  calc W25 m ρ c (Proc.devRef .tc main_v211)
    _ = W24 m ρ c (Proc.devRef .tc main_v211) := Cert.KKeep.keep12 (W24 m ρ c) main_v211 (by decide)
    _ = W23 m ρ c (Proc.devRef .tc main_v211) := (W24_arr m ρ c 2).trans (((dat11 (V23 m ρ) c).arrAt_in 2 rfl _).trans (A_eq11 (V23 m ρ) c 2))

theorem at25_main_v214 (c : Dev nD) : W25 m ρ c (Proc.devRef .tc main_v214) = W23 m ρ c (Proc.devRef .tc main_v214) :=
  calc W25 m ρ c (Proc.devRef .tc main_v214)
    _ = W24 m ρ c (Proc.devRef .tc main_v214) := Cert.KKeep.keep12 (W24 m ρ c) main_v214 (by decide)
    _ = W23 m ρ c (Proc.devRef .tc main_v214) := (W24_arr m ρ c 3).trans (((dat11 (V23 m ρ) c).arrAt_in 3 rfl _).trans (A_eq11 (V23 m ρ) c 3))

theorem at25_main_v217 (c : Dev nD) : W25 m ρ c (Proc.devRef .tc main_v217) = W23 m ρ c (Proc.devRef .tc main_v217) :=
  calc W25 m ρ c (Proc.devRef .tc main_v217)
    _ = W24 m ρ c (Proc.devRef .tc main_v217) := Cert.KKeep.keep12 (W24 m ρ c) main_v217 (by decide)
    _ = W23 m ρ c (Proc.devRef .tc main_v217) := (W24_arr m ρ c 4).trans (((dat11 (V23 m ρ) c).arrAt_in 4 rfl _).trans (A_eq11 (V23 m ρ) c 4))

theorem at27_main_v235_0 (c : Dev nD) : W27 m ρ c (Proc.devRef .tc main_v235_0) = W26 m ρ c (Proc.devRef .tc main_v235_0) :=
  calc W27 m ρ c (Proc.devRef .tc main_v235_0)
    _ = W26 m ρ c (Proc.devRef .tc main_v235_0) := Cert.KKeep.keep13 (W26 m ρ c) main_v235_0 (by decide)

theorem at29_main_v257_0 (c : Dev nD) : W29 m ρ c (Proc.devRef .tc main_v257_0) = W28 m ρ c (Proc.devRef .tc main_v257_0) :=
  calc W29 m ρ c (Proc.devRef .tc main_v257_0)
    _ = W28 m ρ c (Proc.devRef .tc main_v257_0) := Cert.KKeep.keep14 (W28 m ρ c) main_v257_0 (by decide)

theorem at31_main_v279_0 (c : Dev nD) : W31 m ρ c (Proc.devRef .tc main_v279_0) = W30 m ρ c (Proc.devRef .tc main_v279_0) :=
  calc W31 m ρ c (Proc.devRef .tc main_v279_0)
    _ = W30 m ρ c (Proc.devRef .tc main_v279_0) := Cert.KKeep.keep15 (W30 m ρ c) main_v279_0 (by decide)

theorem at33_main_v279_0 (c : Dev nD) : W33 m ρ c (Proc.devRef .tc main_v279_0) = W30 m ρ c (Proc.devRef .tc main_v279_0) :=
  calc W33 m ρ c (Proc.devRef .tc main_v279_0)
    _ = W32 m ρ c (Proc.devRef .tc main_v279_0) := Cert.KKeep.keep16 (W32 m ρ c) main_v279_0 (by decide)
    _ = W31 m ρ c (Proc.devRef .tc main_v279_0) := (W32_arr m ρ c 0).trans (((dat15 (V31 m ρ) c).arrAt_in 0 rfl _).trans (A_eq15 (V31 m ρ) c 0))
    _ = W30 m ρ c (Proc.devRef .tc main_v279_0) := at31_main_v279_0 m ρ c

theorem at33_main_v283 (c : Dev nD) : W33 m ρ c (Proc.devRef .tc main_v283) = W31 m ρ c (Proc.devRef .tc main_v283) :=
  calc W33 m ρ c (Proc.devRef .tc main_v283)
    _ = W32 m ρ c (Proc.devRef .tc main_v283) := Cert.KKeep.keep16 (W32 m ρ c) main_v283 (by decide)
    _ = W31 m ρ c (Proc.devRef .tc main_v283) := (W32_arr m ρ c 1).trans (((dat15 (V31 m ρ) c).arrAt_in 1 rfl _).trans (A_eq15 (V31 m ρ) c 1))

theorem at33_main_v289 (c : Dev nD) : W33 m ρ c (Proc.devRef .tc main_v289) = W31 m ρ c (Proc.devRef .tc main_v289) :=
  calc W33 m ρ c (Proc.devRef .tc main_v289)
    _ = W32 m ρ c (Proc.devRef .tc main_v289) := Cert.KKeep.keep16 (W32 m ρ c) main_v289 (by decide)
    _ = W31 m ρ c (Proc.devRef .tc main_v289) := (W32_arr m ρ c 2).trans (((dat15 (V31 m ρ) c).arrAt_in 2 rfl _).trans (A_eq15 (V31 m ρ) c 2))

theorem at33_main_v292 (c : Dev nD) : W33 m ρ c (Proc.devRef .tc main_v292) = W31 m ρ c (Proc.devRef .tc main_v292) :=
  calc W33 m ρ c (Proc.devRef .tc main_v292)
    _ = W32 m ρ c (Proc.devRef .tc main_v292) := Cert.KKeep.keep16 (W32 m ρ c) main_v292 (by decide)
    _ = W31 m ρ c (Proc.devRef .tc main_v292) := (W32_arr m ρ c 3).trans (((dat15 (V31 m ρ) c).arrAt_in 3 rfl _).trans (A_eq15 (V31 m ρ) c 3))

theorem at33_main_v295 (c : Dev nD) : W33 m ρ c (Proc.devRef .tc main_v295) = W31 m ρ c (Proc.devRef .tc main_v295) :=
  calc W33 m ρ c (Proc.devRef .tc main_v295)
    _ = W32 m ρ c (Proc.devRef .tc main_v295) := Cert.KKeep.keep16 (W32 m ρ c) main_v295 (by decide)
    _ = W31 m ρ c (Proc.devRef .tc main_v295) := (W32_arr m ρ c 4).trans (((dat15 (V31 m ρ) c).arrAt_in 4 rfl _).trans (A_eq15 (V31 m ρ) c 4))

theorem at1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := Cert.KKeep.keep0 (W0 m ρ c) main_arg0 (by decide)
    _ = m ((c : Thread nD τ).loc main_arg0) := rfl

theorem at2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := at1_main_arg0 m ρ c

theorem at3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := Cert.KKeep.keep1 (W2 m ρ c) main_arg0 (by decide)
    _ = m ((c : Thread nD τ).loc main_arg0) := at2_main_arg0 m ρ c

theorem at2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := Cert.KKeep.keep0 (W0 m ρ c) main_arg2 (by decide)
    _ = m ((c : Thread nD τ).loc main_arg2) := rfl

theorem at10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := Cert.KKeep.keep4 (W8 m ρ c) main_arg2 (by decide)
    _ = W7 m ρ c (Proc.devRef .tc main_arg2) := W8_of_ne m ρ c main_arg2 (by decide)
    _ = W6 m ρ c (Proc.devRef .tc main_arg2) := Cert.KKeep.keep3 (W6 m ρ c) main_arg2 (by decide)
    _ = W5 m ρ c (Proc.devRef .tc main_arg2) := W6_of_ne m ρ c main_arg2 (by decide)
    _ = W4 m ρ c (Proc.devRef .tc main_arg2) := Cert.KKeep.keep2 (W4 m ρ c) main_arg2 (by decide)
    _ = W3 m ρ c (Proc.devRef .tc main_arg2) := W4_of_ne m ρ c main_arg2 (by decide)
    _ = W2 m ρ c (Proc.devRef .tc main_arg2) := Cert.KKeep.keep1 (W2 m ρ c) main_arg2 (by decide)
    _ = m ((c : Thread nD τ).loc main_arg2) := at2_main_arg2 m ρ c

theorem at18_main_arg2 (c : Dev nD) : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := Cert.KKeep.keep8 (W16 m ρ c) main_arg2 (by decide)
    _ = W15 m ρ c (Proc.devRef .tc main_arg2) := W16_of_ne m ρ c main_arg2 (by decide)
    _ = W14 m ρ c (Proc.devRef .tc main_arg2) := Cert.KKeep.keep7 (W14 m ρ c) main_arg2 (by decide)
    _ = W13 m ρ c (Proc.devRef .tc main_arg2) := W14_of_ne m ρ c main_arg2 (by decide)
    _ = W12 m ρ c (Proc.devRef .tc main_arg2) := Cert.KKeep.keep6 (W12 m ρ c) main_arg2 (by decide)
    _ = W11 m ρ c (Proc.devRef .tc main_arg2) := W12_of_ne m ρ c main_arg2 (by decide)
    _ = W10 m ρ c (Proc.devRef .tc main_arg2) := Cert.KKeep.keep5 (W10 m ρ c) main_arg2 (by decide)
    _ = m ((c : Thread nD τ).loc main_arg2) := at10_main_arg2 m ρ c

theorem at26_main_arg2 (c : Dev nD) : W26 m ρ c (Proc.devRef .tc main_arg2) = m ((c : Thread nD τ).loc main_arg2) :=
  calc W26 m ρ c (Proc.devRef .tc main_arg2)
    _ = W25 m ρ c (Proc.devRef .tc main_arg2) := W26_of_ne m ρ c main_arg2 (by decide)
    _ = W24 m ρ c (Proc.devRef .tc main_arg2) := Cert.KKeep.keep12 (W24 m ρ c) main_arg2 (by decide)
    _ = W23 m ρ c (Proc.devRef .tc main_arg2) := W24_of_ne m ρ c main_arg2 (by decide)
    _ = W22 m ρ c (Proc.devRef .tc main_arg2) := Cert.KKeep.keep11 (W22 m ρ c) main_arg2 (by decide)
    _ = W21 m ρ c (Proc.devRef .tc main_arg2) := W22_of_ne m ρ c main_arg2 (by decide)
    _ = W20 m ρ c (Proc.devRef .tc main_arg2) := Cert.KKeep.keep10 (W20 m ρ c) main_arg2 (by decide)
    _ = W19 m ρ c (Proc.devRef .tc main_arg2) := W20_of_ne m ρ c main_arg2 (by decide)
    _ = W18 m ρ c (Proc.devRef .tc main_arg2) := Cert.KKeep.keep9 (W18 m ρ c) main_arg2 (by decide)
    _ = m ((c : Thread nD τ).loc main_arg2) := at18_main_arg2 m ρ c

theorem at2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := Cert.KKeep.keep0 (W0 m ρ c) main_arg3 (by decide)
    _ = m ((c : Thread nD τ).loc main_arg3) := rfl

theorem at10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := Cert.KKeep.keep4 (W8 m ρ c) main_arg3 (by decide)
    _ = W7 m ρ c (Proc.devRef .tc main_arg3) := W8_of_ne m ρ c main_arg3 (by decide)
    _ = W6 m ρ c (Proc.devRef .tc main_arg3) := Cert.KKeep.keep3 (W6 m ρ c) main_arg3 (by decide)
    _ = W5 m ρ c (Proc.devRef .tc main_arg3) := W6_of_ne m ρ c main_arg3 (by decide)
    _ = W4 m ρ c (Proc.devRef .tc main_arg3) := Cert.KKeep.keep2 (W4 m ρ c) main_arg3 (by decide)
    _ = W3 m ρ c (Proc.devRef .tc main_arg3) := W4_of_ne m ρ c main_arg3 (by decide)
    _ = W2 m ρ c (Proc.devRef .tc main_arg3) := Cert.KKeep.keep1 (W2 m ρ c) main_arg3 (by decide)
    _ = m ((c : Thread nD τ).loc main_arg3) := at2_main_arg3 m ρ c

theorem at18_main_arg3 (c : Dev nD) : W18 m ρ c (Proc.devRef .tc main_arg3) = m ((c : Thread nD τ).loc main_arg3) :=
  calc W18 m ρ c (Proc.devRef .tc main_arg3)
    _ = W17 m ρ c (Proc.devRef .tc main_arg3) := W18_of_ne m ρ c main_arg3 (by decide)
    _ = W16 m ρ c (Proc.devRef .tc main_arg3) := Cert.KKeep.keep8 (W16 m ρ c) main_arg3 (by decide)
    _ = W15 m ρ c (Proc.devRef .tc main_arg3) := W16_of_ne m ρ c main_arg3 (by decide)
    _ = W14 m ρ c (Proc.devRef .tc main_arg3) := Cert.KKeep.keep7 (W14 m ρ c) main_arg3 (by decide)
    _ = W13 m ρ c (Proc.devRef .tc main_arg3) := W14_of_ne m ρ c main_arg3 (by decide)
    _ = W12 m ρ c (Proc.devRef .tc main_arg3) := Cert.KKeep.keep6 (W12 m ρ c) main_arg3 (by decide)
    _ = W11 m ρ c (Proc.devRef .tc main_arg3) := W12_of_ne m ρ c main_arg3 (by decide)
    _ = W10 m ρ c (Proc.devRef .tc main_arg3) := Cert.KKeep.keep5 (W10 m ρ c) main_arg3 (by decide)
    _ = m ((c : Thread nD τ).loc main_arg3) := at10_main_arg3 m ρ c

theorem at26_main_arg3 (c : Dev nD) : W26 m ρ c (Proc.devRef .tc main_arg3) = m ((c : Thread nD τ).loc main_arg3) :=
  calc W26 m ρ c (Proc.devRef .tc main_arg3)
    _ = W25 m ρ c (Proc.devRef .tc main_arg3) := W26_of_ne m ρ c main_arg3 (by decide)
    _ = W24 m ρ c (Proc.devRef .tc main_arg3) := Cert.KKeep.keep12 (W24 m ρ c) main_arg3 (by decide)
    _ = W23 m ρ c (Proc.devRef .tc main_arg3) := W24_of_ne m ρ c main_arg3 (by decide)
    _ = W22 m ρ c (Proc.devRef .tc main_arg3) := Cert.KKeep.keep11 (W22 m ρ c) main_arg3 (by decide)
    _ = W21 m ρ c (Proc.devRef .tc main_arg3) := W22_of_ne m ρ c main_arg3 (by decide)
    _ = W20 m ρ c (Proc.devRef .tc main_arg3) := Cert.KKeep.keep10 (W20 m ρ c) main_arg3 (by decide)
    _ = W19 m ρ c (Proc.devRef .tc main_arg3) := W20_of_ne m ρ c main_arg3 (by decide)
    _ = W18 m ρ c (Proc.devRef .tc main_arg3) := Cert.KKeep.keep9 (W18 m ρ c) main_arg3 (by decide)
    _ = m ((c : Thread nD τ).loc main_arg3) := at18_main_arg3 m ρ c

theorem at2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := Cert.KKeep.keep0 (W0 m ρ c) main_arg5 (by decide)
    _ = m ((c : Thread nD τ).loc main_arg5) := rfl

theorem at10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := Cert.KKeep.keep4 (W8 m ρ c) main_arg5 (by decide)
    _ = W7 m ρ c (Proc.devRef .tc main_arg5) := W8_of_ne m ρ c main_arg5 (by decide)
    _ = W6 m ρ c (Proc.devRef .tc main_arg5) := Cert.KKeep.keep3 (W6 m ρ c) main_arg5 (by decide)
    _ = W5 m ρ c (Proc.devRef .tc main_arg5) := W6_of_ne m ρ c main_arg5 (by decide)
    _ = W4 m ρ c (Proc.devRef .tc main_arg5) := Cert.KKeep.keep2 (W4 m ρ c) main_arg5 (by decide)
    _ = W3 m ρ c (Proc.devRef .tc main_arg5) := W4_of_ne m ρ c main_arg5 (by decide)
    _ = W2 m ρ c (Proc.devRef .tc main_arg5) := Cert.KKeep.keep1 (W2 m ρ c) main_arg5 (by decide)
    _ = m ((c : Thread nD τ).loc main_arg5) := at2_main_arg5 m ρ c

theorem at18_main_arg5 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := Cert.KKeep.keep8 (W16 m ρ c) main_arg5 (by decide)
    _ = W15 m ρ c (Proc.devRef .tc main_arg5) := W16_of_ne m ρ c main_arg5 (by decide)
    _ = W14 m ρ c (Proc.devRef .tc main_arg5) := Cert.KKeep.keep7 (W14 m ρ c) main_arg5 (by decide)
    _ = W13 m ρ c (Proc.devRef .tc main_arg5) := W14_of_ne m ρ c main_arg5 (by decide)
    _ = W12 m ρ c (Proc.devRef .tc main_arg5) := Cert.KKeep.keep6 (W12 m ρ c) main_arg5 (by decide)
    _ = W11 m ρ c (Proc.devRef .tc main_arg5) := W12_of_ne m ρ c main_arg5 (by decide)
    _ = W10 m ρ c (Proc.devRef .tc main_arg5) := Cert.KKeep.keep5 (W10 m ρ c) main_arg5 (by decide)
    _ = m ((c : Thread nD τ).loc main_arg5) := at10_main_arg5 m ρ c

theorem at26_main_arg5 (c : Dev nD) : W26 m ρ c (Proc.devRef .tc main_arg5) = m ((c : Thread nD τ).loc main_arg5) :=
  calc W26 m ρ c (Proc.devRef .tc main_arg5)
    _ = W25 m ρ c (Proc.devRef .tc main_arg5) := W26_of_ne m ρ c main_arg5 (by decide)
    _ = W24 m ρ c (Proc.devRef .tc main_arg5) := Cert.KKeep.keep12 (W24 m ρ c) main_arg5 (by decide)
    _ = W23 m ρ c (Proc.devRef .tc main_arg5) := W24_of_ne m ρ c main_arg5 (by decide)
    _ = W22 m ρ c (Proc.devRef .tc main_arg5) := Cert.KKeep.keep11 (W22 m ρ c) main_arg5 (by decide)
    _ = W21 m ρ c (Proc.devRef .tc main_arg5) := W22_of_ne m ρ c main_arg5 (by decide)
    _ = W20 m ρ c (Proc.devRef .tc main_arg5) := Cert.KKeep.keep10 (W20 m ρ c) main_arg5 (by decide)
    _ = W19 m ρ c (Proc.devRef .tc main_arg5) := W20_of_ne m ρ c main_arg5 (by decide)
    _ = W18 m ρ c (Proc.devRef .tc main_arg5) := Cert.KKeep.keep9 (W18 m ρ c) main_arg5 (by decide)
    _ = m ((c : Thread nD τ).loc main_arg5) := at18_main_arg5 m ρ c

theorem at2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := Cert.KKeep.keep0 (W0 m ρ c) main_arg7 (by decide)
    _ = m ((c : Thread nD τ).loc main_arg7) := rfl

theorem at10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := Cert.KKeep.keep4 (W8 m ρ c) main_arg7 (by decide)
    _ = W7 m ρ c (Proc.devRef .tc main_arg7) := W8_of_ne m ρ c main_arg7 (by decide)
    _ = W6 m ρ c (Proc.devRef .tc main_arg7) := Cert.KKeep.keep3 (W6 m ρ c) main_arg7 (by decide)
    _ = W5 m ρ c (Proc.devRef .tc main_arg7) := W6_of_ne m ρ c main_arg7 (by decide)
    _ = W4 m ρ c (Proc.devRef .tc main_arg7) := Cert.KKeep.keep2 (W4 m ρ c) main_arg7 (by decide)
    _ = W3 m ρ c (Proc.devRef .tc main_arg7) := W4_of_ne m ρ c main_arg7 (by decide)
    _ = W2 m ρ c (Proc.devRef .tc main_arg7) := Cert.KKeep.keep1 (W2 m ρ c) main_arg7 (by decide)
    _ = m ((c : Thread nD τ).loc main_arg7) := at2_main_arg7 m ρ c

theorem at18_main_arg7 (c : Dev nD) : W18 m ρ c (Proc.devRef .tc main_arg7) = m ((c : Thread nD τ).loc main_arg7) :=
  calc W18 m ρ c (Proc.devRef .tc main_arg7)
    _ = W17 m ρ c (Proc.devRef .tc main_arg7) := W18_of_ne m ρ c main_arg7 (by decide)
    _ = W16 m ρ c (Proc.devRef .tc main_arg7) := Cert.KKeep.keep8 (W16 m ρ c) main_arg7 (by decide)
    _ = W15 m ρ c (Proc.devRef .tc main_arg7) := W16_of_ne m ρ c main_arg7 (by decide)
    _ = W14 m ρ c (Proc.devRef .tc main_arg7) := Cert.KKeep.keep7 (W14 m ρ c) main_arg7 (by decide)
    _ = W13 m ρ c (Proc.devRef .tc main_arg7) := W14_of_ne m ρ c main_arg7 (by decide)
    _ = W12 m ρ c (Proc.devRef .tc main_arg7) := Cert.KKeep.keep6 (W12 m ρ c) main_arg7 (by decide)
    _ = W11 m ρ c (Proc.devRef .tc main_arg7) := W12_of_ne m ρ c main_arg7 (by decide)
    _ = W10 m ρ c (Proc.devRef .tc main_arg7) := Cert.KKeep.keep5 (W10 m ρ c) main_arg7 (by decide)
    _ = m ((c : Thread nD τ).loc main_arg7) := at10_main_arg7 m ρ c

theorem at26_main_arg7 (c : Dev nD) : W26 m ρ c (Proc.devRef .tc main_arg7) = m ((c : Thread nD τ).loc main_arg7) :=
  calc W26 m ρ c (Proc.devRef .tc main_arg7)
    _ = W25 m ρ c (Proc.devRef .tc main_arg7) := W26_of_ne m ρ c main_arg7 (by decide)
    _ = W24 m ρ c (Proc.devRef .tc main_arg7) := Cert.KKeep.keep12 (W24 m ρ c) main_arg7 (by decide)
    _ = W23 m ρ c (Proc.devRef .tc main_arg7) := W24_of_ne m ρ c main_arg7 (by decide)
    _ = W22 m ρ c (Proc.devRef .tc main_arg7) := Cert.KKeep.keep11 (W22 m ρ c) main_arg7 (by decide)
    _ = W21 m ρ c (Proc.devRef .tc main_arg7) := W22_of_ne m ρ c main_arg7 (by decide)
    _ = W20 m ρ c (Proc.devRef .tc main_arg7) := Cert.KKeep.keep10 (W20 m ρ c) main_arg7 (by decide)
    _ = W19 m ρ c (Proc.devRef .tc main_arg7) := W20_of_ne m ρ c main_arg7 (by decide)
    _ = W18 m ρ c (Proc.devRef .tc main_arg7) := Cert.KKeep.keep9 (W18 m ρ c) main_arg7 (by decide)
    _ = m ((c : Thread nD τ).loc main_arg7) := at18_main_arg7 m ρ c

theorem at2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := Cert.KKeep.keep0 (W0 m ρ c) main_arg6 (by decide)
    _ = m ((c : Thread nD τ).loc main_arg6) := rfl

theorem at10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := Cert.KKeep.keep4 (W8 m ρ c) main_arg6 (by decide)
    _ = W7 m ρ c (Proc.devRef .tc main_arg6) := W8_of_ne m ρ c main_arg6 (by decide)
    _ = W6 m ρ c (Proc.devRef .tc main_arg6) := Cert.KKeep.keep3 (W6 m ρ c) main_arg6 (by decide)
    _ = W5 m ρ c (Proc.devRef .tc main_arg6) := W6_of_ne m ρ c main_arg6 (by decide)
    _ = W4 m ρ c (Proc.devRef .tc main_arg6) := Cert.KKeep.keep2 (W4 m ρ c) main_arg6 (by decide)
    _ = W3 m ρ c (Proc.devRef .tc main_arg6) := W4_of_ne m ρ c main_arg6 (by decide)
    _ = W2 m ρ c (Proc.devRef .tc main_arg6) := Cert.KKeep.keep1 (W2 m ρ c) main_arg6 (by decide)
    _ = m ((c : Thread nD τ).loc main_arg6) := at2_main_arg6 m ρ c

theorem at18_main_arg6 (c : Dev nD) : W18 m ρ c (Proc.devRef .tc main_arg6) = m ((c : Thread nD τ).loc main_arg6) :=
  calc W18 m ρ c (Proc.devRef .tc main_arg6)
    _ = W17 m ρ c (Proc.devRef .tc main_arg6) := W18_of_ne m ρ c main_arg6 (by decide)
    _ = W16 m ρ c (Proc.devRef .tc main_arg6) := Cert.KKeep.keep8 (W16 m ρ c) main_arg6 (by decide)
    _ = W15 m ρ c (Proc.devRef .tc main_arg6) := W16_of_ne m ρ c main_arg6 (by decide)
    _ = W14 m ρ c (Proc.devRef .tc main_arg6) := Cert.KKeep.keep7 (W14 m ρ c) main_arg6 (by decide)
    _ = W13 m ρ c (Proc.devRef .tc main_arg6) := W14_of_ne m ρ c main_arg6 (by decide)
    _ = W12 m ρ c (Proc.devRef .tc main_arg6) := Cert.KKeep.keep6 (W12 m ρ c) main_arg6 (by decide)
    _ = W11 m ρ c (Proc.devRef .tc main_arg6) := W12_of_ne m ρ c main_arg6 (by decide)
    _ = W10 m ρ c (Proc.devRef .tc main_arg6) := Cert.KKeep.keep5 (W10 m ρ c) main_arg6 (by decide)
    _ = m ((c : Thread nD τ).loc main_arg6) := at10_main_arg6 m ρ c

theorem at26_main_arg6 (c : Dev nD) : W26 m ρ c (Proc.devRef .tc main_arg6) = m ((c : Thread nD τ).loc main_arg6) :=
  calc W26 m ρ c (Proc.devRef .tc main_arg6)
    _ = W25 m ρ c (Proc.devRef .tc main_arg6) := W26_of_ne m ρ c main_arg6 (by decide)
    _ = W24 m ρ c (Proc.devRef .tc main_arg6) := Cert.KKeep.keep12 (W24 m ρ c) main_arg6 (by decide)
    _ = W23 m ρ c (Proc.devRef .tc main_arg6) := W24_of_ne m ρ c main_arg6 (by decide)
    _ = W22 m ρ c (Proc.devRef .tc main_arg6) := Cert.KKeep.keep11 (W22 m ρ c) main_arg6 (by decide)
    _ = W21 m ρ c (Proc.devRef .tc main_arg6) := W22_of_ne m ρ c main_arg6 (by decide)
    _ = W20 m ρ c (Proc.devRef .tc main_arg6) := Cert.KKeep.keep10 (W20 m ρ c) main_arg6 (by decide)
    _ = W19 m ρ c (Proc.devRef .tc main_arg6) := W20_of_ne m ρ c main_arg6 (by decide)
    _ = W18 m ρ c (Proc.devRef .tc main_arg6) := Cert.KKeep.keep9 (W18 m ρ c) main_arg6 (by decide)
    _ = m ((c : Thread nD τ).loc main_arg6) := at18_main_arg6 m ρ c

theorem at4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := Cert.KKeep.keep1 (W2 m ρ c) main_arg10 (by decide)
    _ = W1 m ρ c (Proc.devRef .tc main_arg10) := W2_of_ne m ρ c main_arg10 (by decide)
    _ = W0 m ρ c (Proc.devRef .tc main_arg10) := Cert.KKeep.keep0 (W0 m ρ c) main_arg10 (by decide)
    _ = m ((c : Thread nD τ).loc main_arg10) := rfl

theorem at12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := Cert.KKeep.keep5 (W10 m ρ c) main_arg10 (by decide)
    _ = W9 m ρ c (Proc.devRef .tc main_arg10) := W10_of_ne m ρ c main_arg10 (by decide)
    _ = W8 m ρ c (Proc.devRef .tc main_arg10) := Cert.KKeep.keep4 (W8 m ρ c) main_arg10 (by decide)
    _ = W7 m ρ c (Proc.devRef .tc main_arg10) := W8_of_ne m ρ c main_arg10 (by decide)
    _ = W6 m ρ c (Proc.devRef .tc main_arg10) := Cert.KKeep.keep3 (W6 m ρ c) main_arg10 (by decide)
    _ = W5 m ρ c (Proc.devRef .tc main_arg10) := W6_of_ne m ρ c main_arg10 (by decide)
    _ = W4 m ρ c (Proc.devRef .tc main_arg10) := Cert.KKeep.keep2 (W4 m ρ c) main_arg10 (by decide)
    _ = m ((c : Thread nD τ).loc main_arg10) := at4_main_arg10 m ρ c

theorem at20_main_arg10 (c : Dev nD) : W20 m ρ c (Proc.devRef .tc main_arg10) = m ((c : Thread nD τ).loc main_arg10) :=
  calc W20 m ρ c (Proc.devRef .tc main_arg10)
    _ = W19 m ρ c (Proc.devRef .tc main_arg10) := W20_of_ne m ρ c main_arg10 (by decide)
    _ = W18 m ρ c (Proc.devRef .tc main_arg10) := Cert.KKeep.keep9 (W18 m ρ c) main_arg10 (by decide)
    _ = W17 m ρ c (Proc.devRef .tc main_arg10) := W18_of_ne m ρ c main_arg10 (by decide)
    _ = W16 m ρ c (Proc.devRef .tc main_arg10) := Cert.KKeep.keep8 (W16 m ρ c) main_arg10 (by decide)
    _ = W15 m ρ c (Proc.devRef .tc main_arg10) := W16_of_ne m ρ c main_arg10 (by decide)
    _ = W14 m ρ c (Proc.devRef .tc main_arg10) := Cert.KKeep.keep7 (W14 m ρ c) main_arg10 (by decide)
    _ = W13 m ρ c (Proc.devRef .tc main_arg10) := W14_of_ne m ρ c main_arg10 (by decide)
    _ = W12 m ρ c (Proc.devRef .tc main_arg10) := Cert.KKeep.keep6 (W12 m ρ c) main_arg10 (by decide)
    _ = m ((c : Thread nD τ).loc main_arg10) := at12_main_arg10 m ρ c

theorem at28_main_arg10 (c : Dev nD) : W28 m ρ c (Proc.devRef .tc main_arg10) = m ((c : Thread nD τ).loc main_arg10) :=
  calc W28 m ρ c (Proc.devRef .tc main_arg10)
    _ = W27 m ρ c (Proc.devRef .tc main_arg10) := W28_of_ne m ρ c main_arg10 (by decide)
    _ = W26 m ρ c (Proc.devRef .tc main_arg10) := Cert.KKeep.keep13 (W26 m ρ c) main_arg10 (by decide)
    _ = W25 m ρ c (Proc.devRef .tc main_arg10) := W26_of_ne m ρ c main_arg10 (by decide)
    _ = W24 m ρ c (Proc.devRef .tc main_arg10) := Cert.KKeep.keep12 (W24 m ρ c) main_arg10 (by decide)
    _ = W23 m ρ c (Proc.devRef .tc main_arg10) := W24_of_ne m ρ c main_arg10 (by decide)
    _ = W22 m ρ c (Proc.devRef .tc main_arg10) := Cert.KKeep.keep11 (W22 m ρ c) main_arg10 (by decide)
    _ = W21 m ρ c (Proc.devRef .tc main_arg10) := W22_of_ne m ρ c main_arg10 (by decide)
    _ = W20 m ρ c (Proc.devRef .tc main_arg10) := Cert.KKeep.keep10 (W20 m ρ c) main_arg10 (by decide)
    _ = m ((c : Thread nD τ).loc main_arg10) := at20_main_arg10 m ρ c

theorem at4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := Cert.KKeep.keep1 (W2 m ρ c) main_arg11 (by decide)
    _ = W1 m ρ c (Proc.devRef .tc main_arg11) := W2_of_ne m ρ c main_arg11 (by decide)
    _ = W0 m ρ c (Proc.devRef .tc main_arg11) := Cert.KKeep.keep0 (W0 m ρ c) main_arg11 (by decide)
    _ = m ((c : Thread nD τ).loc main_arg11) := rfl

theorem at12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := Cert.KKeep.keep5 (W10 m ρ c) main_arg11 (by decide)
    _ = W9 m ρ c (Proc.devRef .tc main_arg11) := W10_of_ne m ρ c main_arg11 (by decide)
    _ = W8 m ρ c (Proc.devRef .tc main_arg11) := Cert.KKeep.keep4 (W8 m ρ c) main_arg11 (by decide)
    _ = W7 m ρ c (Proc.devRef .tc main_arg11) := W8_of_ne m ρ c main_arg11 (by decide)
    _ = W6 m ρ c (Proc.devRef .tc main_arg11) := Cert.KKeep.keep3 (W6 m ρ c) main_arg11 (by decide)
    _ = W5 m ρ c (Proc.devRef .tc main_arg11) := W6_of_ne m ρ c main_arg11 (by decide)
    _ = W4 m ρ c (Proc.devRef .tc main_arg11) := Cert.KKeep.keep2 (W4 m ρ c) main_arg11 (by decide)
    _ = m ((c : Thread nD τ).loc main_arg11) := at4_main_arg11 m ρ c

theorem at20_main_arg11 (c : Dev nD) : W20 m ρ c (Proc.devRef .tc main_arg11) = m ((c : Thread nD τ).loc main_arg11) :=
  calc W20 m ρ c (Proc.devRef .tc main_arg11)
    _ = W19 m ρ c (Proc.devRef .tc main_arg11) := W20_of_ne m ρ c main_arg11 (by decide)
    _ = W18 m ρ c (Proc.devRef .tc main_arg11) := Cert.KKeep.keep9 (W18 m ρ c) main_arg11 (by decide)
    _ = W17 m ρ c (Proc.devRef .tc main_arg11) := W18_of_ne m ρ c main_arg11 (by decide)
    _ = W16 m ρ c (Proc.devRef .tc main_arg11) := Cert.KKeep.keep8 (W16 m ρ c) main_arg11 (by decide)
    _ = W15 m ρ c (Proc.devRef .tc main_arg11) := W16_of_ne m ρ c main_arg11 (by decide)
    _ = W14 m ρ c (Proc.devRef .tc main_arg11) := Cert.KKeep.keep7 (W14 m ρ c) main_arg11 (by decide)
    _ = W13 m ρ c (Proc.devRef .tc main_arg11) := W14_of_ne m ρ c main_arg11 (by decide)
    _ = W12 m ρ c (Proc.devRef .tc main_arg11) := Cert.KKeep.keep6 (W12 m ρ c) main_arg11 (by decide)
    _ = m ((c : Thread nD τ).loc main_arg11) := at12_main_arg11 m ρ c

theorem at28_main_arg11 (c : Dev nD) : W28 m ρ c (Proc.devRef .tc main_arg11) = m ((c : Thread nD τ).loc main_arg11) :=
  calc W28 m ρ c (Proc.devRef .tc main_arg11)
    _ = W27 m ρ c (Proc.devRef .tc main_arg11) := W28_of_ne m ρ c main_arg11 (by decide)
    _ = W26 m ρ c (Proc.devRef .tc main_arg11) := Cert.KKeep.keep13 (W26 m ρ c) main_arg11 (by decide)
    _ = W25 m ρ c (Proc.devRef .tc main_arg11) := W26_of_ne m ρ c main_arg11 (by decide)
    _ = W24 m ρ c (Proc.devRef .tc main_arg11) := Cert.KKeep.keep12 (W24 m ρ c) main_arg11 (by decide)
    _ = W23 m ρ c (Proc.devRef .tc main_arg11) := W24_of_ne m ρ c main_arg11 (by decide)
    _ = W22 m ρ c (Proc.devRef .tc main_arg11) := Cert.KKeep.keep11 (W22 m ρ c) main_arg11 (by decide)
    _ = W21 m ρ c (Proc.devRef .tc main_arg11) := W22_of_ne m ρ c main_arg11 (by decide)
    _ = W20 m ρ c (Proc.devRef .tc main_arg11) := Cert.KKeep.keep10 (W20 m ρ c) main_arg11 (by decide)
    _ = m ((c : Thread nD τ).loc main_arg11) := at20_main_arg11 m ρ c

theorem at4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := Cert.KKeep.keep1 (W2 m ρ c) main_arg9 (by decide)
    _ = W1 m ρ c (Proc.devRef .tc main_arg9) := W2_of_ne m ρ c main_arg9 (by decide)
    _ = W0 m ρ c (Proc.devRef .tc main_arg9) := Cert.KKeep.keep0 (W0 m ρ c) main_arg9 (by decide)
    _ = m ((c : Thread nD τ).loc main_arg9) := rfl

theorem at12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := Cert.KKeep.keep5 (W10 m ρ c) main_arg9 (by decide)
    _ = W9 m ρ c (Proc.devRef .tc main_arg9) := W10_of_ne m ρ c main_arg9 (by decide)
    _ = W8 m ρ c (Proc.devRef .tc main_arg9) := Cert.KKeep.keep4 (W8 m ρ c) main_arg9 (by decide)
    _ = W7 m ρ c (Proc.devRef .tc main_arg9) := W8_of_ne m ρ c main_arg9 (by decide)
    _ = W6 m ρ c (Proc.devRef .tc main_arg9) := Cert.KKeep.keep3 (W6 m ρ c) main_arg9 (by decide)
    _ = W5 m ρ c (Proc.devRef .tc main_arg9) := W6_of_ne m ρ c main_arg9 (by decide)
    _ = W4 m ρ c (Proc.devRef .tc main_arg9) := Cert.KKeep.keep2 (W4 m ρ c) main_arg9 (by decide)
    _ = m ((c : Thread nD τ).loc main_arg9) := at4_main_arg9 m ρ c

theorem at20_main_arg9 (c : Dev nD) : W20 m ρ c (Proc.devRef .tc main_arg9) = m ((c : Thread nD τ).loc main_arg9) :=
  calc W20 m ρ c (Proc.devRef .tc main_arg9)
    _ = W19 m ρ c (Proc.devRef .tc main_arg9) := W20_of_ne m ρ c main_arg9 (by decide)
    _ = W18 m ρ c (Proc.devRef .tc main_arg9) := Cert.KKeep.keep9 (W18 m ρ c) main_arg9 (by decide)
    _ = W17 m ρ c (Proc.devRef .tc main_arg9) := W18_of_ne m ρ c main_arg9 (by decide)
    _ = W16 m ρ c (Proc.devRef .tc main_arg9) := Cert.KKeep.keep8 (W16 m ρ c) main_arg9 (by decide)
    _ = W15 m ρ c (Proc.devRef .tc main_arg9) := W16_of_ne m ρ c main_arg9 (by decide)
    _ = W14 m ρ c (Proc.devRef .tc main_arg9) := Cert.KKeep.keep7 (W14 m ρ c) main_arg9 (by decide)
    _ = W13 m ρ c (Proc.devRef .tc main_arg9) := W14_of_ne m ρ c main_arg9 (by decide)
    _ = W12 m ρ c (Proc.devRef .tc main_arg9) := Cert.KKeep.keep6 (W12 m ρ c) main_arg9 (by decide)
    _ = m ((c : Thread nD τ).loc main_arg9) := at12_main_arg9 m ρ c

theorem at28_main_arg9 (c : Dev nD) : W28 m ρ c (Proc.devRef .tc main_arg9) = m ((c : Thread nD τ).loc main_arg9) :=
  calc W28 m ρ c (Proc.devRef .tc main_arg9)
    _ = W27 m ρ c (Proc.devRef .tc main_arg9) := W28_of_ne m ρ c main_arg9 (by decide)
    _ = W26 m ρ c (Proc.devRef .tc main_arg9) := Cert.KKeep.keep13 (W26 m ρ c) main_arg9 (by decide)
    _ = W25 m ρ c (Proc.devRef .tc main_arg9) := W26_of_ne m ρ c main_arg9 (by decide)
    _ = W24 m ρ c (Proc.devRef .tc main_arg9) := Cert.KKeep.keep12 (W24 m ρ c) main_arg9 (by decide)
    _ = W23 m ρ c (Proc.devRef .tc main_arg9) := W24_of_ne m ρ c main_arg9 (by decide)
    _ = W22 m ρ c (Proc.devRef .tc main_arg9) := Cert.KKeep.keep11 (W22 m ρ c) main_arg9 (by decide)
    _ = W21 m ρ c (Proc.devRef .tc main_arg9) := W22_of_ne m ρ c main_arg9 (by decide)
    _ = W20 m ρ c (Proc.devRef .tc main_arg9) := Cert.KKeep.keep10 (W20 m ρ c) main_arg9 (by decide)
    _ = m ((c : Thread nD τ).loc main_arg9) := at20_main_arg9 m ρ c

theorem at4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := Cert.KKeep.keep1 (W2 m ρ c) main_arg8 (by decide)
    _ = W1 m ρ c (Proc.devRef .tc main_arg8) := W2_of_ne m ρ c main_arg8 (by decide)
    _ = W0 m ρ c (Proc.devRef .tc main_arg8) := Cert.KKeep.keep0 (W0 m ρ c) main_arg8 (by decide)
    _ = m ((c : Thread nD τ).loc main_arg8) := rfl

theorem at12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := Cert.KKeep.keep5 (W10 m ρ c) main_arg8 (by decide)
    _ = W9 m ρ c (Proc.devRef .tc main_arg8) := W10_of_ne m ρ c main_arg8 (by decide)
    _ = W8 m ρ c (Proc.devRef .tc main_arg8) := Cert.KKeep.keep4 (W8 m ρ c) main_arg8 (by decide)
    _ = W7 m ρ c (Proc.devRef .tc main_arg8) := W8_of_ne m ρ c main_arg8 (by decide)
    _ = W6 m ρ c (Proc.devRef .tc main_arg8) := Cert.KKeep.keep3 (W6 m ρ c) main_arg8 (by decide)
    _ = W5 m ρ c (Proc.devRef .tc main_arg8) := W6_of_ne m ρ c main_arg8 (by decide)
    _ = W4 m ρ c (Proc.devRef .tc main_arg8) := Cert.KKeep.keep2 (W4 m ρ c) main_arg8 (by decide)
    _ = m ((c : Thread nD τ).loc main_arg8) := at4_main_arg8 m ρ c

theorem at20_main_arg8 (c : Dev nD) : W20 m ρ c (Proc.devRef .tc main_arg8) = m ((c : Thread nD τ).loc main_arg8) :=
  calc W20 m ρ c (Proc.devRef .tc main_arg8)
    _ = W19 m ρ c (Proc.devRef .tc main_arg8) := W20_of_ne m ρ c main_arg8 (by decide)
    _ = W18 m ρ c (Proc.devRef .tc main_arg8) := Cert.KKeep.keep9 (W18 m ρ c) main_arg8 (by decide)
    _ = W17 m ρ c (Proc.devRef .tc main_arg8) := W18_of_ne m ρ c main_arg8 (by decide)
    _ = W16 m ρ c (Proc.devRef .tc main_arg8) := Cert.KKeep.keep8 (W16 m ρ c) main_arg8 (by decide)
    _ = W15 m ρ c (Proc.devRef .tc main_arg8) := W16_of_ne m ρ c main_arg8 (by decide)
    _ = W14 m ρ c (Proc.devRef .tc main_arg8) := Cert.KKeep.keep7 (W14 m ρ c) main_arg8 (by decide)
    _ = W13 m ρ c (Proc.devRef .tc main_arg8) := W14_of_ne m ρ c main_arg8 (by decide)
    _ = W12 m ρ c (Proc.devRef .tc main_arg8) := Cert.KKeep.keep6 (W12 m ρ c) main_arg8 (by decide)
    _ = m ((c : Thread nD τ).loc main_arg8) := at12_main_arg8 m ρ c

theorem at28_main_arg8 (c : Dev nD) : W28 m ρ c (Proc.devRef .tc main_arg8) = m ((c : Thread nD τ).loc main_arg8) :=
  calc W28 m ρ c (Proc.devRef .tc main_arg8)
    _ = W27 m ρ c (Proc.devRef .tc main_arg8) := W28_of_ne m ρ c main_arg8 (by decide)
    _ = W26 m ρ c (Proc.devRef .tc main_arg8) := Cert.KKeep.keep13 (W26 m ρ c) main_arg8 (by decide)
    _ = W25 m ρ c (Proc.devRef .tc main_arg8) := W26_of_ne m ρ c main_arg8 (by decide)
    _ = W24 m ρ c (Proc.devRef .tc main_arg8) := Cert.KKeep.keep12 (W24 m ρ c) main_arg8 (by decide)
    _ = W23 m ρ c (Proc.devRef .tc main_arg8) := W24_of_ne m ρ c main_arg8 (by decide)
    _ = W22 m ρ c (Proc.devRef .tc main_arg8) := Cert.KKeep.keep11 (W22 m ρ c) main_arg8 (by decide)
    _ = W21 m ρ c (Proc.devRef .tc main_arg8) := W22_of_ne m ρ c main_arg8 (by decide)
    _ = W20 m ρ c (Proc.devRef .tc main_arg8) := Cert.KKeep.keep10 (W20 m ρ c) main_arg8 (by decide)
    _ = m ((c : Thread nD τ).loc main_arg8) := at20_main_arg8 m ρ c

theorem at6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := Cert.KKeep.keep2 (W4 m ρ c) main_arg12 (by decide)
    _ = W3 m ρ c (Proc.devRef .tc main_arg12) := W4_of_ne m ρ c main_arg12 (by decide)
    _ = W2 m ρ c (Proc.devRef .tc main_arg12) := Cert.KKeep.keep1 (W2 m ρ c) main_arg12 (by decide)
    _ = W1 m ρ c (Proc.devRef .tc main_arg12) := W2_of_ne m ρ c main_arg12 (by decide)
    _ = W0 m ρ c (Proc.devRef .tc main_arg12) := Cert.KKeep.keep0 (W0 m ρ c) main_arg12 (by decide)
    _ = m ((c : Thread nD τ).loc main_arg12) := rfl

theorem at14_main_arg12 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := Cert.KKeep.keep6 (W12 m ρ c) main_arg12 (by decide)
    _ = W11 m ρ c (Proc.devRef .tc main_arg12) := W12_of_ne m ρ c main_arg12 (by decide)
    _ = W10 m ρ c (Proc.devRef .tc main_arg12) := Cert.KKeep.keep5 (W10 m ρ c) main_arg12 (by decide)
    _ = W9 m ρ c (Proc.devRef .tc main_arg12) := W10_of_ne m ρ c main_arg12 (by decide)
    _ = W8 m ρ c (Proc.devRef .tc main_arg12) := Cert.KKeep.keep4 (W8 m ρ c) main_arg12 (by decide)
    _ = W7 m ρ c (Proc.devRef .tc main_arg12) := W8_of_ne m ρ c main_arg12 (by decide)
    _ = W6 m ρ c (Proc.devRef .tc main_arg12) := Cert.KKeep.keep3 (W6 m ρ c) main_arg12 (by decide)
    _ = m ((c : Thread nD τ).loc main_arg12) := at6_main_arg12 m ρ c

theorem at22_main_arg12 (c : Dev nD) : W22 m ρ c (Proc.devRef .tc main_arg12) = m ((c : Thread nD τ).loc main_arg12) :=
  calc W22 m ρ c (Proc.devRef .tc main_arg12)
    _ = W21 m ρ c (Proc.devRef .tc main_arg12) := W22_of_ne m ρ c main_arg12 (by decide)
    _ = W20 m ρ c (Proc.devRef .tc main_arg12) := Cert.KKeep.keep10 (W20 m ρ c) main_arg12 (by decide)
    _ = W19 m ρ c (Proc.devRef .tc main_arg12) := W20_of_ne m ρ c main_arg12 (by decide)
    _ = W18 m ρ c (Proc.devRef .tc main_arg12) := Cert.KKeep.keep9 (W18 m ρ c) main_arg12 (by decide)
    _ = W17 m ρ c (Proc.devRef .tc main_arg12) := W18_of_ne m ρ c main_arg12 (by decide)
    _ = W16 m ρ c (Proc.devRef .tc main_arg12) := Cert.KKeep.keep8 (W16 m ρ c) main_arg12 (by decide)
    _ = W15 m ρ c (Proc.devRef .tc main_arg12) := W16_of_ne m ρ c main_arg12 (by decide)
    _ = W14 m ρ c (Proc.devRef .tc main_arg12) := Cert.KKeep.keep7 (W14 m ρ c) main_arg12 (by decide)
    _ = m ((c : Thread nD τ).loc main_arg12) := at14_main_arg12 m ρ c

theorem at30_main_arg12 (c : Dev nD) : W30 m ρ c (Proc.devRef .tc main_arg12) = m ((c : Thread nD τ).loc main_arg12) :=
  calc W30 m ρ c (Proc.devRef .tc main_arg12)
    _ = W29 m ρ c (Proc.devRef .tc main_arg12) := W30_of_ne m ρ c main_arg12 (by decide)
    _ = W28 m ρ c (Proc.devRef .tc main_arg12) := Cert.KKeep.keep14 (W28 m ρ c) main_arg12 (by decide)
    _ = W27 m ρ c (Proc.devRef .tc main_arg12) := W28_of_ne m ρ c main_arg12 (by decide)
    _ = W26 m ρ c (Proc.devRef .tc main_arg12) := Cert.KKeep.keep13 (W26 m ρ c) main_arg12 (by decide)
    _ = W25 m ρ c (Proc.devRef .tc main_arg12) := W26_of_ne m ρ c main_arg12 (by decide)
    _ = W24 m ρ c (Proc.devRef .tc main_arg12) := Cert.KKeep.keep12 (W24 m ρ c) main_arg12 (by decide)
    _ = W23 m ρ c (Proc.devRef .tc main_arg12) := W24_of_ne m ρ c main_arg12 (by decide)
    _ = W22 m ρ c (Proc.devRef .tc main_arg12) := Cert.KKeep.keep11 (W22 m ρ c) main_arg12 (by decide)
    _ = m ((c : Thread nD τ).loc main_arg12) := at22_main_arg12 m ρ c

theorem at6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := Cert.KKeep.keep2 (W4 m ρ c) main_arg13 (by decide)
    _ = W3 m ρ c (Proc.devRef .tc main_arg13) := W4_of_ne m ρ c main_arg13 (by decide)
    _ = W2 m ρ c (Proc.devRef .tc main_arg13) := Cert.KKeep.keep1 (W2 m ρ c) main_arg13 (by decide)
    _ = W1 m ρ c (Proc.devRef .tc main_arg13) := W2_of_ne m ρ c main_arg13 (by decide)
    _ = W0 m ρ c (Proc.devRef .tc main_arg13) := Cert.KKeep.keep0 (W0 m ρ c) main_arg13 (by decide)
    _ = m ((c : Thread nD τ).loc main_arg13) := rfl

theorem at14_main_arg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := Cert.KKeep.keep6 (W12 m ρ c) main_arg13 (by decide)
    _ = W11 m ρ c (Proc.devRef .tc main_arg13) := W12_of_ne m ρ c main_arg13 (by decide)
    _ = W10 m ρ c (Proc.devRef .tc main_arg13) := Cert.KKeep.keep5 (W10 m ρ c) main_arg13 (by decide)
    _ = W9 m ρ c (Proc.devRef .tc main_arg13) := W10_of_ne m ρ c main_arg13 (by decide)
    _ = W8 m ρ c (Proc.devRef .tc main_arg13) := Cert.KKeep.keep4 (W8 m ρ c) main_arg13 (by decide)
    _ = W7 m ρ c (Proc.devRef .tc main_arg13) := W8_of_ne m ρ c main_arg13 (by decide)
    _ = W6 m ρ c (Proc.devRef .tc main_arg13) := Cert.KKeep.keep3 (W6 m ρ c) main_arg13 (by decide)
    _ = m ((c : Thread nD τ).loc main_arg13) := at6_main_arg13 m ρ c

theorem at22_main_arg13 (c : Dev nD) : W22 m ρ c (Proc.devRef .tc main_arg13) = m ((c : Thread nD τ).loc main_arg13) :=
  calc W22 m ρ c (Proc.devRef .tc main_arg13)
    _ = W21 m ρ c (Proc.devRef .tc main_arg13) := W22_of_ne m ρ c main_arg13 (by decide)
    _ = W20 m ρ c (Proc.devRef .tc main_arg13) := Cert.KKeep.keep10 (W20 m ρ c) main_arg13 (by decide)
    _ = W19 m ρ c (Proc.devRef .tc main_arg13) := W20_of_ne m ρ c main_arg13 (by decide)
    _ = W18 m ρ c (Proc.devRef .tc main_arg13) := Cert.KKeep.keep9 (W18 m ρ c) main_arg13 (by decide)
    _ = W17 m ρ c (Proc.devRef .tc main_arg13) := W18_of_ne m ρ c main_arg13 (by decide)
    _ = W16 m ρ c (Proc.devRef .tc main_arg13) := Cert.KKeep.keep8 (W16 m ρ c) main_arg13 (by decide)
    _ = W15 m ρ c (Proc.devRef .tc main_arg13) := W16_of_ne m ρ c main_arg13 (by decide)
    _ = W14 m ρ c (Proc.devRef .tc main_arg13) := Cert.KKeep.keep7 (W14 m ρ c) main_arg13 (by decide)
    _ = m ((c : Thread nD τ).loc main_arg13) := at14_main_arg13 m ρ c

theorem at30_main_arg13 (c : Dev nD) : W30 m ρ c (Proc.devRef .tc main_arg13) = m ((c : Thread nD τ).loc main_arg13) :=
  calc W30 m ρ c (Proc.devRef .tc main_arg13)
    _ = W29 m ρ c (Proc.devRef .tc main_arg13) := W30_of_ne m ρ c main_arg13 (by decide)
    _ = W28 m ρ c (Proc.devRef .tc main_arg13) := Cert.KKeep.keep14 (W28 m ρ c) main_arg13 (by decide)
    _ = W27 m ρ c (Proc.devRef .tc main_arg13) := W28_of_ne m ρ c main_arg13 (by decide)
    _ = W26 m ρ c (Proc.devRef .tc main_arg13) := Cert.KKeep.keep13 (W26 m ρ c) main_arg13 (by decide)
    _ = W25 m ρ c (Proc.devRef .tc main_arg13) := W26_of_ne m ρ c main_arg13 (by decide)
    _ = W24 m ρ c (Proc.devRef .tc main_arg13) := Cert.KKeep.keep12 (W24 m ρ c) main_arg13 (by decide)
    _ = W23 m ρ c (Proc.devRef .tc main_arg13) := W24_of_ne m ρ c main_arg13 (by decide)
    _ = W22 m ρ c (Proc.devRef .tc main_arg13) := Cert.KKeep.keep11 (W22 m ρ c) main_arg13 (by decide)
    _ = m ((c : Thread nD τ).loc main_arg13) := at22_main_arg13 m ρ c

theorem at8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := Cert.KKeep.keep3 (W6 m ρ c) main_arg14 (by decide)
    _ = W5 m ρ c (Proc.devRef .tc main_arg14) := W6_of_ne m ρ c main_arg14 (by decide)
    _ = W4 m ρ c (Proc.devRef .tc main_arg14) := Cert.KKeep.keep2 (W4 m ρ c) main_arg14 (by decide)
    _ = W3 m ρ c (Proc.devRef .tc main_arg14) := W4_of_ne m ρ c main_arg14 (by decide)
    _ = W2 m ρ c (Proc.devRef .tc main_arg14) := Cert.KKeep.keep1 (W2 m ρ c) main_arg14 (by decide)
    _ = W1 m ρ c (Proc.devRef .tc main_arg14) := W2_of_ne m ρ c main_arg14 (by decide)
    _ = W0 m ρ c (Proc.devRef .tc main_arg14) := Cert.KKeep.keep0 (W0 m ρ c) main_arg14 (by decide)
    _ = m ((c : Thread nD τ).loc main_arg14) := rfl

theorem at16_main_arg14 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := Cert.KKeep.keep7 (W14 m ρ c) main_arg14 (by decide)
    _ = W13 m ρ c (Proc.devRef .tc main_arg14) := W14_of_ne m ρ c main_arg14 (by decide)
    _ = W12 m ρ c (Proc.devRef .tc main_arg14) := Cert.KKeep.keep6 (W12 m ρ c) main_arg14 (by decide)
    _ = W11 m ρ c (Proc.devRef .tc main_arg14) := W12_of_ne m ρ c main_arg14 (by decide)
    _ = W10 m ρ c (Proc.devRef .tc main_arg14) := Cert.KKeep.keep5 (W10 m ρ c) main_arg14 (by decide)
    _ = W9 m ρ c (Proc.devRef .tc main_arg14) := W10_of_ne m ρ c main_arg14 (by decide)
    _ = W8 m ρ c (Proc.devRef .tc main_arg14) := Cert.KKeep.keep4 (W8 m ρ c) main_arg14 (by decide)
    _ = m ((c : Thread nD τ).loc main_arg14) := at8_main_arg14 m ρ c

theorem at24_main_arg14 (c : Dev nD) : W24 m ρ c (Proc.devRef .tc main_arg14) = m ((c : Thread nD τ).loc main_arg14) :=
  calc W24 m ρ c (Proc.devRef .tc main_arg14)
    _ = W23 m ρ c (Proc.devRef .tc main_arg14) := W24_of_ne m ρ c main_arg14 (by decide)
    _ = W22 m ρ c (Proc.devRef .tc main_arg14) := Cert.KKeep.keep11 (W22 m ρ c) main_arg14 (by decide)
    _ = W21 m ρ c (Proc.devRef .tc main_arg14) := W22_of_ne m ρ c main_arg14 (by decide)
    _ = W20 m ρ c (Proc.devRef .tc main_arg14) := Cert.KKeep.keep10 (W20 m ρ c) main_arg14 (by decide)
    _ = W19 m ρ c (Proc.devRef .tc main_arg14) := W20_of_ne m ρ c main_arg14 (by decide)
    _ = W18 m ρ c (Proc.devRef .tc main_arg14) := Cert.KKeep.keep9 (W18 m ρ c) main_arg14 (by decide)
    _ = W17 m ρ c (Proc.devRef .tc main_arg14) := W18_of_ne m ρ c main_arg14 (by decide)
    _ = W16 m ρ c (Proc.devRef .tc main_arg14) := Cert.KKeep.keep8 (W16 m ρ c) main_arg14 (by decide)
    _ = m ((c : Thread nD τ).loc main_arg14) := at16_main_arg14 m ρ c

theorem at32_main_arg14 (c : Dev nD) : W32 m ρ c (Proc.devRef .tc main_arg14) = m ((c : Thread nD τ).loc main_arg14) :=
  calc W32 m ρ c (Proc.devRef .tc main_arg14)
    _ = W31 m ρ c (Proc.devRef .tc main_arg14) := W32_of_ne m ρ c main_arg14 (by decide)
    _ = W30 m ρ c (Proc.devRef .tc main_arg14) := Cert.KKeep.keep15 (W30 m ρ c) main_arg14 (by decide)
    _ = W29 m ρ c (Proc.devRef .tc main_arg14) := W30_of_ne m ρ c main_arg14 (by decide)
    _ = W28 m ρ c (Proc.devRef .tc main_arg14) := Cert.KKeep.keep14 (W28 m ρ c) main_arg14 (by decide)
    _ = W27 m ρ c (Proc.devRef .tc main_arg14) := W28_of_ne m ρ c main_arg14 (by decide)
    _ = W26 m ρ c (Proc.devRef .tc main_arg14) := Cert.KKeep.keep13 (W26 m ρ c) main_arg14 (by decide)
    _ = W25 m ρ c (Proc.devRef .tc main_arg14) := W26_of_ne m ρ c main_arg14 (by decide)
    _ = W24 m ρ c (Proc.devRef .tc main_arg14) := Cert.KKeep.keep12 (W24 m ρ c) main_arg14 (by decide)
    _ = m ((c : Thread nD τ).loc main_arg14) := at24_main_arg14 m ρ c

theorem at8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := Cert.KKeep.keep3 (W6 m ρ c) main_arg15 (by decide)
    _ = W5 m ρ c (Proc.devRef .tc main_arg15) := W6_of_ne m ρ c main_arg15 (by decide)
    _ = W4 m ρ c (Proc.devRef .tc main_arg15) := Cert.KKeep.keep2 (W4 m ρ c) main_arg15 (by decide)
    _ = W3 m ρ c (Proc.devRef .tc main_arg15) := W4_of_ne m ρ c main_arg15 (by decide)
    _ = W2 m ρ c (Proc.devRef .tc main_arg15) := Cert.KKeep.keep1 (W2 m ρ c) main_arg15 (by decide)
    _ = W1 m ρ c (Proc.devRef .tc main_arg15) := W2_of_ne m ρ c main_arg15 (by decide)
    _ = W0 m ρ c (Proc.devRef .tc main_arg15) := Cert.KKeep.keep0 (W0 m ρ c) main_arg15 (by decide)
    _ = m ((c : Thread nD τ).loc main_arg15) := rfl

theorem at16_main_arg15 (c : Dev nD) : W16 m ρ c (Proc.devRef .tc main_arg15) = m ((c : Thread nD τ).loc main_arg15) :=
  calc W16 m ρ c (Proc.devRef .tc main_arg15)
    _ = W15 m ρ c (Proc.devRef .tc main_arg15) := W16_of_ne m ρ c main_arg15 (by decide)
    _ = W14 m ρ c (Proc.devRef .tc main_arg15) := Cert.KKeep.keep7 (W14 m ρ c) main_arg15 (by decide)
    _ = W13 m ρ c (Proc.devRef .tc main_arg15) := W14_of_ne m ρ c main_arg15 (by decide)
    _ = W12 m ρ c (Proc.devRef .tc main_arg15) := Cert.KKeep.keep6 (W12 m ρ c) main_arg15 (by decide)
    _ = W11 m ρ c (Proc.devRef .tc main_arg15) := W12_of_ne m ρ c main_arg15 (by decide)
    _ = W10 m ρ c (Proc.devRef .tc main_arg15) := Cert.KKeep.keep5 (W10 m ρ c) main_arg15 (by decide)
    _ = W9 m ρ c (Proc.devRef .tc main_arg15) := W10_of_ne m ρ c main_arg15 (by decide)
    _ = W8 m ρ c (Proc.devRef .tc main_arg15) := Cert.KKeep.keep4 (W8 m ρ c) main_arg15 (by decide)
    _ = m ((c : Thread nD τ).loc main_arg15) := at8_main_arg15 m ρ c

theorem at24_main_arg15 (c : Dev nD) : W24 m ρ c (Proc.devRef .tc main_arg15) = m ((c : Thread nD τ).loc main_arg15) :=
  calc W24 m ρ c (Proc.devRef .tc main_arg15)
    _ = W23 m ρ c (Proc.devRef .tc main_arg15) := W24_of_ne m ρ c main_arg15 (by decide)
    _ = W22 m ρ c (Proc.devRef .tc main_arg15) := Cert.KKeep.keep11 (W22 m ρ c) main_arg15 (by decide)
    _ = W21 m ρ c (Proc.devRef .tc main_arg15) := W22_of_ne m ρ c main_arg15 (by decide)
    _ = W20 m ρ c (Proc.devRef .tc main_arg15) := Cert.KKeep.keep10 (W20 m ρ c) main_arg15 (by decide)
    _ = W19 m ρ c (Proc.devRef .tc main_arg15) := W20_of_ne m ρ c main_arg15 (by decide)
    _ = W18 m ρ c (Proc.devRef .tc main_arg15) := Cert.KKeep.keep9 (W18 m ρ c) main_arg15 (by decide)
    _ = W17 m ρ c (Proc.devRef .tc main_arg15) := W18_of_ne m ρ c main_arg15 (by decide)
    _ = W16 m ρ c (Proc.devRef .tc main_arg15) := Cert.KKeep.keep8 (W16 m ρ c) main_arg15 (by decide)
    _ = m ((c : Thread nD τ).loc main_arg15) := at16_main_arg15 m ρ c

theorem at32_main_arg15 (c : Dev nD) : W32 m ρ c (Proc.devRef .tc main_arg15) = m ((c : Thread nD τ).loc main_arg15) :=
  calc W32 m ρ c (Proc.devRef .tc main_arg15)
    _ = W31 m ρ c (Proc.devRef .tc main_arg15) := W32_of_ne m ρ c main_arg15 (by decide)
    _ = W30 m ρ c (Proc.devRef .tc main_arg15) := Cert.KKeep.keep15 (W30 m ρ c) main_arg15 (by decide)
    _ = W29 m ρ c (Proc.devRef .tc main_arg15) := W30_of_ne m ρ c main_arg15 (by decide)
    _ = W28 m ρ c (Proc.devRef .tc main_arg15) := Cert.KKeep.keep14 (W28 m ρ c) main_arg15 (by decide)
    _ = W27 m ρ c (Proc.devRef .tc main_arg15) := W28_of_ne m ρ c main_arg15 (by decide)
    _ = W26 m ρ c (Proc.devRef .tc main_arg15) := Cert.KKeep.keep13 (W26 m ρ c) main_arg15 (by decide)
    _ = W25 m ρ c (Proc.devRef .tc main_arg15) := W26_of_ne m ρ c main_arg15 (by decide)
    _ = W24 m ρ c (Proc.devRef .tc main_arg15) := Cert.KKeep.keep12 (W24 m ρ c) main_arg15 (by decide)
    _ = m ((c : Thread nD τ).loc main_arg15) := at24_main_arg15 m ρ c

theorem at34_main_arg16 (c : Dev nD) : W34 m ρ c (Proc.devRef .tc main_arg16) = m ((c : Thread nD τ).loc main_arg16) :=
  calc W34 m ρ c (Proc.devRef .tc main_arg16)
    _ = W33 m ρ c (Proc.devRef .tc main_arg16) := W34_of_ne m ρ c main_arg16 (by decide)
    _ = W32 m ρ c (Proc.devRef .tc main_arg16) := Cert.KKeep.keep16 (W32 m ρ c) main_arg16 (by decide)
    _ = W31 m ρ c (Proc.devRef .tc main_arg16) := W32_of_ne m ρ c main_arg16 (by decide)
    _ = W30 m ρ c (Proc.devRef .tc main_arg16) := Cert.KKeep.keep15 (W30 m ρ c) main_arg16 (by decide)
    _ = W29 m ρ c (Proc.devRef .tc main_arg16) := W30_of_ne m ρ c main_arg16 (by decide)
    _ = W28 m ρ c (Proc.devRef .tc main_arg16) := Cert.KKeep.keep14 (W28 m ρ c) main_arg16 (by decide)
    _ = W27 m ρ c (Proc.devRef .tc main_arg16) := W28_of_ne m ρ c main_arg16 (by decide)
    _ = W26 m ρ c (Proc.devRef .tc main_arg16) := Cert.KKeep.keep13 (W26 m ρ c) main_arg16 (by decide)
    _ = W25 m ρ c (Proc.devRef .tc main_arg16) := W26_of_ne m ρ c main_arg16 (by decide)
    _ = W24 m ρ c (Proc.devRef .tc main_arg16) := Cert.KKeep.keep12 (W24 m ρ c) main_arg16 (by decide)
    _ = W23 m ρ c (Proc.devRef .tc main_arg16) := W24_of_ne m ρ c main_arg16 (by decide)
    _ = W22 m ρ c (Proc.devRef .tc main_arg16) := Cert.KKeep.keep11 (W22 m ρ c) main_arg16 (by decide)
    _ = W21 m ρ c (Proc.devRef .tc main_arg16) := W22_of_ne m ρ c main_arg16 (by decide)
    _ = W20 m ρ c (Proc.devRef .tc main_arg16) := Cert.KKeep.keep10 (W20 m ρ c) main_arg16 (by decide)
    _ = W19 m ρ c (Proc.devRef .tc main_arg16) := W20_of_ne m ρ c main_arg16 (by decide)
    _ = W18 m ρ c (Proc.devRef .tc main_arg16) := Cert.KKeep.keep9 (W18 m ρ c) main_arg16 (by decide)
    _ = W17 m ρ c (Proc.devRef .tc main_arg16) := W18_of_ne m ρ c main_arg16 (by decide)
    _ = W16 m ρ c (Proc.devRef .tc main_arg16) := Cert.KKeep.keep8 (W16 m ρ c) main_arg16 (by decide)
    _ = W15 m ρ c (Proc.devRef .tc main_arg16) := W16_of_ne m ρ c main_arg16 (by decide)
    _ = W14 m ρ c (Proc.devRef .tc main_arg16) := Cert.KKeep.keep7 (W14 m ρ c) main_arg16 (by decide)
    _ = W13 m ρ c (Proc.devRef .tc main_arg16) := W14_of_ne m ρ c main_arg16 (by decide)
    _ = W12 m ρ c (Proc.devRef .tc main_arg16) := Cert.KKeep.keep6 (W12 m ρ c) main_arg16 (by decide)
    _ = W11 m ρ c (Proc.devRef .tc main_arg16) := W12_of_ne m ρ c main_arg16 (by decide)
    _ = W10 m ρ c (Proc.devRef .tc main_arg16) := Cert.KKeep.keep5 (W10 m ρ c) main_arg16 (by decide)
    _ = W9 m ρ c (Proc.devRef .tc main_arg16) := W10_of_ne m ρ c main_arg16 (by decide)
    _ = W8 m ρ c (Proc.devRef .tc main_arg16) := Cert.KKeep.keep4 (W8 m ρ c) main_arg16 (by decide)
    _ = W7 m ρ c (Proc.devRef .tc main_arg16) := W8_of_ne m ρ c main_arg16 (by decide)
    _ = W6 m ρ c (Proc.devRef .tc main_arg16) := Cert.KKeep.keep3 (W6 m ρ c) main_arg16 (by decide)
    _ = W5 m ρ c (Proc.devRef .tc main_arg16) := W6_of_ne m ρ c main_arg16 (by decide)
    _ = W4 m ρ c (Proc.devRef .tc main_arg16) := Cert.KKeep.keep2 (W4 m ρ c) main_arg16 (by decide)
    _ = W3 m ρ c (Proc.devRef .tc main_arg16) := W4_of_ne m ρ c main_arg16 (by decide)
    _ = W2 m ρ c (Proc.devRef .tc main_arg16) := Cert.KKeep.keep1 (W2 m ρ c) main_arg16 (by decide)
    _ = W1 m ρ c (Proc.devRef .tc main_arg16) := W2_of_ne m ρ c main_arg16 (by decide)
    _ = W0 m ρ c (Proc.devRef .tc main_arg16) := Cert.KKeep.keep0 (W0 m ρ c) main_arg16 (by decide)
    _ = m ((c : Thread nD τ).loc main_arg16) := rfl

theorem at34_main_arg17 (c : Dev nD) : W34 m ρ c (Proc.devRef .tc main_arg17) = m ((c : Thread nD τ).loc main_arg17) :=
  calc W34 m ρ c (Proc.devRef .tc main_arg17)
    _ = W33 m ρ c (Proc.devRef .tc main_arg17) := W34_of_ne m ρ c main_arg17 (by decide)
    _ = W32 m ρ c (Proc.devRef .tc main_arg17) := Cert.KKeep.keep16 (W32 m ρ c) main_arg17 (by decide)
    _ = W31 m ρ c (Proc.devRef .tc main_arg17) := W32_of_ne m ρ c main_arg17 (by decide)
    _ = W30 m ρ c (Proc.devRef .tc main_arg17) := Cert.KKeep.keep15 (W30 m ρ c) main_arg17 (by decide)
    _ = W29 m ρ c (Proc.devRef .tc main_arg17) := W30_of_ne m ρ c main_arg17 (by decide)
    _ = W28 m ρ c (Proc.devRef .tc main_arg17) := Cert.KKeep.keep14 (W28 m ρ c) main_arg17 (by decide)
    _ = W27 m ρ c (Proc.devRef .tc main_arg17) := W28_of_ne m ρ c main_arg17 (by decide)
    _ = W26 m ρ c (Proc.devRef .tc main_arg17) := Cert.KKeep.keep13 (W26 m ρ c) main_arg17 (by decide)
    _ = W25 m ρ c (Proc.devRef .tc main_arg17) := W26_of_ne m ρ c main_arg17 (by decide)
    _ = W24 m ρ c (Proc.devRef .tc main_arg17) := Cert.KKeep.keep12 (W24 m ρ c) main_arg17 (by decide)
    _ = W23 m ρ c (Proc.devRef .tc main_arg17) := W24_of_ne m ρ c main_arg17 (by decide)
    _ = W22 m ρ c (Proc.devRef .tc main_arg17) := Cert.KKeep.keep11 (W22 m ρ c) main_arg17 (by decide)
    _ = W21 m ρ c (Proc.devRef .tc main_arg17) := W22_of_ne m ρ c main_arg17 (by decide)
    _ = W20 m ρ c (Proc.devRef .tc main_arg17) := Cert.KKeep.keep10 (W20 m ρ c) main_arg17 (by decide)
    _ = W19 m ρ c (Proc.devRef .tc main_arg17) := W20_of_ne m ρ c main_arg17 (by decide)
    _ = W18 m ρ c (Proc.devRef .tc main_arg17) := Cert.KKeep.keep9 (W18 m ρ c) main_arg17 (by decide)
    _ = W17 m ρ c (Proc.devRef .tc main_arg17) := W18_of_ne m ρ c main_arg17 (by decide)
    _ = W16 m ρ c (Proc.devRef .tc main_arg17) := Cert.KKeep.keep8 (W16 m ρ c) main_arg17 (by decide)
    _ = W15 m ρ c (Proc.devRef .tc main_arg17) := W16_of_ne m ρ c main_arg17 (by decide)
    _ = W14 m ρ c (Proc.devRef .tc main_arg17) := Cert.KKeep.keep7 (W14 m ρ c) main_arg17 (by decide)
    _ = W13 m ρ c (Proc.devRef .tc main_arg17) := W14_of_ne m ρ c main_arg17 (by decide)
    _ = W12 m ρ c (Proc.devRef .tc main_arg17) := Cert.KKeep.keep6 (W12 m ρ c) main_arg17 (by decide)
    _ = W11 m ρ c (Proc.devRef .tc main_arg17) := W12_of_ne m ρ c main_arg17 (by decide)
    _ = W10 m ρ c (Proc.devRef .tc main_arg17) := Cert.KKeep.keep5 (W10 m ρ c) main_arg17 (by decide)
    _ = W9 m ρ c (Proc.devRef .tc main_arg17) := W10_of_ne m ρ c main_arg17 (by decide)
    _ = W8 m ρ c (Proc.devRef .tc main_arg17) := Cert.KKeep.keep4 (W8 m ρ c) main_arg17 (by decide)
    _ = W7 m ρ c (Proc.devRef .tc main_arg17) := W8_of_ne m ρ c main_arg17 (by decide)
    _ = W6 m ρ c (Proc.devRef .tc main_arg17) := Cert.KKeep.keep3 (W6 m ρ c) main_arg17 (by decide)
    _ = W5 m ρ c (Proc.devRef .tc main_arg17) := W6_of_ne m ρ c main_arg17 (by decide)
    _ = W4 m ρ c (Proc.devRef .tc main_arg17) := Cert.KKeep.keep2 (W4 m ρ c) main_arg17 (by decide)
    _ = W3 m ρ c (Proc.devRef .tc main_arg17) := W4_of_ne m ρ c main_arg17 (by decide)
    _ = W2 m ρ c (Proc.devRef .tc main_arg17) := Cert.KKeep.keep1 (W2 m ρ c) main_arg17 (by decide)
    _ = W1 m ρ c (Proc.devRef .tc main_arg17) := W2_of_ne m ρ c main_arg17 (by decide)
    _ = W0 m ρ c (Proc.devRef .tc main_arg17) := Cert.KKeep.keep0 (W0 m ρ c) main_arg17 (by decide)
    _ = m ((c : Thread nD τ).loc main_arg17) := rfl

theorem at9_main_v0 (c : Dev nD) : W9 m ρ c (Proc.devRef .tc main_v0) = W1 m ρ c (Proc.devRef .tc main_v0) :=
  calc W9 m ρ c (Proc.devRef .tc main_v0)
    _ = W8 m ρ c (Proc.devRef .tc main_v0) := Cert.KKeep.keep4 (W8 m ρ c) main_v0 (by decide)
    _ = W7 m ρ c (Proc.devRef .tc main_v0) := W8_of_ne m ρ c main_v0 (by decide)
    _ = W6 m ρ c (Proc.devRef .tc main_v0) := Cert.KKeep.keep3 (W6 m ρ c) main_v0 (by decide)
    _ = W5 m ρ c (Proc.devRef .tc main_v0) := W6_of_ne m ρ c main_v0 (by decide)
    _ = W4 m ρ c (Proc.devRef .tc main_v0) := Cert.KKeep.keep2 (W4 m ρ c) main_v0 (by decide)
    _ = W3 m ρ c (Proc.devRef .tc main_v0) := W4_of_ne m ρ c main_v0 (by decide)
    _ = W2 m ρ c (Proc.devRef .tc main_v0) := Cert.KKeep.keep1 (W2 m ρ c) main_v0 (by decide)
    _ = W1 m ρ c (Proc.devRef .tc main_v0) := (W2_arr m ρ c 1).trans (((dat0 (V1 m ρ) c).arrAt_in 1 rfl _).trans (A_eq0 (V1 m ρ) c 1))

theorem at17_main_v0 (c : Dev nD) : W17 m ρ c (Proc.devRef .tc main_v0) = W1 m ρ c (Proc.devRef .tc main_v0) :=
  calc W17 m ρ c (Proc.devRef .tc main_v0)
    _ = W16 m ρ c (Proc.devRef .tc main_v0) := Cert.KKeep.keep8 (W16 m ρ c) main_v0 (by decide)
    _ = W15 m ρ c (Proc.devRef .tc main_v0) := W16_of_ne m ρ c main_v0 (by decide)
    _ = W14 m ρ c (Proc.devRef .tc main_v0) := Cert.KKeep.keep7 (W14 m ρ c) main_v0 (by decide)
    _ = W13 m ρ c (Proc.devRef .tc main_v0) := W14_of_ne m ρ c main_v0 (by decide)
    _ = W12 m ρ c (Proc.devRef .tc main_v0) := Cert.KKeep.keep6 (W12 m ρ c) main_v0 (by decide)
    _ = W11 m ρ c (Proc.devRef .tc main_v0) := W12_of_ne m ρ c main_v0 (by decide)
    _ = W10 m ρ c (Proc.devRef .tc main_v0) := Cert.KKeep.keep5 (W10 m ρ c) main_v0 (by decide)
    _ = W9 m ρ c (Proc.devRef .tc main_v0) := (W10_arr m ρ c 9).trans (((dat4 (V9 m ρ) c).arrAt_in 9 rfl _).trans (A_eq4 (V9 m ρ) c 9))
    _ = W1 m ρ c (Proc.devRef .tc main_v0) := at9_main_v0 m ρ c

theorem at25_main_v0 (c : Dev nD) : W25 m ρ c (Proc.devRef .tc main_v0) = W1 m ρ c (Proc.devRef .tc main_v0) :=
  calc W25 m ρ c (Proc.devRef .tc main_v0)
    _ = W24 m ρ c (Proc.devRef .tc main_v0) := Cert.KKeep.keep12 (W24 m ρ c) main_v0 (by decide)
    _ = W23 m ρ c (Proc.devRef .tc main_v0) := W24_of_ne m ρ c main_v0 (by decide)
    _ = W22 m ρ c (Proc.devRef .tc main_v0) := Cert.KKeep.keep11 (W22 m ρ c) main_v0 (by decide)
    _ = W21 m ρ c (Proc.devRef .tc main_v0) := W22_of_ne m ρ c main_v0 (by decide)
    _ = W20 m ρ c (Proc.devRef .tc main_v0) := Cert.KKeep.keep10 (W20 m ρ c) main_v0 (by decide)
    _ = W19 m ρ c (Proc.devRef .tc main_v0) := W20_of_ne m ρ c main_v0 (by decide)
    _ = W18 m ρ c (Proc.devRef .tc main_v0) := Cert.KKeep.keep9 (W18 m ρ c) main_v0 (by decide)
    _ = W17 m ρ c (Proc.devRef .tc main_v0) := (W18_arr m ρ c 9).trans (((dat8 (V17 m ρ) c).arrAt_in 9 rfl _).trans (A_eq8 (V17 m ρ) c 9))
    _ = W1 m ρ c (Proc.devRef .tc main_v0) := at17_main_v0 m ρ c

theorem at33_main_v0 (c : Dev nD) : W33 m ρ c (Proc.devRef .tc main_v0) = W1 m ρ c (Proc.devRef .tc main_v0) :=
  calc W33 m ρ c (Proc.devRef .tc main_v0)
    _ = W32 m ρ c (Proc.devRef .tc main_v0) := Cert.KKeep.keep16 (W32 m ρ c) main_v0 (by decide)
    _ = W31 m ρ c (Proc.devRef .tc main_v0) := W32_of_ne m ρ c main_v0 (by decide)
    _ = W30 m ρ c (Proc.devRef .tc main_v0) := Cert.KKeep.keep15 (W30 m ρ c) main_v0 (by decide)
    _ = W29 m ρ c (Proc.devRef .tc main_v0) := W30_of_ne m ρ c main_v0 (by decide)
    _ = W28 m ρ c (Proc.devRef .tc main_v0) := Cert.KKeep.keep14 (W28 m ρ c) main_v0 (by decide)
    _ = W27 m ρ c (Proc.devRef .tc main_v0) := W28_of_ne m ρ c main_v0 (by decide)
    _ = W26 m ρ c (Proc.devRef .tc main_v0) := Cert.KKeep.keep13 (W26 m ρ c) main_v0 (by decide)
    _ = W25 m ρ c (Proc.devRef .tc main_v0) := (W26_arr m ρ c 9).trans (((dat12 (V25 m ρ) c).arrAt_in 9 rfl _).trans (A_eq12 (V25 m ρ) c 9))
    _ = W1 m ρ c (Proc.devRef .tc main_v0) := at25_main_v0 m ρ c

theorem at34_main_v2 (c : Dev nD) : W34 m ρ c (Proc.devRef .tc main_v2) = W3 m ρ c (Proc.devRef .tc main_v2) :=
  calc W34 m ρ c (Proc.devRef .tc main_v2)
    _ = W33 m ρ c (Proc.devRef .tc main_v2) := W34_of_ne m ρ c main_v2 (by decide)
    _ = W32 m ρ c (Proc.devRef .tc main_v2) := Cert.KKeep.keep16 (W32 m ρ c) main_v2 (by decide)
    _ = W31 m ρ c (Proc.devRef .tc main_v2) := W32_of_ne m ρ c main_v2 (by decide)
    _ = W30 m ρ c (Proc.devRef .tc main_v2) := Cert.KKeep.keep15 (W30 m ρ c) main_v2 (by decide)
    _ = W29 m ρ c (Proc.devRef .tc main_v2) := W30_of_ne m ρ c main_v2 (by decide)
    _ = W28 m ρ c (Proc.devRef .tc main_v2) := Cert.KKeep.keep14 (W28 m ρ c) main_v2 (by decide)
    _ = W27 m ρ c (Proc.devRef .tc main_v2) := W28_of_ne m ρ c main_v2 (by decide)
    _ = W26 m ρ c (Proc.devRef .tc main_v2) := Cert.KKeep.keep13 (W26 m ρ c) main_v2 (by decide)
    _ = W25 m ρ c (Proc.devRef .tc main_v2) := W26_of_ne m ρ c main_v2 (by decide)
    _ = W24 m ρ c (Proc.devRef .tc main_v2) := Cert.KKeep.keep12 (W24 m ρ c) main_v2 (by decide)
    _ = W23 m ρ c (Proc.devRef .tc main_v2) := W24_of_ne m ρ c main_v2 (by decide)
    _ = W22 m ρ c (Proc.devRef .tc main_v2) := Cert.KKeep.keep11 (W22 m ρ c) main_v2 (by decide)
    _ = W21 m ρ c (Proc.devRef .tc main_v2) := W22_of_ne m ρ c main_v2 (by decide)
    _ = W20 m ρ c (Proc.devRef .tc main_v2) := Cert.KKeep.keep10 (W20 m ρ c) main_v2 (by decide)
    _ = W19 m ρ c (Proc.devRef .tc main_v2) := W20_of_ne m ρ c main_v2 (by decide)
    _ = W18 m ρ c (Proc.devRef .tc main_v2) := Cert.KKeep.keep9 (W18 m ρ c) main_v2 (by decide)
    _ = W17 m ρ c (Proc.devRef .tc main_v2) := W18_of_ne m ρ c main_v2 (by decide)
    _ = W16 m ρ c (Proc.devRef .tc main_v2) := Cert.KKeep.keep8 (W16 m ρ c) main_v2 (by decide)
    _ = W15 m ρ c (Proc.devRef .tc main_v2) := W16_of_ne m ρ c main_v2 (by decide)
    _ = W14 m ρ c (Proc.devRef .tc main_v2) := Cert.KKeep.keep7 (W14 m ρ c) main_v2 (by decide)
    _ = W13 m ρ c (Proc.devRef .tc main_v2) := W14_of_ne m ρ c main_v2 (by decide)
    _ = W12 m ρ c (Proc.devRef .tc main_v2) := Cert.KKeep.keep6 (W12 m ρ c) main_v2 (by decide)
    _ = W11 m ρ c (Proc.devRef .tc main_v2) := W12_of_ne m ρ c main_v2 (by decide)
    _ = W10 m ρ c (Proc.devRef .tc main_v2) := Cert.KKeep.keep5 (W10 m ρ c) main_v2 (by decide)
    _ = W9 m ρ c (Proc.devRef .tc main_v2) := W10_of_ne m ρ c main_v2 (by decide)
    _ = W8 m ρ c (Proc.devRef .tc main_v2) := Cert.KKeep.keep4 (W8 m ρ c) main_v2 (by decide)
    _ = W7 m ρ c (Proc.devRef .tc main_v2) := W8_of_ne m ρ c main_v2 (by decide)
    _ = W6 m ρ c (Proc.devRef .tc main_v2) := Cert.KKeep.keep3 (W6 m ρ c) main_v2 (by decide)
    _ = W5 m ρ c (Proc.devRef .tc main_v2) := W6_of_ne m ρ c main_v2 (by decide)
    _ = W4 m ρ c (Proc.devRef .tc main_v2) := Cert.KKeep.keep2 (W4 m ρ c) main_v2 (by decide)
    _ = W3 m ρ c (Proc.devRef .tc main_v2) := W4_of_ne m ρ c main_v2 (by decide)

theorem at34_main_v80 (c : Dev nD) : W34 m ρ c (Proc.devRef .tc main_v80) = W11 m ρ c (Proc.devRef .tc main_v80) :=
  calc W34 m ρ c (Proc.devRef .tc main_v80)
    _ = W33 m ρ c (Proc.devRef .tc main_v80) := W34_of_ne m ρ c main_v80 (by decide)
    _ = W32 m ρ c (Proc.devRef .tc main_v80) := Cert.KKeep.keep16 (W32 m ρ c) main_v80 (by decide)
    _ = W31 m ρ c (Proc.devRef .tc main_v80) := W32_of_ne m ρ c main_v80 (by decide)
    _ = W30 m ρ c (Proc.devRef .tc main_v80) := Cert.KKeep.keep15 (W30 m ρ c) main_v80 (by decide)
    _ = W29 m ρ c (Proc.devRef .tc main_v80) := W30_of_ne m ρ c main_v80 (by decide)
    _ = W28 m ρ c (Proc.devRef .tc main_v80) := Cert.KKeep.keep14 (W28 m ρ c) main_v80 (by decide)
    _ = W27 m ρ c (Proc.devRef .tc main_v80) := W28_of_ne m ρ c main_v80 (by decide)
    _ = W26 m ρ c (Proc.devRef .tc main_v80) := Cert.KKeep.keep13 (W26 m ρ c) main_v80 (by decide)
    _ = W25 m ρ c (Proc.devRef .tc main_v80) := W26_of_ne m ρ c main_v80 (by decide)
    _ = W24 m ρ c (Proc.devRef .tc main_v80) := Cert.KKeep.keep12 (W24 m ρ c) main_v80 (by decide)
    _ = W23 m ρ c (Proc.devRef .tc main_v80) := W24_of_ne m ρ c main_v80 (by decide)
    _ = W22 m ρ c (Proc.devRef .tc main_v80) := Cert.KKeep.keep11 (W22 m ρ c) main_v80 (by decide)
    _ = W21 m ρ c (Proc.devRef .tc main_v80) := W22_of_ne m ρ c main_v80 (by decide)
    _ = W20 m ρ c (Proc.devRef .tc main_v80) := Cert.KKeep.keep10 (W20 m ρ c) main_v80 (by decide)
    _ = W19 m ρ c (Proc.devRef .tc main_v80) := W20_of_ne m ρ c main_v80 (by decide)
    _ = W18 m ρ c (Proc.devRef .tc main_v80) := Cert.KKeep.keep9 (W18 m ρ c) main_v80 (by decide)
    _ = W17 m ρ c (Proc.devRef .tc main_v80) := W18_of_ne m ρ c main_v80 (by decide)
    _ = W16 m ρ c (Proc.devRef .tc main_v80) := Cert.KKeep.keep8 (W16 m ρ c) main_v80 (by decide)
    _ = W15 m ρ c (Proc.devRef .tc main_v80) := W16_of_ne m ρ c main_v80 (by decide)
    _ = W14 m ρ c (Proc.devRef .tc main_v80) := Cert.KKeep.keep7 (W14 m ρ c) main_v80 (by decide)
    _ = W13 m ρ c (Proc.devRef .tc main_v80) := W14_of_ne m ρ c main_v80 (by decide)
    _ = W12 m ρ c (Proc.devRef .tc main_v80) := Cert.KKeep.keep6 (W12 m ρ c) main_v80 (by decide)
    _ = W11 m ρ c (Proc.devRef .tc main_v80) := W12_of_ne m ρ c main_v80 (by decide)

theorem at35_main_v80 (c : Dev nD) : W35 m ρ c (Proc.devRef .tc main_v80) = W11 m ρ c (Proc.devRef .tc main_v80) :=
  calc W35 m ρ c (Proc.devRef .tc main_v80)
    _ = W34 m ρ c (Proc.devRef .tc main_v80) := Cert.KKeep.keep17 (W34 m ρ c) main_v80 (by decide)
    _ = W11 m ρ c (Proc.devRef .tc main_v80) := at34_main_v80 m ρ c

theorem at34_main_v158 (c : Dev nD) : W34 m ρ c (Proc.devRef .tc main_v158) = W19 m ρ c (Proc.devRef .tc main_v158) :=
  calc W34 m ρ c (Proc.devRef .tc main_v158)
    _ = W33 m ρ c (Proc.devRef .tc main_v158) := W34_of_ne m ρ c main_v158 (by decide)
    _ = W32 m ρ c (Proc.devRef .tc main_v158) := Cert.KKeep.keep16 (W32 m ρ c) main_v158 (by decide)
    _ = W31 m ρ c (Proc.devRef .tc main_v158) := W32_of_ne m ρ c main_v158 (by decide)
    _ = W30 m ρ c (Proc.devRef .tc main_v158) := Cert.KKeep.keep15 (W30 m ρ c) main_v158 (by decide)
    _ = W29 m ρ c (Proc.devRef .tc main_v158) := W30_of_ne m ρ c main_v158 (by decide)
    _ = W28 m ρ c (Proc.devRef .tc main_v158) := Cert.KKeep.keep14 (W28 m ρ c) main_v158 (by decide)
    _ = W27 m ρ c (Proc.devRef .tc main_v158) := W28_of_ne m ρ c main_v158 (by decide)
    _ = W26 m ρ c (Proc.devRef .tc main_v158) := Cert.KKeep.keep13 (W26 m ρ c) main_v158 (by decide)
    _ = W25 m ρ c (Proc.devRef .tc main_v158) := W26_of_ne m ρ c main_v158 (by decide)
    _ = W24 m ρ c (Proc.devRef .tc main_v158) := Cert.KKeep.keep12 (W24 m ρ c) main_v158 (by decide)
    _ = W23 m ρ c (Proc.devRef .tc main_v158) := W24_of_ne m ρ c main_v158 (by decide)
    _ = W22 m ρ c (Proc.devRef .tc main_v158) := Cert.KKeep.keep11 (W22 m ρ c) main_v158 (by decide)
    _ = W21 m ρ c (Proc.devRef .tc main_v158) := W22_of_ne m ρ c main_v158 (by decide)
    _ = W20 m ρ c (Proc.devRef .tc main_v158) := Cert.KKeep.keep10 (W20 m ρ c) main_v158 (by decide)
    _ = W19 m ρ c (Proc.devRef .tc main_v158) := W20_of_ne m ρ c main_v158 (by decide)

theorem at35_main_v158 (c : Dev nD) : W35 m ρ c (Proc.devRef .tc main_v158) = W19 m ρ c (Proc.devRef .tc main_v158) :=
  calc W35 m ρ c (Proc.devRef .tc main_v158)
    _ = W34 m ρ c (Proc.devRef .tc main_v158) := Cert.KKeep.keep17 (W34 m ρ c) main_v158 (by decide)
    _ = W19 m ρ c (Proc.devRef .tc main_v158) := at34_main_v158 m ρ c

theorem at34_main_v236 (c : Dev nD) : W34 m ρ c (Proc.devRef .tc main_v236) = W27 m ρ c (Proc.devRef .tc main_v236) :=
  calc W34 m ρ c (Proc.devRef .tc main_v236)
    _ = W33 m ρ c (Proc.devRef .tc main_v236) := W34_of_ne m ρ c main_v236 (by decide)
    _ = W32 m ρ c (Proc.devRef .tc main_v236) := Cert.KKeep.keep16 (W32 m ρ c) main_v236 (by decide)
    _ = W31 m ρ c (Proc.devRef .tc main_v236) := W32_of_ne m ρ c main_v236 (by decide)
    _ = W30 m ρ c (Proc.devRef .tc main_v236) := Cert.KKeep.keep15 (W30 m ρ c) main_v236 (by decide)
    _ = W29 m ρ c (Proc.devRef .tc main_v236) := W30_of_ne m ρ c main_v236 (by decide)
    _ = W28 m ρ c (Proc.devRef .tc main_v236) := Cert.KKeep.keep14 (W28 m ρ c) main_v236 (by decide)
    _ = W27 m ρ c (Proc.devRef .tc main_v236) := W28_of_ne m ρ c main_v236 (by decide)

theorem at35_main_v236 (c : Dev nD) : W35 m ρ c (Proc.devRef .tc main_v236) = W27 m ρ c (Proc.devRef .tc main_v236) :=
  calc W35 m ρ c (Proc.devRef .tc main_v236)
    _ = W34 m ρ c (Proc.devRef .tc main_v236) := Cert.KKeep.keep17 (W34 m ρ c) main_v236 (by decide)
    _ = W27 m ρ c (Proc.devRef .tc main_v236) := at34_main_v236 m ρ c

end Cert.KCarry

end
-- ==== Proof.KHost1.lean ====
/-
  The first two host stretches of the idealized kernel program, read for an arbitrary valuation.

  The first stretch reshapes the vector of graph ids to one column. The second adds the pooled partial sums over
  the 20 tiles; aggregates the features along the edges (the source indices normalised, the rows gathered, the rows
  added into zeros by destination); broadcasts one plus this layer's eps to a row; and takes this layer's row of
  the first bias and this layer's matrix of the first weights. Each result is stated over the valuation's entries
  at the operands only, and read at an index: a shape cast reads the operand at the same row-major position, a
  unit-stride slice the operand shifted by the offsets, a broadcast the operand at the named coordinates, and the
  host's sum from the zero word is the sum over the reduced axis. The aggregation is not read at an index: it is
  the composed term itself.
-/
import proofs.«412161_j3753801416792_2_alg».proof.Proof.Gen.KernelIdeal.Launch
import proofs.«412161_j3753801416792_2_alg».proof.Proof.Conv
import proofs.«412161_j3753801416792_2_alg».proof.Proof.Agg
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KHost1

open Cert.KernelIdeal Cert.KernelIdeal.Gen Cert.Spec Cert.Conv Idealize.ShloMosaic Idealize.ShloMosaic.ValueIdx Idealize.ShloMosaic.StableHlo

variable (V : Valuation τ sig (Elt Ideal))

/-- The graph ids as a column: the reshape of a vector to one column reads the vector. -/
theorem gid0 : toCol (after hostOps0 V (Proc.devRef .tc main_v0)) = fun n => V (Proc.devRef .tc main_arg4) (ix1 n) := by
  after_results_simp
  funext n
  show shapeCast S100000x1 (V (Proc.devRef .tc main_arg4)) shapeCasts_S100000_S100000x1 (ix2 n (0 : Fin 1)) = _
  exact shapeCast_apply _ _ _ (ix1 n) (by
    rw [Shape.rowMajor_val_one, Shape.rowMajor_val_two]
    show n.val = n.val * 1 + 0
    omega)

/-- The pooled partials added over the 20 tiles. -/
theorem pooled1 : toMat (after hostOps1 V (Proc.devRef .tc main_v2)) = fun g d => (∑ t : Fin 20, V (Proc.devRef .tc main_v1) (ix3 t g d) : EReal) := by
  after_results_simp
  funext g d
  show Host.reduceAdd (V (Proc.devRef .tc main_v1)) (constant (F := Ideal) S_ .f32 0x00000000#32) reducesTo_S20x64x128_S64x128_d0 h_S_ (ix2 g d) = _
  rw [hostReduceAdd_apply, Ideal.hostReduceAdd_single reducesTo_S20x64x128_S64x128_d0 (by decide), constant_apply, Ideal.ofBits_zero_f32, zero_add]
  refine Finset.sum_congr rfl fun t _ => congrArg (V (Proc.devRef .tc main_v1)) (funext fun a => ?_)
  match a with
  | ⟨0, _⟩ => exact Fin.ext rfl
  | ⟨1, _⟩ => exact Fin.ext rfl
  | ⟨2, _⟩ => exact Fin.ext rfl

/-- The edge aggregation is the composed gather and scatter-add of the features. -/
theorem agg1 : after hostOps1 V (Proc.devRef .tc main_v12) = Cert.Agg.aggT (V (Proc.devRef .tc main_arg0)) (V (Proc.devRef .tc main_arg2)) (V (Proc.devRef .tc main_arg3)) := by
  after_results_simp
  unfold Cert.Agg.aggT Cert.Agg.srcIdx
  rfl

/-- The scale row: one plus this layer's eps, at every column. -/
theorem scale1 : toRow (after hostOps1 V (Proc.devRef .tc main_v17)) = fun _ => Ideal.ofBits .f32 0x3F800000#32 + V (Proc.devRef .tc main_arg5) (ix1 (0 : Fin 4)) := by
  after_results_simp
  funext j
  show broadcastInDim S1x128 _ bcast_S1x1_S1x128_0_1
      (shapeCast S1x1 (addf (constant (F := Ideal) S_ .f32 0x3F800000#32)
        (shapeCast S_ (extractStridedSlice S1 _ (V (Proc.devRef .tc main_arg5)) slices_S4_S1_0) shapeCasts_S1_S_)) shapeCasts_S_S1x1)
      (ix2 (0 : Fin 1) j) = _
  rw [broadcastInDim_apply _ _ _ _ (ix2 (0 : Fin 1) (0 : Fin 1)) (fun a => match a with | ⟨0, _⟩ => rfl | ⟨1, _⟩ => rfl),
    shapeCast_apply _ _ (ix2 (0 : Fin 1) (0 : Fin 1)) ix0 rfl, addf_apply, constant_apply, shapeCast_apply _ _ ix0 (ix1 (0 : Fin 1)) rfl,
    extractStridedSlice_apply _ _ _ _ (ix1 (0 : Fin 4)) (fun a => match a with | ⟨0, _⟩ => rfl)]

/-- This layer's row of the first bias. -/
theorem b1 : toRow (after hostOps1 V (Proc.devRef .tc main_v20)) = fun j => V (Proc.devRef .tc main_arg7) (ix2 (0 : Fin 4) j) := by
  after_results_simp
  funext j
  show shapeCast S1x128 (shapeCast S128 (extractStridedSlice S1x128 _ (V (Proc.devRef .tc main_arg7)) slices_S4x128_S1x128_0_0) shapeCasts_S1x128_S128) shapeCasts_S128_S1x128 (ix2 (0 : Fin 1) j) = _
  rw [shapeCast_a_1a_apply, shapeCast_1a_a_apply]
  exact extractStridedSlice_apply _ _ _ _ (ix2 (0 : Fin 4) j) (fun a => match a with
    | ⟨0, _⟩ => rfl
    | ⟨1, _⟩ => (Nat.zero_add _).symm)

/-- This layer's matrix of the first weights. -/
theorem W1 : toMat (after hostOps1 V (Proc.devRef .tc main_v22)) = fun k j => V (Proc.devRef .tc main_arg6) (ix3 (0 : Fin 4) k j) := by
  after_results_simp
  funext k j
  show shapeCast S128x128 (extractStridedSlice S1x128x128 _ (V (Proc.devRef .tc main_arg6)) slices_S4x128x128_S1x128x128_0_0_0) shapeCasts_S1x128x128_S128x128 (ix2 k j) = _
  rw [shapeCast_1ab_ab_apply]
  exact extractStridedSlice_apply _ _ _ _ (ix3 (0 : Fin 4) k j) (fun a => match a with
    | ⟨0, _⟩ => rfl
    | ⟨1, _⟩ => (Nat.zero_add _).symm
    | ⟨2, _⟩ => (Nat.zero_add _).symm)

end Cert.KHost1

end
-- ==== Proof.KHostStats.lean ====
/-
  Three host stretches of the idealized kernel program, read for an arbitrary valuation.

  Each stretch takes a region's per-tile partial column sums — two arrays of twenty one-row tiles, the sums
  and the sums of squares — to a mean row and a variance row,

      mean = (the tiles added) / N,      var = max ((the squares' tiles added) / N - mean * mean) 0,

  N the node count as a binary32 word, and cuts this layer's row out of each parameter array (and, in the first
  stretch, this layer's matrix out of the stack of weight matrices) for the next region. Every statement is about
  the valuation after the stretch at one result buffer, in terms of the valuation before it at the operand buffers.
-/
import proofs.«412161_j3753801416792_2_alg».proof.Proof.Gen.KernelIdeal.Launch
import proofs.«412161_j3753801416792_2_alg».proof.Proof.Conv
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KHostStats

open Cert.KernelIdeal Cert.KernelIdeal.Gen Cert.Spec Cert.Conv Idealize.ShloMosaic Idealize.ShloMosaic.ValueIdx Idealize.ShloMosaic.StableHlo
open Idealize.SL.Sem

/-- The per-tile partial column sums added over the twenty tiles. -/
def tiles (p : S20x1x128.Idx → EReal) : Row 128 := fun j => ∑ t : Fin 20, p (ix3 t (0 : Fin 1) j)

/-- The host's sum over the tile axis, read at a column: the sum of the twenty tiles' entries there. -/
theorem tileSum_apply (p : S20x1x128.Idx → EReal) (hr : S20x1x128.ReducesTo [0] S1x128) (hu : 0 < S_.numel) (j : Fin 128) :
    Host.reduceAdd (F := Ideal) p (constant (F := Ideal) S_ .f32 0x00000000#32) hr hu (ix2 (0 : Fin 1) j) = tiles p j := by
  rw [hostReduceAdd_apply, Ideal.hostReduceAdd_single hr (by decide : S20x1x128.Reduces [0] S1x128), constant_apply,
    Ideal.ofBits_zero_f32, zero_add]
  unfold tiles
  refine Finset.sum_congr rfl fun t _ => congrArg p (funext fun c => Fin.ext ?_)
  rw [Shape.Reduces.lift_val]
  unfold Shape.Reduces.liftVal
  match c with
  | ⟨0, _⟩ => rfl
  | ⟨1, _⟩ => rfl
  | ⟨2, _⟩ => rfl

/-- The mean row: the tiles' sum divided by the node count, read at a column. -/
theorem meanRow_apply (p : S20x1x128.Idx → EReal) (hr : S20x1x128.ReducesTo [0] S1x128) (hu : 0 < S_.numel)
    (hb : S_.BroadcastsInDim S1x128 (![] : Fin 0 → Fin S1x128.rank)) (j : Fin 128) :
    Host.divf (F := Ideal) (Host.reduceAdd (F := Ideal) p (constant (F := Ideal) S_ .f32 0x00000000#32) hr hu)
      (broadcastInDim S1x128 ![] hb (constant (F := Ideal) S_ .f32 0x47C35000#32)) (ix2 (0 : Fin 1) j)
      = Ideal.div (tiles p j) cN := by
  rw [hostDivf_apply, tileSum_apply, broadcastInDim_scalar_apply, constant_apply]
  rfl

/-- The variance row: the mean of the squares less the square of the mean, clamped below at zero, read at a column. -/
theorem varRow_apply (p q : S20x1x128.Idx → EReal) (hr : S20x1x128.ReducesTo [0] S1x128) (hu : 0 < S_.numel)
    (hb : S_.BroadcastsInDim S1x128 (![] : Fin 0 → Fin S1x128.rank)) (j : Fin 128) :
    maximumf (F := Ideal)
      (subf (F := Ideal)
        (Host.divf (F := Ideal) (Host.reduceAdd (F := Ideal) q (constant (F := Ideal) S_ .f32 0x00000000#32) hr hu)
          (broadcastInDim S1x128 ![] hb (constant (F := Ideal) S_ .f32 0x47C35000#32)))
        (mulf (F := Ideal)
          (Host.divf (F := Ideal) (Host.reduceAdd (F := Ideal) p (constant (F := Ideal) S_ .f32 0x00000000#32) hr hu)
            (broadcastInDim S1x128 ![] hb (constant (F := Ideal) S_ .f32 0x47C35000#32)))
          (Host.divf (F := Ideal) (Host.reduceAdd (F := Ideal) p (constant (F := Ideal) S_ .f32 0x00000000#32) hr hu)
            (broadcastInDim S1x128 ![] hb (constant (F := Ideal) S_ .f32 0x47C35000#32)))))
      (broadcastInDim S1x128 ![] hb (constant (F := Ideal) S_ .f32 0x00000000#32)) (ix2 (0 : Fin 1) j)
      = max (Ideal.div (tiles q j) cN - Ideal.div (tiles p j) cN * Ideal.div (tiles p j) cN) 0 := by
  rw [maximumf_apply, subf_apply, mulf_apply, meanRow_apply, meanRow_apply, broadcastInDim_scalar_apply, constant_apply,
    Ideal.ofBits_zero_f32]

/-- Row `r` of a four-row array, cut out as a one-row array, flattened and made one row again, read at a column. -/
theorem rowSlice_apply (x : S4x128.Idx → EReal) {o : ℕ} (hs : S4x128.Slices ![o, 0] S1x128)
    (h1 : S1x128.ShapeCasts S128) (h2 : S128.ShapeCasts S1x128) (r : Fin 4) (hr : r.val = o) (j : Fin 128) :
    shapeCast S1x128 (shapeCast S128 (extractStridedSlice S1x128 ![o, 0] x hs) h1) h2 (ix2 (0 : Fin 1) j) = x (ix2 r j) := by
  rw [shapeCast_a_1a_apply, shapeCast_1a_a_apply]
  exact slice2_axis0_apply o x hs (0 : Fin 1) j r hr

/-- Matrix `r` of a stack of four, cut out as a stack of one and made a matrix, read at an entry. -/
theorem matSlice_apply (x : S4x128x128.Idx → EReal) {o : ℕ} (hs : S4x128x128.Slices ![o, 0, 0] S1x128x128)
    (h1 : S1x128x128.ShapeCasts S128x128) (r : Fin 4) (hr : r.val = o) (k j : Fin 128) :
    shapeCast S128x128 (extractStridedSlice S1x128x128 ![o, 0, 0] x hs) h1 (ix2 k j) = x (ix3 r k j) := by
  rw [shapeCast_1ab_ab_apply]
  exact extractStridedSlice_apply _ x hs _ _ (fun a => by
    match a with
    | ⟨0, _⟩ => exact hr
    | ⟨1, _⟩ => exact (Nat.zero_add _).symm
    | ⟨2, _⟩ => exact (Nat.zero_add _).symm)

variable (V : Valuation τ sig (Elt Ideal))

/-! ## The stretch hostOps2 -/

theorem mean2 : toRow (after hostOps2 V (Proc.devRef .tc main_v27)) = fun j => Ideal.div (tiles (V (Proc.devRef .tc main_v23_1)) j) cN := by
  funext j
  unfold toRow
  after_results
  exact meanRow_apply _ _ _ _ j

theorem var2 : toRow (after hostOps2 V (Proc.devRef .tc main_v33)) = fun j => max (Ideal.div (tiles (V (Proc.devRef .tc main_v23_2)) j) cN - Ideal.div (tiles (V (Proc.devRef .tc main_v23_1)) j) cN * Ideal.div (tiles (V (Proc.devRef .tc main_v23_1)) j) cN) 0 := by
  funext j
  unfold toRow
  after_results
  exact varRow_apply _ _ _ _ _ j

theorem g2 : toRow (after hostOps2 V (Proc.devRef .tc main_v36)) = fun j => V (Proc.devRef .tc main_arg10) (ix2 (0 : Fin 4) j) := by
  funext j
  unfold toRow
  after_results
  exact rowSlice_apply _ _ _ _ (0 : Fin 4) rfl j

theorem be2 : toRow (after hostOps2 V (Proc.devRef .tc main_v39)) = fun j => V (Proc.devRef .tc main_arg11) (ix2 (0 : Fin 4) j) := by
  funext j
  unfold toRow
  after_results
  exact rowSlice_apply _ _ _ _ (0 : Fin 4) rfl j

theorem b2 : toRow (after hostOps2 V (Proc.devRef .tc main_v42)) = fun j => V (Proc.devRef .tc main_arg9) (ix2 (0 : Fin 4) j) := by
  funext j
  unfold toRow
  after_results
  exact rowSlice_apply _ _ _ _ (0 : Fin 4) rfl j

theorem W2 : toMat (after hostOps2 V (Proc.devRef .tc main_v44)) = fun k j => V (Proc.devRef .tc main_arg8) (ix3 (0 : Fin 4) k j) := by
  funext k j
  unfold toMat
  after_results
  exact matSlice_apply _ _ _ (0 : Fin 4) rfl k j

/-! ## The stretch hostOps3 -/

theorem mean3 : toRow (after hostOps3 V (Proc.devRef .tc main_v49)) = fun j => Ideal.div (tiles (V (Proc.devRef .tc main_v45_1)) j) cN := by
  funext j
  unfold toRow
  after_results
  exact meanRow_apply _ _ _ _ j

theorem var3 : toRow (after hostOps3 V (Proc.devRef .tc main_v55)) = fun j => max (Ideal.div (tiles (V (Proc.devRef .tc main_v45_2)) j) cN - Ideal.div (tiles (V (Proc.devRef .tc main_v45_1)) j) cN * Ideal.div (tiles (V (Proc.devRef .tc main_v45_1)) j) cN) 0 := by
  funext j
  unfold toRow
  after_results
  exact varRow_apply _ _ _ _ _ j

theorem g3 : toRow (after hostOps3 V (Proc.devRef .tc main_v58)) = fun j => V (Proc.devRef .tc main_arg12) (ix2 (0 : Fin 4) j) := by
  funext j
  unfold toRow
  after_results
  exact rowSlice_apply _ _ _ _ (0 : Fin 4) rfl j

theorem be3 : toRow (after hostOps3 V (Proc.devRef .tc main_v61)) = fun j => V (Proc.devRef .tc main_arg13) (ix2 (0 : Fin 4) j) := by
  funext j
  unfold toRow
  after_results
  exact rowSlice_apply _ _ _ _ (0 : Fin 4) rfl j

/-! ## The stretch hostOps4 -/

theorem mean4 : toRow (after hostOps4 V (Proc.devRef .tc main_v66)) = fun j => Ideal.div (tiles (V (Proc.devRef .tc main_v62_0)) j) cN := by
  funext j
  unfold toRow
  after_results
  exact meanRow_apply _ _ _ _ j

theorem var4 : toRow (after hostOps4 V (Proc.devRef .tc main_v72)) = fun j => max (Ideal.div (tiles (V (Proc.devRef .tc main_v62_1)) j) cN - Ideal.div (tiles (V (Proc.devRef .tc main_v62_0)) j) cN * Ideal.div (tiles (V (Proc.devRef .tc main_v62_0)) j) cN) 0 := by
  funext j
  unfold toRow
  after_results
  exact varRow_apply _ _ _ _ _ j

theorem g4 : toRow (after hostOps4 V (Proc.devRef .tc main_v75)) = fun j => V (Proc.devRef .tc main_arg14) (ix2 (0 : Fin 4) j) := by
  funext j
  unfold toRow
  after_results
  exact rowSlice_apply _ _ _ _ (0 : Fin 4) rfl j

theorem be4 : toRow (after hostOps4 V (Proc.devRef .tc main_v78)) = fun j => V (Proc.devRef .tc main_arg15) (ix2 (0 : Fin 4) j) := by
  funext j
  unfold toRow
  after_results
  exact rowSlice_apply _ _ _ _ (0 : Fin 4) rfl j

end Cert.KHostStats

end
-- ==== Proof.KReg1.lean ====
/-
  The value of the first kernel stage of a layer: for every node tile the idealized kernel multiplies the features by
  the scale row, adds the aggregate, multiplies by the first weight matrix and adds the bias row, stores the result, and
  stores the tile's column sums of the result and of its square. After the 20 tiles the three output arrays are:
  the affine map over all 100000 nodes; per tile its column sums; per tile its column sums of squares.
-/
import proofs.«412161_j3753801416792_2_alg».proof.Proof.KIFrameR1
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg1

open Cert.KernelIdeal Cert.KernelIdeal.Gen Cert.Spec Cert.Conv Idealize.ShloMosaic Idealize.ShloMosaic.ValueIdx Idealize.ShloMosaic.TcCoe Idealize.ShloMosaic.Pipeline

/-! ## The matrix product of a row tile, entry by entry -/

/-- Left operand, row axis: the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Left operand, column axis: the contracted index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- Right operand, row axis: the contracted index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- Right operand, column axis: the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile product into the zero accumulator at row r, column j: the sum over the 128 contracted columns. -/
theorem tile_matmul_apply (a : FVec Ideal S5000x128 .bf16) (b : FVec Ideal S128x128 .bf16) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

/-! ## The three stored values of one tile, entry by entry -/

/-- The affine map of a tile at row r, column j: the scaled features plus the aggregate, times the weights, plus the bias. -/
theorem lin_pay_apply (x0 : Vec Ideal S5000x128 .f32) (x2 : Vec Ideal S1x128 .f32) (x1 : Vec Ideal S5000x128 .f32)
    (x3 : Vec Ideal S128x128 .f32) (x4 : Vec Ideal S1x128 .f32) (r : Fin 5000) (j : Fin 128) :
    k1_pay1 x0 x2 x1 x3 x4 (ix2 r j)
      = (∑ k : Fin 128, (x0 (ix2 r k) * x2 (ix2 (0 : Fin 1) k) + x1 (ix2 r k)) * x3 (ix2 k j)) + x4 (ix2 (0 : Fin 1) j) := by
  unfold k1_pay1
  simp only [shapeCast_self]
  refine (addf_apply _ _ _).trans ?_
  refine congrArg₂ (· + ·) ?_ (broadcastTo_1b_ab_apply x4 broadcasts_S1x128_S5000x128 r j)
  refine (tile_matmul_apply _ _ r j).trans ?_
  refine Finset.sum_congr rfl fun k _ => ?_
  refine congrArg₂ (· * ·) ?_ rfl
  show x0 (ix2 r k) * broadcastTo S5000x128 x2 broadcasts_S1x128_S5000x128 (ix2 r k) + x1 (ix2 r k) = _
  rw [broadcastTo_1b_ab_apply x2 broadcasts_S1x128_S5000x128 r k]

/-- A column sum over the 5000 rows of a tile. -/
theorem tile_colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext ax
  apply Fin.ext
  match ax with
  | ⟨0, _⟩ => rfl
  | ⟨1, _⟩ => rfl

/-- The stored column sums of a tile at column j. -/
theorem sum_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k1_pay2 x0 x2 x1 x3 x4 (ix3 u v j) = ∑ r : Fin 5000, k1_pay1 x0 x2 x1 x3 x4 (ix2 r j) := by
  unfold k1_pay2
  refine (shapeCast_ab_1ab_apply _ shapeCasts_S1x128_S1x1x128 u v j).trans ?_
  refine (shapeCast_a_1a_apply _ shapeCasts_S128_S1x128 v j).trans ?_
  exact tile_colsum_apply _ _ _ j

/-- The stored column sums of squares of a tile at column j. -/
theorem sumsq_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k1_pay3 x0 x2 x1 x3 x4 (ix3 u v j)
      = ∑ r : Fin 5000, k1_pay1 x0 x2 x1 x3 x4 (ix2 r j) * k1_pay1 x0 x2 x1 x3 x4 (ix2 r j) := by
  unfold k1_pay3
  refine (shapeCast_ab_1ab_apply _ shapeCasts_S1x128_S1x1x128 u v j).trans ?_
  refine (shapeCast_a_1a_apply _ shapeCasts_S128_S1x128 v j).trans ?_
  refine (tile_colsum_apply _ _ _ j).trans ?_
  rfl

/-! ## Where a tile sits in the arrays -/

/-- The grid point as a tile number. -/
abbrev tileOf (t : Fin cfg1.N) : Fin 20 := t.cast N_1

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: row tiles move with the point, the small arrays stay, the per-tile
    outputs move with the point on their leading axis. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0
    ∧ win1_7.index t (0 : Fin 3) = t.val ∧ win1_7.index t (1 : Fin 3) = 0 ∧ win1_7.index t (2 : Fin 3) = 0 :=
  (by decide +kernel : ∀ t : Fin grid1.N, _)

/-- Row r, column k of the feature tile at point t is row 5000 t + r of the array. -/
theorem emb_feat (t : Fin cfg1.N) (r : Fin 5000) (k : Fin 128) :
    ((cfg1.win 0).blk t).view.emb (ix2 r k) = ix2 (tileRow (tileOf t) r) k := by
  obtain ⟨e0, e1, -⟩ := index_facts t
  funext a; apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- The same for the aggregate tile. -/
theorem emb_agg (t : Fin cfg1.N) (r : Fin 5000) (k : Fin 128) :
    ((cfg1.win 1).blk t).view.emb (ix2 r k) = ix2 (tileRow (tileOf t) r) k := by
  obtain ⟨-, -, e0, e1, -⟩ := index_facts t
  funext a; apply Fin.ext
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

/-- The scale row is read whole at every point. -/
theorem emb_scale (t : Fin cfg1.N) (u : Fin 1) (k : Fin 128) :
    ((cfg1.win 2).blk t).view.emb (ix2 u k) = ix2 (0 : Fin 1) k := by
  obtain ⟨-, -, -, -, e0, e1, -⟩ := index_facts t
  funext a; apply Fin.ext
  match a with
  | ⟨0, _⟩ => show win1_2.index t (0 : Fin 2) * 1 + 1 * u.val = 0; rw [e0]; omega
  | ⟨1, _⟩ => show win1_2.index t (1 : Fin 2) * 128 + 1 * k.val = k.val; rw [e1]; omega

/-- The weights are read whole at every point. -/
theorem emb_weight (t : Fin cfg1.N) (k : Fin 128) (j : Fin 128) :
    ((cfg1.win 3).blk t).view.emb (ix2 k j) = ix2 k j := by
  obtain ⟨-, -, -, -, -, -, e0, e1, -⟩ := index_facts t
  funext a; apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The bias row is read whole at every point. -/
theorem emb_bias (t : Fin cfg1.N) (u : Fin 1) (j : Fin 128) :
    ((cfg1.win 4).blk t).view.emb (ix2 u j) = ix2 (0 : Fin 1) j := by
  obtain ⟨-, -, -, -, -, -, -, -, e0, e1, -⟩ := index_facts t
  funext a; apply Fin.ext
  match a with
  | ⟨0, _⟩ => show win1_4.index t (0 : Fin 2) * 1 + 1 * u.val = 0; rw [e0]; omega
  | ⟨1, _⟩ => show win1_4.index t (1 : Fin 2) * 128 + 1 * j.val = j.val; rw [e1]; omega

/-- Row r, column j of the output tile at point t is row 5000 t + r of the output array. -/
theorem emb_lin (t : Fin cfg1.N) (r : Fin 5000) (j : Fin 128) :
    ((cfg1.win 5).blk t).view.emb (ix2 r j) = ix2 (tileRow (tileOf t) r) j := by
  obtain ⟨-, -, -, -, -, -, -, -, -, -, e0, e1, -⟩ := index_facts t
  funext a; apply Fin.ext
  match a with
  | ⟨0, _⟩ => show win1_5.index t (0 : Fin 2) * 5000 + 1 * r.val = t.val * 5000 + r.val; rw [e0]; omega
  | ⟨1, _⟩ => show win1_5.index t (1 : Fin 2) * 128 + 1 * j.val = j.val; rw [e1]; omega

/-- The column sums of tile t are row t of their array. -/
theorem emb_sum (t : Fin cfg1.N) (u v : Fin 1) (j : Fin 128) :
    ((cfg1.win 6).blk t).view.emb (ix3 u v j) = ix3 (tileOf t) (0 : Fin 1) j := by
  obtain ⟨-, -, -, -, -, -, -, -, -, -, -, -, e0, e1, e2, -⟩ := index_facts t
  funext a; apply Fin.ext
  match a with
  | ⟨0, _⟩ => show win1_6.index t (0 : Fin 3) * 1 + 1 * u.val = t.val; rw [e0]; omega
  | ⟨1, _⟩ => show win1_6.index t (1 : Fin 3) * 1 + 1 * v.val = 0; rw [e1]; omega
  | ⟨2, _⟩ => show win1_6.index t (2 : Fin 3) * 128 + 1 * j.val = j.val; rw [e2]; omega

/-- The column sums of squares of tile t are row t of their array. -/
theorem emb_sumsq (t : Fin cfg1.N) (u v : Fin 1) (j : Fin 128) :
    ((cfg1.win 7).blk t).view.emb (ix3 u v j) = ix3 (tileOf t) (0 : Fin 1) j := by
  obtain ⟨-, -, -, -, -, -, -, -, -, -, -, -, -, -, -, e0, e1, e2⟩ := index_facts t
  funext a; apply Fin.ext
  match a with
  | ⟨0, _⟩ => show win1_7.index t (0 : Fin 3) * 1 + 1 * u.val = t.val; rw [e0]; omega
  | ⟨1, _⟩ => show win1_7.index t (1 : Fin 3) * 1 + 1 * v.val = 0; rw [e1]; omega
  | ⟨2, _⟩ => show win1_7.index t (2 : Fin 3) * 128 + 1 * j.val = j.val; rw [e2]; omega

/-! ## Every entry of each output array lies in some tile -/

/-- An entry of the output array is in the tile of point t iff each coordinate is in the tile's range. -/
theorem mem_lin (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v23_0).slice (win1_5.rect t)).set ↔ _
  rw [View.set_slice_whole, Rect.mem_set_unit]
  exact Iff.rfl

theorem mem_sum (t : Fin cfg1.N) (i : S20x1x128.Idx) :
    i ∈ ((cfg1.win 6).blk t).view.set ↔ ∀ a : Fin 3, win1_6.index t a * S1x1x128.size a ≤ (i a).val
      ∧ (i a).val < win1_6.index t a * S1x1x128.size a + S1x1x128.size a := by
  show i ∈ ((View.whole main_v23_1).slice (win1_6.rect t)).set ↔ _
  rw [View.set_slice_whole, Rect.mem_set_unit]
  exact Iff.rfl

theorem mem_sumsq (t : Fin cfg1.N) (i : S20x1x128.Idx) :
    i ∈ ((cfg1.win 7).blk t).view.set ↔ ∀ a : Fin 3, win1_7.index t a * S1x1x128.size a ≤ (i a).val
      ∧ (i a).val < win1_7.index t a * S1x1x128.size a + S1x1x128.size a := by
  show i ∈ ((View.whole main_v23_2).slice (win1_7.rect t)).set ↔ _
  rw [View.set_slice_whole, Rect.mem_set_unit]
  exact Iff.rfl

/-- Row n of the output array is in tile n / 5000. -/
theorem cover_lin (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_lin]
  obtain ⟨-, -, -, -, -, -, -, -, -, -, e0, e1, -⟩ := index_facts ⟨(i 0).val / 5000, by rw [hN]; omega⟩
  intro a
  match a with
  | ⟨0, _⟩ =>
    show win1_5.index ⟨(i 0).val / 5000, _⟩ (0 : Fin 2) * 5000 ≤ (i 0).val
      ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val
      ∧ (i 1).val < win1_5.index ⟨(i 0).val / 5000, _⟩ (1 : Fin 2) * 128 + 128
    rw [e1]; omega

/-- Row t of the column sums is tile t's. -/
theorem cover_sum (i : S20x1x128.Idx) :
    ∃ t : Fin cfg1.N, (cfg1.win 6).flush t = true ∧ i ∈ ((cfg1.win 6).blk t).view.set := by
  have hi0 : (i 0).val < 20 := (i 0).isLt
  have hi1 : (i 1).val < 1 := (i 1).isLt
  have hi2 : (i 2).val < 128 := (i 2).isLt
  have hN : cfg1.N = 20 := N_1
  refine ⟨⟨(i 0).val, by rw [hN]; omega⟩, flush1_6 _, ?_⟩
  rw [mem_sum]
  obtain ⟨-, -, -, -, -, -, -, -, -, -, -, -, e0, e1, e2, -⟩ := index_facts ⟨(i 0).val, by rw [hN]; omega⟩
  intro a
  match a with
  | ⟨0, _⟩ =>
    show win1_6.index ⟨(i 0).val, _⟩ (0 : Fin 3) * 1 ≤ (i 0).val ∧ (i 0).val < win1_6.index ⟨(i 0).val, _⟩ (0 : Fin 3) * 1 + 1
    rw [e0]; show (i 0).val * 1 ≤ (i 0).val ∧ (i 0).val < (i 0).val * 1 + 1; omega
  | ⟨1, _⟩ =>
    show win1_6.index ⟨(i 0).val, _⟩ (1 : Fin 3) * 1 ≤ (i 1).val ∧ (i 1).val < win1_6.index ⟨(i 0).val, _⟩ (1 : Fin 3) * 1 + 1
    rw [e1]; omega
  | ⟨2, _⟩ =>
    show win1_6.index ⟨(i 0).val, _⟩ (2 : Fin 3) * 128 ≤ (i 2).val ∧ (i 2).val < win1_6.index ⟨(i 0).val, _⟩ (2 : Fin 3) * 128 + 128
    rw [e2]; omega

/-- Row t of the column sums of squares is tile t's. -/
theorem cover_sumsq (i : S20x1x128.Idx) :
    ∃ t : Fin cfg1.N, (cfg1.win 7).flush t = true ∧ i ∈ ((cfg1.win 7).blk t).view.set := by
  have hi0 : (i 0).val < 20 := (i 0).isLt
  have hi1 : (i 1).val < 1 := (i 1).isLt
  have hi2 : (i 2).val < 128 := (i 2).isLt
  have hN : cfg1.N = 20 := N_1
  refine ⟨⟨(i 0).val, by rw [hN]; omega⟩, flush1_7 _, ?_⟩
  rw [mem_sumsq]
  obtain ⟨-, -, -, -, -, -, -, -, -, -, -, -, -, -, -, e0, e1, e2⟩ := index_facts ⟨(i 0).val, by rw [hN]; omega⟩
  intro a
  match a with
  | ⟨0, _⟩ =>
    show win1_7.index ⟨(i 0).val, _⟩ (0 : Fin 3) * 1 ≤ (i 0).val ∧ (i 0).val < win1_7.index ⟨(i 0).val, _⟩ (0 : Fin 3) * 1 + 1
    rw [e0]; show (i 0).val * 1 ≤ (i 0).val ∧ (i 0).val < (i 0).val * 1 + 1; omega
  | ⟨1, _⟩ =>
    show win1_7.index ⟨(i 0).val, _⟩ (1 : Fin 3) * 1 ≤ (i 1).val ∧ (i 1).val < win1_7.index ⟨(i 0).val, _⟩ (1 : Fin 3) * 1 + 1
    rw [e1]; omega
  | ⟨2, _⟩ =>
    show win1_7.index ⟨(i 0).val, _⟩ (2 : Fin 3) * 128 ≤ (i 2).val ∧ (i 2).val < win1_7.index ⟨(i 0).val, _⟩ (2 : Fin 3) * 128 + 128
    rw [e2]; omega

/-! ## One tile's stored values, in the whole arrays' terms -/

/-- The affine map of tile t at row r, column j, when the loaded blocks are tile t of the features and the aggregate
    and the whole scale row, weights and bias row. -/
theorem lin_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (r : Fin 5000) (j : Fin 128) :
    k1_pay1 x0 x2 x1 x3 x4 (ix2 r j) = lin (xRow h a sc) W b (tileRow t r) j := by
  rw [lin_pay_apply, e4]
  show _ = (∑ k : Fin 128, (h (tileRow t r) k * sc k + a (tileRow t r) k) * W k j) + b j
  refine congrArg (· + b j) (Finset.sum_congr rfl fun k _ => ?_)
  rw [e0, e1, e2, e3]

/-- The stored column sums of tile t. -/
theorem sum_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k1_pay2 x0 x2 x1 x3 x4 (ix3 u v j) = tileSum (lin (xRow h a sc) W b) t j := by
  rw [sum_pay_apply]
  exact Finset.sum_congr rfl fun r _ => lin_tile x0 x1 x2 x3 x4 h a sc W b t e0 e1 e2 e3 e4 r j

/-- The stored column sums of squares of tile t. -/
theorem sumsq_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k1_pay3 x0 x2 x1 x3 x4 (ix3 u v j) = tileSum (sq (lin (xRow h a sc) W b)) t j := by
  rw [sumsq_pay_apply]
  refine Finset.sum_congr rfl fun r _ => ?_
  rw [lin_tile x0 x1 x2 x3 x4 h a sc W b t e0 e1 e2 e3 e4 r j]
  rfl

/-! ## The output arrays after the 20 tiles -/

variable (V : (c : Dev nD) → (b : Ref sig .tc) → Buf (Elt Ideal) ((c : Thread nD τ).loc b))

/-- The first affine map of the layer over all nodes, from the arrays as the stage finds them. -/
def L (c : Dev nD) : Mat 100000 128 :=
  lin (xRow (toMat (V c main_arg0)) (toMat (V c main_v12)) (toRow (V c main_v17))) (toMat (V c main_v22)) (toRow (V c main_v20))

/-- A loaded block is the array read through the block's place in it. -/
theorem blk_feat (c : Dev nD) (t : Fin cfg1.N) (y : S5000x128.Idx) :
    (iblk1 V c 0 t : Vec Ideal S5000x128 .f32) y = V c main_arg0 (((cfg1.win 0).blk t).view.emb y) := rfl
theorem blk_agg (c : Dev nD) (t : Fin cfg1.N) (y : S5000x128.Idx) :
    (iblk1 V c 1 t : Vec Ideal S5000x128 .f32) y = V c main_v12 (((cfg1.win 1).blk t).view.emb y) := rfl
theorem blk_scale (c : Dev nD) (t : Fin cfg1.N) (y : S1x128.Idx) :
    (iblk1 V c 2 t : Vec Ideal S1x128 .f32) y = V c main_v17 (((cfg1.win 2).blk t).view.emb y) := rfl
theorem blk_weight (c : Dev nD) (t : Fin cfg1.N) (y : S128x128.Idx) :
    (iblk1 V c 3 t : Vec Ideal S128x128 .f32) y = V c main_v22 (((cfg1.win 3).blk t).view.emb y) := rfl
theorem blk_bias (c : Dev nD) (t : Fin cfg1.N) (y : S1x128.Idx) :
    (iblk1 V c 4 t : Vec Ideal S1x128 .f32) y = V c main_v20 (((cfg1.win 4).blk t).view.emb y) := rfl

/-- The feature block at point t is tile t of the features. -/
theorem read_feat (c : Dev nD) (t : Fin cfg1.N) (r : Fin 5000) (k : Fin 128) :
    (iblk1 V c 0 t : Vec Ideal S5000x128 .f32) (ix2 r k) = toMat (V c main_arg0) (tileRow (tileOf t) r) k :=
  (blk_feat V c t (ix2 r k)).trans (congrArg (V c main_arg0) (emb_feat t r k))
/-- The aggregate block at point t is tile t of the aggregate. -/
theorem read_agg (c : Dev nD) (t : Fin cfg1.N) (r : Fin 5000) (k : Fin 128) :
    (iblk1 V c 1 t : Vec Ideal S5000x128 .f32) (ix2 r k) = toMat (V c main_v12) (tileRow (tileOf t) r) k :=
  (blk_agg V c t (ix2 r k)).trans (congrArg (V c main_v12) (emb_agg t r k))
/-- The scale block is the scale row. -/
theorem read_scale (c : Dev nD) (t : Fin cfg1.N) (k : Fin 128) :
    (iblk1 V c 2 t : Vec Ideal S1x128 .f32) (ix2 (0 : Fin 1) k) = toRow (V c main_v17) k :=
  (blk_scale V c t (ix2 (0 : Fin 1) k)).trans (congrArg (V c main_v17) (emb_scale t 0 k))
/-- The weight block is the weight matrix. -/
theorem read_weight (c : Dev nD) (t : Fin cfg1.N) (k : Fin 128) (j : Fin 128) :
    (iblk1 V c 3 t : Vec Ideal S128x128 .f32) (ix2 k j) = toMat (V c main_v22) k j :=
  (blk_weight V c t (ix2 k j)).trans (congrArg (V c main_v22) (emb_weight t k j))
/-- The bias block is the bias row. -/
theorem read_bias (c : Dev nD) (t : Fin cfg1.N) (j : Fin 128) :
    (iblk1 V c 4 t : Vec Ideal S1x128 .f32) (ix2 (0 : Fin 1) j) = toRow (V c main_v20) j :=
  (blk_bias V c t (ix2 (0 : Fin 1) j)).trans (congrArg (V c main_v20) (emb_bias t 0 j))

/-- What point t writes back to the first output is tile t of the affine map. -/
theorem flushed_lin (c : Dev nD) (t : Fin cfg1.N) :
    (dat1 V c).flushed 5 t = ((cfg1.win 5).blk t).view.read (Elt Ideal) (ofMat (L V c)) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S1x128) zeros2,
    View.ld_unit_zero (S := S128x128) zeros2]
  funext y
  obtain ⟨r, j, rfl⟩ : ∃ (r : Fin 5000) (j : Fin 128), y = ix2 r j := ⟨y 0, y 1, eq_ix2 y⟩
  show k1_pay1 (iblk1 V c 0 t) (iblk1 V c 2 t) (iblk1 V c 1 t) (iblk1 V c 3 t) (iblk1 V c 4 t) (ix2 r j)
    = ofMat (L V c) (((cfg1.win 5).blk t).view.emb (ix2 r j))
  rw [emb_lin t r j]
  exact lin_tile (iblk1 V c 0 t) (iblk1 V c 1 t) (iblk1 V c 2 t) (iblk1 V c 3 t) (iblk1 V c 4 t)
    (toMat (V c main_arg0)) (toMat (V c main_v12)) (toRow (V c main_v17)) (toMat (V c main_v22)) (toRow (V c main_v20))
    (tileOf t) (read_feat V c t) (read_agg V c t) (read_scale V c t) (read_weight V c t) (read_bias V c t) r j

/-- What point t writes back to the second output is tile t's column sums. -/
theorem flushed_sum (c : Dev nD) (t : Fin cfg1.N) :
    (dat1 V c).flushed 6 t
      = ((cfg1.win 6).blk t).view.read (Elt Ideal) (fun i : S20x1x128.Idx => tileSum (L V c) (i 0) (i 2)) := by
  show (cfg1.win 6).cut (grid1.coords t) ((dat1 V c).after 6 t) = _
  rw [after1_6]
  unfold out1_6
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k1_pay2 (iblk1 V c 0 t) (iblk1 V c 2 t) (iblk1 V c 1 t) (iblk1 V c 3 t) (iblk1 V c 4 t) (ix3 u v j)
    = (fun i : S20x1x128.Idx => tileSum (L V c) (i 0) (i 2)) (((cfg1.win 6).blk t).view.emb (ix3 u v j))
  rw [emb_sum t u v j]
  exact sum_tile (iblk1 V c 0 t) (iblk1 V c 1 t) (iblk1 V c 2 t) (iblk1 V c 3 t) (iblk1 V c 4 t)
    (toMat (V c main_arg0)) (toMat (V c main_v12)) (toRow (V c main_v17)) (toMat (V c main_v22)) (toRow (V c main_v20))
    (tileOf t) (read_feat V c t) (read_agg V c t) (read_scale V c t) (read_weight V c t) (read_bias V c t) u v j

/-- What point t writes back to the third output is tile t's column sums of squares. -/
theorem flushed_sumsq (c : Dev nD) (t : Fin cfg1.N) :
    (dat1 V c).flushed 7 t
      = ((cfg1.win 7).blk t).view.read (Elt Ideal) (fun i : S20x1x128.Idx => tileSum (sq (L V c)) (i 0) (i 2)) := by
  show (cfg1.win 7).cut (grid1.coords t) ((dat1 V c).after 7 t) = _
  rw [after1_7]
  unfold out1_7
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k1_pay3 (iblk1 V c 0 t) (iblk1 V c 2 t) (iblk1 V c 1 t) (iblk1 V c 3 t) (iblk1 V c 4 t) (ix3 u v j)
    = (fun i : S20x1x128.Idx => tileSum (sq (L V c)) (i 0) (i 2)) (((cfg1.win 7).blk t).view.emb (ix3 u v j))
  rw [emb_sumsq t u v j]
  exact sumsq_tile (iblk1 V c 0 t) (iblk1 V c 1 t) (iblk1 V c 2 t) (iblk1 V c 3 t) (iblk1 V c 4 t)
    (toMat (V c main_arg0)) (toMat (V c main_v12)) (toRow (V c main_v17)) (toMat (V c main_v22)) (toRow (V c main_v20))
    (tileOf t) (read_feat V c t) (read_agg V c t) (read_scale V c t) (read_weight V c t) (read_bias V c t) u v j

/-- THE FIRST OUTPUT after the stage: the affine map over all nodes. -/
theorem lin_eq (c : Dev nD) : (dat1 V c).arrAt 5 cfg1.N = ofMat (L V c) :=
  (dat1 V c).arrAt_eq_of_cover 5 (ofMat (L V c)) (fun t _ => flushed_lin V c t) cover_lin

/-- THE SECOND OUTPUT after the stage: per tile, the column sums of the affine map. -/
theorem sum_eq (c : Dev nD) :
    (dat1 V c).arrAt 6 cfg1.N = fun i : S20x1x128.Idx => tileSum (L V c) (i 0) (i 2) :=
  (dat1 V c).arrAt_eq_of_cover 6 (fun i : S20x1x128.Idx => tileSum (L V c) (i 0) (i 2))
    (fun t _ => flushed_sum V c t) cover_sum

/-- THE THIRD OUTPUT after the stage: per tile, the column sums of the squared affine map. -/
theorem sumsq_eq (c : Dev nD) :
    (dat1 V c).arrAt 7 cfg1.N = fun i : S20x1x128.Idx => tileSum (sq (L V c)) (i 0) (i 2) :=
  (dat1 V c).arrAt_eq_of_cover 7 (fun i : S20x1x128.Idx => tileSum (sq (L V c)) (i 0) (i 2))
    (fun t _ => flushed_sumsq V c t) cover_sumsq

end Cert.KReg1

end
-- ==== Proof.KReg2.lean ====
/-
  The value of a layer's second-stage region. After its 20 grid points the stored array is the second affine map of
  the layer over all 100000 nodes,

      lin (bnRelu x mean var gamma beta) W b,

  x the first affine map, W the weight matrix and b the bias row of the second, with the column mean and variance as the
  region finds them, and the two per-tile arrays are, for each tile of 5000
  rows, the column sums of that matrix and of its entrywise square over the tile. One tile's payload is read entry by
  entry (the product as a sum over the 128 contracted columns, the lane sums as sums over the tile's rows), each loaded
  block is read where its window puts it in its array, and the tiles cover the arrays.
-/
import proofs.«412161_j3753801416792_2_alg».proof.Proof.KIFrameR2
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg2

open Cert.KernelIdeal Cert.KernelIdeal.Gen Cert.Spec Cert.Conv Idealize.ShloMosaic Idealize.ShloMosaic.ValueIdx Idealize.ShloMosaic.TcCoe Idealize.ShloMosaic.Pipeline

/-! ## The product of a row tile with the weights, entry by entry -/

/-- The left operand is read at the output's row … -/
theorem product_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the contracted column; -/
theorem product_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- the right operand at the contracted row … -/
theorem product_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- … and at the output's column. -/
theorem product_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile's product into the zero accumulator, at row r and column j, is the sum over the 128 contracted columns. -/
theorem product_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact product_lhs_row _ _
      | ⟨1, _⟩ => exact (product_lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (product_rhs_row _ _).trans hk
      | ⟨1, _⟩ => exact product_rhs_col _ _)
  rw [el, er]

/-! ## The stored values of one tile, entry by entry -/

/-- The second affine map of a tile at row r, column j: the normalised, scaled, shifted and clamped input row times
    the weights' column, plus the bias. -/
theorem pay3_apply (x0 : Vec Ideal S5000x128 .f32) (xv xm xg xb : Vec Ideal S1x128 .f32) (xw : Vec Ideal S128x128 .f32)
    (xc : Vec Ideal S1x128 .f32) (r : Fin 5000) (j : Fin 128) :
    k2_pay3 x0 xv xm xg xb xw xc (ix2 r j)
      = (∑ k : Fin 128, max ((x0 (ix2 r k) - xm (ix2 (0 : Fin 1) k)) * Ideal.rsqrt (xv (ix2 (0 : Fin 1) k) + cEps)
            * xg (ix2 (0 : Fin 1) k) + xb (ix2 (0 : Fin 1) k)) 0 * xw (ix2 k j)) + xc (ix2 (0 : Fin 1) j) := by
  unfold k2_pay3
  simp only [shapeCast_self]
  refine (addf_apply _ _ _).trans ?_
  refine congrArg₂ (· + ·) ?_ (broadcastTo_1b_ab_apply xc broadcasts_S1x128_S5000x128 r j)
  refine (product_apply _ _ r j).trans ?_
  refine Finset.sum_congr rfl fun k _ => ?_
  refine congrArg₂ (· * ·) ?_ rfl
  refine (truncf_apply (ψ := .bf16) _ bitsLt_bf16_f32 (ix2 r k)).trans ?_
  refine (maximumf_apply _ _ _).trans ?_
  refine congrArg₂ max ?_ Ideal.ofBits_zero_f32
  refine (addf_apply _ _ _).trans ?_
  refine congrArg₂ (· + ·) ?_ (broadcastTo_1b_ab_apply xb broadcasts_S1x128_S5000x128 r k)
  refine (mulf_apply _ _ _).trans ?_
  refine congrArg₂ (· * ·) ?_ (broadcastTo_1b_ab_apply xg broadcasts_S1x128_S5000x128 r k)
  refine (mulf_apply _ _ _).trans ?_
  refine congrArg₂ (· * ·) ?_ ?_
  · refine (subf_apply _ _ _).trans ?_
    exact congrArg (x0 (ix2 r k) - ·) (broadcastTo_1b_ab_apply xm broadcasts_S1x128_S5000x128 r k)
  · refine (broadcastTo_1b_ab_apply _ broadcasts_S1x128_S5000x128 r k).trans ?_
    rfl

/-- A column sum over the 5000 rows of a tile. -/
theorem colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext a
  apply Fin.ext
  match a with
  | ⟨0, _⟩ => rfl
  | ⟨1, _⟩ => rfl

/-- The stored column sums of a tile, at column j: the affine map summed over the tile's rows. -/
theorem pay_sums_apply (x0 : Vec Ideal S5000x128 .f32) (xv xm xg xb : Vec Ideal S1x128 .f32) (xw : Vec Ideal S128x128 .f32)
    (xc : Vec Ideal S1x128 .f32) (u v : Fin 1) (j : Fin 128) :
    k2_pay1 (k2_pay4 x0 xv xm xg xb xw xc) (ix3 u v j) = ∑ r : Fin 5000, k2_pay3 x0 xv xm xg xb xw xc (ix2 r j) := by
  unfold k2_pay1 k2_pay4
  refine (shapeCast_ab_1ab_apply _ shapeCasts_S1x128_S1x1x128 u v j).trans ?_
  refine (shapeCast_a_1a_apply _ shapeCasts_S128_S1x128 v j).trans ?_
  exact colsum_apply _ _ _ j

/-- The stored column sums of squares of a tile, at column j. -/
theorem pay_sumsqs_apply (x0 : Vec Ideal S5000x128 .f32) (xv xm xg xb : Vec Ideal S1x128 .f32) (xw : Vec Ideal S128x128 .f32)
    (xc : Vec Ideal S1x128 .f32) (u v : Fin 1) (j : Fin 128) :
    k2_pay2 (k2_pay5 x0 xv xm xg xb xw xc) (ix3 u v j)
      = ∑ r : Fin 5000, k2_pay3 x0 xv xm xg xb xw xc (ix2 r j) * k2_pay3 x0 xv xm xg xb xw xc (ix2 r j) := by
  unfold k2_pay2 k2_pay5
  refine (shapeCast_ab_1ab_apply _ shapeCasts_S1x128_S1x1x128 u v j).trans ?_
  refine (shapeCast_a_1a_apply _ shapeCasts_S128_S1x128 v j).trans ?_
  refine (colsum_apply _ _ _ j).trans ?_
  rfl

/-- One tile's affine map in the matrices' own terms: when the loaded blocks are the tile's rows of the input and the
    whole small arrays, the payload at row r, column j is the whole-array affine map at the tile's row. -/
theorem tile_lin (X : Mat 100000 128) (mu var g be : Row 128) (W : Mat 128 128) (b : Row 128) (tl : Fin 20)
    (x0 : Vec Ideal S5000x128 .f32) (xv xm xg xb : Vec Ideal S1x128 .f32) (xw : Vec Ideal S128x128 .f32)
    (xc : Vec Ideal S1x128 .f32)
    (h0 : ∀ (r : Fin 5000) (k : Fin 128), x0 (ix2 r k) = X (tileRow tl r) k)
    (hv : ∀ k : Fin 128, xv (ix2 (0 : Fin 1) k) = var k) (hm : ∀ k : Fin 128, xm (ix2 (0 : Fin 1) k) = mu k)
    (hg : ∀ k : Fin 128, xg (ix2 (0 : Fin 1) k) = g k) (hb : ∀ k : Fin 128, xb (ix2 (0 : Fin 1) k) = be k)
    (hw : ∀ k j : Fin 128, xw (ix2 k j) = W k j) (hc : ∀ j : Fin 128, xc (ix2 (0 : Fin 1) j) = b j)
    (r : Fin 5000) (j : Fin 128) :
    k2_pay3 x0 xv xm xg xb xw xc (ix2 r j) = lin (bnRelu X mu var g be) W b (tileRow tl r) j := by
  refine (pay3_apply x0 xv xm xg xb xw xc r j).trans ?_
  show _ = (∑ k : Fin 128, max ((X (tileRow tl r) k - mu k) * Ideal.rsqrt (var k + cEps) * g k + be k) 0 * W k j) + b j
  rw [hc j]
  refine congrArg (· + b j) (Finset.sum_congr rfl fun k _ => ?_)
  rw [h0 r k, hv k, hm k, hg k, hb k, hw k j]

/-! ## Where a tile sits in the arrays -/

/-- The grid point as a tile number. -/
abbrev tileOf (t : Fin cfg2.N) : Fin 20 := t.cast N_2

theorem zeros_rank2 : (![0, 0] : Fin 2 → Nat) = fun _ => 0 := funext fun a => by fin_cases a <;> rfl
theorem zeros_rank3 : (![0, 0, 0] : Fin 3 → Nat) = fun _ => 0 := funext fun a => by fin_cases a <;> rfl

/-- The printed index maps over the 20 points: the row tiles of the input and of the stored affine map move with the
    point, the six small arrays stay, the per-tile sums move with the point on their leading axis. -/
theorem index_rows : ∀ t : Fin cfg2.N,
    win2_0.index t (0 : Fin 2) = t.val ∧ win2_0.index t (1 : Fin 2) = 0
    ∧ win2_7.index t (0 : Fin 2) = t.val ∧ win2_7.index t (1 : Fin 2) = 0 :=
  (by decide +kernel : ∀ t : Fin grid2.N, _)

theorem index_small : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem index_sums : ∀ t : Fin cfg2.N,
    win2_8.index t (0 : Fin 3) = t.val ∧ win2_8.index t (1 : Fin 3) = 0 ∧ win2_8.index t (2 : Fin 3) = 0
    ∧ win2_9.index t (0 : Fin 3) = t.val ∧ win2_9.index t (1 : Fin 3) = 0 ∧ win2_9.index t (2 : Fin 3) = 0 :=
  (by decide +kernel : ∀ t : Fin grid2.N, _)

/-- Row r, column k of the input tile at point t is row 5000 t + r of the input array. -/
theorem emb_input (t : Fin cfg2.N) (r : Fin 5000) (k : Fin 128) :
    ((cfg2.win 0).blk t).view.emb (ix2 r k) = ix2 (tileRow (tileOf t) r) k := by
  obtain ⟨e0, e1, -⟩ := index_rows t
  funext a; apply Fin.ext
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

/-- The mean row is read whole at every point. -/
theorem emb_mean (t : Fin cfg2.N) (u : Fin 1) (k : Fin 128) :
    ((cfg2.win 1).blk t).view.emb (ix2 u k) = ix2 (0 : Fin 1) k := by
  obtain ⟨e0, e1, -⟩ := index_small t
  funext a; apply Fin.ext
  match a with
  | ⟨0, _⟩ => show win2_1.index t (0 : Fin 2) * 1 + 1 * u.val = 0; rw [e0]; omega
  | ⟨1, _⟩ => show win2_1.index t (1 : Fin 2) * 128 + 1 * k.val = k.val; rw [e1]; omega

/-- The variance row is read whole at every point. -/
theorem emb_var (t : Fin cfg2.N) (u : Fin 1) (k : Fin 128) :
    ((cfg2.win 2).blk t).view.emb (ix2 u k) = ix2 (0 : Fin 1) k := by
  obtain ⟨-, -, e0, e1, -⟩ := index_small t
  funext a; apply Fin.ext
  match a with
  | ⟨0, _⟩ => show win2_2.index t (0 : Fin 2) * 1 + 1 * u.val = 0; rw [e0]; omega
  | ⟨1, _⟩ => show win2_2.index t (1 : Fin 2) * 128 + 1 * k.val = k.val; rw [e1]; omega

/-- The scale row is read whole at every point. -/
theorem emb_gamma (t : Fin cfg2.N) (u : Fin 1) (k : Fin 128) :
    ((cfg2.win 3).blk t).view.emb (ix2 u k) = ix2 (0 : Fin 1) k := by
  obtain ⟨-, -, -, -, e0, e1, -⟩ := index_small t
  funext a; apply Fin.ext
  match a with
  | ⟨0, _⟩ => show win2_3.index t (0 : Fin 2) * 1 + 1 * u.val = 0; rw [e0]; omega
  | ⟨1, _⟩ => show win2_3.index t (1 : Fin 2) * 128 + 1 * k.val = k.val; rw [e1]; omega

/-- The shift row is read whole at every point. -/
theorem emb_beta (t : Fin cfg2.N) (u : Fin 1) (k : Fin 128) :
    ((cfg2.win 4).blk t).view.emb (ix2 u k) = ix2 (0 : Fin 1) k := by
  obtain ⟨-, -, -, -, -, -, e0, e1, -⟩ := index_small t
  funext a; apply Fin.ext
  match a with
  | ⟨0, _⟩ => show win2_4.index t (0 : Fin 2) * 1 + 1 * u.val = 0; rw [e0]; omega
  | ⟨1, _⟩ => show win2_4.index t (1 : Fin 2) * 128 + 1 * k.val = k.val; rw [e1]; omega

/-- The weights are read whole at every point. -/
theorem emb_weights (t : Fin cfg2.N) (k j : Fin 128) :
    ((cfg2.win 5).blk t).view.emb (ix2 k j) = ix2 k j := by
  obtain ⟨-, -, -, -, -, -, -, -, e0, e1, -⟩ := index_small t
  funext a; apply Fin.ext
  match a with
  | ⟨0, _⟩ => show win2_5.index t (0 : Fin 2) * 128 + 1 * k.val = k.val; rw [e0]; omega
  | ⟨1, _⟩ => show win2_5.index t (1 : Fin 2) * 128 + 1 * j.val = j.val; rw [e1]; omega

/-- The bias row is read whole at every point. -/
theorem emb_bias (t : Fin cfg2.N) (u : Fin 1) (j : Fin 128) :
    ((cfg2.win 6).blk t).view.emb (ix2 u j) = ix2 (0 : Fin 1) j := by
  obtain ⟨-, -, -, -, -, -, -, -, -, -, e0, e1⟩ := index_small t
  funext a; apply Fin.ext
  match a with
  | ⟨0, _⟩ => show win2_6.index t (0 : Fin 2) * 1 + 1 * u.val = 0; rw [e0]; omega
  | ⟨1, _⟩ => show win2_6.index t (1 : Fin 2) * 128 + 1 * j.val = j.val; rw [e1]; omega

/-- Row r, column j of the stored tile at point t is row 5000 t + r of the stored array. -/
theorem emb_stored (t : Fin cfg2.N) (r : Fin 5000) (j : Fin 128) :
    ((cfg2.win 7).blk t).view.emb (ix2 r j) = ix2 (tileRow (tileOf t) r) j := by
  obtain ⟨-, -, e0, e1⟩ := index_rows t
  funext a; apply Fin.ext
  match a with
  | ⟨0, _⟩ => show win2_7.index t (0 : Fin 2) * 5000 + 1 * r.val = t.val * 5000 + r.val; rw [e0]; omega
  | ⟨1, _⟩ => show win2_7.index t (1 : Fin 2) * 128 + 1 * j.val = j.val; rw [e1]; omega

/-- The column sums of tile t are row t of their array. -/
theorem emb_sums (t : Fin cfg2.N) (u v : Fin 1) (j : Fin 128) :
    ((cfg2.win 8).blk t).view.emb (ix3 u v j) = ix3 (tileOf t) (0 : Fin 1) j := by
  obtain ⟨e0, e1, e2, -⟩ := index_sums t
  funext a; apply Fin.ext
  match a with
  | ⟨0, _⟩ => show win2_8.index t (0 : Fin 3) * 1 + 1 * u.val = t.val; rw [e0]; omega
  | ⟨1, _⟩ => show win2_8.index t (1 : Fin 3) * 1 + 1 * v.val = 0; rw [e1]; omega
  | ⟨2, _⟩ => show win2_8.index t (2 : Fin 3) * 128 + 1 * j.val = j.val; rw [e2]; omega

/-- The column sums of squares of tile t are row t of their array. -/
theorem emb_sumsqs (t : Fin cfg2.N) (u v : Fin 1) (j : Fin 128) :
    ((cfg2.win 9).blk t).view.emb (ix3 u v j) = ix3 (tileOf t) (0 : Fin 1) j := by
  obtain ⟨-, -, -, e0, e1, e2⟩ := index_sums t
  funext a; apply Fin.ext
  match a with
  | ⟨0, _⟩ => show win2_9.index t (0 : Fin 3) * 1 + 1 * u.val = t.val; rw [e0]; omega
  | ⟨1, _⟩ => show win2_9.index t (1 : Fin 3) * 1 + 1 * v.val = 0; rw [e1]; omega
  | ⟨2, _⟩ => show win2_9.index t (2 : Fin 3) * 128 + 1 * j.val = j.val; rw [e2]; omega

/-! ## Every entry of each output array lies in some tile -/

/-- An entry of the stored array is in the tile of point t iff each coordinate is in the tile's range. -/
theorem mem_stored (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v45_0).slice (win2_7.rect t)).set ↔ _
  rw [View.set_slice_whole, Rect.mem_set_unit]
  exact Iff.rfl

theorem mem_sums (t : Fin cfg2.N) (i : S20x1x128.Idx) :
    i ∈ ((cfg2.win 8).blk t).view.set ↔ ∀ a : Fin 3, win2_8.index t a * S1x1x128.size a ≤ (i a).val
      ∧ (i a).val < win2_8.index t a * S1x1x128.size a + S1x1x128.size a := by
  show i ∈ ((View.whole main_v45_1).slice (win2_8.rect t)).set ↔ _
  rw [View.set_slice_whole, Rect.mem_set_unit]
  exact Iff.rfl

theorem mem_sumsqs (t : Fin cfg2.N) (i : S20x1x128.Idx) :
    i ∈ ((cfg2.win 9).blk t).view.set ↔ ∀ a : Fin 3, win2_9.index t a * S1x1x128.size a ≤ (i a).val
      ∧ (i a).val < win2_9.index t a * S1x1x128.size a + S1x1x128.size a := by
  show i ∈ ((View.whole main_v45_2).slice (win2_9.rect t)).set ↔ _
  rw [View.set_slice_whole, Rect.mem_set_unit]
  exact Iff.rfl

/-- Row n of the stored array is in tile n / 5000. -/
theorem cover_stored (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_7 _, ?_⟩
  rw [mem_stored]
  obtain ⟨-, -, e0, e1⟩ := index_rows ⟨(i 0).val / 5000, by rw [hN]; omega⟩
  intro a
  match a with
  | ⟨0, _⟩ =>
    show win2_7.index ⟨(i 0).val / 5000, _⟩ (0 : Fin 2) * 5000 ≤ (i 0).val
      ∧ (i 0).val < win2_7.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win2_7.index ⟨(i 0).val / 5000, _⟩ (1 : Fin 2) * 128 ≤ (i 1).val
      ∧ (i 1).val < win2_7.index ⟨(i 0).val / 5000, _⟩ (1 : Fin 2) * 128 + 128
    rw [e1]; omega

/-- Row t of the column sums is tile t's. -/
theorem cover_sums (i : S20x1x128.Idx) :
    ∃ t : Fin cfg2.N, (cfg2.win 8).flush t = true ∧ i ∈ ((cfg2.win 8).blk t).view.set := by
  have hi0 : (i 0).val < 20 := (i 0).isLt
  have hi1 : (i 1).val < 1 := (i 1).isLt
  have hi2 : (i 2).val < 128 := (i 2).isLt
  have hN : cfg2.N = 20 := N_2
  refine ⟨⟨(i 0).val, by rw [hN]; omega⟩, flush2_8 _, ?_⟩
  rw [mem_sums]
  obtain ⟨e0, e1, e2, -⟩ := index_sums ⟨(i 0).val, by rw [hN]; omega⟩
  intro a
  match a with
  | ⟨0, _⟩ =>
    show win2_8.index ⟨(i 0).val, _⟩ (0 : Fin 3) * 1 ≤ (i 0).val ∧ (i 0).val < win2_8.index ⟨(i 0).val, _⟩ (0 : Fin 3) * 1 + 1
    rw [e0]
    show (i 0).val * 1 ≤ (i 0).val ∧ (i 0).val < (i 0).val * 1 + 1
    omega
  | ⟨1, _⟩ =>
    show win2_8.index ⟨(i 0).val, _⟩ (1 : Fin 3) * 1 ≤ (i 1).val ∧ (i 1).val < win2_8.index ⟨(i 0).val, _⟩ (1 : Fin 3) * 1 + 1
    rw [e1]; omega
  | ⟨2, _⟩ =>
    show win2_8.index ⟨(i 0).val, _⟩ (2 : Fin 3) * 128 ≤ (i 2).val ∧ (i 2).val < win2_8.index ⟨(i 0).val, _⟩ (2 : Fin 3) * 128 + 128
    rw [e2]; omega

/-- Row t of the column sums of squares is tile t's. -/
theorem cover_sumsqs (i : S20x1x128.Idx) :
    ∃ t : Fin cfg2.N, (cfg2.win 9).flush t = true ∧ i ∈ ((cfg2.win 9).blk t).view.set := by
  have hi0 : (i 0).val < 20 := (i 0).isLt
  have hi1 : (i 1).val < 1 := (i 1).isLt
  have hi2 : (i 2).val < 128 := (i 2).isLt
  have hN : cfg2.N = 20 := N_2
  refine ⟨⟨(i 0).val, by rw [hN]; omega⟩, flush2_9 _, ?_⟩
  rw [mem_sumsqs]
  obtain ⟨-, -, -, e0, e1, e2⟩ := index_sums ⟨(i 0).val, by rw [hN]; omega⟩
  intro a
  match a with
  | ⟨0, _⟩ =>
    show win2_9.index ⟨(i 0).val, _⟩ (0 : Fin 3) * 1 ≤ (i 0).val ∧ (i 0).val < win2_9.index ⟨(i 0).val, _⟩ (0 : Fin 3) * 1 + 1
    rw [e0]
    show (i 0).val * 1 ≤ (i 0).val ∧ (i 0).val < (i 0).val * 1 + 1
    omega
  | ⟨1, _⟩ =>
    show win2_9.index ⟨(i 0).val, _⟩ (1 : Fin 3) * 1 ≤ (i 1).val ∧ (i 1).val < win2_9.index ⟨(i 0).val, _⟩ (1 : Fin 3) * 1 + 1
    rw [e1]; omega
  | ⟨2, _⟩ =>
    show win2_9.index ⟨(i 0).val, _⟩ (2 : Fin 3) * 128 ≤ (i 2).val ∧ (i 2).val < win2_9.index ⟨(i 0).val, _⟩ (2 : Fin 3) * 128 + 128
    rw [e2]; omega

variable (V : (c : Dev nD) → (b : Ref sig .tc) → Buf (Elt Ideal) ((c : Thread nD τ).loc b))

/-! ## The region's value -/

/-- The second affine map of the layer over all nodes: the normalised, scaled, shifted and clamped first affine map
    (by the given column mean and variance) times the second weights, plus the second bias. -/
def L2 (c : Dev nD) : Mat 100000 128 :=
  lin (bnRelu (toMat (n := 100000) (d := 128) (V c main_v23_0)) (toRow (d := 128) (V c main_v27)) (toRow (d := 128) (V c main_v33))
      (toRow (d := 128) (V c main_v36)) (toRow (d := 128) (V c main_v39)))
    (toMat (n := 128) (d := 128) (V c main_v44)) (toRow (d := 128) (V c main_v42))

/-! ## The loaded blocks, entry by entry -/

theorem block_input (c : Dev nD) (t : Fin cfg2.N) (r : Fin 5000) (k : Fin 128) :
    (iblk2 V c 0 t : Vec Ideal S5000x128 .f32) (ix2 r k) = toMat (n := 100000) (d := 128) (V c main_v23_0) (tileRow (tileOf t) r) k := by
  show V c main_v23_0 (((cfg2.win 0).blk t).view.emb (ix2 r k)) = V c main_v23_0 (ix2 (tileRow (tileOf t) r) k)
  rw [emb_input]

theorem block_mean (c : Dev nD) (t : Fin cfg2.N) (k : Fin 128) :
    (iblk2 V c 1 t : Vec Ideal S1x128 .f32) (ix2 (0 : Fin 1) k) = toRow (d := 128) (V c main_v27) k := by
  show V c main_v27 (((cfg2.win 1).blk t).view.emb (ix2 (0 : Fin 1) k)) = V c main_v27 (ix2 (0 : Fin 1) k)
  rw [emb_mean]

theorem block_var (c : Dev nD) (t : Fin cfg2.N) (k : Fin 128) :
    (iblk2 V c 2 t : Vec Ideal S1x128 .f32) (ix2 (0 : Fin 1) k) = toRow (d := 128) (V c main_v33) k := by
  show V c main_v33 (((cfg2.win 2).blk t).view.emb (ix2 (0 : Fin 1) k)) = V c main_v33 (ix2 (0 : Fin 1) k)
  rw [emb_var]

theorem block_gamma (c : Dev nD) (t : Fin cfg2.N) (k : Fin 128) :
    (iblk2 V c 3 t : Vec Ideal S1x128 .f32) (ix2 (0 : Fin 1) k) = toRow (d := 128) (V c main_v36) k := by
  show V c main_v36 (((cfg2.win 3).blk t).view.emb (ix2 (0 : Fin 1) k)) = V c main_v36 (ix2 (0 : Fin 1) k)
  rw [emb_gamma]

theorem block_beta (c : Dev nD) (t : Fin cfg2.N) (k : Fin 128) :
    (iblk2 V c 4 t : Vec Ideal S1x128 .f32) (ix2 (0 : Fin 1) k) = toRow (d := 128) (V c main_v39) k := by
  show V c main_v39 (((cfg2.win 4).blk t).view.emb (ix2 (0 : Fin 1) k)) = V c main_v39 (ix2 (0 : Fin 1) k)
  rw [emb_beta]

theorem block_weights (c : Dev nD) (t : Fin cfg2.N) (k j : Fin 128) :
    (iblk2 V c 5 t : Vec Ideal S128x128 .f32) (ix2 k j) = toMat (n := 128) (d := 128) (V c main_v44) k j := by
  show V c main_v44 (((cfg2.win 5).blk t).view.emb (ix2 k j)) = V c main_v44 (ix2 k j)
  rw [emb_weights]

theorem block_bias (c : Dev nD) (t : Fin cfg2.N) (j : Fin 128) :
    (iblk2 V c 6 t : Vec Ideal S1x128 .f32) (ix2 (0 : Fin 1) j) = toRow (d := 128) (V c main_v42) j := by
  show V c main_v42 (((cfg2.win 6).blk t).view.emb (ix2 (0 : Fin 1) j)) = V c main_v42 (ix2 (0 : Fin 1) j)
  rw [emb_bias]

/-- The payload of point t at row r, column j is the whole-array affine map at the tile's row. -/
theorem block_lin (c : Dev nD) (t : Fin cfg2.N) (r : Fin 5000) (j : Fin 128) :
    k2_pay3 (iblk2 V c 0 t) (iblk2 V c 2 t) (iblk2 V c 1 t) (iblk2 V c 3 t) (iblk2 V c 4 t) (iblk2 V c 5 t) (iblk2 V c 6 t) (ix2 r j)
      = L2 V c (tileRow (tileOf t) r) j :=
  tile_lin (toMat (n := 100000) (d := 128) (V c main_v23_0)) (toRow (d := 128) (V c main_v27)) (toRow (d := 128) (V c main_v33))
    (toRow (d := 128) (V c main_v36)) (toRow (d := 128) (V c main_v39)) (toMat (n := 128) (d := 128) (V c main_v44))
    (toRow (d := 128) (V c main_v42)) (tileOf t)
    (iblk2 V c 0 t) (iblk2 V c 2 t) (iblk2 V c 1 t) (iblk2 V c 3 t) (iblk2 V c 4 t) (iblk2 V c 5 t) (iblk2 V c 6 t)
    (fun r k => block_input V c t r k) (fun k => block_var V c t k) (fun k => block_mean V c t k)
    (fun k => block_gamma V c t k) (fun k => block_beta V c t k) (fun k j => block_weights V c t k j)
    (fun j => block_bias V c t j) r j

/-! ## What each point writes back -/

/-- Two functions of a tile's index that agree at every row and column are equal. -/
theorem ext_tile {α : Type} {P Q : S5000x128.Idx → α} (h : ∀ (r : Fin 5000) (j : Fin 128), P (ix2 r j) = Q (ix2 r j)) : P = Q :=
  funext fun y => (congrArg P (eq_ix2 y)).trans ((h (y 0) (y 1)).trans (congrArg Q (eq_ix2 y).symm))

/-- The same for a per-tile row of sums. -/
theorem ext_sums {α : Type} {P Q : S1x1x128.Idx → α} (h : ∀ (u v : Fin 1) (j : Fin 128), P (ix3 u v j) = Q (ix3 u v j)) : P = Q :=
  funext fun y => (congrArg P (eq_ix3 y)).trans ((h (y 0) (y 1) (y 2)).trans (congrArg Q (eq_ix3 y).symm))

/-- Point t writes back tile t of the affine map. -/
theorem flushed_lin (c : Dev nD) (t : Fin cfg2.N) :
    (dat2 V c).flushed 7 t = ((cfg2.win 7).blk t).view.read (Elt Ideal) (ofMat (L2 V c)) := by
  show (cfg2.win 7).cut (grid2.coords t) ((dat2 V c).after 7 t) = _
  rw [after2_7]
  unfold out2_7
  rw [View.canon_unit_zero zeros_rank2]
  simp only [View.ld_unit_zero (S := S5000x128) zeros_rank2, View.ld_unit_zero (S := S1x128) zeros_rank2,
    View.ld_unit_zero (S := S128x128) zeros_rank2]
  refine ext_tile fun r j => ?_
  show k2_pay3 (iblk2 V c 0 t) (iblk2 V c 2 t) (iblk2 V c 1 t) (iblk2 V c 3 t) (iblk2 V c 4 t) (iblk2 V c 5 t) (iblk2 V c 6 t) (ix2 r j)
    = ofMat (L2 V c) (((cfg2.win 7).blk t).view.emb (ix2 r j))
  rw [emb_stored]
  exact block_lin V c t r j

/-- Point t writes back row t of the column sums: the affine map summed over tile t. -/
theorem flushed_sums (c : Dev nD) (t : Fin cfg2.N) :
    (dat2 V c).flushed 8 t = ((cfg2.win 8).blk t).view.read (Elt Ideal) (fun i : S20x1x128.Idx => tileSum (L2 V c) (i 0) (i 2)) := by
  show (cfg2.win 8).cut (grid2.coords t) ((dat2 V c).after 8 t) = _
  rw [after2_8]
  unfold out2_8
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k2_pay1 (k2_pay4 (iblk2 V c 0 t) (iblk2 V c 2 t) (iblk2 V c 1 t) (iblk2 V c 3 t) (iblk2 V c 4 t) (iblk2 V c 5 t) (iblk2 V c 6 t)) (ix3 u v j)
    = (fun i : S20x1x128.Idx => tileSum (L2 V c) (i 0) (i 2)) (((cfg2.win 8).blk t).view.emb (ix3 u v j))
  rw [emb_sums]
  show _ = ∑ r : Fin 5000, L2 V c (tileRow (tileOf t) r) j
  refine (pay_sums_apply (iblk2 V c 0 t) (iblk2 V c 2 t) (iblk2 V c 1 t) (iblk2 V c 3 t) (iblk2 V c 4 t) (iblk2 V c 5 t) (iblk2 V c 6 t) u v j).trans ?_
  exact Finset.sum_congr rfl fun r _ => block_lin V c t r j

/-- Point t writes back row t of the column sums of squares. -/
theorem flushed_sumsqs (c : Dev nD) (t : Fin cfg2.N) :
    (dat2 V c).flushed 9 t = ((cfg2.win 9).blk t).view.read (Elt Ideal) (fun i : S20x1x128.Idx => tileSum (Cert.Spec.sq (L2 V c)) (i 0) (i 2)) := by
  show (cfg2.win 9).cut (grid2.coords t) ((dat2 V c).after 9 t) = _
  rw [after2_9]
  unfold out2_9
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k2_pay2 (k2_pay5 (iblk2 V c 0 t) (iblk2 V c 2 t) (iblk2 V c 1 t) (iblk2 V c 3 t) (iblk2 V c 4 t) (iblk2 V c 5 t) (iblk2 V c 6 t)) (ix3 u v j)
    = (fun i : S20x1x128.Idx => tileSum (Cert.Spec.sq (L2 V c)) (i 0) (i 2)) (((cfg2.win 9).blk t).view.emb (ix3 u v j))
  rw [emb_sumsqs]
  show _ = ∑ r : Fin 5000, L2 V c (tileRow (tileOf t) r) j * L2 V c (tileRow (tileOf t) r) j
  refine (pay_sumsqs_apply (iblk2 V c 0 t) (iblk2 V c 2 t) (iblk2 V c 1 t) (iblk2 V c 3 t) (iblk2 V c 4 t) (iblk2 V c 5 t) (iblk2 V c 6 t) u v j).trans ?_
  exact Finset.sum_congr rfl fun r _ => by rw [block_lin V c t r j]

/-! ## The three output arrays after the 20 points -/

/-- The stored affine map is the whole matrix. -/
theorem lin_eq (c : Dev nD) : (dat2 V c).arrAt 7 cfg2.N = ofMat (L2 V c) :=
  (dat2 V c).arrAt_eq_of_cover 7 (ofMat (L2 V c)) (fun t _ => flushed_lin V c t) cover_stored

/-- The per-tile column sums. -/
theorem sum_eq (c : Dev nD) : (dat2 V c).arrAt 8 cfg2.N = fun i => tileSum (L2 V c) (i 0) (i 2) :=
  (dat2 V c).arrAt_eq_of_cover 8 (fun i : S20x1x128.Idx => tileSum (L2 V c) (i 0) (i 2)) (fun t _ => flushed_sums V c t) cover_sums

/-- The per-tile column sums of squares. -/
theorem sumsq_eq (c : Dev nD) : (dat2 V c).arrAt 9 cfg2.N = fun i => tileSum (Cert.Spec.sq (L2 V c)) (i 0) (i 2) :=
  (dat2 V c).arrAt_eq_of_cover 9 (fun i : S20x1x128.Idx => tileSum (Cert.Spec.sq (L2 V c)) (i 0) (i 2)) (fun t _ => flushed_sumsqs V c t) cover_sumsqs

end Cert.KReg2

end
-- ==== Proof.KReg3.lean ====
/-
  The value of the third stage of the first layer: after its 20 tiles, the two per-tile arrays hold, for every
  tile and column, the sum over the tile's 5000 rows of the clamped batch-normalised entries, and the sum of their
  squares.
-/
import proofs.«412161_j3753801416792_2_alg».proof.Proof.KIFrameR3
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg3

open Cert.KernelIdeal Cert.KernelIdeal.Gen Cert.Spec Cert.Conv Idealize.ShloMosaic Idealize.ShloMosaic.ValueIdx
  Idealize.ShloMosaic.TcCoe Idealize.ShloMosaic.Pipeline

variable (V : (c : Dev nD) → (b : Ref sig .tc) → Buf (Elt Ideal) ((c : Thread nD τ).loc b))

/-- The second affine map's output, normalised by the given column mean and variance, scaled, shifted and clamped
    below at zero: all 100000 rows at once. -/
def Z2 (c : Dev nD) : Mat 100000 128 :=
  bnRelu (toMat (V c main_v45_0)) (toRow (V c main_v49)) (toRow (V c main_v55)) (toRow (V c main_v58)) (toRow (V c main_v61))

/-! ## The body's values at an index -/

/-- One entry of a tile after normalising, scaling, shifting and clamping below at zero. -/
theorem pay1_apply (x0 : Vec Ideal S5000x128 .f32) (xv xm xg xb : Vec Ideal S1x128 .f32) (r : Fin 5000) (j : Fin 128) :
    k3_pay1 x0 xv xm xg xb (ix2 r j)
      = max ((x0 (ix2 r j) - xm (ix2 (0 : Fin 1) j)) * Ideal.rsqrt (xv (ix2 (0 : Fin 1) j) + cEps) * xg (ix2 (0 : Fin 1) j)
          + xb (ix2 (0 : Fin 1) j)) 0 := by
  unfold k3_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  simp only [Ideal.ofBits_def, Ideal.ofBits_zero_f32]
  rfl

/-- The index a sum over rows reads at row `k` of column `j`. -/
theorem lift_row (h : S5000x128.Reduces [0] S128) (j : Fin 128) (k : Fin 5000) :
    h.lift (ix1 j) k = ix2 k j :=
  funext fun a => Fin.ext (by match a with | ⟨0, _⟩ => rfl | ⟨1, _⟩ => rfl)

/-- A column sum over a tile's rows, as the body stores it in a block of one row. -/
theorem colsum_apply (z : FVec Ideal S5000x128 .f32) (h : S5000x128.Reduces [0] S128) (hφ : FKind.Formats .f32)
    (hacc : (0x00000000#32 : BitVec 32) = FKind.add.neutral .f32 hφ) (h1 : S128.ShapeCasts S1x128)
    (h2 : S1x128.ShapeCasts S1x1x128) (u v : Fin 1) (j : Fin 128) :
    shapeCast S1x1x128 (shapeCast S1x128 (multiReduction .add [0] S128 z 0x00000000#32 h hφ hacc) h1) h2 (ix3 u v j)
      = ∑ r : Fin 5000, z (ix2 r j) := by
  refine (shapeCast_ab_1ab_apply _ h2 u v j).trans ?_
  refine (shapeCast_a_1a_apply _ h1 v j).trans ?_
  refine (Ideal.multiReduction_add_single z 0x00000000#32 h hφ hacc (ix1 j)).trans ?_
  show ∑ k : Fin 5000, z (h.lift (ix1 j) k) = _
  exact Finset.sum_congr rfl fun k _ => congrArg z (lift_row h j k)

/-- The first output block at an index: the column sum of the clamped tile. -/
theorem pay2_apply (x0 : Vec Ideal S5000x128 .f32) (xv xm xg xb : Vec Ideal S1x128 .f32) (u v : Fin 1) (j : Fin 128) :
    k3_pay2 x0 xv xm xg xb (ix3 u v j) = ∑ r : Fin 5000, k3_pay1 x0 xv xm xg xb (ix2 r j) := by
  unfold k3_pay2
  exact colsum_apply _ _ _ _ _ _ u v j

/-- The second output block at an index: the column sum of the clamped tile's squares. -/
theorem pay3_apply (x0 : Vec Ideal S5000x128 .f32) (xv xm xg xb : Vec Ideal S1x128 .f32) (u v : Fin 1) (j : Fin 128) :
    k3_pay3 x0 xv xm xg xb (ix3 u v j)
      = ∑ r : Fin 5000, k3_pay1 x0 xv xm xg xb (ix2 r j) * k3_pay1 x0 xv xm xg xb (ix2 r j) := by
  unfold k3_pay3
  exact colsum_apply _ _ _ _ _ _ u v j

/-- The same at any index of the block: only the column matters. -/
theorem pay2_at (x0 : Vec Ideal S5000x128 .f32) (xv xm xg xb : Vec Ideal S1x128 .f32) (i : S1x1x128.Idx) :
    k3_pay2 x0 xv xm xg xb i = ∑ r : Fin 5000, k3_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay2_apply x0 xv xm xg xb u v j

theorem pay3_at (x0 : Vec Ideal S5000x128 .f32) (xv xm xg xb : Vec Ideal S1x128 .f32) (i : S1x1x128.Idx) :
    k3_pay3 x0 xv xm xg xb i
      = ∑ r : Fin 5000, k3_pay1 x0 xv xm xg xb (ix2 r (i 2 : Fin 128)) * k3_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay3_apply x0 xv xm xg xb u v j

/-! ## Where each block sits in its array -/

/-- The block indices over the grid: tile `t` of the rows for the matrix and for the two outputs, the one block of
    each row of statistics and parameters. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 3) = t.val ∧ win3_5.index t (1 : Fin 3) = 0 ∧ win3_5.index t (2 : Fin 3) = 0
    ∧ win3_6.index t (0 : Fin 3) = t.val ∧ win3_6.index t (1 : Fin 3) = 0 ∧ win3_6.index t (2 : Fin 3) = 0 :=
  (by decide +kernel : ∀ t : Fin grid3.N, _)

/-- Row `r` of tile `t` of the matrix block is row `5000 t + r` of the matrix. -/
theorem tile_read (c : Dev nD) (t : Fin cfg3.N) (r : Fin 5000) (j : Fin 128) (n : Fin 100000)
    (hn : n.val = t.val * 5000 + r.val) :
    (iblk3 V c 0 t : Vec Ideal S5000x128 .f32) (ix2 r j) = toMat (V c main_v45_0) n j := by
  obtain ⟨e0, e1, -⟩ := idx_facts t
  show V c main_v45_0 (((cfg3.win 0).blk t).view.emb (ix2 r j)) = V c main_v45_0 (ix2 n j)
  congr 1
  funext a
  apply Fin.ext
  match a with
  | ⟨0, _⟩ => show win3_0.index t (0 : Fin 2) * 5000 + 1 * r.val = n.val; omega
  | ⟨1, _⟩ => show win3_0.index t (1 : Fin 2) * 128 + 1 * j.val = j.val; omega

/-- The block of the mean row is the row. -/
theorem mean_read (c : Dev nD) (t : Fin cfg3.N) (j : Fin 128) :
    (iblk3 V c 1 t : Vec Ideal S1x128 .f32) (ix2 (0 : Fin 1) j) = toRow (V c main_v49) j := by
  obtain ⟨-, -, e0, e1, -⟩ := idx_facts t
  show V c main_v49 (((cfg3.win 1).blk t).view.emb (ix2 (0 : Fin 1) j)) = V c main_v49 (ix2 (0 : Fin 1) j)
  congr 1
  funext a
  apply Fin.ext
  match a with
  | ⟨0, _⟩ => show win3_1.index t (0 : Fin 2) * 1 + 1 * 0 = 0; omega
  | ⟨1, _⟩ => show win3_1.index t (1 : Fin 2) * 128 + 1 * j.val = j.val; omega

/-- The block of the variance row is the row. -/
theorem var_read (c : Dev nD) (t : Fin cfg3.N) (j : Fin 128) :
    (iblk3 V c 2 t : Vec Ideal S1x128 .f32) (ix2 (0 : Fin 1) j) = toRow (V c main_v55) j := by
  obtain ⟨-, -, -, -, e0, e1, -⟩ := idx_facts t
  show V c main_v55 (((cfg3.win 2).blk t).view.emb (ix2 (0 : Fin 1) j)) = V c main_v55 (ix2 (0 : Fin 1) j)
  congr 1
  funext a
  apply Fin.ext
  match a with
  | ⟨0, _⟩ => show win3_2.index t (0 : Fin 2) * 1 + 1 * 0 = 0; omega
  | ⟨1, _⟩ => show win3_2.index t (1 : Fin 2) * 128 + 1 * j.val = j.val; omega

/-- The block of the scale row is the row. -/
theorem scale_read (c : Dev nD) (t : Fin cfg3.N) (j : Fin 128) :
    (iblk3 V c 3 t : Vec Ideal S1x128 .f32) (ix2 (0 : Fin 1) j) = toRow (V c main_v58) j := by
  obtain ⟨-, -, -, -, -, -, e0, e1, -⟩ := idx_facts t
  show V c main_v58 (((cfg3.win 3).blk t).view.emb (ix2 (0 : Fin 1) j)) = V c main_v58 (ix2 (0 : Fin 1) j)
  congr 1
  funext a
  apply Fin.ext
  match a with
  | ⟨0, _⟩ => show win3_3.index t (0 : Fin 2) * 1 + 1 * 0 = 0; omega
  | ⟨1, _⟩ => show win3_3.index t (1 : Fin 2) * 128 + 1 * j.val = j.val; omega

/-- The block of the shift row is the row. -/
theorem shift_read (c : Dev nD) (t : Fin cfg3.N) (j : Fin 128) :
    (iblk3 V c 4 t : Vec Ideal S1x128 .f32) (ix2 (0 : Fin 1) j) = toRow (V c main_v61) j := by
  obtain ⟨-, -, -, -, -, -, -, -, e0, e1, -⟩ := idx_facts t
  show V c main_v61 (((cfg3.win 4).blk t).view.emb (ix2 (0 : Fin 1) j)) = V c main_v61 (ix2 (0 : Fin 1) j)
  congr 1
  funext a
  apply Fin.ext
  match a with
  | ⟨0, _⟩ => show win3_4.index t (0 : Fin 2) * 1 + 1 * 0 = 0; omega
  | ⟨1, _⟩ => show win3_4.index t (1 : Fin 2) * 128 + 1 * j.val = j.val; omega

/-- Entry `(r, j)` of what the body computes from tile `t`'s blocks is entry `(5000 t + r, j)` of the whole clamped
    matrix. -/
theorem z_block (c : Dev nD) (t : Fin cfg3.N) (r : Fin 5000) (j : Fin 128) (n : Fin 100000) (j' : Fin 128)
    (hn : n.val = t.val * 5000 + r.val) (hj : j'.val = j.val) :
    k3_pay1 (iblk3 V c 0 t) (iblk3 V c 2 t) (iblk3 V c 1 t) (iblk3 V c 3 t) (iblk3 V c 4 t) (ix2 r j) = Z2 V c n j' := by
  rw [show j' = j from Fin.ext hj]
  refine (pay1_apply _ _ _ _ _ r j).trans ?_
  rw [tile_read V c t r j n hn, mean_read V c t j, var_read V c t j, scale_read V c t j, shift_read V c t j]
  rfl

/-- The same for the squares. -/
theorem zsq_block (c : Dev nD) (t : Fin cfg3.N) (r : Fin 5000) (j : Fin 128) (n : Fin 100000) (j' : Fin 128)
    (hn : n.val = t.val * 5000 + r.val) (hj : j'.val = j.val) :
    k3_pay1 (iblk3 V c 0 t) (iblk3 V c 2 t) (iblk3 V c 1 t) (iblk3 V c 3 t) (iblk3 V c 4 t) (ix2 r j)
        * k3_pay1 (iblk3 V c 0 t) (iblk3 V c 2 t) (iblk3 V c 1 t) (iblk3 V c 3 t) (iblk3 V c 4 t) (ix2 r j)
      = Cert.Spec.sq (Z2 V c) n j' := by
  rw [z_block V c t r j n j' hn hj]
  rfl

/-! ## What each tile writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Tile `t` writes back its block of the column sums of the clamped matrix. -/
theorem sum_flushed (c : Dev nD) (t : Fin cfg3.N) :
    (dat3 V c).flushed 5 t
      = ((cfg3.win 5).blk t).view.read (Elt Ideal) (fun i : S20x1x128.Idx => tileSum (Z2 V c) (i 0) (i 2)) := by
  show (cfg3.win 5).cut (grid3.coords t) ((dat3 V c).after 5 t) = _
  rw [after3_5]
  unfold out3_5
  rw [View.canon_unit_zero hz3]
  simp only [View.ld_unit_zero (S := S5000x128) hz2, View.ld_unit_zero (S := S1x128) hz2]
  obtain ⟨-, -, -, -, -, -, -, -, -, -, e0, e1, e2, -⟩ := idx_facts t
  funext y
  refine (pay2_at _ _ _ _ _ _).trans ?_
  have h0 : (y 0).val < 1 := (y 0).isLt
  show _ = ∑ r : Fin 5000, Z2 V c (tileRow _ r) _
  refine Finset.sum_congr rfl fun r _ => z_block V c t r _ _ _ ?_ ?_
  · show (win3_5.index t (0 : Fin 3) * 1 + 1 * (y 0).val) * 5000 + r.val = t.val * 5000 + r.val
    omega
  · show win3_5.index t (2 : Fin 3) * 128 + 1 * (y 2).val = (y 2).val
    omega

/-- Tile `t` writes back its block of the column sums of the clamped matrix's squares. -/
theorem sumsq_flushed (c : Dev nD) (t : Fin cfg3.N) :
    (dat3 V c).flushed 6 t
      = ((cfg3.win 6).blk t).view.read (Elt Ideal) (fun i : S20x1x128.Idx => tileSum (Cert.Spec.sq (Z2 V c)) (i 0) (i 2)) := by
  show (cfg3.win 6).cut (grid3.coords t) ((dat3 V c).after 6 t) = _
  rw [after3_6]
  unfold out3_6
  rw [View.canon_unit_zero hz3]
  simp only [View.ld_unit_zero (S := S5000x128) hz2, View.ld_unit_zero (S := S1x128) hz2]
  obtain ⟨-, -, -, -, -, -, -, -, -, -, -, -, -, e0, e1, e2⟩ := idx_facts t
  funext y
  refine (pay3_at _ _ _ _ _ _).trans ?_
  have h0 : (y 0).val < 1 := (y 0).isLt
  show _ = ∑ r : Fin 5000, Cert.Spec.sq (Z2 V c) (tileRow _ r) _
  refine Finset.sum_congr rfl fun r _ => zsq_block V c t r _ _ _ ?_ ?_
  · show (win3_6.index t (0 : Fin 3) * 1 + 1 * (y 0).val) * 5000 + r.val = t.val * 5000 + r.val
    omega
  · show win3_6.index t (2 : Fin 3) * 128 + 1 * (y 2).val = (y 2).val
    omega

/-! ## The tiles' blocks fill the arrays -/

/-- An index of the first output array is in tile `t`'s block iff each coordinate is in the block's range. -/
theorem mem_blk5 (t : Fin cfg3.N) (i : S20x1x128.Idx) :
    i ∈ ((cfg3.win 5).blk t).view.set ↔ ∀ a : Fin 3, win3_5.index t a * S1x1x128.size a ≤ (i a).val
      ∧ (i a).val < win3_5.index t a * S1x1x128.size a + S1x1x128.size a := by
  show i ∈ ((View.whole main_v62_0).slice (win3_5.rect t)).set ↔ _
  rw [View.set_slice_whole, Rect.mem_set_unit]
  exact Iff.rfl

theorem mem_blk6 (t : Fin cfg3.N) (i : S20x1x128.Idx) :
    i ∈ ((cfg3.win 6).blk t).view.set ↔ ∀ a : Fin 3, win3_6.index t a * S1x1x128.size a ≤ (i a).val
      ∧ (i a).val < win3_6.index t a * S1x1x128.size a + S1x1x128.size a := by
  show i ∈ ((View.whole main_v62_1).slice (win3_6.rect t)).set ↔ _
  rw [View.set_slice_whole, Rect.mem_set_unit]
  exact Iff.rfl

/-- Row `n` of the first output array is tile `n`'s block. -/
theorem cover5 (i : S20x1x128.Idx) : ∃ t : Fin cfg3.N, (cfg3.win 5).flush t = true ∧ i ∈ ((cfg3.win 5).blk t).view.set := by
  have h0 : (i 0).val < 20 := (i 0).isLt
  have h1 : (i 1).val < 1 := (i 1).isLt
  have h2 : (i 2).val < 128 := (i 2).isLt
  have hN : grid3.N = 20 := by decide
  obtain ⟨T, hT⟩ : ∃ T : Fin cfg3.N, T.val = (i 0).val :=
    ⟨⟨(i 0).val, by rw [show cfg3.N = 20 from hN]; exact h0⟩, rfl⟩
  refine ⟨T, flush3_5 T, ?_⟩
  rw [mem_blk5]
  obtain ⟨-, -, -, -, -, -, -, -, -, -, e0, e1, e2, -⟩ := idx_facts T
  intro a
  match a with
  | ⟨0, _⟩ =>
    show win3_5.index T (0 : Fin 3) * 1 ≤ (i 0).val ∧ (i 0).val < win3_5.index T (0 : Fin 3) * 1 + 1
    omega
  | ⟨1, _⟩ =>
    show win3_5.index T (1 : Fin 3) * 1 ≤ (i 1).val ∧ (i 1).val < win3_5.index T (1 : Fin 3) * 1 + 1
    omega
  | ⟨2, _⟩ =>
    show win3_5.index T (2 : Fin 3) * 128 ≤ (i 2).val ∧ (i 2).val < win3_5.index T (2 : Fin 3) * 128 + 128
    omega

/-- Row `n` of the second output array is tile `n`'s block. -/
theorem cover6 (i : S20x1x128.Idx) : ∃ t : Fin cfg3.N, (cfg3.win 6).flush t = true ∧ i ∈ ((cfg3.win 6).blk t).view.set := by
  have h0 : (i 0).val < 20 := (i 0).isLt
  have h1 : (i 1).val < 1 := (i 1).isLt
  have h2 : (i 2).val < 128 := (i 2).isLt
  have hN : grid3.N = 20 := by decide
  obtain ⟨T, hT⟩ : ∃ T : Fin cfg3.N, T.val = (i 0).val :=
    ⟨⟨(i 0).val, by rw [show cfg3.N = 20 from hN]; exact h0⟩, rfl⟩
  refine ⟨T, flush3_6 T, ?_⟩
  rw [mem_blk6]
  obtain ⟨-, -, -, -, -, -, -, -, -, -, -, -, -, e0, e1, e2⟩ := idx_facts T
  intro a
  match a with
  | ⟨0, _⟩ =>
    show win3_6.index T (0 : Fin 3) * 1 ≤ (i 0).val ∧ (i 0).val < win3_6.index T (0 : Fin 3) * 1 + 1
    omega
  | ⟨1, _⟩ =>
    show win3_6.index T (1 : Fin 3) * 1 ≤ (i 1).val ∧ (i 1).val < win3_6.index T (1 : Fin 3) * 1 + 1
    omega
  | ⟨2, _⟩ =>
    show win3_6.index T (2 : Fin 3) * 128 ≤ (i 2).val ∧ (i 2).val < win3_6.index T (2 : Fin 3) * 128 + 128
    omega

/-! ## The two arrays after the 20 tiles -/

/-- The first output array: per tile and column, the sum over the tile's rows of the clamped matrix. -/
theorem sum_eq (c : Dev nD) :
    (dat3 V c).arrAt 5 cfg3.N = fun i : S20x1x128.Idx => tileSum (Z2 V c) (i 0) (i 2) :=
  (dat3 V c).arrAt_eq_of_cover 5 (fun i : S20x1x128.Idx => tileSum (Z2 V c) (i 0) (i 2))
    (fun t _ => sum_flushed V c t) cover5

/-- The second output array: per tile and column, the sum over the tile's rows of the clamped matrix's squares. -/
theorem sumsq_eq (c : Dev nD) :
    (dat3 V c).arrAt 6 cfg3.N = fun i : S20x1x128.Idx => tileSum (Cert.Spec.sq (Z2 V c)) (i 0) (i 2) :=
  (dat3 V c).arrAt_eq_of_cover 6 (fun i : S20x1x128.Idx => tileSum (Cert.Spec.sq (Z2 V c)) (i 0) (i 2))
    (fun t _ => sumsq_flushed V c t) cover6

end Cert.KReg3

end
-- ==== Proof.KReg4.lean ====
/-
  The value of a layer's fourth stage on one core. The stage walks the 100000 nodes as 20 tiles of 5000 rows; row r of
  tile t is node 5000 t + r. After the 20 tiles

  * its first result is the whole matrix normalised, scaled, shifted and clamped at zero TWICE in a row, each time by a
    given row of column means, of column variances, of scales and of shifts: entry (n, j) depends on the input's entry
    (n, j) and on the eight rows at column j, and on nothing else;
  * its second result holds, tile by tile, the tile's share of the pooling per graph: entry (g, d) of tile t is the sum,
    over the tile's 5000 rows, of (one if the row's graph word is g, else zero) times the first result at (row, d).

  First the tile's two stored values at an index, over any contents of the tile's blocks; then each block as the part of
  its array the tile reads; then what a grid point writes back as a block of ONE function of the arrays; then the cover:
  node n is in tile n / 5000, tile t of the pooling is written by point t.
-/
import proofs.«412161_j3753801416792_2_alg».proof.Proof.KIFrameR4
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg4

open Cert.KernelIdeal Cert.KernelIdeal.Gen Cert.Spec Cert.Conv Idealize.ShloMosaic Idealize.ShloMosaic.ValueIdx Idealize.ShloMosaic.TcCoe Idealize.ShloMosaic.Pipeline

/-! ## Words and rows at an index -/

/-- The reciprocal square root of a vector, at an index, is that of the entry there. -/
theorem rsqrt_apply {s : Shape} {φ : FTy} (a : FVec Ideal s φ) (i : s.Idx) : rsqrt a i = Ideal.rsqrt (a i) := rfl

/-- A literal word is the extended real it spells. -/
theorem scalar_ofBits (φ : FTy) (b : BitVec φ.bits) : Scalar.ofBits (F := Ideal) φ b = Ideal.ofBits φ b := rfl

/-- A row of 128 laid along 5000 rows reads its one row. -/
theorem row_at (v : FVec Ideal S1x128 .f32) (r : Fin 5000) (j : Fin 128) :
    broadcastTo S5000x128 v broadcasts_S1x128_S5000x128 (ix2 r j) = v (ix2 (0 : Fin 1) j) :=
  broadcastTo_1b_ab_apply v broadcasts_S1x128_S5000x128 r j

/-- The first normalise-scale-shift-clamp and the second one up to its shift, at a row and a column. -/
theorem pay3_apply (x0 : Vec Ideal S5000x128 .f32) (v2 v7 v13 v17 v23 v28 v34 : Vec Ideal S1x128 .f32) (r : Fin 5000) (j : Fin 128) :
    k4_pay3 x0 v2 v7 v13 v17 v23 v28 v34 (ix2 r j)
      = (max ((x0 (ix2 r j) - v7 (ix2 (0 : Fin 1) j)) * Ideal.rsqrt (v2 (ix2 (0 : Fin 1) j) + cEps) * v13 (ix2 (0 : Fin 1) j)
            + v17 (ix2 (0 : Fin 1) j)) 0 - v28 (ix2 (0 : Fin 1) j))
          * Ideal.rsqrt (v23 (ix2 (0 : Fin 1) j) + cEps) * v34 (ix2 (0 : Fin 1) j) := by
  unfold k4_pay3 cEps
  simp only [shapeCast_self, mulf_apply, addf_apply, subf_apply, maximumf_apply, broadcast_apply, row_at, rsqrt_apply,
    scalar_ofBits, Ideal.ofBits_zero_f32]

/-- The second step's shift and clamp. -/
theorem pay1_apply (v37 : FVec Ideal S5000x128 .f32) (v38 : Vec Ideal S1x128 .f32) (r : Fin 5000) (j : Fin 128) :
    k4_pay1 v37 v38 (ix2 r j) = max (v37 (ix2 r j) + v38 (ix2 (0 : Fin 1) j)) 0 := by
  unfold k4_pay1
  simp only [shapeCast_self, addf_apply, maximumf_apply, broadcast_apply, row_at, scalar_ofBits, Ideal.ofBits_zero_f32]

/-! ## The pooling product -/

/-- At result entry (g, d) and position q of the sum, the left factor is read at row g … -/
theorem lhs_pool_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide),
    dif_pos (show (0 : Fin S64x5000.rank) ∈ dot_S64x5000_S5000x128_S64x128_1_0_0_1_n_n.lhsNonContracting by decide)]
  rfl
/-- … and column q; -/
theorem lhs_pool_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
/-- the right factor at row q … -/
theorem rhs_pool_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
/-- … and column d. -/
theorem rhs_pool_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide),
    dif_pos (show (1 : Fin S5000x128.rank) ∈ dot_S64x5000_S5000x128_S64x128_1_0_0_1_n_n.rhsNonContracting by decide)]
  rfl

/-- A 64×5000 matrix times a 5000×128 matrix into zeros, at graph g and column d: the sum over the 5000 rows. -/
theorem pool_matmul_apply (a : FVec Ideal S64x5000 .bf16) (b : FVec Ideal S5000x128 .bf16) (g : Fin 64) (d : Fin 128) :
    matmul dot_S64x5000_S5000x128_S64x128_1_0_0_1_n_n none a b (constant (F := Ideal) S64x128 .f32 0x00000000#32) (ix2 g d)
      = ∑ r : Fin 5000, a (ix2 g r) * b (ix2 r d) := by
  show FloatOps.matmul dot_S64x5000_S5000x128_S64x128_1_0_0_1_n_n none a b (constant (F := Ideal) S64x128 .f32 0x00000000#32) (ix2 g d) = _
  rw [Ideal.matmul_constant_zero_apply, ← Equiv.sum_comp (contrEquiv1 dot_S64x5000_S5000x128_S64x128_1_0_0_1_n_n 5000 rfl rfl).symm]
  refine Finset.sum_congr rfl fun k _ => ?_
  have hk := contrEquiv1_symm_val dot_S64x5000_S5000x128_S64x128_1_0_0_1_n_n 5000 rfl rfl k
  have el : dot_S64x5000_S5000x128_S64x128_1_0_0_1_n_n.lhsIdx (ix2 g d) ((contrEquiv1 dot_S64x5000_S5000x128_S64x128_1_0_0_1_n_n 5000 rfl rfl).symm k) = ix2 g k := funext fun ax => Fin.ext (by
    match ax with
    | ⟨0, _⟩ => exact lhs_pool_0 _ _
    | ⟨1, _⟩ => exact (lhs_pool_1 _ _).trans hk)
  have er : dot_S64x5000_S5000x128_S64x128_1_0_0_1_n_n.rhsIdx (ix2 g d) ((contrEquiv1 dot_S64x5000_S5000x128_S64x128_1_0_0_1_n_n 5000 rfl rfl).symm k) = ix2 k d := funext fun ax => Fin.ext (by
    match ax with
    | ⟨0, _⟩ => exact (rhs_pool_0 _ _).trans hk
    | ⟨1, _⟩ => exact rhs_pool_1 _ _)
  rw [el, er]

/-- A column of 5000 words laid along 64 columns reads its row's word. -/
theorem col_at (v : IVec S5000x1 32) (r : Fin 5000) (g : Fin 64) :
    broadcastTo S5000x64 v broadcasts_S5000x1_S5000x64 (ix2 r g) = v (ix2 r (0 : Fin 1)) := by
  refine broadcastTo_apply v broadcasts_S5000x1_S5000x64 (ix2 r g) (ix2 r (0 : Fin 1)) fun ax => ?_
  match ax with
  | ⟨0, _⟩ => rfl
  | ⟨1, _⟩ => rfl

/-- A comparison's bit widened to a word and converted: one where the two words are equal, zero elsewhere. -/
theorem oneHot_word (w : BitVec 32) (g : Fin 64) :
    (FloatOps.sitofp (F := Ideal) .f32 ((IntOp.cmpi .eq w (BitVec.ofNat 32 g.val)).setWidth 32) : EReal) = oneHot w g := by
  unfold oneHot
  by_cases h : w = BitVec.ofNat 32 g.val
  · rw [if_pos h, IntOp.cmpi_eq.mpr h]
    show ((((1#1 : BitVec 1).setWidth 32).toInt : ℝ) : EReal) = 1
    rw [show ((1#1 : BitVec 1).setWidth 32).toInt = 1 by decide]
    simp only [Int.cast_one, EReal.coe_one]
  · rw [if_neg h, eq_zero_of_ne_one (fun e => h (IntOp.cmpi_eq.mp e))]
    show ((((0#1 : BitVec 1).setWidth 32).toInt : ℝ) : EReal) = 0
    rw [show ((0#1 : BitVec 1).setWidth 32).toInt = 0 by decide]
    simp only [Int.cast_zero, EReal.coe_zero]

/-- The tile's share of the pooling at graph g and column d: the one-hot matrix of the tile's words times the tile. -/
theorem pay2_apply (v37 : FVec Ideal S5000x128 .f32) (v38 : Vec Ideal S1x128 .f32) (v46 : Vec Ideal S5000x1 .i32)
    (u : Fin 1) (g : Fin 64) (d : Fin 128) :
    k4_pay2 v37 v38 v46 (ix3 u g d)
      = ∑ r : Fin 5000, oneHot (v46 (ix2 r (0 : Fin 1))) g * k4_pay1 v37 v38 (ix2 r d) := by
  unfold k4_pay2
  simp only [shapeCast_self]
  refine (shapeCast_ab_1ab_apply _ shapeCasts_S64x128_S1x64x128 u g d).trans ?_
  refine (pool_matmul_apply _ _ g d).trans ?_
  refine Finset.sum_congr rfl fun r _ => ?_
  refine congrArg₂ (fun a b : EReal => a * b) ?_ rfl
  refine (transpose_ix2_apply _ transposes_S5000x64_p1_0_S64x5000 g r).trans ?_
  show FloatOps.sitofp (F := Ideal) .f32 ((IntOp.cmpi .eq (broadcastTo S5000x64 v46 broadcasts_S5000x1_S5000x64 (ix2 r g))
    (iota .tc S5000x64 32 [1] iota_S5000x64_d1_w32 (ix2 r g))).setWidth 32) = _
  rw [col_at, iota_single_apply]
  exact oneHot_word _ g

/-! ## The arrays as the stage finds them -/

variable (V : (c : Dev nD) → (b : Ref sig .tc) → Buf (Elt Ideal) ((c : Thread nD τ).loc b))

/-- The stage's first result: the input matrix through the two normalise-scale-shift-clamp steps. -/
def H (c : Dev nD) : Mat 100000 128 :=
  bnRelu (bnRelu (toMat (V c main_v45_0)) (toRow (V c main_v49)) (toRow (V c main_v55)) (toRow (V c main_v58)) (toRow (V c main_v61)))
    (toRow (V c main_v66)) (toRow (V c main_v72)) (toRow (V c main_v75)) (toRow (V c main_v78))

/-- A grid point as a tile number: the grid has 20 points. -/
abbrev tileOf (t : Fin cfg4.N) : Fin 20 := ⟨t.val, Nat.lt_of_lt_of_eq t.isLt (by decide : grid4.N = 20)⟩

/-! ## What a tile stores, from what its blocks hold -/

/-- Row r, column j of what tile n stores into the first result is the twice-stepped matrix at node 5000 n + r. -/
theorem stored_of_reads (c : Dev nD) (n : Fin 20)
    (x0 : Vec Ideal S5000x128 .f32) (x1 x2 x3 x4 x5 x6 x7 x8 : Vec Ideal S1x128 .f32)
    (h0 : ∀ (r : Fin 5000) (j : Fin 128), x0 (ix2 r j) = toMat (V c main_v45_0) (tileRow n r) j)
    (h1 : ∀ j : Fin 128, x1 (ix2 (0 : Fin 1) j) = toRow (V c main_v49) j)
    (h2 : ∀ j : Fin 128, x2 (ix2 (0 : Fin 1) j) = toRow (V c main_v55) j)
    (h3 : ∀ j : Fin 128, x3 (ix2 (0 : Fin 1) j) = toRow (V c main_v58) j)
    (h4 : ∀ j : Fin 128, x4 (ix2 (0 : Fin 1) j) = toRow (V c main_v61) j)
    (h5 : ∀ j : Fin 128, x5 (ix2 (0 : Fin 1) j) = toRow (V c main_v66) j)
    (h6 : ∀ j : Fin 128, x6 (ix2 (0 : Fin 1) j) = toRow (V c main_v72) j)
    (h7 : ∀ j : Fin 128, x7 (ix2 (0 : Fin 1) j) = toRow (V c main_v75) j)
    (h8 : ∀ j : Fin 128, x8 (ix2 (0 : Fin 1) j) = toRow (V c main_v78) j)
    (r : Fin 5000) (j : Fin 128) :
    k4_pay1 (k4_pay3 x0 x2 x1 x3 x4 x6 x5 x7) x8 (ix2 r j) = H V c (tileRow n r) j := by
  rw [pay1_apply, pay3_apply, h0, h1, h2, h3, h4, h5, h6, h7, h8]
  rfl

/-- Entry (g, d) of what tile n stores into the second result is the tile's share of the pooling. -/
theorem pooled_of_reads (c : Dev nD) (n : Fin 20)
    (x0 : Vec Ideal S5000x128 .f32) (x1 x2 x3 x4 x5 x6 x7 x8 : Vec Ideal S1x128 .f32) (x9 : Vec Ideal S5000x1 .i32)
    (h0 : ∀ (r : Fin 5000) (j : Fin 128), x0 (ix2 r j) = toMat (V c main_v45_0) (tileRow n r) j)
    (h1 : ∀ j : Fin 128, x1 (ix2 (0 : Fin 1) j) = toRow (V c main_v49) j)
    (h2 : ∀ j : Fin 128, x2 (ix2 (0 : Fin 1) j) = toRow (V c main_v55) j)
    (h3 : ∀ j : Fin 128, x3 (ix2 (0 : Fin 1) j) = toRow (V c main_v58) j)
    (h4 : ∀ j : Fin 128, x4 (ix2 (0 : Fin 1) j) = toRow (V c main_v61) j)
    (h5 : ∀ j : Fin 128, x5 (ix2 (0 : Fin 1) j) = toRow (V c main_v66) j)
    (h6 : ∀ j : Fin 128, x6 (ix2 (0 : Fin 1) j) = toRow (V c main_v72) j)
    (h7 : ∀ j : Fin 128, x7 (ix2 (0 : Fin 1) j) = toRow (V c main_v75) j)
    (h8 : ∀ j : Fin 128, x8 (ix2 (0 : Fin 1) j) = toRow (V c main_v78) j)
    (h9 : ∀ r : Fin 5000, x9 (ix2 r (0 : Fin 1)) = toCol (V c main_v0) (tileRow n r))
    (u : Fin 1) (g : Fin 64) (d : Fin 128) :
    k4_pay2 (k4_pay3 x0 x2 x1 x3 x4 x6 x5 x7) x8 x9 (ix3 u g d) = poolTile (H V c) (toCol (V c main_v0)) n g d := by
  rw [pay2_apply]
  show _ = ∑ r : Fin 5000, oneHot (toCol (V c main_v0) (tileRow n r)) g * H V c (tileRow n r) d
  refine Finset.sum_congr rfl fun r _ => ?_
  rw [h9, stored_of_reads V c n x0 x1 x2 x3 x4 x5 x6 x7 x8 h0 h1 h2 h3 h4 h5 h6 h7 h8 r d]

/-! ## The printed index maps, decided over the 20 points -/

/-- The zero offsets of a whole-block access, spelt as a function. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The matrix's block is tile t's rows. -/
theorem index_matrix : ∀ t : Fin cfg4.N, win4_0.index t (0 : Fin 2) = t.val ∧ win4_0.index t (1 : Fin 2) = 0 :=
  (by decide +kernel : ∀ t : Fin grid4.N, _)
/-- The block of the first step's column means is the whole row at every point. -/
theorem index_mean_a : ∀ t : Fin cfg4.N, win4_1.index t (0 : Fin 2) = 0 ∧ win4_1.index t (1 : Fin 2) = 0 :=
  (by decide +kernel : ∀ t : Fin grid4.N, _)
/-- The block of the first step's column variances is the whole row at every point. -/
theorem index_var_a : ∀ t : Fin cfg4.N, win4_2.index t (0 : Fin 2) = 0 ∧ win4_2.index t (1 : Fin 2) = 0 :=
  (by decide +kernel : ∀ t : Fin grid4.N, _)
/-- The block of the first step's scales is the whole row at every point. -/
theorem index_scale_a : ∀ t : Fin cfg4.N, win4_3.index t (0 : Fin 2) = 0 ∧ win4_3.index t (1 : Fin 2) = 0 :=
  (by decide +kernel : ∀ t : Fin grid4.N, _)
/-- The block of the first step's shifts is the whole row at every point. -/
theorem index_shift_a : ∀ t : Fin cfg4.N, win4_4.index t (0 : Fin 2) = 0 ∧ win4_4.index t (1 : Fin 2) = 0 :=
  (by decide +kernel : ∀ t : Fin grid4.N, _)
/-- The block of the second step's column means is the whole row at every point. -/
theorem index_mean_b : ∀ t : Fin cfg4.N, win4_5.index t (0 : Fin 2) = 0 ∧ win4_5.index t (1 : Fin 2) = 0 :=
  (by decide +kernel : ∀ t : Fin grid4.N, _)
/-- The block of the second step's column variances is the whole row at every point. -/
theorem index_var_b : ∀ t : Fin cfg4.N, win4_6.index t (0 : Fin 2) = 0 ∧ win4_6.index t (1 : Fin 2) = 0 :=
  (by decide +kernel : ∀ t : Fin grid4.N, _)
/-- The block of the second step's scales is the whole row at every point. -/
theorem index_scale_b : ∀ t : Fin cfg4.N, win4_7.index t (0 : Fin 2) = 0 ∧ win4_7.index t (1 : Fin 2) = 0 :=
  (by decide +kernel : ∀ t : Fin grid4.N, _)
/-- The block of the second step's shifts is the whole row at every point. -/
theorem index_shift_b : ∀ t : Fin cfg4.N, win4_8.index t (0 : Fin 2) = 0 ∧ win4_8.index t (1 : Fin 2) = 0 :=
  (by decide +kernel : ∀ t : Fin grid4.N, _)
/-- The graph words' block is tile t's rows. -/
theorem index_words : ∀ t : Fin cfg4.N, win4_9.index t (0 : Fin 2) = t.val ∧ win4_9.index t (1 : Fin 2) = 0 :=
  (by decide +kernel : ∀ t : Fin grid4.N, _)
/-- The first result's block is tile t's rows. -/
theorem index_stored : ∀ t : Fin cfg4.N, win4_10.index t (0 : Fin 2) = t.val ∧ win4_10.index t (1 : Fin 2) = 0 :=
  (by decide +kernel : ∀ t : Fin grid4.N, _)
/-- The second result's block is its tile t. -/
theorem index_pooled : ∀ t : Fin cfg4.N, win4_11.index t (0 : Fin 3) = t.val ∧ win4_11.index t (1 : Fin 3) = 0 ∧ win4_11.index t (2 : Fin 3) = 0 :=
  (by decide +kernel : ∀ t : Fin grid4.N, _)

/-! ## Each block as the part of its array the tile reads -/

/-- Row r of the matrix's block at point t is node 5000 t + r of the array. -/
theorem read_matrix (c : Dev nD) (t : Fin cfg4.N) (r : Fin 5000) (j : Fin 128) :
    (iblk4 V c 0 t : Vec Ideal S5000x128 .f32) (ix2 r j) = toMat (V c main_v45_0) (tileRow (tileOf t) r) j := by
  obtain ⟨e0, e1⟩ := index_matrix t
  show _ = V c main_v45_0 (ix2 (tileRow (tileOf t) r) j)
  unfold iblk4
  rw [View.read_apply]
  show V c main_v45_0 _ = V c main_v45_0 _
  congr 1
  funext a
  apply Fin.ext
  match a with
  | ⟨0, _⟩ => show win4_0.index t (0 : Fin 2) * 5000 + 1 * r.val = t.val * 5000 + r.val; rw [e0]; omega
  | ⟨1, _⟩ => show win4_0.index t (1 : Fin 2) * 128 + 1 * j.val = j.val; rw [e1]; omega

/-- The block of the first step's column means reads the array's one row. -/
theorem read_mean_a (c : Dev nD) (t : Fin cfg4.N) (j : Fin 128) :
    (iblk4 V c 1 t : Vec Ideal S1x128 .f32) (ix2 (0 : Fin 1) j) = toRow (V c main_v49) j := by
  obtain ⟨e0, e1⟩ := index_mean_a t
  show _ = V c main_v49 (ix2 (0 : Fin 1) j)
  unfold iblk4
  rw [View.read_apply]
  show V c main_v49 _ = V c main_v49 _
  congr 1
  funext a
  apply Fin.ext
  match a with
  | ⟨0, _⟩ => show win4_1.index t (0 : Fin 2) * 1 + 1 * 0 = 0; rw [e0]
  | ⟨1, _⟩ => show win4_1.index t (1 : Fin 2) * 128 + 1 * j.val = j.val; rw [e1]; omega

/-- The block of the first step's column variances reads the array's one row. -/
theorem read_var_a (c : Dev nD) (t : Fin cfg4.N) (j : Fin 128) :
    (iblk4 V c 2 t : Vec Ideal S1x128 .f32) (ix2 (0 : Fin 1) j) = toRow (V c main_v55) j := by
  obtain ⟨e0, e1⟩ := index_var_a t
  show _ = V c main_v55 (ix2 (0 : Fin 1) j)
  unfold iblk4
  rw [View.read_apply]
  show V c main_v55 _ = V c main_v55 _
  congr 1
  funext a
  apply Fin.ext
  match a with
  | ⟨0, _⟩ => show win4_2.index t (0 : Fin 2) * 1 + 1 * 0 = 0; rw [e0]
  | ⟨1, _⟩ => show win4_2.index t (1 : Fin 2) * 128 + 1 * j.val = j.val; rw [e1]; omega

/-- The block of the first step's scales reads the array's one row. -/
theorem read_scale_a (c : Dev nD) (t : Fin cfg4.N) (j : Fin 128) :
    (iblk4 V c 3 t : Vec Ideal S1x128 .f32) (ix2 (0 : Fin 1) j) = toRow (V c main_v58) j := by
  obtain ⟨e0, e1⟩ := index_scale_a t
  show _ = V c main_v58 (ix2 (0 : Fin 1) j)
  unfold iblk4
  rw [View.read_apply]
  show V c main_v58 _ = V c main_v58 _
  congr 1
  funext a
  apply Fin.ext
  match a with
  | ⟨0, _⟩ => show win4_3.index t (0 : Fin 2) * 1 + 1 * 0 = 0; rw [e0]
  | ⟨1, _⟩ => show win4_3.index t (1 : Fin 2) * 128 + 1 * j.val = j.val; rw [e1]; omega

/-- The block of the first step's shifts reads the array's one row. -/
theorem read_shift_a (c : Dev nD) (t : Fin cfg4.N) (j : Fin 128) :
    (iblk4 V c 4 t : Vec Ideal S1x128 .f32) (ix2 (0 : Fin 1) j) = toRow (V c main_v61) j := by
  obtain ⟨e0, e1⟩ := index_shift_a t
  show _ = V c main_v61 (ix2 (0 : Fin 1) j)
  unfold iblk4
  rw [View.read_apply]
  show V c main_v61 _ = V c main_v61 _
  congr 1
  funext a
  apply Fin.ext
  match a with
  | ⟨0, _⟩ => show win4_4.index t (0 : Fin 2) * 1 + 1 * 0 = 0; rw [e0]
  | ⟨1, _⟩ => show win4_4.index t (1 : Fin 2) * 128 + 1 * j.val = j.val; rw [e1]; omega

/-- The block of the second step's column means reads the array's one row. -/
theorem read_mean_b (c : Dev nD) (t : Fin cfg4.N) (j : Fin 128) :
    (iblk4 V c 5 t : Vec Ideal S1x128 .f32) (ix2 (0 : Fin 1) j) = toRow (V c main_v66) j := by
  obtain ⟨e0, e1⟩ := index_mean_b t
  show _ = V c main_v66 (ix2 (0 : Fin 1) j)
  unfold iblk4
  rw [View.read_apply]
  show V c main_v66 _ = V c main_v66 _
  congr 1
  funext a
  apply Fin.ext
  match a with
  | ⟨0, _⟩ => show win4_5.index t (0 : Fin 2) * 1 + 1 * 0 = 0; rw [e0]
  | ⟨1, _⟩ => show win4_5.index t (1 : Fin 2) * 128 + 1 * j.val = j.val; rw [e1]; omega

/-- The block of the second step's column variances reads the array's one row. -/
theorem read_var_b (c : Dev nD) (t : Fin cfg4.N) (j : Fin 128) :
    (iblk4 V c 6 t : Vec Ideal S1x128 .f32) (ix2 (0 : Fin 1) j) = toRow (V c main_v72) j := by
  obtain ⟨e0, e1⟩ := index_var_b t
  show _ = V c main_v72 (ix2 (0 : Fin 1) j)
  unfold iblk4
  rw [View.read_apply]
  show V c main_v72 _ = V c main_v72 _
  congr 1
  funext a
  apply Fin.ext
  match a with
  | ⟨0, _⟩ => show win4_6.index t (0 : Fin 2) * 1 + 1 * 0 = 0; rw [e0]
  | ⟨1, _⟩ => show win4_6.index t (1 : Fin 2) * 128 + 1 * j.val = j.val; rw [e1]; omega

/-- The block of the second step's scales reads the array's one row. -/
theorem read_scale_b (c : Dev nD) (t : Fin cfg4.N) (j : Fin 128) :
    (iblk4 V c 7 t : Vec Ideal S1x128 .f32) (ix2 (0 : Fin 1) j) = toRow (V c main_v75) j := by
  obtain ⟨e0, e1⟩ := index_scale_b t
  show _ = V c main_v75 (ix2 (0 : Fin 1) j)
  unfold iblk4
  rw [View.read_apply]
  show V c main_v75 _ = V c main_v75 _
  congr 1
  funext a
  apply Fin.ext
  match a with
  | ⟨0, _⟩ => show win4_7.index t (0 : Fin 2) * 1 + 1 * 0 = 0; rw [e0]
  | ⟨1, _⟩ => show win4_7.index t (1 : Fin 2) * 128 + 1 * j.val = j.val; rw [e1]; omega

/-- The block of the second step's shifts reads the array's one row. -/
theorem read_shift_b (c : Dev nD) (t : Fin cfg4.N) (j : Fin 128) :
    (iblk4 V c 8 t : Vec Ideal S1x128 .f32) (ix2 (0 : Fin 1) j) = toRow (V c main_v78) j := by
  obtain ⟨e0, e1⟩ := index_shift_b t
  show _ = V c main_v78 (ix2 (0 : Fin 1) j)
  unfold iblk4
  rw [View.read_apply]
  show V c main_v78 _ = V c main_v78 _
  congr 1
  funext a
  apply Fin.ext
  match a with
  | ⟨0, _⟩ => show win4_8.index t (0 : Fin 2) * 1 + 1 * 0 = 0; rw [e0]
  | ⟨1, _⟩ => show win4_8.index t (1 : Fin 2) * 128 + 1 * j.val = j.val; rw [e1]; omega

/-- Row r of the graph words' block at point t is node 5000 t + r's word. -/
theorem read_words (c : Dev nD) (t : Fin cfg4.N) (r : Fin 5000) :
    (iblk4 V c 9 t : Vec Ideal S5000x1 .i32) (ix2 r (0 : Fin 1)) = toCol (V c main_v0) (tileRow (tileOf t) r) := by
  obtain ⟨e0, e1⟩ := index_words t
  show _ = V c main_v0 (ix2 (tileRow (tileOf t) r) (0 : Fin 1))
  unfold iblk4
  rw [View.read_apply]
  show V c main_v0 _ = V c main_v0 _
  congr 1
  funext a
  apply Fin.ext
  match a with
  | ⟨0, _⟩ => show win4_9.index t (0 : Fin 2) * 5000 + 1 * r.val = t.val * 5000 + r.val; rw [e0]; omega
  | ⟨1, _⟩ => show win4_9.index t (1 : Fin 2) * 1 + 1 * 0 = 0; rw [e1]

/-! ## What a grid point writes back: a block of one function of the arrays -/

/-- Point t writes back, into the first result, tile t's rows of the twice-stepped matrix. -/
theorem flushed_stored (c : Dev nD) (t : Fin cfg4.N) :
    (dat4 V c).flushed 10 t = ((cfg4.win 10).blk t).view.read (Elt Ideal) (ofMat (H V c)) := by
  obtain ⟨q0, q1⟩ := index_stored t
  show (cfg4.win 10).cut (grid4.coords t) ((dat4 V c).after 10 t) = _
  rw [after4_10]
  unfold out4_10
  rw [View.canon_unit_zero zero2]
  simp only [View.ld_unit_zero (S := S5000x128) zero2, View.ld_unit_zero (S := S1x128) zero2]
  funext y
  have hy0 : (y 0).val < 5000 := (y 0).isLt
  have hy1 : (y 1).val < 128 := (y 1).isLt
  have hx : (cfg4.win 10).xinj (grid4.coords t) y = ix2 (⟨(y 0).val, hy0⟩ : Fin 5000) (⟨(y 1).val, hy1⟩ : Fin 128) :=
    funext fun a => by match a with | ⟨0, _⟩ => rfl | ⟨1, _⟩ => rfl
  show k4_pay1 _ _ ((cfg4.win 10).xinj (grid4.coords t) y) = _
  rw [hx]
  refine (stored_of_reads V c (tileOf t) (iblk4 V c 0 t) (iblk4 V c 1 t) (iblk4 V c 2 t) (iblk4 V c 3 t) (iblk4 V c 4 t) (iblk4 V c 5 t) (iblk4 V c 6 t) (iblk4 V c 7 t) (iblk4 V c 8 t)
    (read_matrix V c t) (read_mean_a V c t) (read_var_a V c t) (read_scale_a V c t) (read_shift_a V c t) (read_mean_b V c t) (read_var_b V c t) (read_scale_b V c t) (read_shift_b V c t) ⟨(y 0).val, hy0⟩ ⟨(y 1).val, hy1⟩).trans ?_
  have e0 : (((cfg4.win 10).blk t).view.emb y 0 : Fin 100000) = tileRow (tileOf t) ⟨(y 0).val, hy0⟩ := Fin.ext (by
    show win4_10.index t (0 : Fin 2) * 5000 + 1 * (y 0).val = t.val * 5000 + (y 0).val; rw [q0]; omega)
  have e1 : (((cfg4.win 10).blk t).view.emb y 1 : Fin 128) = ⟨(y 1).val, hy1⟩ := Fin.ext (by
    show win4_10.index t (1 : Fin 2) * 128 + 1 * (y 1).val = (y 1).val; rw [q1]; omega)
  show _ = H V c (((cfg4.win 10).blk t).view.emb y 0) (((cfg4.win 10).blk t).view.emb y 1)
  exact (congrArg₂ (H V c) e0 e1).symm

/-- Point t writes back, into the second result, tile t's share of the pooling. -/
theorem flushed_pooled (c : Dev nD) (t : Fin cfg4.N) :
    (dat4 V c).flushed 11 t
      = ((cfg4.win 11).blk t).view.read (Elt Ideal) (fun i => poolTile (H V c) (toCol (V c main_v0)) (i 0) (i 1) (i 2)) := by
  obtain ⟨q0, q1, q2⟩ := index_pooled t
  show (cfg4.win 11).cut (grid4.coords t) ((dat4 V c).after 11 t) = _
  rw [after4_11]
  unfold out4_11
  rw [View.canon_unit_zero zero3]
  simp only [View.ld_unit_zero (S := S5000x128) zero2, View.ld_unit_zero (S := S1x128) zero2, View.ld_unit_zero (S := S5000x1) zero2]
  funext y
  have hy0 : (y 0).val < 1 := (y 0).isLt
  have hy1 : (y 1).val < 64 := (y 1).isLt
  have hy2 : (y 2).val < 128 := (y 2).isLt
  have hx : (cfg4.win 11).xinj (grid4.coords t) y
      = ix3 (⟨(y 0).val, hy0⟩ : Fin 1) (⟨(y 1).val, hy1⟩ : Fin 64) (⟨(y 2).val, hy2⟩ : Fin 128) :=
    funext fun a => by match a with | ⟨0, _⟩ => rfl | ⟨1, _⟩ => rfl | ⟨2, _⟩ => rfl
  show k4_pay2 _ _ _ ((cfg4.win 11).xinj (grid4.coords t) y) = _
  rw [hx]
  refine (pooled_of_reads V c (tileOf t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
    (read_matrix V c t) (read_mean_a V c t) (read_var_a V c t) (read_scale_a V c t) (read_shift_a V c t) (read_mean_b V c t) (read_var_b V c t) (read_scale_b V c t) (read_shift_b V c t) (read_words V c t) ⟨(y 0).val, hy0⟩ ⟨(y 1).val, hy1⟩ ⟨(y 2).val, hy2⟩).trans ?_
  have e0 : (((cfg4.win 11).blk t).view.emb y 0 : Fin 20) = tileOf t := Fin.ext (by
    show win4_11.index t (0 : Fin 3) * 1 + 1 * (y 0).val = t.val; rw [q0]; omega)
  have e1 : (((cfg4.win 11).blk t).view.emb y 1 : Fin 64) = ⟨(y 1).val, hy1⟩ := Fin.ext (by
    show win4_11.index t (1 : Fin 3) * 64 + 1 * (y 1).val = (y 1).val; rw [q1]; omega)
  have e2 : (((cfg4.win 11).blk t).view.emb y 2 : Fin 128) = ⟨(y 2).val, hy2⟩ := Fin.ext (by
    show win4_11.index t (2 : Fin 3) * 128 + 1 * (y 2).val = (y 2).val; rw [q2]; omega)
  show _ = poolTile (H V c) (toCol (V c main_v0)) (((cfg4.win 11).blk t).view.emb y 0) (((cfg4.win 11).blk t).view.emb y 1)
    (((cfg4.win 11).blk t).view.emb y 2)
  exact (congr (congr (congrArg (poolTile (H V c) (toCol (V c main_v0))) e0) e1) e2).symm

/-! ## The cover: every index is in some point's block -/

/-- An index of the first result is in point t's block iff each coordinate is in the block's range on its axis. -/
theorem mem_blk_stored (t : Fin cfg4.N) (i : S100000x128.Idx) :
    i ∈ ((cfg4.win 10).blk t).view.set ↔ ∀ a : Fin 2, win4_10.index t a * S5000x128.size a ≤ (i a).val
      ∧ (i a).val < win4_10.index t a * S5000x128.size a + S5000x128.size a := by
  show i ∈ ((View.whole main_v79_0).slice (win4_10.rect t)).set ↔ _
  rw [View.set_slice_whole, Rect.mem_set_unit]
  exact Iff.rfl

/-- Node n is in tile n / 5000. -/
theorem cover_stored (i : S100000x128.Idx) :
    ∃ t : Fin cfg4.N, (cfg4.win 10).flush t = true ∧ i ∈ ((cfg4.win 10).blk t).view.set := by
  have h0 : (i 0).val < 100000 := (i 0).isLt
  have h1 : (i 1).val < 128 := (i 1).isLt
  obtain ⟨t, ht⟩ : ∃ t : Fin cfg4.N, t.val = (i 0).val / 5000 :=
    ⟨⟨(i 0).val / 5000, by rw [show cfg4.N = 20 from (by decide : grid4.N = 20)]; omega⟩, rfl⟩
  obtain ⟨q0, q1⟩ := index_stored t
  refine ⟨t, flush4_10 t, ?_⟩
  rw [mem_blk_stored]
  intro a
  match a with
  | ⟨0, _⟩ =>
    show win4_10.index t (0 : Fin 2) * 5000 ≤ (i 0).val ∧ (i 0).val < win4_10.index t (0 : Fin 2) * 5000 + 5000
    rw [q0, ht]; omega
  | ⟨1, _⟩ =>
    show win4_10.index t (1 : Fin 2) * 128 ≤ (i 1).val ∧ (i 1).val < win4_10.index t (1 : Fin 2) * 128 + 128
    rw [q1]; omega

/-- An index of the second result is in point t's block iff each coordinate is in the block's range on its axis. -/
theorem mem_blk_pooled (t : Fin cfg4.N) (i : S20x64x128.Idx) :
    i ∈ ((cfg4.win 11).blk t).view.set ↔ ∀ a : Fin 3, win4_11.index t a * S1x64x128.size a ≤ (i a).val
      ∧ (i a).val < win4_11.index t a * S1x64x128.size a + S1x64x128.size a := by
  show i ∈ ((View.whole main_v79_1).slice (win4_11.rect t)).set ↔ _
  rw [View.set_slice_whole, Rect.mem_set_unit]
  exact Iff.rfl

/-- Tile t of the pooling is point t's block. -/
theorem cover_pooled (i : S20x64x128.Idx) :
    ∃ t : Fin cfg4.N, (cfg4.win 11).flush t = true ∧ i ∈ ((cfg4.win 11).blk t).view.set := by
  have h0 : (i 0).val < 20 := (i 0).isLt
  have h1 : (i 1).val < 64 := (i 1).isLt
  have h2 : (i 2).val < 128 := (i 2).isLt
  obtain ⟨t, ht⟩ : ∃ t : Fin cfg4.N, t.val = (i 0).val :=
    ⟨⟨(i 0).val, by rw [show cfg4.N = 20 from (by decide : grid4.N = 20)]; exact h0⟩, rfl⟩
  obtain ⟨q0, q1, q2⟩ := index_pooled t
  refine ⟨t, flush4_11 t, ?_⟩
  rw [mem_blk_pooled]
  intro a
  match a with
  | ⟨0, _⟩ =>
    show win4_11.index t (0 : Fin 3) * 1 ≤ (i 0).val ∧ (i 0).val < win4_11.index t (0 : Fin 3) * 1 + 1
    rw [q0, ht]; omega
  | ⟨1, _⟩ =>
    show win4_11.index t (1 : Fin 3) * 64 ≤ (i 1).val ∧ (i 1).val < win4_11.index t (1 : Fin 3) * 64 + 64
    rw [q1]; omega
  | ⟨2, _⟩ =>
    show win4_11.index t (2 : Fin 3) * 128 ≤ (i 2).val ∧ (i 2).val < win4_11.index t (2 : Fin 3) * 128 + 128
    rw [q2]; omega

/-! ## The two results after the 20 points -/

/-- THE FIRST RESULT: the twice-stepped matrix, whole. -/
theorem out_eq (c : Dev nD) : (dat4 V c).arrAt 10 cfg4.N = ofMat (H V c) :=
  (dat4 V c).arrAt_eq_of_cover 10 (ofMat (H V c)) (fun t _ => flushed_stored V c t) cover_stored

/-- THE SECOND RESULT: tile by tile, the tile's share of the pooling of the first result. -/
theorem pool_eq (c : Dev nD) :
    (dat4 V c).arrAt 11 cfg4.N = fun i => poolTile (H V c) (toCol (V c main_v0)) (i 0) (i 1) (i 2) :=
  (dat4 V c).arrAt_eq_of_cover 11 (fun i => poolTile (H V c) (toCol (V c main_v0)) (i 0) (i 1) (i 2))
    (fun t _ => flushed_pooled V c t) cover_pooled

end Cert.KReg4

end
-- ==== Proof.KReg0.lean ====
/-
  Region 0, the pooling kernel: the value of its output array after the 20 grid points, as one function of the two
  input arrays as the region finds them. A point works on one tile of 5000 rows: it builds the one-hot matrix of the
  tile's graph ids (row r, column g holds 1 when row r's id word is the word of g, else 0), transposes it, and
  multiplies it into the tile's features from a zero accumulator, so that entry (g, d) of the point's 64 × 128 block is
  the sum over the tile's rows of one-hot(r, g) * feature(r, d). The blocks of the 20 points tile the output array.
-/
import proofs.«412161_j3753801416792_2_alg».proof.Proof.KIFrameR0
import proofs.«412161_j3753801416792_2_alg».proof.Proof.Conv
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StableHlo.Predicate

set_option maxRecDepth 16384

noncomputable section

namespace Cert.KReg0

open Cert.KernelIdeal Cert.KernelIdeal.Gen Cert.Spec Cert.Conv Idealize.ShloMosaic Idealize.ShloMosaic.ValueIdx Idealize.ShloMosaic.TcCoe Idealize.ShloMosaic.Pipeline

variable (V : (c : Dev nD) → (b : Ref sig .tc) → Buf (Elt Ideal) ((c : Thread nD τ).loc b))

/-! ## The payload at an index -/

/-- A comparison bit, widened to a word and converted as a signed integer, is the one-hot entry: 1 when the id word
    is the word of the graph number, else 0. -/
theorem sitofp_extui_cmpi_eq (w : BitVec 32) (g : Fin 64) :
    (FloatOps.sitofp (F := Ideal) .f32 ((IntOp.cmpi .eq w (BitVec.ofNat 32 g.val)).setWidth 32) : EReal) = oneHot w g := by
  unfold oneHot
  by_cases h : w = BitVec.ofNat 32 g.val
  · rw [if_pos h, StableHlo.Predicate.cmpi_eq_iff.mpr h]
    show (((((1#1 : BitVec 1).setWidth 32).toInt : ℝ)) : EReal) = 1
    rw [show ((1#1 : BitVec 1).setWidth 32).toInt = 1 from by decide]
    simp
  · rw [if_neg h, eq_zero_of_ne_one (fun e => h (StableHlo.Predicate.cmpi_eq_iff.mp e))]
    show (((((0#1 : BitVec 1).setWidth 32).toInt : ℝ)) : EReal) = 0
    rw [show ((0#1 : BitVec 1).setWidth 32).toInt = 0 from by decide]
    simp

/-- The product's left operand is read at the output's row … -/
theorem matmul_lhs_row (j : S64x128.Idx) (k : dot_S64x5000_S5000x128_S64x128_1_0_0_1_n_n.contr.Idx) :
    (dot_S64x5000_S5000x128_S64x128_1_0_0_1_n_n.lhsIdx j k 0).val = (j 0).val := by
  simp [DotDims.lhsIdx, dot_S64x5000_S5000x128_S64x128_1_0_0_1_n_n]; rfl
/-- … and at the contraction position; -/
theorem matmul_lhs_contr (j : S64x128.Idx) (k : dot_S64x5000_S5000x128_S64x128_1_0_0_1_n_n.contr.Idx) :
    (dot_S64x5000_S5000x128_S64x128_1_0_0_1_n_n.lhsIdx j k 1).val = (k ⟨0, by decide⟩).val :=
  dot_S64x5000_S5000x128_S64x128_1_0_0_1_n_n.lhsIdx_val_of_single rfl j k
/-- the right operand at the contraction position … -/
theorem matmul_rhs_contr (j : S64x128.Idx) (k : dot_S64x5000_S5000x128_S64x128_1_0_0_1_n_n.contr.Idx) :
    (dot_S64x5000_S5000x128_S64x128_1_0_0_1_n_n.rhsIdx j k 0).val = (k ⟨0, by decide⟩).val :=
  dot_S64x5000_S5000x128_S64x128_1_0_0_1_n_n.rhsIdx_val_of_single rfl j k
/-- … and at the output's column. -/
theorem matmul_rhs_col (j : S64x128.Idx) (k : dot_S64x5000_S5000x128_S64x128_1_0_0_1_n_n.contr.Idx) :
    (dot_S64x5000_S5000x128_S64x128_1_0_0_1_n_n.rhsIdx j k 1).val = (j 1).val := by
  simp [DotDims.rhsIdx, dot_S64x5000_S5000x128_S64x128_1_0_0_1_n_n]; rfl

/-- At output entry (g, d) and contraction position r the left operand is read at (g, r), -/
theorem matmul_lhs_idx (g : Fin 64) (d : Fin 128) (r : Fin 5000) :
    dot_S64x5000_S5000x128_S64x128_1_0_0_1_n_n.lhsIdx (ix2 g d) ((contrEquiv1 dot_S64x5000_S5000x128_S64x128_1_0_0_1_n_n 5000 rfl rfl).symm r) = ix2 g r := by
  funext a; apply Fin.ext
  match a with
  | ⟨0, _⟩ => exact matmul_lhs_row _ _
  | ⟨1, _⟩ => exact (matmul_lhs_contr _ _).trans (contrEquiv1_symm_val dot_S64x5000_S5000x128_S64x128_1_0_0_1_n_n 5000 rfl rfl r)
/-- and the right operand at (r, d). -/
theorem matmul_rhs_idx (g : Fin 64) (d : Fin 128) (r : Fin 5000) :
    dot_S64x5000_S5000x128_S64x128_1_0_0_1_n_n.rhsIdx (ix2 g d) ((contrEquiv1 dot_S64x5000_S5000x128_S64x128_1_0_0_1_n_n 5000 rfl rfl).symm r) = ix2 r d := by
  funext a; apply Fin.ext
  match a with
  | ⟨0, _⟩ => exact (matmul_rhs_contr _ _).trans (contrEquiv1_symm_val dot_S64x5000_S5000x128_S64x128_1_0_0_1_n_n 5000 rfl rfl r)
  | ⟨1, _⟩ => exact matmul_rhs_col _ _

/-- THE PAYLOAD AT AN INDEX: entry (g, d) of a point's block is the sum over the tile's 5000 rows of the one-hot entry
    of row r's id at g times the feature at (r, d). -/
theorem pay_apply (x0 : Vec Ideal S5000x128 .f32) (x1 : Vec Ideal S5000x1 .i32) (u : Fin 1) (g : Fin 64) (d : Fin 128) :
    k0_pay1 x0 x1 (ix3 u g d) = ∑ r : Fin 5000, oneHot (x1 (ix2 r (0 : Fin 1))) g * x0 (ix2 r d) := by
  unfold k0_pay1
  refine (shapeCast_ab_1ab_apply _ _ u g d).trans ?_
  refine (Ideal.matmul_constant_zero_apply dot_S64x5000_S5000x128_S64x128_1_0_0_1_n_n none _ _ (ix2 g d)).trans ?_
  refine (Equiv.sum_comp (contrEquiv1 dot_S64x5000_S5000x128_S64x128_1_0_0_1_n_n 5000 rfl rfl).symm _).symm.trans ?_
  refine Finset.sum_congr rfl fun r _ => ?_
  congr 1
  · rw [matmul_lhs_idx]
    refine (transpose_ix2_apply _ _ g r).trans ?_
    show FloatOps.sitofp (F := Ideal) .f32 ((IntOp.cmpi .eq (broadcastTo S5000x64 (shapeCast S5000x1 x1 shapeCasts_S5000x1_S5000x1) broadcasts_S5000x1_S5000x64 (ix2 r g)) (iota .tc S5000x64 32 [1] iota_S5000x64_d1_w32 (ix2 r g))).setWidth 32) = _
    rw [iota_single_apply]
    rw [broadcastTo_apply _ _ (ix2 r g) (ix2 r (0 : Fin 1)) (fun a => match a with | ⟨0, _⟩ => rfl | ⟨1, _⟩ => rfl)]
    rw [shapeCast_self]
    exact sitofp_extui_cmpi_eq _ g
  · rw [matmul_rhs_idx]; rfl

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point is a tile number. -/
def tileOf (t : Fin cfg0.N) : Fin 20 := ⟨t.val, by have h := t.isLt; have e : cfg0.N = 20 := N_0; omega⟩

/-- The printed index maps, decided over the grid: each window's block index is the point on the tiled axis and zero
    on the others. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The feature window's block at a point is the feature array read through the block. -/
theorem iblk_feat (c : Dev nD) (t : Fin cfg0.N) (y : S5000x128.Idx) :
    iblk0 V c 0 t y = V c main_arg0 (((cfg0.win 0).blk t).view.emb y) := by
  unfold iblk0; rfl
/-- The id window's block at a point is the id array read through the block. -/
theorem iblk_ids (c : Dev nD) (t : Fin cfg0.N) (y : S5000x1.Idx) :
    iblk0 V c 1 t y = V c main_v0 (((cfg0.win 1).blk t).view.emb y) := by
  unfold iblk0; rfl

/-- Row r of the feature block at point t is the tile's row r of the feature matrix. -/
theorem feat_block (c : Dev nD) (t : Fin cfg0.N) (r : Fin 5000) (d : Fin 128) :
    iblk0 V c 0 t (ix2 r d) = toMat (V c main_arg0) (tileRow (tileOf t) r) d := by
  refine (iblk_feat V c t (ix2 r d)).trans ?_
  obtain ⟨e0, e1, -, -, -, -, -⟩ := idx_facts t
  show V c main_arg0 _ = V c main_arg0 (ix2 (tileRow (tileOf t) r) d)
  refine congrArg (V c main_arg0) (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * d.val = d.val; rw [e1]; omega
/-- Row r of the id block at point t is the tile's row r of the id column. -/
theorem ids_block (c : Dev nD) (t : Fin cfg0.N) (r : Fin 5000) :
    iblk0 V c 1 t (ix2 r (0 : Fin 1)) = toCol (V c main_v0) (tileRow (tileOf t) r) := by
  refine (iblk_ids V c t (ix2 r (0 : Fin 1))).trans ?_
  obtain ⟨-, -, e0, e1, -, -, -⟩ := idx_facts t
  show V c main_v0 _ = V c main_v0 (ix2 (tileRow (tileOf t) r) (0 : Fin 1))
  refine congrArg (V c main_v0) (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 1 + 1 * (0 : Fin 1).val = (0 : Fin 1).val; omega

/-- What the output array ends holding: tile by tile, the one-hot product of the tile's ids and features. -/
abbrev pooled (c : Dev nD) : S20x64x128.Idx → EReal :=
  fun i => poolTile (toMat (V c main_arg0)) (toCol (V c main_v0)) (i 0) (i 1) (i 2)

/-- Entry (g, d) of the output block at point t sits at (t, g, d) of the output array. -/
theorem out_emb (t : Fin cfg0.N) (u : Fin 1) (g : Fin 64) (d : Fin 128) :
    (((cfg0.win 2).blk t).view.emb (ix3 u g d) : S20x64x128.Idx) = ix3 (tileOf t) g d := by
  obtain ⟨-, -, -, -, e0, e1, e2⟩ := idx_facts t
  have hu : u.val = 0 := by have := u.isLt; omega
  funext a; apply Fin.ext
  match a with
  | ⟨0, _⟩ => show win0_2.index t (0 : Fin 3) * 1 + 1 * u.val = t.val; rw [e0, hu]; omega
  | ⟨1, _⟩ => show win0_2.index t (1 : Fin 3) * 64 + 1 * g.val = g.val; rw [e1]; omega
  | ⟨2, _⟩ => show win0_2.index t (2 : Fin 3) * 128 + 1 * d.val = d.val; rw [e2]; omega

/-- WHAT POINT t WRITES BACK is block t of the pooled array. -/
theorem flushed_eq (c : Dev nD) (t : Fin cfg0.N) :
    (dat0 V c).flushed 2 t = ((cfg0.win 2).blk t).view.read (Elt Ideal) (pooled V c) := by
  show (cfg0.win 2).cut (grid0.coords t) ((dat0 V c).after 2 t) = _
  rw [after0_2]
  unfold out0_2
  rw [View.canon_unit_zero hz3]
  simp only [View.ld_unit_zero (S := S5000x128) hz2, View.ld_unit_zero (S := S5000x1) hz2]
  funext y
  obtain ⟨u, g, d, rfl⟩ : ∃ (u : Fin 1) (g : Fin 64) (d : Fin 128), y = ix3 u g d := ⟨y 0, y 1, y 2, eq_ix3 y⟩
  show k0_pay1 (iblk0 V c 0 t) (iblk0 V c 1 t) (ix3 u g d) = pooled V c (((cfg0.win 2).blk t).view.emb (ix3 u g d))
  rw [pay_apply]
  refine Eq.trans ?_ (congrArg (pooled V c) (out_emb t u g d).symm)
  show _ = ∑ r : Fin 5000, oneHot (toCol (V c main_v0) (tileRow (tileOf t) r)) g * toMat (V c main_arg0) (tileRow (tileOf t) r) d
  refine Finset.sum_congr rfl fun r _ => ?_
  rw [feat_block V c t r d, ids_block V c t r]

/-! ## From blocks to the array -/

/-- An index of the array is in point t's block iff each coordinate is in the block's range on its axis. -/
theorem mem_blk (t : Fin cfg0.N) (i : S20x64x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v1).slice (win0_2.rect t)).set ↔ _
  rw [View.set_slice_whole, Rect.mem_set_unit]
  exact Iff.rfl

/-- Every index of the output array is in the block of the point its first coordinate names. -/
theorem cover (i : S20x64x128.Idx) : ∃ t : Fin cfg0.N, (cfg0.win 2).flush t = true ∧ i ∈ ((cfg0.win 2).blk t).view.set := by
  have hi0 : (i 0).val < 20 := (i 0).isLt
  have hi1 : (i 1).val < 64 := (i 1).isLt
  have hi2 : (i 2).val < 128 := (i 2).isLt
  have hN : cfg0.N = 20 := N_0
  obtain ⟨t, ht⟩ : ∃ t : Fin cfg0.N, t.val = (i 0).val := ⟨⟨(i 0).val, by omega⟩, rfl⟩
  obtain ⟨-, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 64 ≤ (i 1).val ∧ (i 1).val < win0_2.index t (1 : Fin 3) * 64 + 64; rw [e1]; omega
  | ⟨2, _⟩ => show win0_2.index t (2 : Fin 3) * 128 ≤ (i 2).val ∧ (i 2).val < win0_2.index t (2 : Fin 3) * 128 + 128; rw [e2]; omega

/-- THE OUTPUT ARRAY after the region's 20 points: the pooled array of the inputs as the region finds them. -/
theorem pool_array (c : Dev nD) : (dat0 V c).arrAt 2 cfg0.N = pooled V c :=
  (dat0 V c).arrAt_eq_of_cover 2 (pooled V c) (fun t _ => flushed_eq V c t) cover

theorem pool_eq (c : Dev nD) : (dat0 V c).arrAt 2 cfg0.N = fun i => poolTile (toMat (V c main_arg0)) (toCol (V c main_v0)) (i 0) (i 1) (i 2) :=
  pool_array V c

end Cert.KReg0

end
-- ==== Proof.PreFinite.lean ====
/-
  From the printed precondition to "every float input entry is a real number".

  The precondition computes, for each float argument array x, the conjunction over all
  entries of |x i| < +∞ (the comparison against the pattern 0x7F800000 of +∞), and the
  conjunction of these over the arguments; it is stated to be 1. At the ideal instance an
  f32 entry is an extended real, |x| is max x (-x), and max x (-x) < ⊤ excludes both
  x = ⊤ and x = ⊥ (for which -x = ⊤), so x is the image of a real number.
-/
import proofs.«412161_j3753801416792_2_alg».proof.Defs
import proofs.«412161_j3753801416792_2_alg».proof.Proof.Gen.Pre_finite_inputs
import Idealize.ShloMosaic.Lib.ReduceAll
import Idealize.ShloMosaic.Lib.ValueIdx

namespace Cert.PreFinite

open Idealize.ShloMosaic Idealize.SL.Sem

/-- An extended real that is (the image of) a real number. -/
def IsReal (x : EReal) : Prop := ∃ r : ℝ, x = (r : EReal)

/-- The scalar shape has exactly one index. -/
instance : Subsingleton Cert.Pre_finite_inputs.S_.Idx := ⟨fun a b => funext fun d => d.elim0⟩

/-- |x| < +∞ as extended reals (the ordered comparison answering 1) makes x a real:
    the pattern 0x7F800000 denotes ⊤, and max x (-x) = ⊤ at x = ⊤ and at x = ⊥. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One argument's test: if the conjunction over every entry of |x i| < +∞ is 1,
    every entry of x is a real. Any shape, reduced over all its axes to the scalar shape. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i, IsReal (x i) := by
  intro i
  have := Host.reduce_andi_all _ _ hr hu ValueIdx.ix0 e i
  exact isReal_of_abs_lt (x i) this

/-- The conjunction of two scalar truth values is 1 exactly when both are. -/
theorem andi_ix0 (a b : IVec Cert.Pre_finite_inputs.S_ 1) :
    andi a b ValueIdx.ix0 = 1#1 ↔ a ValueIdx.ix0 = 1#1 ∧ b ValueIdx.ix0 = 1#1 := IntOp.andi_eq_one

/-- The precondition, all ones, gives every float argument real at every entry: the result is a
    left-nested conjunction of the fifteen per-argument tests, each of which is 1. -/
theorem finite_args [Cert.Pre_finite_inputs.Facts]
    (x0 : FVec Ideal Cert.Pre_finite_inputs.S100000x128 .f32)
    (x1 : FVec Ideal Cert.Pre_finite_inputs.S1 .f32)
    (x2 : IVec Cert.Pre_finite_inputs.S1600000 32)
    (x3 : IVec Cert.Pre_finite_inputs.S1600000 32)
    (x4 : IVec Cert.Pre_finite_inputs.S100000 32)
    (x5 : FVec Ideal Cert.Pre_finite_inputs.S4 .f32)
    (x6 : FVec Ideal Cert.Pre_finite_inputs.S4x128x128 .f32)
    (x7 : FVec Ideal Cert.Pre_finite_inputs.S4x128 .f32)
    (x8 : FVec Ideal Cert.Pre_finite_inputs.S4x128x128 .f32)
    (x9 : FVec Ideal Cert.Pre_finite_inputs.S4x128 .f32)
    (x10 : FVec Ideal Cert.Pre_finite_inputs.S4x128 .f32)
    (x11 : FVec Ideal Cert.Pre_finite_inputs.S4x128 .f32)
    (x12 : FVec Ideal Cert.Pre_finite_inputs.S4x128 .f32)
    (x13 : FVec Ideal Cert.Pre_finite_inputs.S4x128 .f32)
    (x14 : FVec Ideal Cert.Pre_finite_inputs.S4x128 .f32)
    (x15 : FVec Ideal Cert.Pre_finite_inputs.S4x128 .f32)
    (x16 : FVec Ideal Cert.Pre_finite_inputs.S5x128x64 .f32)
    (x17 : FVec Ideal Cert.Pre_finite_inputs.S5x64 .f32)
    (h : Cert.Pre_finite_inputs.fn (F := Ideal) x0 x1 x2 x3 x4 x5 x6 x7 x8 x9 x10 x11 x12 x13 x14 x15 x16 x17 = (fun _ => 1#1)) :
    (∀ i, IsReal (x0 i)) ∧ (∀ i, IsReal (x1 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) ∧ (∀ i, IsReal (x15 i)) ∧ (∀ i, IsReal (x16 i)) ∧ (∀ i, IsReal (x17 i)) := by
  have h0 := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at h0
  simp only [andi_ix0] at h0
  obtain ⟨⟨⟨⟨⟨⟨⟨⟨⟨⟨⟨⟨⟨⟨h0, h1⟩, h5⟩, h6⟩, h7⟩, h8⟩, h9⟩, h10⟩, h11⟩, h12⟩, h13⟩, h14⟩, h15⟩, h16⟩, h17⟩ := h0
  exact ⟨all_real x0 _ _ _ h0,
    all_real x1 _ _ _ h1,
    all_real x5 _ _ _ h5,
    all_real x6 _ _ _ h6,
    all_real x7 _ _ _ h7,
    all_real x8 _ _ _ h8,
    all_real x9 _ _ _ h9,
    all_real x10 _ _ _ h10,
    all_real x11 _ _ _ h11,
    all_real x12 _ _ _ h12,
    all_real x13 _ _ _ h13,
    all_real x14 _ _ _ h14,
    all_real x15 _ _ _ h15,
    all_real x16 _ _ _ h16,
    all_real x17 _ _ _ h17⟩

/-- The same, of the kernel's argument arrays in a memory satisfying the precondition, on each device. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg1)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i)) :=
  finite_args _ _ _ _ _ _ _ _ _ _ _ _ _ _ _ _ _ _ (hpre c)

end Cert.PreFinite
-- ==== Proof.LibReal.lean ====
/-
  General lemmas on the extended reals: the real numbers inside them are closed under the arithmetic used by a
  normalisation layer; finite sums of reals are the real sums; the variance identity (mean of the squared
  deviations = mean of squares minus square of mean, and it is nonnegative); and a sum over 20 blocks of 5000
  consecutive indices is the sum over all 100000 indices.
-/
import Idealize.ShloMosaic.PureOps.Ideal
import Idealize.ShloMosaic.PureOps.Ideal.Laws

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  rcases max_choice x y with h | h <;> rw [h] <;> assumption

/-- A finite sum of coerced reals is the coerced real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem isReal_sum {ι : Type*} (s : Finset ι) (x : ι → EReal) (hx : ∀ i ∈ s, IsReal (x i)) :
    IsReal (∑ i ∈ s, x i) := by
  classical
  induction s using Finset.induction_on with
  | empty => simpa using isReal_zero
  | insert a s ha ih =>
    rw [Finset.sum_insert ha]
    exact isReal_add (hx a (Finset.mem_insert_self a s))
      (ih (fun i hi => hx i (Finset.mem_insert_of_mem hi)))

/-- Division of a real by a nonzero real, in the extended reals, is the real quotient. -/
theorem div_coe_coe (a : ℝ) {y : ℝ} (hy : y ≠ 0) : Ideal.div (a : EReal) (y : EReal) = ((a / y : ℝ) : EReal) := by
  rw [Ideal.div_coe hy, ← EReal.coe_mul, mul_one_div]

theorem isReal_div_coe {x : EReal} (hx : IsReal x) {y : ℝ} (hy : y ≠ 0) : IsReal (Ideal.div x (y : EReal)) := by
  obtain ⟨a, rfl⟩ := hx
  exact ⟨a / y, div_coe_coe a hy⟩

/-- The reciprocal square root of a positive real is the real one. -/
theorem rsqrt_coe_of_pos {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

theorem isReal_rsqrt_of_pos {a : ℝ} (ha : 0 < a) : IsReal (Ideal.rsqrt (a : EReal)) :=
  ⟨_, rsqrt_coe_of_pos ha⟩

/-- The same for an extended real known to be real and positive. -/
theorem isReal_rsqrt {x : EReal} (hx : IsReal x) (h0 : 0 < x) : IsReal (Ideal.rsqrt x) := by
  obtain ⟨a, rfl⟩ := hx
  exact isReal_rsqrt_of_pos (by exact_mod_cast h0)

/-- The variance identity over the reals: with `μ` the mean, the mean of the squared deviations from `μ` is the
    mean of the squares minus `μ²`. -/
theorem variance_law {ι : Type*} [Fintype ι] (N : ℝ) (hN : N = Fintype.card ι) (hN0 : N ≠ 0) (f : ι → ℝ) :
    (∑ i, (f i - (∑ i, f i) / N) * (f i - (∑ i, f i) / N)) / N
      = (∑ i, f i * f i) / N - ((∑ i, f i) / N) * ((∑ i, f i) / N) := by
  have h1 : ∀ i, (f i - (∑ i, f i) / N) * (f i - (∑ i, f i) / N)
      = f i * f i - 2 * ((∑ i, f i) / N) * f i + ((∑ i, f i) / N) * ((∑ i, f i) / N) := by
    intro i; ring
  have h2 : (∑ i, (f i - (∑ i, f i) / N) * (f i - (∑ i, f i) / N))
      = (∑ i, f i * f i) - 2 * ((∑ i, f i) / N) * (∑ i, f i) + N * (((∑ i, f i) / N) * ((∑ i, f i) / N)) := by
    simp only [h1, Finset.sum_add_distrib, Finset.sum_sub_distrib, ← Finset.mul_sum, Finset.sum_const,
      Finset.card_univ, nsmul_eq_mul, ← hN]
    ring
  rw [h2]
  field_simp
  ring

/-- The mean of the squared deviations is nonnegative. -/
theorem variance_nonneg {ι : Type*} [Fintype ι] (N : ℝ) (hN : N = Fintype.card ι) (f : ι → ℝ) (μ : ℝ) :
    0 ≤ (∑ i, (f i - μ) * (f i - μ)) / N := by
  apply div_nonneg
  · exact Finset.sum_nonneg (fun i _ => mul_self_nonneg _)
  · rw [hN]; exact Nat.cast_nonneg _

/-- The variance identity on the extended reals, at real entries: the clamped difference "mean of squares minus square
    of mean" is the mean of the squared deviations from the mean; it is a nonnegative real. -/
theorem variance_ereal {ι : Type*} [Fintype ι] (N : ℝ) (hN : N = Fintype.card ι) (hN0 : N ≠ 0) (x : ι → EReal)
    (hx : ∀ i, IsReal (x i)) :
    max (Ideal.div (∑ i, x i * x i) (N : EReal)
          - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal)
    ∧ IsReal (Ideal.div (∑ i, (x i - Ideal.div (∑ i, x i) (N : EReal)) * (x i - Ideal.div (∑ i, x i) (N : EReal)))
        (N : EReal))
    ∧ 0 ≤ Ideal.div (∑ i, (x i - Ideal.div (∑ i, x i) (N : EReal)) * (x i - Ideal.div (∑ i, x i) (N : EReal)))
        (N : EReal) := by
  choose f hf using hx
  obtain rfl : x = fun i => ((f i : ℝ) : EReal) := funext hf
  have hmean : Ideal.div (∑ i, ((f i : ℝ) : EReal)) (N : EReal) = (((∑ i, f i) / N : ℝ) : EReal) := by
    rw [coe_sum, div_coe_coe _ hN0]
  have hsq : Ideal.div (∑ i, ((f i : ℝ) : EReal) * ((f i : ℝ) : EReal)) (N : EReal)
      = (((∑ i, f i * f i) / N : ℝ) : EReal) := by
    simp only [← EReal.coe_mul]
    rw [coe_sum, div_coe_coe _ hN0]
  have hdev : Ideal.div (∑ i, (((f i : ℝ) : EReal) - (((∑ i, f i) / N : ℝ) : EReal))
        * (((f i : ℝ) : EReal) - (((∑ i, f i) / N : ℝ) : EReal))) (N : EReal)
      = (((∑ i, (f i - (∑ i, f i) / N) * (f i - (∑ i, f i) / N)) / N : ℝ) : EReal) := by
    simp only [← EReal.coe_sub, ← EReal.coe_mul]
    rw [coe_sum, div_coe_coe _ hN0]
  have hnn := variance_nonneg N hN f ((∑ i, f i) / N)
  simp only [hmean, hsq, hdev]
  refine ⟨?_, ⟨_, rfl⟩, by exact_mod_cast hnn⟩
  rw [← EReal.coe_mul, ← EReal.coe_sub, ← variance_law N hN hN0 f]
  exact max_eq_left (by exact_mod_cast hnn)

/-- The binary32 word of 100000 denotes the real 100000. -/
theorem ofBits_100000 : Ideal.ofBits .f32 0x47C35000#32 = ((100000 : ℝ) : EReal) := by
  simp [Ideal.ofBits, Ideal.ieee, -EReal.coe_mul]; norm_num

/-- The binary32 word nearest 1e-5 denotes a positive real. -/
theorem ofBits_eps_pos : ∃ e : ℝ, 0 < e ∧ Ideal.ofBits .f32 0x3727C5AC#32 = (e : EReal) := by
  refine ⟨_, ?_, by simp [Ideal.ofBits, Ideal.ieee, -EReal.coe_mul]; rfl⟩
  positivity

/-- A sum over 20 blocks of 5000 consecutive indices is the sum over all 100000 indices. -/
theorem sum_tiles {M : Type*} [AddCommMonoid M] (g : Fin 100000 → M) :
    (∑ t : Fin 20, ∑ r : Fin 5000, g ⟨t.val * 5000 + r.val, by omega⟩) = ∑ n : Fin 100000, g n := by
  rw [← Fintype.sum_prod_type']
  refine Fintype.sum_equiv (finProdFinEquiv (m := 20) (n := 5000)) _ _ ?_
  rintro ⟨t, r⟩
  congr 1
  apply Fin.ext
  simp [finProdFinEquiv]
  ring

end Cert.LibReal

end
-- ==== Proof.LayerEq.lean ====
/-
  One layer computed the kernel's way equals the layer computed the reference's way, at real arguments.

  The column sums agree because a sum over 20 blocks of 5000 consecutive rows is the sum over all rows; hence the
  means agree. The variances agree at real entries by the variance identity: the mean of the squared deviations from the
  mean is the mean of squares minus the square of the mean, which is nonnegative, so clamping it at zero changes
  nothing. The first affine maps agree because multiplication commutes. Every intermediate matrix has real entries: the
  variance is a nonnegative real and the offset added to it is a positive real, so the reciprocal square root is taken
  at a positive real.
-/
import proofs.«412161_j3753801416792_2_alg».proof.Proof.Spec
import proofs.«412161_j3753801416792_2_alg».proof.Proof.LibReal

noncomputable section

namespace Cert.Spec

open Idealize.ShloMosaic

/-- The two spellings of "is a real number" are the same proposition. -/
theorem isReal_iff (x : EReal) : Cert.Spec.IsReal x ↔ Cert.LibReal.IsReal x := Iff.rfl

/-- The node count is the real 100000. -/
theorem cN_eq : cN = ((100000 : ℝ) : EReal) := LibReal.ofBits_100000

/-- The variance offset is a positive real. -/
theorem cEps_pos : ∃ e : ℝ, 0 < e ∧ cEps = (e : EReal) := LibReal.ofBits_eps_pos

/-- Tile sums added are the column sum. -/
theorem tileSum_sum (x : Mat 100000 128) (j : Fin 128) : (∑ t : Fin 20, tileSum x t j) = colSum x j :=
  LibReal.sum_tiles (fun n => x n j)

/-- The two column means agree, at any entries. -/
theorem meanK_eq_meanR (x : Mat 100000 128) : meanK x = meanR x := by
  funext j
  simp only [meanK, meanR, tileSum_sum]

/-- The variance identity at column `j` of a real matrix, with its by-products. -/
theorem var_col (x : Mat 100000 128) (hx : RealMat x) (j : Fin 128) :
    max (Ideal.div (colSum (sq x) j) cN - meanR x j * meanR x j) 0 = varR x j
      ∧ IsReal (varR x j) ∧ 0 ≤ varR x j := by
  have h := LibReal.variance_ereal (ι := Fin 100000) 100000 (by simp) (by norm_num) (fun n => x n j)
    (fun n => hx n j)
  simp only [varR, meanR, colSum, sq, cN_eq]
  exact h

/-- The two column variances agree at real entries. -/
theorem varK_eq_varR (x : Mat 100000 128) (hx : RealMat x) : varK x = varR x := by
  funext j
  rw [← (var_col x hx j).1]
  simp only [varK, tileSum_sum, meanK_eq_meanR]

/-- The reference's variance of a real matrix is a nonnegative real in every column. -/
theorem real_varR (x : Mat 100000 128) (hx : RealMat x) : RealRow (varR x) ∧ ∀ j, 0 ≤ varR x j :=
  ⟨fun j => (var_col x hx j).2.1, fun j => (var_col x hx j).2.2⟩

/-- The reference's mean of a real matrix is real in every column. -/
theorem real_meanR (x : Mat 100000 128) (hx : RealMat x) : RealRow (meanR x) := by
  intro j
  simp only [meanR, colSum, cN_eq]
  exact LibReal.isReal_div_coe (LibReal.isReal_sum _ _ (fun n _ => hx n j)) (by norm_num)

/-- An affine map with real coefficients takes real matrices to real matrices. -/
theorem real_lin (x : Mat 100000 128) (W : Mat 128 128) (b : Row 128) (hx : RealMat x) (hW : RealMat W)
    (hb : RealRow b) : RealMat (lin x W b) := by
  intro n j
  exact LibReal.isReal_add (LibReal.isReal_sum _ _ (fun k _ => LibReal.isReal_mul (hx n k) (hW k j))) (hb j)

/-- Normalising with real statistics and a nonnegative variance gives a real matrix. -/
theorem real_bnRelu (x : Mat 100000 128) (mu var g be : Row 128) (hx : RealMat x) (hmu : RealRow mu)
    (hvar : RealRow var) (hvar0 : ∀ j, 0 ≤ var j) (hg : RealRow g) (hbe : RealRow be) :
    RealMat (bnRelu x mu var g be) := by
  intro n j
  obtain ⟨e, he, hce⟩ := cEps_pos
  obtain ⟨v, hv⟩ := hvar j
  have hv0 : 0 ≤ v := by
    have := hvar0 j
    rw [hv] at this
    exact_mod_cast this
  have hr : IsReal (Ideal.rsqrt (var j + cEps)) := by
    rw [hv, hce, ← EReal.coe_add]
    exact LibReal.isReal_rsqrt_of_pos (by linarith)
  exact LibReal.isReal_max
    (LibReal.isReal_add (LibReal.isReal_mul (LibReal.isReal_mul (LibReal.isReal_sub (hx n j) (hmu j)) hr) (hg j)) (hbe j))
    LibReal.isReal_zero

/-- The first affine maps agree: multiplication commutes. -/
theorem lin1K_eq_lin1R (P : Params) (h agg : Mat 100000 128) : lin1K P h agg = lin1R P h agg := by
  have e : (fun n k => h n k * P.scale + agg n k) = (fun n k => P.scale * h n k + agg n k) := by
    funext n k
    rw [mul_comm]
  simp only [lin1K, lin1R, e]

/-- The first affine map of a real layer at real arguments is real. -/
theorem real_lin1R (P : Params) (h agg : Mat 100000 128) (hP : RealParams P) (hh : RealMat h) (ha : RealMat agg) :
    RealMat (lin1R P h agg) :=
  real_lin _ _ _ (fun n k => LibReal.isReal_add (LibReal.isReal_mul hP.1 (hh n k)) (ha n k)) hP.2.1 hP.2.2.1

/-- A normalisation with the kernel's statistics is the one with the reference's, at a real input. -/
theorem bn_eq (x : Mat 100000 128) (hx : RealMat x) (g be : Row 128) :
    bnRelu x (meanK x) (varK x) g be = bnRelu x (meanR x) (varR x) g be := by
  rw [meanK_eq_meanR, varK_eq_varR x hx]

/-- A normalisation with the reference's statistics of a real input, with real scale and shift, is real. -/
theorem real_bnR (x : Mat 100000 128) (hx : RealMat x) (g be : Row 128) (hg : RealRow g) (hbe : RealRow be) :
    RealMat (bnRelu x (meanR x) (varR x) g be) :=
  real_bnRelu x _ _ g be hx (real_meanR x hx) (real_varR x hx).1 (real_varR x hx).2 hg hbe

/-- One layer the kernel's way is the layer the reference's way, and its entries are real. -/
theorem layer_eq (P : Params) (h agg : Mat 100000 128) (hP : RealParams P) (hh : RealMat h) (ha : RealMat agg) :
    layerK P h agg = layerR P h agg ∧ RealMat (layerR P h agg) := by
  have r0 : RealMat (lin1R P h agg) := real_lin1R P h agg hP hh ha
  obtain ⟨_, _, _, hg1, hbe1, hW2, hb2, hg2, hbe2, hg3, hbe3⟩ := hP
  have r1 : RealMat (z1R P (lin1R P h agg)) := real_bnR _ r0 _ _ hg1 hbe1
  have r2 : RealMat (lin2 P (z1R P (lin1R P h agg))) := real_lin _ _ _ r1 hW2 hb2
  have r3 : RealMat (z2R P (lin2 P (z1R P (lin1R P h agg)))) := real_bnR _ r2 _ _ hg2 hbe2
  have r4 : RealMat (outR P (z2R P (lin2 P (z1R P (lin1R P h agg))))) := real_bnR _ r3 _ _ hg3 hbe3
  have e1 : z1K P (lin1R P h agg) = z1R P (lin1R P h agg) := bn_eq _ r0 _ _
  have e2 : z2K P (lin2 P (z1R P (lin1R P h agg))) = z2R P (lin2 P (z1R P (lin1R P h agg))) := bn_eq _ r2 _ _
  have e3 : outK P (z2R P (lin2 P (z1R P (lin1R P h agg)))) = outR P (z2R P (lin2 P (z1R P (lin1R P h agg)))) :=
    bn_eq _ r3 _ _
  refine ⟨?_, r4⟩
  show outK P (z2K P (lin2 P (z1K P (lin1K P h agg)))) = outR P (z2R P (lin2 P (z1R P (lin1R P h agg))))
  rw [lin1K_eq_lin1R, e1, e2, e3]

end Cert.Spec

end
-- ==== Proof.Bridge.lean ====
/-
  Both programs as functions of the argument arrays, and their agreement.

  From the input features h0 each side computes four layers h1 … h4, every layer applied to the previous features and
  to their aggregate over the edges (one function of the features and of the two edge-index arrays, the same on both
  sides), and pools h0 … h4 per graph. When the features and the parameters are real numbers, the kernel's layer is the
  reference's (the variance law and the tile sums) and its output is again real, so the four layers agree one after the
  other; the aggregate of real features is real; the two ways of pooling agree for any features.
-/
import proofs.«412161_j3753801416792_2_alg».proof.Proof.Conv
import proofs.«412161_j3753801416792_2_alg».proof.Proof.LayerEq
import proofs.«412161_j3753801416792_2_alg».proof.Proof.PoolEq
import proofs.«412161_j3753801416792_2_alg».proof.Proof.Agg

noncomputable section

namespace Cert.Bridge

open Cert.KernelIdeal Cert.Spec Cert.Conv Idealize.ShloMosaic

variable [Facts₀]

/-- The argument arrays both programs read, as the specification sees them. -/
structure Args where
  h0 : Mat 100000 128
  src : IVec S1600000 32
  dst : IVec S1600000 32
  gid : Fin 100000 → BitVec 32
  P : Fin 4 → Params

/-- The aggregate of given features over the edges. -/
def aggM (a : Args) (h : Mat 100000 128) : Mat 100000 128 := toMat (Cert.Agg.aggT (ofMat h) a.src a.dst)

/-- The kernel's features after each layer. -/
def hK1 (a : Args) : Mat 100000 128 := layerK (a.P 0) a.h0 (aggM a a.h0)
def hK2 (a : Args) : Mat 100000 128 := layerK (a.P 1) (hK1 a) (aggM a (hK1 a))
def hK3 (a : Args) : Mat 100000 128 := layerK (a.P 2) (hK2 a) (aggM a (hK2 a))
def hK4 (a : Args) : Mat 100000 128 := layerK (a.P 3) (hK3 a) (aggM a (hK3 a))

/-- The reference's features after each layer. -/
def hR1 (a : Args) : Mat 100000 128 := layerR (a.P 0) a.h0 (aggM a a.h0)
def hR2 (a : Args) : Mat 100000 128 := layerR (a.P 1) (hR1 a) (aggM a (hR1 a))
def hR3 (a : Args) : Mat 100000 128 := layerR (a.P 2) (hR2 a) (aggM a (hR2 a))
def hR4 (a : Args) : Mat 100000 128 := layerR (a.P 3) (hR3 a) (aggM a (hR3 a))

/-- Real features and real parameters. -/
def RealArgs (a : Args) : Prop := RealMat a.h0 ∧ ∀ i, RealParams (a.P i)

/-- The aggregate of real features is real. -/
theorem real_aggM (a : Args) (h : Mat 100000 128) (hh : RealMat h) : RealMat (aggM a h) :=
  fun i j => Cert.Agg.agg_real (ofMat h) (fun i => hh (i 0) (i 1)) a.src a.dst _

theorem h1_eq (a : Args) (ha : RealArgs a) : hK1 a = hR1 a ∧ RealMat (hR1 a) :=
  layer_eq (a.P 0) a.h0 (aggM a a.h0) (ha.2 0) ha.1 (real_aggM a a.h0 ha.1)

theorem h2_eq (a : Args) (ha : RealArgs a) : hK2 a = hR2 a ∧ RealMat (hR2 a) := by
  obtain ⟨e, r⟩ := h1_eq a ha
  unfold hK2 hR2
  rw [e]
  exact layer_eq (a.P 1) (hR1 a) (aggM a (hR1 a)) (ha.2 1) r (real_aggM a (hR1 a) r)

theorem h3_eq (a : Args) (ha : RealArgs a) : hK3 a = hR3 a ∧ RealMat (hR3 a) := by
  obtain ⟨e, r⟩ := h2_eq a ha
  unfold hK3 hR3
  rw [e]
  exact layer_eq (a.P 2) (hR2 a) (aggM a (hR2 a)) (ha.2 2) r (real_aggM a (hR2 a) r)

theorem h4_eq (a : Args) (ha : RealArgs a) : hK4 a = hR4 a ∧ RealMat (hR4 a) := by
  obtain ⟨e, r⟩ := h3_eq a ha
  unfold hK4 hR4
  rw [e]
  exact layer_eq (a.P 3) (hR3 a) (aggM a (hR3 a)) (ha.2 3) r (real_aggM a (hR3 a) r)

/-- The pooled features agree, layer by layer. -/
theorem pool0_eq (a : Args) : poolK a.h0 a.gid = poolR a.h0 a.gid := Cert.PoolEq.pool_eq _ _
theorem pool1_eq (a : Args) (ha : RealArgs a) : poolK (hK1 a) a.gid = poolR (hR1 a) a.gid := by
  rw [(h1_eq a ha).1]; exact Cert.PoolEq.pool_eq _ _
theorem pool2_eq (a : Args) (ha : RealArgs a) : poolK (hK2 a) a.gid = poolR (hR2 a) a.gid := by
  rw [(h2_eq a ha).1]; exact Cert.PoolEq.pool_eq _ _
theorem pool3_eq (a : Args) (ha : RealArgs a) : poolK (hK3 a) a.gid = poolR (hR3 a) a.gid := by
  rw [(h3_eq a ha).1]; exact Cert.PoolEq.pool_eq _ _
theorem pool4_eq (a : Args) (ha : RealArgs a) : poolK (hK4 a) a.gid = poolR (hR4 a) a.gid := by
  rw [(h4_eq a ha).1]; exact Cert.PoolEq.pool_eq _ _

end Cert.Bridge

end
-- ==== Proof.KArgs.lean ====
/-
  The argument arrays of the idealized kernel program as the specification's data, and their finiteness
  under the precondition.

  Layer i's parameters are row i (matrix i) of the parameter arrays, and its scale is one plus entry i of the
  epsilon array; the features are the first argument read as a matrix. The precondition makes every entry of
  every float argument a real number, the word 0x3F800000 is the real one, and a sum of two reals is a real.
-/
import proofs.«412161_j3753801416792_2_alg».proof.Defs
import proofs.«412161_j3753801416792_2_alg».proof.Proof.Gen.KernelIdeal
import proofs.«412161_j3753801416792_2_alg».proof.Proof.Gen.Pre_finite_inputs
import proofs.«412161_j3753801416792_2_alg».proof.Proof.PreFinite
import proofs.«412161_j3753801416792_2_alg».proof.Proof.Conv
import proofs.«412161_j3753801416792_2_alg».proof.Proof.Bridge
import Idealize.ShloMosaic.Lib.IdealHost

noncomputable section

namespace Cert.KArgs

open Cert.KernelIdeal Cert.Spec Cert.Conv Idealize.ShloMosaic Idealize.ShloMosaic.ValueIdx Idealize.ShloMosaic.TcCoe Idealize.SL.Sem

variable (m : (ℓ : Loc nD τ sig) → Buf (Elt Ideal) ℓ)

/-- Layer `i`'s parameters on device `c`: row (or matrix) `i` of each parameter array, the scale one plus the layer's epsilon. -/
def P (i : Fin 4) (c : Dev nD) : Params where
  scale := Ideal.ofBits .f32 0x3F800000#32 + m ((c : Thread nD τ).loc main_arg5) (ix1 i)
  W1 := fun k j => m ((c : Thread nD τ).loc main_arg6) (ix3 i k j)
  b1 := fun j => m ((c : Thread nD τ).loc main_arg7) (ix2 i j)
  g1 := fun j => m ((c : Thread nD τ).loc main_arg10) (ix2 i j)
  be1 := fun j => m ((c : Thread nD τ).loc main_arg11) (ix2 i j)
  W2 := fun k j => m ((c : Thread nD τ).loc main_arg8) (ix3 i k j)
  b2 := fun j => m ((c : Thread nD τ).loc main_arg9) (ix2 i j)
  g2 := fun j => m ((c : Thread nD τ).loc main_arg12) (ix2 i j)
  be2 := fun j => m ((c : Thread nD τ).loc main_arg13) (ix2 i j)
  g3 := fun j => m ((c : Thread nD τ).loc main_arg14) (ix2 i j)
  be3 := fun j => m ((c : Thread nD τ).loc main_arg15) (ix2 i j)

/-- The graph id of each node. -/
def gid (c : Dev nD) : Fin 100000 → BitVec 32 := fun n => m ((c : Thread nD τ).loc main_arg4) (ix1 n)

/-- The argument arrays on device `c` as the specification's data. -/
def args [Facts₀] (c : Dev nD) : Cert.Bridge.Args where
  h0 := toMat (m ((c : Thread nD τ).loc main_arg0))
  src := m ((c : Thread nD τ).loc main_arg2)
  dst := m ((c : Thread nD τ).loc main_arg3)
  gid := gid m c
  P := fun i => P m i c

/-- The binary32 word of one plus a real is a real. -/
theorem isReal_one_add {x : EReal} (hx : Cert.PreFinite.IsReal x) :
    Cert.Spec.IsReal (Ideal.ofBits .f32 0x3F800000#32 + x) := by
  rw [Ideal.ofBits_one_f32]
  exact Cert.LibReal.isReal_add Cert.LibReal.isReal_one hx

/-- Under the precondition the features and every layer's parameters are real numbers. -/
theorem real_args [Cert.KernelIdeal.Facts] [Cert.Pre_finite_inputs.Facts] (hpre : Cert.Pre_KernelIdeal m) (c : Dev nD) :
    Cert.Bridge.RealArgs (args m c) := by
  obtain ⟨h0, _, h5, h6, h7, h8, h9, h10, h11, h12, h13, h14, h15, _, _⟩ := Cert.PreFinite.finite_of_pre m hpre c
  exact ⟨fun i j => h0 (ix2 i j), fun i =>
    ⟨isReal_one_add (h5 (ix1 i)), fun k j => h6 (ix3 i k j), fun j => h7 (ix2 i j), fun j => h10 (ix2 i j),
      fun j => h11 (ix2 i j), fun k j => h8 (ix3 i k j), fun j => h9 (ix2 i j), fun j => h12 (ix2 i j),
      fun j => h13 (ix2 i j), fun j => h14 (ix2 i j), fun j => h15 (ix2 i j)⟩⟩

end Cert.KArgs

end
-- ==== Proof.KChainCommon.lean ====
/-
  What every layer of the idealized kernel program shares: the parameters of a layer read off the argument arrays at
  the layer's index, the graph ids as a column of words (as the first host operation reshapes them), the input features,
  and the first kernel region's per-tile pooled partials of the input features.
-/
import proofs.«412161_j3753801416792_2_alg».proof.Proof.KIFrameW
import proofs.«412161_j3753801416792_2_alg».proof.Proof.Conv
import proofs.«412161_j3753801416792_2_alg».proof.Proof.KCarry
import proofs.«412161_j3753801416792_2_alg».proof.Proof.KHost1
import proofs.«412161_j3753801416792_2_alg».proof.Proof.KReg0
import proofs.«412161_j3753801416792_2_alg».proof.Proof.KArgs

set_option maxRecDepth 16384

noncomputable section

namespace Cert.KChainCommon

open Cert.KernelIdeal Cert.KernelIdeal.Gen Cert.Spec Cert.Conv Idealize.ShloMosaic Idealize.ShloMosaic.ValueIdx
  Idealize.ShloMosaic.TcCoe Idealize.SL.Sem

variable (m : (ℓ : Loc nD τ sig) → Buf (Elt Ideal) ℓ) (ρ : Dev nD → PrngReg)

/-- The graph ids as a column of words. -/
abbrev gid (c : Dev nD) : Fin 100000 → BitVec 32 := Cert.KArgs.gid m c

/-- The reshaped id column, as every later boundary holds it, is the ids. -/
theorem gid_at1 (c : Dev nD) : toCol (W1 m ρ c (Proc.devRef .tc main_v0)) = gid m c := by
  show toCol (StableHlo.after hostOps0 (W0 m ρ c) (Proc.devRef .tc main_v0)) = _
  rw [Cert.KHost1.gid0]; rfl

/-- The input features. -/
def H0 (c : Dev nD) : Mat 100000 128 := toMat (m ((c : Thread nD τ).loc main_arg0))

/-- Region 0 leaves, per tile, the pooled partial of the input features. -/
theorem pool0 (c : Dev nD) :
    W2 m ρ c (Proc.devRef .tc main_v1) = fun i => poolTile (H0 m c) (gid m c) (i 0) (i 1) (i 2) := by
  have h1 : toMat (V1 m ρ c main_arg0) = H0 m c := congrArg toMat (Cert.KCarry.at1_main_arg0 m ρ c)
  have h2 : toCol (V1 m ρ c main_v0) = gid m c := gid_at1 m ρ c
  exact ((hF0 m ρ c 2).symm.trans (Cert.KReg0.pool_eq (V1 m ρ) c)).trans (by rw [h1, h2])

end Cert.KChainCommon

end
-- ==== Proof.KChain0.lean ====
/-
  Layer 0 of the idealized kernel program, boundary by boundary: from the contents at the layer's entry to its two
  outputs, the next features and their per-tile pooled partials, as the specification's kernel-side layer function of
  the argument arrays.
-/
import proofs.«412161_j3753801416792_2_alg».proof.Proof.KIFrameW
import proofs.«412161_j3753801416792_2_alg».proof.Proof.Conv
import proofs.«412161_j3753801416792_2_alg».proof.Proof.Agg
import proofs.«412161_j3753801416792_2_alg».proof.Proof.KCarry
import proofs.«412161_j3753801416792_2_alg».proof.Proof.KHost1
import proofs.«412161_j3753801416792_2_alg».proof.Proof.KHostStats
import proofs.«412161_j3753801416792_2_alg».proof.Proof.KReg1
import proofs.«412161_j3753801416792_2_alg».proof.Proof.KReg2
import proofs.«412161_j3753801416792_2_alg».proof.Proof.KReg3
import proofs.«412161_j3753801416792_2_alg».proof.Proof.KReg4
import proofs.«412161_j3753801416792_2_alg».proof.Proof.KChainCommon

set_option maxRecDepth 16384

noncomputable section

namespace Cert.KChain0

open Cert.KernelIdeal Cert.KernelIdeal.Gen Cert.Spec Cert.Conv Idealize.ShloMosaic Idealize.ShloMosaic.ValueIdx
  Idealize.ShloMosaic.TcCoe Idealize.SL.Sem

variable (m : (ℓ : Loc nD τ sig) → Buf (Elt Ideal) ℓ) (ρ : Dev nD → PrngReg)

/-- This layer's parameters. -/
abbrev P (c : Dev nD) : Params := Cert.KArgs.P m (0 : Fin 4) c

/-- The features the layer starts from, as the layer's entry boundary holds them. -/
def X (c : Dev nD) : Mat 100000 128 := toMat (W2 m ρ c (Proc.devRef .tc main_arg0))

/-- Their aggregate over the edges. -/
def A (c : Dev nD) : Mat 100000 128 :=
  toMat (Cert.Agg.aggT (W2 m ρ c (Proc.devRef .tc main_arg0)) (m ((c : Thread nD τ).loc main_arg2)) (m ((c : Thread nD τ).loc main_arg3)))

/-- The graph ids as a column of words. -/
abbrev gid (c : Dev nD) : Fin 100000 → BitVec 32 := Cert.KArgs.gid m c

/-! ## Region 1's entry: the aggregate, the scale row, the first bias row and matrix -/

/-- The features are at region 1's entry what they are at the layer's entry. -/
theorem carryX (c : Dev nD) : V3 m ρ c main_arg0 = W2 m ρ c (Proc.devRef .tc main_arg0) :=
  (Cert.KCarry.at3_main_arg0 m ρ c).trans (Cert.KCarry.at2_main_arg0 m ρ c).symm

theorem e3_h (c : Dev nD) : toMat (V3 m ρ c main_arg0) = X m ρ c := by
  unfold X
  exact congrArg toMat (carryX m ρ c)

theorem e3_agg (c : Dev nD) : toMat (V3 m ρ c main_v12) = A m ρ c := by
  unfold A
  refine congrArg toMat ?_
  show StableHlo.after hostOps1 (W2 m ρ c) (Proc.devRef .tc main_v12) = _
  rw [Cert.KHost1.agg1, Cert.KCarry.at2_main_arg2, Cert.KCarry.at2_main_arg3]

theorem e3_scale (c : Dev nD) : toRow (V3 m ρ c main_v17) = fun _ => (P m c).scale := by
  show toRow (StableHlo.after hostOps1 (W2 m ρ c) (Proc.devRef .tc main_v17)) = _
  rw [Cert.KHost1.scale1, Cert.KCarry.at2_main_arg5]; rfl

theorem e3_b1 (c : Dev nD) : toRow (V3 m ρ c main_v20) = (P m c).b1 := by
  show toRow (StableHlo.after hostOps1 (W2 m ρ c) (Proc.devRef .tc main_v20)) = _
  rw [Cert.KHost1.b1, Cert.KCarry.at2_main_arg7]; rfl

theorem e3_W1 (c : Dev nD) : toMat (V3 m ρ c main_v22) = (P m c).W1 := by
  show toMat (StableHlo.after hostOps1 (W2 m ρ c) (Proc.devRef .tc main_v22)) = _
  rw [Cert.KHost1.W1, Cert.KCarry.at2_main_arg6]; rfl

/-- The first affine map's output as region 1 leaves it. -/
def L1 (c : Dev nD) : Mat 100000 128 := lin1K (P m c) (X m ρ c) (A m ρ c)

theorem reg1_L (c : Dev nD) : Cert.KReg1.L (V3 m ρ) c = L1 m ρ c := by
  unfold Cert.KReg1.L L1 lin1K xRow
  rw [e3_h, e3_agg, e3_scale, e3_b1, e3_W1]

theorem x4_lin (c : Dev nD) : V4 m ρ c main_v23_0 = ofMat (L1 m ρ c) :=
  ((hF1 m ρ c 5).symm.trans (Cert.KReg1.lin_eq (V3 m ρ) c)).trans (congrArg ofMat (reg1_L m ρ c))
theorem x4_sum (c : Dev nD) : V4 m ρ c main_v23_1 = fun i => tileSum (L1 m ρ c) (i 0) (i 2) :=
  ((hF1 m ρ c 6).symm.trans (Cert.KReg1.sum_eq (V3 m ρ) c)).trans (by rw [reg1_L]; first | done | rfl)
theorem x4_sumsq (c : Dev nD) : V4 m ρ c main_v23_2 = fun i => tileSum (sq (L1 m ρ c)) (i 0) (i 2) :=
  ((hF1 m ρ c 7).symm.trans (Cert.KReg1.sumsq_eq (V3 m ρ) c)).trans (by rw [reg1_L]; first | done | rfl)

/-! ## Region 2's entry -/

theorem e5_lin (c : Dev nD) : toMat (V5 m ρ c main_v23_0) = L1 m ρ c := by
  have h : V5 m ρ c main_v23_0 = V4 m ρ c main_v23_0 := Cert.KCarry.at5_main_v23_0 m ρ c
  rw [h, x4_lin]; rfl

theorem e5_mean (c : Dev nD) : toRow (V5 m ρ c main_v27) = meanK (L1 m ρ c) := by
  show toRow (StableHlo.after hostOps2 (W4 m ρ c) (Proc.devRef .tc main_v27)) = _
  rw [Cert.KHostStats.mean2]
  have h : W4 m ρ c (Proc.devRef .tc main_v23_1) = _ := x4_sum m ρ c
  rw [h]; rfl

theorem e5_var (c : Dev nD) : toRow (V5 m ρ c main_v33) = varK (L1 m ρ c) := by
  show toRow (StableHlo.after hostOps2 (W4 m ρ c) (Proc.devRef .tc main_v33)) = _
  rw [Cert.KHostStats.var2]
  have h1 : W4 m ρ c (Proc.devRef .tc main_v23_1) = _ := x4_sum m ρ c
  have h2 : W4 m ρ c (Proc.devRef .tc main_v23_2) = _ := x4_sumsq m ρ c
  rw [h1, h2]; rfl

theorem e5_g (c : Dev nD) : toRow (V5 m ρ c main_v36) = (P m c).g1 := by
  show toRow (StableHlo.after hostOps2 (W4 m ρ c) (Proc.devRef .tc main_v36)) = _
  rw [Cert.KHostStats.g2, Cert.KCarry.at4_main_arg10]; rfl
theorem e5_be (c : Dev nD) : toRow (V5 m ρ c main_v39) = (P m c).be1 := by
  show toRow (StableHlo.after hostOps2 (W4 m ρ c) (Proc.devRef .tc main_v39)) = _
  rw [Cert.KHostStats.be2, Cert.KCarry.at4_main_arg11]; rfl
theorem e5_b (c : Dev nD) : toRow (V5 m ρ c main_v42) = (P m c).b2 := by
  show toRow (StableHlo.after hostOps2 (W4 m ρ c) (Proc.devRef .tc main_v42)) = _
  rw [Cert.KHostStats.b2, Cert.KCarry.at4_main_arg9]; rfl
theorem e5_W (c : Dev nD) : toMat (V5 m ρ c main_v44) = (P m c).W2 := by
  show toMat (StableHlo.after hostOps2 (W4 m ρ c) (Proc.devRef .tc main_v44)) = _
  rw [Cert.KHostStats.W2, Cert.KCarry.at4_main_arg8]; rfl

/-- The second affine map's output as region 2 leaves it. -/
def L2 (c : Dev nD) : Mat 100000 128 := lin2 (P m c) (z1K (P m c) (L1 m ρ c))

theorem reg2_L (c : Dev nD) : Cert.KReg2.L2 (V5 m ρ) c = L2 m ρ c := by
  unfold Cert.KReg2.L2 L2 lin2 z1K
  rw [e5_lin, e5_mean, e5_var, e5_g, e5_be, e5_b, e5_W]

theorem x6_lin (c : Dev nD) : V6 m ρ c main_v45_0 = ofMat (L2 m ρ c) :=
  ((hF2 m ρ c 7).symm.trans (Cert.KReg2.lin_eq (V5 m ρ) c)).trans (congrArg ofMat (reg2_L m ρ c))
theorem x6_sum (c : Dev nD) : V6 m ρ c main_v45_1 = fun i => tileSum (L2 m ρ c) (i 0) (i 2) :=
  ((hF2 m ρ c 8).symm.trans (Cert.KReg2.sum_eq (V5 m ρ) c)).trans (by rw [reg2_L]; first | done | rfl)
theorem x6_sumsq (c : Dev nD) : V6 m ρ c main_v45_2 = fun i => tileSum (sq (L2 m ρ c)) (i 0) (i 2) :=
  ((hF2 m ρ c 9).symm.trans (Cert.KReg2.sumsq_eq (V5 m ρ) c)).trans (by rw [reg2_L]; first | done | rfl)

/-! ## Region 3's entry -/

theorem e7_lin (c : Dev nD) : toMat (V7 m ρ c main_v45_0) = L2 m ρ c := by
  have h : V7 m ρ c main_v45_0 = V6 m ρ c main_v45_0 := Cert.KCarry.at7_main_v45_0 m ρ c
  rw [h, x6_lin]; rfl
theorem e7_mean (c : Dev nD) : toRow (V7 m ρ c main_v49) = meanK (L2 m ρ c) := by
  show toRow (StableHlo.after hostOps3 (W6 m ρ c) (Proc.devRef .tc main_v49)) = _
  rw [Cert.KHostStats.mean3]
  have h : W6 m ρ c (Proc.devRef .tc main_v45_1) = _ := x6_sum m ρ c
  rw [h]; rfl
theorem e7_var (c : Dev nD) : toRow (V7 m ρ c main_v55) = varK (L2 m ρ c) := by
  show toRow (StableHlo.after hostOps3 (W6 m ρ c) (Proc.devRef .tc main_v55)) = _
  rw [Cert.KHostStats.var3]
  have h1 : W6 m ρ c (Proc.devRef .tc main_v45_1) = _ := x6_sum m ρ c
  have h2 : W6 m ρ c (Proc.devRef .tc main_v45_2) = _ := x6_sumsq m ρ c
  rw [h1, h2]; rfl
theorem e7_g (c : Dev nD) : toRow (V7 m ρ c main_v58) = (P m c).g2 := by
  show toRow (StableHlo.after hostOps3 (W6 m ρ c) (Proc.devRef .tc main_v58)) = _
  rw [Cert.KHostStats.g3, Cert.KCarry.at6_main_arg12]; rfl
theorem e7_be (c : Dev nD) : toRow (V7 m ρ c main_v61) = (P m c).be2 := by
  show toRow (StableHlo.after hostOps3 (W6 m ρ c) (Proc.devRef .tc main_v61)) = _
  rw [Cert.KHostStats.be3, Cert.KCarry.at6_main_arg13]; rfl

/-- The second normalisation's output. -/
def Z2 (c : Dev nD) : Mat 100000 128 := z2K (P m c) (L2 m ρ c)

theorem reg3_Z (c : Dev nD) : Cert.KReg3.Z2 (V7 m ρ) c = Z2 m ρ c := by
  unfold Cert.KReg3.Z2 Z2 z2K
  rw [e7_lin, e7_mean, e7_var, e7_g, e7_be]

theorem x8_sum (c : Dev nD) : V8 m ρ c main_v62_0 = fun i => tileSum (Z2 m ρ c) (i 0) (i 2) :=
  ((hF3 m ρ c 5).symm.trans (Cert.KReg3.sum_eq (V7 m ρ) c)).trans (by rw [reg3_Z]; first | done | rfl)
theorem x8_sumsq (c : Dev nD) : V8 m ρ c main_v62_1 = fun i => tileSum (sq (Z2 m ρ c)) (i 0) (i 2) :=
  ((hF3 m ρ c 6).symm.trans (Cert.KReg3.sumsq_eq (V7 m ρ) c)).trans (by rw [reg3_Z]; first | done | rfl)

/-! ## Region 4's entry -/

theorem e9_lin (c : Dev nD) : toMat (V9 m ρ c main_v45_0) = L2 m ρ c := by
  have h : V9 m ρ c main_v45_0 = V6 m ρ c main_v45_0 := Cert.KCarry.at9_main_v45_0 m ρ c
  rw [h, x6_lin]; rfl
theorem e9_mean2 (c : Dev nD) : toRow (V9 m ρ c main_v49) = meanK (L2 m ρ c) := by
  have h : V9 m ρ c main_v49 = V7 m ρ c main_v49 := Cert.KCarry.at9_main_v49 m ρ c
  rw [h, e7_mean]
theorem e9_var2 (c : Dev nD) : toRow (V9 m ρ c main_v55) = varK (L2 m ρ c) := by
  have h : V9 m ρ c main_v55 = V7 m ρ c main_v55 := Cert.KCarry.at9_main_v55 m ρ c
  rw [h, e7_var]
theorem e9_g2 (c : Dev nD) : toRow (V9 m ρ c main_v58) = (P m c).g2 := by
  have h : V9 m ρ c main_v58 = V7 m ρ c main_v58 := Cert.KCarry.at9_main_v58 m ρ c
  rw [h, e7_g]
theorem e9_be2 (c : Dev nD) : toRow (V9 m ρ c main_v61) = (P m c).be2 := by
  have h : V9 m ρ c main_v61 = V7 m ρ c main_v61 := Cert.KCarry.at9_main_v61 m ρ c
  rw [h, e7_be]
theorem e9_mean3 (c : Dev nD) : toRow (V9 m ρ c main_v66) = meanK (Z2 m ρ c) := by
  show toRow (StableHlo.after hostOps4 (W8 m ρ c) (Proc.devRef .tc main_v66)) = _
  rw [Cert.KHostStats.mean4]
  have h : W8 m ρ c (Proc.devRef .tc main_v62_0) = _ := x8_sum m ρ c
  rw [h]; rfl
theorem e9_var3 (c : Dev nD) : toRow (V9 m ρ c main_v72) = varK (Z2 m ρ c) := by
  show toRow (StableHlo.after hostOps4 (W8 m ρ c) (Proc.devRef .tc main_v72)) = _
  rw [Cert.KHostStats.var4]
  have h1 : W8 m ρ c (Proc.devRef .tc main_v62_0) = _ := x8_sum m ρ c
  have h2 : W8 m ρ c (Proc.devRef .tc main_v62_1) = _ := x8_sumsq m ρ c
  rw [h1, h2]; rfl
theorem e9_g3 (c : Dev nD) : toRow (V9 m ρ c main_v75) = (P m c).g3 := by
  show toRow (StableHlo.after hostOps4 (W8 m ρ c) (Proc.devRef .tc main_v75)) = _
  rw [Cert.KHostStats.g4, Cert.KCarry.at8_main_arg14]; rfl
theorem e9_be3 (c : Dev nD) : toRow (V9 m ρ c main_v78) = (P m c).be3 := by
  show toRow (StableHlo.after hostOps4 (W8 m ρ c) (Proc.devRef .tc main_v78)) = _
  rw [Cert.KHostStats.be4, Cert.KCarry.at8_main_arg15]; rfl
theorem e9_gid (c : Dev nD) : toCol (V9 m ρ c main_v0) = gid m c := by
  exact (congrArg toCol (Cert.KCarry.at9_main_v0 m ρ c)).trans (Cert.KChainCommon.gid_at1 m ρ c)

/-- THE LAYER'S OUTPUT FEATURES. -/
def Hout (c : Dev nD) : Mat 100000 128 := layerK (P m c) (X m ρ c) (A m ρ c)

theorem reg4_H (c : Dev nD) : Cert.KReg4.H (V9 m ρ) c = Hout m ρ c := by
  unfold Cert.KReg4.H Hout layerK outK
  rw [e9_lin, e9_mean2, e9_var2, e9_g2, e9_be2, e9_mean3, e9_var3, e9_g3, e9_be3]
  rfl

theorem x10_out (c : Dev nD) : V10 m ρ c main_v79_0 = ofMat (Hout m ρ c) :=
  ((hF4 m ρ c 10).symm.trans (Cert.KReg4.out_eq (V9 m ρ) c)).trans (congrArg ofMat (reg4_H m ρ c))
theorem x10_pool (c : Dev nD) : V10 m ρ c main_v79_1 = fun i => poolTile (Hout m ρ c) (gid m c) (i 0) (i 1) (i 2) :=
  ((hF4 m ρ c 11).symm.trans (Cert.KReg4.pool_eq (V9 m ρ) c)).trans (by rw [reg4_H, e9_gid])

end Cert.KChain0

end
-- ==== Proof.KHost1L1.lean ====
/-
  The first two host stretches of the idealized kernel program, read for an arbitrary valuation.

  The first stretch reshapes the vector of graph ids to one column. The second adds the pooled partial sums over
  the 20 tiles; aggregates the features along the edges (the source indices normalised, the rows gathered, the rows
  added into zeros by destination); broadcasts one plus this layer's eps to a row; and takes this layer's row of
  the first bias and this layer's matrix of the first weights. Each result is stated over the valuation's entries
  at the operands only, and read at an index: a shape cast reads the operand at the same row-major position, a
  unit-stride slice the operand shifted by the offsets, a broadcast the operand at the named coordinates, and the
  host's sum from the zero word is the sum over the reduced axis. The aggregation is not read at an index: it is
  the composed term itself.
-/
import proofs.«412161_j3753801416792_2_alg».proof.Proof.Gen.KernelIdeal.Launch
import proofs.«412161_j3753801416792_2_alg».proof.Proof.Conv
import proofs.«412161_j3753801416792_2_alg».proof.Proof.Agg
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KHost1L1

open Cert.KernelIdeal Cert.KernelIdeal.Gen Cert.Spec Cert.Conv Idealize.ShloMosaic Idealize.ShloMosaic.ValueIdx Idealize.ShloMosaic.StableHlo

variable (V : Valuation τ sig (Elt Ideal))

/-- The graph ids as a column: the reshape of a vector to one column reads the vector. -/
theorem gid0 : toCol (after hostOps0 V (Proc.devRef .tc main_v0)) = fun n => V (Proc.devRef .tc main_arg4) (ix1 n) := by
  after_results_simp
  funext n
  show shapeCast S100000x1 (V (Proc.devRef .tc main_arg4)) shapeCasts_S100000_S100000x1 (ix2 n (0 : Fin 1)) = _
  exact shapeCast_apply _ _ _ (ix1 n) (by
    rw [Shape.rowMajor_val_one, Shape.rowMajor_val_two]
    show n.val = n.val * 1 + 0
    omega)

/-- The pooled partials added over the 20 tiles. -/
theorem pooled1 : toMat (after hostOps5 V (Proc.devRef .tc main_v80)) = fun g d => (∑ t : Fin 20, V (Proc.devRef .tc main_v79_1) (ix3 t g d) : EReal) := by
  after_results_simp
  funext g d
  show Host.reduceAdd (V (Proc.devRef .tc main_v79_1)) (constant (F := Ideal) S_ .f32 0x00000000#32) reducesTo_S20x64x128_S64x128_d0 h_S_ (ix2 g d) = _
  rw [hostReduceAdd_apply, Ideal.hostReduceAdd_single reducesTo_S20x64x128_S64x128_d0 (by decide), constant_apply, Ideal.ofBits_zero_f32, zero_add]
  refine Finset.sum_congr rfl fun t _ => congrArg (V (Proc.devRef .tc main_v79_1)) (funext fun a => ?_)
  match a with
  | ⟨0, _⟩ => exact Fin.ext rfl
  | ⟨1, _⟩ => exact Fin.ext rfl
  | ⟨2, _⟩ => exact Fin.ext rfl

/-- The edge aggregation is the composed gather and scatter-add of the features. -/
theorem agg1 : after hostOps5 V (Proc.devRef .tc main_v90) = Cert.Agg.aggT (V (Proc.devRef .tc main_v79_0)) (V (Proc.devRef .tc main_arg2)) (V (Proc.devRef .tc main_arg3)) := by
  after_results_simp
  unfold Cert.Agg.aggT Cert.Agg.srcIdx
  rfl

/-- The scale row: one plus this layer's eps, at every column. -/
theorem scale1 : toRow (after hostOps5 V (Proc.devRef .tc main_v95)) = fun _ => Ideal.ofBits .f32 0x3F800000#32 + V (Proc.devRef .tc main_arg5) (ix1 (1 : Fin 4)) := by
  after_results_simp
  funext j
  show broadcastInDim S1x128 _ bcast_S1x1_S1x128_0_1
      (shapeCast S1x1 (addf (constant (F := Ideal) S_ .f32 0x3F800000#32)
        (shapeCast S_ (extractStridedSlice S1 _ (V (Proc.devRef .tc main_arg5)) slices_S4_S1_1) shapeCasts_S1_S_)) shapeCasts_S_S1x1)
      (ix2 (0 : Fin 1) j) = _
  rw [broadcastInDim_apply _ _ _ _ (ix2 (0 : Fin 1) (0 : Fin 1)) (fun a => match a with | ⟨0, _⟩ => rfl | ⟨1, _⟩ => rfl),
    shapeCast_apply _ _ (ix2 (0 : Fin 1) (0 : Fin 1)) ix0 rfl, addf_apply, constant_apply, shapeCast_apply _ _ ix0 (ix1 (0 : Fin 1)) rfl,
    extractStridedSlice_apply _ _ _ _ (ix1 (1 : Fin 4)) (fun a => match a with | ⟨0, _⟩ => rfl)]

/-- This layer's row of the first bias. -/
theorem b1 : toRow (after hostOps5 V (Proc.devRef .tc main_v98)) = fun j => V (Proc.devRef .tc main_arg7) (ix2 (1 : Fin 4) j) := by
  after_results_simp
  funext j
  show shapeCast S1x128 (shapeCast S128 (extractStridedSlice S1x128 _ (V (Proc.devRef .tc main_arg7)) slices_S4x128_S1x128_1_0) shapeCasts_S1x128_S128) shapeCasts_S128_S1x128 (ix2 (0 : Fin 1) j) = _
  rw [shapeCast_a_1a_apply, shapeCast_1a_a_apply]
  exact extractStridedSlice_apply _ _ _ _ (ix2 (1 : Fin 4) j) (fun a => match a with
    | ⟨0, _⟩ => rfl
    | ⟨1, _⟩ => (Nat.zero_add _).symm)

/-- This layer's matrix of the first weights. -/
theorem W1 : toMat (after hostOps5 V (Proc.devRef .tc main_v100)) = fun k j => V (Proc.devRef .tc main_arg6) (ix3 (1 : Fin 4) k j) := by
  after_results_simp
  funext k j
  show shapeCast S128x128 (extractStridedSlice S1x128x128 _ (V (Proc.devRef .tc main_arg6)) slices_S4x128x128_S1x128x128_1_0_0) shapeCasts_S1x128x128_S128x128 (ix2 k j) = _
  rw [shapeCast_1ab_ab_apply]
  exact extractStridedSlice_apply _ _ _ _ (ix3 (1 : Fin 4) k j) (fun a => match a with
    | ⟨0, _⟩ => rfl
    | ⟨1, _⟩ => (Nat.zero_add _).symm
    | ⟨2, _⟩ => (Nat.zero_add _).symm)

end Cert.KHost1L1

end
-- ==== Proof.KHostStatsL1.lean ====
/-
  Three host stretches of the idealized kernel program, read for an arbitrary valuation.

  Each stretch takes a region's per-tile partial column sums — two arrays of twenty one-row tiles, the sums
  and the sums of squares — to a mean row and a variance row,

      mean = (the tiles added) / N,      var = max ((the squares' tiles added) / N - mean * mean) 0,

  N the node count as a binary32 word, and cuts this layer's row out of each parameter array (and, in the first
  stretch, this layer's matrix out of the stack of weight matrices) for the next region. Every statement is about
  the valuation after the stretch at one result buffer, in terms of the valuation before it at the operand buffers.
-/
import proofs.«412161_j3753801416792_2_alg».proof.Proof.Gen.KernelIdeal.Launch
import proofs.«412161_j3753801416792_2_alg».proof.Proof.Conv
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KHostStatsL1

open Cert.KernelIdeal Cert.KernelIdeal.Gen Cert.Spec Cert.Conv Idealize.ShloMosaic Idealize.ShloMosaic.ValueIdx Idealize.ShloMosaic.StableHlo
open Idealize.SL.Sem

/-- The per-tile partial column sums added over the twenty tiles. -/
def tiles (p : S20x1x128.Idx → EReal) : Row 128 := fun j => ∑ t : Fin 20, p (ix3 t (0 : Fin 1) j)

/-- The host's sum over the tile axis, read at a column: the sum of the twenty tiles' entries there. -/
theorem tileSum_apply (p : S20x1x128.Idx → EReal) (hr : S20x1x128.ReducesTo [0] S1x128) (hu : 0 < S_.numel) (j : Fin 128) :
    Host.reduceAdd (F := Ideal) p (constant (F := Ideal) S_ .f32 0x00000000#32) hr hu (ix2 (0 : Fin 1) j) = tiles p j := by
  rw [hostReduceAdd_apply, Ideal.hostReduceAdd_single hr (by decide : S20x1x128.Reduces [0] S1x128), constant_apply,
    Ideal.ofBits_zero_f32, zero_add]
  unfold tiles
  refine Finset.sum_congr rfl fun t _ => congrArg p (funext fun c => Fin.ext ?_)
  rw [Shape.Reduces.lift_val]
  unfold Shape.Reduces.liftVal
  match c with
  | ⟨0, _⟩ => rfl
  | ⟨1, _⟩ => rfl
  | ⟨2, _⟩ => rfl

/-- The mean row: the tiles' sum divided by the node count, read at a column. -/
theorem meanRow_apply (p : S20x1x128.Idx → EReal) (hr : S20x1x128.ReducesTo [0] S1x128) (hu : 0 < S_.numel)
    (hb : S_.BroadcastsInDim S1x128 (![] : Fin 0 → Fin S1x128.rank)) (j : Fin 128) :
    Host.divf (F := Ideal) (Host.reduceAdd (F := Ideal) p (constant (F := Ideal) S_ .f32 0x00000000#32) hr hu)
      (broadcastInDim S1x128 ![] hb (constant (F := Ideal) S_ .f32 0x47C35000#32)) (ix2 (0 : Fin 1) j)
      = Ideal.div (tiles p j) cN := by
  rw [hostDivf_apply, tileSum_apply, broadcastInDim_scalar_apply, constant_apply]
  rfl

/-- The variance row: the mean of the squares less the square of the mean, clamped below at zero, read at a column. -/
theorem varRow_apply (p q : S20x1x128.Idx → EReal) (hr : S20x1x128.ReducesTo [0] S1x128) (hu : 0 < S_.numel)
    (hb : S_.BroadcastsInDim S1x128 (![] : Fin 0 → Fin S1x128.rank)) (j : Fin 128) :
    maximumf (F := Ideal)
      (subf (F := Ideal)
        (Host.divf (F := Ideal) (Host.reduceAdd (F := Ideal) q (constant (F := Ideal) S_ .f32 0x00000000#32) hr hu)
          (broadcastInDim S1x128 ![] hb (constant (F := Ideal) S_ .f32 0x47C35000#32)))
        (mulf (F := Ideal)
          (Host.divf (F := Ideal) (Host.reduceAdd (F := Ideal) p (constant (F := Ideal) S_ .f32 0x00000000#32) hr hu)
            (broadcastInDim S1x128 ![] hb (constant (F := Ideal) S_ .f32 0x47C35000#32)))
          (Host.divf (F := Ideal) (Host.reduceAdd (F := Ideal) p (constant (F := Ideal) S_ .f32 0x00000000#32) hr hu)
            (broadcastInDim S1x128 ![] hb (constant (F := Ideal) S_ .f32 0x47C35000#32)))))
      (broadcastInDim S1x128 ![] hb (constant (F := Ideal) S_ .f32 0x00000000#32)) (ix2 (0 : Fin 1) j)
      = max (Ideal.div (tiles q j) cN - Ideal.div (tiles p j) cN * Ideal.div (tiles p j) cN) 0 := by
  rw [maximumf_apply, subf_apply, mulf_apply, meanRow_apply, meanRow_apply, broadcastInDim_scalar_apply, constant_apply,
    Ideal.ofBits_zero_f32]

/-- Row `r` of a four-row array, cut out as a one-row array, flattened and made one row again, read at a column. -/
theorem rowSlice_apply (x : S4x128.Idx → EReal) {o : ℕ} (hs : S4x128.Slices ![o, 0] S1x128)
    (h1 : S1x128.ShapeCasts S128) (h2 : S128.ShapeCasts S1x128) (r : Fin 4) (hr : r.val = o) (j : Fin 128) :
    shapeCast S1x128 (shapeCast S128 (extractStridedSlice S1x128 ![o, 0] x hs) h1) h2 (ix2 (0 : Fin 1) j) = x (ix2 r j) := by
  rw [shapeCast_a_1a_apply, shapeCast_1a_a_apply]
  exact slice2_axis0_apply o x hs (0 : Fin 1) j r hr

/-- Matrix `r` of a stack of four, cut out as a stack of one and made a matrix, read at an entry. -/
theorem matSlice_apply (x : S4x128x128.Idx → EReal) {o : ℕ} (hs : S4x128x128.Slices ![o, 0, 0] S1x128x128)
    (h1 : S1x128x128.ShapeCasts S128x128) (r : Fin 4) (hr : r.val = o) (k j : Fin 128) :
    shapeCast S128x128 (extractStridedSlice S1x128x128 ![o, 0, 0] x hs) h1 (ix2 k j) = x (ix3 r k j) := by
  rw [shapeCast_1ab_ab_apply]
  exact extractStridedSlice_apply _ x hs _ _ (fun a => by
    match a with
    | ⟨0, _⟩ => exact hr
    | ⟨1, _⟩ => exact (Nat.zero_add _).symm
    | ⟨2, _⟩ => exact (Nat.zero_add _).symm)

variable (V : Valuation τ sig (Elt Ideal))

/-! ## The stretch hostOps6 -/

theorem mean2 : toRow (after hostOps6 V (Proc.devRef .tc main_v105)) = fun j => Ideal.div (tiles (V (Proc.devRef .tc main_v101_1)) j) cN := by
  funext j
  unfold toRow
  after_results
  exact meanRow_apply _ _ _ _ j

theorem var2 : toRow (after hostOps6 V (Proc.devRef .tc main_v111)) = fun j => max (Ideal.div (tiles (V (Proc.devRef .tc main_v101_2)) j) cN - Ideal.div (tiles (V (Proc.devRef .tc main_v101_1)) j) cN * Ideal.div (tiles (V (Proc.devRef .tc main_v101_1)) j) cN) 0 := by
  funext j
  unfold toRow
  after_results
  exact varRow_apply _ _ _ _ _ j

theorem g2 : toRow (after hostOps6 V (Proc.devRef .tc main_v114)) = fun j => V (Proc.devRef .tc main_arg10) (ix2 (1 : Fin 4) j) := by
  funext j
  unfold toRow
  after_results
  exact rowSlice_apply _ _ _ _ (1 : Fin 4) rfl j

theorem be2 : toRow (after hostOps6 V (Proc.devRef .tc main_v117)) = fun j => V (Proc.devRef .tc main_arg11) (ix2 (1 : Fin 4) j) := by
  funext j
  unfold toRow
  after_results
  exact rowSlice_apply _ _ _ _ (1 : Fin 4) rfl j

theorem b2 : toRow (after hostOps6 V (Proc.devRef .tc main_v120)) = fun j => V (Proc.devRef .tc main_arg9) (ix2 (1 : Fin 4) j) := by
  funext j
  unfold toRow
  after_results
  exact rowSlice_apply _ _ _ _ (1 : Fin 4) rfl j

theorem W2 : toMat (after hostOps6 V (Proc.devRef .tc main_v122)) = fun k j => V (Proc.devRef .tc main_arg8) (ix3 (1 : Fin 4) k j) := by
  funext k j
  unfold toMat
  after_results
  exact matSlice_apply _ _ _ (1 : Fin 4) rfl k j

/-! ## The stretch hostOps7 -/

theorem mean3 : toRow (after hostOps7 V (Proc.devRef .tc main_v127)) = fun j => Ideal.div (tiles (V (Proc.devRef .tc main_v123_1)) j) cN := by
  funext j
  unfold toRow
  after_results
  exact meanRow_apply _ _ _ _ j

theorem var3 : toRow (after hostOps7 V (Proc.devRef .tc main_v133)) = fun j => max (Ideal.div (tiles (V (Proc.devRef .tc main_v123_2)) j) cN - Ideal.div (tiles (V (Proc.devRef .tc main_v123_1)) j) cN * Ideal.div (tiles (V (Proc.devRef .tc main_v123_1)) j) cN) 0 := by
  funext j
  unfold toRow
  after_results
  exact varRow_apply _ _ _ _ _ j

theorem g3 : toRow (after hostOps7 V (Proc.devRef .tc main_v136)) = fun j => V (Proc.devRef .tc main_arg12) (ix2 (1 : Fin 4) j) := by
  funext j
  unfold toRow
  after_results
  exact rowSlice_apply _ _ _ _ (1 : Fin 4) rfl j

theorem be3 : toRow (after hostOps7 V (Proc.devRef .tc main_v139)) = fun j => V (Proc.devRef .tc main_arg13) (ix2 (1 : Fin 4) j) := by
  funext j
  unfold toRow
  after_results
  exact rowSlice_apply _ _ _ _ (1 : Fin 4) rfl j

/-! ## The stretch hostOps8 -/

theorem mean4 : toRow (after hostOps8 V (Proc.devRef .tc main_v144)) = fun j => Ideal.div (tiles (V (Proc.devRef .tc main_v140_0)) j) cN := by
  funext j
  unfold toRow
  after_results
  exact meanRow_apply _ _ _ _ j

theorem var4 : toRow (after hostOps8 V (Proc.devRef .tc main_v150)) = fun j => max (Ideal.div (tiles (V (Proc.devRef .tc main_v140_1)) j) cN - Ideal.div (tiles (V (Proc.devRef .tc main_v140_0)) j) cN * Ideal.div (tiles (V (Proc.devRef .tc main_v140_0)) j) cN) 0 := by
  funext j
  unfold toRow
  after_results
  exact varRow_apply _ _ _ _ _ j

theorem g4 : toRow (after hostOps8 V (Proc.devRef .tc main_v153)) = fun j => V (Proc.devRef .tc main_arg14) (ix2 (1 : Fin 4) j) := by
  funext j
  unfold toRow
  after_results
  exact rowSlice_apply _ _ _ _ (1 : Fin 4) rfl j

theorem be4 : toRow (after hostOps8 V (Proc.devRef .tc main_v156)) = fun j => V (Proc.devRef .tc main_arg15) (ix2 (1 : Fin 4) j) := by
  funext j
  unfold toRow
  after_results
  exact rowSlice_apply _ _ _ _ (1 : Fin 4) rfl j

end Cert.KHostStatsL1

end
-- ==== Proof.KReg5.lean ====
/-
  The value of the first kernel stage of a layer: for every node tile the idealized kernel multiplies the features by
  the scale row, adds the aggregate, multiplies by the first weight matrix and adds the bias row, stores the result, and
  stores the tile's column sums of the result and of its square. After the 20 tiles the three output arrays are:
  the affine map over all 100000 nodes; per tile its column sums; per tile its column sums of squares.
-/
import proofs.«412161_j3753801416792_2_alg».proof.Proof.KIFrameR5
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg5

open Cert.KernelIdeal Cert.KernelIdeal.Gen Cert.Spec Cert.Conv Idealize.ShloMosaic Idealize.ShloMosaic.ValueIdx Idealize.ShloMosaic.TcCoe Idealize.ShloMosaic.Pipeline

/-! ## The matrix product of a row tile, entry by entry -/

/-- Left operand, row axis: the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Left operand, column axis: the contracted index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- Right operand, row axis: the contracted index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- Right operand, column axis: the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile product into the zero accumulator at row r, column j: the sum over the 128 contracted columns. -/
theorem tile_matmul_apply (a : FVec Ideal S5000x128 .bf16) (b : FVec Ideal S128x128 .bf16) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

/-! ## The three stored values of one tile, entry by entry -/

/-- The affine map of a tile at row r, column j: the scaled features plus the aggregate, times the weights, plus the bias. -/
theorem lin_pay_apply (x0 : Vec Ideal S5000x128 .f32) (x2 : Vec Ideal S1x128 .f32) (x1 : Vec Ideal S5000x128 .f32)
    (x3 : Vec Ideal S128x128 .f32) (x4 : Vec Ideal S1x128 .f32) (r : Fin 5000) (j : Fin 128) :
    k5_pay1 x0 x2 x1 x3 x4 (ix2 r j)
      = (∑ k : Fin 128, (x0 (ix2 r k) * x2 (ix2 (0 : Fin 1) k) + x1 (ix2 r k)) * x3 (ix2 k j)) + x4 (ix2 (0 : Fin 1) j) := by
  unfold k5_pay1
  simp only [shapeCast_self]
  refine (addf_apply _ _ _).trans ?_
  refine congrArg₂ (· + ·) ?_ (broadcastTo_1b_ab_apply x4 broadcasts_S1x128_S5000x128 r j)
  refine (tile_matmul_apply _ _ r j).trans ?_
  refine Finset.sum_congr rfl fun k _ => ?_
  refine congrArg₂ (· * ·) ?_ rfl
  show x0 (ix2 r k) * broadcastTo S5000x128 x2 broadcasts_S1x128_S5000x128 (ix2 r k) + x1 (ix2 r k) = _
  rw [broadcastTo_1b_ab_apply x2 broadcasts_S1x128_S5000x128 r k]

/-- A column sum over the 5000 rows of a tile. -/
theorem tile_colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext ax
  apply Fin.ext
  match ax with
  | ⟨0, _⟩ => rfl
  | ⟨1, _⟩ => rfl

/-- The stored column sums of a tile at column j. -/
theorem sum_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k5_pay2 x0 x2 x1 x3 x4 (ix3 u v j) = ∑ r : Fin 5000, k5_pay1 x0 x2 x1 x3 x4 (ix2 r j) := by
  unfold k5_pay2
  refine (shapeCast_ab_1ab_apply _ shapeCasts_S1x128_S1x1x128 u v j).trans ?_
  refine (shapeCast_a_1a_apply _ shapeCasts_S128_S1x128 v j).trans ?_
  exact tile_colsum_apply _ _ _ j

/-- The stored column sums of squares of a tile at column j. -/
theorem sumsq_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k5_pay3 x0 x2 x1 x3 x4 (ix3 u v j)
      = ∑ r : Fin 5000, k5_pay1 x0 x2 x1 x3 x4 (ix2 r j) * k5_pay1 x0 x2 x1 x3 x4 (ix2 r j) := by
  unfold k5_pay3
  refine (shapeCast_ab_1ab_apply _ shapeCasts_S1x128_S1x1x128 u v j).trans ?_
  refine (shapeCast_a_1a_apply _ shapeCasts_S128_S1x128 v j).trans ?_
  refine (tile_colsum_apply _ _ _ j).trans ?_
  rfl

/-! ## Where a tile sits in the arrays -/

/-- The grid point as a tile number. -/
abbrev tileOf (t : Fin cfg5.N) : Fin 20 := t.cast N_5

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: row tiles move with the point, the small arrays stay, the per-tile
    outputs move with the point on their leading axis. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 3) = t.val ∧ win5_6.index t (1 : Fin 3) = 0 ∧ win5_6.index t (2 : Fin 3) = 0
    ∧ win5_7.index t (0 : Fin 3) = t.val ∧ win5_7.index t (1 : Fin 3) = 0 ∧ win5_7.index t (2 : Fin 3) = 0 :=
  (by decide +kernel : ∀ t : Fin grid5.N, _)

/-- Row r, column k of the feature tile at point t is row 5000 t + r of the array. -/
theorem emb_feat (t : Fin cfg5.N) (r : Fin 5000) (k : Fin 128) :
    ((cfg5.win 0).blk t).view.emb (ix2 r k) = ix2 (tileRow (tileOf t) r) k := by
  obtain ⟨e0, e1, -⟩ := index_facts t
  funext a; apply Fin.ext
  match a with
  | ⟨0, _⟩ => show win5_0.index t (0 : Fin 2) * 5000 + 1 * r.val = t.val * 5000 + r.val; rw [e0]; omega
  | ⟨1, _⟩ => show win5_0.index t (1 : Fin 2) * 128 + 1 * k.val = k.val; rw [e1]; omega

/-- The same for the aggregate tile. -/
theorem emb_agg (t : Fin cfg5.N) (r : Fin 5000) (k : Fin 128) :
    ((cfg5.win 1).blk t).view.emb (ix2 r k) = ix2 (tileRow (tileOf t) r) k := by
  obtain ⟨-, -, e0, e1, -⟩ := index_facts t
  funext a; apply Fin.ext
  match a with
  | ⟨0, _⟩ => show win5_1.index t (0 : Fin 2) * 5000 + 1 * r.val = t.val * 5000 + r.val; rw [e0]; omega
  | ⟨1, _⟩ => show win5_1.index t (1 : Fin 2) * 128 + 1 * k.val = k.val; rw [e1]; omega

/-- The scale row is read whole at every point. -/
theorem emb_scale (t : Fin cfg5.N) (u : Fin 1) (k : Fin 128) :
    ((cfg5.win 2).blk t).view.emb (ix2 u k) = ix2 (0 : Fin 1) k := by
  obtain ⟨-, -, -, -, e0, e1, -⟩ := index_facts t
  funext a; apply Fin.ext
  match a with
  | ⟨0, _⟩ => show win5_2.index t (0 : Fin 2) * 1 + 1 * u.val = 0; rw [e0]; omega
  | ⟨1, _⟩ => show win5_2.index t (1 : Fin 2) * 128 + 1 * k.val = k.val; rw [e1]; omega

/-- The weights are read whole at every point. -/
theorem emb_weight (t : Fin cfg5.N) (k : Fin 128) (j : Fin 128) :
    ((cfg5.win 3).blk t).view.emb (ix2 k j) = ix2 k j := by
  obtain ⟨-, -, -, -, -, -, e0, e1, -⟩ := index_facts t
  funext a; apply Fin.ext
  match a with
  | ⟨0, _⟩ => show win5_3.index t (0 : Fin 2) * 128 + 1 * k.val = k.val; rw [e0]; omega
  | ⟨1, _⟩ => show win5_3.index t (1 : Fin 2) * 128 + 1 * j.val = j.val; rw [e1]; omega

/-- The bias row is read whole at every point. -/
theorem emb_bias (t : Fin cfg5.N) (u : Fin 1) (j : Fin 128) :
    ((cfg5.win 4).blk t).view.emb (ix2 u j) = ix2 (0 : Fin 1) j := by
  obtain ⟨-, -, -, -, -, -, -, -, e0, e1, -⟩ := index_facts t
  funext a; apply Fin.ext
  match a with
  | ⟨0, _⟩ => show win5_4.index t (0 : Fin 2) * 1 + 1 * u.val = 0; rw [e0]; omega
  | ⟨1, _⟩ => show win5_4.index t (1 : Fin 2) * 128 + 1 * j.val = j.val; rw [e1]; omega

/-- Row r, column j of the output tile at point t is row 5000 t + r of the output array. -/
theorem emb_lin (t : Fin cfg5.N) (r : Fin 5000) (j : Fin 128) :
    ((cfg5.win 5).blk t).view.emb (ix2 r j) = ix2 (tileRow (tileOf t) r) j := by
  obtain ⟨-, -, -, -, -, -, -, -, -, -, e0, e1, -⟩ := index_facts t
  funext a; apply Fin.ext
  match a with
  | ⟨0, _⟩ => show win5_5.index t (0 : Fin 2) * 5000 + 1 * r.val = t.val * 5000 + r.val; rw [e0]; omega
  | ⟨1, _⟩ => show win5_5.index t (1 : Fin 2) * 128 + 1 * j.val = j.val; rw [e1]; omega

/-- The column sums of tile t are row t of their array. -/
theorem emb_sum (t : Fin cfg5.N) (u v : Fin 1) (j : Fin 128) :
    ((cfg5.win 6).blk t).view.emb (ix3 u v j) = ix3 (tileOf t) (0 : Fin 1) j := by
  obtain ⟨-, -, -, -, -, -, -, -, -, -, -, -, e0, e1, e2, -⟩ := index_facts t
  funext a; apply Fin.ext
  match a with
  | ⟨0, _⟩ => show win5_6.index t (0 : Fin 3) * 1 + 1 * u.val = t.val; rw [e0]; omega
  | ⟨1, _⟩ => show win5_6.index t (1 : Fin 3) * 1 + 1 * v.val = 0; rw [e1]; omega
  | ⟨2, _⟩ => show win5_6.index t (2 : Fin 3) * 128 + 1 * j.val = j.val; rw [e2]; omega

/-- The column sums of squares of tile t are row t of their array. -/
theorem emb_sumsq (t : Fin cfg5.N) (u v : Fin 1) (j : Fin 128) :
    ((cfg5.win 7).blk t).view.emb (ix3 u v j) = ix3 (tileOf t) (0 : Fin 1) j := by
  obtain ⟨-, -, -, -, -, -, -, -, -, -, -, -, -, -, -, e0, e1, e2⟩ := index_facts t
  funext a; apply Fin.ext
  match a with
  | ⟨0, _⟩ => show win5_7.index t (0 : Fin 3) * 1 + 1 * u.val = t.val; rw [e0]; omega
  | ⟨1, _⟩ => show win5_7.index t (1 : Fin 3) * 1 + 1 * v.val = 0; rw [e1]; omega
  | ⟨2, _⟩ => show win5_7.index t (2 : Fin 3) * 128 + 1 * j.val = j.val; rw [e2]; omega

/-! ## Every entry of each output array lies in some tile -/

/-- An entry of the output array is in the tile of point t iff each coordinate is in the tile's range. -/
theorem mem_lin (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v101_0).slice (win5_5.rect t)).set ↔ _
  rw [View.set_slice_whole, Rect.mem_set_unit]
  exact Iff.rfl

theorem mem_sum (t : Fin cfg5.N) (i : S20x1x128.Idx) :
    i ∈ ((cfg5.win 6).blk t).view.set ↔ ∀ a : Fin 3, win5_6.index t a * S1x1x128.size a ≤ (i a).val
      ∧ (i a).val < win5_6.index t a * S1x1x128.size a + S1x1x128.size a := by
  show i ∈ ((View.whole main_v101_1).slice (win5_6.rect t)).set ↔ _
  rw [View.set_slice_whole, Rect.mem_set_unit]
  exact Iff.rfl

theorem mem_sumsq (t : Fin cfg5.N) (i : S20x1x128.Idx) :
    i ∈ ((cfg5.win 7).blk t).view.set ↔ ∀ a : Fin 3, win5_7.index t a * S1x1x128.size a ≤ (i a).val
      ∧ (i a).val < win5_7.index t a * S1x1x128.size a + S1x1x128.size a := by
  show i ∈ ((View.whole main_v101_2).slice (win5_7.rect t)).set ↔ _
  rw [View.set_slice_whole, Rect.mem_set_unit]
  exact Iff.rfl

/-- Row n of the output array is in tile n / 5000. -/
theorem cover_lin (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_5 _, ?_⟩
  rw [mem_lin]
  obtain ⟨-, -, -, -, -, -, -, -, -, -, e0, e1, -⟩ := index_facts ⟨(i 0).val / 5000, by rw [hN]; omega⟩
  intro a
  match a with
  | ⟨0, _⟩ =>
    show win5_5.index ⟨(i 0).val / 5000, _⟩ (0 : Fin 2) * 5000 ≤ (i 0).val
      ∧ (i 0).val < win5_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, _⟩ (1 : Fin 2) * 128 ≤ (i 1).val
      ∧ (i 1).val < win5_5.index ⟨(i 0).val / 5000, _⟩ (1 : Fin 2) * 128 + 128
    rw [e1]; omega

/-- Row t of the column sums is tile t's. -/
theorem cover_sum (i : S20x1x128.Idx) :
    ∃ t : Fin cfg5.N, (cfg5.win 6).flush t = true ∧ i ∈ ((cfg5.win 6).blk t).view.set := by
  have hi0 : (i 0).val < 20 := (i 0).isLt
  have hi1 : (i 1).val < 1 := (i 1).isLt
  have hi2 : (i 2).val < 128 := (i 2).isLt
  have hN : cfg5.N = 20 := N_5
  refine ⟨⟨(i 0).val, by rw [hN]; omega⟩, flush5_6 _, ?_⟩
  rw [mem_sum]
  obtain ⟨-, -, -, -, -, -, -, -, -, -, -, -, e0, e1, e2, -⟩ := index_facts ⟨(i 0).val, by rw [hN]; omega⟩
  intro a
  match a with
  | ⟨0, _⟩ =>
    show win5_6.index ⟨(i 0).val, _⟩ (0 : Fin 3) * 1 ≤ (i 0).val ∧ (i 0).val < win5_6.index ⟨(i 0).val, _⟩ (0 : Fin 3) * 1 + 1
    rw [e0]; show (i 0).val * 1 ≤ (i 0).val ∧ (i 0).val < (i 0).val * 1 + 1; omega
  | ⟨1, _⟩ =>
    show win5_6.index ⟨(i 0).val, _⟩ (1 : Fin 3) * 1 ≤ (i 1).val ∧ (i 1).val < win5_6.index ⟨(i 0).val, _⟩ (1 : Fin 3) * 1 + 1
    rw [e1]; omega
  | ⟨2, _⟩ =>
    show win5_6.index ⟨(i 0).val, _⟩ (2 : Fin 3) * 128 ≤ (i 2).val ∧ (i 2).val < win5_6.index ⟨(i 0).val, _⟩ (2 : Fin 3) * 128 + 128
    rw [e2]; omega

/-- Row t of the column sums of squares is tile t's. -/
theorem cover_sumsq (i : S20x1x128.Idx) :
    ∃ t : Fin cfg5.N, (cfg5.win 7).flush t = true ∧ i ∈ ((cfg5.win 7).blk t).view.set := by
  have hi0 : (i 0).val < 20 := (i 0).isLt
  have hi1 : (i 1).val < 1 := (i 1).isLt
  have hi2 : (i 2).val < 128 := (i 2).isLt
  have hN : cfg5.N = 20 := N_5
  refine ⟨⟨(i 0).val, by rw [hN]; omega⟩, flush5_7 _, ?_⟩
  rw [mem_sumsq]
  obtain ⟨-, -, -, -, -, -, -, -, -, -, -, -, -, -, -, e0, e1, e2⟩ := index_facts ⟨(i 0).val, by rw [hN]; omega⟩
  intro a
  match a with
  | ⟨0, _⟩ =>
    show win5_7.index ⟨(i 0).val, _⟩ (0 : Fin 3) * 1 ≤ (i 0).val ∧ (i 0).val < win5_7.index ⟨(i 0).val, _⟩ (0 : Fin 3) * 1 + 1
    rw [e0]; show (i 0).val * 1 ≤ (i 0).val ∧ (i 0).val < (i 0).val * 1 + 1; omega
  | ⟨1, _⟩ =>
    show win5_7.index ⟨(i 0).val, _⟩ (1 : Fin 3) * 1 ≤ (i 1).val ∧ (i 1).val < win5_7.index ⟨(i 0).val, _⟩ (1 : Fin 3) * 1 + 1
    rw [e1]; omega
  | ⟨2, _⟩ =>
    show win5_7.index ⟨(i 0).val, _⟩ (2 : Fin 3) * 128 ≤ (i 2).val ∧ (i 2).val < win5_7.index ⟨(i 0).val, _⟩ (2 : Fin 3) * 128 + 128
    rw [e2]; omega

/-! ## One tile's stored values, in the whole arrays' terms -/

/-- The affine map of tile t at row r, column j, when the loaded blocks are tile t of the features and the aggregate
    and the whole scale row, weights and bias row. -/
theorem lin_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (r : Fin 5000) (j : Fin 128) :
    k5_pay1 x0 x2 x1 x3 x4 (ix2 r j) = lin (xRow h a sc) W b (tileRow t r) j := by
  rw [lin_pay_apply, e4]
  show _ = (∑ k : Fin 128, (h (tileRow t r) k * sc k + a (tileRow t r) k) * W k j) + b j
  refine congrArg (· + b j) (Finset.sum_congr rfl fun k _ => ?_)
  rw [e0, e1, e2, e3]

/-- The stored column sums of tile t. -/
theorem sum_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k5_pay2 x0 x2 x1 x3 x4 (ix3 u v j) = tileSum (lin (xRow h a sc) W b) t j := by
  rw [sum_pay_apply]
  exact Finset.sum_congr rfl fun r _ => lin_tile x0 x1 x2 x3 x4 h a sc W b t e0 e1 e2 e3 e4 r j

/-- The stored column sums of squares of tile t. -/
theorem sumsq_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k5_pay3 x0 x2 x1 x3 x4 (ix3 u v j) = tileSum (sq (lin (xRow h a sc) W b)) t j := by
  rw [sumsq_pay_apply]
  refine Finset.sum_congr rfl fun r _ => ?_
  rw [lin_tile x0 x1 x2 x3 x4 h a sc W b t e0 e1 e2 e3 e4 r j]
  rfl

/-! ## The output arrays after the 20 tiles -/

variable (V : (c : Dev nD) → (b : Ref sig .tc) → Buf (Elt Ideal) ((c : Thread nD τ).loc b))

/-- The first affine map of the layer over all nodes, from the arrays as the stage finds them. -/
def L (c : Dev nD) : Mat 100000 128 :=
  lin (xRow (toMat (V c main_v79_0)) (toMat (V c main_v90)) (toRow (V c main_v95))) (toMat (V c main_v100)) (toRow (V c main_v98))

/-- A loaded block is the array read through the block's place in it. -/
theorem blk_feat (c : Dev nD) (t : Fin cfg5.N) (y : S5000x128.Idx) :
    (iblk5 V c 0 t : Vec Ideal S5000x128 .f32) y = V c main_v79_0 (((cfg5.win 0).blk t).view.emb y) := rfl
theorem blk_agg (c : Dev nD) (t : Fin cfg5.N) (y : S5000x128.Idx) :
    (iblk5 V c 1 t : Vec Ideal S5000x128 .f32) y = V c main_v90 (((cfg5.win 1).blk t).view.emb y) := rfl
theorem blk_scale (c : Dev nD) (t : Fin cfg5.N) (y : S1x128.Idx) :
    (iblk5 V c 2 t : Vec Ideal S1x128 .f32) y = V c main_v95 (((cfg5.win 2).blk t).view.emb y) := rfl
theorem blk_weight (c : Dev nD) (t : Fin cfg5.N) (y : S128x128.Idx) :
    (iblk5 V c 3 t : Vec Ideal S128x128 .f32) y = V c main_v100 (((cfg5.win 3).blk t).view.emb y) := rfl
theorem blk_bias (c : Dev nD) (t : Fin cfg5.N) (y : S1x128.Idx) :
    (iblk5 V c 4 t : Vec Ideal S1x128 .f32) y = V c main_v98 (((cfg5.win 4).blk t).view.emb y) := rfl

/-- The feature block at point t is tile t of the features. -/
theorem read_feat (c : Dev nD) (t : Fin cfg5.N) (r : Fin 5000) (k : Fin 128) :
    (iblk5 V c 0 t : Vec Ideal S5000x128 .f32) (ix2 r k) = toMat (V c main_v79_0) (tileRow (tileOf t) r) k :=
  (blk_feat V c t (ix2 r k)).trans (congrArg (V c main_v79_0) (emb_feat t r k))
/-- The aggregate block at point t is tile t of the aggregate. -/
theorem read_agg (c : Dev nD) (t : Fin cfg5.N) (r : Fin 5000) (k : Fin 128) :
    (iblk5 V c 1 t : Vec Ideal S5000x128 .f32) (ix2 r k) = toMat (V c main_v90) (tileRow (tileOf t) r) k :=
  (blk_agg V c t (ix2 r k)).trans (congrArg (V c main_v90) (emb_agg t r k))
/-- The scale block is the scale row. -/
theorem read_scale (c : Dev nD) (t : Fin cfg5.N) (k : Fin 128) :
    (iblk5 V c 2 t : Vec Ideal S1x128 .f32) (ix2 (0 : Fin 1) k) = toRow (V c main_v95) k :=
  (blk_scale V c t (ix2 (0 : Fin 1) k)).trans (congrArg (V c main_v95) (emb_scale t 0 k))
/-- The weight block is the weight matrix. -/
theorem read_weight (c : Dev nD) (t : Fin cfg5.N) (k : Fin 128) (j : Fin 128) :
    (iblk5 V c 3 t : Vec Ideal S128x128 .f32) (ix2 k j) = toMat (V c main_v100) k j :=
  (blk_weight V c t (ix2 k j)).trans (congrArg (V c main_v100) (emb_weight t k j))
/-- The bias block is the bias row. -/
theorem read_bias (c : Dev nD) (t : Fin cfg5.N) (j : Fin 128) :
    (iblk5 V c 4 t : Vec Ideal S1x128 .f32) (ix2 (0 : Fin 1) j) = toRow (V c main_v98) j :=
  (blk_bias V c t (ix2 (0 : Fin 1) j)).trans (congrArg (V c main_v98) (emb_bias t 0 j))

/-- What point t writes back to the first output is tile t of the affine map. -/
theorem flushed_lin (c : Dev nD) (t : Fin cfg5.N) :
    (dat5 V c).flushed 5 t = ((cfg5.win 5).blk t).view.read (Elt Ideal) (ofMat (L V c)) := by
  show (cfg5.win 5).cut (grid5.coords t) ((dat5 V c).after 5 t) = _
  rw [after5_5]
  unfold out5_5
  rw [View.canon_unit_zero zeros2]
  simp only [View.ld_unit_zero (S := S5000x128) zeros2, View.ld_unit_zero (S := S1x128) zeros2,
    View.ld_unit_zero (S := S128x128) zeros2]
  funext y
  obtain ⟨r, j, rfl⟩ : ∃ (r : Fin 5000) (j : Fin 128), y = ix2 r j := ⟨y 0, y 1, eq_ix2 y⟩
  show k5_pay1 (iblk5 V c 0 t) (iblk5 V c 2 t) (iblk5 V c 1 t) (iblk5 V c 3 t) (iblk5 V c 4 t) (ix2 r j)
    = ofMat (L V c) (((cfg5.win 5).blk t).view.emb (ix2 r j))
  rw [emb_lin t r j]
  exact lin_tile (iblk5 V c 0 t) (iblk5 V c 1 t) (iblk5 V c 2 t) (iblk5 V c 3 t) (iblk5 V c 4 t)
    (toMat (V c main_v79_0)) (toMat (V c main_v90)) (toRow (V c main_v95)) (toMat (V c main_v100)) (toRow (V c main_v98))
    (tileOf t) (read_feat V c t) (read_agg V c t) (read_scale V c t) (read_weight V c t) (read_bias V c t) r j

/-- What point t writes back to the second output is tile t's column sums. -/
theorem flushed_sum (c : Dev nD) (t : Fin cfg5.N) :
    (dat5 V c).flushed 6 t
      = ((cfg5.win 6).blk t).view.read (Elt Ideal) (fun i : S20x1x128.Idx => tileSum (L V c) (i 0) (i 2)) := by
  show (cfg5.win 6).cut (grid5.coords t) ((dat5 V c).after 6 t) = _
  rw [after5_6]
  unfold out5_6
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k5_pay2 (iblk5 V c 0 t) (iblk5 V c 2 t) (iblk5 V c 1 t) (iblk5 V c 3 t) (iblk5 V c 4 t) (ix3 u v j)
    = (fun i : S20x1x128.Idx => tileSum (L V c) (i 0) (i 2)) (((cfg5.win 6).blk t).view.emb (ix3 u v j))
  rw [emb_sum t u v j]
  exact sum_tile (iblk5 V c 0 t) (iblk5 V c 1 t) (iblk5 V c 2 t) (iblk5 V c 3 t) (iblk5 V c 4 t)
    (toMat (V c main_v79_0)) (toMat (V c main_v90)) (toRow (V c main_v95)) (toMat (V c main_v100)) (toRow (V c main_v98))
    (tileOf t) (read_feat V c t) (read_agg V c t) (read_scale V c t) (read_weight V c t) (read_bias V c t) u v j

/-- What point t writes back to the third output is tile t's column sums of squares. -/
theorem flushed_sumsq (c : Dev nD) (t : Fin cfg5.N) :
    (dat5 V c).flushed 7 t
      = ((cfg5.win 7).blk t).view.read (Elt Ideal) (fun i : S20x1x128.Idx => tileSum (sq (L V c)) (i 0) (i 2)) := by
  show (cfg5.win 7).cut (grid5.coords t) ((dat5 V c).after 7 t) = _
  rw [after5_7]
  unfold out5_7
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k5_pay3 (iblk5 V c 0 t) (iblk5 V c 2 t) (iblk5 V c 1 t) (iblk5 V c 3 t) (iblk5 V c 4 t) (ix3 u v j)
    = (fun i : S20x1x128.Idx => tileSum (sq (L V c)) (i 0) (i 2)) (((cfg5.win 7).blk t).view.emb (ix3 u v j))
  rw [emb_sumsq t u v j]
  exact sumsq_tile (iblk5 V c 0 t) (iblk5 V c 1 t) (iblk5 V c 2 t) (iblk5 V c 3 t) (iblk5 V c 4 t)
    (toMat (V c main_v79_0)) (toMat (V c main_v90)) (toRow (V c main_v95)) (toMat (V c main_v100)) (toRow (V c main_v98))
    (tileOf t) (read_feat V c t) (read_agg V c t) (read_scale V c t) (read_weight V c t) (read_bias V c t) u v j

/-- THE FIRST OUTPUT after the stage: the affine map over all nodes. -/
theorem lin_eq (c : Dev nD) : (dat5 V c).arrAt 5 cfg5.N = ofMat (L V c) :=
  (dat5 V c).arrAt_eq_of_cover 5 (ofMat (L V c)) (fun t _ => flushed_lin V c t) cover_lin

/-- THE SECOND OUTPUT after the stage: per tile, the column sums of the affine map. -/
theorem sum_eq (c : Dev nD) :
    (dat5 V c).arrAt 6 cfg5.N = fun i : S20x1x128.Idx => tileSum (L V c) (i 0) (i 2) :=
  (dat5 V c).arrAt_eq_of_cover 6 (fun i : S20x1x128.Idx => tileSum (L V c) (i 0) (i 2))
    (fun t _ => flushed_sum V c t) cover_sum

/-- THE THIRD OUTPUT after the stage: per tile, the column sums of the squared affine map. -/
theorem sumsq_eq (c : Dev nD) :
    (dat5 V c).arrAt 7 cfg5.N = fun i : S20x1x128.Idx => tileSum (sq (L V c)) (i 0) (i 2) :=
  (dat5 V c).arrAt_eq_of_cover 7 (fun i : S20x1x128.Idx => tileSum (sq (L V c)) (i 0) (i 2))
    (fun t _ => flushed_sumsq V c t) cover_sumsq

end Cert.KReg5

end
-- ==== Proof.KReg6.lean ====
/-
  The value of a layer's second-stage region. After its 20 grid points the stored array is the second affine map of
  the layer over all 100000 nodes,

      lin (bnRelu x mean var gamma beta) W b,

  x the first affine map, W the weight matrix and b the bias row of the second, with the column mean and variance as the
  region finds them, and the two per-tile arrays are, for each tile of 5000
  rows, the column sums of that matrix and of its entrywise square over the tile. One tile's payload is read entry by
  entry (the product as a sum over the 128 contracted columns, the lane sums as sums over the tile's rows), each loaded
  block is read where its window puts it in its array, and the tiles cover the arrays.
-/
import proofs.«412161_j3753801416792_2_alg».proof.Proof.KIFrameR6
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg6

open Cert.KernelIdeal Cert.KernelIdeal.Gen Cert.Spec Cert.Conv Idealize.ShloMosaic Idealize.ShloMosaic.ValueIdx Idealize.ShloMosaic.TcCoe Idealize.ShloMosaic.Pipeline

/-! ## The product of a row tile with the weights, entry by entry -/

/-- The left operand is read at the output's row … -/
theorem product_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the contracted column; -/
theorem product_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- the right operand at the contracted row … -/
theorem product_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- … and at the output's column. -/
theorem product_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile's product into the zero accumulator, at row r and column j, is the sum over the 128 contracted columns. -/
theorem product_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact product_lhs_row _ _
      | ⟨1, _⟩ => exact (product_lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (product_rhs_row _ _).trans hk
      | ⟨1, _⟩ => exact product_rhs_col _ _)
  rw [el, er]

/-! ## The stored values of one tile, entry by entry -/

/-- The second affine map of a tile at row r, column j: the normalised, scaled, shifted and clamped input row times
    the weights' column, plus the bias. -/
theorem pay3_apply (x0 : Vec Ideal S5000x128 .f32) (xv xm xg xb : Vec Ideal S1x128 .f32) (xw : Vec Ideal S128x128 .f32)
    (xc : Vec Ideal S1x128 .f32) (r : Fin 5000) (j : Fin 128) :
    k6_pay3 x0 xv xm xg xb xw xc (ix2 r j)
      = (∑ k : Fin 128, max ((x0 (ix2 r k) - xm (ix2 (0 : Fin 1) k)) * Ideal.rsqrt (xv (ix2 (0 : Fin 1) k) + cEps)
            * xg (ix2 (0 : Fin 1) k) + xb (ix2 (0 : Fin 1) k)) 0 * xw (ix2 k j)) + xc (ix2 (0 : Fin 1) j) := by
  unfold k6_pay3
  simp only [shapeCast_self]
  refine (addf_apply _ _ _).trans ?_
  refine congrArg₂ (· + ·) ?_ (broadcastTo_1b_ab_apply xc broadcasts_S1x128_S5000x128 r j)
  refine (product_apply _ _ r j).trans ?_
  refine Finset.sum_congr rfl fun k _ => ?_
  refine congrArg₂ (· * ·) ?_ rfl
  refine (truncf_apply (ψ := .bf16) _ bitsLt_bf16_f32 (ix2 r k)).trans ?_
  refine (maximumf_apply _ _ _).trans ?_
  refine congrArg₂ max ?_ Ideal.ofBits_zero_f32
  refine (addf_apply _ _ _).trans ?_
  refine congrArg₂ (· + ·) ?_ (broadcastTo_1b_ab_apply xb broadcasts_S1x128_S5000x128 r k)
  refine (mulf_apply _ _ _).trans ?_
  refine congrArg₂ (· * ·) ?_ (broadcastTo_1b_ab_apply xg broadcasts_S1x128_S5000x128 r k)
  refine (mulf_apply _ _ _).trans ?_
  refine congrArg₂ (· * ·) ?_ ?_
  · refine (subf_apply _ _ _).trans ?_
    exact congrArg (x0 (ix2 r k) - ·) (broadcastTo_1b_ab_apply xm broadcasts_S1x128_S5000x128 r k)
  · refine (broadcastTo_1b_ab_apply _ broadcasts_S1x128_S5000x128 r k).trans ?_
    rfl

/-- A column sum over the 5000 rows of a tile. -/
theorem colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext a
  apply Fin.ext
  match a with
  | ⟨0, _⟩ => rfl
  | ⟨1, _⟩ => rfl

/-- The stored column sums of a tile, at column j: the affine map summed over the tile's rows. -/
theorem pay_sums_apply (x0 : Vec Ideal S5000x128 .f32) (xv xm xg xb : Vec Ideal S1x128 .f32) (xw : Vec Ideal S128x128 .f32)
    (xc : Vec Ideal S1x128 .f32) (u v : Fin 1) (j : Fin 128) :
    k6_pay1 (k6_pay4 x0 xv xm xg xb xw xc) (ix3 u v j) = ∑ r : Fin 5000, k6_pay3 x0 xv xm xg xb xw xc (ix2 r j) := by
  unfold k6_pay1 k6_pay4
  refine (shapeCast_ab_1ab_apply _ shapeCasts_S1x128_S1x1x128 u v j).trans ?_
  refine (shapeCast_a_1a_apply _ shapeCasts_S128_S1x128 v j).trans ?_
  exact colsum_apply _ _ _ j

/-- The stored column sums of squares of a tile, at column j. -/
theorem pay_sumsqs_apply (x0 : Vec Ideal S5000x128 .f32) (xv xm xg xb : Vec Ideal S1x128 .f32) (xw : Vec Ideal S128x128 .f32)
    (xc : Vec Ideal S1x128 .f32) (u v : Fin 1) (j : Fin 128) :
    k6_pay2 (k6_pay5 x0 xv xm xg xb xw xc) (ix3 u v j)
      = ∑ r : Fin 5000, k6_pay3 x0 xv xm xg xb xw xc (ix2 r j) * k6_pay3 x0 xv xm xg xb xw xc (ix2 r j) := by
  unfold k6_pay2 k6_pay5
  refine (shapeCast_ab_1ab_apply _ shapeCasts_S1x128_S1x1x128 u v j).trans ?_
  refine (shapeCast_a_1a_apply _ shapeCasts_S128_S1x128 v j).trans ?_
  refine (colsum_apply _ _ _ j).trans ?_
  rfl

/-- One tile's affine map in the matrices' own terms: when the loaded blocks are the tile's rows of the input and the
    whole small arrays, the payload at row r, column j is the whole-array affine map at the tile's row. -/
theorem tile_lin (X : Mat 100000 128) (mu var g be : Row 128) (W : Mat 128 128) (b : Row 128) (tl : Fin 20)
    (x0 : Vec Ideal S5000x128 .f32) (xv xm xg xb : Vec Ideal S1x128 .f32) (xw : Vec Ideal S128x128 .f32)
    (xc : Vec Ideal S1x128 .f32)
    (h0 : ∀ (r : Fin 5000) (k : Fin 128), x0 (ix2 r k) = X (tileRow tl r) k)
    (hv : ∀ k : Fin 128, xv (ix2 (0 : Fin 1) k) = var k) (hm : ∀ k : Fin 128, xm (ix2 (0 : Fin 1) k) = mu k)
    (hg : ∀ k : Fin 128, xg (ix2 (0 : Fin 1) k) = g k) (hb : ∀ k : Fin 128, xb (ix2 (0 : Fin 1) k) = be k)
    (hw : ∀ k j : Fin 128, xw (ix2 k j) = W k j) (hc : ∀ j : Fin 128, xc (ix2 (0 : Fin 1) j) = b j)
    (r : Fin 5000) (j : Fin 128) :
    k6_pay3 x0 xv xm xg xb xw xc (ix2 r j) = lin (bnRelu X mu var g be) W b (tileRow tl r) j := by
  refine (pay3_apply x0 xv xm xg xb xw xc r j).trans ?_
  show _ = (∑ k : Fin 128, max ((X (tileRow tl r) k - mu k) * Ideal.rsqrt (var k + cEps) * g k + be k) 0 * W k j) + b j
  rw [hc j]
  refine congrArg (· + b j) (Finset.sum_congr rfl fun k _ => ?_)
  rw [h0 r k, hv k, hm k, hg k, hb k, hw k j]

/-! ## Where a tile sits in the arrays -/

/-- The grid point as a tile number. -/
abbrev tileOf (t : Fin cfg6.N) : Fin 20 := t.cast N_6

theorem zeros_rank2 : (![0, 0] : Fin 2 → Nat) = fun _ => 0 := funext fun a => by fin_cases a <;> rfl
theorem zeros_rank3 : (![0, 0, 0] : Fin 3 → Nat) = fun _ => 0 := funext fun a => by fin_cases a <;> rfl

/-- The printed index maps over the 20 points: the row tiles of the input and of the stored affine map move with the
    point, the six small arrays stay, the per-tile sums move with the point on their leading axis. -/
theorem index_rows : ∀ t : Fin cfg6.N,
    win6_0.index t (0 : Fin 2) = t.val ∧ win6_0.index t (1 : Fin 2) = 0
    ∧ win6_7.index t (0 : Fin 2) = t.val ∧ win6_7.index t (1 : Fin 2) = 0 :=
  (by decide +kernel : ∀ t : Fin grid6.N, _)

theorem index_small : ∀ t : Fin cfg6.N,
    win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

theorem index_sums : ∀ t : Fin cfg6.N,
    win6_8.index t (0 : Fin 3) = t.val ∧ win6_8.index t (1 : Fin 3) = 0 ∧ win6_8.index t (2 : Fin 3) = 0
    ∧ win6_9.index t (0 : Fin 3) = t.val ∧ win6_9.index t (1 : Fin 3) = 0 ∧ win6_9.index t (2 : Fin 3) = 0 :=
  (by decide +kernel : ∀ t : Fin grid6.N, _)

/-- Row r, column k of the input tile at point t is row 5000 t + r of the input array. -/
theorem emb_input (t : Fin cfg6.N) (r : Fin 5000) (k : Fin 128) :
    ((cfg6.win 0).blk t).view.emb (ix2 r k) = ix2 (tileRow (tileOf t) r) k := by
  obtain ⟨e0, e1, -⟩ := index_rows t
  funext a; apply Fin.ext
  match a with
  | ⟨0, _⟩ => show win6_0.index t (0 : Fin 2) * 5000 + 1 * r.val = t.val * 5000 + r.val; rw [e0]; omega
  | ⟨1, _⟩ => show win6_0.index t (1 : Fin 2) * 128 + 1 * k.val = k.val; rw [e1]; omega

/-- The mean row is read whole at every point. -/
theorem emb_mean (t : Fin cfg6.N) (u : Fin 1) (k : Fin 128) :
    ((cfg6.win 1).blk t).view.emb (ix2 u k) = ix2 (0 : Fin 1) k := by
  obtain ⟨e0, e1, -⟩ := index_small t
  funext a; apply Fin.ext
  match a with
  | ⟨0, _⟩ => show win6_1.index t (0 : Fin 2) * 1 + 1 * u.val = 0; rw [e0]; omega
  | ⟨1, _⟩ => show win6_1.index t (1 : Fin 2) * 128 + 1 * k.val = k.val; rw [e1]; omega

/-- The variance row is read whole at every point. -/
theorem emb_var (t : Fin cfg6.N) (u : Fin 1) (k : Fin 128) :
    ((cfg6.win 2).blk t).view.emb (ix2 u k) = ix2 (0 : Fin 1) k := by
  obtain ⟨-, -, e0, e1, -⟩ := index_small t
  funext a; apply Fin.ext
  match a with
  | ⟨0, _⟩ => show win6_2.index t (0 : Fin 2) * 1 + 1 * u.val = 0; rw [e0]; omega
  | ⟨1, _⟩ => show win6_2.index t (1 : Fin 2) * 128 + 1 * k.val = k.val; rw [e1]; omega

/-- The scale row is read whole at every point. -/
theorem emb_gamma (t : Fin cfg6.N) (u : Fin 1) (k : Fin 128) :
    ((cfg6.win 3).blk t).view.emb (ix2 u k) = ix2 (0 : Fin 1) k := by
  obtain ⟨-, -, -, -, e0, e1, -⟩ := index_small t
  funext a; apply Fin.ext
  match a with
  | ⟨0, _⟩ => show win6_3.index t (0 : Fin 2) * 1 + 1 * u.val = 0; rw [e0]; omega
  | ⟨1, _⟩ => show win6_3.index t (1 : Fin 2) * 128 + 1 * k.val = k.val; rw [e1]; omega

/-- The shift row is read whole at every point. -/
theorem emb_beta (t : Fin cfg6.N) (u : Fin 1) (k : Fin 128) :
    ((cfg6.win 4).blk t).view.emb (ix2 u k) = ix2 (0 : Fin 1) k := by
  obtain ⟨-, -, -, -, -, -, e0, e1, -⟩ := index_small t
  funext a; apply Fin.ext
  match a with
  | ⟨0, _⟩ => show win6_4.index t (0 : Fin 2) * 1 + 1 * u.val = 0; rw [e0]; omega
  | ⟨1, _⟩ => show win6_4.index t (1 : Fin 2) * 128 + 1 * k.val = k.val; rw [e1]; omega

/-- The weights are read whole at every point. -/
theorem emb_weights (t : Fin cfg6.N) (k j : Fin 128) :
    ((cfg6.win 5).blk t).view.emb (ix2 k j) = ix2 k j := by
  obtain ⟨-, -, -, -, -, -, -, -, e0, e1, -⟩ := index_small t
  funext a; apply Fin.ext
  match a with
  | ⟨0, _⟩ => show win6_5.index t (0 : Fin 2) * 128 + 1 * k.val = k.val; rw [e0]; omega
  | ⟨1, _⟩ => show win6_5.index t (1 : Fin 2) * 128 + 1 * j.val = j.val; rw [e1]; omega

/-- The bias row is read whole at every point. -/
theorem emb_bias (t : Fin cfg6.N) (u : Fin 1) (j : Fin 128) :
    ((cfg6.win 6).blk t).view.emb (ix2 u j) = ix2 (0 : Fin 1) j := by
  obtain ⟨-, -, -, -, -, -, -, -, -, -, e0, e1⟩ := index_small t
  funext a; apply Fin.ext
  match a with
  | ⟨0, _⟩ => show win6_6.index t (0 : Fin 2) * 1 + 1 * u.val = 0; rw [e0]; omega
  | ⟨1, _⟩ => show win6_6.index t (1 : Fin 2) * 128 + 1 * j.val = j.val; rw [e1]; omega

/-- Row r, column j of the stored tile at point t is row 5000 t + r of the stored array. -/
theorem emb_stored (t : Fin cfg6.N) (r : Fin 5000) (j : Fin 128) :
    ((cfg6.win 7).blk t).view.emb (ix2 r j) = ix2 (tileRow (tileOf t) r) j := by
  obtain ⟨-, -, e0, e1⟩ := index_rows t
  funext a; apply Fin.ext
  match a with
  | ⟨0, _⟩ => show win6_7.index t (0 : Fin 2) * 5000 + 1 * r.val = t.val * 5000 + r.val; rw [e0]; omega
  | ⟨1, _⟩ => show win6_7.index t (1 : Fin 2) * 128 + 1 * j.val = j.val; rw [e1]; omega

/-- The column sums of tile t are row t of their array. -/
theorem emb_sums (t : Fin cfg6.N) (u v : Fin 1) (j : Fin 128) :
    ((cfg6.win 8).blk t).view.emb (ix3 u v j) = ix3 (tileOf t) (0 : Fin 1) j := by
  obtain ⟨e0, e1, e2, -⟩ := index_sums t
  funext a; apply Fin.ext
  match a with
  | ⟨0, _⟩ => show win6_8.index t (0 : Fin 3) * 1 + 1 * u.val = t.val; rw [e0]; omega
  | ⟨1, _⟩ => show win6_8.index t (1 : Fin 3) * 1 + 1 * v.val = 0; rw [e1]; omega
  | ⟨2, _⟩ => show win6_8.index t (2 : Fin 3) * 128 + 1 * j.val = j.val; rw [e2]; omega

/-- The column sums of squares of tile t are row t of their array. -/
theorem emb_sumsqs (t : Fin cfg6.N) (u v : Fin 1) (j : Fin 128) :
    ((cfg6.win 9).blk t).view.emb (ix3 u v j) = ix3 (tileOf t) (0 : Fin 1) j := by
  obtain ⟨-, -, -, e0, e1, e2⟩ := index_sums t
  funext a; apply Fin.ext
  match a with
  | ⟨0, _⟩ => show win6_9.index t (0 : Fin 3) * 1 + 1 * u.val = t.val; rw [e0]; omega
  | ⟨1, _⟩ => show win6_9.index t (1 : Fin 3) * 1 + 1 * v.val = 0; rw [e1]; omega
  | ⟨2, _⟩ => show win6_9.index t (2 : Fin 3) * 128 + 1 * j.val = j.val; rw [e2]; omega

/-! ## Every entry of each output array lies in some tile -/

/-- An entry of the stored array is in the tile of point t iff each coordinate is in the tile's range. -/
theorem mem_stored (t : Fin cfg6.N) (i : S100000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v123_0).slice (win6_7.rect t)).set ↔ _
  rw [View.set_slice_whole, Rect.mem_set_unit]
  exact Iff.rfl

theorem mem_sums (t : Fin cfg6.N) (i : S20x1x128.Idx) :
    i ∈ ((cfg6.win 8).blk t).view.set ↔ ∀ a : Fin 3, win6_8.index t a * S1x1x128.size a ≤ (i a).val
      ∧ (i a).val < win6_8.index t a * S1x1x128.size a + S1x1x128.size a := by
  show i ∈ ((View.whole main_v123_1).slice (win6_8.rect t)).set ↔ _
  rw [View.set_slice_whole, Rect.mem_set_unit]
  exact Iff.rfl

theorem mem_sumsqs (t : Fin cfg6.N) (i : S20x1x128.Idx) :
    i ∈ ((cfg6.win 9).blk t).view.set ↔ ∀ a : Fin 3, win6_9.index t a * S1x1x128.size a ≤ (i a).val
      ∧ (i a).val < win6_9.index t a * S1x1x128.size a + S1x1x128.size a := by
  show i ∈ ((View.whole main_v123_2).slice (win6_9.rect t)).set ↔ _
  rw [View.set_slice_whole, Rect.mem_set_unit]
  exact Iff.rfl

/-- Row n of the stored array is in tile n / 5000. -/
theorem cover_stored (i : S100000x128.Idx) :
    ∃ t : Fin cfg6.N, (cfg6.win 7).flush t = true ∧ i ∈ ((cfg6.win 7).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_7 _, ?_⟩
  rw [mem_stored]
  obtain ⟨-, -, e0, e1⟩ := index_rows ⟨(i 0).val / 5000, by rw [hN]; omega⟩
  intro a
  match a with
  | ⟨0, _⟩ =>
    show win6_7.index ⟨(i 0).val / 5000, _⟩ (0 : Fin 2) * 5000 ≤ (i 0).val
      ∧ (i 0).val < win6_7.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win6_7.index ⟨(i 0).val / 5000, _⟩ (1 : Fin 2) * 128 ≤ (i 1).val
      ∧ (i 1).val < win6_7.index ⟨(i 0).val / 5000, _⟩ (1 : Fin 2) * 128 + 128
    rw [e1]; omega

/-- Row t of the column sums is tile t's. -/
theorem cover_sums (i : S20x1x128.Idx) :
    ∃ t : Fin cfg6.N, (cfg6.win 8).flush t = true ∧ i ∈ ((cfg6.win 8).blk t).view.set := by
  have hi0 : (i 0).val < 20 := (i 0).isLt
  have hi1 : (i 1).val < 1 := (i 1).isLt
  have hi2 : (i 2).val < 128 := (i 2).isLt
  have hN : cfg6.N = 20 := N_6
  refine ⟨⟨(i 0).val, by rw [hN]; omega⟩, flush6_8 _, ?_⟩
  rw [mem_sums]
  obtain ⟨e0, e1, e2, -⟩ := index_sums ⟨(i 0).val, by rw [hN]; omega⟩
  intro a
  match a with
  | ⟨0, _⟩ =>
    show win6_8.index ⟨(i 0).val, _⟩ (0 : Fin 3) * 1 ≤ (i 0).val ∧ (i 0).val < win6_8.index ⟨(i 0).val, _⟩ (0 : Fin 3) * 1 + 1
    rw [e0]
    show (i 0).val * 1 ≤ (i 0).val ∧ (i 0).val < (i 0).val * 1 + 1
    omega
  | ⟨1, _⟩ =>
    show win6_8.index ⟨(i 0).val, _⟩ (1 : Fin 3) * 1 ≤ (i 1).val ∧ (i 1).val < win6_8.index ⟨(i 0).val, _⟩ (1 : Fin 3) * 1 + 1
    rw [e1]; omega
  | ⟨2, _⟩ =>
    show win6_8.index ⟨(i 0).val, _⟩ (2 : Fin 3) * 128 ≤ (i 2).val ∧ (i 2).val < win6_8.index ⟨(i 0).val, _⟩ (2 : Fin 3) * 128 + 128
    rw [e2]; omega

/-- Row t of the column sums of squares is tile t's. -/
theorem cover_sumsqs (i : S20x1x128.Idx) :
    ∃ t : Fin cfg6.N, (cfg6.win 9).flush t = true ∧ i ∈ ((cfg6.win 9).blk t).view.set := by
  have hi0 : (i 0).val < 20 := (i 0).isLt
  have hi1 : (i 1).val < 1 := (i 1).isLt
  have hi2 : (i 2).val < 128 := (i 2).isLt
  have hN : cfg6.N = 20 := N_6
  refine ⟨⟨(i 0).val, by rw [hN]; omega⟩, flush6_9 _, ?_⟩
  rw [mem_sumsqs]
  obtain ⟨-, -, -, e0, e1, e2⟩ := index_sums ⟨(i 0).val, by rw [hN]; omega⟩
  intro a
  match a with
  | ⟨0, _⟩ =>
    show win6_9.index ⟨(i 0).val, _⟩ (0 : Fin 3) * 1 ≤ (i 0).val ∧ (i 0).val < win6_9.index ⟨(i 0).val, _⟩ (0 : Fin 3) * 1 + 1
    rw [e0]
    show (i 0).val * 1 ≤ (i 0).val ∧ (i 0).val < (i 0).val * 1 + 1
    omega
  | ⟨1, _⟩ =>
    show win6_9.index ⟨(i 0).val, _⟩ (1 : Fin 3) * 1 ≤ (i 1).val ∧ (i 1).val < win6_9.index ⟨(i 0).val, _⟩ (1 : Fin 3) * 1 + 1
    rw [e1]; omega
  | ⟨2, _⟩ =>
    show win6_9.index ⟨(i 0).val, _⟩ (2 : Fin 3) * 128 ≤ (i 2).val ∧ (i 2).val < win6_9.index ⟨(i 0).val, _⟩ (2 : Fin 3) * 128 + 128
    rw [e2]; omega

variable (V : (c : Dev nD) → (b : Ref sig .tc) → Buf (Elt Ideal) ((c : Thread nD τ).loc b))

/-! ## The region's value -/

/-- The second affine map of the layer over all nodes: the normalised, scaled, shifted and clamped first affine map
    (by the given column mean and variance) times the second weights, plus the second bias. -/
def L2 (c : Dev nD) : Mat 100000 128 :=
  lin (bnRelu (toMat (n := 100000) (d := 128) (V c main_v101_0)) (toRow (d := 128) (V c main_v105)) (toRow (d := 128) (V c main_v111))
      (toRow (d := 128) (V c main_v114)) (toRow (d := 128) (V c main_v117)))
    (toMat (n := 128) (d := 128) (V c main_v122)) (toRow (d := 128) (V c main_v120))

/-! ## The loaded blocks, entry by entry -/

theorem block_input (c : Dev nD) (t : Fin cfg6.N) (r : Fin 5000) (k : Fin 128) :
    (iblk6 V c 0 t : Vec Ideal S5000x128 .f32) (ix2 r k) = toMat (n := 100000) (d := 128) (V c main_v101_0) (tileRow (tileOf t) r) k := by
  show V c main_v101_0 (((cfg6.win 0).blk t).view.emb (ix2 r k)) = V c main_v101_0 (ix2 (tileRow (tileOf t) r) k)
  rw [emb_input]

theorem block_mean (c : Dev nD) (t : Fin cfg6.N) (k : Fin 128) :
    (iblk6 V c 1 t : Vec Ideal S1x128 .f32) (ix2 (0 : Fin 1) k) = toRow (d := 128) (V c main_v105) k := by
  show V c main_v105 (((cfg6.win 1).blk t).view.emb (ix2 (0 : Fin 1) k)) = V c main_v105 (ix2 (0 : Fin 1) k)
  rw [emb_mean]

theorem block_var (c : Dev nD) (t : Fin cfg6.N) (k : Fin 128) :
    (iblk6 V c 2 t : Vec Ideal S1x128 .f32) (ix2 (0 : Fin 1) k) = toRow (d := 128) (V c main_v111) k := by
  show V c main_v111 (((cfg6.win 2).blk t).view.emb (ix2 (0 : Fin 1) k)) = V c main_v111 (ix2 (0 : Fin 1) k)
  rw [emb_var]

theorem block_gamma (c : Dev nD) (t : Fin cfg6.N) (k : Fin 128) :
    (iblk6 V c 3 t : Vec Ideal S1x128 .f32) (ix2 (0 : Fin 1) k) = toRow (d := 128) (V c main_v114) k := by
  show V c main_v114 (((cfg6.win 3).blk t).view.emb (ix2 (0 : Fin 1) k)) = V c main_v114 (ix2 (0 : Fin 1) k)
  rw [emb_gamma]

theorem block_beta (c : Dev nD) (t : Fin cfg6.N) (k : Fin 128) :
    (iblk6 V c 4 t : Vec Ideal S1x128 .f32) (ix2 (0 : Fin 1) k) = toRow (d := 128) (V c main_v117) k := by
  show V c main_v117 (((cfg6.win 4).blk t).view.emb (ix2 (0 : Fin 1) k)) = V c main_v117 (ix2 (0 : Fin 1) k)
  rw [emb_beta]

theorem block_weights (c : Dev nD) (t : Fin cfg6.N) (k j : Fin 128) :
    (iblk6 V c 5 t : Vec Ideal S128x128 .f32) (ix2 k j) = toMat (n := 128) (d := 128) (V c main_v122) k j := by
  show V c main_v122 (((cfg6.win 5).blk t).view.emb (ix2 k j)) = V c main_v122 (ix2 k j)
  rw [emb_weights]

theorem block_bias (c : Dev nD) (t : Fin cfg6.N) (j : Fin 128) :
    (iblk6 V c 6 t : Vec Ideal S1x128 .f32) (ix2 (0 : Fin 1) j) = toRow (d := 128) (V c main_v120) j := by
  show V c main_v120 (((cfg6.win 6).blk t).view.emb (ix2 (0 : Fin 1) j)) = V c main_v120 (ix2 (0 : Fin 1) j)
  rw [emb_bias]

/-- The payload of point t at row r, column j is the whole-array affine map at the tile's row. -/
theorem block_lin (c : Dev nD) (t : Fin cfg6.N) (r : Fin 5000) (j : Fin 128) :
    k6_pay3 (iblk6 V c 0 t) (iblk6 V c 2 t) (iblk6 V c 1 t) (iblk6 V c 3 t) (iblk6 V c 4 t) (iblk6 V c 5 t) (iblk6 V c 6 t) (ix2 r j)
      = L2 V c (tileRow (tileOf t) r) j :=
  tile_lin (toMat (n := 100000) (d := 128) (V c main_v101_0)) (toRow (d := 128) (V c main_v105)) (toRow (d := 128) (V c main_v111))
    (toRow (d := 128) (V c main_v114)) (toRow (d := 128) (V c main_v117)) (toMat (n := 128) (d := 128) (V c main_v122))
    (toRow (d := 128) (V c main_v120)) (tileOf t)
    (iblk6 V c 0 t) (iblk6 V c 2 t) (iblk6 V c 1 t) (iblk6 V c 3 t) (iblk6 V c 4 t) (iblk6 V c 5 t) (iblk6 V c 6 t)
    (fun r k => block_input V c t r k) (fun k => block_var V c t k) (fun k => block_mean V c t k)
    (fun k => block_gamma V c t k) (fun k => block_beta V c t k) (fun k j => block_weights V c t k j)
    (fun j => block_bias V c t j) r j

/-! ## What each point writes back -/

/-- Two functions of a tile's index that agree at every row and column are equal. -/
theorem ext_tile {α : Type} {P Q : S5000x128.Idx → α} (h : ∀ (r : Fin 5000) (j : Fin 128), P (ix2 r j) = Q (ix2 r j)) : P = Q :=
  funext fun y => (congrArg P (eq_ix2 y)).trans ((h (y 0) (y 1)).trans (congrArg Q (eq_ix2 y).symm))

/-- The same for a per-tile row of sums. -/
theorem ext_sums {α : Type} {P Q : S1x1x128.Idx → α} (h : ∀ (u v : Fin 1) (j : Fin 128), P (ix3 u v j) = Q (ix3 u v j)) : P = Q :=
  funext fun y => (congrArg P (eq_ix3 y)).trans ((h (y 0) (y 1) (y 2)).trans (congrArg Q (eq_ix3 y).symm))

/-- Point t writes back tile t of the affine map. -/
theorem flushed_lin (c : Dev nD) (t : Fin cfg6.N) :
    (dat6 V c).flushed 7 t = ((cfg6.win 7).blk t).view.read (Elt Ideal) (ofMat (L2 V c)) := by
  show (cfg6.win 7).cut (grid6.coords t) ((dat6 V c).after 7 t) = _
  rw [after6_7]
  unfold out6_7
  rw [View.canon_unit_zero zeros_rank2]
  simp only [View.ld_unit_zero (S := S5000x128) zeros_rank2, View.ld_unit_zero (S := S1x128) zeros_rank2,
    View.ld_unit_zero (S := S128x128) zeros_rank2]
  refine ext_tile fun r j => ?_
  show k6_pay3 (iblk6 V c 0 t) (iblk6 V c 2 t) (iblk6 V c 1 t) (iblk6 V c 3 t) (iblk6 V c 4 t) (iblk6 V c 5 t) (iblk6 V c 6 t) (ix2 r j)
    = ofMat (L2 V c) (((cfg6.win 7).blk t).view.emb (ix2 r j))
  rw [emb_stored]
  exact block_lin V c t r j

/-- Point t writes back row t of the column sums: the affine map summed over tile t. -/
theorem flushed_sums (c : Dev nD) (t : Fin cfg6.N) :
    (dat6 V c).flushed 8 t = ((cfg6.win 8).blk t).view.read (Elt Ideal) (fun i : S20x1x128.Idx => tileSum (L2 V c) (i 0) (i 2)) := by
  show (cfg6.win 8).cut (grid6.coords t) ((dat6 V c).after 8 t) = _
  rw [after6_8]
  unfold out6_8
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k6_pay1 (k6_pay4 (iblk6 V c 0 t) (iblk6 V c 2 t) (iblk6 V c 1 t) (iblk6 V c 3 t) (iblk6 V c 4 t) (iblk6 V c 5 t) (iblk6 V c 6 t)) (ix3 u v j)
    = (fun i : S20x1x128.Idx => tileSum (L2 V c) (i 0) (i 2)) (((cfg6.win 8).blk t).view.emb (ix3 u v j))
  rw [emb_sums]
  show _ = ∑ r : Fin 5000, L2 V c (tileRow (tileOf t) r) j
  refine (pay_sums_apply (iblk6 V c 0 t) (iblk6 V c 2 t) (iblk6 V c 1 t) (iblk6 V c 3 t) (iblk6 V c 4 t) (iblk6 V c 5 t) (iblk6 V c 6 t) u v j).trans ?_
  exact Finset.sum_congr rfl fun r _ => block_lin V c t r j

/-- Point t writes back row t of the column sums of squares. -/
theorem flushed_sumsqs (c : Dev nD) (t : Fin cfg6.N) :
    (dat6 V c).flushed 9 t = ((cfg6.win 9).blk t).view.read (Elt Ideal) (fun i : S20x1x128.Idx => tileSum (Cert.Spec.sq (L2 V c)) (i 0) (i 2)) := by
  show (cfg6.win 9).cut (grid6.coords t) ((dat6 V c).after 9 t) = _
  rw [after6_9]
  unfold out6_9
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k6_pay2 (k6_pay5 (iblk6 V c 0 t) (iblk6 V c 2 t) (iblk6 V c 1 t) (iblk6 V c 3 t) (iblk6 V c 4 t) (iblk6 V c 5 t) (iblk6 V c 6 t)) (ix3 u v j)
    = (fun i : S20x1x128.Idx => tileSum (Cert.Spec.sq (L2 V c)) (i 0) (i 2)) (((cfg6.win 9).blk t).view.emb (ix3 u v j))
  rw [emb_sumsqs]
  show _ = ∑ r : Fin 5000, L2 V c (tileRow (tileOf t) r) j * L2 V c (tileRow (tileOf t) r) j
  refine (pay_sumsqs_apply (iblk6 V c 0 t) (iblk6 V c 2 t) (iblk6 V c 1 t) (iblk6 V c 3 t) (iblk6 V c 4 t) (iblk6 V c 5 t) (iblk6 V c 6 t) u v j).trans ?_
  exact Finset.sum_congr rfl fun r _ => by rw [block_lin V c t r j]

/-! ## The three output arrays after the 20 points -/

/-- The stored affine map is the whole matrix. -/
theorem lin_eq (c : Dev nD) : (dat6 V c).arrAt 7 cfg6.N = ofMat (L2 V c) :=
  (dat6 V c).arrAt_eq_of_cover 7 (ofMat (L2 V c)) (fun t _ => flushed_lin V c t) cover_stored

/-- The per-tile column sums. -/
theorem sum_eq (c : Dev nD) : (dat6 V c).arrAt 8 cfg6.N = fun i => tileSum (L2 V c) (i 0) (i 2) :=
  (dat6 V c).arrAt_eq_of_cover 8 (fun i : S20x1x128.Idx => tileSum (L2 V c) (i 0) (i 2)) (fun t _ => flushed_sums V c t) cover_sums

/-- The per-tile column sums of squares. -/
theorem sumsq_eq (c : Dev nD) : (dat6 V c).arrAt 9 cfg6.N = fun i => tileSum (Cert.Spec.sq (L2 V c)) (i 0) (i 2) :=
  (dat6 V c).arrAt_eq_of_cover 9 (fun i : S20x1x128.Idx => tileSum (Cert.Spec.sq (L2 V c)) (i 0) (i 2)) (fun t _ => flushed_sumsqs V c t) cover_sumsqs

end Cert.KReg6

end
-- ==== Proof.KReg7.lean ====
/-
  The value of the third stage of the first layer: after its 20 tiles, the two per-tile arrays hold, for every
  tile and column, the sum over the tile's 5000 rows of the clamped batch-normalised entries, and the sum of their
  squares.
-/
import proofs.«412161_j3753801416792_2_alg».proof.Proof.KIFrameR7
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg7

open Cert.KernelIdeal Cert.KernelIdeal.Gen Cert.Spec Cert.Conv Idealize.ShloMosaic Idealize.ShloMosaic.ValueIdx
  Idealize.ShloMosaic.TcCoe Idealize.ShloMosaic.Pipeline

variable (V : (c : Dev nD) → (b : Ref sig .tc) → Buf (Elt Ideal) ((c : Thread nD τ).loc b))

/-- The second affine map's output, normalised by the given column mean and variance, scaled, shifted and clamped
    below at zero: all 100000 rows at once. -/
def Z2 (c : Dev nD) : Mat 100000 128 :=
  bnRelu (toMat (V c main_v123_0)) (toRow (V c main_v127)) (toRow (V c main_v133)) (toRow (V c main_v136)) (toRow (V c main_v139))

/-! ## The body's values at an index -/

/-- One entry of a tile after normalising, scaling, shifting and clamping below at zero. -/
theorem pay1_apply (x0 : Vec Ideal S5000x128 .f32) (xv xm xg xb : Vec Ideal S1x128 .f32) (r : Fin 5000) (j : Fin 128) :
    k7_pay1 x0 xv xm xg xb (ix2 r j)
      = max ((x0 (ix2 r j) - xm (ix2 (0 : Fin 1) j)) * Ideal.rsqrt (xv (ix2 (0 : Fin 1) j) + cEps) * xg (ix2 (0 : Fin 1) j)
          + xb (ix2 (0 : Fin 1) j)) 0 := by
  unfold k7_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  simp only [Ideal.ofBits_def, Ideal.ofBits_zero_f32]
  rfl

/-- The index a sum over rows reads at row `k` of column `j`. -/
theorem lift_row (h : S5000x128.Reduces [0] S128) (j : Fin 128) (k : Fin 5000) :
    h.lift (ix1 j) k = ix2 k j :=
  funext fun a => Fin.ext (by match a with | ⟨0, _⟩ => rfl | ⟨1, _⟩ => rfl)

/-- A column sum over a tile's rows, as the body stores it in a block of one row. -/
theorem colsum_apply (z : FVec Ideal S5000x128 .f32) (h : S5000x128.Reduces [0] S128) (hφ : FKind.Formats .f32)
    (hacc : (0x00000000#32 : BitVec 32) = FKind.add.neutral .f32 hφ) (h1 : S128.ShapeCasts S1x128)
    (h2 : S1x128.ShapeCasts S1x1x128) (u v : Fin 1) (j : Fin 128) :
    shapeCast S1x1x128 (shapeCast S1x128 (multiReduction .add [0] S128 z 0x00000000#32 h hφ hacc) h1) h2 (ix3 u v j)
      = ∑ r : Fin 5000, z (ix2 r j) := by
  refine (shapeCast_ab_1ab_apply _ h2 u v j).trans ?_
  refine (shapeCast_a_1a_apply _ h1 v j).trans ?_
  refine (Ideal.multiReduction_add_single z 0x00000000#32 h hφ hacc (ix1 j)).trans ?_
  show ∑ k : Fin 5000, z (h.lift (ix1 j) k) = _
  exact Finset.sum_congr rfl fun k _ => congrArg z (lift_row h j k)

/-- The first output block at an index: the column sum of the clamped tile. -/
theorem pay2_apply (x0 : Vec Ideal S5000x128 .f32) (xv xm xg xb : Vec Ideal S1x128 .f32) (u v : Fin 1) (j : Fin 128) :
    k7_pay2 x0 xv xm xg xb (ix3 u v j) = ∑ r : Fin 5000, k7_pay1 x0 xv xm xg xb (ix2 r j) := by
  unfold k7_pay2
  exact colsum_apply _ _ _ _ _ _ u v j

/-- The second output block at an index: the column sum of the clamped tile's squares. -/
theorem pay3_apply (x0 : Vec Ideal S5000x128 .f32) (xv xm xg xb : Vec Ideal S1x128 .f32) (u v : Fin 1) (j : Fin 128) :
    k7_pay3 x0 xv xm xg xb (ix3 u v j)
      = ∑ r : Fin 5000, k7_pay1 x0 xv xm xg xb (ix2 r j) * k7_pay1 x0 xv xm xg xb (ix2 r j) := by
  unfold k7_pay3
  exact colsum_apply _ _ _ _ _ _ u v j

/-- The same at any index of the block: only the column matters. -/
theorem pay2_at (x0 : Vec Ideal S5000x128 .f32) (xv xm xg xb : Vec Ideal S1x128 .f32) (i : S1x1x128.Idx) :
    k7_pay2 x0 xv xm xg xb i = ∑ r : Fin 5000, k7_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay2_apply x0 xv xm xg xb u v j

theorem pay3_at (x0 : Vec Ideal S5000x128 .f32) (xv xm xg xb : Vec Ideal S1x128 .f32) (i : S1x1x128.Idx) :
    k7_pay3 x0 xv xm xg xb i
      = ∑ r : Fin 5000, k7_pay1 x0 xv xm xg xb (ix2 r (i 2 : Fin 128)) * k7_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay3_apply x0 xv xm xg xb u v j

/-! ## Where each block sits in its array -/

/-- The block indices over the grid: tile `t` of the rows for the matrix and for the two outputs, the one block of
    each row of statistics and parameters. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 3) = t.val ∧ win7_5.index t (1 : Fin 3) = 0 ∧ win7_5.index t (2 : Fin 3) = 0
    ∧ win7_6.index t (0 : Fin 3) = t.val ∧ win7_6.index t (1 : Fin 3) = 0 ∧ win7_6.index t (2 : Fin 3) = 0 :=
  (by decide +kernel : ∀ t : Fin grid7.N, _)

/-- Row `r` of tile `t` of the matrix block is row `5000 t + r` of the matrix. -/
theorem tile_read (c : Dev nD) (t : Fin cfg7.N) (r : Fin 5000) (j : Fin 128) (n : Fin 100000)
    (hn : n.val = t.val * 5000 + r.val) :
    (iblk7 V c 0 t : Vec Ideal S5000x128 .f32) (ix2 r j) = toMat (V c main_v123_0) n j := by
  obtain ⟨e0, e1, -⟩ := idx_facts t
  show V c main_v123_0 (((cfg7.win 0).blk t).view.emb (ix2 r j)) = V c main_v123_0 (ix2 n j)
  congr 1
  funext a
  apply Fin.ext
  match a with
  | ⟨0, _⟩ => show win7_0.index t (0 : Fin 2) * 5000 + 1 * r.val = n.val; omega
  | ⟨1, _⟩ => show win7_0.index t (1 : Fin 2) * 128 + 1 * j.val = j.val; omega

/-- The block of the mean row is the row. -/
theorem mean_read (c : Dev nD) (t : Fin cfg7.N) (j : Fin 128) :
    (iblk7 V c 1 t : Vec Ideal S1x128 .f32) (ix2 (0 : Fin 1) j) = toRow (V c main_v127) j := by
  obtain ⟨-, -, e0, e1, -⟩ := idx_facts t
  show V c main_v127 (((cfg7.win 1).blk t).view.emb (ix2 (0 : Fin 1) j)) = V c main_v127 (ix2 (0 : Fin 1) j)
  congr 1
  funext a
  apply Fin.ext
  match a with
  | ⟨0, _⟩ => show win7_1.index t (0 : Fin 2) * 1 + 1 * 0 = 0; omega
  | ⟨1, _⟩ => show win7_1.index t (1 : Fin 2) * 128 + 1 * j.val = j.val; omega

/-- The block of the variance row is the row. -/
theorem var_read (c : Dev nD) (t : Fin cfg7.N) (j : Fin 128) :
    (iblk7 V c 2 t : Vec Ideal S1x128 .f32) (ix2 (0 : Fin 1) j) = toRow (V c main_v133) j := by
  obtain ⟨-, -, -, -, e0, e1, -⟩ := idx_facts t
  show V c main_v133 (((cfg7.win 2).blk t).view.emb (ix2 (0 : Fin 1) j)) = V c main_v133 (ix2 (0 : Fin 1) j)
  congr 1
  funext a
  apply Fin.ext
  match a with
  | ⟨0, _⟩ => show win7_2.index t (0 : Fin 2) * 1 + 1 * 0 = 0; omega
  | ⟨1, _⟩ => show win7_2.index t (1 : Fin 2) * 128 + 1 * j.val = j.val; omega

/-- The block of the scale row is the row. -/
theorem scale_read (c : Dev nD) (t : Fin cfg7.N) (j : Fin 128) :
    (iblk7 V c 3 t : Vec Ideal S1x128 .f32) (ix2 (0 : Fin 1) j) = toRow (V c main_v136) j := by
  obtain ⟨-, -, -, -, -, -, e0, e1, -⟩ := idx_facts t
  show V c main_v136 (((cfg7.win 3).blk t).view.emb (ix2 (0 : Fin 1) j)) = V c main_v136 (ix2 (0 : Fin 1) j)
  congr 1
  funext a
  apply Fin.ext
  match a with
  | ⟨0, _⟩ => show win7_3.index t (0 : Fin 2) * 1 + 1 * 0 = 0; omega
  | ⟨1, _⟩ => show win7_3.index t (1 : Fin 2) * 128 + 1 * j.val = j.val; omega

/-- The block of the shift row is the row. -/
theorem shift_read (c : Dev nD) (t : Fin cfg7.N) (j : Fin 128) :
    (iblk7 V c 4 t : Vec Ideal S1x128 .f32) (ix2 (0 : Fin 1) j) = toRow (V c main_v139) j := by
  obtain ⟨-, -, -, -, -, -, -, -, e0, e1, -⟩ := idx_facts t
  show V c main_v139 (((cfg7.win 4).blk t).view.emb (ix2 (0 : Fin 1) j)) = V c main_v139 (ix2 (0 : Fin 1) j)
  congr 1
  funext a
  apply Fin.ext
  match a with
  | ⟨0, _⟩ => show win7_4.index t (0 : Fin 2) * 1 + 1 * 0 = 0; omega
  | ⟨1, _⟩ => show win7_4.index t (1 : Fin 2) * 128 + 1 * j.val = j.val; omega

/-- Entry `(r, j)` of what the body computes from tile `t`'s blocks is entry `(5000 t + r, j)` of the whole clamped
    matrix. -/
theorem z_block (c : Dev nD) (t : Fin cfg7.N) (r : Fin 5000) (j : Fin 128) (n : Fin 100000) (j' : Fin 128)
    (hn : n.val = t.val * 5000 + r.val) (hj : j'.val = j.val) :
    k7_pay1 (iblk7 V c 0 t) (iblk7 V c 2 t) (iblk7 V c 1 t) (iblk7 V c 3 t) (iblk7 V c 4 t) (ix2 r j) = Z2 V c n j' := by
  rw [show j' = j from Fin.ext hj]
  refine (pay1_apply _ _ _ _ _ r j).trans ?_
  rw [tile_read V c t r j n hn, mean_read V c t j, var_read V c t j, scale_read V c t j, shift_read V c t j]
  rfl

/-- The same for the squares. -/
theorem zsq_block (c : Dev nD) (t : Fin cfg7.N) (r : Fin 5000) (j : Fin 128) (n : Fin 100000) (j' : Fin 128)
    (hn : n.val = t.val * 5000 + r.val) (hj : j'.val = j.val) :
    k7_pay1 (iblk7 V c 0 t) (iblk7 V c 2 t) (iblk7 V c 1 t) (iblk7 V c 3 t) (iblk7 V c 4 t) (ix2 r j)
        * k7_pay1 (iblk7 V c 0 t) (iblk7 V c 2 t) (iblk7 V c 1 t) (iblk7 V c 3 t) (iblk7 V c 4 t) (ix2 r j)
      = Cert.Spec.sq (Z2 V c) n j' := by
  rw [z_block V c t r j n j' hn hj]
  rfl

/-! ## What each tile writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Tile `t` writes back its block of the column sums of the clamped matrix. -/
theorem sum_flushed (c : Dev nD) (t : Fin cfg7.N) :
    (dat7 V c).flushed 5 t
      = ((cfg7.win 5).blk t).view.read (Elt Ideal) (fun i : S20x1x128.Idx => tileSum (Z2 V c) (i 0) (i 2)) := by
  show (cfg7.win 5).cut (grid7.coords t) ((dat7 V c).after 5 t) = _
  rw [after7_5]
  unfold out7_5
  rw [View.canon_unit_zero hz3]
  simp only [View.ld_unit_zero (S := S5000x128) hz2, View.ld_unit_zero (S := S1x128) hz2]
  obtain ⟨-, -, -, -, -, -, -, -, -, -, e0, e1, e2, -⟩ := idx_facts t
  funext y
  refine (pay2_at _ _ _ _ _ _).trans ?_
  have h0 : (y 0).val < 1 := (y 0).isLt
  show _ = ∑ r : Fin 5000, Z2 V c (tileRow _ r) _
  refine Finset.sum_congr rfl fun r _ => z_block V c t r _ _ _ ?_ ?_
  · show (win7_5.index t (0 : Fin 3) * 1 + 1 * (y 0).val) * 5000 + r.val = t.val * 5000 + r.val
    omega
  · show win7_5.index t (2 : Fin 3) * 128 + 1 * (y 2).val = (y 2).val
    omega

/-- Tile `t` writes back its block of the column sums of the clamped matrix's squares. -/
theorem sumsq_flushed (c : Dev nD) (t : Fin cfg7.N) :
    (dat7 V c).flushed 6 t
      = ((cfg7.win 6).blk t).view.read (Elt Ideal) (fun i : S20x1x128.Idx => tileSum (Cert.Spec.sq (Z2 V c)) (i 0) (i 2)) := by
  show (cfg7.win 6).cut (grid7.coords t) ((dat7 V c).after 6 t) = _
  rw [after7_6]
  unfold out7_6
  rw [View.canon_unit_zero hz3]
  simp only [View.ld_unit_zero (S := S5000x128) hz2, View.ld_unit_zero (S := S1x128) hz2]
  obtain ⟨-, -, -, -, -, -, -, -, -, -, -, -, -, e0, e1, e2⟩ := idx_facts t
  funext y
  refine (pay3_at _ _ _ _ _ _).trans ?_
  have h0 : (y 0).val < 1 := (y 0).isLt
  show _ = ∑ r : Fin 5000, Cert.Spec.sq (Z2 V c) (tileRow _ r) _
  refine Finset.sum_congr rfl fun r _ => zsq_block V c t r _ _ _ ?_ ?_
  · show (win7_6.index t (0 : Fin 3) * 1 + 1 * (y 0).val) * 5000 + r.val = t.val * 5000 + r.val
    omega
  · show win7_6.index t (2 : Fin 3) * 128 + 1 * (y 2).val = (y 2).val
    omega

/-! ## The tiles' blocks fill the arrays -/

/-- An index of the first output array is in tile `t`'s block iff each coordinate is in the block's range. -/
theorem mem_blk5 (t : Fin cfg7.N) (i : S20x1x128.Idx) :
    i ∈ ((cfg7.win 5).blk t).view.set ↔ ∀ a : Fin 3, win7_5.index t a * S1x1x128.size a ≤ (i a).val
      ∧ (i a).val < win7_5.index t a * S1x1x128.size a + S1x1x128.size a := by
  show i ∈ ((View.whole main_v140_0).slice (win7_5.rect t)).set ↔ _
  rw [View.set_slice_whole, Rect.mem_set_unit]
  exact Iff.rfl

theorem mem_blk6 (t : Fin cfg7.N) (i : S20x1x128.Idx) :
    i ∈ ((cfg7.win 6).blk t).view.set ↔ ∀ a : Fin 3, win7_6.index t a * S1x1x128.size a ≤ (i a).val
      ∧ (i a).val < win7_6.index t a * S1x1x128.size a + S1x1x128.size a := by
  show i ∈ ((View.whole main_v140_1).slice (win7_6.rect t)).set ↔ _
  rw [View.set_slice_whole, Rect.mem_set_unit]
  exact Iff.rfl

/-- Row `n` of the first output array is tile `n`'s block. -/
theorem cover5 (i : S20x1x128.Idx) : ∃ t : Fin cfg7.N, (cfg7.win 5).flush t = true ∧ i ∈ ((cfg7.win 5).blk t).view.set := by
  have h0 : (i 0).val < 20 := (i 0).isLt
  have h1 : (i 1).val < 1 := (i 1).isLt
  have h2 : (i 2).val < 128 := (i 2).isLt
  have hN : grid7.N = 20 := by decide
  obtain ⟨T, hT⟩ : ∃ T : Fin cfg7.N, T.val = (i 0).val :=
    ⟨⟨(i 0).val, by rw [show cfg7.N = 20 from hN]; exact h0⟩, rfl⟩
  refine ⟨T, flush7_5 T, ?_⟩
  rw [mem_blk5]
  obtain ⟨-, -, -, -, -, -, -, -, -, -, e0, e1, e2, -⟩ := idx_facts T
  intro a
  match a with
  | ⟨0, _⟩ =>
    show win7_5.index T (0 : Fin 3) * 1 ≤ (i 0).val ∧ (i 0).val < win7_5.index T (0 : Fin 3) * 1 + 1
    omega
  | ⟨1, _⟩ =>
    show win7_5.index T (1 : Fin 3) * 1 ≤ (i 1).val ∧ (i 1).val < win7_5.index T (1 : Fin 3) * 1 + 1
    omega
  | ⟨2, _⟩ =>
    show win7_5.index T (2 : Fin 3) * 128 ≤ (i 2).val ∧ (i 2).val < win7_5.index T (2 : Fin 3) * 128 + 128
    omega

/-- Row `n` of the second output array is tile `n`'s block. -/
theorem cover6 (i : S20x1x128.Idx) : ∃ t : Fin cfg7.N, (cfg7.win 6).flush t = true ∧ i ∈ ((cfg7.win 6).blk t).view.set := by
  have h0 : (i 0).val < 20 := (i 0).isLt
  have h1 : (i 1).val < 1 := (i 1).isLt
  have h2 : (i 2).val < 128 := (i 2).isLt
  have hN : grid7.N = 20 := by decide
  obtain ⟨T, hT⟩ : ∃ T : Fin cfg7.N, T.val = (i 0).val :=
    ⟨⟨(i 0).val, by rw [show cfg7.N = 20 from hN]; exact h0⟩, rfl⟩
  refine ⟨T, flush7_6 T, ?_⟩
  rw [mem_blk6]
  obtain ⟨-, -, -, -, -, -, -, -, -, -, -, -, -, e0, e1, e2⟩ := idx_facts T
  intro a
  match a with
  | ⟨0, _⟩ =>
    show win7_6.index T (0 : Fin 3) * 1 ≤ (i 0).val ∧ (i 0).val < win7_6.index T (0 : Fin 3) * 1 + 1
    omega
  | ⟨1, _⟩ =>
    show win7_6.index T (1 : Fin 3) * 1 ≤ (i 1).val ∧ (i 1).val < win7_6.index T (1 : Fin 3) * 1 + 1
    omega
  | ⟨2, _⟩ =>
    show win7_6.index T (2 : Fin 3) * 128 ≤ (i 2).val ∧ (i 2).val < win7_6.index T (2 : Fin 3) * 128 + 128
    omega

/-! ## The two arrays after the 20 tiles -/

/-- The first output array: per tile and column, the sum over the tile's rows of the clamped matrix. -/
theorem sum_eq (c : Dev nD) :
    (dat7 V c).arrAt 5 cfg7.N = fun i : S20x1x128.Idx => tileSum (Z2 V c) (i 0) (i 2) :=
  (dat7 V c).arrAt_eq_of_cover 5 (fun i : S20x1x128.Idx => tileSum (Z2 V c) (i 0) (i 2))
    (fun t _ => sum_flushed V c t) cover5

/-- The second output array: per tile and column, the sum over the tile's rows of the clamped matrix's squares. -/
theorem sumsq_eq (c : Dev nD) :
    (dat7 V c).arrAt 6 cfg7.N = fun i : S20x1x128.Idx => tileSum (Cert.Spec.sq (Z2 V c)) (i 0) (i 2) :=
  (dat7 V c).arrAt_eq_of_cover 6 (fun i : S20x1x128.Idx => tileSum (Cert.Spec.sq (Z2 V c)) (i 0) (i 2))
    (fun t _ => sumsq_flushed V c t) cover6

end Cert.KReg7

end
-- ==== Proof.KReg8.lean ====
/-
  The value of a layer's fourth stage on one core. The stage walks the 100000 nodes as 20 tiles of 5000 rows; row r of
  tile t is node 5000 t + r. After the 20 tiles

  * its first result is the whole matrix normalised, scaled, shifted and clamped at zero TWICE in a row, each time by a
    given row of column means, of column variances, of scales and of shifts: entry (n, j) depends on the input's entry
    (n, j) and on the eight rows at column j, and on nothing else;
  * its second result holds, tile by tile, the tile's share of the pooling per graph: entry (g, d) of tile t is the sum,
    over the tile's 5000 rows, of (one if the row's graph word is g, else zero) times the first result at (row, d).

  First the tile's two stored values at an index, over any contents of the tile's blocks; then each block as the part of
  its array the tile reads; then what a grid point writes back as a block of ONE function of the arrays; then the cover:
  node n is in tile n / 5000, tile t of the pooling is written by point t.
-/
import proofs.«412161_j3753801416792_2_alg».proof.Proof.KIFrameR8
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg8

open Cert.KernelIdeal Cert.KernelIdeal.Gen Cert.Spec Cert.Conv Idealize.ShloMosaic Idealize.ShloMosaic.ValueIdx Idealize.ShloMosaic.TcCoe Idealize.ShloMosaic.Pipeline

/-! ## Words and rows at an index -/

/-- The reciprocal square root of a vector, at an index, is that of the entry there. -/
theorem rsqrt_apply {s : Shape} {φ : FTy} (a : FVec Ideal s φ) (i : s.Idx) : rsqrt a i = Ideal.rsqrt (a i) := rfl

/-- A literal word is the extended real it spells. -/
theorem scalar_ofBits (φ : FTy) (b : BitVec φ.bits) : Scalar.ofBits (F := Ideal) φ b = Ideal.ofBits φ b := rfl

/-- A row of 128 laid along 5000 rows reads its one row. -/
theorem row_at (v : FVec Ideal S1x128 .f32) (r : Fin 5000) (j : Fin 128) :
    broadcastTo S5000x128 v broadcasts_S1x128_S5000x128 (ix2 r j) = v (ix2 (0 : Fin 1) j) :=
  broadcastTo_1b_ab_apply v broadcasts_S1x128_S5000x128 r j

/-- The first normalise-scale-shift-clamp and the second one up to its shift, at a row and a column. -/
theorem pay3_apply (x0 : Vec Ideal S5000x128 .f32) (v2 v7 v13 v17 v23 v28 v34 : Vec Ideal S1x128 .f32) (r : Fin 5000) (j : Fin 128) :
    k8_pay3 x0 v2 v7 v13 v17 v23 v28 v34 (ix2 r j)
      = (max ((x0 (ix2 r j) - v7 (ix2 (0 : Fin 1) j)) * Ideal.rsqrt (v2 (ix2 (0 : Fin 1) j) + cEps) * v13 (ix2 (0 : Fin 1) j)
            + v17 (ix2 (0 : Fin 1) j)) 0 - v28 (ix2 (0 : Fin 1) j))
          * Ideal.rsqrt (v23 (ix2 (0 : Fin 1) j) + cEps) * v34 (ix2 (0 : Fin 1) j) := by
  unfold k8_pay3 cEps
  simp only [shapeCast_self, mulf_apply, addf_apply, subf_apply, maximumf_apply, broadcast_apply, row_at, rsqrt_apply,
    scalar_ofBits, Ideal.ofBits_zero_f32]

/-- The second step's shift and clamp. -/
theorem pay1_apply (v37 : FVec Ideal S5000x128 .f32) (v38 : Vec Ideal S1x128 .f32) (r : Fin 5000) (j : Fin 128) :
    k8_pay1 v37 v38 (ix2 r j) = max (v37 (ix2 r j) + v38 (ix2 (0 : Fin 1) j)) 0 := by
  unfold k8_pay1
  simp only [shapeCast_self, addf_apply, maximumf_apply, broadcast_apply, row_at, scalar_ofBits, Ideal.ofBits_zero_f32]

/-! ## The pooling product -/

/-- At result entry (g, d) and position q of the sum, the left factor is read at row g … -/
theorem lhs_pool_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide),
    dif_pos (show (0 : Fin S64x5000.rank) ∈ dot_S64x5000_S5000x128_S64x128_1_0_0_1_n_n.lhsNonContracting by decide)]
  rfl
/-- … and column q; -/
theorem lhs_pool_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
/-- the right factor at row q … -/
theorem rhs_pool_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
/-- … and column d. -/
theorem rhs_pool_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide),
    dif_pos (show (1 : Fin S5000x128.rank) ∈ dot_S64x5000_S5000x128_S64x128_1_0_0_1_n_n.rhsNonContracting by decide)]
  rfl

/-- A 64×5000 matrix times a 5000×128 matrix into zeros, at graph g and column d: the sum over the 5000 rows. -/
theorem pool_matmul_apply (a : FVec Ideal S64x5000 .bf16) (b : FVec Ideal S5000x128 .bf16) (g : Fin 64) (d : Fin 128) :
    matmul dot_S64x5000_S5000x128_S64x128_1_0_0_1_n_n none a b (constant (F := Ideal) S64x128 .f32 0x00000000#32) (ix2 g d)
      = ∑ r : Fin 5000, a (ix2 g r) * b (ix2 r d) := by
  show FloatOps.matmul dot_S64x5000_S5000x128_S64x128_1_0_0_1_n_n none a b (constant (F := Ideal) S64x128 .f32 0x00000000#32) (ix2 g d) = _
  rw [Ideal.matmul_constant_zero_apply, ← Equiv.sum_comp (contrEquiv1 dot_S64x5000_S5000x128_S64x128_1_0_0_1_n_n 5000 rfl rfl).symm]
  refine Finset.sum_congr rfl fun k _ => ?_
  have hk := contrEquiv1_symm_val dot_S64x5000_S5000x128_S64x128_1_0_0_1_n_n 5000 rfl rfl k
  have el : dot_S64x5000_S5000x128_S64x128_1_0_0_1_n_n.lhsIdx (ix2 g d) ((contrEquiv1 dot_S64x5000_S5000x128_S64x128_1_0_0_1_n_n 5000 rfl rfl).symm k) = ix2 g k := funext fun ax => Fin.ext (by
    match ax with
    | ⟨0, _⟩ => exact lhs_pool_0 _ _
    | ⟨1, _⟩ => exact (lhs_pool_1 _ _).trans hk)
  have er : dot_S64x5000_S5000x128_S64x128_1_0_0_1_n_n.rhsIdx (ix2 g d) ((contrEquiv1 dot_S64x5000_S5000x128_S64x128_1_0_0_1_n_n 5000 rfl rfl).symm k) = ix2 k d := funext fun ax => Fin.ext (by
    match ax with
    | ⟨0, _⟩ => exact (rhs_pool_0 _ _).trans hk
    | ⟨1, _⟩ => exact rhs_pool_1 _ _)
  rw [el, er]

/-- A column of 5000 words laid along 64 columns reads its row's word. -/
theorem col_at (v : IVec S5000x1 32) (r : Fin 5000) (g : Fin 64) :
    broadcastTo S5000x64 v broadcasts_S5000x1_S5000x64 (ix2 r g) = v (ix2 r (0 : Fin 1)) := by
  refine broadcastTo_apply v broadcasts_S5000x1_S5000x64 (ix2 r g) (ix2 r (0 : Fin 1)) fun ax => ?_
  match ax with
  | ⟨0, _⟩ => rfl
  | ⟨1, _⟩ => rfl

/-- A comparison's bit widened to a word and converted: one where the two words are equal, zero elsewhere. -/
theorem oneHot_word (w : BitVec 32) (g : Fin 64) :
    (FloatOps.sitofp (F := Ideal) .f32 ((IntOp.cmpi .eq w (BitVec.ofNat 32 g.val)).setWidth 32) : EReal) = oneHot w g := by
  unfold oneHot
  by_cases h : w = BitVec.ofNat 32 g.val
  · rw [if_pos h, IntOp.cmpi_eq.mpr h]
    show ((((1#1 : BitVec 1).setWidth 32).toInt : ℝ) : EReal) = 1
    rw [show ((1#1 : BitVec 1).setWidth 32).toInt = 1 by decide]
    simp only [Int.cast_one, EReal.coe_one]
  · rw [if_neg h, eq_zero_of_ne_one (fun e => h (IntOp.cmpi_eq.mp e))]
    show ((((0#1 : BitVec 1).setWidth 32).toInt : ℝ) : EReal) = 0
    rw [show ((0#1 : BitVec 1).setWidth 32).toInt = 0 by decide]
    simp only [Int.cast_zero, EReal.coe_zero]

/-- The tile's share of the pooling at graph g and column d: the one-hot matrix of the tile's words times the tile. -/
theorem pay2_apply (v37 : FVec Ideal S5000x128 .f32) (v38 : Vec Ideal S1x128 .f32) (v46 : Vec Ideal S5000x1 .i32)
    (u : Fin 1) (g : Fin 64) (d : Fin 128) :
    k8_pay2 v37 v38 v46 (ix3 u g d)
      = ∑ r : Fin 5000, oneHot (v46 (ix2 r (0 : Fin 1))) g * k8_pay1 v37 v38 (ix2 r d) := by
  unfold k8_pay2
  simp only [shapeCast_self]
  refine (shapeCast_ab_1ab_apply _ shapeCasts_S64x128_S1x64x128 u g d).trans ?_
  refine (pool_matmul_apply _ _ g d).trans ?_
  refine Finset.sum_congr rfl fun r _ => ?_
  refine congrArg₂ (fun a b : EReal => a * b) ?_ rfl
  refine (transpose_ix2_apply _ transposes_S5000x64_p1_0_S64x5000 g r).trans ?_
  show FloatOps.sitofp (F := Ideal) .f32 ((IntOp.cmpi .eq (broadcastTo S5000x64 v46 broadcasts_S5000x1_S5000x64 (ix2 r g))
    (iota .tc S5000x64 32 [1] iota_S5000x64_d1_w32 (ix2 r g))).setWidth 32) = _
  rw [col_at, iota_single_apply]
  exact oneHot_word _ g

/-! ## The arrays as the stage finds them -/

variable (V : (c : Dev nD) → (b : Ref sig .tc) → Buf (Elt Ideal) ((c : Thread nD τ).loc b))

/-- The stage's first result: the input matrix through the two normalise-scale-shift-clamp steps. -/
def H (c : Dev nD) : Mat 100000 128 :=
  bnRelu (bnRelu (toMat (V c main_v123_0)) (toRow (V c main_v127)) (toRow (V c main_v133)) (toRow (V c main_v136)) (toRow (V c main_v139)))
    (toRow (V c main_v144)) (toRow (V c main_v150)) (toRow (V c main_v153)) (toRow (V c main_v156))

/-- A grid point as a tile number: the grid has 20 points. -/
abbrev tileOf (t : Fin cfg8.N) : Fin 20 := ⟨t.val, Nat.lt_of_lt_of_eq t.isLt (by decide : grid8.N = 20)⟩

/-! ## What a tile stores, from what its blocks hold -/

/-- Row r, column j of what tile n stores into the first result is the twice-stepped matrix at node 5000 n + r. -/
theorem stored_of_reads (c : Dev nD) (n : Fin 20)
    (x0 : Vec Ideal S5000x128 .f32) (x1 x2 x3 x4 x5 x6 x7 x8 : Vec Ideal S1x128 .f32)
    (h0 : ∀ (r : Fin 5000) (j : Fin 128), x0 (ix2 r j) = toMat (V c main_v123_0) (tileRow n r) j)
    (h1 : ∀ j : Fin 128, x1 (ix2 (0 : Fin 1) j) = toRow (V c main_v127) j)
    (h2 : ∀ j : Fin 128, x2 (ix2 (0 : Fin 1) j) = toRow (V c main_v133) j)
    (h3 : ∀ j : Fin 128, x3 (ix2 (0 : Fin 1) j) = toRow (V c main_v136) j)
    (h4 : ∀ j : Fin 128, x4 (ix2 (0 : Fin 1) j) = toRow (V c main_v139) j)
    (h5 : ∀ j : Fin 128, x5 (ix2 (0 : Fin 1) j) = toRow (V c main_v144) j)
    (h6 : ∀ j : Fin 128, x6 (ix2 (0 : Fin 1) j) = toRow (V c main_v150) j)
    (h7 : ∀ j : Fin 128, x7 (ix2 (0 : Fin 1) j) = toRow (V c main_v153) j)
    (h8 : ∀ j : Fin 128, x8 (ix2 (0 : Fin 1) j) = toRow (V c main_v156) j)
    (r : Fin 5000) (j : Fin 128) :
    k8_pay1 (k8_pay3 x0 x2 x1 x3 x4 x6 x5 x7) x8 (ix2 r j) = H V c (tileRow n r) j := by
  rw [pay1_apply, pay3_apply, h0, h1, h2, h3, h4, h5, h6, h7, h8]
  rfl

/-- Entry (g, d) of what tile n stores into the second result is the tile's share of the pooling. -/
theorem pooled_of_reads (c : Dev nD) (n : Fin 20)
    (x0 : Vec Ideal S5000x128 .f32) (x1 x2 x3 x4 x5 x6 x7 x8 : Vec Ideal S1x128 .f32) (x9 : Vec Ideal S5000x1 .i32)
    (h0 : ∀ (r : Fin 5000) (j : Fin 128), x0 (ix2 r j) = toMat (V c main_v123_0) (tileRow n r) j)
    (h1 : ∀ j : Fin 128, x1 (ix2 (0 : Fin 1) j) = toRow (V c main_v127) j)
    (h2 : ∀ j : Fin 128, x2 (ix2 (0 : Fin 1) j) = toRow (V c main_v133) j)
    (h3 : ∀ j : Fin 128, x3 (ix2 (0 : Fin 1) j) = toRow (V c main_v136) j)
    (h4 : ∀ j : Fin 128, x4 (ix2 (0 : Fin 1) j) = toRow (V c main_v139) j)
    (h5 : ∀ j : Fin 128, x5 (ix2 (0 : Fin 1) j) = toRow (V c main_v144) j)
    (h6 : ∀ j : Fin 128, x6 (ix2 (0 : Fin 1) j) = toRow (V c main_v150) j)
    (h7 : ∀ j : Fin 128, x7 (ix2 (0 : Fin 1) j) = toRow (V c main_v153) j)
    (h8 : ∀ j : Fin 128, x8 (ix2 (0 : Fin 1) j) = toRow (V c main_v156) j)
    (h9 : ∀ r : Fin 5000, x9 (ix2 r (0 : Fin 1)) = toCol (V c main_v0) (tileRow n r))
    (u : Fin 1) (g : Fin 64) (d : Fin 128) :
    k8_pay2 (k8_pay3 x0 x2 x1 x3 x4 x6 x5 x7) x8 x9 (ix3 u g d) = poolTile (H V c) (toCol (V c main_v0)) n g d := by
  rw [pay2_apply]
  show _ = ∑ r : Fin 5000, oneHot (toCol (V c main_v0) (tileRow n r)) g * H V c (tileRow n r) d
  refine Finset.sum_congr rfl fun r _ => ?_
  rw [h9, stored_of_reads V c n x0 x1 x2 x3 x4 x5 x6 x7 x8 h0 h1 h2 h3 h4 h5 h6 h7 h8 r d]

/-! ## The printed index maps, decided over the 20 points -/

/-- The zero offsets of a whole-block access, spelt as a function. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The matrix's block is tile t's rows. -/
theorem index_matrix : ∀ t : Fin cfg8.N, win8_0.index t (0 : Fin 2) = t.val ∧ win8_0.index t (1 : Fin 2) = 0 :=
  (by decide +kernel : ∀ t : Fin grid8.N, _)
/-- The block of the first step's column means is the whole row at every point. -/
theorem index_mean_a : ∀ t : Fin cfg8.N, win8_1.index t (0 : Fin 2) = 0 ∧ win8_1.index t (1 : Fin 2) = 0 :=
  (by decide +kernel : ∀ t : Fin grid8.N, _)
/-- The block of the first step's column variances is the whole row at every point. -/
theorem index_var_a : ∀ t : Fin cfg8.N, win8_2.index t (0 : Fin 2) = 0 ∧ win8_2.index t (1 : Fin 2) = 0 :=
  (by decide +kernel : ∀ t : Fin grid8.N, _)
/-- The block of the first step's scales is the whole row at every point. -/
theorem index_scale_a : ∀ t : Fin cfg8.N, win8_3.index t (0 : Fin 2) = 0 ∧ win8_3.index t (1 : Fin 2) = 0 :=
  (by decide +kernel : ∀ t : Fin grid8.N, _)
/-- The block of the first step's shifts is the whole row at every point. -/
theorem index_shift_a : ∀ t : Fin cfg8.N, win8_4.index t (0 : Fin 2) = 0 ∧ win8_4.index t (1 : Fin 2) = 0 :=
  (by decide +kernel : ∀ t : Fin grid8.N, _)
/-- The block of the second step's column means is the whole row at every point. -/
theorem index_mean_b : ∀ t : Fin cfg8.N, win8_5.index t (0 : Fin 2) = 0 ∧ win8_5.index t (1 : Fin 2) = 0 :=
  (by decide +kernel : ∀ t : Fin grid8.N, _)
/-- The block of the second step's column variances is the whole row at every point. -/
theorem index_var_b : ∀ t : Fin cfg8.N, win8_6.index t (0 : Fin 2) = 0 ∧ win8_6.index t (1 : Fin 2) = 0 :=
  (by decide +kernel : ∀ t : Fin grid8.N, _)
/-- The block of the second step's scales is the whole row at every point. -/
theorem index_scale_b : ∀ t : Fin cfg8.N, win8_7.index t (0 : Fin 2) = 0 ∧ win8_7.index t (1 : Fin 2) = 0 :=
  (by decide +kernel : ∀ t : Fin grid8.N, _)
/-- The block of the second step's shifts is the whole row at every point. -/
theorem index_shift_b : ∀ t : Fin cfg8.N, win8_8.index t (0 : Fin 2) = 0 ∧ win8_8.index t (1 : Fin 2) = 0 :=
  (by decide +kernel : ∀ t : Fin grid8.N, _)
/-- The graph words' block is tile t's rows. -/
theorem index_words : ∀ t : Fin cfg8.N, win8_9.index t (0 : Fin 2) = t.val ∧ win8_9.index t (1 : Fin 2) = 0 :=
  (by decide +kernel : ∀ t : Fin grid8.N, _)
/-- The first result's block is tile t's rows. -/
theorem index_stored : ∀ t : Fin cfg8.N, win8_10.index t (0 : Fin 2) = t.val ∧ win8_10.index t (1 : Fin 2) = 0 :=
  (by decide +kernel : ∀ t : Fin grid8.N, _)
/-- The second result's block is its tile t. -/
theorem index_pooled : ∀ t : Fin cfg8.N, win8_11.index t (0 : Fin 3) = t.val ∧ win8_11.index t (1 : Fin 3) = 0 ∧ win8_11.index t (2 : Fin 3) = 0 :=
  (by decide +kernel : ∀ t : Fin grid8.N, _)

/-! ## Each block as the part of its array the tile reads -/

/-- Row r of the matrix's block at point t is node 5000 t + r of the array. -/
theorem read_matrix (c : Dev nD) (t : Fin cfg8.N) (r : Fin 5000) (j : Fin 128) :
    (iblk8 V c 0 t : Vec Ideal S5000x128 .f32) (ix2 r j) = toMat (V c main_v123_0) (tileRow (tileOf t) r) j := by
  obtain ⟨e0, e1⟩ := index_matrix t
  show _ = V c main_v123_0 (ix2 (tileRow (tileOf t) r) j)
  unfold iblk8
  rw [View.read_apply]
  show V c main_v123_0 _ = V c main_v123_0 _
  congr 1
  funext a
  apply Fin.ext
  match a with
  | ⟨0, _⟩ => show win8_0.index t (0 : Fin 2) * 5000 + 1 * r.val = t.val * 5000 + r.val; rw [e0]; omega
  | ⟨1, _⟩ => show win8_0.index t (1 : Fin 2) * 128 + 1 * j.val = j.val; rw [e1]; omega

/-- The block of the first step's column means reads the array's one row. -/
theorem read_mean_a (c : Dev nD) (t : Fin cfg8.N) (j : Fin 128) :
    (iblk8 V c 1 t : Vec Ideal S1x128 .f32) (ix2 (0 : Fin 1) j) = toRow (V c main_v127) j := by
  obtain ⟨e0, e1⟩ := index_mean_a t
  show _ = V c main_v127 (ix2 (0 : Fin 1) j)
  unfold iblk8
  rw [View.read_apply]
  show V c main_v127 _ = V c main_v127 _
  congr 1
  funext a
  apply Fin.ext
  match a with
  | ⟨0, _⟩ => show win8_1.index t (0 : Fin 2) * 1 + 1 * 0 = 0; rw [e0]
  | ⟨1, _⟩ => show win8_1.index t (1 : Fin 2) * 128 + 1 * j.val = j.val; rw [e1]; omega

/-- The block of the first step's column variances reads the array's one row. -/
theorem read_var_a (c : Dev nD) (t : Fin cfg8.N) (j : Fin 128) :
    (iblk8 V c 2 t : Vec Ideal S1x128 .f32) (ix2 (0 : Fin 1) j) = toRow (V c main_v133) j := by
  obtain ⟨e0, e1⟩ := index_var_a t
  show _ = V c main_v133 (ix2 (0 : Fin 1) j)
  unfold iblk8
  rw [View.read_apply]
  show V c main_v133 _ = V c main_v133 _
  congr 1
  funext a
  apply Fin.ext
  match a with
  | ⟨0, _⟩ => show win8_2.index t (0 : Fin 2) * 1 + 1 * 0 = 0; rw [e0]
  | ⟨1, _⟩ => show win8_2.index t (1 : Fin 2) * 128 + 1 * j.val = j.val; rw [e1]; omega

/-- The block of the first step's scales reads the array's one row. -/
theorem read_scale_a (c : Dev nD) (t : Fin cfg8.N) (j : Fin 128) :
    (iblk8 V c 3 t : Vec Ideal S1x128 .f32) (ix2 (0 : Fin 1) j) = toRow (V c main_v136) j := by
  obtain ⟨e0, e1⟩ := index_scale_a t
  show _ = V c main_v136 (ix2 (0 : Fin 1) j)
  unfold iblk8
  rw [View.read_apply]
  show V c main_v136 _ = V c main_v136 _
  congr 1
  funext a
  apply Fin.ext
  match a with
  | ⟨0, _⟩ => show win8_3.index t (0 : Fin 2) * 1 + 1 * 0 = 0; rw [e0]
  | ⟨1, _⟩ => show win8_3.index t (1 : Fin 2) * 128 + 1 * j.val = j.val; rw [e1]; omega

/-- The block of the first step's shifts reads the array's one row. -/
theorem read_shift_a (c : Dev nD) (t : Fin cfg8.N) (j : Fin 128) :
    (iblk8 V c 4 t : Vec Ideal S1x128 .f32) (ix2 (0 : Fin 1) j) = toRow (V c main_v139) j := by
  obtain ⟨e0, e1⟩ := index_shift_a t
  show _ = V c main_v139 (ix2 (0 : Fin 1) j)
  unfold iblk8
  rw [View.read_apply]
  show V c main_v139 _ = V c main_v139 _
  congr 1
  funext a
  apply Fin.ext
  match a with
  | ⟨0, _⟩ => show win8_4.index t (0 : Fin 2) * 1 + 1 * 0 = 0; rw [e0]
  | ⟨1, _⟩ => show win8_4.index t (1 : Fin 2) * 128 + 1 * j.val = j.val; rw [e1]; omega

/-- The block of the second step's column means reads the array's one row. -/
theorem read_mean_b (c : Dev nD) (t : Fin cfg8.N) (j : Fin 128) :
    (iblk8 V c 5 t : Vec Ideal S1x128 .f32) (ix2 (0 : Fin 1) j) = toRow (V c main_v144) j := by
  obtain ⟨e0, e1⟩ := index_mean_b t
  show _ = V c main_v144 (ix2 (0 : Fin 1) j)
  unfold iblk8
  rw [View.read_apply]
  show V c main_v144 _ = V c main_v144 _
  congr 1
  funext a
  apply Fin.ext
  match a with
  | ⟨0, _⟩ => show win8_5.index t (0 : Fin 2) * 1 + 1 * 0 = 0; rw [e0]
  | ⟨1, _⟩ => show win8_5.index t (1 : Fin 2) * 128 + 1 * j.val = j.val; rw [e1]; omega

/-- The block of the second step's column variances reads the array's one row. -/
theorem read_var_b (c : Dev nD) (t : Fin cfg8.N) (j : Fin 128) :
    (iblk8 V c 6 t : Vec Ideal S1x128 .f32) (ix2 (0 : Fin 1) j) = toRow (V c main_v150) j := by
  obtain ⟨e0, e1⟩ := index_var_b t
  show _ = V c main_v150 (ix2 (0 : Fin 1) j)
  unfold iblk8
  rw [View.read_apply]
  show V c main_v150 _ = V c main_v150 _
  congr 1
  funext a
  apply Fin.ext
  match a with
  | ⟨0, _⟩ => show win8_6.index t (0 : Fin 2) * 1 + 1 * 0 = 0; rw [e0]
  | ⟨1, _⟩ => show win8_6.index t (1 : Fin 2) * 128 + 1 * j.val = j.val; rw [e1]; omega

/-- The block of the second step's scales reads the array's one row. -/
theorem read_scale_b (c : Dev nD) (t : Fin cfg8.N) (j : Fin 128) :
    (iblk8 V c 7 t : Vec Ideal S1x128 .f32) (ix2 (0 : Fin 1) j) = toRow (V c main_v153) j := by
  obtain ⟨e0, e1⟩ := index_scale_b t
  show _ = V c main_v153 (ix2 (0 : Fin 1) j)
  unfold iblk8
  rw [View.read_apply]
  show V c main_v153 _ = V c main_v153 _
  congr 1
  funext a
  apply Fin.ext
  match a with
  | ⟨0, _⟩ => show win8_7.index t (0 : Fin 2) * 1 + 1 * 0 = 0; rw [e0]
  | ⟨1, _⟩ => show win8_7.index t (1 : Fin 2) * 128 + 1 * j.val = j.val; rw [e1]; omega

/-- The block of the second step's shifts reads the array's one row. -/
theorem read_shift_b (c : Dev nD) (t : Fin cfg8.N) (j : Fin 128) :
    (iblk8 V c 8 t : Vec Ideal S1x128 .f32) (ix2 (0 : Fin 1) j) = toRow (V c main_v156) j := by
  obtain ⟨e0, e1⟩ := index_shift_b t
  show _ = V c main_v156 (ix2 (0 : Fin 1) j)
  unfold iblk8
  rw [View.read_apply]
  show V c main_v156 _ = V c main_v156 _
  congr 1
  funext a
  apply Fin.ext
  match a with
  | ⟨0, _⟩ => show win8_8.index t (0 : Fin 2) * 1 + 1 * 0 = 0; rw [e0]
  | ⟨1, _⟩ => show win8_8.index t (1 : Fin 2) * 128 + 1 * j.val = j.val; rw [e1]; omega

/-- Row r of the graph words' block at point t is node 5000 t + r's word. -/
theorem read_words (c : Dev nD) (t : Fin cfg8.N) (r : Fin 5000) :
    (iblk8 V c 9 t : Vec Ideal S5000x1 .i32) (ix2 r (0 : Fin 1)) = toCol (V c main_v0) (tileRow (tileOf t) r) := by
  obtain ⟨e0, e1⟩ := index_words t
  show _ = V c main_v0 (ix2 (tileRow (tileOf t) r) (0 : Fin 1))
  unfold iblk8
  rw [View.read_apply]
  show V c main_v0 _ = V c main_v0 _
  congr 1
  funext a
  apply Fin.ext
  match a with
  | ⟨0, _⟩ => show win8_9.index t (0 : Fin 2) * 5000 + 1 * r.val = t.val * 5000 + r.val; rw [e0]; omega
  | ⟨1, _⟩ => show win8_9.index t (1 : Fin 2) * 1 + 1 * 0 = 0; rw [e1]

/-! ## What a grid point writes back: a block of one function of the arrays -/

/-- Point t writes back, into the first result, tile t's rows of the twice-stepped matrix. -/
theorem flushed_stored (c : Dev nD) (t : Fin cfg8.N) :
    (dat8 V c).flushed 10 t = ((cfg8.win 10).blk t).view.read (Elt Ideal) (ofMat (H V c)) := by
  obtain ⟨q0, q1⟩ := index_stored t
  show (cfg8.win 10).cut (grid8.coords t) ((dat8 V c).after 10 t) = _
  rw [after8_10]
  unfold out8_10
  rw [View.canon_unit_zero zero2]
  simp only [View.ld_unit_zero (S := S5000x128) zero2, View.ld_unit_zero (S := S1x128) zero2]
  funext y
  have hy0 : (y 0).val < 5000 := (y 0).isLt
  have hy1 : (y 1).val < 128 := (y 1).isLt
  have hx : (cfg8.win 10).xinj (grid8.coords t) y = ix2 (⟨(y 0).val, hy0⟩ : Fin 5000) (⟨(y 1).val, hy1⟩ : Fin 128) :=
    funext fun a => by match a with | ⟨0, _⟩ => rfl | ⟨1, _⟩ => rfl
  show k8_pay1 _ _ ((cfg8.win 10).xinj (grid8.coords t) y) = _
  rw [hx]
  refine (stored_of_reads V c (tileOf t) (iblk8 V c 0 t) (iblk8 V c 1 t) (iblk8 V c 2 t) (iblk8 V c 3 t) (iblk8 V c 4 t) (iblk8 V c 5 t) (iblk8 V c 6 t) (iblk8 V c 7 t) (iblk8 V c 8 t)
    (read_matrix V c t) (read_mean_a V c t) (read_var_a V c t) (read_scale_a V c t) (read_shift_a V c t) (read_mean_b V c t) (read_var_b V c t) (read_scale_b V c t) (read_shift_b V c t) ⟨(y 0).val, hy0⟩ ⟨(y 1).val, hy1⟩).trans ?_
  have e0 : (((cfg8.win 10).blk t).view.emb y 0 : Fin 100000) = tileRow (tileOf t) ⟨(y 0).val, hy0⟩ := Fin.ext (by
    show win8_10.index t (0 : Fin 2) * 5000 + 1 * (y 0).val = t.val * 5000 + (y 0).val; rw [q0]; omega)
  have e1 : (((cfg8.win 10).blk t).view.emb y 1 : Fin 128) = ⟨(y 1).val, hy1⟩ := Fin.ext (by
    show win8_10.index t (1 : Fin 2) * 128 + 1 * (y 1).val = (y 1).val; rw [q1]; omega)
  show _ = H V c (((cfg8.win 10).blk t).view.emb y 0) (((cfg8.win 10).blk t).view.emb y 1)
  exact (congrArg₂ (H V c) e0 e1).symm

/-- Point t writes back, into the second result, tile t's share of the pooling. -/
theorem flushed_pooled (c : Dev nD) (t : Fin cfg8.N) :
    (dat8 V c).flushed 11 t
      = ((cfg8.win 11).blk t).view.read (Elt Ideal) (fun i => poolTile (H V c) (toCol (V c main_v0)) (i 0) (i 1) (i 2)) := by
  obtain ⟨q0, q1, q2⟩ := index_pooled t
  show (cfg8.win 11).cut (grid8.coords t) ((dat8 V c).after 11 t) = _
  rw [after8_11]
  unfold out8_11
  rw [View.canon_unit_zero zero3]
  simp only [View.ld_unit_zero (S := S5000x128) zero2, View.ld_unit_zero (S := S1x128) zero2, View.ld_unit_zero (S := S5000x1) zero2]
  funext y
  have hy0 : (y 0).val < 1 := (y 0).isLt
  have hy1 : (y 1).val < 64 := (y 1).isLt
  have hy2 : (y 2).val < 128 := (y 2).isLt
  have hx : (cfg8.win 11).xinj (grid8.coords t) y
      = ix3 (⟨(y 0).val, hy0⟩ : Fin 1) (⟨(y 1).val, hy1⟩ : Fin 64) (⟨(y 2).val, hy2⟩ : Fin 128) :=
    funext fun a => by match a with | ⟨0, _⟩ => rfl | ⟨1, _⟩ => rfl | ⟨2, _⟩ => rfl
  show k8_pay2 _ _ _ ((cfg8.win 11).xinj (grid8.coords t) y) = _
  rw [hx]
  refine (pooled_of_reads V c (tileOf t) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t)
    (read_matrix V c t) (read_mean_a V c t) (read_var_a V c t) (read_scale_a V c t) (read_shift_a V c t) (read_mean_b V c t) (read_var_b V c t) (read_scale_b V c t) (read_shift_b V c t) (read_words V c t) ⟨(y 0).val, hy0⟩ ⟨(y 1).val, hy1⟩ ⟨(y 2).val, hy2⟩).trans ?_
  have e0 : (((cfg8.win 11).blk t).view.emb y 0 : Fin 20) = tileOf t := Fin.ext (by
    show win8_11.index t (0 : Fin 3) * 1 + 1 * (y 0).val = t.val; rw [q0]; omega)
  have e1 : (((cfg8.win 11).blk t).view.emb y 1 : Fin 64) = ⟨(y 1).val, hy1⟩ := Fin.ext (by
    show win8_11.index t (1 : Fin 3) * 64 + 1 * (y 1).val = (y 1).val; rw [q1]; omega)
  have e2 : (((cfg8.win 11).blk t).view.emb y 2 : Fin 128) = ⟨(y 2).val, hy2⟩ := Fin.ext (by
    show win8_11.index t (2 : Fin 3) * 128 + 1 * (y 2).val = (y 2).val; rw [q2]; omega)
  show _ = poolTile (H V c) (toCol (V c main_v0)) (((cfg8.win 11).blk t).view.emb y 0) (((cfg8.win 11).blk t).view.emb y 1)
    (((cfg8.win 11).blk t).view.emb y 2)
  exact (congr (congr (congrArg (poolTile (H V c) (toCol (V c main_v0))) e0) e1) e2).symm

/-! ## The cover: every index is in some point's block -/

/-- An index of the first result is in point t's block iff each coordinate is in the block's range on its axis. -/
theorem mem_blk_stored (t : Fin cfg8.N) (i : S100000x128.Idx) :
    i ∈ ((cfg8.win 10).blk t).view.set ↔ ∀ a : Fin 2, win8_10.index t a * S5000x128.size a ≤ (i a).val
      ∧ (i a).val < win8_10.index t a * S5000x128.size a + S5000x128.size a := by
  show i ∈ ((View.whole main_v157_0).slice (win8_10.rect t)).set ↔ _
  rw [View.set_slice_whole, Rect.mem_set_unit]
  exact Iff.rfl

/-- Node n is in tile n / 5000. -/
theorem cover_stored (i : S100000x128.Idx) :
    ∃ t : Fin cfg8.N, (cfg8.win 10).flush t = true ∧ i ∈ ((cfg8.win 10).blk t).view.set := by
  have h0 : (i 0).val < 100000 := (i 0).isLt
  have h1 : (i 1).val < 128 := (i 1).isLt
  obtain ⟨t, ht⟩ : ∃ t : Fin cfg8.N, t.val = (i 0).val / 5000 :=
    ⟨⟨(i 0).val / 5000, by rw [show cfg8.N = 20 from (by decide : grid8.N = 20)]; omega⟩, rfl⟩
  obtain ⟨q0, q1⟩ := index_stored t
  refine ⟨t, flush8_10 t, ?_⟩
  rw [mem_blk_stored]
  intro a
  match a with
  | ⟨0, _⟩ =>
    show win8_10.index t (0 : Fin 2) * 5000 ≤ (i 0).val ∧ (i 0).val < win8_10.index t (0 : Fin 2) * 5000 + 5000
    rw [q0, ht]; omega
  | ⟨1, _⟩ =>
    show win8_10.index t (1 : Fin 2) * 128 ≤ (i 1).val ∧ (i 1).val < win8_10.index t (1 : Fin 2) * 128 + 128
    rw [q1]; omega

/-- An index of the second result is in point t's block iff each coordinate is in the block's range on its axis. -/
theorem mem_blk_pooled (t : Fin cfg8.N) (i : S20x64x128.Idx) :
    i ∈ ((cfg8.win 11).blk t).view.set ↔ ∀ a : Fin 3, win8_11.index t a * S1x64x128.size a ≤ (i a).val
      ∧ (i a).val < win8_11.index t a * S1x64x128.size a + S1x64x128.size a := by
  show i ∈ ((View.whole main_v157_1).slice (win8_11.rect t)).set ↔ _
  rw [View.set_slice_whole, Rect.mem_set_unit]
  exact Iff.rfl

/-- Tile t of the pooling is point t's block. -/
theorem cover_pooled (i : S20x64x128.Idx) :
    ∃ t : Fin cfg8.N, (cfg8.win 11).flush t = true ∧ i ∈ ((cfg8.win 11).blk t).view.set := by
  have h0 : (i 0).val < 20 := (i 0).isLt
  have h1 : (i 1).val < 64 := (i 1).isLt
  have h2 : (i 2).val < 128 := (i 2).isLt
  obtain ⟨t, ht⟩ : ∃ t : Fin cfg8.N, t.val = (i 0).val :=
    ⟨⟨(i 0).val, by rw [show cfg8.N = 20 from (by decide : grid8.N = 20)]; exact h0⟩, rfl⟩
  obtain ⟨q0, q1, q2⟩ := index_pooled t
  refine ⟨t, flush8_11 t, ?_⟩
  rw [mem_blk_pooled]
  intro a
  match a with
  | ⟨0, _⟩ =>
    show win8_11.index t (0 : Fin 3) * 1 ≤ (i 0).val ∧ (i 0).val < win8_11.index t (0 : Fin 3) * 1 + 1
    rw [q0, ht]; omega
  | ⟨1, _⟩ =>
    show win8_11.index t (1 : Fin 3) * 64 ≤ (i 1).val ∧ (i 1).val < win8_11.index t (1 : Fin 3) * 64 + 64
    rw [q1]; omega
  | ⟨2, _⟩ =>
    show win8_11.index t (2 : Fin 3) * 128 ≤ (i 2).val ∧ (i 2).val < win8_11.index t (2 : Fin 3) * 128 + 128
    rw [q2]; omega

/-! ## The two results after the 20 points -/

/-- THE FIRST RESULT: the twice-stepped matrix, whole. -/
theorem out_eq (c : Dev nD) : (dat8 V c).arrAt 10 cfg8.N = ofMat (H V c) :=
  (dat8 V c).arrAt_eq_of_cover 10 (ofMat (H V c)) (fun t _ => flushed_stored V c t) cover_stored

/-- THE SECOND RESULT: tile by tile, the tile's share of the pooling of the first result. -/
theorem pool_eq (c : Dev nD) :
    (dat8 V c).arrAt 11 cfg8.N = fun i => poolTile (H V c) (toCol (V c main_v0)) (i 0) (i 1) (i 2) :=
  (dat8 V c).arrAt_eq_of_cover 11 (fun i => poolTile (H V c) (toCol (V c main_v0)) (i 0) (i 1) (i 2))
    (fun t _ => flushed_pooled V c t) cover_pooled

end Cert.KReg8

end
-- ==== Proof.KChain1.lean ====
/-
  Layer 0 of the idealized kernel program, boundary by boundary: from the contents at the layer's entry to its two
  outputs, the next features and their per-tile pooled partials, as the specification's kernel-side layer function of
  the argument arrays.
-/
import proofs.«412161_j3753801416792_2_alg».proof.Proof.KIFrameW
import proofs.«412161_j3753801416792_2_alg».proof.Proof.Conv
import proofs.«412161_j3753801416792_2_alg».proof.Proof.Agg
import proofs.«412161_j3753801416792_2_alg».proof.Proof.KCarry
import proofs.«412161_j3753801416792_2_alg».proof.Proof.KHost1L1
import proofs.«412161_j3753801416792_2_alg».proof.Proof.KHostStatsL1
import proofs.«412161_j3753801416792_2_alg».proof.Proof.KReg5
import proofs.«412161_j3753801416792_2_alg».proof.Proof.KReg6
import proofs.«412161_j3753801416792_2_alg».proof.Proof.KReg7
import proofs.«412161_j3753801416792_2_alg».proof.Proof.KReg8
import proofs.«412161_j3753801416792_2_alg».proof.Proof.KChainCommon

set_option maxRecDepth 16384

noncomputable section

namespace Cert.KChain1

open Cert.KernelIdeal Cert.KernelIdeal.Gen Cert.Spec Cert.Conv Idealize.ShloMosaic Idealize.ShloMosaic.ValueIdx
  Idealize.ShloMosaic.TcCoe Idealize.SL.Sem

variable (m : (ℓ : Loc nD τ sig) → Buf (Elt Ideal) ℓ) (ρ : Dev nD → PrngReg)

/-- This layer's parameters. -/
abbrev P (c : Dev nD) : Params := Cert.KArgs.P m (1 : Fin 4) c

/-- The features the layer starts from, as the layer's entry boundary holds them. -/
def X (c : Dev nD) : Mat 100000 128 := toMat (W10 m ρ c (Proc.devRef .tc main_v79_0))

/-- Their aggregate over the edges. -/
def A (c : Dev nD) : Mat 100000 128 :=
  toMat (Cert.Agg.aggT (W10 m ρ c (Proc.devRef .tc main_v79_0)) (m ((c : Thread nD τ).loc main_arg2)) (m ((c : Thread nD τ).loc main_arg3)))

/-- The graph ids as a column of words. -/
abbrev gid (c : Dev nD) : Fin 100000 → BitVec 32 := Cert.KArgs.gid m c

/-! ## Region 1's entry: the aggregate, the scale row, the first bias row and matrix -/

/-- The features are at region 1's entry what they are at the layer's entry. -/
theorem carryX (c : Dev nD) : V11 m ρ c main_v79_0 = W10 m ρ c (Proc.devRef .tc main_v79_0) :=
  Cert.KCarry.at11_main_v79_0 m ρ c

theorem e3_h (c : Dev nD) : toMat (V11 m ρ c main_v79_0) = X m ρ c := by
  unfold X
  exact congrArg toMat (carryX m ρ c)

theorem e3_agg (c : Dev nD) : toMat (V11 m ρ c main_v90) = A m ρ c := by
  unfold A
  refine congrArg toMat ?_
  show StableHlo.after hostOps5 (W10 m ρ c) (Proc.devRef .tc main_v90) = _
  rw [Cert.KHost1L1.agg1, Cert.KCarry.at10_main_arg2, Cert.KCarry.at10_main_arg3]

theorem e3_scale (c : Dev nD) : toRow (V11 m ρ c main_v95) = fun _ => (P m c).scale := by
  show toRow (StableHlo.after hostOps5 (W10 m ρ c) (Proc.devRef .tc main_v95)) = _
  rw [Cert.KHost1L1.scale1, Cert.KCarry.at10_main_arg5]; rfl

theorem e3_b1 (c : Dev nD) : toRow (V11 m ρ c main_v98) = (P m c).b1 := by
  show toRow (StableHlo.after hostOps5 (W10 m ρ c) (Proc.devRef .tc main_v98)) = _
  rw [Cert.KHost1L1.b1, Cert.KCarry.at10_main_arg7]; rfl

theorem e3_W1 (c : Dev nD) : toMat (V11 m ρ c main_v100) = (P m c).W1 := by
  show toMat (StableHlo.after hostOps5 (W10 m ρ c) (Proc.devRef .tc main_v100)) = _
  rw [Cert.KHost1L1.W1, Cert.KCarry.at10_main_arg6]; rfl

/-- The first affine map's output as region 1 leaves it. -/
def L1 (c : Dev nD) : Mat 100000 128 := lin1K (P m c) (X m ρ c) (A m ρ c)

theorem reg1_L (c : Dev nD) : Cert.KReg5.L (V11 m ρ) c = L1 m ρ c := by
  unfold Cert.KReg5.L L1 lin1K xRow
  rw [e3_h, e3_agg, e3_scale, e3_b1, e3_W1]

theorem x4_lin (c : Dev nD) : V12 m ρ c main_v101_0 = ofMat (L1 m ρ c) :=
  ((hF5 m ρ c 5).symm.trans (Cert.KReg5.lin_eq (V11 m ρ) c)).trans (congrArg ofMat (reg1_L m ρ c))
theorem x4_sum (c : Dev nD) : V12 m ρ c main_v101_1 = fun i => tileSum (L1 m ρ c) (i 0) (i 2) :=
  ((hF5 m ρ c 6).symm.trans (Cert.KReg5.sum_eq (V11 m ρ) c)).trans (by rw [reg1_L]; first | done | rfl)
theorem x4_sumsq (c : Dev nD) : V12 m ρ c main_v101_2 = fun i => tileSum (sq (L1 m ρ c)) (i 0) (i 2) :=
  ((hF5 m ρ c 7).symm.trans (Cert.KReg5.sumsq_eq (V11 m ρ) c)).trans (by rw [reg1_L]; first | done | rfl)

/-! ## Region 2's entry -/

theorem e5_lin (c : Dev nD) : toMat (V13 m ρ c main_v101_0) = L1 m ρ c := by
  have h : V13 m ρ c main_v101_0 = V12 m ρ c main_v101_0 := Cert.KCarry.at13_main_v101_0 m ρ c
  rw [h, x4_lin]; rfl

theorem e5_mean (c : Dev nD) : toRow (V13 m ρ c main_v105) = meanK (L1 m ρ c) := by
  show toRow (StableHlo.after hostOps6 (W12 m ρ c) (Proc.devRef .tc main_v105)) = _
  rw [Cert.KHostStatsL1.mean2]
  have h : W12 m ρ c (Proc.devRef .tc main_v101_1) = _ := x4_sum m ρ c
  rw [h]; rfl

theorem e5_var (c : Dev nD) : toRow (V13 m ρ c main_v111) = varK (L1 m ρ c) := by
  show toRow (StableHlo.after hostOps6 (W12 m ρ c) (Proc.devRef .tc main_v111)) = _
  rw [Cert.KHostStatsL1.var2]
  have h1 : W12 m ρ c (Proc.devRef .tc main_v101_1) = _ := x4_sum m ρ c
  have h2 : W12 m ρ c (Proc.devRef .tc main_v101_2) = _ := x4_sumsq m ρ c
  rw [h1, h2]; rfl

theorem e5_g (c : Dev nD) : toRow (V13 m ρ c main_v114) = (P m c).g1 := by
  show toRow (StableHlo.after hostOps6 (W12 m ρ c) (Proc.devRef .tc main_v114)) = _
  rw [Cert.KHostStatsL1.g2, Cert.KCarry.at12_main_arg10]; rfl
theorem e5_be (c : Dev nD) : toRow (V13 m ρ c main_v117) = (P m c).be1 := by
  show toRow (StableHlo.after hostOps6 (W12 m ρ c) (Proc.devRef .tc main_v117)) = _
  rw [Cert.KHostStatsL1.be2, Cert.KCarry.at12_main_arg11]; rfl
theorem e5_b (c : Dev nD) : toRow (V13 m ρ c main_v120) = (P m c).b2 := by
  show toRow (StableHlo.after hostOps6 (W12 m ρ c) (Proc.devRef .tc main_v120)) = _
  rw [Cert.KHostStatsL1.b2, Cert.KCarry.at12_main_arg9]; rfl
theorem e5_W (c : Dev nD) : toMat (V13 m ρ c main_v122) = (P m c).W2 := by
  show toMat (StableHlo.after hostOps6 (W12 m ρ c) (Proc.devRef .tc main_v122)) = _
  rw [Cert.KHostStatsL1.W2, Cert.KCarry.at12_main_arg8]; rfl

/-- The second affine map's output as region 2 leaves it. -/
def L2 (c : Dev nD) : Mat 100000 128 := lin2 (P m c) (z1K (P m c) (L1 m ρ c))

theorem reg2_L (c : Dev nD) : Cert.KReg6.L2 (V13 m ρ) c = L2 m ρ c := by
  unfold Cert.KReg6.L2 L2 lin2 z1K
  rw [e5_lin, e5_mean, e5_var, e5_g, e5_be, e5_b, e5_W]

theorem x6_lin (c : Dev nD) : V14 m ρ c main_v123_0 = ofMat (L2 m ρ c) :=
  ((hF6 m ρ c 7).symm.trans (Cert.KReg6.lin_eq (V13 m ρ) c)).trans (congrArg ofMat (reg2_L m ρ c))
theorem x6_sum (c : Dev nD) : V14 m ρ c main_v123_1 = fun i => tileSum (L2 m ρ c) (i 0) (i 2) :=
  ((hF6 m ρ c 8).symm.trans (Cert.KReg6.sum_eq (V13 m ρ) c)).trans (by rw [reg2_L]; first | done | rfl)
theorem x6_sumsq (c : Dev nD) : V14 m ρ c main_v123_2 = fun i => tileSum (sq (L2 m ρ c)) (i 0) (i 2) :=
  ((hF6 m ρ c 9).symm.trans (Cert.KReg6.sumsq_eq (V13 m ρ) c)).trans (by rw [reg2_L]; first | done | rfl)

/-! ## Region 3's entry -/

theorem e7_lin (c : Dev nD) : toMat (V15 m ρ c main_v123_0) = L2 m ρ c := by
  have h : V15 m ρ c main_v123_0 = V14 m ρ c main_v123_0 := Cert.KCarry.at15_main_v123_0 m ρ c
  rw [h, x6_lin]; rfl
theorem e7_mean (c : Dev nD) : toRow (V15 m ρ c main_v127) = meanK (L2 m ρ c) := by
  show toRow (StableHlo.after hostOps7 (W14 m ρ c) (Proc.devRef .tc main_v127)) = _
  rw [Cert.KHostStatsL1.mean3]
  have h : W14 m ρ c (Proc.devRef .tc main_v123_1) = _ := x6_sum m ρ c
  rw [h]; rfl
theorem e7_var (c : Dev nD) : toRow (V15 m ρ c main_v133) = varK (L2 m ρ c) := by
  show toRow (StableHlo.after hostOps7 (W14 m ρ c) (Proc.devRef .tc main_v133)) = _
  rw [Cert.KHostStatsL1.var3]
  have h1 : W14 m ρ c (Proc.devRef .tc main_v123_1) = _ := x6_sum m ρ c
  have h2 : W14 m ρ c (Proc.devRef .tc main_v123_2) = _ := x6_sumsq m ρ c
  rw [h1, h2]; rfl
theorem e7_g (c : Dev nD) : toRow (V15 m ρ c main_v136) = (P m c).g2 := by
  show toRow (StableHlo.after hostOps7 (W14 m ρ c) (Proc.devRef .tc main_v136)) = _
  rw [Cert.KHostStatsL1.g3, Cert.KCarry.at14_main_arg12]; rfl
theorem e7_be (c : Dev nD) : toRow (V15 m ρ c main_v139) = (P m c).be2 := by
  show toRow (StableHlo.after hostOps7 (W14 m ρ c) (Proc.devRef .tc main_v139)) = _
  rw [Cert.KHostStatsL1.be3, Cert.KCarry.at14_main_arg13]; rfl

/-- The second normalisation's output. -/
def Z2 (c : Dev nD) : Mat 100000 128 := z2K (P m c) (L2 m ρ c)

theorem reg3_Z (c : Dev nD) : Cert.KReg7.Z2 (V15 m ρ) c = Z2 m ρ c := by
  unfold Cert.KReg7.Z2 Z2 z2K
  rw [e7_lin, e7_mean, e7_var, e7_g, e7_be]

theorem x8_sum (c : Dev nD) : V16 m ρ c main_v140_0 = fun i => tileSum (Z2 m ρ c) (i 0) (i 2) :=
  ((hF7 m ρ c 5).symm.trans (Cert.KReg7.sum_eq (V15 m ρ) c)).trans (by rw [reg3_Z]; first | done | rfl)
theorem x8_sumsq (c : Dev nD) : V16 m ρ c main_v140_1 = fun i => tileSum (sq (Z2 m ρ c)) (i 0) (i 2) :=
  ((hF7 m ρ c 6).symm.trans (Cert.KReg7.sumsq_eq (V15 m ρ) c)).trans (by rw [reg3_Z]; first | done | rfl)

/-! ## Region 4's entry -/

theorem e9_lin (c : Dev nD) : toMat (V17 m ρ c main_v123_0) = L2 m ρ c := by
  have h : V17 m ρ c main_v123_0 = V14 m ρ c main_v123_0 := Cert.KCarry.at17_main_v123_0 m ρ c
  rw [h, x6_lin]; rfl
theorem e9_mean2 (c : Dev nD) : toRow (V17 m ρ c main_v127) = meanK (L2 m ρ c) := by
  have h : V17 m ρ c main_v127 = V15 m ρ c main_v127 := Cert.KCarry.at17_main_v127 m ρ c
  rw [h, e7_mean]
theorem e9_var2 (c : Dev nD) : toRow (V17 m ρ c main_v133) = varK (L2 m ρ c) := by
  have h : V17 m ρ c main_v133 = V15 m ρ c main_v133 := Cert.KCarry.at17_main_v133 m ρ c
  rw [h, e7_var]
theorem e9_g2 (c : Dev nD) : toRow (V17 m ρ c main_v136) = (P m c).g2 := by
  have h : V17 m ρ c main_v136 = V15 m ρ c main_v136 := Cert.KCarry.at17_main_v136 m ρ c
  rw [h, e7_g]
theorem e9_be2 (c : Dev nD) : toRow (V17 m ρ c main_v139) = (P m c).be2 := by
  have h : V17 m ρ c main_v139 = V15 m ρ c main_v139 := Cert.KCarry.at17_main_v139 m ρ c
  rw [h, e7_be]
theorem e9_mean3 (c : Dev nD) : toRow (V17 m ρ c main_v144) = meanK (Z2 m ρ c) := by
  show toRow (StableHlo.after hostOps8 (W16 m ρ c) (Proc.devRef .tc main_v144)) = _
  rw [Cert.KHostStatsL1.mean4]
  have h : W16 m ρ c (Proc.devRef .tc main_v140_0) = _ := x8_sum m ρ c
  rw [h]; rfl
theorem e9_var3 (c : Dev nD) : toRow (V17 m ρ c main_v150) = varK (Z2 m ρ c) := by
  show toRow (StableHlo.after hostOps8 (W16 m ρ c) (Proc.devRef .tc main_v150)) = _
  rw [Cert.KHostStatsL1.var4]
  have h1 : W16 m ρ c (Proc.devRef .tc main_v140_0) = _ := x8_sum m ρ c
  have h2 : W16 m ρ c (Proc.devRef .tc main_v140_1) = _ := x8_sumsq m ρ c
  rw [h1, h2]; rfl
theorem e9_g3 (c : Dev nD) : toRow (V17 m ρ c main_v153) = (P m c).g3 := by
  show toRow (StableHlo.after hostOps8 (W16 m ρ c) (Proc.devRef .tc main_v153)) = _
  rw [Cert.KHostStatsL1.g4, Cert.KCarry.at16_main_arg14]; rfl
theorem e9_be3 (c : Dev nD) : toRow (V17 m ρ c main_v156) = (P m c).be3 := by
  show toRow (StableHlo.after hostOps8 (W16 m ρ c) (Proc.devRef .tc main_v156)) = _
  rw [Cert.KHostStatsL1.be4, Cert.KCarry.at16_main_arg15]; rfl
theorem e9_gid (c : Dev nD) : toCol (V17 m ρ c main_v0) = gid m c := by
  exact (congrArg toCol (Cert.KCarry.at17_main_v0 m ρ c)).trans (Cert.KChainCommon.gid_at1 m ρ c)

/-- THE LAYER'S OUTPUT FEATURES. -/
def Hout (c : Dev nD) : Mat 100000 128 := layerK (P m c) (X m ρ c) (A m ρ c)

theorem reg4_H (c : Dev nD) : Cert.KReg8.H (V17 m ρ) c = Hout m ρ c := by
  unfold Cert.KReg8.H Hout layerK outK
  rw [e9_lin, e9_mean2, e9_var2, e9_g2, e9_be2, e9_mean3, e9_var3, e9_g3, e9_be3]
  rfl

theorem x10_out (c : Dev nD) : V18 m ρ c main_v157_0 = ofMat (Hout m ρ c) :=
  ((hF8 m ρ c 10).symm.trans (Cert.KReg8.out_eq (V17 m ρ) c)).trans (congrArg ofMat (reg4_H m ρ c))
theorem x10_pool (c : Dev nD) : V18 m ρ c main_v157_1 = fun i => poolTile (Hout m ρ c) (gid m c) (i 0) (i 1) (i 2) :=
  ((hF8 m ρ c 11).symm.trans (Cert.KReg8.pool_eq (V17 m ρ) c)).trans (by rw [reg4_H, e9_gid])

end Cert.KChain1

end
-- ==== Proof.KHost1L2.lean ====
/-
  The first two host stretches of the idealized kernel program, read for an arbitrary valuation.

  The first stretch reshapes the vector of graph ids to one column. The second adds the pooled partial sums over
  the 20 tiles; aggregates the features along the edges (the source indices normalised, the rows gathered, the rows
  added into zeros by destination); broadcasts one plus this layer's eps to a row; and takes this layer's row of
  the first bias and this layer's matrix of the first weights. Each result is stated over the valuation's entries
  at the operands only, and read at an index: a shape cast reads the operand at the same row-major position, a
  unit-stride slice the operand shifted by the offsets, a broadcast the operand at the named coordinates, and the
  host's sum from the zero word is the sum over the reduced axis. The aggregation is not read at an index: it is
  the composed term itself.
-/
import proofs.«412161_j3753801416792_2_alg».proof.Proof.Gen.KernelIdeal.Launch
import proofs.«412161_j3753801416792_2_alg».proof.Proof.Conv
import proofs.«412161_j3753801416792_2_alg».proof.Proof.Agg
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KHost1L2

open Cert.KernelIdeal Cert.KernelIdeal.Gen Cert.Spec Cert.Conv Idealize.ShloMosaic Idealize.ShloMosaic.ValueIdx Idealize.ShloMosaic.StableHlo

variable (V : Valuation τ sig (Elt Ideal))

/-- The graph ids as a column: the reshape of a vector to one column reads the vector. -/
theorem gid0 : toCol (after hostOps0 V (Proc.devRef .tc main_v0)) = fun n => V (Proc.devRef .tc main_arg4) (ix1 n) := by
  after_results_simp
  funext n
  show shapeCast S100000x1 (V (Proc.devRef .tc main_arg4)) shapeCasts_S100000_S100000x1 (ix2 n (0 : Fin 1)) = _
  exact shapeCast_apply _ _ _ (ix1 n) (by
    rw [Shape.rowMajor_val_one, Shape.rowMajor_val_two]
    show n.val = n.val * 1 + 0
    omega)

/-- The pooled partials added over the 20 tiles. -/
theorem pooled1 : toMat (after hostOps9 V (Proc.devRef .tc main_v158)) = fun g d => (∑ t : Fin 20, V (Proc.devRef .tc main_v157_1) (ix3 t g d) : EReal) := by
  after_results_simp
  funext g d
  show Host.reduceAdd (V (Proc.devRef .tc main_v157_1)) (constant (F := Ideal) S_ .f32 0x00000000#32) reducesTo_S20x64x128_S64x128_d0 h_S_ (ix2 g d) = _
  rw [hostReduceAdd_apply, Ideal.hostReduceAdd_single reducesTo_S20x64x128_S64x128_d0 (by decide), constant_apply, Ideal.ofBits_zero_f32, zero_add]
  refine Finset.sum_congr rfl fun t _ => congrArg (V (Proc.devRef .tc main_v157_1)) (funext fun a => ?_)
  match a with
  | ⟨0, _⟩ => exact Fin.ext rfl
  | ⟨1, _⟩ => exact Fin.ext rfl
  | ⟨2, _⟩ => exact Fin.ext rfl

/-- The edge aggregation is the composed gather and scatter-add of the features. -/
theorem agg1 : after hostOps9 V (Proc.devRef .tc main_v168) = Cert.Agg.aggT (V (Proc.devRef .tc main_v157_0)) (V (Proc.devRef .tc main_arg2)) (V (Proc.devRef .tc main_arg3)) := by
  after_results_simp
  unfold Cert.Agg.aggT Cert.Agg.srcIdx
  rfl

/-- The scale row: one plus this layer's eps, at every column. -/
theorem scale1 : toRow (after hostOps9 V (Proc.devRef .tc main_v173)) = fun _ => Ideal.ofBits .f32 0x3F800000#32 + V (Proc.devRef .tc main_arg5) (ix1 (2 : Fin 4)) := by
  after_results_simp
  funext j
  show broadcastInDim S1x128 _ bcast_S1x1_S1x128_0_1
      (shapeCast S1x1 (addf (constant (F := Ideal) S_ .f32 0x3F800000#32)
        (shapeCast S_ (extractStridedSlice S1 _ (V (Proc.devRef .tc main_arg5)) slices_S4_S1_2) shapeCasts_S1_S_)) shapeCasts_S_S1x1)
      (ix2 (0 : Fin 1) j) = _
  rw [broadcastInDim_apply _ _ _ _ (ix2 (0 : Fin 1) (0 : Fin 1)) (fun a => match a with | ⟨0, _⟩ => rfl | ⟨1, _⟩ => rfl),
    shapeCast_apply _ _ (ix2 (0 : Fin 1) (0 : Fin 1)) ix0 rfl, addf_apply, constant_apply, shapeCast_apply _ _ ix0 (ix1 (0 : Fin 1)) rfl,
    extractStridedSlice_apply _ _ _ _ (ix1 (2 : Fin 4)) (fun a => match a with | ⟨0, _⟩ => rfl)]

/-- This layer's row of the first bias. -/
theorem b1 : toRow (after hostOps9 V (Proc.devRef .tc main_v176)) = fun j => V (Proc.devRef .tc main_arg7) (ix2 (2 : Fin 4) j) := by
  after_results_simp
  funext j
  show shapeCast S1x128 (shapeCast S128 (extractStridedSlice S1x128 _ (V (Proc.devRef .tc main_arg7)) slices_S4x128_S1x128_2_0) shapeCasts_S1x128_S128) shapeCasts_S128_S1x128 (ix2 (0 : Fin 1) j) = _
  rw [shapeCast_a_1a_apply, shapeCast_1a_a_apply]
  exact extractStridedSlice_apply _ _ _ _ (ix2 (2 : Fin 4) j) (fun a => match a with
    | ⟨0, _⟩ => rfl
    | ⟨1, _⟩ => (Nat.zero_add _).symm)

/-- This layer's matrix of the first weights. -/
theorem W1 : toMat (after hostOps9 V (Proc.devRef .tc main_v178)) = fun k j => V (Proc.devRef .tc main_arg6) (ix3 (2 : Fin 4) k j) := by
  after_results_simp
  funext k j
  show shapeCast S128x128 (extractStridedSlice S1x128x128 _ (V (Proc.devRef .tc main_arg6)) slices_S4x128x128_S1x128x128_2_0_0) shapeCasts_S1x128x128_S128x128 (ix2 k j) = _
  rw [shapeCast_1ab_ab_apply]
  exact extractStridedSlice_apply _ _ _ _ (ix3 (2 : Fin 4) k j) (fun a => match a with
    | ⟨0, _⟩ => rfl
    | ⟨1, _⟩ => (Nat.zero_add _).symm
    | ⟨2, _⟩ => (Nat.zero_add _).symm)

end Cert.KHost1L2

end
-- ==== Proof.KHostStatsL2.lean ====
/-
  Three host stretches of the idealized kernel program, read for an arbitrary valuation.

  Each stretch takes a region's per-tile partial column sums — two arrays of twenty one-row tiles, the sums
  and the sums of squares — to a mean row and a variance row,

      mean = (the tiles added) / N,      var = max ((the squares' tiles added) / N - mean * mean) 0,

  N the node count as a binary32 word, and cuts this layer's row out of each parameter array (and, in the first
  stretch, this layer's matrix out of the stack of weight matrices) for the next region. Every statement is about
  the valuation after the stretch at one result buffer, in terms of the valuation before it at the operand buffers.
-/
import proofs.«412161_j3753801416792_2_alg».proof.Proof.Gen.KernelIdeal.Launch
import proofs.«412161_j3753801416792_2_alg».proof.Proof.Conv
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KHostStatsL2

open Cert.KernelIdeal Cert.KernelIdeal.Gen Cert.Spec Cert.Conv Idealize.ShloMosaic Idealize.ShloMosaic.ValueIdx Idealize.ShloMosaic.StableHlo
open Idealize.SL.Sem

/-- The per-tile partial column sums added over the twenty tiles. -/
def tiles (p : S20x1x128.Idx → EReal) : Row 128 := fun j => ∑ t : Fin 20, p (ix3 t (0 : Fin 1) j)

/-- The host's sum over the tile axis, read at a column: the sum of the twenty tiles' entries there. -/
theorem tileSum_apply (p : S20x1x128.Idx → EReal) (hr : S20x1x128.ReducesTo [0] S1x128) (hu : 0 < S_.numel) (j : Fin 128) :
    Host.reduceAdd (F := Ideal) p (constant (F := Ideal) S_ .f32 0x00000000#32) hr hu (ix2 (0 : Fin 1) j) = tiles p j := by
  rw [hostReduceAdd_apply, Ideal.hostReduceAdd_single hr (by decide : S20x1x128.Reduces [0] S1x128), constant_apply,
    Ideal.ofBits_zero_f32, zero_add]
  unfold tiles
  refine Finset.sum_congr rfl fun t _ => congrArg p (funext fun c => Fin.ext ?_)
  rw [Shape.Reduces.lift_val]
  unfold Shape.Reduces.liftVal
  match c with
  | ⟨0, _⟩ => rfl
  | ⟨1, _⟩ => rfl
  | ⟨2, _⟩ => rfl

/-- The mean row: the tiles' sum divided by the node count, read at a column. -/
theorem meanRow_apply (p : S20x1x128.Idx → EReal) (hr : S20x1x128.ReducesTo [0] S1x128) (hu : 0 < S_.numel)
    (hb : S_.BroadcastsInDim S1x128 (![] : Fin 0 → Fin S1x128.rank)) (j : Fin 128) :
    Host.divf (F := Ideal) (Host.reduceAdd (F := Ideal) p (constant (F := Ideal) S_ .f32 0x00000000#32) hr hu)
      (broadcastInDim S1x128 ![] hb (constant (F := Ideal) S_ .f32 0x47C35000#32)) (ix2 (0 : Fin 1) j)
      = Ideal.div (tiles p j) cN := by
  rw [hostDivf_apply, tileSum_apply, broadcastInDim_scalar_apply, constant_apply]
  rfl

/-- The variance row: the mean of the squares less the square of the mean, clamped below at zero, read at a column. -/
theorem varRow_apply (p q : S20x1x128.Idx → EReal) (hr : S20x1x128.ReducesTo [0] S1x128) (hu : 0 < S_.numel)
    (hb : S_.BroadcastsInDim S1x128 (![] : Fin 0 → Fin S1x128.rank)) (j : Fin 128) :
    maximumf (F := Ideal)
      (subf (F := Ideal)
        (Host.divf (F := Ideal) (Host.reduceAdd (F := Ideal) q (constant (F := Ideal) S_ .f32 0x00000000#32) hr hu)
          (broadcastInDim S1x128 ![] hb (constant (F := Ideal) S_ .f32 0x47C35000#32)))
        (mulf (F := Ideal)
          (Host.divf (F := Ideal) (Host.reduceAdd (F := Ideal) p (constant (F := Ideal) S_ .f32 0x00000000#32) hr hu)
            (broadcastInDim S1x128 ![] hb (constant (F := Ideal) S_ .f32 0x47C35000#32)))
          (Host.divf (F := Ideal) (Host.reduceAdd (F := Ideal) p (constant (F := Ideal) S_ .f32 0x00000000#32) hr hu)
            (broadcastInDim S1x128 ![] hb (constant (F := Ideal) S_ .f32 0x47C35000#32)))))
      (broadcastInDim S1x128 ![] hb (constant (F := Ideal) S_ .f32 0x00000000#32)) (ix2 (0 : Fin 1) j)
      = max (Ideal.div (tiles q j) cN - Ideal.div (tiles p j) cN * Ideal.div (tiles p j) cN) 0 := by
  rw [maximumf_apply, subf_apply, mulf_apply, meanRow_apply, meanRow_apply, broadcastInDim_scalar_apply, constant_apply,
    Ideal.ofBits_zero_f32]

/-- Row `r` of a four-row array, cut out as a one-row array, flattened and made one row again, read at a column. -/
theorem rowSlice_apply (x : S4x128.Idx → EReal) {o : ℕ} (hs : S4x128.Slices ![o, 0] S1x128)
    (h1 : S1x128.ShapeCasts S128) (h2 : S128.ShapeCasts S1x128) (r : Fin 4) (hr : r.val = o) (j : Fin 128) :
    shapeCast S1x128 (shapeCast S128 (extractStridedSlice S1x128 ![o, 0] x hs) h1) h2 (ix2 (0 : Fin 1) j) = x (ix2 r j) := by
  rw [shapeCast_a_1a_apply, shapeCast_1a_a_apply]
  exact slice2_axis0_apply o x hs (0 : Fin 1) j r hr

/-- Matrix `r` of a stack of four, cut out as a stack of one and made a matrix, read at an entry. -/
theorem matSlice_apply (x : S4x128x128.Idx → EReal) {o : ℕ} (hs : S4x128x128.Slices ![o, 0, 0] S1x128x128)
    (h1 : S1x128x128.ShapeCasts S128x128) (r : Fin 4) (hr : r.val = o) (k j : Fin 128) :
    shapeCast S128x128 (extractStridedSlice S1x128x128 ![o, 0, 0] x hs) h1 (ix2 k j) = x (ix3 r k j) := by
  rw [shapeCast_1ab_ab_apply]
  exact extractStridedSlice_apply _ x hs _ _ (fun a => by
    match a with
    | ⟨0, _⟩ => exact hr
    | ⟨1, _⟩ => exact (Nat.zero_add _).symm
    | ⟨2, _⟩ => exact (Nat.zero_add _).symm)

variable (V : Valuation τ sig (Elt Ideal))

/-! ## The stretch hostOps10 -/

theorem mean2 : toRow (after hostOps10 V (Proc.devRef .tc main_v183)) = fun j => Ideal.div (tiles (V (Proc.devRef .tc main_v179_1)) j) cN := by
  funext j
  unfold toRow
  after_results
  exact meanRow_apply _ _ _ _ j

theorem var2 : toRow (after hostOps10 V (Proc.devRef .tc main_v189)) = fun j => max (Ideal.div (tiles (V (Proc.devRef .tc main_v179_2)) j) cN - Ideal.div (tiles (V (Proc.devRef .tc main_v179_1)) j) cN * Ideal.div (tiles (V (Proc.devRef .tc main_v179_1)) j) cN) 0 := by
  funext j
  unfold toRow
  after_results
  exact varRow_apply _ _ _ _ _ j

theorem g2 : toRow (after hostOps10 V (Proc.devRef .tc main_v192)) = fun j => V (Proc.devRef .tc main_arg10) (ix2 (2 : Fin 4) j) := by
  funext j
  unfold toRow
  after_results
  exact rowSlice_apply _ _ _ _ (2 : Fin 4) rfl j

theorem be2 : toRow (after hostOps10 V (Proc.devRef .tc main_v195)) = fun j => V (Proc.devRef .tc main_arg11) (ix2 (2 : Fin 4) j) := by
  funext j
  unfold toRow
  after_results
  exact rowSlice_apply _ _ _ _ (2 : Fin 4) rfl j

theorem b2 : toRow (after hostOps10 V (Proc.devRef .tc main_v198)) = fun j => V (Proc.devRef .tc main_arg9) (ix2 (2 : Fin 4) j) := by
  funext j
  unfold toRow
  after_results
  exact rowSlice_apply _ _ _ _ (2 : Fin 4) rfl j

theorem W2 : toMat (after hostOps10 V (Proc.devRef .tc main_v200)) = fun k j => V (Proc.devRef .tc main_arg8) (ix3 (2 : Fin 4) k j) := by
  funext k j
  unfold toMat
  after_results
  exact matSlice_apply _ _ _ (2 : Fin 4) rfl k j

/-! ## The stretch hostOps11 -/

theorem mean3 : toRow (after hostOps11 V (Proc.devRef .tc main_v205)) = fun j => Ideal.div (tiles (V (Proc.devRef .tc main_v201_1)) j) cN := by
  funext j
  unfold toRow
  after_results
  exact meanRow_apply _ _ _ _ j

theorem var3 : toRow (after hostOps11 V (Proc.devRef .tc main_v211)) = fun j => max (Ideal.div (tiles (V (Proc.devRef .tc main_v201_2)) j) cN - Ideal.div (tiles (V (Proc.devRef .tc main_v201_1)) j) cN * Ideal.div (tiles (V (Proc.devRef .tc main_v201_1)) j) cN) 0 := by
  funext j
  unfold toRow
  after_results
  exact varRow_apply _ _ _ _ _ j

theorem g3 : toRow (after hostOps11 V (Proc.devRef .tc main_v214)) = fun j => V (Proc.devRef .tc main_arg12) (ix2 (2 : Fin 4) j) := by
  funext j
  unfold toRow
  after_results
  exact rowSlice_apply _ _ _ _ (2 : Fin 4) rfl j

theorem be3 : toRow (after hostOps11 V (Proc.devRef .tc main_v217)) = fun j => V (Proc.devRef .tc main_arg13) (ix2 (2 : Fin 4) j) := by
  funext j
  unfold toRow
  after_results
  exact rowSlice_apply _ _ _ _ (2 : Fin 4) rfl j

/-! ## The stretch hostOps12 -/

theorem mean4 : toRow (after hostOps12 V (Proc.devRef .tc main_v222)) = fun j => Ideal.div (tiles (V (Proc.devRef .tc main_v218_0)) j) cN := by
  funext j
  unfold toRow
  after_results
  exact meanRow_apply _ _ _ _ j

theorem var4 : toRow (after hostOps12 V (Proc.devRef .tc main_v228)) = fun j => max (Ideal.div (tiles (V (Proc.devRef .tc main_v218_1)) j) cN - Ideal.div (tiles (V (Proc.devRef .tc main_v218_0)) j) cN * Ideal.div (tiles (V (Proc.devRef .tc main_v218_0)) j) cN) 0 := by
  funext j
  unfold toRow
  after_results
  exact varRow_apply _ _ _ _ _ j

theorem g4 : toRow (after hostOps12 V (Proc.devRef .tc main_v231)) = fun j => V (Proc.devRef .tc main_arg14) (ix2 (2 : Fin 4) j) := by
  funext j
  unfold toRow
  after_results
  exact rowSlice_apply _ _ _ _ (2 : Fin 4) rfl j

theorem be4 : toRow (after hostOps12 V (Proc.devRef .tc main_v234)) = fun j => V (Proc.devRef .tc main_arg15) (ix2 (2 : Fin 4) j) := by
  funext j
  unfold toRow
  after_results
  exact rowSlice_apply _ _ _ _ (2 : Fin 4) rfl j

end Cert.KHostStatsL2

end
-- ==== Proof.KReg9.lean ====
/-
  The value of the first kernel stage of a layer: for every node tile the idealized kernel multiplies the features by
  the scale row, adds the aggregate, multiplies by the first weight matrix and adds the bias row, stores the result, and
  stores the tile's column sums of the result and of its square. After the 20 tiles the three output arrays are:
  the affine map over all 100000 nodes; per tile its column sums; per tile its column sums of squares.
-/
import proofs.«412161_j3753801416792_2_alg».proof.Proof.KIFrameR9
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg9

open Cert.KernelIdeal Cert.KernelIdeal.Gen Cert.Spec Cert.Conv Idealize.ShloMosaic Idealize.ShloMosaic.ValueIdx Idealize.ShloMosaic.TcCoe Idealize.ShloMosaic.Pipeline

/-! ## The matrix product of a row tile, entry by entry -/

/-- Left operand, row axis: the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Left operand, column axis: the contracted index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- Right operand, row axis: the contracted index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- Right operand, column axis: the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile product into the zero accumulator at row r, column j: the sum over the 128 contracted columns. -/
theorem tile_matmul_apply (a : FVec Ideal S5000x128 .bf16) (b : FVec Ideal S128x128 .bf16) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

/-! ## The three stored values of one tile, entry by entry -/

/-- The affine map of a tile at row r, column j: the scaled features plus the aggregate, times the weights, plus the bias. -/
theorem lin_pay_apply (x0 : Vec Ideal S5000x128 .f32) (x2 : Vec Ideal S1x128 .f32) (x1 : Vec Ideal S5000x128 .f32)
    (x3 : Vec Ideal S128x128 .f32) (x4 : Vec Ideal S1x128 .f32) (r : Fin 5000) (j : Fin 128) :
    k9_pay1 x0 x2 x1 x3 x4 (ix2 r j)
      = (∑ k : Fin 128, (x0 (ix2 r k) * x2 (ix2 (0 : Fin 1) k) + x1 (ix2 r k)) * x3 (ix2 k j)) + x4 (ix2 (0 : Fin 1) j) := by
  unfold k9_pay1
  simp only [shapeCast_self]
  refine (addf_apply _ _ _).trans ?_
  refine congrArg₂ (· + ·) ?_ (broadcastTo_1b_ab_apply x4 broadcasts_S1x128_S5000x128 r j)
  refine (tile_matmul_apply _ _ r j).trans ?_
  refine Finset.sum_congr rfl fun k _ => ?_
  refine congrArg₂ (· * ·) ?_ rfl
  show x0 (ix2 r k) * broadcastTo S5000x128 x2 broadcasts_S1x128_S5000x128 (ix2 r k) + x1 (ix2 r k) = _
  rw [broadcastTo_1b_ab_apply x2 broadcasts_S1x128_S5000x128 r k]

/-- A column sum over the 5000 rows of a tile. -/
theorem tile_colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext ax
  apply Fin.ext
  match ax with
  | ⟨0, _⟩ => rfl
  | ⟨1, _⟩ => rfl

/-- The stored column sums of a tile at column j. -/
theorem sum_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k9_pay2 x0 x2 x1 x3 x4 (ix3 u v j) = ∑ r : Fin 5000, k9_pay1 x0 x2 x1 x3 x4 (ix2 r j) := by
  unfold k9_pay2
  refine (shapeCast_ab_1ab_apply _ shapeCasts_S1x128_S1x1x128 u v j).trans ?_
  refine (shapeCast_a_1a_apply _ shapeCasts_S128_S1x128 v j).trans ?_
  exact tile_colsum_apply _ _ _ j

/-- The stored column sums of squares of a tile at column j. -/
theorem sumsq_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k9_pay3 x0 x2 x1 x3 x4 (ix3 u v j)
      = ∑ r : Fin 5000, k9_pay1 x0 x2 x1 x3 x4 (ix2 r j) * k9_pay1 x0 x2 x1 x3 x4 (ix2 r j) := by
  unfold k9_pay3
  refine (shapeCast_ab_1ab_apply _ shapeCasts_S1x128_S1x1x128 u v j).trans ?_
  refine (shapeCast_a_1a_apply _ shapeCasts_S128_S1x128 v j).trans ?_
  refine (tile_colsum_apply _ _ _ j).trans ?_
  rfl

/-! ## Where a tile sits in the arrays -/

/-- The grid point as a tile number. -/
abbrev tileOf (t : Fin cfg9.N) : Fin 20 := t.cast N_9

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: row tiles move with the point, the small arrays stay, the per-tile
    outputs move with the point on their leading axis. -/
theorem index_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0
    ∧ win9_6.index t (0 : Fin 3) = t.val ∧ win9_6.index t (1 : Fin 3) = 0 ∧ win9_6.index t (2 : Fin 3) = 0
    ∧ win9_7.index t (0 : Fin 3) = t.val ∧ win9_7.index t (1 : Fin 3) = 0 ∧ win9_7.index t (2 : Fin 3) = 0 :=
  (by decide +kernel : ∀ t : Fin grid9.N, _)

/-- Row r, column k of the feature tile at point t is row 5000 t + r of the array. -/
theorem emb_feat (t : Fin cfg9.N) (r : Fin 5000) (k : Fin 128) :
    ((cfg9.win 0).blk t).view.emb (ix2 r k) = ix2 (tileRow (tileOf t) r) k := by
  obtain ⟨e0, e1, -⟩ := index_facts t
  funext a; apply Fin.ext
  match a with
  | ⟨0, _⟩ => show win9_0.index t (0 : Fin 2) * 5000 + 1 * r.val = t.val * 5000 + r.val; rw [e0]; omega
  | ⟨1, _⟩ => show win9_0.index t (1 : Fin 2) * 128 + 1 * k.val = k.val; rw [e1]; omega

/-- The same for the aggregate tile. -/
theorem emb_agg (t : Fin cfg9.N) (r : Fin 5000) (k : Fin 128) :
    ((cfg9.win 1).blk t).view.emb (ix2 r k) = ix2 (tileRow (tileOf t) r) k := by
  obtain ⟨-, -, e0, e1, -⟩ := index_facts t
  funext a; apply Fin.ext
  match a with
  | ⟨0, _⟩ => show win9_1.index t (0 : Fin 2) * 5000 + 1 * r.val = t.val * 5000 + r.val; rw [e0]; omega
  | ⟨1, _⟩ => show win9_1.index t (1 : Fin 2) * 128 + 1 * k.val = k.val; rw [e1]; omega

/-- The scale row is read whole at every point. -/
theorem emb_scale (t : Fin cfg9.N) (u : Fin 1) (k : Fin 128) :
    ((cfg9.win 2).blk t).view.emb (ix2 u k) = ix2 (0 : Fin 1) k := by
  obtain ⟨-, -, -, -, e0, e1, -⟩ := index_facts t
  funext a; apply Fin.ext
  match a with
  | ⟨0, _⟩ => show win9_2.index t (0 : Fin 2) * 1 + 1 * u.val = 0; rw [e0]; omega
  | ⟨1, _⟩ => show win9_2.index t (1 : Fin 2) * 128 + 1 * k.val = k.val; rw [e1]; omega

/-- The weights are read whole at every point. -/
theorem emb_weight (t : Fin cfg9.N) (k : Fin 128) (j : Fin 128) :
    ((cfg9.win 3).blk t).view.emb (ix2 k j) = ix2 k j := by
  obtain ⟨-, -, -, -, -, -, e0, e1, -⟩ := index_facts t
  funext a; apply Fin.ext
  match a with
  | ⟨0, _⟩ => show win9_3.index t (0 : Fin 2) * 128 + 1 * k.val = k.val; rw [e0]; omega
  | ⟨1, _⟩ => show win9_3.index t (1 : Fin 2) * 128 + 1 * j.val = j.val; rw [e1]; omega

/-- The bias row is read whole at every point. -/
theorem emb_bias (t : Fin cfg9.N) (u : Fin 1) (j : Fin 128) :
    ((cfg9.win 4).blk t).view.emb (ix2 u j) = ix2 (0 : Fin 1) j := by
  obtain ⟨-, -, -, -, -, -, -, -, e0, e1, -⟩ := index_facts t
  funext a; apply Fin.ext
  match a with
  | ⟨0, _⟩ => show win9_4.index t (0 : Fin 2) * 1 + 1 * u.val = 0; rw [e0]; omega
  | ⟨1, _⟩ => show win9_4.index t (1 : Fin 2) * 128 + 1 * j.val = j.val; rw [e1]; omega

/-- Row r, column j of the output tile at point t is row 5000 t + r of the output array. -/
theorem emb_lin (t : Fin cfg9.N) (r : Fin 5000) (j : Fin 128) :
    ((cfg9.win 5).blk t).view.emb (ix2 r j) = ix2 (tileRow (tileOf t) r) j := by
  obtain ⟨-, -, -, -, -, -, -, -, -, -, e0, e1, -⟩ := index_facts t
  funext a; apply Fin.ext
  match a with
  | ⟨0, _⟩ => show win9_5.index t (0 : Fin 2) * 5000 + 1 * r.val = t.val * 5000 + r.val; rw [e0]; omega
  | ⟨1, _⟩ => show win9_5.index t (1 : Fin 2) * 128 + 1 * j.val = j.val; rw [e1]; omega

/-- The column sums of tile t are row t of their array. -/
theorem emb_sum (t : Fin cfg9.N) (u v : Fin 1) (j : Fin 128) :
    ((cfg9.win 6).blk t).view.emb (ix3 u v j) = ix3 (tileOf t) (0 : Fin 1) j := by
  obtain ⟨-, -, -, -, -, -, -, -, -, -, -, -, e0, e1, e2, -⟩ := index_facts t
  funext a; apply Fin.ext
  match a with
  | ⟨0, _⟩ => show win9_6.index t (0 : Fin 3) * 1 + 1 * u.val = t.val; rw [e0]; omega
  | ⟨1, _⟩ => show win9_6.index t (1 : Fin 3) * 1 + 1 * v.val = 0; rw [e1]; omega
  | ⟨2, _⟩ => show win9_6.index t (2 : Fin 3) * 128 + 1 * j.val = j.val; rw [e2]; omega

/-- The column sums of squares of tile t are row t of their array. -/
theorem emb_sumsq (t : Fin cfg9.N) (u v : Fin 1) (j : Fin 128) :
    ((cfg9.win 7).blk t).view.emb (ix3 u v j) = ix3 (tileOf t) (0 : Fin 1) j := by
  obtain ⟨-, -, -, -, -, -, -, -, -, -, -, -, -, -, -, e0, e1, e2⟩ := index_facts t
  funext a; apply Fin.ext
  match a with
  | ⟨0, _⟩ => show win9_7.index t (0 : Fin 3) * 1 + 1 * u.val = t.val; rw [e0]; omega
  | ⟨1, _⟩ => show win9_7.index t (1 : Fin 3) * 1 + 1 * v.val = 0; rw [e1]; omega
  | ⟨2, _⟩ => show win9_7.index t (2 : Fin 3) * 128 + 1 * j.val = j.val; rw [e2]; omega

/-! ## Every entry of each output array lies in some tile -/

/-- An entry of the output array is in the tile of point t iff each coordinate is in the tile's range. -/
theorem mem_lin (t : Fin cfg9.N) (i : S100000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v179_0).slice (win9_5.rect t)).set ↔ _
  rw [View.set_slice_whole, Rect.mem_set_unit]
  exact Iff.rfl

theorem mem_sum (t : Fin cfg9.N) (i : S20x1x128.Idx) :
    i ∈ ((cfg9.win 6).blk t).view.set ↔ ∀ a : Fin 3, win9_6.index t a * S1x1x128.size a ≤ (i a).val
      ∧ (i a).val < win9_6.index t a * S1x1x128.size a + S1x1x128.size a := by
  show i ∈ ((View.whole main_v179_1).slice (win9_6.rect t)).set ↔ _
  rw [View.set_slice_whole, Rect.mem_set_unit]
  exact Iff.rfl

theorem mem_sumsq (t : Fin cfg9.N) (i : S20x1x128.Idx) :
    i ∈ ((cfg9.win 7).blk t).view.set ↔ ∀ a : Fin 3, win9_7.index t a * S1x1x128.size a ≤ (i a).val
      ∧ (i a).val < win9_7.index t a * S1x1x128.size a + S1x1x128.size a := by
  show i ∈ ((View.whole main_v179_2).slice (win9_7.rect t)).set ↔ _
  rw [View.set_slice_whole, Rect.mem_set_unit]
  exact Iff.rfl

/-- Row n of the output array is in tile n / 5000. -/
theorem cover_lin (i : S100000x128.Idx) :
    ∃ t : Fin cfg9.N, (cfg9.win 5).flush t = true ∧ i ∈ ((cfg9.win 5).blk t).view.set := by
  have hi0 : (i 0).val < 100000 := (i 0).isLt
  have hi1 : (i 1).val < 128 := (i 1).isLt
  have hN : cfg9.N = 20 := N_9
  refine ⟨⟨(i 0).val / 5000, by rw [hN]; omega⟩, flush9_5 _, ?_⟩
  rw [mem_lin]
  obtain ⟨-, -, -, -, -, -, -, -, -, -, e0, e1, -⟩ := index_facts ⟨(i 0).val / 5000, by rw [hN]; omega⟩
  intro a
  match a with
  | ⟨0, _⟩ =>
    show win9_5.index ⟨(i 0).val / 5000, _⟩ (0 : Fin 2) * 5000 ≤ (i 0).val
      ∧ (i 0).val < win9_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win9_5.index ⟨(i 0).val / 5000, _⟩ (1 : Fin 2) * 128 ≤ (i 1).val
      ∧ (i 1).val < win9_5.index ⟨(i 0).val / 5000, _⟩ (1 : Fin 2) * 128 + 128
    rw [e1]; omega

/-- Row t of the column sums is tile t's. -/
theorem cover_sum (i : S20x1x128.Idx) :
    ∃ t : Fin cfg9.N, (cfg9.win 6).flush t = true ∧ i ∈ ((cfg9.win 6).blk t).view.set := by
  have hi0 : (i 0).val < 20 := (i 0).isLt
  have hi1 : (i 1).val < 1 := (i 1).isLt
  have hi2 : (i 2).val < 128 := (i 2).isLt
  have hN : cfg9.N = 20 := N_9
  refine ⟨⟨(i 0).val, by rw [hN]; omega⟩, flush9_6 _, ?_⟩
  rw [mem_sum]
  obtain ⟨-, -, -, -, -, -, -, -, -, -, -, -, e0, e1, e2, -⟩ := index_facts ⟨(i 0).val, by rw [hN]; omega⟩
  intro a
  match a with
  | ⟨0, _⟩ =>
    show win9_6.index ⟨(i 0).val, _⟩ (0 : Fin 3) * 1 ≤ (i 0).val ∧ (i 0).val < win9_6.index ⟨(i 0).val, _⟩ (0 : Fin 3) * 1 + 1
    rw [e0]; show (i 0).val * 1 ≤ (i 0).val ∧ (i 0).val < (i 0).val * 1 + 1; omega
  | ⟨1, _⟩ =>
    show win9_6.index ⟨(i 0).val, _⟩ (1 : Fin 3) * 1 ≤ (i 1).val ∧ (i 1).val < win9_6.index ⟨(i 0).val, _⟩ (1 : Fin 3) * 1 + 1
    rw [e1]; omega
  | ⟨2, _⟩ =>
    show win9_6.index ⟨(i 0).val, _⟩ (2 : Fin 3) * 128 ≤ (i 2).val ∧ (i 2).val < win9_6.index ⟨(i 0).val, _⟩ (2 : Fin 3) * 128 + 128
    rw [e2]; omega

/-- Row t of the column sums of squares is tile t's. -/
theorem cover_sumsq (i : S20x1x128.Idx) :
    ∃ t : Fin cfg9.N, (cfg9.win 7).flush t = true ∧ i ∈ ((cfg9.win 7).blk t).view.set := by
  have hi0 : (i 0).val < 20 := (i 0).isLt
  have hi1 : (i 1).val < 1 := (i 1).isLt
  have hi2 : (i 2).val < 128 := (i 2).isLt
  have hN : cfg9.N = 20 := N_9
  refine ⟨⟨(i 0).val, by rw [hN]; omega⟩, flush9_7 _, ?_⟩
  rw [mem_sumsq]
  obtain ⟨-, -, -, -, -, -, -, -, -, -, -, -, -, -, -, e0, e1, e2⟩ := index_facts ⟨(i 0).val, by rw [hN]; omega⟩
  intro a
  match a with
  | ⟨0, _⟩ =>
    show win9_7.index ⟨(i 0).val, _⟩ (0 : Fin 3) * 1 ≤ (i 0).val ∧ (i 0).val < win9_7.index ⟨(i 0).val, _⟩ (0 : Fin 3) * 1 + 1
    rw [e0]; show (i 0).val * 1 ≤ (i 0).val ∧ (i 0).val < (i 0).val * 1 + 1; omega
  | ⟨1, _⟩ =>
    show win9_7.index ⟨(i 0).val, _⟩ (1 : Fin 3) * 1 ≤ (i 1).val ∧ (i 1).val < win9_7.index ⟨(i 0).val, _⟩ (1 : Fin 3) * 1 + 1
    rw [e1]; omega
  | ⟨2, _⟩ =>
    show win9_7.index ⟨(i 0).val, _⟩ (2 : Fin 3) * 128 ≤ (i 2).val ∧ (i 2).val < win9_7.index ⟨(i 0).val, _⟩ (2 : Fin 3) * 128 + 128
    rw [e2]; omega

/-! ## One tile's stored values, in the whole arrays' terms -/

/-- The affine map of tile t at row r, column j, when the loaded blocks are tile t of the features and the aggregate
    and the whole scale row, weights and bias row. -/
theorem lin_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (r : Fin 5000) (j : Fin 128) :
    k9_pay1 x0 x2 x1 x3 x4 (ix2 r j) = lin (xRow h a sc) W b (tileRow t r) j := by
  rw [lin_pay_apply, e4]
  show _ = (∑ k : Fin 128, (h (tileRow t r) k * sc k + a (tileRow t r) k) * W k j) + b j
  refine congrArg (· + b j) (Finset.sum_congr rfl fun k _ => ?_)
  rw [e0, e1, e2, e3]

/-- The stored column sums of tile t. -/
theorem sum_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k9_pay2 x0 x2 x1 x3 x4 (ix3 u v j) = tileSum (lin (xRow h a sc) W b) t j := by
  rw [sum_pay_apply]
  exact Finset.sum_congr rfl fun r _ => lin_tile x0 x1 x2 x3 x4 h a sc W b t e0 e1 e2 e3 e4 r j

/-- The stored column sums of squares of tile t. -/
theorem sumsq_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k9_pay3 x0 x2 x1 x3 x4 (ix3 u v j) = tileSum (sq (lin (xRow h a sc) W b)) t j := by
  rw [sumsq_pay_apply]
  refine Finset.sum_congr rfl fun r _ => ?_
  rw [lin_tile x0 x1 x2 x3 x4 h a sc W b t e0 e1 e2 e3 e4 r j]
  rfl

/-! ## The output arrays after the 20 tiles -/

variable (V : (c : Dev nD) → (b : Ref sig .tc) → Buf (Elt Ideal) ((c : Thread nD τ).loc b))

/-- The first affine map of the layer over all nodes, from the arrays as the stage finds them. -/
def L (c : Dev nD) : Mat 100000 128 :=
  lin (xRow (toMat (V c main_v157_0)) (toMat (V c main_v168)) (toRow (V c main_v173))) (toMat (V c main_v178)) (toRow (V c main_v176))

/-- A loaded block is the array read through the block's place in it. -/
theorem blk_feat (c : Dev nD) (t : Fin cfg9.N) (y : S5000x128.Idx) :
    (iblk9 V c 0 t : Vec Ideal S5000x128 .f32) y = V c main_v157_0 (((cfg9.win 0).blk t).view.emb y) := rfl
theorem blk_agg (c : Dev nD) (t : Fin cfg9.N) (y : S5000x128.Idx) :
    (iblk9 V c 1 t : Vec Ideal S5000x128 .f32) y = V c main_v168 (((cfg9.win 1).blk t).view.emb y) := rfl
theorem blk_scale (c : Dev nD) (t : Fin cfg9.N) (y : S1x128.Idx) :
    (iblk9 V c 2 t : Vec Ideal S1x128 .f32) y = V c main_v173 (((cfg9.win 2).blk t).view.emb y) := rfl
theorem blk_weight (c : Dev nD) (t : Fin cfg9.N) (y : S128x128.Idx) :
    (iblk9 V c 3 t : Vec Ideal S128x128 .f32) y = V c main_v178 (((cfg9.win 3).blk t).view.emb y) := rfl
theorem blk_bias (c : Dev nD) (t : Fin cfg9.N) (y : S1x128.Idx) :
    (iblk9 V c 4 t : Vec Ideal S1x128 .f32) y = V c main_v176 (((cfg9.win 4).blk t).view.emb y) := rfl

/-- The feature block at point t is tile t of the features. -/
theorem read_feat (c : Dev nD) (t : Fin cfg9.N) (r : Fin 5000) (k : Fin 128) :
    (iblk9 V c 0 t : Vec Ideal S5000x128 .f32) (ix2 r k) = toMat (V c main_v157_0) (tileRow (tileOf t) r) k :=
  (blk_feat V c t (ix2 r k)).trans (congrArg (V c main_v157_0) (emb_feat t r k))
/-- The aggregate block at point t is tile t of the aggregate. -/
theorem read_agg (c : Dev nD) (t : Fin cfg9.N) (r : Fin 5000) (k : Fin 128) :
    (iblk9 V c 1 t : Vec Ideal S5000x128 .f32) (ix2 r k) = toMat (V c main_v168) (tileRow (tileOf t) r) k :=
  (blk_agg V c t (ix2 r k)).trans (congrArg (V c main_v168) (emb_agg t r k))
/-- The scale block is the scale row. -/
theorem read_scale (c : Dev nD) (t : Fin cfg9.N) (k : Fin 128) :
    (iblk9 V c 2 t : Vec Ideal S1x128 .f32) (ix2 (0 : Fin 1) k) = toRow (V c main_v173) k :=
  (blk_scale V c t (ix2 (0 : Fin 1) k)).trans (congrArg (V c main_v173) (emb_scale t 0 k))
/-- The weight block is the weight matrix. -/
theorem read_weight (c : Dev nD) (t : Fin cfg9.N) (k : Fin 128) (j : Fin 128) :
    (iblk9 V c 3 t : Vec Ideal S128x128 .f32) (ix2 k j) = toMat (V c main_v178) k j :=
  (blk_weight V c t (ix2 k j)).trans (congrArg (V c main_v178) (emb_weight t k j))
/-- The bias block is the bias row. -/
theorem read_bias (c : Dev nD) (t : Fin cfg9.N) (j : Fin 128) :
    (iblk9 V c 4 t : Vec Ideal S1x128 .f32) (ix2 (0 : Fin 1) j) = toRow (V c main_v176) j :=
  (blk_bias V c t (ix2 (0 : Fin 1) j)).trans (congrArg (V c main_v176) (emb_bias t 0 j))

/-- What point t writes back to the first output is tile t of the affine map. -/
theorem flushed_lin (c : Dev nD) (t : Fin cfg9.N) :
    (dat9 V c).flushed 5 t = ((cfg9.win 5).blk t).view.read (Elt Ideal) (ofMat (L V c)) := by
  show (cfg9.win 5).cut (grid9.coords t) ((dat9 V c).after 5 t) = _
  rw [after9_5]
  unfold out9_5
  rw [View.canon_unit_zero zeros2]
  simp only [View.ld_unit_zero (S := S5000x128) zeros2, View.ld_unit_zero (S := S1x128) zeros2,
    View.ld_unit_zero (S := S128x128) zeros2]
  funext y
  obtain ⟨r, j, rfl⟩ : ∃ (r : Fin 5000) (j : Fin 128), y = ix2 r j := ⟨y 0, y 1, eq_ix2 y⟩
  show k9_pay1 (iblk9 V c 0 t) (iblk9 V c 2 t) (iblk9 V c 1 t) (iblk9 V c 3 t) (iblk9 V c 4 t) (ix2 r j)
    = ofMat (L V c) (((cfg9.win 5).blk t).view.emb (ix2 r j))
  rw [emb_lin t r j]
  exact lin_tile (iblk9 V c 0 t) (iblk9 V c 1 t) (iblk9 V c 2 t) (iblk9 V c 3 t) (iblk9 V c 4 t)
    (toMat (V c main_v157_0)) (toMat (V c main_v168)) (toRow (V c main_v173)) (toMat (V c main_v178)) (toRow (V c main_v176))
    (tileOf t) (read_feat V c t) (read_agg V c t) (read_scale V c t) (read_weight V c t) (read_bias V c t) r j

/-- What point t writes back to the second output is tile t's column sums. -/
theorem flushed_sum (c : Dev nD) (t : Fin cfg9.N) :
    (dat9 V c).flushed 6 t
      = ((cfg9.win 6).blk t).view.read (Elt Ideal) (fun i : S20x1x128.Idx => tileSum (L V c) (i 0) (i 2)) := by
  show (cfg9.win 6).cut (grid9.coords t) ((dat9 V c).after 6 t) = _
  rw [after9_6]
  unfold out9_6
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k9_pay2 (iblk9 V c 0 t) (iblk9 V c 2 t) (iblk9 V c 1 t) (iblk9 V c 3 t) (iblk9 V c 4 t) (ix3 u v j)
    = (fun i : S20x1x128.Idx => tileSum (L V c) (i 0) (i 2)) (((cfg9.win 6).blk t).view.emb (ix3 u v j))
  rw [emb_sum t u v j]
  exact sum_tile (iblk9 V c 0 t) (iblk9 V c 1 t) (iblk9 V c 2 t) (iblk9 V c 3 t) (iblk9 V c 4 t)
    (toMat (V c main_v157_0)) (toMat (V c main_v168)) (toRow (V c main_v173)) (toMat (V c main_v178)) (toRow (V c main_v176))
    (tileOf t) (read_feat V c t) (read_agg V c t) (read_scale V c t) (read_weight V c t) (read_bias V c t) u v j

/-- What point t writes back to the third output is tile t's column sums of squares. -/
theorem flushed_sumsq (c : Dev nD) (t : Fin cfg9.N) :
    (dat9 V c).flushed 7 t
      = ((cfg9.win 7).blk t).view.read (Elt Ideal) (fun i : S20x1x128.Idx => tileSum (sq (L V c)) (i 0) (i 2)) := by
  show (cfg9.win 7).cut (grid9.coords t) ((dat9 V c).after 7 t) = _
  rw [after9_7]
  unfold out9_7
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k9_pay3 (iblk9 V c 0 t) (iblk9 V c 2 t) (iblk9 V c 1 t) (iblk9 V c 3 t) (iblk9 V c 4 t) (ix3 u v j)
    = (fun i : S20x1x128.Idx => tileSum (sq (L V c)) (i 0) (i 2)) (((cfg9.win 7).blk t).view.emb (ix3 u v j))
  rw [emb_sumsq t u v j]
  exact sumsq_tile (iblk9 V c 0 t) (iblk9 V c 1 t) (iblk9 V c 2 t) (iblk9 V c 3 t) (iblk9 V c 4 t)
    (toMat (V c main_v157_0)) (toMat (V c main_v168)) (toRow (V c main_v173)) (toMat (V c main_v178)) (toRow (V c main_v176))
    (tileOf t) (read_feat V c t) (read_agg V c t) (read_scale V c t) (read_weight V c t) (read_bias V c t) u v j

/-- THE FIRST OUTPUT after the stage: the affine map over all nodes. -/
theorem lin_eq (c : Dev nD) : (dat9 V c).arrAt 5 cfg9.N = ofMat (L V c) :=
  (dat9 V c).arrAt_eq_of_cover 5 (ofMat (L V c)) (fun t _ => flushed_lin V c t) cover_lin

/-- THE SECOND OUTPUT after the stage: per tile, the column sums of the affine map. -/
theorem sum_eq (c : Dev nD) :
    (dat9 V c).arrAt 6 cfg9.N = fun i : S20x1x128.Idx => tileSum (L V c) (i 0) (i 2) :=
  (dat9 V c).arrAt_eq_of_cover 6 (fun i : S20x1x128.Idx => tileSum (L V c) (i 0) (i 2))
    (fun t _ => flushed_sum V c t) cover_sum

/-- THE THIRD OUTPUT after the stage: per tile, the column sums of the squared affine map. -/
theorem sumsq_eq (c : Dev nD) :
    (dat9 V c).arrAt 7 cfg9.N = fun i : S20x1x128.Idx => tileSum (sq (L V c)) (i 0) (i 2) :=
  (dat9 V c).arrAt_eq_of_cover 7 (fun i : S20x1x128.Idx => tileSum (sq (L V c)) (i 0) (i 2))
    (fun t _ => flushed_sumsq V c t) cover_sumsq

end Cert.KReg9

end
-- ==== Proof.KReg10.lean ====
/-
  The value of a layer's second-stage region. After its 20 grid points the stored array is the second affine map of
  the layer over all 100000 nodes,

      lin (bnRelu x mean var gamma beta) W b,

  x the first affine map, W the weight matrix and b the bias row of the second, with the column mean and variance as the
  region finds them, and the two per-tile arrays are, for each tile of 5000
  rows, the column sums of that matrix and of its entrywise square over the tile. One tile's payload is read entry by
  entry (the product as a sum over the 128 contracted columns, the lane sums as sums over the tile's rows), each loaded
  block is read where its window puts it in its array, and the tiles cover the arrays.
-/
import proofs.«412161_j3753801416792_2_alg».proof.Proof.KIFrameR10
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg10

open Cert.KernelIdeal Cert.KernelIdeal.Gen Cert.Spec Cert.Conv Idealize.ShloMosaic Idealize.ShloMosaic.ValueIdx Idealize.ShloMosaic.TcCoe Idealize.ShloMosaic.Pipeline

/-! ## The product of a row tile with the weights, entry by entry -/

/-- The left operand is read at the output's row … -/
theorem product_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the contracted column; -/
theorem product_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- the right operand at the contracted row … -/
theorem product_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- … and at the output's column. -/
theorem product_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile's product into the zero accumulator, at row r and column j, is the sum over the 128 contracted columns. -/
theorem product_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact product_lhs_row _ _
      | ⟨1, _⟩ => exact (product_lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (product_rhs_row _ _).trans hk
      | ⟨1, _⟩ => exact product_rhs_col _ _)
  rw [el, er]

/-! ## The stored values of one tile, entry by entry -/

/-- The second affine map of a tile at row r, column j: the normalised, scaled, shifted and clamped input row times
    the weights' column, plus the bias. -/
theorem pay3_apply (x0 : Vec Ideal S5000x128 .f32) (xv xm xg xb : Vec Ideal S1x128 .f32) (xw : Vec Ideal S128x128 .f32)
    (xc : Vec Ideal S1x128 .f32) (r : Fin 5000) (j : Fin 128) :
    k10_pay3 x0 xv xm xg xb xw xc (ix2 r j)
      = (∑ k : Fin 128, max ((x0 (ix2 r k) - xm (ix2 (0 : Fin 1) k)) * Ideal.rsqrt (xv (ix2 (0 : Fin 1) k) + cEps)
            * xg (ix2 (0 : Fin 1) k) + xb (ix2 (0 : Fin 1) k)) 0 * xw (ix2 k j)) + xc (ix2 (0 : Fin 1) j) := by
  unfold k10_pay3
  simp only [shapeCast_self]
  refine (addf_apply _ _ _).trans ?_
  refine congrArg₂ (· + ·) ?_ (broadcastTo_1b_ab_apply xc broadcasts_S1x128_S5000x128 r j)
  refine (product_apply _ _ r j).trans ?_
  refine Finset.sum_congr rfl fun k _ => ?_
  refine congrArg₂ (· * ·) ?_ rfl
  refine (truncf_apply (ψ := .bf16) _ bitsLt_bf16_f32 (ix2 r k)).trans ?_
  refine (maximumf_apply _ _ _).trans ?_
  refine congrArg₂ max ?_ Ideal.ofBits_zero_f32
  refine (addf_apply _ _ _).trans ?_
  refine congrArg₂ (· + ·) ?_ (broadcastTo_1b_ab_apply xb broadcasts_S1x128_S5000x128 r k)
  refine (mulf_apply _ _ _).trans ?_
  refine congrArg₂ (· * ·) ?_ (broadcastTo_1b_ab_apply xg broadcasts_S1x128_S5000x128 r k)
  refine (mulf_apply _ _ _).trans ?_
  refine congrArg₂ (· * ·) ?_ ?_
  · refine (subf_apply _ _ _).trans ?_
    exact congrArg (x0 (ix2 r k) - ·) (broadcastTo_1b_ab_apply xm broadcasts_S1x128_S5000x128 r k)
  · refine (broadcastTo_1b_ab_apply _ broadcasts_S1x128_S5000x128 r k).trans ?_
    rfl

/-- A column sum over the 5000 rows of a tile. -/
theorem colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext a
  apply Fin.ext
  match a with
  | ⟨0, _⟩ => rfl
  | ⟨1, _⟩ => rfl

/-- The stored column sums of a tile, at column j: the affine map summed over the tile's rows. -/
theorem pay_sums_apply (x0 : Vec Ideal S5000x128 .f32) (xv xm xg xb : Vec Ideal S1x128 .f32) (xw : Vec Ideal S128x128 .f32)
    (xc : Vec Ideal S1x128 .f32) (u v : Fin 1) (j : Fin 128) :
    k10_pay1 (k10_pay4 x0 xv xm xg xb xw xc) (ix3 u v j) = ∑ r : Fin 5000, k10_pay3 x0 xv xm xg xb xw xc (ix2 r j) := by
  unfold k10_pay1 k10_pay4
  refine (shapeCast_ab_1ab_apply _ shapeCasts_S1x128_S1x1x128 u v j).trans ?_
  refine (shapeCast_a_1a_apply _ shapeCasts_S128_S1x128 v j).trans ?_
  exact colsum_apply _ _ _ j

/-- The stored column sums of squares of a tile, at column j. -/
theorem pay_sumsqs_apply (x0 : Vec Ideal S5000x128 .f32) (xv xm xg xb : Vec Ideal S1x128 .f32) (xw : Vec Ideal S128x128 .f32)
    (xc : Vec Ideal S1x128 .f32) (u v : Fin 1) (j : Fin 128) :
    k10_pay2 (k10_pay5 x0 xv xm xg xb xw xc) (ix3 u v j)
      = ∑ r : Fin 5000, k10_pay3 x0 xv xm xg xb xw xc (ix2 r j) * k10_pay3 x0 xv xm xg xb xw xc (ix2 r j) := by
  unfold k10_pay2 k10_pay5
  refine (shapeCast_ab_1ab_apply _ shapeCasts_S1x128_S1x1x128 u v j).trans ?_
  refine (shapeCast_a_1a_apply _ shapeCasts_S128_S1x128 v j).trans ?_
  refine (colsum_apply _ _ _ j).trans ?_
  rfl

/-- One tile's affine map in the matrices' own terms: when the loaded blocks are the tile's rows of the input and the
    whole small arrays, the payload at row r, column j is the whole-array affine map at the tile's row. -/
theorem tile_lin (X : Mat 100000 128) (mu var g be : Row 128) (W : Mat 128 128) (b : Row 128) (tl : Fin 20)
    (x0 : Vec Ideal S5000x128 .f32) (xv xm xg xb : Vec Ideal S1x128 .f32) (xw : Vec Ideal S128x128 .f32)
    (xc : Vec Ideal S1x128 .f32)
    (h0 : ∀ (r : Fin 5000) (k : Fin 128), x0 (ix2 r k) = X (tileRow tl r) k)
    (hv : ∀ k : Fin 128, xv (ix2 (0 : Fin 1) k) = var k) (hm : ∀ k : Fin 128, xm (ix2 (0 : Fin 1) k) = mu k)
    (hg : ∀ k : Fin 128, xg (ix2 (0 : Fin 1) k) = g k) (hb : ∀ k : Fin 128, xb (ix2 (0 : Fin 1) k) = be k)
    (hw : ∀ k j : Fin 128, xw (ix2 k j) = W k j) (hc : ∀ j : Fin 128, xc (ix2 (0 : Fin 1) j) = b j)
    (r : Fin 5000) (j : Fin 128) :
    k10_pay3 x0 xv xm xg xb xw xc (ix2 r j) = lin (bnRelu X mu var g be) W b (tileRow tl r) j := by
  refine (pay3_apply x0 xv xm xg xb xw xc r j).trans ?_
  show _ = (∑ k : Fin 128, max ((X (tileRow tl r) k - mu k) * Ideal.rsqrt (var k + cEps) * g k + be k) 0 * W k j) + b j
  rw [hc j]
  refine congrArg (· + b j) (Finset.sum_congr rfl fun k _ => ?_)
  rw [h0 r k, hv k, hm k, hg k, hb k, hw k j]

/-! ## Where a tile sits in the arrays -/

/-- The grid point as a tile number. -/
abbrev tileOf (t : Fin cfg10.N) : Fin 20 := t.cast N_10

theorem zeros_rank2 : (![0, 0] : Fin 2 → Nat) = fun _ => 0 := funext fun a => by fin_cases a <;> rfl
theorem zeros_rank3 : (![0, 0, 0] : Fin 3 → Nat) = fun _ => 0 := funext fun a => by fin_cases a <;> rfl

/-- The printed index maps over the 20 points: the row tiles of the input and of the stored affine map move with the
    point, the six small arrays stay, the per-tile sums move with the point on their leading axis. -/
theorem index_rows : ∀ t : Fin cfg10.N,
    win10_0.index t (0 : Fin 2) = t.val ∧ win10_0.index t (1 : Fin 2) = 0
    ∧ win10_7.index t (0 : Fin 2) = t.val ∧ win10_7.index t (1 : Fin 2) = 0 :=
  (by decide +kernel : ∀ t : Fin grid10.N, _)

theorem index_small : ∀ t : Fin cfg10.N,
    win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

theorem index_sums : ∀ t : Fin cfg10.N,
    win10_8.index t (0 : Fin 3) = t.val ∧ win10_8.index t (1 : Fin 3) = 0 ∧ win10_8.index t (2 : Fin 3) = 0
    ∧ win10_9.index t (0 : Fin 3) = t.val ∧ win10_9.index t (1 : Fin 3) = 0 ∧ win10_9.index t (2 : Fin 3) = 0 :=
  (by decide +kernel : ∀ t : Fin grid10.N, _)

/-- Row r, column k of the input tile at point t is row 5000 t + r of the input array. -/
theorem emb_input (t : Fin cfg10.N) (r : Fin 5000) (k : Fin 128) :
    ((cfg10.win 0).blk t).view.emb (ix2 r k) = ix2 (tileRow (tileOf t) r) k := by
  obtain ⟨e0, e1, -⟩ := index_rows t
  funext a; apply Fin.ext
  match a with
  | ⟨0, _⟩ => show win10_0.index t (0 : Fin 2) * 5000 + 1 * r.val = t.val * 5000 + r.val; rw [e0]; omega
  | ⟨1, _⟩ => show win10_0.index t (1 : Fin 2) * 128 + 1 * k.val = k.val; rw [e1]; omega

/-- The mean row is read whole at every point. -/
theorem emb_mean (t : Fin cfg10.N) (u : Fin 1) (k : Fin 128) :
    ((cfg10.win 1).blk t).view.emb (ix2 u k) = ix2 (0 : Fin 1) k := by
  obtain ⟨e0, e1, -⟩ := index_small t
  funext a; apply Fin.ext
  match a with
  | ⟨0, _⟩ => show win10_1.index t (0 : Fin 2) * 1 + 1 * u.val = 0; rw [e0]; omega
  | ⟨1, _⟩ => show win10_1.index t (1 : Fin 2) * 128 + 1 * k.val = k.val; rw [e1]; omega

/-- The variance row is read whole at every point. -/
theorem emb_var (t : Fin cfg10.N) (u : Fin 1) (k : Fin 128) :
    ((cfg10.win 2).blk t).view.emb (ix2 u k) = ix2 (0 : Fin 1) k := by
  obtain ⟨-, -, e0, e1, -⟩ := index_small t
  funext a; apply Fin.ext
  match a with
  | ⟨0, _⟩ => show win10_2.index t (0 : Fin 2) * 1 + 1 * u.val = 0; rw [e0]; omega
  | ⟨1, _⟩ => show win10_2.index t (1 : Fin 2) * 128 + 1 * k.val = k.val; rw [e1]; omega

/-- The scale row is read whole at every point. -/
theorem emb_gamma (t : Fin cfg10.N) (u : Fin 1) (k : Fin 128) :
    ((cfg10.win 3).blk t).view.emb (ix2 u k) = ix2 (0 : Fin 1) k := by
  obtain ⟨-, -, -, -, e0, e1, -⟩ := index_small t
  funext a; apply Fin.ext
  match a with
  | ⟨0, _⟩ => show win10_3.index t (0 : Fin 2) * 1 + 1 * u.val = 0; rw [e0]; omega
  | ⟨1, _⟩ => show win10_3.index t (1 : Fin 2) * 128 + 1 * k.val = k.val; rw [e1]; omega

/-- The shift row is read whole at every point. -/
theorem emb_beta (t : Fin cfg10.N) (u : Fin 1) (k : Fin 128) :
    ((cfg10.win 4).blk t).view.emb (ix2 u k) = ix2 (0 : Fin 1) k := by
  obtain ⟨-, -, -, -, -, -, e0, e1, -⟩ := index_small t
  funext a; apply Fin.ext
  match a with
  | ⟨0, _⟩ => show win10_4.index t (0 : Fin 2) * 1 + 1 * u.val = 0; rw [e0]; omega
  | ⟨1, _⟩ => show win10_4.index t (1 : Fin 2) * 128 + 1 * k.val = k.val; rw [e1]; omega

/-- The weights are read whole at every point. -/
theorem emb_weights (t : Fin cfg10.N) (k j : Fin 128) :
    ((cfg10.win 5).blk t).view.emb (ix2 k j) = ix2 k j := by
  obtain ⟨-, -, -, -, -, -, -, -, e0, e1, -⟩ := index_small t
  funext a; apply Fin.ext
  match a with
  | ⟨0, _⟩ => show win10_5.index t (0 : Fin 2) * 128 + 1 * k.val = k.val; rw [e0]; omega
  | ⟨1, _⟩ => show win10_5.index t (1 : Fin 2) * 128 + 1 * j.val = j.val; rw [e1]; omega

/-- The bias row is read whole at every point. -/
theorem emb_bias (t : Fin cfg10.N) (u : Fin 1) (j : Fin 128) :
    ((cfg10.win 6).blk t).view.emb (ix2 u j) = ix2 (0 : Fin 1) j := by
  obtain ⟨-, -, -, -, -, -, -, -, -, -, e0, e1⟩ := index_small t
  funext a; apply Fin.ext
  match a with
  | ⟨0, _⟩ => show win10_6.index t (0 : Fin 2) * 1 + 1 * u.val = 0; rw [e0]; omega
  | ⟨1, _⟩ => show win10_6.index t (1 : Fin 2) * 128 + 1 * j.val = j.val; rw [e1]; omega

/-- Row r, column j of the stored tile at point t is row 5000 t + r of the stored array. -/
theorem emb_stored (t : Fin cfg10.N) (r : Fin 5000) (j : Fin 128) :
    ((cfg10.win 7).blk t).view.emb (ix2 r j) = ix2 (tileRow (tileOf t) r) j := by
  obtain ⟨-, -, e0, e1⟩ := index_rows t
  funext a; apply Fin.ext
  match a with
  | ⟨0, _⟩ => show win10_7.index t (0 : Fin 2) * 5000 + 1 * r.val = t.val * 5000 + r.val; rw [e0]; omega
  | ⟨1, _⟩ => show win10_7.index t (1 : Fin 2) * 128 + 1 * j.val = j.val; rw [e1]; omega

/-- The column sums of tile t are row t of their array. -/
theorem emb_sums (t : Fin cfg10.N) (u v : Fin 1) (j : Fin 128) :
    ((cfg10.win 8).blk t).view.emb (ix3 u v j) = ix3 (tileOf t) (0 : Fin 1) j := by
  obtain ⟨e0, e1, e2, -⟩ := index_sums t
  funext a; apply Fin.ext
  match a with
  | ⟨0, _⟩ => show win10_8.index t (0 : Fin 3) * 1 + 1 * u.val = t.val; rw [e0]; omega
  | ⟨1, _⟩ => show win10_8.index t (1 : Fin 3) * 1 + 1 * v.val = 0; rw [e1]; omega
  | ⟨2, _⟩ => show win10_8.index t (2 : Fin 3) * 128 + 1 * j.val = j.val; rw [e2]; omega

/-- The column sums of squares of tile t are row t of their array. -/
theorem emb_sumsqs (t : Fin cfg10.N) (u v : Fin 1) (j : Fin 128) :
    ((cfg10.win 9).blk t).view.emb (ix3 u v j) = ix3 (tileOf t) (0 : Fin 1) j := by
  obtain ⟨-, -, -, e0, e1, e2⟩ := index_sums t
  funext a; apply Fin.ext
  match a with
  | ⟨0, _⟩ => show win10_9.index t (0 : Fin 3) * 1 + 1 * u.val = t.val; rw [e0]; omega
  | ⟨1, _⟩ => show win10_9.index t (1 : Fin 3) * 1 + 1 * v.val = 0; rw [e1]; omega
  | ⟨2, _⟩ => show win10_9.index t (2 : Fin 3) * 128 + 1 * j.val = j.val; rw [e2]; omega

/-! ## Every entry of each output array lies in some tile -/

/-- An entry of the stored array is in the tile of point t iff each coordinate is in the tile's range. -/
theorem mem_stored (t : Fin cfg10.N) (i : S100000x128.Idx) :
    i ∈ ((cfg10.win 7).blk t).view.set ↔ ∀ a : Fin 2, win10_7.index t a * S5000x128.size a ≤ (i a).val
      ∧ (i a).val < win10_7.index t a * S5000x128.size a + S5000x128.size a := by
  show i ∈ ((View.whole main_v201_0).slice (win10_7.rect t)).set ↔ _
  rw [View.set_slice_whole, Rect.mem_set_unit]
  exact Iff.rfl

theorem mem_sums (t : Fin cfg10.N) (i : S20x1x128.Idx) :
    i ∈ ((cfg10.win 8).blk t).view.set ↔ ∀ a : Fin 3, win10_8.index t a * S1x1x128.size a ≤ (i a).val
      ∧ (i a).val < win10_8.index t a * S1x1x128.size a + S1x1x128.size a := by
  show i ∈ ((View.whole main_v201_1).slice (win10_8.rect t)).set ↔ _
  rw [View.set_slice_whole, Rect.mem_set_unit]
  exact Iff.rfl

theorem mem_sumsqs (t : Fin cfg10.N) (i : S20x1x128.Idx) :
    i ∈ ((cfg10.win 9).blk t).view.set ↔ ∀ a : Fin 3, win10_9.index t a * S1x1x128.size a ≤ (i a).val
      ∧ (i a).val < win10_9.index t a * S1x1x128.size a + S1x1x128.size a := by
  show i ∈ ((View.whole main_v201_2).slice (win10_9.rect t)).set ↔ _
  rw [View.set_slice_whole, Rect.mem_set_unit]
  exact Iff.rfl

/-- Row n of the stored array is in tile n / 5000. -/
theorem cover_stored (i : S100000x128.Idx) :
    ∃ t : Fin cfg10.N, (cfg10.win 7).flush t = true ∧ i ∈ ((cfg10.win 7).blk t).view.set := by
  have hi0 : (i 0).val < 100000 := (i 0).isLt
  have hi1 : (i 1).val < 128 := (i 1).isLt
  have hN : cfg10.N = 20 := N_10
  refine ⟨⟨(i 0).val / 5000, by rw [hN]; omega⟩, flush10_7 _, ?_⟩
  rw [mem_stored]
  obtain ⟨-, -, e0, e1⟩ := index_rows ⟨(i 0).val / 5000, by rw [hN]; omega⟩
  intro a
  match a with
  | ⟨0, _⟩ =>
    show win10_7.index ⟨(i 0).val / 5000, _⟩ (0 : Fin 2) * 5000 ≤ (i 0).val
      ∧ (i 0).val < win10_7.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win10_7.index ⟨(i 0).val / 5000, _⟩ (1 : Fin 2) * 128 ≤ (i 1).val
      ∧ (i 1).val < win10_7.index ⟨(i 0).val / 5000, _⟩ (1 : Fin 2) * 128 + 128
    rw [e1]; omega

/-- Row t of the column sums is tile t's. -/
theorem cover_sums (i : S20x1x128.Idx) :
    ∃ t : Fin cfg10.N, (cfg10.win 8).flush t = true ∧ i ∈ ((cfg10.win 8).blk t).view.set := by
  have hi0 : (i 0).val < 20 := (i 0).isLt
  have hi1 : (i 1).val < 1 := (i 1).isLt
  have hi2 : (i 2).val < 128 := (i 2).isLt
  have hN : cfg10.N = 20 := N_10
  refine ⟨⟨(i 0).val, by rw [hN]; omega⟩, flush10_8 _, ?_⟩
  rw [mem_sums]
  obtain ⟨e0, e1, e2, -⟩ := index_sums ⟨(i 0).val, by rw [hN]; omega⟩
  intro a
  match a with
  | ⟨0, _⟩ =>
    show win10_8.index ⟨(i 0).val, _⟩ (0 : Fin 3) * 1 ≤ (i 0).val ∧ (i 0).val < win10_8.index ⟨(i 0).val, _⟩ (0 : Fin 3) * 1 + 1
    rw [e0]
    show (i 0).val * 1 ≤ (i 0).val ∧ (i 0).val < (i 0).val * 1 + 1
    omega
  | ⟨1, _⟩ =>
    show win10_8.index ⟨(i 0).val, _⟩ (1 : Fin 3) * 1 ≤ (i 1).val ∧ (i 1).val < win10_8.index ⟨(i 0).val, _⟩ (1 : Fin 3) * 1 + 1
    rw [e1]; omega
  | ⟨2, _⟩ =>
    show win10_8.index ⟨(i 0).val, _⟩ (2 : Fin 3) * 128 ≤ (i 2).val ∧ (i 2).val < win10_8.index ⟨(i 0).val, _⟩ (2 : Fin 3) * 128 + 128
    rw [e2]; omega

/-- Row t of the column sums of squares is tile t's. -/
theorem cover_sumsqs (i : S20x1x128.Idx) :
    ∃ t : Fin cfg10.N, (cfg10.win 9).flush t = true ∧ i ∈ ((cfg10.win 9).blk t).view.set := by
  have hi0 : (i 0).val < 20 := (i 0).isLt
  have hi1 : (i 1).val < 1 := (i 1).isLt
  have hi2 : (i 2).val < 128 := (i 2).isLt
  have hN : cfg10.N = 20 := N_10
  refine ⟨⟨(i 0).val, by rw [hN]; omega⟩, flush10_9 _, ?_⟩
  rw [mem_sumsqs]
  obtain ⟨-, -, -, e0, e1, e2⟩ := index_sums ⟨(i 0).val, by rw [hN]; omega⟩
  intro a
  match a with
  | ⟨0, _⟩ =>
    show win10_9.index ⟨(i 0).val, _⟩ (0 : Fin 3) * 1 ≤ (i 0).val ∧ (i 0).val < win10_9.index ⟨(i 0).val, _⟩ (0 : Fin 3) * 1 + 1
    rw [e0]
    show (i 0).val * 1 ≤ (i 0).val ∧ (i 0).val < (i 0).val * 1 + 1
    omega
  | ⟨1, _⟩ =>
    show win10_9.index ⟨(i 0).val, _⟩ (1 : Fin 3) * 1 ≤ (i 1).val ∧ (i 1).val < win10_9.index ⟨(i 0).val, _⟩ (1 : Fin 3) * 1 + 1
    rw [e1]; omega
  | ⟨2, _⟩ =>
    show win10_9.index ⟨(i 0).val, _⟩ (2 : Fin 3) * 128 ≤ (i 2).val ∧ (i 2).val < win10_9.index ⟨(i 0).val, _⟩ (2 : Fin 3) * 128 + 128
    rw [e2]; omega

variable (V : (c : Dev nD) → (b : Ref sig .tc) → Buf (Elt Ideal) ((c : Thread nD τ).loc b))

/-! ## The region's value -/

/-- The second affine map of the layer over all nodes: the normalised, scaled, shifted and clamped first affine map
    (by the given column mean and variance) times the second weights, plus the second bias. -/
def L2 (c : Dev nD) : Mat 100000 128 :=
  lin (bnRelu (toMat (n := 100000) (d := 128) (V c main_v179_0)) (toRow (d := 128) (V c main_v183)) (toRow (d := 128) (V c main_v189))
      (toRow (d := 128) (V c main_v192)) (toRow (d := 128) (V c main_v195)))
    (toMat (n := 128) (d := 128) (V c main_v200)) (toRow (d := 128) (V c main_v198))

/-! ## The loaded blocks, entry by entry -/

theorem block_input (c : Dev nD) (t : Fin cfg10.N) (r : Fin 5000) (k : Fin 128) :
    (iblk10 V c 0 t : Vec Ideal S5000x128 .f32) (ix2 r k) = toMat (n := 100000) (d := 128) (V c main_v179_0) (tileRow (tileOf t) r) k := by
  show V c main_v179_0 (((cfg10.win 0).blk t).view.emb (ix2 r k)) = V c main_v179_0 (ix2 (tileRow (tileOf t) r) k)
  rw [emb_input]

theorem block_mean (c : Dev nD) (t : Fin cfg10.N) (k : Fin 128) :
    (iblk10 V c 1 t : Vec Ideal S1x128 .f32) (ix2 (0 : Fin 1) k) = toRow (d := 128) (V c main_v183) k := by
  show V c main_v183 (((cfg10.win 1).blk t).view.emb (ix2 (0 : Fin 1) k)) = V c main_v183 (ix2 (0 : Fin 1) k)
  rw [emb_mean]

theorem block_var (c : Dev nD) (t : Fin cfg10.N) (k : Fin 128) :
    (iblk10 V c 2 t : Vec Ideal S1x128 .f32) (ix2 (0 : Fin 1) k) = toRow (d := 128) (V c main_v189) k := by
  show V c main_v189 (((cfg10.win 2).blk t).view.emb (ix2 (0 : Fin 1) k)) = V c main_v189 (ix2 (0 : Fin 1) k)
  rw [emb_var]

theorem block_gamma (c : Dev nD) (t : Fin cfg10.N) (k : Fin 128) :
    (iblk10 V c 3 t : Vec Ideal S1x128 .f32) (ix2 (0 : Fin 1) k) = toRow (d := 128) (V c main_v192) k := by
  show V c main_v192 (((cfg10.win 3).blk t).view.emb (ix2 (0 : Fin 1) k)) = V c main_v192 (ix2 (0 : Fin 1) k)
  rw [emb_gamma]

theorem block_beta (c : Dev nD) (t : Fin cfg10.N) (k : Fin 128) :
    (iblk10 V c 4 t : Vec Ideal S1x128 .f32) (ix2 (0 : Fin 1) k) = toRow (d := 128) (V c main_v195) k := by
  show V c main_v195 (((cfg10.win 4).blk t).view.emb (ix2 (0 : Fin 1) k)) = V c main_v195 (ix2 (0 : Fin 1) k)
  rw [emb_beta]

theorem block_weights (c : Dev nD) (t : Fin cfg10.N) (k j : Fin 128) :
    (iblk10 V c 5 t : Vec Ideal S128x128 .f32) (ix2 k j) = toMat (n := 128) (d := 128) (V c main_v200) k j := by
  show V c main_v200 (((cfg10.win 5).blk t).view.emb (ix2 k j)) = V c main_v200 (ix2 k j)
  rw [emb_weights]

theorem block_bias (c : Dev nD) (t : Fin cfg10.N) (j : Fin 128) :
    (iblk10 V c 6 t : Vec Ideal S1x128 .f32) (ix2 (0 : Fin 1) j) = toRow (d := 128) (V c main_v198) j := by
  show V c main_v198 (((cfg10.win 6).blk t).view.emb (ix2 (0 : Fin 1) j)) = V c main_v198 (ix2 (0 : Fin 1) j)
  rw [emb_bias]

/-- The payload of point t at row r, column j is the whole-array affine map at the tile's row. -/
theorem block_lin (c : Dev nD) (t : Fin cfg10.N) (r : Fin 5000) (j : Fin 128) :
    k10_pay3 (iblk10 V c 0 t) (iblk10 V c 2 t) (iblk10 V c 1 t) (iblk10 V c 3 t) (iblk10 V c 4 t) (iblk10 V c 5 t) (iblk10 V c 6 t) (ix2 r j)
      = L2 V c (tileRow (tileOf t) r) j :=
  tile_lin (toMat (n := 100000) (d := 128) (V c main_v179_0)) (toRow (d := 128) (V c main_v183)) (toRow (d := 128) (V c main_v189))
    (toRow (d := 128) (V c main_v192)) (toRow (d := 128) (V c main_v195)) (toMat (n := 128) (d := 128) (V c main_v200))
    (toRow (d := 128) (V c main_v198)) (tileOf t)
    (iblk10 V c 0 t) (iblk10 V c 2 t) (iblk10 V c 1 t) (iblk10 V c 3 t) (iblk10 V c 4 t) (iblk10 V c 5 t) (iblk10 V c 6 t)
    (fun r k => block_input V c t r k) (fun k => block_var V c t k) (fun k => block_mean V c t k)
    (fun k => block_gamma V c t k) (fun k => block_beta V c t k) (fun k j => block_weights V c t k j)
    (fun j => block_bias V c t j) r j

/-! ## What each point writes back -/

/-- Two functions of a tile's index that agree at every row and column are equal. -/
theorem ext_tile {α : Type} {P Q : S5000x128.Idx → α} (h : ∀ (r : Fin 5000) (j : Fin 128), P (ix2 r j) = Q (ix2 r j)) : P = Q :=
  funext fun y => (congrArg P (eq_ix2 y)).trans ((h (y 0) (y 1)).trans (congrArg Q (eq_ix2 y).symm))

/-- The same for a per-tile row of sums. -/
theorem ext_sums {α : Type} {P Q : S1x1x128.Idx → α} (h : ∀ (u v : Fin 1) (j : Fin 128), P (ix3 u v j) = Q (ix3 u v j)) : P = Q :=
  funext fun y => (congrArg P (eq_ix3 y)).trans ((h (y 0) (y 1) (y 2)).trans (congrArg Q (eq_ix3 y).symm))

/-- Point t writes back tile t of the affine map. -/
theorem flushed_lin (c : Dev nD) (t : Fin cfg10.N) :
    (dat10 V c).flushed 7 t = ((cfg10.win 7).blk t).view.read (Elt Ideal) (ofMat (L2 V c)) := by
  show (cfg10.win 7).cut (grid10.coords t) ((dat10 V c).after 7 t) = _
  rw [after10_7]
  unfold out10_7
  rw [View.canon_unit_zero zeros_rank2]
  simp only [View.ld_unit_zero (S := S5000x128) zeros_rank2, View.ld_unit_zero (S := S1x128) zeros_rank2,
    View.ld_unit_zero (S := S128x128) zeros_rank2]
  refine ext_tile fun r j => ?_
  show k10_pay3 (iblk10 V c 0 t) (iblk10 V c 2 t) (iblk10 V c 1 t) (iblk10 V c 3 t) (iblk10 V c 4 t) (iblk10 V c 5 t) (iblk10 V c 6 t) (ix2 r j)
    = ofMat (L2 V c) (((cfg10.win 7).blk t).view.emb (ix2 r j))
  rw [emb_stored]
  exact block_lin V c t r j

/-- Point t writes back row t of the column sums: the affine map summed over tile t. -/
theorem flushed_sums (c : Dev nD) (t : Fin cfg10.N) :
    (dat10 V c).flushed 8 t = ((cfg10.win 8).blk t).view.read (Elt Ideal) (fun i : S20x1x128.Idx => tileSum (L2 V c) (i 0) (i 2)) := by
  show (cfg10.win 8).cut (grid10.coords t) ((dat10 V c).after 8 t) = _
  rw [after10_8]
  unfold out10_8
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k10_pay1 (k10_pay4 (iblk10 V c 0 t) (iblk10 V c 2 t) (iblk10 V c 1 t) (iblk10 V c 3 t) (iblk10 V c 4 t) (iblk10 V c 5 t) (iblk10 V c 6 t)) (ix3 u v j)
    = (fun i : S20x1x128.Idx => tileSum (L2 V c) (i 0) (i 2)) (((cfg10.win 8).blk t).view.emb (ix3 u v j))
  rw [emb_sums]
  show _ = ∑ r : Fin 5000, L2 V c (tileRow (tileOf t) r) j
  refine (pay_sums_apply (iblk10 V c 0 t) (iblk10 V c 2 t) (iblk10 V c 1 t) (iblk10 V c 3 t) (iblk10 V c 4 t) (iblk10 V c 5 t) (iblk10 V c 6 t) u v j).trans ?_
  exact Finset.sum_congr rfl fun r _ => block_lin V c t r j

/-- Point t writes back row t of the column sums of squares. -/
theorem flushed_sumsqs (c : Dev nD) (t : Fin cfg10.N) :
    (dat10 V c).flushed 9 t = ((cfg10.win 9).blk t).view.read (Elt Ideal) (fun i : S20x1x128.Idx => tileSum (Cert.Spec.sq (L2 V c)) (i 0) (i 2)) := by
  show (cfg10.win 9).cut (grid10.coords t) ((dat10 V c).after 9 t) = _
  rw [after10_9]
  unfold out10_9
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k10_pay2 (k10_pay5 (iblk10 V c 0 t) (iblk10 V c 2 t) (iblk10 V c 1 t) (iblk10 V c 3 t) (iblk10 V c 4 t) (iblk10 V c 5 t) (iblk10 V c 6 t)) (ix3 u v j)
    = (fun i : S20x1x128.Idx => tileSum (Cert.Spec.sq (L2 V c)) (i 0) (i 2)) (((cfg10.win 9).blk t).view.emb (ix3 u v j))
  rw [emb_sumsqs]
  show _ = ∑ r : Fin 5000, L2 V c (tileRow (tileOf t) r) j * L2 V c (tileRow (tileOf t) r) j
  refine (pay_sumsqs_apply (iblk10 V c 0 t) (iblk10 V c 2 t) (iblk10 V c 1 t) (iblk10 V c 3 t) (iblk10 V c 4 t) (iblk10 V c 5 t) (iblk10 V c 6 t) u v j).trans ?_
  exact Finset.sum_congr rfl fun r _ => by rw [block_lin V c t r j]

/-! ## The three output arrays after the 20 points -/

/-- The stored affine map is the whole matrix. -/
theorem lin_eq (c : Dev nD) : (dat10 V c).arrAt 7 cfg10.N = ofMat (L2 V c) :=
  (dat10 V c).arrAt_eq_of_cover 7 (ofMat (L2 V c)) (fun t _ => flushed_lin V c t) cover_stored

/-- The per-tile column sums. -/
theorem sum_eq (c : Dev nD) : (dat10 V c).arrAt 8 cfg10.N = fun i => tileSum (L2 V c) (i 0) (i 2) :=
  (dat10 V c).arrAt_eq_of_cover 8 (fun i : S20x1x128.Idx => tileSum (L2 V c) (i 0) (i 2)) (fun t _ => flushed_sums V c t) cover_sums

/-- The per-tile column sums of squares. -/
theorem sumsq_eq (c : Dev nD) : (dat10 V c).arrAt 9 cfg10.N = fun i => tileSum (Cert.Spec.sq (L2 V c)) (i 0) (i 2) :=
  (dat10 V c).arrAt_eq_of_cover 9 (fun i : S20x1x128.Idx => tileSum (Cert.Spec.sq (L2 V c)) (i 0) (i 2)) (fun t _ => flushed_sumsqs V c t) cover_sumsqs

end Cert.KReg10

end
-- ==== Proof.KReg11.lean ====
/-
  The value of the third stage of the first layer: after its 20 tiles, the two per-tile arrays hold, for every
  tile and column, the sum over the tile's 5000 rows of the clamped batch-normalised entries, and the sum of their
  squares.
-/
import proofs.«412161_j3753801416792_2_alg».proof.Proof.KIFrameR11
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg11

open Cert.KernelIdeal Cert.KernelIdeal.Gen Cert.Spec Cert.Conv Idealize.ShloMosaic Idealize.ShloMosaic.ValueIdx
  Idealize.ShloMosaic.TcCoe Idealize.ShloMosaic.Pipeline

variable (V : (c : Dev nD) → (b : Ref sig .tc) → Buf (Elt Ideal) ((c : Thread nD τ).loc b))

/-- The second affine map's output, normalised by the given column mean and variance, scaled, shifted and clamped
    below at zero: all 100000 rows at once. -/
def Z2 (c : Dev nD) : Mat 100000 128 :=
  bnRelu (toMat (V c main_v201_0)) (toRow (V c main_v205)) (toRow (V c main_v211)) (toRow (V c main_v214)) (toRow (V c main_v217))

/-! ## The body's values at an index -/

/-- One entry of a tile after normalising, scaling, shifting and clamping below at zero. -/
theorem pay1_apply (x0 : Vec Ideal S5000x128 .f32) (xv xm xg xb : Vec Ideal S1x128 .f32) (r : Fin 5000) (j : Fin 128) :
    k11_pay1 x0 xv xm xg xb (ix2 r j)
      = max ((x0 (ix2 r j) - xm (ix2 (0 : Fin 1) j)) * Ideal.rsqrt (xv (ix2 (0 : Fin 1) j) + cEps) * xg (ix2 (0 : Fin 1) j)
          + xb (ix2 (0 : Fin 1) j)) 0 := by
  unfold k11_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  simp only [Ideal.ofBits_def, Ideal.ofBits_zero_f32]
  rfl

/-- The index a sum over rows reads at row `k` of column `j`. -/
theorem lift_row (h : S5000x128.Reduces [0] S128) (j : Fin 128) (k : Fin 5000) :
    h.lift (ix1 j) k = ix2 k j :=
  funext fun a => Fin.ext (by match a with | ⟨0, _⟩ => rfl | ⟨1, _⟩ => rfl)

/-- A column sum over a tile's rows, as the body stores it in a block of one row. -/
theorem colsum_apply (z : FVec Ideal S5000x128 .f32) (h : S5000x128.Reduces [0] S128) (hφ : FKind.Formats .f32)
    (hacc : (0x00000000#32 : BitVec 32) = FKind.add.neutral .f32 hφ) (h1 : S128.ShapeCasts S1x128)
    (h2 : S1x128.ShapeCasts S1x1x128) (u v : Fin 1) (j : Fin 128) :
    shapeCast S1x1x128 (shapeCast S1x128 (multiReduction .add [0] S128 z 0x00000000#32 h hφ hacc) h1) h2 (ix3 u v j)
      = ∑ r : Fin 5000, z (ix2 r j) := by
  refine (shapeCast_ab_1ab_apply _ h2 u v j).trans ?_
  refine (shapeCast_a_1a_apply _ h1 v j).trans ?_
  refine (Ideal.multiReduction_add_single z 0x00000000#32 h hφ hacc (ix1 j)).trans ?_
  show ∑ k : Fin 5000, z (h.lift (ix1 j) k) = _
  exact Finset.sum_congr rfl fun k _ => congrArg z (lift_row h j k)

/-- The first output block at an index: the column sum of the clamped tile. -/
theorem pay2_apply (x0 : Vec Ideal S5000x128 .f32) (xv xm xg xb : Vec Ideal S1x128 .f32) (u v : Fin 1) (j : Fin 128) :
    k11_pay2 x0 xv xm xg xb (ix3 u v j) = ∑ r : Fin 5000, k11_pay1 x0 xv xm xg xb (ix2 r j) := by
  unfold k11_pay2
  exact colsum_apply _ _ _ _ _ _ u v j

/-- The second output block at an index: the column sum of the clamped tile's squares. -/
theorem pay3_apply (x0 : Vec Ideal S5000x128 .f32) (xv xm xg xb : Vec Ideal S1x128 .f32) (u v : Fin 1) (j : Fin 128) :
    k11_pay3 x0 xv xm xg xb (ix3 u v j)
      = ∑ r : Fin 5000, k11_pay1 x0 xv xm xg xb (ix2 r j) * k11_pay1 x0 xv xm xg xb (ix2 r j) := by
  unfold k11_pay3
  exact colsum_apply _ _ _ _ _ _ u v j

/-- The same at any index of the block: only the column matters. -/
theorem pay2_at (x0 : Vec Ideal S5000x128 .f32) (xv xm xg xb : Vec Ideal S1x128 .f32) (i : S1x1x128.Idx) :
    k11_pay2 x0 xv xm xg xb i = ∑ r : Fin 5000, k11_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay2_apply x0 xv xm xg xb u v j

theorem pay3_at (x0 : Vec Ideal S5000x128 .f32) (xv xm xg xb : Vec Ideal S1x128 .f32) (i : S1x1x128.Idx) :
    k11_pay3 x0 xv xm xg xb i
      = ∑ r : Fin 5000, k11_pay1 x0 xv xm xg xb (ix2 r (i 2 : Fin 128)) * k11_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay3_apply x0 xv xm xg xb u v j

/-! ## Where each block sits in its array -/

/-- The block indices over the grid: tile `t` of the rows for the matrix and for the two outputs, the one block of
    each row of statistics and parameters. -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 3) = t.val ∧ win11_5.index t (1 : Fin 3) = 0 ∧ win11_5.index t (2 : Fin 3) = 0
    ∧ win11_6.index t (0 : Fin 3) = t.val ∧ win11_6.index t (1 : Fin 3) = 0 ∧ win11_6.index t (2 : Fin 3) = 0 :=
  (by decide +kernel : ∀ t : Fin grid11.N, _)

/-- Row `r` of tile `t` of the matrix block is row `5000 t + r` of the matrix. -/
theorem tile_read (c : Dev nD) (t : Fin cfg11.N) (r : Fin 5000) (j : Fin 128) (n : Fin 100000)
    (hn : n.val = t.val * 5000 + r.val) :
    (iblk11 V c 0 t : Vec Ideal S5000x128 .f32) (ix2 r j) = toMat (V c main_v201_0) n j := by
  obtain ⟨e0, e1, -⟩ := idx_facts t
  show V c main_v201_0 (((cfg11.win 0).blk t).view.emb (ix2 r j)) = V c main_v201_0 (ix2 n j)
  congr 1
  funext a
  apply Fin.ext
  match a with
  | ⟨0, _⟩ => show win11_0.index t (0 : Fin 2) * 5000 + 1 * r.val = n.val; omega
  | ⟨1, _⟩ => show win11_0.index t (1 : Fin 2) * 128 + 1 * j.val = j.val; omega

/-- The block of the mean row is the row. -/
theorem mean_read (c : Dev nD) (t : Fin cfg11.N) (j : Fin 128) :
    (iblk11 V c 1 t : Vec Ideal S1x128 .f32) (ix2 (0 : Fin 1) j) = toRow (V c main_v205) j := by
  obtain ⟨-, -, e0, e1, -⟩ := idx_facts t
  show V c main_v205 (((cfg11.win 1).blk t).view.emb (ix2 (0 : Fin 1) j)) = V c main_v205 (ix2 (0 : Fin 1) j)
  congr 1
  funext a
  apply Fin.ext
  match a with
  | ⟨0, _⟩ => show win11_1.index t (0 : Fin 2) * 1 + 1 * 0 = 0; omega
  | ⟨1, _⟩ => show win11_1.index t (1 : Fin 2) * 128 + 1 * j.val = j.val; omega

/-- The block of the variance row is the row. -/
theorem var_read (c : Dev nD) (t : Fin cfg11.N) (j : Fin 128) :
    (iblk11 V c 2 t : Vec Ideal S1x128 .f32) (ix2 (0 : Fin 1) j) = toRow (V c main_v211) j := by
  obtain ⟨-, -, -, -, e0, e1, -⟩ := idx_facts t
  show V c main_v211 (((cfg11.win 2).blk t).view.emb (ix2 (0 : Fin 1) j)) = V c main_v211 (ix2 (0 : Fin 1) j)
  congr 1
  funext a
  apply Fin.ext
  match a with
  | ⟨0, _⟩ => show win11_2.index t (0 : Fin 2) * 1 + 1 * 0 = 0; omega
  | ⟨1, _⟩ => show win11_2.index t (1 : Fin 2) * 128 + 1 * j.val = j.val; omega

/-- The block of the scale row is the row. -/
theorem scale_read (c : Dev nD) (t : Fin cfg11.N) (j : Fin 128) :
    (iblk11 V c 3 t : Vec Ideal S1x128 .f32) (ix2 (0 : Fin 1) j) = toRow (V c main_v214) j := by
  obtain ⟨-, -, -, -, -, -, e0, e1, -⟩ := idx_facts t
  show V c main_v214 (((cfg11.win 3).blk t).view.emb (ix2 (0 : Fin 1) j)) = V c main_v214 (ix2 (0 : Fin 1) j)
  congr 1
  funext a
  apply Fin.ext
  match a with
  | ⟨0, _⟩ => show win11_3.index t (0 : Fin 2) * 1 + 1 * 0 = 0; omega
  | ⟨1, _⟩ => show win11_3.index t (1 : Fin 2) * 128 + 1 * j.val = j.val; omega

/-- The block of the shift row is the row. -/
theorem shift_read (c : Dev nD) (t : Fin cfg11.N) (j : Fin 128) :
    (iblk11 V c 4 t : Vec Ideal S1x128 .f32) (ix2 (0 : Fin 1) j) = toRow (V c main_v217) j := by
  obtain ⟨-, -, -, -, -, -, -, -, e0, e1, -⟩ := idx_facts t
  show V c main_v217 (((cfg11.win 4).blk t).view.emb (ix2 (0 : Fin 1) j)) = V c main_v217 (ix2 (0 : Fin 1) j)
  congr 1
  funext a
  apply Fin.ext
  match a with
  | ⟨0, _⟩ => show win11_4.index t (0 : Fin 2) * 1 + 1 * 0 = 0; omega
  | ⟨1, _⟩ => show win11_4.index t (1 : Fin 2) * 128 + 1 * j.val = j.val; omega

/-- Entry `(r, j)` of what the body computes from tile `t`'s blocks is entry `(5000 t + r, j)` of the whole clamped
    matrix. -/
theorem z_block (c : Dev nD) (t : Fin cfg11.N) (r : Fin 5000) (j : Fin 128) (n : Fin 100000) (j' : Fin 128)
    (hn : n.val = t.val * 5000 + r.val) (hj : j'.val = j.val) :
    k11_pay1 (iblk11 V c 0 t) (iblk11 V c 2 t) (iblk11 V c 1 t) (iblk11 V c 3 t) (iblk11 V c 4 t) (ix2 r j) = Z2 V c n j' := by
  rw [show j' = j from Fin.ext hj]
  refine (pay1_apply _ _ _ _ _ r j).trans ?_
  rw [tile_read V c t r j n hn, mean_read V c t j, var_read V c t j, scale_read V c t j, shift_read V c t j]
  rfl

/-- The same for the squares. -/
theorem zsq_block (c : Dev nD) (t : Fin cfg11.N) (r : Fin 5000) (j : Fin 128) (n : Fin 100000) (j' : Fin 128)
    (hn : n.val = t.val * 5000 + r.val) (hj : j'.val = j.val) :
    k11_pay1 (iblk11 V c 0 t) (iblk11 V c 2 t) (iblk11 V c 1 t) (iblk11 V c 3 t) (iblk11 V c 4 t) (ix2 r j)
        * k11_pay1 (iblk11 V c 0 t) (iblk11 V c 2 t) (iblk11 V c 1 t) (iblk11 V c 3 t) (iblk11 V c 4 t) (ix2 r j)
      = Cert.Spec.sq (Z2 V c) n j' := by
  rw [z_block V c t r j n j' hn hj]
  rfl

/-! ## What each tile writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Tile `t` writes back its block of the column sums of the clamped matrix. -/
theorem sum_flushed (c : Dev nD) (t : Fin cfg11.N) :
    (dat11 V c).flushed 5 t
      = ((cfg11.win 5).blk t).view.read (Elt Ideal) (fun i : S20x1x128.Idx => tileSum (Z2 V c) (i 0) (i 2)) := by
  show (cfg11.win 5).cut (grid11.coords t) ((dat11 V c).after 5 t) = _
  rw [after11_5]
  unfold out11_5
  rw [View.canon_unit_zero hz3]
  simp only [View.ld_unit_zero (S := S5000x128) hz2, View.ld_unit_zero (S := S1x128) hz2]
  obtain ⟨-, -, -, -, -, -, -, -, -, -, e0, e1, e2, -⟩ := idx_facts t
  funext y
  refine (pay2_at _ _ _ _ _ _).trans ?_
  have h0 : (y 0).val < 1 := (y 0).isLt
  show _ = ∑ r : Fin 5000, Z2 V c (tileRow _ r) _
  refine Finset.sum_congr rfl fun r _ => z_block V c t r _ _ _ ?_ ?_
  · show (win11_5.index t (0 : Fin 3) * 1 + 1 * (y 0).val) * 5000 + r.val = t.val * 5000 + r.val
    omega
  · show win11_5.index t (2 : Fin 3) * 128 + 1 * (y 2).val = (y 2).val
    omega

/-- Tile `t` writes back its block of the column sums of the clamped matrix's squares. -/
theorem sumsq_flushed (c : Dev nD) (t : Fin cfg11.N) :
    (dat11 V c).flushed 6 t
      = ((cfg11.win 6).blk t).view.read (Elt Ideal) (fun i : S20x1x128.Idx => tileSum (Cert.Spec.sq (Z2 V c)) (i 0) (i 2)) := by
  show (cfg11.win 6).cut (grid11.coords t) ((dat11 V c).after 6 t) = _
  rw [after11_6]
  unfold out11_6
  rw [View.canon_unit_zero hz3]
  simp only [View.ld_unit_zero (S := S5000x128) hz2, View.ld_unit_zero (S := S1x128) hz2]
  obtain ⟨-, -, -, -, -, -, -, -, -, -, -, -, -, e0, e1, e2⟩ := idx_facts t
  funext y
  refine (pay3_at _ _ _ _ _ _).trans ?_
  have h0 : (y 0).val < 1 := (y 0).isLt
  show _ = ∑ r : Fin 5000, Cert.Spec.sq (Z2 V c) (tileRow _ r) _
  refine Finset.sum_congr rfl fun r _ => zsq_block V c t r _ _ _ ?_ ?_
  · show (win11_6.index t (0 : Fin 3) * 1 + 1 * (y 0).val) * 5000 + r.val = t.val * 5000 + r.val
    omega
  · show win11_6.index t (2 : Fin 3) * 128 + 1 * (y 2).val = (y 2).val
    omega

/-! ## The tiles' blocks fill the arrays -/

/-- An index of the first output array is in tile `t`'s block iff each coordinate is in the block's range. -/
theorem mem_blk5 (t : Fin cfg11.N) (i : S20x1x128.Idx) :
    i ∈ ((cfg11.win 5).blk t).view.set ↔ ∀ a : Fin 3, win11_5.index t a * S1x1x128.size a ≤ (i a).val
      ∧ (i a).val < win11_5.index t a * S1x1x128.size a + S1x1x128.size a := by
  show i ∈ ((View.whole main_v218_0).slice (win11_5.rect t)).set ↔ _
  rw [View.set_slice_whole, Rect.mem_set_unit]
  exact Iff.rfl

theorem mem_blk6 (t : Fin cfg11.N) (i : S20x1x128.Idx) :
    i ∈ ((cfg11.win 6).blk t).view.set ↔ ∀ a : Fin 3, win11_6.index t a * S1x1x128.size a ≤ (i a).val
      ∧ (i a).val < win11_6.index t a * S1x1x128.size a + S1x1x128.size a := by
  show i ∈ ((View.whole main_v218_1).slice (win11_6.rect t)).set ↔ _
  rw [View.set_slice_whole, Rect.mem_set_unit]
  exact Iff.rfl

/-- Row `n` of the first output array is tile `n`'s block. -/
theorem cover5 (i : S20x1x128.Idx) : ∃ t : Fin cfg11.N, (cfg11.win 5).flush t = true ∧ i ∈ ((cfg11.win 5).blk t).view.set := by
  have h0 : (i 0).val < 20 := (i 0).isLt
  have h1 : (i 1).val < 1 := (i 1).isLt
  have h2 : (i 2).val < 128 := (i 2).isLt
  have hN : grid11.N = 20 := by decide
  obtain ⟨T, hT⟩ : ∃ T : Fin cfg11.N, T.val = (i 0).val :=
    ⟨⟨(i 0).val, by rw [show cfg11.N = 20 from hN]; exact h0⟩, rfl⟩
  refine ⟨T, flush11_5 T, ?_⟩
  rw [mem_blk5]
  obtain ⟨-, -, -, -, -, -, -, -, -, -, e0, e1, e2, -⟩ := idx_facts T
  intro a
  match a with
  | ⟨0, _⟩ =>
    show win11_5.index T (0 : Fin 3) * 1 ≤ (i 0).val ∧ (i 0).val < win11_5.index T (0 : Fin 3) * 1 + 1
    omega
  | ⟨1, _⟩ =>
    show win11_5.index T (1 : Fin 3) * 1 ≤ (i 1).val ∧ (i 1).val < win11_5.index T (1 : Fin 3) * 1 + 1
    omega
  | ⟨2, _⟩ =>
    show win11_5.index T (2 : Fin 3) * 128 ≤ (i 2).val ∧ (i 2).val < win11_5.index T (2 : Fin 3) * 128 + 128
    omega

/-- Row `n` of the second output array is tile `n`'s block. -/
theorem cover6 (i : S20x1x128.Idx) : ∃ t : Fin cfg11.N, (cfg11.win 6).flush t = true ∧ i ∈ ((cfg11.win 6).blk t).view.set := by
  have h0 : (i 0).val < 20 := (i 0).isLt
  have h1 : (i 1).val < 1 := (i 1).isLt
  have h2 : (i 2).val < 128 := (i 2).isLt
  have hN : grid11.N = 20 := by decide
  obtain ⟨T, hT⟩ : ∃ T : Fin cfg11.N, T.val = (i 0).val :=
    ⟨⟨(i 0).val, by rw [show cfg11.N = 20 from hN]; exact h0⟩, rfl⟩
  refine ⟨T, flush11_6 T, ?_⟩
  rw [mem_blk6]
  obtain ⟨-, -, -, -, -, -, -, -, -, -, -, -, -, e0, e1, e2⟩ := idx_facts T
  intro a
  match a with
  | ⟨0, _⟩ =>
    show win11_6.index T (0 : Fin 3) * 1 ≤ (i 0).val ∧ (i 0).val < win11_6.index T (0 : Fin 3) * 1 + 1
    omega
  | ⟨1, _⟩ =>
    show win11_6.index T (1 : Fin 3) * 1 ≤ (i 1).val ∧ (i 1).val < win11_6.index T (1 : Fin 3) * 1 + 1
    omega
  | ⟨2, _⟩ =>
    show win11_6.index T (2 : Fin 3) * 128 ≤ (i 2).val ∧ (i 2).val < win11_6.index T (2 : Fin 3) * 128 + 128
    omega

/-! ## The two arrays after the 20 tiles -/

/-- The first output array: per tile and column, the sum over the tile's rows of the clamped matrix. -/
theorem sum_eq (c : Dev nD) :
    (dat11 V c).arrAt 5 cfg11.N = fun i : S20x1x128.Idx => tileSum (Z2 V c) (i 0) (i 2) :=
  (dat11 V c).arrAt_eq_of_cover 5 (fun i : S20x1x128.Idx => tileSum (Z2 V c) (i 0) (i 2))
    (fun t _ => sum_flushed V c t) cover5

/-- The second output array: per tile and column, the sum over the tile's rows of the clamped matrix's squares. -/
theorem sumsq_eq (c : Dev nD) :
    (dat11 V c).arrAt 6 cfg11.N = fun i : S20x1x128.Idx => tileSum (Cert.Spec.sq (Z2 V c)) (i 0) (i 2) :=
  (dat11 V c).arrAt_eq_of_cover 6 (fun i : S20x1x128.Idx => tileSum (Cert.Spec.sq (Z2 V c)) (i 0) (i 2))
    (fun t _ => sumsq_flushed V c t) cover6

end Cert.KReg11

end
-- ==== Proof.KReg12.lean ====
/-
  The value of a layer's fourth stage on one core. The stage walks the 100000 nodes as 20 tiles of 5000 rows; row r of
  tile t is node 5000 t + r. After the 20 tiles

  * its first result is the whole matrix normalised, scaled, shifted and clamped at zero TWICE in a row, each time by a
    given row of column means, of column variances, of scales and of shifts: entry (n, j) depends on the input's entry
    (n, j) and on the eight rows at column j, and on nothing else;
  * its second result holds, tile by tile, the tile's share of the pooling per graph: entry (g, d) of tile t is the sum,
    over the tile's 5000 rows, of (one if the row's graph word is g, else zero) times the first result at (row, d).

  First the tile's two stored values at an index, over any contents of the tile's blocks; then each block as the part of
  its array the tile reads; then what a grid point writes back as a block of ONE function of the arrays; then the cover:
  node n is in tile n / 5000, tile t of the pooling is written by point t.
-/
import proofs.«412161_j3753801416792_2_alg».proof.Proof.KIFrameR12
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg12

open Cert.KernelIdeal Cert.KernelIdeal.Gen Cert.Spec Cert.Conv Idealize.ShloMosaic Idealize.ShloMosaic.ValueIdx Idealize.ShloMosaic.TcCoe Idealize.ShloMosaic.Pipeline

/-! ## Words and rows at an index -/

/-- The reciprocal square root of a vector, at an index, is that of the entry there. -/
theorem rsqrt_apply {s : Shape} {φ : FTy} (a : FVec Ideal s φ) (i : s.Idx) : rsqrt a i = Ideal.rsqrt (a i) := rfl

/-- A literal word is the extended real it spells. -/
theorem scalar_ofBits (φ : FTy) (b : BitVec φ.bits) : Scalar.ofBits (F := Ideal) φ b = Ideal.ofBits φ b := rfl

/-- A row of 128 laid along 5000 rows reads its one row. -/
theorem row_at (v : FVec Ideal S1x128 .f32) (r : Fin 5000) (j : Fin 128) :
    broadcastTo S5000x128 v broadcasts_S1x128_S5000x128 (ix2 r j) = v (ix2 (0 : Fin 1) j) :=
  broadcastTo_1b_ab_apply v broadcasts_S1x128_S5000x128 r j

/-- The first normalise-scale-shift-clamp and the second one up to its shift, at a row and a column. -/
theorem pay3_apply (x0 : Vec Ideal S5000x128 .f32) (v2 v7 v13 v17 v23 v28 v34 : Vec Ideal S1x128 .f32) (r : Fin 5000) (j : Fin 128) :
    k12_pay3 x0 v2 v7 v13 v17 v23 v28 v34 (ix2 r j)
      = (max ((x0 (ix2 r j) - v7 (ix2 (0 : Fin 1) j)) * Ideal.rsqrt (v2 (ix2 (0 : Fin 1) j) + cEps) * v13 (ix2 (0 : Fin 1) j)
            + v17 (ix2 (0 : Fin 1) j)) 0 - v28 (ix2 (0 : Fin 1) j))
          * Ideal.rsqrt (v23 (ix2 (0 : Fin 1) j) + cEps) * v34 (ix2 (0 : Fin 1) j) := by
  unfold k12_pay3 cEps
  simp only [shapeCast_self, mulf_apply, addf_apply, subf_apply, maximumf_apply, broadcast_apply, row_at, rsqrt_apply,
    scalar_ofBits, Ideal.ofBits_zero_f32]

/-- The second step's shift and clamp. -/
theorem pay1_apply (v37 : FVec Ideal S5000x128 .f32) (v38 : Vec Ideal S1x128 .f32) (r : Fin 5000) (j : Fin 128) :
    k12_pay1 v37 v38 (ix2 r j) = max (v37 (ix2 r j) + v38 (ix2 (0 : Fin 1) j)) 0 := by
  unfold k12_pay1
  simp only [shapeCast_self, addf_apply, maximumf_apply, broadcast_apply, row_at, scalar_ofBits, Ideal.ofBits_zero_f32]

/-! ## The pooling product -/

/-- At result entry (g, d) and position q of the sum, the left factor is read at row g … -/
theorem lhs_pool_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide),
    dif_pos (show (0 : Fin S64x5000.rank) ∈ dot_S64x5000_S5000x128_S64x128_1_0_0_1_n_n.lhsNonContracting by decide)]
  rfl
/-- … and column q; -/
theorem lhs_pool_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
/-- the right factor at row q … -/
theorem rhs_pool_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
/-- … and column d. -/
theorem rhs_pool_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide),
    dif_pos (show (1 : Fin S5000x128.rank) ∈ dot_S64x5000_S5000x128_S64x128_1_0_0_1_n_n.rhsNonContracting by decide)]
  rfl

/-- A 64×5000 matrix times a 5000×128 matrix into zeros, at graph g and column d: the sum over the 5000 rows. -/
theorem pool_matmul_apply (a : FVec Ideal S64x5000 .bf16) (b : FVec Ideal S5000x128 .bf16) (g : Fin 64) (d : Fin 128) :
    matmul dot_S64x5000_S5000x128_S64x128_1_0_0_1_n_n none a b (constant (F := Ideal) S64x128 .f32 0x00000000#32) (ix2 g d)
      = ∑ r : Fin 5000, a (ix2 g r) * b (ix2 r d) := by
  show FloatOps.matmul dot_S64x5000_S5000x128_S64x128_1_0_0_1_n_n none a b (constant (F := Ideal) S64x128 .f32 0x00000000#32) (ix2 g d) = _
  rw [Ideal.matmul_constant_zero_apply, ← Equiv.sum_comp (contrEquiv1 dot_S64x5000_S5000x128_S64x128_1_0_0_1_n_n 5000 rfl rfl).symm]
  refine Finset.sum_congr rfl fun k _ => ?_
  have hk := contrEquiv1_symm_val dot_S64x5000_S5000x128_S64x128_1_0_0_1_n_n 5000 rfl rfl k
  have el : dot_S64x5000_S5000x128_S64x128_1_0_0_1_n_n.lhsIdx (ix2 g d) ((contrEquiv1 dot_S64x5000_S5000x128_S64x128_1_0_0_1_n_n 5000 rfl rfl).symm k) = ix2 g k := funext fun ax => Fin.ext (by
    match ax with
    | ⟨0, _⟩ => exact lhs_pool_0 _ _
    | ⟨1, _⟩ => exact (lhs_pool_1 _ _).trans hk)
  have er : dot_S64x5000_S5000x128_S64x128_1_0_0_1_n_n.rhsIdx (ix2 g d) ((contrEquiv1 dot_S64x5000_S5000x128_S64x128_1_0_0_1_n_n 5000 rfl rfl).symm k) = ix2 k d := funext fun ax => Fin.ext (by
    match ax with
    | ⟨0, _⟩ => exact (rhs_pool_0 _ _).trans hk
    | ⟨1, _⟩ => exact rhs_pool_1 _ _)
  rw [el, er]

/-- A column of 5000 words laid along 64 columns reads its row's word. -/
theorem col_at (v : IVec S5000x1 32) (r : Fin 5000) (g : Fin 64) :
    broadcastTo S5000x64 v broadcasts_S5000x1_S5000x64 (ix2 r g) = v (ix2 r (0 : Fin 1)) := by
  refine broadcastTo_apply v broadcasts_S5000x1_S5000x64 (ix2 r g) (ix2 r (0 : Fin 1)) fun ax => ?_
  match ax with
  | ⟨0, _⟩ => rfl
  | ⟨1, _⟩ => rfl

/-- A comparison's bit widened to a word and converted: one where the two words are equal, zero elsewhere. -/
theorem oneHot_word (w : BitVec 32) (g : Fin 64) :
    (FloatOps.sitofp (F := Ideal) .f32 ((IntOp.cmpi .eq w (BitVec.ofNat 32 g.val)).setWidth 32) : EReal) = oneHot w g := by
  unfold oneHot
  by_cases h : w = BitVec.ofNat 32 g.val
  · rw [if_pos h, IntOp.cmpi_eq.mpr h]
    show ((((1#1 : BitVec 1).setWidth 32).toInt : ℝ) : EReal) = 1
    rw [show ((1#1 : BitVec 1).setWidth 32).toInt = 1 by decide]
    simp only [Int.cast_one, EReal.coe_one]
  · rw [if_neg h, eq_zero_of_ne_one (fun e => h (IntOp.cmpi_eq.mp e))]
    show ((((0#1 : BitVec 1).setWidth 32).toInt : ℝ) : EReal) = 0
    rw [show ((0#1 : BitVec 1).setWidth 32).toInt = 0 by decide]
    simp only [Int.cast_zero, EReal.coe_zero]

/-- The tile's share of the pooling at graph g and column d: the one-hot matrix of the tile's words times the tile. -/
theorem pay2_apply (v37 : FVec Ideal S5000x128 .f32) (v38 : Vec Ideal S1x128 .f32) (v46 : Vec Ideal S5000x1 .i32)
    (u : Fin 1) (g : Fin 64) (d : Fin 128) :
    k12_pay2 v37 v38 v46 (ix3 u g d)
      = ∑ r : Fin 5000, oneHot (v46 (ix2 r (0 : Fin 1))) g * k12_pay1 v37 v38 (ix2 r d) := by
  unfold k12_pay2
  simp only [shapeCast_self]
  refine (shapeCast_ab_1ab_apply _ shapeCasts_S64x128_S1x64x128 u g d).trans ?_
  refine (pool_matmul_apply _ _ g d).trans ?_
  refine Finset.sum_congr rfl fun r _ => ?_
  refine congrArg₂ (fun a b : EReal => a * b) ?_ rfl
  refine (transpose_ix2_apply _ transposes_S5000x64_p1_0_S64x5000 g r).trans ?_
  show FloatOps.sitofp (F := Ideal) .f32 ((IntOp.cmpi .eq (broadcastTo S5000x64 v46 broadcasts_S5000x1_S5000x64 (ix2 r g))
    (iota .tc S5000x64 32 [1] iota_S5000x64_d1_w32 (ix2 r g))).setWidth 32) = _
  rw [col_at, iota_single_apply]
  exact oneHot_word _ g

/-! ## The arrays as the stage finds them -/

variable (V : (c : Dev nD) → (b : Ref sig .tc) → Buf (Elt Ideal) ((c : Thread nD τ).loc b))

/-- The stage's first result: the input matrix through the two normalise-scale-shift-clamp steps. -/
def H (c : Dev nD) : Mat 100000 128 :=
  bnRelu (bnRelu (toMat (V c main_v201_0)) (toRow (V c main_v205)) (toRow (V c main_v211)) (toRow (V c main_v214)) (toRow (V c main_v217)))
    (toRow (V c main_v222)) (toRow (V c main_v228)) (toRow (V c main_v231)) (toRow (V c main_v234))

/-- A grid point as a tile number: the grid has 20 points. -/
abbrev tileOf (t : Fin cfg12.N) : Fin 20 := ⟨t.val, Nat.lt_of_lt_of_eq t.isLt (by decide : grid12.N = 20)⟩

/-! ## What a tile stores, from what its blocks hold -/

/-- Row r, column j of what tile n stores into the first result is the twice-stepped matrix at node 5000 n + r. -/
theorem stored_of_reads (c : Dev nD) (n : Fin 20)
    (x0 : Vec Ideal S5000x128 .f32) (x1 x2 x3 x4 x5 x6 x7 x8 : Vec Ideal S1x128 .f32)
    (h0 : ∀ (r : Fin 5000) (j : Fin 128), x0 (ix2 r j) = toMat (V c main_v201_0) (tileRow n r) j)
    (h1 : ∀ j : Fin 128, x1 (ix2 (0 : Fin 1) j) = toRow (V c main_v205) j)
    (h2 : ∀ j : Fin 128, x2 (ix2 (0 : Fin 1) j) = toRow (V c main_v211) j)
    (h3 : ∀ j : Fin 128, x3 (ix2 (0 : Fin 1) j) = toRow (V c main_v214) j)
    (h4 : ∀ j : Fin 128, x4 (ix2 (0 : Fin 1) j) = toRow (V c main_v217) j)
    (h5 : ∀ j : Fin 128, x5 (ix2 (0 : Fin 1) j) = toRow (V c main_v222) j)
    (h6 : ∀ j : Fin 128, x6 (ix2 (0 : Fin 1) j) = toRow (V c main_v228) j)
    (h7 : ∀ j : Fin 128, x7 (ix2 (0 : Fin 1) j) = toRow (V c main_v231) j)
    (h8 : ∀ j : Fin 128, x8 (ix2 (0 : Fin 1) j) = toRow (V c main_v234) j)
    (r : Fin 5000) (j : Fin 128) :
    k12_pay1 (k12_pay3 x0 x2 x1 x3 x4 x6 x5 x7) x8 (ix2 r j) = H V c (tileRow n r) j := by
  rw [pay1_apply, pay3_apply, h0, h1, h2, h3, h4, h5, h6, h7, h8]
  rfl

/-- Entry (g, d) of what tile n stores into the second result is the tile's share of the pooling. -/
theorem pooled_of_reads (c : Dev nD) (n : Fin 20)
    (x0 : Vec Ideal S5000x128 .f32) (x1 x2 x3 x4 x5 x6 x7 x8 : Vec Ideal S1x128 .f32) (x9 : Vec Ideal S5000x1 .i32)
    (h0 : ∀ (r : Fin 5000) (j : Fin 128), x0 (ix2 r j) = toMat (V c main_v201_0) (tileRow n r) j)
    (h1 : ∀ j : Fin 128, x1 (ix2 (0 : Fin 1) j) = toRow (V c main_v205) j)
    (h2 : ∀ j : Fin 128, x2 (ix2 (0 : Fin 1) j) = toRow (V c main_v211) j)
    (h3 : ∀ j : Fin 128, x3 (ix2 (0 : Fin 1) j) = toRow (V c main_v214) j)
    (h4 : ∀ j : Fin 128, x4 (ix2 (0 : Fin 1) j) = toRow (V c main_v217) j)
    (h5 : ∀ j : Fin 128, x5 (ix2 (0 : Fin 1) j) = toRow (V c main_v222) j)
    (h6 : ∀ j : Fin 128, x6 (ix2 (0 : Fin 1) j) = toRow (V c main_v228) j)
    (h7 : ∀ j : Fin 128, x7 (ix2 (0 : Fin 1) j) = toRow (V c main_v231) j)
    (h8 : ∀ j : Fin 128, x8 (ix2 (0 : Fin 1) j) = toRow (V c main_v234) j)
    (h9 : ∀ r : Fin 5000, x9 (ix2 r (0 : Fin 1)) = toCol (V c main_v0) (tileRow n r))
    (u : Fin 1) (g : Fin 64) (d : Fin 128) :
    k12_pay2 (k12_pay3 x0 x2 x1 x3 x4 x6 x5 x7) x8 x9 (ix3 u g d) = poolTile (H V c) (toCol (V c main_v0)) n g d := by
  rw [pay2_apply]
  show _ = ∑ r : Fin 5000, oneHot (toCol (V c main_v0) (tileRow n r)) g * H V c (tileRow n r) d
  refine Finset.sum_congr rfl fun r _ => ?_
  rw [h9, stored_of_reads V c n x0 x1 x2 x3 x4 x5 x6 x7 x8 h0 h1 h2 h3 h4 h5 h6 h7 h8 r d]

/-! ## The printed index maps, decided over the 20 points -/

/-- The zero offsets of a whole-block access, spelt as a function. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The matrix's block is tile t's rows. -/
theorem index_matrix : ∀ t : Fin cfg12.N, win12_0.index t (0 : Fin 2) = t.val ∧ win12_0.index t (1 : Fin 2) = 0 :=
  (by decide +kernel : ∀ t : Fin grid12.N, _)
/-- The block of the first step's column means is the whole row at every point. -/
theorem index_mean_a : ∀ t : Fin cfg12.N, win12_1.index t (0 : Fin 2) = 0 ∧ win12_1.index t (1 : Fin 2) = 0 :=
  (by decide +kernel : ∀ t : Fin grid12.N, _)
/-- The block of the first step's column variances is the whole row at every point. -/
theorem index_var_a : ∀ t : Fin cfg12.N, win12_2.index t (0 : Fin 2) = 0 ∧ win12_2.index t (1 : Fin 2) = 0 :=
  (by decide +kernel : ∀ t : Fin grid12.N, _)
/-- The block of the first step's scales is the whole row at every point. -/
theorem index_scale_a : ∀ t : Fin cfg12.N, win12_3.index t (0 : Fin 2) = 0 ∧ win12_3.index t (1 : Fin 2) = 0 :=
  (by decide +kernel : ∀ t : Fin grid12.N, _)
/-- The block of the first step's shifts is the whole row at every point. -/
theorem index_shift_a : ∀ t : Fin cfg12.N, win12_4.index t (0 : Fin 2) = 0 ∧ win12_4.index t (1 : Fin 2) = 0 :=
  (by decide +kernel : ∀ t : Fin grid12.N, _)
/-- The block of the second step's column means is the whole row at every point. -/
theorem index_mean_b : ∀ t : Fin cfg12.N, win12_5.index t (0 : Fin 2) = 0 ∧ win12_5.index t (1 : Fin 2) = 0 :=
  (by decide +kernel : ∀ t : Fin grid12.N, _)
/-- The block of the second step's column variances is the whole row at every point. -/
theorem index_var_b : ∀ t : Fin cfg12.N, win12_6.index t (0 : Fin 2) = 0 ∧ win12_6.index t (1 : Fin 2) = 0 :=
  (by decide +kernel : ∀ t : Fin grid12.N, _)
/-- The block of the second step's scales is the whole row at every point. -/
theorem index_scale_b : ∀ t : Fin cfg12.N, win12_7.index t (0 : Fin 2) = 0 ∧ win12_7.index t (1 : Fin 2) = 0 :=
  (by decide +kernel : ∀ t : Fin grid12.N, _)
/-- The block of the second step's shifts is the whole row at every point. -/
theorem index_shift_b : ∀ t : Fin cfg12.N, win12_8.index t (0 : Fin 2) = 0 ∧ win12_8.index t (1 : Fin 2) = 0 :=
  (by decide +kernel : ∀ t : Fin grid12.N, _)
/-- The graph words' block is tile t's rows. -/
theorem index_words : ∀ t : Fin cfg12.N, win12_9.index t (0 : Fin 2) = t.val ∧ win12_9.index t (1 : Fin 2) = 0 :=
  (by decide +kernel : ∀ t : Fin grid12.N, _)
/-- The first result's block is tile t's rows. -/
theorem index_stored : ∀ t : Fin cfg12.N, win12_10.index t (0 : Fin 2) = t.val ∧ win12_10.index t (1 : Fin 2) = 0 :=
  (by decide +kernel : ∀ t : Fin grid12.N, _)
/-- The second result's block is its tile t. -/
theorem index_pooled : ∀ t : Fin cfg12.N, win12_11.index t (0 : Fin 3) = t.val ∧ win12_11.index t (1 : Fin 3) = 0 ∧ win12_11.index t (2 : Fin 3) = 0 :=
  (by decide +kernel : ∀ t : Fin grid12.N, _)

/-! ## Each block as the part of its array the tile reads -/

/-- Row r of the matrix's block at point t is node 5000 t + r of the array. -/
theorem read_matrix (c : Dev nD) (t : Fin cfg12.N) (r : Fin 5000) (j : Fin 128) :
    (iblk12 V c 0 t : Vec Ideal S5000x128 .f32) (ix2 r j) = toMat (V c main_v201_0) (tileRow (tileOf t) r) j := by
  obtain ⟨e0, e1⟩ := index_matrix t
  show _ = V c main_v201_0 (ix2 (tileRow (tileOf t) r) j)
  unfold iblk12
  rw [View.read_apply]
  show V c main_v201_0 _ = V c main_v201_0 _
  congr 1
  funext a
  apply Fin.ext
  match a with
  | ⟨0, _⟩ => show win12_0.index t (0 : Fin 2) * 5000 + 1 * r.val = t.val * 5000 + r.val; rw [e0]; omega
  | ⟨1, _⟩ => show win12_0.index t (1 : Fin 2) * 128 + 1 * j.val = j.val; rw [e1]; omega

/-- The block of the first step's column means reads the array's one row. -/
theorem read_mean_a (c : Dev nD) (t : Fin cfg12.N) (j : Fin 128) :
    (iblk12 V c 1 t : Vec Ideal S1x128 .f32) (ix2 (0 : Fin 1) j) = toRow (V c main_v205) j := by
  obtain ⟨e0, e1⟩ := index_mean_a t
  show _ = V c main_v205 (ix2 (0 : Fin 1) j)
  unfold iblk12
  rw [View.read_apply]
  show V c main_v205 _ = V c main_v205 _
  congr 1
  funext a
  apply Fin.ext
  match a with
  | ⟨0, _⟩ => show win12_1.index t (0 : Fin 2) * 1 + 1 * 0 = 0; rw [e0]
  | ⟨1, _⟩ => show win12_1.index t (1 : Fin 2) * 128 + 1 * j.val = j.val; rw [e1]; omega

/-- The block of the first step's column variances reads the array's one row. -/
theorem read_var_a (c : Dev nD) (t : Fin cfg12.N) (j : Fin 128) :
    (iblk12 V c 2 t : Vec Ideal S1x128 .f32) (ix2 (0 : Fin 1) j) = toRow (V c main_v211) j := by
  obtain ⟨e0, e1⟩ := index_var_a t
  show _ = V c main_v211 (ix2 (0 : Fin 1) j)
  unfold iblk12
  rw [View.read_apply]
  show V c main_v211 _ = V c main_v211 _
  congr 1
  funext a
  apply Fin.ext
  match a with
  | ⟨0, _⟩ => show win12_2.index t (0 : Fin 2) * 1 + 1 * 0 = 0; rw [e0]
  | ⟨1, _⟩ => show win12_2.index t (1 : Fin 2) * 128 + 1 * j.val = j.val; rw [e1]; omega

/-- The block of the first step's scales reads the array's one row. -/
theorem read_scale_a (c : Dev nD) (t : Fin cfg12.N) (j : Fin 128) :
    (iblk12 V c 3 t : Vec Ideal S1x128 .f32) (ix2 (0 : Fin 1) j) = toRow (V c main_v214) j := by
  obtain ⟨e0, e1⟩ := index_scale_a t
  show _ = V c main_v214 (ix2 (0 : Fin 1) j)
  unfold iblk12
  rw [View.read_apply]
  show V c main_v214 _ = V c main_v214 _
  congr 1
  funext a
  apply Fin.ext
  match a with
  | ⟨0, _⟩ => show win12_3.index t (0 : Fin 2) * 1 + 1 * 0 = 0; rw [e0]
  | ⟨1, _⟩ => show win12_3.index t (1 : Fin 2) * 128 + 1 * j.val = j.val; rw [e1]; omega

/-- The block of the first step's shifts reads the array's one row. -/
theorem read_shift_a (c : Dev nD) (t : Fin cfg12.N) (j : Fin 128) :
    (iblk12 V c 4 t : Vec Ideal S1x128 .f32) (ix2 (0 : Fin 1) j) = toRow (V c main_v217) j := by
  obtain ⟨e0, e1⟩ := index_shift_a t
  show _ = V c main_v217 (ix2 (0 : Fin 1) j)
  unfold iblk12
  rw [View.read_apply]
  show V c main_v217 _ = V c main_v217 _
  congr 1
  funext a
  apply Fin.ext
  match a with
  | ⟨0, _⟩ => show win12_4.index t (0 : Fin 2) * 1 + 1 * 0 = 0; rw [e0]
  | ⟨1, _⟩ => show win12_4.index t (1 : Fin 2) * 128 + 1 * j.val = j.val; rw [e1]; omega

/-- The block of the second step's column means reads the array's one row. -/
theorem read_mean_b (c : Dev nD) (t : Fin cfg12.N) (j : Fin 128) :
    (iblk12 V c 5 t : Vec Ideal S1x128 .f32) (ix2 (0 : Fin 1) j) = toRow (V c main_v222) j := by
  obtain ⟨e0, e1⟩ := index_mean_b t
  show _ = V c main_v222 (ix2 (0 : Fin 1) j)
  unfold iblk12
  rw [View.read_apply]
  show V c main_v222 _ = V c main_v222 _
  congr 1
  funext a
  apply Fin.ext
  match a with
  | ⟨0, _⟩ => show win12_5.index t (0 : Fin 2) * 1 + 1 * 0 = 0; rw [e0]
  | ⟨1, _⟩ => show win12_5.index t (1 : Fin 2) * 128 + 1 * j.val = j.val; rw [e1]; omega

/-- The block of the second step's column variances reads the array's one row. -/
theorem read_var_b (c : Dev nD) (t : Fin cfg12.N) (j : Fin 128) :
    (iblk12 V c 6 t : Vec Ideal S1x128 .f32) (ix2 (0 : Fin 1) j) = toRow (V c main_v228) j := by
  obtain ⟨e0, e1⟩ := index_var_b t
  show _ = V c main_v228 (ix2 (0 : Fin 1) j)
  unfold iblk12
  rw [View.read_apply]
  show V c main_v228 _ = V c main_v228 _
  congr 1
  funext a
  apply Fin.ext
  match a with
  | ⟨0, _⟩ => show win12_6.index t (0 : Fin 2) * 1 + 1 * 0 = 0; rw [e0]
  | ⟨1, _⟩ => show win12_6.index t (1 : Fin 2) * 128 + 1 * j.val = j.val; rw [e1]; omega

/-- The block of the second step's scales reads the array's one row. -/
theorem read_scale_b (c : Dev nD) (t : Fin cfg12.N) (j : Fin 128) :
    (iblk12 V c 7 t : Vec Ideal S1x128 .f32) (ix2 (0 : Fin 1) j) = toRow (V c main_v231) j := by
  obtain ⟨e0, e1⟩ := index_scale_b t
  show _ = V c main_v231 (ix2 (0 : Fin 1) j)
  unfold iblk12
  rw [View.read_apply]
  show V c main_v231 _ = V c main_v231 _
  congr 1
  funext a
  apply Fin.ext
  match a with
  | ⟨0, _⟩ => show win12_7.index t (0 : Fin 2) * 1 + 1 * 0 = 0; rw [e0]
  | ⟨1, _⟩ => show win12_7.index t (1 : Fin 2) * 128 + 1 * j.val = j.val; rw [e1]; omega

/-- The block of the second step's shifts reads the array's one row. -/
theorem read_shift_b (c : Dev nD) (t : Fin cfg12.N) (j : Fin 128) :
    (iblk12 V c 8 t : Vec Ideal S1x128 .f32) (ix2 (0 : Fin 1) j) = toRow (V c main_v234) j := by
  obtain ⟨e0, e1⟩ := index_shift_b t
  show _ = V c main_v234 (ix2 (0 : Fin 1) j)
  unfold iblk12
  rw [View.read_apply]
  show V c main_v234 _ = V c main_v234 _
  congr 1
  funext a
  apply Fin.ext
  match a with
  | ⟨0, _⟩ => show win12_8.index t (0 : Fin 2) * 1 + 1 * 0 = 0; rw [e0]
  | ⟨1, _⟩ => show win12_8.index t (1 : Fin 2) * 128 + 1 * j.val = j.val; rw [e1]; omega

/-- Row r of the graph words' block at point t is node 5000 t + r's word. -/
theorem read_words (c : Dev nD) (t : Fin cfg12.N) (r : Fin 5000) :
    (iblk12 V c 9 t : Vec Ideal S5000x1 .i32) (ix2 r (0 : Fin 1)) = toCol (V c main_v0) (tileRow (tileOf t) r) := by
  obtain ⟨e0, e1⟩ := index_words t
  show _ = V c main_v0 (ix2 (tileRow (tileOf t) r) (0 : Fin 1))
  unfold iblk12
  rw [View.read_apply]
  show V c main_v0 _ = V c main_v0 _
  congr 1
  funext a
  apply Fin.ext
  match a with
  | ⟨0, _⟩ => show win12_9.index t (0 : Fin 2) * 5000 + 1 * r.val = t.val * 5000 + r.val; rw [e0]; omega
  | ⟨1, _⟩ => show win12_9.index t (1 : Fin 2) * 1 + 1 * 0 = 0; rw [e1]

/-! ## What a grid point writes back: a block of one function of the arrays -/

/-- Point t writes back, into the first result, tile t's rows of the twice-stepped matrix. -/
theorem flushed_stored (c : Dev nD) (t : Fin cfg12.N) :
    (dat12 V c).flushed 10 t = ((cfg12.win 10).blk t).view.read (Elt Ideal) (ofMat (H V c)) := by
  obtain ⟨q0, q1⟩ := index_stored t
  show (cfg12.win 10).cut (grid12.coords t) ((dat12 V c).after 10 t) = _
  rw [after12_10]
  unfold out12_10
  rw [View.canon_unit_zero zero2]
  simp only [View.ld_unit_zero (S := S5000x128) zero2, View.ld_unit_zero (S := S1x128) zero2]
  funext y
  have hy0 : (y 0).val < 5000 := (y 0).isLt
  have hy1 : (y 1).val < 128 := (y 1).isLt
  have hx : (cfg12.win 10).xinj (grid12.coords t) y = ix2 (⟨(y 0).val, hy0⟩ : Fin 5000) (⟨(y 1).val, hy1⟩ : Fin 128) :=
    funext fun a => by match a with | ⟨0, _⟩ => rfl | ⟨1, _⟩ => rfl
  show k12_pay1 _ _ ((cfg12.win 10).xinj (grid12.coords t) y) = _
  rw [hx]
  refine (stored_of_reads V c (tileOf t) (iblk12 V c 0 t) (iblk12 V c 1 t) (iblk12 V c 2 t) (iblk12 V c 3 t) (iblk12 V c 4 t) (iblk12 V c 5 t) (iblk12 V c 6 t) (iblk12 V c 7 t) (iblk12 V c 8 t)
    (read_matrix V c t) (read_mean_a V c t) (read_var_a V c t) (read_scale_a V c t) (read_shift_a V c t) (read_mean_b V c t) (read_var_b V c t) (read_scale_b V c t) (read_shift_b V c t) ⟨(y 0).val, hy0⟩ ⟨(y 1).val, hy1⟩).trans ?_
  have e0 : (((cfg12.win 10).blk t).view.emb y 0 : Fin 100000) = tileRow (tileOf t) ⟨(y 0).val, hy0⟩ := Fin.ext (by
    show win12_10.index t (0 : Fin 2) * 5000 + 1 * (y 0).val = t.val * 5000 + (y 0).val; rw [q0]; omega)
  have e1 : (((cfg12.win 10).blk t).view.emb y 1 : Fin 128) = ⟨(y 1).val, hy1⟩ := Fin.ext (by
    show win12_10.index t (1 : Fin 2) * 128 + 1 * (y 1).val = (y 1).val; rw [q1]; omega)
  show _ = H V c (((cfg12.win 10).blk t).view.emb y 0) (((cfg12.win 10).blk t).view.emb y 1)
  exact (congrArg₂ (H V c) e0 e1).symm

/-- Point t writes back, into the second result, tile t's share of the pooling. -/
theorem flushed_pooled (c : Dev nD) (t : Fin cfg12.N) :
    (dat12 V c).flushed 11 t
      = ((cfg12.win 11).blk t).view.read (Elt Ideal) (fun i => poolTile (H V c) (toCol (V c main_v0)) (i 0) (i 1) (i 2)) := by
  obtain ⟨q0, q1, q2⟩ := index_pooled t
  show (cfg12.win 11).cut (grid12.coords t) ((dat12 V c).after 11 t) = _
  rw [after12_11]
  unfold out12_11
  rw [View.canon_unit_zero zero3]
  simp only [View.ld_unit_zero (S := S5000x128) zero2, View.ld_unit_zero (S := S1x128) zero2, View.ld_unit_zero (S := S5000x1) zero2]
  funext y
  have hy0 : (y 0).val < 1 := (y 0).isLt
  have hy1 : (y 1).val < 64 := (y 1).isLt
  have hy2 : (y 2).val < 128 := (y 2).isLt
  have hx : (cfg12.win 11).xinj (grid12.coords t) y
      = ix3 (⟨(y 0).val, hy0⟩ : Fin 1) (⟨(y 1).val, hy1⟩ : Fin 64) (⟨(y 2).val, hy2⟩ : Fin 128) :=
    funext fun a => by match a with | ⟨0, _⟩ => rfl | ⟨1, _⟩ => rfl | ⟨2, _⟩ => rfl
  show k12_pay2 _ _ _ ((cfg12.win 11).xinj (grid12.coords t) y) = _
  rw [hx]
  refine (pooled_of_reads V c (tileOf t) (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t)
    (read_matrix V c t) (read_mean_a V c t) (read_var_a V c t) (read_scale_a V c t) (read_shift_a V c t) (read_mean_b V c t) (read_var_b V c t) (read_scale_b V c t) (read_shift_b V c t) (read_words V c t) ⟨(y 0).val, hy0⟩ ⟨(y 1).val, hy1⟩ ⟨(y 2).val, hy2⟩).trans ?_
  have e0 : (((cfg12.win 11).blk t).view.emb y 0 : Fin 20) = tileOf t := Fin.ext (by
    show win12_11.index t (0 : Fin 3) * 1 + 1 * (y 0).val = t.val; rw [q0]; omega)
  have e1 : (((cfg12.win 11).blk t).view.emb y 1 : Fin 64) = ⟨(y 1).val, hy1⟩ := Fin.ext (by
    show win12_11.index t (1 : Fin 3) * 64 + 1 * (y 1).val = (y 1).val; rw [q1]; omega)
  have e2 : (((cfg12.win 11).blk t).view.emb y 2 : Fin 128) = ⟨(y 2).val, hy2⟩ := Fin.ext (by
    show win12_11.index t (2 : Fin 3) * 128 + 1 * (y 2).val = (y 2).val; rw [q2]; omega)
  show _ = poolTile (H V c) (toCol (V c main_v0)) (((cfg12.win 11).blk t).view.emb y 0) (((cfg12.win 11).blk t).view.emb y 1)
    (((cfg12.win 11).blk t).view.emb y 2)
  exact (congr (congr (congrArg (poolTile (H V c) (toCol (V c main_v0))) e0) e1) e2).symm

/-! ## The cover: every index is in some point's block -/

/-- An index of the first result is in point t's block iff each coordinate is in the block's range on its axis. -/
theorem mem_blk_stored (t : Fin cfg12.N) (i : S100000x128.Idx) :
    i ∈ ((cfg12.win 10).blk t).view.set ↔ ∀ a : Fin 2, win12_10.index t a * S5000x128.size a ≤ (i a).val
      ∧ (i a).val < win12_10.index t a * S5000x128.size a + S5000x128.size a := by
  show i ∈ ((View.whole main_v235_0).slice (win12_10.rect t)).set ↔ _
  rw [View.set_slice_whole, Rect.mem_set_unit]
  exact Iff.rfl

/-- Node n is in tile n / 5000. -/
theorem cover_stored (i : S100000x128.Idx) :
    ∃ t : Fin cfg12.N, (cfg12.win 10).flush t = true ∧ i ∈ ((cfg12.win 10).blk t).view.set := by
  have h0 : (i 0).val < 100000 := (i 0).isLt
  have h1 : (i 1).val < 128 := (i 1).isLt
  obtain ⟨t, ht⟩ : ∃ t : Fin cfg12.N, t.val = (i 0).val / 5000 :=
    ⟨⟨(i 0).val / 5000, by rw [show cfg12.N = 20 from (by decide : grid12.N = 20)]; omega⟩, rfl⟩
  obtain ⟨q0, q1⟩ := index_stored t
  refine ⟨t, flush12_10 t, ?_⟩
  rw [mem_blk_stored]
  intro a
  match a with
  | ⟨0, _⟩ =>
    show win12_10.index t (0 : Fin 2) * 5000 ≤ (i 0).val ∧ (i 0).val < win12_10.index t (0 : Fin 2) * 5000 + 5000
    rw [q0, ht]; omega
  | ⟨1, _⟩ =>
    show win12_10.index t (1 : Fin 2) * 128 ≤ (i 1).val ∧ (i 1).val < win12_10.index t (1 : Fin 2) * 128 + 128
    rw [q1]; omega

/-- An index of the second result is in point t's block iff each coordinate is in the block's range on its axis. -/
theorem mem_blk_pooled (t : Fin cfg12.N) (i : S20x64x128.Idx) :
    i ∈ ((cfg12.win 11).blk t).view.set ↔ ∀ a : Fin 3, win12_11.index t a * S1x64x128.size a ≤ (i a).val
      ∧ (i a).val < win12_11.index t a * S1x64x128.size a + S1x64x128.size a := by
  show i ∈ ((View.whole main_v235_1).slice (win12_11.rect t)).set ↔ _
  rw [View.set_slice_whole, Rect.mem_set_unit]
  exact Iff.rfl

/-- Tile t of the pooling is point t's block. -/
theorem cover_pooled (i : S20x64x128.Idx) :
    ∃ t : Fin cfg12.N, (cfg12.win 11).flush t = true ∧ i ∈ ((cfg12.win 11).blk t).view.set := by
  have h0 : (i 0).val < 20 := (i 0).isLt
  have h1 : (i 1).val < 64 := (i 1).isLt
  have h2 : (i 2).val < 128 := (i 2).isLt
  obtain ⟨t, ht⟩ : ∃ t : Fin cfg12.N, t.val = (i 0).val :=
    ⟨⟨(i 0).val, by rw [show cfg12.N = 20 from (by decide : grid12.N = 20)]; exact h0⟩, rfl⟩
  obtain ⟨q0, q1, q2⟩ := index_pooled t
  refine ⟨t, flush12_11 t, ?_⟩
  rw [mem_blk_pooled]
  intro a
  match a with
  | ⟨0, _⟩ =>
    show win12_11.index t (0 : Fin 3) * 1 ≤ (i 0).val ∧ (i 0).val < win12_11.index t (0 : Fin 3) * 1 + 1
    rw [q0, ht]; omega
  | ⟨1, _⟩ =>
    show win12_11.index t (1 : Fin 3) * 64 ≤ (i 1).val ∧ (i 1).val < win12_11.index t (1 : Fin 3) * 64 + 64
    rw [q1]; omega
  | ⟨2, _⟩ =>
    show win12_11.index t (2 : Fin 3) * 128 ≤ (i 2).val ∧ (i 2).val < win12_11.index t (2 : Fin 3) * 128 + 128
    rw [q2]; omega

/-! ## The two results after the 20 points -/

/-- THE FIRST RESULT: the twice-stepped matrix, whole. -/
theorem out_eq (c : Dev nD) : (dat12 V c).arrAt 10 cfg12.N = ofMat (H V c) :=
  (dat12 V c).arrAt_eq_of_cover 10 (ofMat (H V c)) (fun t _ => flushed_stored V c t) cover_stored

/-- THE SECOND RESULT: tile by tile, the tile's share of the pooling of the first result. -/
theorem pool_eq (c : Dev nD) :
    (dat12 V c).arrAt 11 cfg12.N = fun i => poolTile (H V c) (toCol (V c main_v0)) (i 0) (i 1) (i 2) :=
  (dat12 V c).arrAt_eq_of_cover 11 (fun i => poolTile (H V c) (toCol (V c main_v0)) (i 0) (i 1) (i 2))
    (fun t _ => flushed_pooled V c t) cover_pooled

end Cert.KReg12

end
-- ==== Proof.KChain2.lean ====
/-
  Layer 0 of the idealized kernel program, boundary by boundary: from the contents at the layer's entry to its two
  outputs, the next features and their per-tile pooled partials, as the specification's kernel-side layer function of
  the argument arrays.
-/
import proofs.«412161_j3753801416792_2_alg».proof.Proof.KIFrameW
import proofs.«412161_j3753801416792_2_alg».proof.Proof.Conv
import proofs.«412161_j3753801416792_2_alg».proof.Proof.Agg
import proofs.«412161_j3753801416792_2_alg».proof.Proof.KCarry
import proofs.«412161_j3753801416792_2_alg».proof.Proof.KHost1L2
import proofs.«412161_j3753801416792_2_alg».proof.Proof.KHostStatsL2
import proofs.«412161_j3753801416792_2_alg».proof.Proof.KReg9
import proofs.«412161_j3753801416792_2_alg».proof.Proof.KReg10
import proofs.«412161_j3753801416792_2_alg».proof.Proof.KReg11
import proofs.«412161_j3753801416792_2_alg».proof.Proof.KReg12
import proofs.«412161_j3753801416792_2_alg».proof.Proof.KChainCommon

set_option maxRecDepth 16384

noncomputable section

namespace Cert.KChain2

open Cert.KernelIdeal Cert.KernelIdeal.Gen Cert.Spec Cert.Conv Idealize.ShloMosaic Idealize.ShloMosaic.ValueIdx
  Idealize.ShloMosaic.TcCoe Idealize.SL.Sem

variable (m : (ℓ : Loc nD τ sig) → Buf (Elt Ideal) ℓ) (ρ : Dev nD → PrngReg)

/-- This layer's parameters. -/
abbrev P (c : Dev nD) : Params := Cert.KArgs.P m (2 : Fin 4) c

/-- The features the layer starts from, as the layer's entry boundary holds them. -/
def X (c : Dev nD) : Mat 100000 128 := toMat (W18 m ρ c (Proc.devRef .tc main_v157_0))

/-- Their aggregate over the edges. -/
def A (c : Dev nD) : Mat 100000 128 :=
  toMat (Cert.Agg.aggT (W18 m ρ c (Proc.devRef .tc main_v157_0)) (m ((c : Thread nD τ).loc main_arg2)) (m ((c : Thread nD τ).loc main_arg3)))

/-- The graph ids as a column of words. -/
abbrev gid (c : Dev nD) : Fin 100000 → BitVec 32 := Cert.KArgs.gid m c

/-! ## Region 1's entry: the aggregate, the scale row, the first bias row and matrix -/

/-- The features are at region 1's entry what they are at the layer's entry. -/
theorem carryX (c : Dev nD) : V19 m ρ c main_v157_0 = W18 m ρ c (Proc.devRef .tc main_v157_0) :=
  Cert.KCarry.at19_main_v157_0 m ρ c

theorem e3_h (c : Dev nD) : toMat (V19 m ρ c main_v157_0) = X m ρ c := by
  unfold X
  exact congrArg toMat (carryX m ρ c)

theorem e3_agg (c : Dev nD) : toMat (V19 m ρ c main_v168) = A m ρ c := by
  unfold A
  refine congrArg toMat ?_
  show StableHlo.after hostOps9 (W18 m ρ c) (Proc.devRef .tc main_v168) = _
  rw [Cert.KHost1L2.agg1, Cert.KCarry.at18_main_arg2, Cert.KCarry.at18_main_arg3]

theorem e3_scale (c : Dev nD) : toRow (V19 m ρ c main_v173) = fun _ => (P m c).scale := by
  show toRow (StableHlo.after hostOps9 (W18 m ρ c) (Proc.devRef .tc main_v173)) = _
  rw [Cert.KHost1L2.scale1, Cert.KCarry.at18_main_arg5]; rfl

theorem e3_b1 (c : Dev nD) : toRow (V19 m ρ c main_v176) = (P m c).b1 := by
  show toRow (StableHlo.after hostOps9 (W18 m ρ c) (Proc.devRef .tc main_v176)) = _
  rw [Cert.KHost1L2.b1, Cert.KCarry.at18_main_arg7]; rfl

theorem e3_W1 (c : Dev nD) : toMat (V19 m ρ c main_v178) = (P m c).W1 := by
  show toMat (StableHlo.after hostOps9 (W18 m ρ c) (Proc.devRef .tc main_v178)) = _
  rw [Cert.KHost1L2.W1, Cert.KCarry.at18_main_arg6]; rfl

/-- The first affine map's output as region 1 leaves it. -/
def L1 (c : Dev nD) : Mat 100000 128 := lin1K (P m c) (X m ρ c) (A m ρ c)

theorem reg1_L (c : Dev nD) : Cert.KReg9.L (V19 m ρ) c = L1 m ρ c := by
  unfold Cert.KReg9.L L1 lin1K xRow
  rw [e3_h, e3_agg, e3_scale, e3_b1, e3_W1]

theorem x4_lin (c : Dev nD) : V20 m ρ c main_v179_0 = ofMat (L1 m ρ c) :=
  ((hF9 m ρ c 5).symm.trans (Cert.KReg9.lin_eq (V19 m ρ) c)).trans (congrArg ofMat (reg1_L m ρ c))
theorem x4_sum (c : Dev nD) : V20 m ρ c main_v179_1 = fun i => tileSum (L1 m ρ c) (i 0) (i 2) :=
  ((hF9 m ρ c 6).symm.trans (Cert.KReg9.sum_eq (V19 m ρ) c)).trans (by rw [reg1_L]; first | done | rfl)
theorem x4_sumsq (c : Dev nD) : V20 m ρ c main_v179_2 = fun i => tileSum (sq (L1 m ρ c)) (i 0) (i 2) :=
  ((hF9 m ρ c 7).symm.trans (Cert.KReg9.sumsq_eq (V19 m ρ) c)).trans (by rw [reg1_L]; first | done | rfl)

/-! ## Region 2's entry -/

theorem e5_lin (c : Dev nD) : toMat (V21 m ρ c main_v179_0) = L1 m ρ c := by
  have h : V21 m ρ c main_v179_0 = V20 m ρ c main_v179_0 := Cert.KCarry.at21_main_v179_0 m ρ c
  rw [h, x4_lin]; rfl

theorem e5_mean (c : Dev nD) : toRow (V21 m ρ c main_v183) = meanK (L1 m ρ c) := by
  show toRow (StableHlo.after hostOps10 (W20 m ρ c) (Proc.devRef .tc main_v183)) = _
  rw [Cert.KHostStatsL2.mean2]
  have h : W20 m ρ c (Proc.devRef .tc main_v179_1) = _ := x4_sum m ρ c
  rw [h]; rfl

theorem e5_var (c : Dev nD) : toRow (V21 m ρ c main_v189) = varK (L1 m ρ c) := by
  show toRow (StableHlo.after hostOps10 (W20 m ρ c) (Proc.devRef .tc main_v189)) = _
  rw [Cert.KHostStatsL2.var2]
  have h1 : W20 m ρ c (Proc.devRef .tc main_v179_1) = _ := x4_sum m ρ c
  have h2 : W20 m ρ c (Proc.devRef .tc main_v179_2) = _ := x4_sumsq m ρ c
  rw [h1, h2]; rfl

theorem e5_g (c : Dev nD) : toRow (V21 m ρ c main_v192) = (P m c).g1 := by
  show toRow (StableHlo.after hostOps10 (W20 m ρ c) (Proc.devRef .tc main_v192)) = _
  rw [Cert.KHostStatsL2.g2, Cert.KCarry.at20_main_arg10]; rfl
theorem e5_be (c : Dev nD) : toRow (V21 m ρ c main_v195) = (P m c).be1 := by
  show toRow (StableHlo.after hostOps10 (W20 m ρ c) (Proc.devRef .tc main_v195)) = _
  rw [Cert.KHostStatsL2.be2, Cert.KCarry.at20_main_arg11]; rfl
theorem e5_b (c : Dev nD) : toRow (V21 m ρ c main_v198) = (P m c).b2 := by
  show toRow (StableHlo.after hostOps10 (W20 m ρ c) (Proc.devRef .tc main_v198)) = _
  rw [Cert.KHostStatsL2.b2, Cert.KCarry.at20_main_arg9]; rfl
theorem e5_W (c : Dev nD) : toMat (V21 m ρ c main_v200) = (P m c).W2 := by
  show toMat (StableHlo.after hostOps10 (W20 m ρ c) (Proc.devRef .tc main_v200)) = _
  rw [Cert.KHostStatsL2.W2, Cert.KCarry.at20_main_arg8]; rfl

/-- The second affine map's output as region 2 leaves it. -/
def L2 (c : Dev nD) : Mat 100000 128 := lin2 (P m c) (z1K (P m c) (L1 m ρ c))

theorem reg2_L (c : Dev nD) : Cert.KReg10.L2 (V21 m ρ) c = L2 m ρ c := by
  unfold Cert.KReg10.L2 L2 lin2 z1K
  rw [e5_lin, e5_mean, e5_var, e5_g, e5_be, e5_b, e5_W]

theorem x6_lin (c : Dev nD) : V22 m ρ c main_v201_0 = ofMat (L2 m ρ c) :=
  ((hF10 m ρ c 7).symm.trans (Cert.KReg10.lin_eq (V21 m ρ) c)).trans (congrArg ofMat (reg2_L m ρ c))
theorem x6_sum (c : Dev nD) : V22 m ρ c main_v201_1 = fun i => tileSum (L2 m ρ c) (i 0) (i 2) :=
  ((hF10 m ρ c 8).symm.trans (Cert.KReg10.sum_eq (V21 m ρ) c)).trans (by rw [reg2_L]; first | done | rfl)
theorem x6_sumsq (c : Dev nD) : V22 m ρ c main_v201_2 = fun i => tileSum (sq (L2 m ρ c)) (i 0) (i 2) :=
  ((hF10 m ρ c 9).symm.trans (Cert.KReg10.sumsq_eq (V21 m ρ) c)).trans (by rw [reg2_L]; first | done | rfl)

/-! ## Region 3's entry -/

theorem e7_lin (c : Dev nD) : toMat (V23 m ρ c main_v201_0) = L2 m ρ c := by
  have h : V23 m ρ c main_v201_0 = V22 m ρ c main_v201_0 := Cert.KCarry.at23_main_v201_0 m ρ c
  rw [h, x6_lin]; rfl
theorem e7_mean (c : Dev nD) : toRow (V23 m ρ c main_v205) = meanK (L2 m ρ c) := by
  show toRow (StableHlo.after hostOps11 (W22 m ρ c) (Proc.devRef .tc main_v205)) = _
  rw [Cert.KHostStatsL2.mean3]
  have h : W22 m ρ c (Proc.devRef .tc main_v201_1) = _ := x6_sum m ρ c
  rw [h]; rfl
theorem e7_var (c : Dev nD) : toRow (V23 m ρ c main_v211) = varK (L2 m ρ c) := by
  show toRow (StableHlo.after hostOps11 (W22 m ρ c) (Proc.devRef .tc main_v211)) = _
  rw [Cert.KHostStatsL2.var3]
  have h1 : W22 m ρ c (Proc.devRef .tc main_v201_1) = _ := x6_sum m ρ c
  have h2 : W22 m ρ c (Proc.devRef .tc main_v201_2) = _ := x6_sumsq m ρ c
  rw [h1, h2]; rfl
theorem e7_g (c : Dev nD) : toRow (V23 m ρ c main_v214) = (P m c).g2 := by
  show toRow (StableHlo.after hostOps11 (W22 m ρ c) (Proc.devRef .tc main_v214)) = _
  rw [Cert.KHostStatsL2.g3, Cert.KCarry.at22_main_arg12]; rfl
theorem e7_be (c : Dev nD) : toRow (V23 m ρ c main_v217) = (P m c).be2 := by
  show toRow (StableHlo.after hostOps11 (W22 m ρ c) (Proc.devRef .tc main_v217)) = _
  rw [Cert.KHostStatsL2.be3, Cert.KCarry.at22_main_arg13]; rfl

/-- The second normalisation's output. -/
def Z2 (c : Dev nD) : Mat 100000 128 := z2K (P m c) (L2 m ρ c)

theorem reg3_Z (c : Dev nD) : Cert.KReg11.Z2 (V23 m ρ) c = Z2 m ρ c := by
  unfold Cert.KReg11.Z2 Z2 z2K
  rw [e7_lin, e7_mean, e7_var, e7_g, e7_be]

theorem x8_sum (c : Dev nD) : V24 m ρ c main_v218_0 = fun i => tileSum (Z2 m ρ c) (i 0) (i 2) :=
  ((hF11 m ρ c 5).symm.trans (Cert.KReg11.sum_eq (V23 m ρ) c)).trans (by rw [reg3_Z]; first | done | rfl)
theorem x8_sumsq (c : Dev nD) : V24 m ρ c main_v218_1 = fun i => tileSum (sq (Z2 m ρ c)) (i 0) (i 2) :=
  ((hF11 m ρ c 6).symm.trans (Cert.KReg11.sumsq_eq (V23 m ρ) c)).trans (by rw [reg3_Z]; first | done | rfl)

/-! ## Region 4's entry -/

theorem e9_lin (c : Dev nD) : toMat (V25 m ρ c main_v201_0) = L2 m ρ c := by
  have h : V25 m ρ c main_v201_0 = V22 m ρ c main_v201_0 := Cert.KCarry.at25_main_v201_0 m ρ c
  rw [h, x6_lin]; rfl
theorem e9_mean2 (c : Dev nD) : toRow (V25 m ρ c main_v205) = meanK (L2 m ρ c) := by
  have h : V25 m ρ c main_v205 = V23 m ρ c main_v205 := Cert.KCarry.at25_main_v205 m ρ c
  rw [h, e7_mean]
theorem e9_var2 (c : Dev nD) : toRow (V25 m ρ c main_v211) = varK (L2 m ρ c) := by
  have h : V25 m ρ c main_v211 = V23 m ρ c main_v211 := Cert.KCarry.at25_main_v211 m ρ c
  rw [h, e7_var]
theorem e9_g2 (c : Dev nD) : toRow (V25 m ρ c main_v214) = (P m c).g2 := by
  have h : V25 m ρ c main_v214 = V23 m ρ c main_v214 := Cert.KCarry.at25_main_v214 m ρ c
  rw [h, e7_g]
theorem e9_be2 (c : Dev nD) : toRow (V25 m ρ c main_v217) = (P m c).be2 := by
  have h : V25 m ρ c main_v217 = V23 m ρ c main_v217 := Cert.KCarry.at25_main_v217 m ρ c
  rw [h, e7_be]
theorem e9_mean3 (c : Dev nD) : toRow (V25 m ρ c main_v222) = meanK (Z2 m ρ c) := by
  show toRow (StableHlo.after hostOps12 (W24 m ρ c) (Proc.devRef .tc main_v222)) = _
  rw [Cert.KHostStatsL2.mean4]
  have h : W24 m ρ c (Proc.devRef .tc main_v218_0) = _ := x8_sum m ρ c
  rw [h]; rfl
theorem e9_var3 (c : Dev nD) : toRow (V25 m ρ c main_v228) = varK (Z2 m ρ c) := by
  show toRow (StableHlo.after hostOps12 (W24 m ρ c) (Proc.devRef .tc main_v228)) = _
  rw [Cert.KHostStatsL2.var4]
  have h1 : W24 m ρ c (Proc.devRef .tc main_v218_0) = _ := x8_sum m ρ c
  have h2 : W24 m ρ c (Proc.devRef .tc main_v218_1) = _ := x8_sumsq m ρ c
  rw [h1, h2]; rfl
theorem e9_g3 (c : Dev nD) : toRow (V25 m ρ c main_v231) = (P m c).g3 := by
  show toRow (StableHlo.after hostOps12 (W24 m ρ c) (Proc.devRef .tc main_v231)) = _
  rw [Cert.KHostStatsL2.g4, Cert.KCarry.at24_main_arg14]; rfl
theorem e9_be3 (c : Dev nD) : toRow (V25 m ρ c main_v234) = (P m c).be3 := by
  show toRow (StableHlo.after hostOps12 (W24 m ρ c) (Proc.devRef .tc main_v234)) = _
  rw [Cert.KHostStatsL2.be4, Cert.KCarry.at24_main_arg15]; rfl
theorem e9_gid (c : Dev nD) : toCol (V25 m ρ c main_v0) = gid m c := by
  exact (congrArg toCol (Cert.KCarry.at25_main_v0 m ρ c)).trans (Cert.KChainCommon.gid_at1 m ρ c)

/-- THE LAYER'S OUTPUT FEATURES. -/
def Hout (c : Dev nD) : Mat 100000 128 := layerK (P m c) (X m ρ c) (A m ρ c)

theorem reg4_H (c : Dev nD) : Cert.KReg12.H (V25 m ρ) c = Hout m ρ c := by
  unfold Cert.KReg12.H Hout layerK outK
  rw [e9_lin, e9_mean2, e9_var2, e9_g2, e9_be2, e9_mean3, e9_var3, e9_g3, e9_be3]
  rfl

theorem x10_out (c : Dev nD) : V26 m ρ c main_v235_0 = ofMat (Hout m ρ c) :=
  ((hF12 m ρ c 10).symm.trans (Cert.KReg12.out_eq (V25 m ρ) c)).trans (congrArg ofMat (reg4_H m ρ c))
theorem x10_pool (c : Dev nD) : V26 m ρ c main_v235_1 = fun i => poolTile (Hout m ρ c) (gid m c) (i 0) (i 1) (i 2) :=
  ((hF12 m ρ c 11).symm.trans (Cert.KReg12.pool_eq (V25 m ρ) c)).trans (by rw [reg4_H, e9_gid])

end Cert.KChain2

end
-- ==== Proof.KHost1L3.lean ====
/-
  The first two host stretches of the idealized kernel program, read for an arbitrary valuation.

  The first stretch reshapes the vector of graph ids to one column. The second adds the pooled partial sums over
  the 20 tiles; aggregates the features along the edges (the source indices normalised, the rows gathered, the rows
  added into zeros by destination); broadcasts one plus this layer's eps to a row; and takes this layer's row of
  the first bias and this layer's matrix of the first weights. Each result is stated over the valuation's entries
  at the operands only, and read at an index: a shape cast reads the operand at the same row-major position, a
  unit-stride slice the operand shifted by the offsets, a broadcast the operand at the named coordinates, and the
  host's sum from the zero word is the sum over the reduced axis. The aggregation is not read at an index: it is
  the composed term itself.
-/
import proofs.«412161_j3753801416792_2_alg».proof.Proof.Gen.KernelIdeal.Launch
import proofs.«412161_j3753801416792_2_alg».proof.Proof.Conv
import proofs.«412161_j3753801416792_2_alg».proof.Proof.Agg
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KHost1L3

open Cert.KernelIdeal Cert.KernelIdeal.Gen Cert.Spec Cert.Conv Idealize.ShloMosaic Idealize.ShloMosaic.ValueIdx Idealize.ShloMosaic.StableHlo

variable (V : Valuation τ sig (Elt Ideal))

/-- The graph ids as a column: the reshape of a vector to one column reads the vector. -/
theorem gid0 : toCol (after hostOps0 V (Proc.devRef .tc main_v0)) = fun n => V (Proc.devRef .tc main_arg4) (ix1 n) := by
  after_results_simp
  funext n
  show shapeCast S100000x1 (V (Proc.devRef .tc main_arg4)) shapeCasts_S100000_S100000x1 (ix2 n (0 : Fin 1)) = _
  exact shapeCast_apply _ _ _ (ix1 n) (by
    rw [Shape.rowMajor_val_one, Shape.rowMajor_val_two]
    show n.val = n.val * 1 + 0
    omega)

/-- The pooled partials added over the 20 tiles. -/
theorem pooled1 : toMat (after hostOps13 V (Proc.devRef .tc main_v236)) = fun g d => (∑ t : Fin 20, V (Proc.devRef .tc main_v235_1) (ix3 t g d) : EReal) := by
  after_results_simp
  funext g d
  show Host.reduceAdd (V (Proc.devRef .tc main_v235_1)) (constant (F := Ideal) S_ .f32 0x00000000#32) reducesTo_S20x64x128_S64x128_d0 h_S_ (ix2 g d) = _
  rw [hostReduceAdd_apply, Ideal.hostReduceAdd_single reducesTo_S20x64x128_S64x128_d0 (by decide), constant_apply, Ideal.ofBits_zero_f32, zero_add]
  refine Finset.sum_congr rfl fun t _ => congrArg (V (Proc.devRef .tc main_v235_1)) (funext fun a => ?_)
  match a with
  | ⟨0, _⟩ => exact Fin.ext rfl
  | ⟨1, _⟩ => exact Fin.ext rfl
  | ⟨2, _⟩ => exact Fin.ext rfl

/-- The edge aggregation is the composed gather and scatter-add of the features. -/
theorem agg1 : after hostOps13 V (Proc.devRef .tc main_v246) = Cert.Agg.aggT (V (Proc.devRef .tc main_v235_0)) (V (Proc.devRef .tc main_arg2)) (V (Proc.devRef .tc main_arg3)) := by
  after_results_simp
  unfold Cert.Agg.aggT Cert.Agg.srcIdx
  rfl

/-- The scale row: one plus this layer's eps, at every column. -/
theorem scale1 : toRow (after hostOps13 V (Proc.devRef .tc main_v251)) = fun _ => Ideal.ofBits .f32 0x3F800000#32 + V (Proc.devRef .tc main_arg5) (ix1 (3 : Fin 4)) := by
  after_results_simp
  funext j
  show broadcastInDim S1x128 _ bcast_S1x1_S1x128_0_1
      (shapeCast S1x1 (addf (constant (F := Ideal) S_ .f32 0x3F800000#32)
        (shapeCast S_ (extractStridedSlice S1 _ (V (Proc.devRef .tc main_arg5)) slices_S4_S1_3) shapeCasts_S1_S_)) shapeCasts_S_S1x1)
      (ix2 (0 : Fin 1) j) = _
  rw [broadcastInDim_apply _ _ _ _ (ix2 (0 : Fin 1) (0 : Fin 1)) (fun a => match a with | ⟨0, _⟩ => rfl | ⟨1, _⟩ => rfl),
    shapeCast_apply _ _ (ix2 (0 : Fin 1) (0 : Fin 1)) ix0 rfl, addf_apply, constant_apply, shapeCast_apply _ _ ix0 (ix1 (0 : Fin 1)) rfl,
    extractStridedSlice_apply _ _ _ _ (ix1 (3 : Fin 4)) (fun a => match a with | ⟨0, _⟩ => rfl)]

/-- This layer's row of the first bias. -/
theorem b1 : toRow (after hostOps13 V (Proc.devRef .tc main_v254)) = fun j => V (Proc.devRef .tc main_arg7) (ix2 (3 : Fin 4) j) := by
  after_results_simp
  funext j
  show shapeCast S1x128 (shapeCast S128 (extractStridedSlice S1x128 _ (V (Proc.devRef .tc main_arg7)) slices_S4x128_S1x128_3_0) shapeCasts_S1x128_S128) shapeCasts_S128_S1x128 (ix2 (0 : Fin 1) j) = _
  rw [shapeCast_a_1a_apply, shapeCast_1a_a_apply]
  exact extractStridedSlice_apply _ _ _ _ (ix2 (3 : Fin 4) j) (fun a => match a with
    | ⟨0, _⟩ => rfl
    | ⟨1, _⟩ => (Nat.zero_add _).symm)

/-- This layer's matrix of the first weights. -/
theorem W1 : toMat (after hostOps13 V (Proc.devRef .tc main_v256)) = fun k j => V (Proc.devRef .tc main_arg6) (ix3 (3 : Fin 4) k j) := by
  after_results_simp
  funext k j
  show shapeCast S128x128 (extractStridedSlice S1x128x128 _ (V (Proc.devRef .tc main_arg6)) slices_S4x128x128_S1x128x128_3_0_0) shapeCasts_S1x128x128_S128x128 (ix2 k j) = _
  rw [shapeCast_1ab_ab_apply]
  exact extractStridedSlice_apply _ _ _ _ (ix3 (3 : Fin 4) k j) (fun a => match a with
    | ⟨0, _⟩ => rfl
    | ⟨1, _⟩ => (Nat.zero_add _).symm
    | ⟨2, _⟩ => (Nat.zero_add _).symm)

end Cert.KHost1L3

end
-- ==== Proof.KHostStatsL3.lean ====
/-
  Three host stretches of the idealized kernel program, read for an arbitrary valuation.

  Each stretch takes a region's per-tile partial column sums — two arrays of twenty one-row tiles, the sums
  and the sums of squares — to a mean row and a variance row,

      mean = (the tiles added) / N,      var = max ((the squares' tiles added) / N - mean * mean) 0,

  N the node count as a binary32 word, and cuts this layer's row out of each parameter array (and, in the first
  stretch, this layer's matrix out of the stack of weight matrices) for the next region. Every statement is about
  the valuation after the stretch at one result buffer, in terms of the valuation before it at the operand buffers.
-/
import proofs.«412161_j3753801416792_2_alg».proof.Proof.Gen.KernelIdeal.Launch
import proofs.«412161_j3753801416792_2_alg».proof.Proof.Conv
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.KHostStatsL3

open Cert.KernelIdeal Cert.KernelIdeal.Gen Cert.Spec Cert.Conv Idealize.ShloMosaic Idealize.ShloMosaic.ValueIdx Idealize.ShloMosaic.StableHlo
open Idealize.SL.Sem

/-- The per-tile partial column sums added over the twenty tiles. -/
def tiles (p : S20x1x128.Idx → EReal) : Row 128 := fun j => ∑ t : Fin 20, p (ix3 t (0 : Fin 1) j)

/-- The host's sum over the tile axis, read at a column: the sum of the twenty tiles' entries there. -/
theorem tileSum_apply (p : S20x1x128.Idx → EReal) (hr : S20x1x128.ReducesTo [0] S1x128) (hu : 0 < S_.numel) (j : Fin 128) :
    Host.reduceAdd (F := Ideal) p (constant (F := Ideal) S_ .f32 0x00000000#32) hr hu (ix2 (0 : Fin 1) j) = tiles p j := by
  rw [hostReduceAdd_apply, Ideal.hostReduceAdd_single hr (by decide : S20x1x128.Reduces [0] S1x128), constant_apply,
    Ideal.ofBits_zero_f32, zero_add]
  unfold tiles
  refine Finset.sum_congr rfl fun t _ => congrArg p (funext fun c => Fin.ext ?_)
  rw [Shape.Reduces.lift_val]
  unfold Shape.Reduces.liftVal
  match c with
  | ⟨0, _⟩ => rfl
  | ⟨1, _⟩ => rfl
  | ⟨2, _⟩ => rfl

/-- The mean row: the tiles' sum divided by the node count, read at a column. -/
theorem meanRow_apply (p : S20x1x128.Idx → EReal) (hr : S20x1x128.ReducesTo [0] S1x128) (hu : 0 < S_.numel)
    (hb : S_.BroadcastsInDim S1x128 (![] : Fin 0 → Fin S1x128.rank)) (j : Fin 128) :
    Host.divf (F := Ideal) (Host.reduceAdd (F := Ideal) p (constant (F := Ideal) S_ .f32 0x00000000#32) hr hu)
      (broadcastInDim S1x128 ![] hb (constant (F := Ideal) S_ .f32 0x47C35000#32)) (ix2 (0 : Fin 1) j)
      = Ideal.div (tiles p j) cN := by
  rw [hostDivf_apply, tileSum_apply, broadcastInDim_scalar_apply, constant_apply]
  rfl

/-- The variance row: the mean of the squares less the square of the mean, clamped below at zero, read at a column. -/
theorem varRow_apply (p q : S20x1x128.Idx → EReal) (hr : S20x1x128.ReducesTo [0] S1x128) (hu : 0 < S_.numel)
    (hb : S_.BroadcastsInDim S1x128 (![] : Fin 0 → Fin S1x128.rank)) (j : Fin 128) :
    maximumf (F := Ideal)
      (subf (F := Ideal)
        (Host.divf (F := Ideal) (Host.reduceAdd (F := Ideal) q (constant (F := Ideal) S_ .f32 0x00000000#32) hr hu)
          (broadcastInDim S1x128 ![] hb (constant (F := Ideal) S_ .f32 0x47C35000#32)))
        (mulf (F := Ideal)
          (Host.divf (F := Ideal) (Host.reduceAdd (F := Ideal) p (constant (F := Ideal) S_ .f32 0x00000000#32) hr hu)
            (broadcastInDim S1x128 ![] hb (constant (F := Ideal) S_ .f32 0x47C35000#32)))
          (Host.divf (F := Ideal) (Host.reduceAdd (F := Ideal) p (constant (F := Ideal) S_ .f32 0x00000000#32) hr hu)
            (broadcastInDim S1x128 ![] hb (constant (F := Ideal) S_ .f32 0x47C35000#32)))))
      (broadcastInDim S1x128 ![] hb (constant (F := Ideal) S_ .f32 0x00000000#32)) (ix2 (0 : Fin 1) j)
      = max (Ideal.div (tiles q j) cN - Ideal.div (tiles p j) cN * Ideal.div (tiles p j) cN) 0 := by
  rw [maximumf_apply, subf_apply, mulf_apply, meanRow_apply, meanRow_apply, broadcastInDim_scalar_apply, constant_apply,
    Ideal.ofBits_zero_f32]

/-- Row `r` of a four-row array, cut out as a one-row array, flattened and made one row again, read at a column. -/
theorem rowSlice_apply (x : S4x128.Idx → EReal) {o : ℕ} (hs : S4x128.Slices ![o, 0] S1x128)
    (h1 : S1x128.ShapeCasts S128) (h2 : S128.ShapeCasts S1x128) (r : Fin 4) (hr : r.val = o) (j : Fin 128) :
    shapeCast S1x128 (shapeCast S128 (extractStridedSlice S1x128 ![o, 0] x hs) h1) h2 (ix2 (0 : Fin 1) j) = x (ix2 r j) := by
  rw [shapeCast_a_1a_apply, shapeCast_1a_a_apply]
  exact slice2_axis0_apply o x hs (0 : Fin 1) j r hr

/-- Matrix `r` of a stack of four, cut out as a stack of one and made a matrix, read at an entry. -/
theorem matSlice_apply (x : S4x128x128.Idx → EReal) {o : ℕ} (hs : S4x128x128.Slices ![o, 0, 0] S1x128x128)
    (h1 : S1x128x128.ShapeCasts S128x128) (r : Fin 4) (hr : r.val = o) (k j : Fin 128) :
    shapeCast S128x128 (extractStridedSlice S1x128x128 ![o, 0, 0] x hs) h1 (ix2 k j) = x (ix3 r k j) := by
  rw [shapeCast_1ab_ab_apply]
  exact extractStridedSlice_apply _ x hs _ _ (fun a => by
    match a with
    | ⟨0, _⟩ => exact hr
    | ⟨1, _⟩ => exact (Nat.zero_add _).symm
    | ⟨2, _⟩ => exact (Nat.zero_add _).symm)

variable (V : Valuation τ sig (Elt Ideal))

/-! ## The stretch hostOps14 -/

theorem mean2 : toRow (after hostOps14 V (Proc.devRef .tc main_v261)) = fun j => Ideal.div (tiles (V (Proc.devRef .tc main_v257_1)) j) cN := by
  funext j
  unfold toRow
  after_results
  exact meanRow_apply _ _ _ _ j

theorem var2 : toRow (after hostOps14 V (Proc.devRef .tc main_v267)) = fun j => max (Ideal.div (tiles (V (Proc.devRef .tc main_v257_2)) j) cN - Ideal.div (tiles (V (Proc.devRef .tc main_v257_1)) j) cN * Ideal.div (tiles (V (Proc.devRef .tc main_v257_1)) j) cN) 0 := by
  funext j
  unfold toRow
  after_results
  exact varRow_apply _ _ _ _ _ j

theorem g2 : toRow (after hostOps14 V (Proc.devRef .tc main_v270)) = fun j => V (Proc.devRef .tc main_arg10) (ix2 (3 : Fin 4) j) := by
  funext j
  unfold toRow
  after_results
  exact rowSlice_apply _ _ _ _ (3 : Fin 4) rfl j

theorem be2 : toRow (after hostOps14 V (Proc.devRef .tc main_v273)) = fun j => V (Proc.devRef .tc main_arg11) (ix2 (3 : Fin 4) j) := by
  funext j
  unfold toRow
  after_results
  exact rowSlice_apply _ _ _ _ (3 : Fin 4) rfl j

theorem b2 : toRow (after hostOps14 V (Proc.devRef .tc main_v276)) = fun j => V (Proc.devRef .tc main_arg9) (ix2 (3 : Fin 4) j) := by
  funext j
  unfold toRow
  after_results
  exact rowSlice_apply _ _ _ _ (3 : Fin 4) rfl j

theorem W2 : toMat (after hostOps14 V (Proc.devRef .tc main_v278)) = fun k j => V (Proc.devRef .tc main_arg8) (ix3 (3 : Fin 4) k j) := by
  funext k j
  unfold toMat
  after_results
  exact matSlice_apply _ _ _ (3 : Fin 4) rfl k j

/-! ## The stretch hostOps15 -/

theorem mean3 : toRow (after hostOps15 V (Proc.devRef .tc main_v283)) = fun j => Ideal.div (tiles (V (Proc.devRef .tc main_v279_1)) j) cN := by
  funext j
  unfold toRow
  after_results
  exact meanRow_apply _ _ _ _ j

theorem var3 : toRow (after hostOps15 V (Proc.devRef .tc main_v289)) = fun j => max (Ideal.div (tiles (V (Proc.devRef .tc main_v279_2)) j) cN - Ideal.div (tiles (V (Proc.devRef .tc main_v279_1)) j) cN * Ideal.div (tiles (V (Proc.devRef .tc main_v279_1)) j) cN) 0 := by
  funext j
  unfold toRow
  after_results
  exact varRow_apply _ _ _ _ _ j

theorem g3 : toRow (after hostOps15 V (Proc.devRef .tc main_v292)) = fun j => V (Proc.devRef .tc main_arg12) (ix2 (3 : Fin 4) j) := by
  funext j
  unfold toRow
  after_results
  exact rowSlice_apply _ _ _ _ (3 : Fin 4) rfl j

theorem be3 : toRow (after hostOps15 V (Proc.devRef .tc main_v295)) = fun j => V (Proc.devRef .tc main_arg13) (ix2 (3 : Fin 4) j) := by
  funext j
  unfold toRow
  after_results
  exact rowSlice_apply _ _ _ _ (3 : Fin 4) rfl j

/-! ## The stretch hostOps16 -/

theorem mean4 : toRow (after hostOps16 V (Proc.devRef .tc main_v300)) = fun j => Ideal.div (tiles (V (Proc.devRef .tc main_v296_0)) j) cN := by
  funext j
  unfold toRow
  after_results
  exact meanRow_apply _ _ _ _ j

theorem var4 : toRow (after hostOps16 V (Proc.devRef .tc main_v306)) = fun j => max (Ideal.div (tiles (V (Proc.devRef .tc main_v296_1)) j) cN - Ideal.div (tiles (V (Proc.devRef .tc main_v296_0)) j) cN * Ideal.div (tiles (V (Proc.devRef .tc main_v296_0)) j) cN) 0 := by
  funext j
  unfold toRow
  after_results
  exact varRow_apply _ _ _ _ _ j

theorem g4 : toRow (after hostOps16 V (Proc.devRef .tc main_v309)) = fun j => V (Proc.devRef .tc main_arg14) (ix2 (3 : Fin 4) j) := by
  funext j
  unfold toRow
  after_results
  exact rowSlice_apply _ _ _ _ (3 : Fin 4) rfl j

theorem be4 : toRow (after hostOps16 V (Proc.devRef .tc main_v312)) = fun j => V (Proc.devRef .tc main_arg15) (ix2 (3 : Fin 4) j) := by
  funext j
  unfold toRow
  after_results
  exact rowSlice_apply _ _ _ _ (3 : Fin 4) rfl j

end Cert.KHostStatsL3

end
-- ==== Proof.KReg13.lean ====
/-
  The value of the first kernel stage of a layer: for every node tile the idealized kernel multiplies the features by
  the scale row, adds the aggregate, multiplies by the first weight matrix and adds the bias row, stores the result, and
  stores the tile's column sums of the result and of its square. After the 20 tiles the three output arrays are:
  the affine map over all 100000 nodes; per tile its column sums; per tile its column sums of squares.
-/
import proofs.«412161_j3753801416792_2_alg».proof.Proof.KIFrameR13
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg13

open Cert.KernelIdeal Cert.KernelIdeal.Gen Cert.Spec Cert.Conv Idealize.ShloMosaic Idealize.ShloMosaic.ValueIdx Idealize.ShloMosaic.TcCoe Idealize.ShloMosaic.Pipeline

/-! ## The matrix product of a row tile, entry by entry -/

/-- Left operand, row axis: the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Left operand, column axis: the contracted index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- Right operand, row axis: the contracted index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- Right operand, column axis: the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile product into the zero accumulator at row r, column j: the sum over the 128 contracted columns. -/
theorem tile_matmul_apply (a : FVec Ideal S5000x128 .bf16) (b : FVec Ideal S128x128 .bf16) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

/-! ## The three stored values of one tile, entry by entry -/

/-- The affine map of a tile at row r, column j: the scaled features plus the aggregate, times the weights, plus the bias. -/
theorem lin_pay_apply (x0 : Vec Ideal S5000x128 .f32) (x2 : Vec Ideal S1x128 .f32) (x1 : Vec Ideal S5000x128 .f32)
    (x3 : Vec Ideal S128x128 .f32) (x4 : Vec Ideal S1x128 .f32) (r : Fin 5000) (j : Fin 128) :
    k13_pay1 x0 x2 x1 x3 x4 (ix2 r j)
      = (∑ k : Fin 128, (x0 (ix2 r k) * x2 (ix2 (0 : Fin 1) k) + x1 (ix2 r k)) * x3 (ix2 k j)) + x4 (ix2 (0 : Fin 1) j) := by
  unfold k13_pay1
  simp only [shapeCast_self]
  refine (addf_apply _ _ _).trans ?_
  refine congrArg₂ (· + ·) ?_ (broadcastTo_1b_ab_apply x4 broadcasts_S1x128_S5000x128 r j)
  refine (tile_matmul_apply _ _ r j).trans ?_
  refine Finset.sum_congr rfl fun k _ => ?_
  refine congrArg₂ (· * ·) ?_ rfl
  show x0 (ix2 r k) * broadcastTo S5000x128 x2 broadcasts_S1x128_S5000x128 (ix2 r k) + x1 (ix2 r k) = _
  rw [broadcastTo_1b_ab_apply x2 broadcasts_S1x128_S5000x128 r k]

/-- A column sum over the 5000 rows of a tile. -/
theorem tile_colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext ax
  apply Fin.ext
  match ax with
  | ⟨0, _⟩ => rfl
  | ⟨1, _⟩ => rfl

/-- The stored column sums of a tile at column j. -/
theorem sum_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k13_pay2 x0 x2 x1 x3 x4 (ix3 u v j) = ∑ r : Fin 5000, k13_pay1 x0 x2 x1 x3 x4 (ix2 r j) := by
  unfold k13_pay2
  refine (shapeCast_ab_1ab_apply _ shapeCasts_S1x128_S1x1x128 u v j).trans ?_
  refine (shapeCast_a_1a_apply _ shapeCasts_S128_S1x128 v j).trans ?_
  exact tile_colsum_apply _ _ _ j

/-- The stored column sums of squares of a tile at column j. -/
theorem sumsq_pay_apply (x0 : Vec Ideal S5000x128 .f32) (x2 : Vec Ideal S1x128 .f32) (x1 : Vec Ideal S5000x128 .f32)
    (x3 : Vec Ideal S128x128 .f32) (x4 : Vec Ideal S1x128 .f32) (u v : Fin 1) (j : Fin 128) :
    k13_pay3 x0 x2 x1 x3 x4 (ix3 u v j)
      = ∑ r : Fin 5000, k13_pay1 x0 x2 x1 x3 x4 (ix2 r j) * k13_pay1 x0 x2 x1 x3 x4 (ix2 r j) := by
  unfold k13_pay3
  refine (shapeCast_ab_1ab_apply _ shapeCasts_S1x128_S1x1x128 u v j).trans ?_
  refine (shapeCast_a_1a_apply _ shapeCasts_S128_S1x128 v j).trans ?_
  refine (tile_colsum_apply _ _ _ j).trans ?_
  rfl

/-! ## Where a tile sits in the arrays -/

/-- The grid point as a tile number. -/
abbrev tileOf (t : Fin cfg13.N) : Fin 20 := t.cast N_13

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the grid: row tiles move with the point, the small arrays stay, the per-tile
    outputs move with the point on their leading axis. -/
theorem index_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0
    ∧ win13_6.index t (0 : Fin 3) = t.val ∧ win13_6.index t (1 : Fin 3) = 0 ∧ win13_6.index t (2 : Fin 3) = 0
    ∧ win13_7.index t (0 : Fin 3) = t.val ∧ win13_7.index t (1 : Fin 3) = 0 ∧ win13_7.index t (2 : Fin 3) = 0 :=
  (by decide +kernel : ∀ t : Fin grid13.N, _)

/-- Row r, column k of the feature tile at point t is row 5000 t + r of the array. -/
theorem emb_feat (t : Fin cfg13.N) (r : Fin 5000) (k : Fin 128) :
    ((cfg13.win 0).blk t).view.emb (ix2 r k) = ix2 (tileRow (tileOf t) r) k := by
  obtain ⟨e0, e1, -⟩ := index_facts t
  funext a; apply Fin.ext
  match a with
  | ⟨0, _⟩ => show win13_0.index t (0 : Fin 2) * 5000 + 1 * r.val = t.val * 5000 + r.val; rw [e0]; omega
  | ⟨1, _⟩ => show win13_0.index t (1 : Fin 2) * 128 + 1 * k.val = k.val; rw [e1]; omega

/-- The same for the aggregate tile. -/
theorem emb_agg (t : Fin cfg13.N) (r : Fin 5000) (k : Fin 128) :
    ((cfg13.win 1).blk t).view.emb (ix2 r k) = ix2 (tileRow (tileOf t) r) k := by
  obtain ⟨-, -, e0, e1, -⟩ := index_facts t
  funext a; apply Fin.ext
  match a with
  | ⟨0, _⟩ => show win13_1.index t (0 : Fin 2) * 5000 + 1 * r.val = t.val * 5000 + r.val; rw [e0]; omega
  | ⟨1, _⟩ => show win13_1.index t (1 : Fin 2) * 128 + 1 * k.val = k.val; rw [e1]; omega

/-- The scale row is read whole at every point. -/
theorem emb_scale (t : Fin cfg13.N) (u : Fin 1) (k : Fin 128) :
    ((cfg13.win 2).blk t).view.emb (ix2 u k) = ix2 (0 : Fin 1) k := by
  obtain ⟨-, -, -, -, e0, e1, -⟩ := index_facts t
  funext a; apply Fin.ext
  match a with
  | ⟨0, _⟩ => show win13_2.index t (0 : Fin 2) * 1 + 1 * u.val = 0; rw [e0]; omega
  | ⟨1, _⟩ => show win13_2.index t (1 : Fin 2) * 128 + 1 * k.val = k.val; rw [e1]; omega

/-- The weights are read whole at every point. -/
theorem emb_weight (t : Fin cfg13.N) (k : Fin 128) (j : Fin 128) :
    ((cfg13.win 3).blk t).view.emb (ix2 k j) = ix2 k j := by
  obtain ⟨-, -, -, -, -, -, e0, e1, -⟩ := index_facts t
  funext a; apply Fin.ext
  match a with
  | ⟨0, _⟩ => show win13_3.index t (0 : Fin 2) * 128 + 1 * k.val = k.val; rw [e0]; omega
  | ⟨1, _⟩ => show win13_3.index t (1 : Fin 2) * 128 + 1 * j.val = j.val; rw [e1]; omega

/-- The bias row is read whole at every point. -/
theorem emb_bias (t : Fin cfg13.N) (u : Fin 1) (j : Fin 128) :
    ((cfg13.win 4).blk t).view.emb (ix2 u j) = ix2 (0 : Fin 1) j := by
  obtain ⟨-, -, -, -, -, -, -, -, e0, e1, -⟩ := index_facts t
  funext a; apply Fin.ext
  match a with
  | ⟨0, _⟩ => show win13_4.index t (0 : Fin 2) * 1 + 1 * u.val = 0; rw [e0]; omega
  | ⟨1, _⟩ => show win13_4.index t (1 : Fin 2) * 128 + 1 * j.val = j.val; rw [e1]; omega

/-- Row r, column j of the output tile at point t is row 5000 t + r of the output array. -/
theorem emb_lin (t : Fin cfg13.N) (r : Fin 5000) (j : Fin 128) :
    ((cfg13.win 5).blk t).view.emb (ix2 r j) = ix2 (tileRow (tileOf t) r) j := by
  obtain ⟨-, -, -, -, -, -, -, -, -, -, e0, e1, -⟩ := index_facts t
  funext a; apply Fin.ext
  match a with
  | ⟨0, _⟩ => show win13_5.index t (0 : Fin 2) * 5000 + 1 * r.val = t.val * 5000 + r.val; rw [e0]; omega
  | ⟨1, _⟩ => show win13_5.index t (1 : Fin 2) * 128 + 1 * j.val = j.val; rw [e1]; omega

/-- The column sums of tile t are row t of their array. -/
theorem emb_sum (t : Fin cfg13.N) (u v : Fin 1) (j : Fin 128) :
    ((cfg13.win 6).blk t).view.emb (ix3 u v j) = ix3 (tileOf t) (0 : Fin 1) j := by
  obtain ⟨-, -, -, -, -, -, -, -, -, -, -, -, e0, e1, e2, -⟩ := index_facts t
  funext a; apply Fin.ext
  match a with
  | ⟨0, _⟩ => show win13_6.index t (0 : Fin 3) * 1 + 1 * u.val = t.val; rw [e0]; omega
  | ⟨1, _⟩ => show win13_6.index t (1 : Fin 3) * 1 + 1 * v.val = 0; rw [e1]; omega
  | ⟨2, _⟩ => show win13_6.index t (2 : Fin 3) * 128 + 1 * j.val = j.val; rw [e2]; omega

/-- The column sums of squares of tile t are row t of their array. -/
theorem emb_sumsq (t : Fin cfg13.N) (u v : Fin 1) (j : Fin 128) :
    ((cfg13.win 7).blk t).view.emb (ix3 u v j) = ix3 (tileOf t) (0 : Fin 1) j := by
  obtain ⟨-, -, -, -, -, -, -, -, -, -, -, -, -, -, -, e0, e1, e2⟩ := index_facts t
  funext a; apply Fin.ext
  match a with
  | ⟨0, _⟩ => show win13_7.index t (0 : Fin 3) * 1 + 1 * u.val = t.val; rw [e0]; omega
  | ⟨1, _⟩ => show win13_7.index t (1 : Fin 3) * 1 + 1 * v.val = 0; rw [e1]; omega
  | ⟨2, _⟩ => show win13_7.index t (2 : Fin 3) * 128 + 1 * j.val = j.val; rw [e2]; omega

/-! ## Every entry of each output array lies in some tile -/

/-- An entry of the output array is in the tile of point t iff each coordinate is in the tile's range. -/
theorem mem_lin (t : Fin cfg13.N) (i : S100000x128.Idx) :
    i ∈ ((cfg13.win 5).blk t).view.set ↔ ∀ a : Fin 2, win13_5.index t a * S5000x128.size a ≤ (i a).val
      ∧ (i a).val < win13_5.index t a * S5000x128.size a + S5000x128.size a := by
  show i ∈ ((View.whole main_v257_0).slice (win13_5.rect t)).set ↔ _
  rw [View.set_slice_whole, Rect.mem_set_unit]
  exact Iff.rfl

theorem mem_sum (t : Fin cfg13.N) (i : S20x1x128.Idx) :
    i ∈ ((cfg13.win 6).blk t).view.set ↔ ∀ a : Fin 3, win13_6.index t a * S1x1x128.size a ≤ (i a).val
      ∧ (i a).val < win13_6.index t a * S1x1x128.size a + S1x1x128.size a := by
  show i ∈ ((View.whole main_v257_1).slice (win13_6.rect t)).set ↔ _
  rw [View.set_slice_whole, Rect.mem_set_unit]
  exact Iff.rfl

theorem mem_sumsq (t : Fin cfg13.N) (i : S20x1x128.Idx) :
    i ∈ ((cfg13.win 7).blk t).view.set ↔ ∀ a : Fin 3, win13_7.index t a * S1x1x128.size a ≤ (i a).val
      ∧ (i a).val < win13_7.index t a * S1x1x128.size a + S1x1x128.size a := by
  show i ∈ ((View.whole main_v257_2).slice (win13_7.rect t)).set ↔ _
  rw [View.set_slice_whole, Rect.mem_set_unit]
  exact Iff.rfl

/-- Row n of the output array is in tile n / 5000. -/
theorem cover_lin (i : S100000x128.Idx) :
    ∃ t : Fin cfg13.N, (cfg13.win 5).flush t = true ∧ i ∈ ((cfg13.win 5).blk t).view.set := by
  have hi0 : (i 0).val < 100000 := (i 0).isLt
  have hi1 : (i 1).val < 128 := (i 1).isLt
  have hN : cfg13.N = 20 := N_13
  refine ⟨⟨(i 0).val / 5000, by rw [hN]; omega⟩, flush13_5 _, ?_⟩
  rw [mem_lin]
  obtain ⟨-, -, -, -, -, -, -, -, -, -, e0, e1, -⟩ := index_facts ⟨(i 0).val / 5000, by rw [hN]; omega⟩
  intro a
  match a with
  | ⟨0, _⟩ =>
    show win13_5.index ⟨(i 0).val / 5000, _⟩ (0 : Fin 2) * 5000 ≤ (i 0).val
      ∧ (i 0).val < win13_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win13_5.index ⟨(i 0).val / 5000, _⟩ (1 : Fin 2) * 128 ≤ (i 1).val
      ∧ (i 1).val < win13_5.index ⟨(i 0).val / 5000, _⟩ (1 : Fin 2) * 128 + 128
    rw [e1]; omega

/-- Row t of the column sums is tile t's. -/
theorem cover_sum (i : S20x1x128.Idx) :
    ∃ t : Fin cfg13.N, (cfg13.win 6).flush t = true ∧ i ∈ ((cfg13.win 6).blk t).view.set := by
  have hi0 : (i 0).val < 20 := (i 0).isLt
  have hi1 : (i 1).val < 1 := (i 1).isLt
  have hi2 : (i 2).val < 128 := (i 2).isLt
  have hN : cfg13.N = 20 := N_13
  refine ⟨⟨(i 0).val, by rw [hN]; omega⟩, flush13_6 _, ?_⟩
  rw [mem_sum]
  obtain ⟨-, -, -, -, -, -, -, -, -, -, -, -, e0, e1, e2, -⟩ := index_facts ⟨(i 0).val, by rw [hN]; omega⟩
  intro a
  match a with
  | ⟨0, _⟩ =>
    show win13_6.index ⟨(i 0).val, _⟩ (0 : Fin 3) * 1 ≤ (i 0).val ∧ (i 0).val < win13_6.index ⟨(i 0).val, _⟩ (0 : Fin 3) * 1 + 1
    rw [e0]; show (i 0).val * 1 ≤ (i 0).val ∧ (i 0).val < (i 0).val * 1 + 1; omega
  | ⟨1, _⟩ =>
    show win13_6.index ⟨(i 0).val, _⟩ (1 : Fin 3) * 1 ≤ (i 1).val ∧ (i 1).val < win13_6.index ⟨(i 0).val, _⟩ (1 : Fin 3) * 1 + 1
    rw [e1]; omega
  | ⟨2, _⟩ =>
    show win13_6.index ⟨(i 0).val, _⟩ (2 : Fin 3) * 128 ≤ (i 2).val ∧ (i 2).val < win13_6.index ⟨(i 0).val, _⟩ (2 : Fin 3) * 128 + 128
    rw [e2]; omega

/-- Row t of the column sums of squares is tile t's. -/
theorem cover_sumsq (i : S20x1x128.Idx) :
    ∃ t : Fin cfg13.N, (cfg13.win 7).flush t = true ∧ i ∈ ((cfg13.win 7).blk t).view.set := by
  have hi0 : (i 0).val < 20 := (i 0).isLt
  have hi1 : (i 1).val < 1 := (i 1).isLt
  have hi2 : (i 2).val < 128 := (i 2).isLt
  have hN : cfg13.N = 20 := N_13
  refine ⟨⟨(i 0).val, by rw [hN]; omega⟩, flush13_7 _, ?_⟩
  rw [mem_sumsq]
  obtain ⟨-, -, -, -, -, -, -, -, -, -, -, -, -, -, -, e0, e1, e2⟩ := index_facts ⟨(i 0).val, by rw [hN]; omega⟩
  intro a
  match a with
  | ⟨0, _⟩ =>
    show win13_7.index ⟨(i 0).val, _⟩ (0 : Fin 3) * 1 ≤ (i 0).val ∧ (i 0).val < win13_7.index ⟨(i 0).val, _⟩ (0 : Fin 3) * 1 + 1
    rw [e0]; show (i 0).val * 1 ≤ (i 0).val ∧ (i 0).val < (i 0).val * 1 + 1; omega
  | ⟨1, _⟩ =>
    show win13_7.index ⟨(i 0).val, _⟩ (1 : Fin 3) * 1 ≤ (i 1).val ∧ (i 1).val < win13_7.index ⟨(i 0).val, _⟩ (1 : Fin 3) * 1 + 1
    rw [e1]; omega
  | ⟨2, _⟩ =>
    show win13_7.index ⟨(i 0).val, _⟩ (2 : Fin 3) * 128 ≤ (i 2).val ∧ (i 2).val < win13_7.index ⟨(i 0).val, _⟩ (2 : Fin 3) * 128 + 128
    rw [e2]; omega

/-! ## One tile's stored values, in the whole arrays' terms -/

/-- The affine map of tile t at row r, column j, when the loaded blocks are tile t of the features and the aggregate
    and the whole scale row, weights and bias row. -/
theorem lin_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (r : Fin 5000) (j : Fin 128) :
    k13_pay1 x0 x2 x1 x3 x4 (ix2 r j) = lin (xRow h a sc) W b (tileRow t r) j := by
  rw [lin_pay_apply, e4]
  show _ = (∑ k : Fin 128, (h (tileRow t r) k * sc k + a (tileRow t r) k) * W k j) + b j
  refine congrArg (· + b j) (Finset.sum_congr rfl fun k _ => ?_)
  rw [e0, e1, e2, e3]

/-- The stored column sums of tile t. -/
theorem sum_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k13_pay2 x0 x2 x1 x3 x4 (ix3 u v j) = tileSum (lin (xRow h a sc) W b) t j := by
  rw [sum_pay_apply]
  exact Finset.sum_congr rfl fun r _ => lin_tile x0 x1 x2 x3 x4 h a sc W b t e0 e1 e2 e3 e4 r j

/-- The stored column sums of squares of tile t. -/
theorem sumsq_tile (x0 x1 : Vec Ideal S5000x128 .f32) (x2 : Vec Ideal S1x128 .f32) (x3 : Vec Ideal S128x128 .f32)
    (x4 : Vec Ideal S1x128 .f32) (h a : Mat 100000 128) (sc : Row 128) (W : Mat 128 128) (b : Row 128) (t : Fin 20)
    (e0 : ∀ r k, x0 (ix2 r k) = h (tileRow t r) k) (e1 : ∀ r k, x1 (ix2 r k) = a (tileRow t r) k)
    (e2 : ∀ k, x2 (ix2 (0 : Fin 1) k) = sc k) (e3 : ∀ k j, x3 (ix2 k j) = W k j)
    (e4 : ∀ j, x4 (ix2 (0 : Fin 1) j) = b j) (u v : Fin 1) (j : Fin 128) :
    k13_pay3 x0 x2 x1 x3 x4 (ix3 u v j) = tileSum (sq (lin (xRow h a sc) W b)) t j := by
  rw [sumsq_pay_apply]
  refine Finset.sum_congr rfl fun r _ => ?_
  rw [lin_tile x0 x1 x2 x3 x4 h a sc W b t e0 e1 e2 e3 e4 r j]
  rfl

/-! ## The output arrays after the 20 tiles -/

variable (V : (c : Dev nD) → (b : Ref sig .tc) → Buf (Elt Ideal) ((c : Thread nD τ).loc b))

/-- The first affine map of the layer over all nodes, from the arrays as the stage finds them. -/
def L (c : Dev nD) : Mat 100000 128 :=
  lin (xRow (toMat (V c main_v235_0)) (toMat (V c main_v246)) (toRow (V c main_v251))) (toMat (V c main_v256)) (toRow (V c main_v254))

/-- A loaded block is the array read through the block's place in it. -/
theorem blk_feat (c : Dev nD) (t : Fin cfg13.N) (y : S5000x128.Idx) :
    (iblk13 V c 0 t : Vec Ideal S5000x128 .f32) y = V c main_v235_0 (((cfg13.win 0).blk t).view.emb y) := rfl
theorem blk_agg (c : Dev nD) (t : Fin cfg13.N) (y : S5000x128.Idx) :
    (iblk13 V c 1 t : Vec Ideal S5000x128 .f32) y = V c main_v246 (((cfg13.win 1).blk t).view.emb y) := rfl
theorem blk_scale (c : Dev nD) (t : Fin cfg13.N) (y : S1x128.Idx) :
    (iblk13 V c 2 t : Vec Ideal S1x128 .f32) y = V c main_v251 (((cfg13.win 2).blk t).view.emb y) := rfl
theorem blk_weight (c : Dev nD) (t : Fin cfg13.N) (y : S128x128.Idx) :
    (iblk13 V c 3 t : Vec Ideal S128x128 .f32) y = V c main_v256 (((cfg13.win 3).blk t).view.emb y) := rfl
theorem blk_bias (c : Dev nD) (t : Fin cfg13.N) (y : S1x128.Idx) :
    (iblk13 V c 4 t : Vec Ideal S1x128 .f32) y = V c main_v254 (((cfg13.win 4).blk t).view.emb y) := rfl

/-- The feature block at point t is tile t of the features. -/
theorem read_feat (c : Dev nD) (t : Fin cfg13.N) (r : Fin 5000) (k : Fin 128) :
    (iblk13 V c 0 t : Vec Ideal S5000x128 .f32) (ix2 r k) = toMat (V c main_v235_0) (tileRow (tileOf t) r) k :=
  (blk_feat V c t (ix2 r k)).trans (congrArg (V c main_v235_0) (emb_feat t r k))
/-- The aggregate block at point t is tile t of the aggregate. -/
theorem read_agg (c : Dev nD) (t : Fin cfg13.N) (r : Fin 5000) (k : Fin 128) :
    (iblk13 V c 1 t : Vec Ideal S5000x128 .f32) (ix2 r k) = toMat (V c main_v246) (tileRow (tileOf t) r) k :=
  (blk_agg V c t (ix2 r k)).trans (congrArg (V c main_v246) (emb_agg t r k))
/-- The scale block is the scale row. -/
theorem read_scale (c : Dev nD) (t : Fin cfg13.N) (k : Fin 128) :
    (iblk13 V c 2 t : Vec Ideal S1x128 .f32) (ix2 (0 : Fin 1) k) = toRow (V c main_v251) k :=
  (blk_scale V c t (ix2 (0 : Fin 1) k)).trans (congrArg (V c main_v251) (emb_scale t 0 k))
/-- The weight block is the weight matrix. -/
theorem read_weight (c : Dev nD) (t : Fin cfg13.N) (k : Fin 128) (j : Fin 128) :
    (iblk13 V c 3 t : Vec Ideal S128x128 .f32) (ix2 k j) = toMat (V c main_v256) k j :=
  (blk_weight V c t (ix2 k j)).trans (congrArg (V c main_v256) (emb_weight t k j))
/-- The bias block is the bias row. -/
theorem read_bias (c : Dev nD) (t : Fin cfg13.N) (j : Fin 128) :
    (iblk13 V c 4 t : Vec Ideal S1x128 .f32) (ix2 (0 : Fin 1) j) = toRow (V c main_v254) j :=
  (blk_bias V c t (ix2 (0 : Fin 1) j)).trans (congrArg (V c main_v254) (emb_bias t 0 j))

/-- What point t writes back to the first output is tile t of the affine map. -/
theorem flushed_lin (c : Dev nD) (t : Fin cfg13.N) :
    (dat13 V c).flushed 5 t = ((cfg13.win 5).blk t).view.read (Elt Ideal) (ofMat (L V c)) := by
  show (cfg13.win 5).cut (grid13.coords t) ((dat13 V c).after 5 t) = _
  rw [after13_5]
  unfold out13_5
  rw [View.canon_unit_zero zeros2]
  simp only [View.ld_unit_zero (S := S5000x128) zeros2, View.ld_unit_zero (S := S1x128) zeros2,
    View.ld_unit_zero (S := S128x128) zeros2]
  funext y
  obtain ⟨r, j, rfl⟩ : ∃ (r : Fin 5000) (j : Fin 128), y = ix2 r j := ⟨y 0, y 1, eq_ix2 y⟩
  show k13_pay1 (iblk13 V c 0 t) (iblk13 V c 2 t) (iblk13 V c 1 t) (iblk13 V c 3 t) (iblk13 V c 4 t) (ix2 r j)
    = ofMat (L V c) (((cfg13.win 5).blk t).view.emb (ix2 r j))
  rw [emb_lin t r j]
  exact lin_tile (iblk13 V c 0 t) (iblk13 V c 1 t) (iblk13 V c 2 t) (iblk13 V c 3 t) (iblk13 V c 4 t)
    (toMat (V c main_v235_0)) (toMat (V c main_v246)) (toRow (V c main_v251)) (toMat (V c main_v256)) (toRow (V c main_v254))
    (tileOf t) (read_feat V c t) (read_agg V c t) (read_scale V c t) (read_weight V c t) (read_bias V c t) r j

/-- What point t writes back to the second output is tile t's column sums. -/
theorem flushed_sum (c : Dev nD) (t : Fin cfg13.N) :
    (dat13 V c).flushed 6 t
      = ((cfg13.win 6).blk t).view.read (Elt Ideal) (fun i : S20x1x128.Idx => tileSum (L V c) (i 0) (i 2)) := by
  show (cfg13.win 6).cut (grid13.coords t) ((dat13 V c).after 6 t) = _
  rw [after13_6]
  unfold out13_6
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k13_pay2 (iblk13 V c 0 t) (iblk13 V c 2 t) (iblk13 V c 1 t) (iblk13 V c 3 t) (iblk13 V c 4 t) (ix3 u v j)
    = (fun i : S20x1x128.Idx => tileSum (L V c) (i 0) (i 2)) (((cfg13.win 6).blk t).view.emb (ix3 u v j))
  rw [emb_sum t u v j]
  exact sum_tile (iblk13 V c 0 t) (iblk13 V c 1 t) (iblk13 V c 2 t) (iblk13 V c 3 t) (iblk13 V c 4 t)
    (toMat (V c main_v235_0)) (toMat (V c main_v246)) (toRow (V c main_v251)) (toMat (V c main_v256)) (toRow (V c main_v254))
    (tileOf t) (read_feat V c t) (read_agg V c t) (read_scale V c t) (read_weight V c t) (read_bias V c t) u v j

/-- What point t writes back to the third output is tile t's column sums of squares. -/
theorem flushed_sumsq (c : Dev nD) (t : Fin cfg13.N) :
    (dat13 V c).flushed 7 t
      = ((cfg13.win 7).blk t).view.read (Elt Ideal) (fun i : S20x1x128.Idx => tileSum (sq (L V c)) (i 0) (i 2)) := by
  show (cfg13.win 7).cut (grid13.coords t) ((dat13 V c).after 7 t) = _
  rw [after13_7]
  unfold out13_7
  rw [View.canon_unit_zero zeros3]
  simp only [View.ld_unit_zero (S := S5000x128) zeros2, View.ld_unit_zero (S := S1x128) zeros2,
    View.ld_unit_zero (S := S128x128) zeros2]
  funext y
  obtain ⟨u, v, j, rfl⟩ : ∃ (u v : Fin 1) (j : Fin 128), y = ix3 u v j := ⟨y 0, y 1, y 2, eq_ix3 y⟩
  show k13_pay3 (iblk13 V c 0 t) (iblk13 V c 2 t) (iblk13 V c 1 t) (iblk13 V c 3 t) (iblk13 V c 4 t) (ix3 u v j)
    = (fun i : S20x1x128.Idx => tileSum (sq (L V c)) (i 0) (i 2)) (((cfg13.win 7).blk t).view.emb (ix3 u v j))
  rw [emb_sumsq t u v j]
  exact sumsq_tile (iblk13 V c 0 t) (iblk13 V c 1 t) (iblk13 V c 2 t) (iblk13 V c 3 t) (iblk13 V c 4 t)
    (toMat (V c main_v235_0)) (toMat (V c main_v246)) (toRow (V c main_v251)) (toMat (V c main_v256)) (toRow (V c main_v254))
    (tileOf t) (read_feat V c t) (read_agg V c t) (read_scale V c t) (read_weight V c t) (read_bias V c t) u v j

/-- THE FIRST OUTPUT after the stage: the affine map over all nodes. -/
theorem lin_eq (c : Dev nD) : (dat13 V c).arrAt 5 cfg13.N = ofMat (L V c) :=
  (dat13 V c).arrAt_eq_of_cover 5 (ofMat (L V c)) (fun t _ => flushed_lin V c t) cover_lin

/-- THE SECOND OUTPUT after the stage: per tile, the column sums of the affine map. -/
theorem sum_eq (c : Dev nD) :
    (dat13 V c).arrAt 6 cfg13.N = fun i : S20x1x128.Idx => tileSum (L V c) (i 0) (i 2) :=
  (dat13 V c).arrAt_eq_of_cover 6 (fun i : S20x1x128.Idx => tileSum (L V c) (i 0) (i 2))
    (fun t _ => flushed_sum V c t) cover_sum

/-- THE THIRD OUTPUT after the stage: per tile, the column sums of the squared affine map. -/
theorem sumsq_eq (c : Dev nD) :
    (dat13 V c).arrAt 7 cfg13.N = fun i : S20x1x128.Idx => tileSum (sq (L V c)) (i 0) (i 2) :=
  (dat13 V c).arrAt_eq_of_cover 7 (fun i : S20x1x128.Idx => tileSum (sq (L V c)) (i 0) (i 2))
    (fun t _ => flushed_sumsq V c t) cover_sumsq

end Cert.KReg13

end
-- ==== Proof.KReg14.lean ====
/-
  The value of a layer's second-stage region. After its 20 grid points the stored array is the second affine map of
  the layer over all 100000 nodes,

      lin (bnRelu x mean var gamma beta) W b,

  x the first affine map, W the weight matrix and b the bias row of the second, with the column mean and variance as the
  region finds them, and the two per-tile arrays are, for each tile of 5000
  rows, the column sums of that matrix and of its entrywise square over the tile. One tile's payload is read entry by
  entry (the product as a sum over the 128 contracted columns, the lane sums as sums over the tile's rows), each loaded
  block is read where its window puts it in its array, and the tiles cover the arrays.
-/
import proofs.«412161_j3753801416792_2_alg».proof.Proof.KIFrameR14
import proofs.«412161_j3753801416792_2_alg».proof.Proof.Conv
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KReg14

open Cert.KernelIdeal Cert.KernelIdeal.Gen Cert.Spec Cert.Conv Idealize.ShloMosaic Idealize.ShloMosaic.ValueIdx Idealize.ShloMosaic.TcCoe Idealize.ShloMosaic.Pipeline

/-! ## The product of a row tile with the weights, entry by entry -/

/-- The left operand is read at the output's row … -/
theorem product_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the contracted column; -/
theorem product_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- the right operand at the contracted row … -/
theorem product_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- … and at the output's column. -/
theorem product_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile's product into the zero accumulator, at row r and column j, is the sum over the 128 contracted columns. -/
theorem product_apply (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ k : Fin 128, A (ix2 r k) * B (ix2 k j) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact product_lhs_row _ _
      | ⟨1, _⟩ => exact (product_lhs_col _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (product_rhs_row _ _).trans hk
      | ⟨1, _⟩ => exact product_rhs_col _ _)
  rw [el, er]

/-! ## The stored values of one tile, entry by entry -/

/-- The second affine map of a tile at row r, column j: the normalised, scaled, shifted and clamped input row times
    the weights' column, plus the bias. -/
theorem pay3_apply (x0 : Vec Ideal S5000x128 .f32) (xv xm xg xb : Vec Ideal S1x128 .f32) (xw : Vec Ideal S128x128 .f32)
    (xc : Vec Ideal S1x128 .f32) (r : Fin 5000) (j : Fin 128) :
    k14_pay3 x0 xv xm xg xb xw xc (ix2 r j)
      = (∑ k : Fin 128, max ((x0 (ix2 r k) - xm (ix2 (0 : Fin 1) k)) * Ideal.rsqrt (xv (ix2 (0 : Fin 1) k) + cEps)
            * xg (ix2 (0 : Fin 1) k) + xb (ix2 (0 : Fin 1) k)) 0 * xw (ix2 k j)) + xc (ix2 (0 : Fin 1) j) := by
  unfold k14_pay3
  simp only [shapeCast_self]
  refine (addf_apply _ _ _).trans ?_
  refine congrArg₂ (· + ·) ?_ (broadcastTo_1b_ab_apply xc broadcasts_S1x128_S5000x128 r j)
  refine (product_apply _ _ r j).trans ?_
  refine Finset.sum_congr rfl fun k _ => ?_
  refine congrArg₂ (· * ·) ?_ rfl
  refine (truncf_apply (ψ := .bf16) _ bitsLt_bf16_f32 (ix2 r k)).trans ?_
  refine (maximumf_apply _ _ _).trans ?_
  refine congrArg₂ max ?_ Ideal.ofBits_zero_f32
  refine (addf_apply _ _ _).trans ?_
  refine congrArg₂ (· + ·) ?_ (broadcastTo_1b_ab_apply xb broadcasts_S1x128_S5000x128 r k)
  refine (mulf_apply _ _ _).trans ?_
  refine congrArg₂ (· * ·) ?_ (broadcastTo_1b_ab_apply xg broadcasts_S1x128_S5000x128 r k)
  refine (mulf_apply _ _ _).trans ?_
  refine congrArg₂ (· * ·) ?_ ?_
  · refine (subf_apply _ _ _).trans ?_
    exact congrArg (x0 (ix2 r k) - ·) (broadcastTo_1b_ab_apply xm broadcasts_S1x128_S5000x128 r k)
  · refine (broadcastTo_1b_ab_apply _ broadcasts_S1x128_S5000x128 r k).trans ?_
    rfl

/-- A column sum over the 5000 rows of a tile. -/
theorem colsum_apply (src : FVec Ideal S5000x128 .f32) (hφ : FKind.Formats .f32)
    (hacc : (0x00000000#32 : BitVec 32) = FKind.add.neutral .f32 hφ) (j : Fin 128) :
    multiReduction (F := Ideal) .add [0] S128 src 0x00000000#32 reduces_S5000x128_S128 hφ hacc (ix1 j)
      = ∑ r : Fin 5000, src (ix2 r j) := by
  refine (Ideal.multiReduction_add_single src 0x00000000#32 reduces_S5000x128_S128 hφ hacc (ix1 j)).trans ?_
  refine Finset.sum_congr rfl fun r _ => congrArg src ?_
  funext a
  apply Fin.ext
  match a with
  | ⟨0, _⟩ => rfl
  | ⟨1, _⟩ => rfl

/-- The stored column sums of a tile, at column j: the affine map summed over the tile's rows. -/
theorem pay_sums_apply (x0 : Vec Ideal S5000x128 .f32) (xv xm xg xb : Vec Ideal S1x128 .f32) (xw : Vec Ideal S128x128 .f32)
    (xc : Vec Ideal S1x128 .f32) (u v : Fin 1) (j : Fin 128) :
    k14_pay1 (k14_pay4 x0 xv xm xg xb xw xc) (ix3 u v j) = ∑ r : Fin 5000, k14_pay3 x0 xv xm xg xb xw xc (ix2 r j) := by
  unfold k14_pay1 k14_pay4
  refine (shapeCast_ab_1ab_apply _ shapeCasts_S1x128_S1x1x128 u v j).trans ?_
  refine (shapeCast_a_1a_apply _ shapeCasts_S128_S1x128 v j).trans ?_
  exact colsum_apply _ _ _ j

/-- The stored column sums of squares of a tile, at column j. -/
theorem pay_sumsqs_apply (x0 : Vec Ideal S5000x128 .f32) (xv xm xg xb : Vec Ideal S1x128 .f32) (xw : Vec Ideal S128x128 .f32)
    (xc : Vec Ideal S1x128 .f32) (u v : Fin 1) (j : Fin 128) :
    k14_pay2 (k14_pay5 x0 xv xm xg xb xw xc) (ix3 u v j)
      = ∑ r : Fin 5000, k14_pay3 x0 xv xm xg xb xw xc (ix2 r j) * k14_pay3 x0 xv xm xg xb xw xc (ix2 r j) := by
  unfold k14_pay2 k14_pay5
  refine (shapeCast_ab_1ab_apply _ shapeCasts_S1x128_S1x1x128 u v j).trans ?_
  refine (shapeCast_a_1a_apply _ shapeCasts_S128_S1x128 v j).trans ?_
  refine (colsum_apply _ _ _ j).trans ?_
  rfl

/-- One tile's affine map in the matrices' own terms: when the loaded blocks are the tile's rows of the input and the
    whole small arrays, the payload at row r, column j is the whole-array affine map at the tile's row. -/
theorem tile_lin (X : Mat 100000 128) (mu var g be : Row 128) (W : Mat 128 128) (b : Row 128) (tl : Fin 20)
    (x0 : Vec Ideal S5000x128 .f32) (xv xm xg xb : Vec Ideal S1x128 .f32) (xw : Vec Ideal S128x128 .f32)
    (xc : Vec Ideal S1x128 .f32)
    (h0 : ∀ (r : Fin 5000) (k : Fin 128), x0 (ix2 r k) = X (tileRow tl r) k)
    (hv : ∀ k : Fin 128, xv (ix2 (0 : Fin 1) k) = var k) (hm : ∀ k : Fin 128, xm (ix2 (0 : Fin 1) k) = mu k)
    (hg : ∀ k : Fin 128, xg (ix2 (0 : Fin 1) k) = g k) (hb : ∀ k : Fin 128, xb (ix2 (0 : Fin 1) k) = be k)
    (hw : ∀ k j : Fin 128, xw (ix2 k j) = W k j) (hc : ∀ j : Fin 128, xc (ix2 (0 : Fin 1) j) = b j)
    (r : Fin 5000) (j : Fin 128) :
    k14_pay3 x0 xv xm xg xb xw xc (ix2 r j) = lin (bnRelu X mu var g be) W b (tileRow tl r) j := by
  refine (pay3_apply x0 xv xm xg xb xw xc r j).trans ?_
  show _ = (∑ k : Fin 128, max ((X (tileRow tl r) k - mu k) * Ideal.rsqrt (var k + cEps) * g k + be k) 0 * W k j) + b j
  rw [hc j]
  refine congrArg (· + b j) (Finset.sum_congr rfl fun k _ => ?_)
  rw [h0 r k, hv k, hm k, hg k, hb k, hw k j]

/-! ## Where a tile sits in the arrays -/

/-- The grid point as a tile number. -/
abbrev tileOf (t : Fin cfg14.N) : Fin 20 := t.cast N_14

theorem zeros_rank2 : (![0, 0] : Fin 2 → Nat) = fun _ => 0 := funext fun a => by fin_cases a <;> rfl
theorem zeros_rank3 : (![0, 0, 0] : Fin 3 → Nat) = fun _ => 0 := funext fun a => by fin_cases a <;> rfl

/-- The printed index maps over the 20 points: the row tiles of the input and of the stored affine map move with the
    point, the six small arrays stay, the per-tile sums move with the point on their leading axis. -/
theorem index_rows : ∀ t : Fin cfg14.N,
    win14_0.index t (0 : Fin 2) = t.val ∧ win14_0.index t (1 : Fin 2) = 0
    ∧ win14_7.index t (0 : Fin 2) = t.val ∧ win14_7.index t (1 : Fin 2) = 0 :=
  (by decide +kernel : ∀ t : Fin grid14.N, _)

theorem index_small : ∀ t : Fin cfg14.N,
    win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0 :=
  (by decide +kernel : ∀ t : Fin grid14.N, _)

theorem index_sums : ∀ t : Fin cfg14.N,
    win14_8.index t (0 : Fin 3) = t.val ∧ win14_8.index t (1 : Fin 3) = 0 ∧ win14_8.index t (2 : Fin 3) = 0
    ∧ win14_9.index t (0 : Fin 3) = t.val ∧ win14_9.index t (1 : Fin 3) = 0 ∧ win14_9.index t (2 : Fin 3) = 0 :=
  (by decide +kernel : ∀ t : Fin grid14.N, _)

/-- Row r, column k of the input tile at point t is row 5000 t + r of the input array. -/
theorem emb_input (t : Fin cfg14.N) (r : Fin 5000) (k : Fin 128) :
    ((cfg14.win 0).blk t).view.emb (ix2 r k) = ix2 (tileRow (tileOf t) r) k := by
  obtain ⟨e0, e1, -⟩ := index_rows t
  funext a; apply Fin.ext
  match a with
  | ⟨0, _⟩ => show win14_0.index t (0 : Fin 2) * 5000 + 1 * r.val = t.val * 5000 + r.val; rw [e0]; omega
  | ⟨1, _⟩ => show win14_0.index t (1 : Fin 2) * 128 + 1 * k.val = k.val; rw [e1]; omega

/-- The mean row is read whole at every point. -/
theorem emb_mean (t : Fin cfg14.N) (u : Fin 1) (k : Fin 128) :
    ((cfg14.win 1).blk t).view.emb (ix2 u k) = ix2 (0 : Fin 1) k := by
  obtain ⟨e0, e1, -⟩ := index_small t
  funext a; apply Fin.ext
  match a with
  | ⟨0, _⟩ => show win14_1.index t (0 : Fin 2) * 1 + 1 * u.val = 0; rw [e0]; omega
  | ⟨1, _⟩ => show win14_1.index t (1 : Fin 2) * 128 + 1 * k.val = k.val; rw [e1]; omega

/-- The variance row is read whole at every point. -/
theorem emb_var (t : Fin cfg14.N) (u : Fin 1) (k : Fin 128) :
    ((cfg14.win 2).blk t).view.emb (ix2 u k) = ix2 (0 : Fin 1) k := by
  obtain ⟨-, -, e0, e1, -⟩ := index_small t
  funext a; apply Fin.ext
  match a with
  | ⟨0, _⟩ => show win14_2.index t (0 : Fin 2) * 1 + 1 * u.val = 0; rw [e0]; omega
  | ⟨1, _⟩ => show win14_2.index t (1 : Fin 2) * 128 + 1 * k.val = k.val; rw [e1]; omega

/-- The scale row is read whole at every point. -/
theorem emb_gamma (t : Fin cfg14.N) (u : Fin 1) (k : Fin 128) :
    ((cfg14.win 3).blk t).view.emb (ix2 u k) = ix2 (0 : Fin 1) k := by
  obtain ⟨-, -, -, -, e0, e1, -⟩ := index_small t
  funext a; apply Fin.ext
  match a with
  | ⟨0, _⟩ => show win14_3.index t (0 : Fin 2) * 1 + 1 * u.val = 0; rw [e0]; omega
  | ⟨1, _⟩ => show win14_3.index t (1 : Fin 2) * 128 + 1 * k.val = k.val; rw [e1]; omega

/-- The shift row is read whole at every point. -/
theorem emb_beta (t : Fin cfg14.N) (u : Fin 1) (k : Fin 128) :
    ((cfg14.win 4).blk t).view.emb (ix2 u k) = ix2 (0 : Fin 1) k := by
  obtain ⟨-, -, -, -, -, -, e0, e1, -⟩ := index_small t
  funext a; apply Fin.ext
  match a with
  | ⟨0, _⟩ => show win14_4.index t (0 : Fin 2) * 1 + 1 * u.val = 0; rw [e0]; omega
  | ⟨1, _⟩ => show win14_4.index t (1 : Fin 2) * 128 + 1 * k.val = k.val; rw [e1]; omega

/-- The weights are read whole at every point. -/
theorem emb_weights (t : Fin cfg14.N) (k j : Fin 128) :
    ((cfg14.win 5).blk t).view.emb (ix2 k j) = ix2 k j := by
  obtain ⟨-, -, -, -, -, -, -, -, e0, e1, -⟩ := index_small t
  funext a; apply Fin.ext
  match a with
  | ⟨0, _⟩ => show win14_5.index t (0 : Fin 2) * 128 + 1 * k.val = k.val; rw [e0]; omega
  | ⟨1, _⟩ => show win14_5.index t (1 : Fin 2) * 128 + 1 * j.val = j.val; rw [e1]; omega

/-- The bias row is read whole at every point. -/
theorem emb_bias (t : Fin cfg14.N) (u : Fin 1) (j : Fin 128) :
    ((cfg14.win 6).blk t).view.emb (ix2 u j) = ix2 (0 : Fin 1) j := by
  obtain ⟨-, -, -, -, -, -, -, -, -, -, e0, e1⟩ := index_small t
  funext a; apply Fin.ext
  match a with
  | ⟨0, _⟩ => show win14_6.index t (0 : Fin 2) * 1 + 1 * u.val = 0; rw [e0]; omega
  | ⟨1, _⟩ => show win14_6.index t (1 : Fin 2) * 128 + 1 * j.val = j.val; rw [e1]; omega

/-- Row r, column j of the stored tile at point t is row 5000 t + r of the stored array. -/
theorem emb_stored (t : Fin cfg14.N) (r : Fin 5000) (j : Fin 128) :
    ((cfg14.win 7).blk t).view.emb (ix2 r j) = ix2 (tileRow (tileOf t) r) j := by
  obtain ⟨-, -, e0, e1⟩ := index_rows t
  funext a; apply Fin.ext
  match a with
  | ⟨0, _⟩ => show win14_7.index t (0 : Fin 2) * 5000 + 1 * r.val = t.val * 5000 + r.val; rw [e0]; omega
  | ⟨1, _⟩ => show win14_7.index t (1 : Fin 2) * 128 + 1 * j.val = j.val; rw [e1]; omega

/-- The column sums of tile t are row t of their array. -/
theorem emb_sums (t : Fin cfg14.N) (u v : Fin 1) (j : Fin 128) :
    ((cfg14.win 8).blk t).view.emb (ix3 u v j) = ix3 (tileOf t) (0 : Fin 1) j := by
  obtain ⟨e0, e1, e2, -⟩ := index_sums t
  funext a; apply Fin.ext
  match a with
  | ⟨0, _⟩ => show win14_8.index t (0 : Fin 3) * 1 + 1 * u.val = t.val; rw [e0]; omega
  | ⟨1, _⟩ => show win14_8.index t (1 : Fin 3) * 1 + 1 * v.val = 0; rw [e1]; omega
  | ⟨2, _⟩ => show win14_8.index t (2 : Fin 3) * 128 + 1 * j.val = j.val; rw [e2]; omega

/-- The column sums of squares of tile t are row t of their array. -/
theorem emb_sumsqs (t : Fin cfg14.N) (u v : Fin 1) (j : Fin 128) :
    ((cfg14.win 9).blk t).view.emb (ix3 u v j) = ix3 (tileOf t) (0 : Fin 1) j := by
  obtain ⟨-, -, -, e0, e1, e2⟩ := index_sums t
  funext a; apply Fin.ext
  match a with
  | ⟨0, _⟩ => show win14_9.index t (0 : Fin 3) * 1 + 1 * u.val = t.val; rw [e0]; omega
  | ⟨1, _⟩ => show win14_9.index t (1 : Fin 3) * 1 + 1 * v.val = 0; rw [e1]; omega
  | ⟨2, _⟩ => show win14_9.index t (2 : Fin 3) * 128 + 1 * j.val = j.val; rw [e2]; omega

/-! ## Every entry of each output array lies in some tile -/

/-- An entry of the stored array is in the tile of point t iff each coordinate is in the tile's range. -/
theorem mem_stored (t : Fin cfg14.N) (i : S100000x128.Idx) :
    i ∈ ((cfg14.win 7).blk t).view.set ↔ ∀ a : Fin 2, win14_7.index t a * S5000x128.size a ≤ (i a).val
      ∧ (i a).val < win14_7.index t a * S5000x128.size a + S5000x128.size a := by
  show i ∈ ((View.whole main_v279_0).slice (win14_7.rect t)).set ↔ _
  rw [View.set_slice_whole, Rect.mem_set_unit]
  exact Iff.rfl

theorem mem_sums (t : Fin cfg14.N) (i : S20x1x128.Idx) :
    i ∈ ((cfg14.win 8).blk t).view.set ↔ ∀ a : Fin 3, win14_8.index t a * S1x1x128.size a ≤ (i a).val
      ∧ (i a).val < win14_8.index t a * S1x1x128.size a + S1x1x128.size a := by
  show i ∈ ((View.whole main_v279_1).slice (win14_8.rect t)).set ↔ _
  rw [View.set_slice_whole, Rect.mem_set_unit]
  exact Iff.rfl

theorem mem_sumsqs (t : Fin cfg14.N) (i : S20x1x128.Idx) :
    i ∈ ((cfg14.win 9).blk t).view.set ↔ ∀ a : Fin 3, win14_9.index t a * S1x1x128.size a ≤ (i a).val
      ∧ (i a).val < win14_9.index t a * S1x1x128.size a + S1x1x128.size a := by
  show i ∈ ((View.whole main_v279_2).slice (win14_9.rect t)).set ↔ _
  rw [View.set_slice_whole, Rect.mem_set_unit]
  exact Iff.rfl

/-- Row n of the stored array is in tile n / 5000. -/
theorem cover_stored (i : S100000x128.Idx) :
    ∃ t : Fin cfg14.N, (cfg14.win 7).flush t = true ∧ i ∈ ((cfg14.win 7).blk t).view.set := by
  have hi0 : (i 0).val < 100000 := (i 0).isLt
  have hi1 : (i 1).val < 128 := (i 1).isLt
  have hN : cfg14.N = 20 := N_14
  refine ⟨⟨(i 0).val / 5000, by rw [hN]; omega⟩, flush14_7 _, ?_⟩
  rw [mem_stored]
  obtain ⟨-, -, e0, e1⟩ := index_rows ⟨(i 0).val / 5000, by rw [hN]; omega⟩
  intro a
  match a with
  | ⟨0, _⟩ =>
    show win14_7.index ⟨(i 0).val / 5000, _⟩ (0 : Fin 2) * 5000 ≤ (i 0).val
      ∧ (i 0).val < win14_7.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win14_7.index ⟨(i 0).val / 5000, _⟩ (1 : Fin 2) * 128 ≤ (i 1).val
      ∧ (i 1).val < win14_7.index ⟨(i 0).val / 5000, _⟩ (1 : Fin 2) * 128 + 128
    rw [e1]; omega

/-- Row t of the column sums is tile t's. -/
theorem cover_sums (i : S20x1x128.Idx) :
    ∃ t : Fin cfg14.N, (cfg14.win 8).flush t = true ∧ i ∈ ((cfg14.win 8).blk t).view.set := by
  have hi0 : (i 0).val < 20 := (i 0).isLt
  have hi1 : (i 1).val < 1 := (i 1).isLt
  have hi2 : (i 2).val < 128 := (i 2).isLt
  have hN : cfg14.N = 20 := N_14
  refine ⟨⟨(i 0).val, by rw [hN]; omega⟩, flush14_8 _, ?_⟩
  rw [mem_sums]
  obtain ⟨e0, e1, e2, -⟩ := index_sums ⟨(i 0).val, by rw [hN]; omega⟩
  intro a
  match a with
  | ⟨0, _⟩ =>
    show win14_8.index ⟨(i 0).val, _⟩ (0 : Fin 3) * 1 ≤ (i 0).val ∧ (i 0).val < win14_8.index ⟨(i 0).val, _⟩ (0 : Fin 3) * 1 + 1
    rw [e0]
    show (i 0).val * 1 ≤ (i 0).val ∧ (i 0).val < (i 0).val * 1 + 1
    omega
  | ⟨1, _⟩ =>
    show win14_8.index ⟨(i 0).val, _⟩ (1 : Fin 3) * 1 ≤ (i 1).val ∧ (i 1).val < win14_8.index ⟨(i 0).val, _⟩ (1 : Fin 3) * 1 + 1
    rw [e1]; omega
  | ⟨2, _⟩ =>
    show win14_8.index ⟨(i 0).val, _⟩ (2 : Fin 3) * 128 ≤ (i 2).val ∧ (i 2).val < win14_8.index ⟨(i 0).val, _⟩ (2 : Fin 3) * 128 + 128
    rw [e2]; omega

/-- Row t of the column sums of squares is tile t's. -/
theorem cover_sumsqs (i : S20x1x128.Idx) :
    ∃ t : Fin cfg14.N, (cfg14.win 9).flush t = true ∧ i ∈ ((cfg14.win 9).blk t).view.set := by
  have hi0 : (i 0).val < 20 := (i 0).isLt
  have hi1 : (i 1).val < 1 := (i 1).isLt
  have hi2 : (i 2).val < 128 := (i 2).isLt
  have hN : cfg14.N = 20 := N_14
  refine ⟨⟨(i 0).val, by rw [hN]; omega⟩, flush14_9 _, ?_⟩
  rw [mem_sumsqs]
  obtain ⟨-, -, -, e0, e1, e2⟩ := index_sums ⟨(i 0).val, by rw [hN]; omega⟩
  intro a
  match a with
  | ⟨0, _⟩ =>
    show win14_9.index ⟨(i 0).val, _⟩ (0 : Fin 3) * 1 ≤ (i 0).val ∧ (i 0).val < win14_9.index ⟨(i 0).val, _⟩ (0 : Fin 3) * 1 + 1
    rw [e0]
    show (i 0).val * 1 ≤ (i 0).val ∧ (i 0).val < (i 0).val * 1 + 1
    omega
  | ⟨1, _⟩ =>
    show win14_9.index ⟨(i 0).val, _⟩ (1 : Fin 3) * 1 ≤ (i 1).val ∧ (i 1).val < win14_9.index ⟨(i 0).val, _⟩ (1 : Fin 3) * 1 + 1
    rw [e1]; omega
  | ⟨2, _⟩ =>
    show win14_9.index ⟨(i 0).val, _⟩ (2 : Fin 3) * 128 ≤ (i 2).val ∧ (i 2).val < win14_9.index ⟨(i 0).val, _⟩ (2 : Fin 3) * 128 + 128
    rw [e2]; omega

variable (V : (c : Dev nD) → (b : Ref sig .tc) → Buf (Elt Ideal) ((c : Thread nD τ).loc b))

/-! ## The region's value -/

/-- The second affine map of the layer over all nodes: the normalised, scaled, shifted and clamped first affine map
    (by the given column mean and variance) times the second weights, plus the second bias. -/
def L2 (c : Dev nD) : Mat 100000 128 :=
  lin (bnRelu (toMat (n := 100000) (d := 128) (V c main_v257_0)) (toRow (d := 128) (V c main_v261)) (toRow (d := 128) (V c main_v267))
      (toRow (d := 128) (V c main_v270)) (toRow (d := 128) (V c main_v273)))
    (toMat (n := 128) (d := 128) (V c main_v278)) (toRow (d := 128) (V c main_v276))

/-! ## The loaded blocks, entry by entry -/

theorem block_input (c : Dev nD) (t : Fin cfg14.N) (r : Fin 5000) (k : Fin 128) :
    (iblk14 V c 0 t : Vec Ideal S5000x128 .f32) (ix2 r k) = toMat (n := 100000) (d := 128) (V c main_v257_0) (tileRow (tileOf t) r) k := by
  show V c main_v257_0 (((cfg14.win 0).blk t).view.emb (ix2 r k)) = V c main_v257_0 (ix2 (tileRow (tileOf t) r) k)
  rw [emb_input]

theorem block_mean (c : Dev nD) (t : Fin cfg14.N) (k : Fin 128) :
    (iblk14 V c 1 t : Vec Ideal S1x128 .f32) (ix2 (0 : Fin 1) k) = toRow (d := 128) (V c main_v261) k := by
  show V c main_v261 (((cfg14.win 1).blk t).view.emb (ix2 (0 : Fin 1) k)) = V c main_v261 (ix2 (0 : Fin 1) k)
  rw [emb_mean]

theorem block_var (c : Dev nD) (t : Fin cfg14.N) (k : Fin 128) :
    (iblk14 V c 2 t : Vec Ideal S1x128 .f32) (ix2 (0 : Fin 1) k) = toRow (d := 128) (V c main_v267) k := by
  show V c main_v267 (((cfg14.win 2).blk t).view.emb (ix2 (0 : Fin 1) k)) = V c main_v267 (ix2 (0 : Fin 1) k)
  rw [emb_var]

theorem block_gamma (c : Dev nD) (t : Fin cfg14.N) (k : Fin 128) :
    (iblk14 V c 3 t : Vec Ideal S1x128 .f32) (ix2 (0 : Fin 1) k) = toRow (d := 128) (V c main_v270) k := by
  show V c main_v270 (((cfg14.win 3).blk t).view.emb (ix2 (0 : Fin 1) k)) = V c main_v270 (ix2 (0 : Fin 1) k)
  rw [emb_gamma]

theorem block_beta (c : Dev nD) (t : Fin cfg14.N) (k : Fin 128) :
    (iblk14 V c 4 t : Vec Ideal S1x128 .f32) (ix2 (0 : Fin 1) k) = toRow (d := 128) (V c main_v273) k := by
  show V c main_v273 (((cfg14.win 4).blk t).view.emb (ix2 (0 : Fin 1) k)) = V c main_v273 (ix2 (0 : Fin 1) k)
  rw [emb_beta]

theorem block_weights (c : Dev nD) (t : Fin cfg14.N) (k j : Fin 128) :
    (iblk14 V c 5 t : Vec Ideal S128x128 .f32) (ix2 k j) = toMat (n := 128) (d := 128) (V c main_v278) k j := by
  show V c main_v278 (((cfg14.win 5).blk t).view.emb (ix2 k j)) = V c main_v278 (ix2 k j)
  rw [emb_weights]

theorem block_bias (c : Dev nD) (t : Fin cfg14.N) (j : Fin 128) :
    (iblk14 V c 6 t : Vec Ideal S1x128 .f32) (ix2 (0 : Fin 1) j) = toRow (d := 128) (V c main_v276) j := by
  show V c main_v276 (((cfg14.win 6).blk t).view.emb (ix2 (0 : Fin 1) j)) = V c main_v276 (ix2 (0 : Fin 1) j)
  rw [emb_bias]

/-- The payload of point t at row r, column j is the whole-array affine map at the tile's row. -/
theorem block_lin (c : Dev nD) (t : Fin cfg14.N) (r : Fin 5000) (j : Fin 128) :
    k14_pay3 (iblk14 V c 0 t) (iblk14 V c 2 t) (iblk14 V c 1 t) (iblk14 V c 3 t) (iblk14 V c 4 t) (iblk14 V c 5 t) (iblk14 V c 6 t) (ix2 r j)
      = L2 V c (tileRow (tileOf t) r) j :=
  tile_lin (toMat (n := 100000) (d := 128) (V c main_v257_0)) (toRow (d := 128) (V c main_v261)) (toRow (d := 128) (V c main_v267))
    (toRow (d := 128) (V c main_v270)) (toRow (d := 128) (V c main_v273)) (toMat (n := 128) (d := 128) (V c main_v278))
    (toRow (d := 128) (V c main_v276)) (tileOf t)
    (iblk14 V c 0 t) (iblk14 V c 2 t) (iblk14 V c 1 t) (iblk14 V c 3 t) (iblk14 V c 4 t) (iblk14 V c 5 t) (iblk14 V c 6 t)
    (fun r k => block_input V c t r k) (fun k => block_var V c t k) (fun k => block_mean V c t k)
    (fun k => block_gamma V c t k) (fun k => block_beta V c t k) (fun k j => block_weights V c t k j)
    (fun j => block_bias V c t j) r j

/-! ## What each point writes back -/

/-- Two functions of a tile's index that agree at every row and column are equal. -/
theorem ext_tile {α : Type} {P Q : S5000x128.Idx → α} (h : ∀ (r : Fin 5000) (j : Fin 128), P (ix2 r j) = Q (ix2 r j)) : P = Q :=
  funext fun y => (congrArg P (eq_ix2 y)).trans ((h (y 0) (y 1)).trans (congrArg Q (eq_ix2 y).symm))

/-- The same for a per-tile row of sums. -/
theorem ext_sums {α : Type} {P Q : S1x1x128.Idx → α} (h : ∀ (u v : Fin 1) (j : Fin 128), P (ix3 u v j) = Q (ix3 u v j)) : P = Q :=
  funext fun y => (congrArg P (eq_ix3 y)).trans ((h (y 0) (y 1) (y 2)).trans (congrArg Q (eq_ix3 y).symm))

/-- Point t writes back tile t of the affine map. -/
theorem flushed_lin (c : Dev nD) (t : Fin cfg14.N) :
    (dat14 V c).flushed 7 t = ((cfg14.win 7).blk t).view.read (Elt Ideal) (ofMat (L2 V c)) := by
  show (cfg14.win 7).cut (grid14.coords t) ((dat14 V c).after 7 t) = _
  rw [after14_7]
  unfold out14_7
  rw [View.canon_unit_zero zeros_rank2]
  simp only [View.ld_unit_zero (S := S5000x128) zeros_rank2, View.ld_unit_zero (S := S1x128) zeros_rank2,
    View.ld_unit_zero (S := S128x128) zeros_rank2]
  refine ext_tile fun r j => ?_
  show k14_pay3 (iblk14 V c 0 t) (iblk14 V c 2 t) (iblk14 V c 1 t) (iblk14 V c 3 t) (iblk14 V c 4 t) (iblk14 V c 5 t) (iblk14 V c 6 t) (ix2 r j)
    = ofMat (L2 V c) (((cfg14.win 7).blk t).view.emb (ix2 r j))
  rw [emb_stored]
  exact block_lin V c t r j

/-- Point t writes back row t of the column sums: the affine map summed over tile t. -/
theorem flushed_sums (c : Dev nD) (t : Fin cfg14.N) :
    (dat14 V c).flushed 8 t = ((cfg14.win 8).blk t).view.read (Elt Ideal) (fun i : S20x1x128.Idx => tileSum (L2 V c) (i 0) (i 2)) := by
  show (cfg14.win 8).cut (grid14.coords t) ((dat14 V c).after 8 t) = _
  rw [after14_8]
  unfold out14_8
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k14_pay1 (k14_pay4 (iblk14 V c 0 t) (iblk14 V c 2 t) (iblk14 V c 1 t) (iblk14 V c 3 t) (iblk14 V c 4 t) (iblk14 V c 5 t) (iblk14 V c 6 t)) (ix3 u v j)
    = (fun i : S20x1x128.Idx => tileSum (L2 V c) (i 0) (i 2)) (((cfg14.win 8).blk t).view.emb (ix3 u v j))
  rw [emb_sums]
  show _ = ∑ r : Fin 5000, L2 V c (tileRow (tileOf t) r) j
  refine (pay_sums_apply (iblk14 V c 0 t) (iblk14 V c 2 t) (iblk14 V c 1 t) (iblk14 V c 3 t) (iblk14 V c 4 t) (iblk14 V c 5 t) (iblk14 V c 6 t) u v j).trans ?_
  exact Finset.sum_congr rfl fun r _ => block_lin V c t r j

/-- Point t writes back row t of the column sums of squares. -/
theorem flushed_sumsqs (c : Dev nD) (t : Fin cfg14.N) :
    (dat14 V c).flushed 9 t = ((cfg14.win 9).blk t).view.read (Elt Ideal) (fun i : S20x1x128.Idx => tileSum (Cert.Spec.sq (L2 V c)) (i 0) (i 2)) := by
  show (cfg14.win 9).cut (grid14.coords t) ((dat14 V c).after 9 t) = _
  rw [after14_9]
  unfold out14_9
  rw [View.canon_unit_zero zeros_rank3]
  simp only [View.ld_unit_zero (S := S5000x128) zeros_rank2, View.ld_unit_zero (S := S1x128) zeros_rank2,
    View.ld_unit_zero (S := S128x128) zeros_rank2]
  refine ext_sums fun u v j => ?_
  show k14_pay2 (k14_pay5 (iblk14 V c 0 t) (iblk14 V c 2 t) (iblk14 V c 1 t) (iblk14 V c 3 t) (iblk14 V c 4 t) (iblk14 V c 5 t) (iblk14 V c 6 t)) (ix3 u v j)
    = (fun i : S20x1x128.Idx => tileSum (Cert.Spec.sq (L2 V c)) (i 0) (i 2)) (((cfg14.win 9).blk t).view.emb (ix3 u v j))
  rw [emb_sumsqs]
  show _ = ∑ r : Fin 5000, L2 V c (tileRow (tileOf t) r) j * L2 V c (tileRow (tileOf t) r) j
  refine (pay_sumsqs_apply (iblk14 V c 0 t) (iblk14 V c 2 t) (iblk14 V c 1 t) (iblk14 V c 3 t) (iblk14 V c 4 t) (iblk14 V c 5 t) (iblk14 V c 6 t) u v j).trans ?_
  exact Finset.sum_congr rfl fun r _ => by rw [block_lin V c t r j]

/-! ## The three output arrays after the 20 points -/

/-- The stored affine map is the whole matrix. -/
theorem lin_eq (c : Dev nD) : (dat14 V c).arrAt 7 cfg14.N = ofMat (L2 V c) :=
  (dat14 V c).arrAt_eq_of_cover 7 (ofMat (L2 V c)) (fun t _ => flushed_lin V c t) cover_stored

/-- The per-tile column sums. -/
theorem sum_eq (c : Dev nD) : (dat14 V c).arrAt 8 cfg14.N = fun i => tileSum (L2 V c) (i 0) (i 2) :=
  (dat14 V c).arrAt_eq_of_cover 8 (fun i : S20x1x128.Idx => tileSum (L2 V c) (i 0) (i 2)) (fun t _ => flushed_sums V c t) cover_sums

/-- The per-tile column sums of squares. -/
theorem sumsq_eq (c : Dev nD) : (dat14 V c).arrAt 9 cfg14.N = fun i => tileSum (Cert.Spec.sq (L2 V c)) (i 0) (i 2) :=
  (dat14 V c).arrAt_eq_of_cover 9 (fun i : S20x1x128.Idx => tileSum (Cert.Spec.sq (L2 V c)) (i 0) (i 2)) (fun t _ => flushed_sumsqs V c t) cover_sumsqs

end Cert.KReg14

end
-- ==== Proof.KReg15.lean ====
/-
  The value of the third stage of the first layer: after its 20 tiles, the two per-tile arrays hold, for every
  tile and column, the sum over the tile's 5000 rows of the clamped batch-normalised entries, and the sum of their
  squares.
-/
import proofs.«412161_j3753801416792_2_alg».proof.Proof.KIFrameR15
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg15

open Cert.KernelIdeal Cert.KernelIdeal.Gen Cert.Spec Cert.Conv Idealize.ShloMosaic Idealize.ShloMosaic.ValueIdx
  Idealize.ShloMosaic.TcCoe Idealize.ShloMosaic.Pipeline

variable (V : (c : Dev nD) → (b : Ref sig .tc) → Buf (Elt Ideal) ((c : Thread nD τ).loc b))

/-- The second affine map's output, normalised by the given column mean and variance, scaled, shifted and clamped
    below at zero: all 100000 rows at once. -/
def Z2 (c : Dev nD) : Mat 100000 128 :=
  bnRelu (toMat (V c main_v279_0)) (toRow (V c main_v283)) (toRow (V c main_v289)) (toRow (V c main_v292)) (toRow (V c main_v295))

/-! ## The body's values at an index -/

/-- One entry of a tile after normalising, scaling, shifting and clamping below at zero. -/
theorem pay1_apply (x0 : Vec Ideal S5000x128 .f32) (xv xm xg xb : Vec Ideal S1x128 .f32) (r : Fin 5000) (j : Fin 128) :
    k15_pay1 x0 xv xm xg xb (ix2 r j)
      = max ((x0 (ix2 r j) - xm (ix2 (0 : Fin 1) j)) * Ideal.rsqrt (xv (ix2 (0 : Fin 1) j) + cEps) * xg (ix2 (0 : Fin 1) j)
          + xb (ix2 (0 : Fin 1) j)) 0 := by
  unfold k15_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  simp only [Ideal.ofBits_def, Ideal.ofBits_zero_f32]
  rfl

/-- The index a sum over rows reads at row `k` of column `j`. -/
theorem lift_row (h : S5000x128.Reduces [0] S128) (j : Fin 128) (k : Fin 5000) :
    h.lift (ix1 j) k = ix2 k j :=
  funext fun a => Fin.ext (by match a with | ⟨0, _⟩ => rfl | ⟨1, _⟩ => rfl)

/-- A column sum over a tile's rows, as the body stores it in a block of one row. -/
theorem colsum_apply (z : FVec Ideal S5000x128 .f32) (h : S5000x128.Reduces [0] S128) (hφ : FKind.Formats .f32)
    (hacc : (0x00000000#32 : BitVec 32) = FKind.add.neutral .f32 hφ) (h1 : S128.ShapeCasts S1x128)
    (h2 : S1x128.ShapeCasts S1x1x128) (u v : Fin 1) (j : Fin 128) :
    shapeCast S1x1x128 (shapeCast S1x128 (multiReduction .add [0] S128 z 0x00000000#32 h hφ hacc) h1) h2 (ix3 u v j)
      = ∑ r : Fin 5000, z (ix2 r j) := by
  refine (shapeCast_ab_1ab_apply _ h2 u v j).trans ?_
  refine (shapeCast_a_1a_apply _ h1 v j).trans ?_
  refine (Ideal.multiReduction_add_single z 0x00000000#32 h hφ hacc (ix1 j)).trans ?_
  show ∑ k : Fin 5000, z (h.lift (ix1 j) k) = _
  exact Finset.sum_congr rfl fun k _ => congrArg z (lift_row h j k)

/-- The first output block at an index: the column sum of the clamped tile. -/
theorem pay2_apply (x0 : Vec Ideal S5000x128 .f32) (xv xm xg xb : Vec Ideal S1x128 .f32) (u v : Fin 1) (j : Fin 128) :
    k15_pay2 x0 xv xm xg xb (ix3 u v j) = ∑ r : Fin 5000, k15_pay1 x0 xv xm xg xb (ix2 r j) := by
  unfold k15_pay2
  exact colsum_apply _ _ _ _ _ _ u v j

/-- The second output block at an index: the column sum of the clamped tile's squares. -/
theorem pay3_apply (x0 : Vec Ideal S5000x128 .f32) (xv xm xg xb : Vec Ideal S1x128 .f32) (u v : Fin 1) (j : Fin 128) :
    k15_pay3 x0 xv xm xg xb (ix3 u v j)
      = ∑ r : Fin 5000, k15_pay1 x0 xv xm xg xb (ix2 r j) * k15_pay1 x0 xv xm xg xb (ix2 r j) := by
  unfold k15_pay3
  exact colsum_apply _ _ _ _ _ _ u v j

/-- The same at any index of the block: only the column matters. -/
theorem pay2_at (x0 : Vec Ideal S5000x128 .f32) (xv xm xg xb : Vec Ideal S1x128 .f32) (i : S1x1x128.Idx) :
    k15_pay2 x0 xv xm xg xb i = ∑ r : Fin 5000, k15_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay2_apply x0 xv xm xg xb u v j

theorem pay3_at (x0 : Vec Ideal S5000x128 .f32) (xv xm xg xb : Vec Ideal S1x128 .f32) (i : S1x1x128.Idx) :
    k15_pay3 x0 xv xm xg xb i
      = ∑ r : Fin 5000, k15_pay1 x0 xv xm xg xb (ix2 r (i 2 : Fin 128)) * k15_pay1 x0 xv xm xg xb (ix2 r (i 2 : Fin 128)) := by
  obtain ⟨u, v, j, rfl⟩ : ∃ (u : Fin 1) (v : Fin 1) (j : Fin 128), i = ix3 u v j := ⟨i 0, i 1, i 2, eq_ix3 i⟩
  exact pay3_apply x0 xv xm xg xb u v j

/-! ## Where each block sits in its array -/

/-- The block indices over the grid: tile `t` of the rows for the matrix and for the two outputs, the one block of
    each row of statistics and parameters. -/
theorem idx_facts : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 3) = t.val ∧ win15_5.index t (1 : Fin 3) = 0 ∧ win15_5.index t (2 : Fin 3) = 0
    ∧ win15_6.index t (0 : Fin 3) = t.val ∧ win15_6.index t (1 : Fin 3) = 0 ∧ win15_6.index t (2 : Fin 3) = 0 :=
  (by decide +kernel : ∀ t : Fin grid15.N, _)

/-- Row `r` of tile `t` of the matrix block is row `5000 t + r` of the matrix. -/
theorem tile_read (c : Dev nD) (t : Fin cfg15.N) (r : Fin 5000) (j : Fin 128) (n : Fin 100000)
    (hn : n.val = t.val * 5000 + r.val) :
    (iblk15 V c 0 t : Vec Ideal S5000x128 .f32) (ix2 r j) = toMat (V c main_v279_0) n j := by
  obtain ⟨e0, e1, -⟩ := idx_facts t
  show V c main_v279_0 (((cfg15.win 0).blk t).view.emb (ix2 r j)) = V c main_v279_0 (ix2 n j)
  congr 1
  funext a
  apply Fin.ext
  match a with
  | ⟨0, _⟩ => show win15_0.index t (0 : Fin 2) * 5000 + 1 * r.val = n.val; omega
  | ⟨1, _⟩ => show win15_0.index t (1 : Fin 2) * 128 + 1 * j.val = j.val; omega

/-- The block of the mean row is the row. -/
theorem mean_read (c : Dev nD) (t : Fin cfg15.N) (j : Fin 128) :
    (iblk15 V c 1 t : Vec Ideal S1x128 .f32) (ix2 (0 : Fin 1) j) = toRow (V c main_v283) j := by
  obtain ⟨-, -, e0, e1, -⟩ := idx_facts t
  show V c main_v283 (((cfg15.win 1).blk t).view.emb (ix2 (0 : Fin 1) j)) = V c main_v283 (ix2 (0 : Fin 1) j)
  congr 1
  funext a
  apply Fin.ext
  match a with
  | ⟨0, _⟩ => show win15_1.index t (0 : Fin 2) * 1 + 1 * 0 = 0; omega
  | ⟨1, _⟩ => show win15_1.index t (1 : Fin 2) * 128 + 1 * j.val = j.val; omega

/-- The block of the variance row is the row. -/
theorem var_read (c : Dev nD) (t : Fin cfg15.N) (j : Fin 128) :
    (iblk15 V c 2 t : Vec Ideal S1x128 .f32) (ix2 (0 : Fin 1) j) = toRow (V c main_v289) j := by
  obtain ⟨-, -, -, -, e0, e1, -⟩ := idx_facts t
  show V c main_v289 (((cfg15.win 2).blk t).view.emb (ix2 (0 : Fin 1) j)) = V c main_v289 (ix2 (0 : Fin 1) j)
  congr 1
  funext a
  apply Fin.ext
  match a with
  | ⟨0, _⟩ => show win15_2.index t (0 : Fin 2) * 1 + 1 * 0 = 0; omega
  | ⟨1, _⟩ => show win15_2.index t (1 : Fin 2) * 128 + 1 * j.val = j.val; omega

/-- The block of the scale row is the row. -/
theorem scale_read (c : Dev nD) (t : Fin cfg15.N) (j : Fin 128) :
    (iblk15 V c 3 t : Vec Ideal S1x128 .f32) (ix2 (0 : Fin 1) j) = toRow (V c main_v292) j := by
  obtain ⟨-, -, -, -, -, -, e0, e1, -⟩ := idx_facts t
  show V c main_v292 (((cfg15.win 3).blk t).view.emb (ix2 (0 : Fin 1) j)) = V c main_v292 (ix2 (0 : Fin 1) j)
  congr 1
  funext a
  apply Fin.ext
  match a with
  | ⟨0, _⟩ => show win15_3.index t (0 : Fin 2) * 1 + 1 * 0 = 0; omega
  | ⟨1, _⟩ => show win15_3.index t (1 : Fin 2) * 128 + 1 * j.val = j.val; omega

/-- The block of the shift row is the row. -/
theorem shift_read (c : Dev nD) (t : Fin cfg15.N) (j : Fin 128) :
    (iblk15 V c 4 t : Vec Ideal S1x128 .f32) (ix2 (0 : Fin 1) j) = toRow (V c main_v295) j := by
  obtain ⟨-, -, -, -, -, -, -, -, e0, e1, -⟩ := idx_facts t
  show V c main_v295 (((cfg15.win 4).blk t).view.emb (ix2 (0 : Fin 1) j)) = V c main_v295 (ix2 (0 : Fin 1) j)
  congr 1
  funext a
  apply Fin.ext
  match a with
  | ⟨0, _⟩ => show win15_4.index t (0 : Fin 2) * 1 + 1 * 0 = 0; omega
  | ⟨1, _⟩ => show win15_4.index t (1 : Fin 2) * 128 + 1 * j.val = j.val; omega

/-- Entry `(r, j)` of what the body computes from tile `t`'s blocks is entry `(5000 t + r, j)` of the whole clamped
    matrix. -/
theorem z_block (c : Dev nD) (t : Fin cfg15.N) (r : Fin 5000) (j : Fin 128) (n : Fin 100000) (j' : Fin 128)
    (hn : n.val = t.val * 5000 + r.val) (hj : j'.val = j.val) :
    k15_pay1 (iblk15 V c 0 t) (iblk15 V c 2 t) (iblk15 V c 1 t) (iblk15 V c 3 t) (iblk15 V c 4 t) (ix2 r j) = Z2 V c n j' := by
  rw [show j' = j from Fin.ext hj]
  refine (pay1_apply _ _ _ _ _ r j).trans ?_
  rw [tile_read V c t r j n hn, mean_read V c t j, var_read V c t j, scale_read V c t j, shift_read V c t j]
  rfl

/-- The same for the squares. -/
theorem zsq_block (c : Dev nD) (t : Fin cfg15.N) (r : Fin 5000) (j : Fin 128) (n : Fin 100000) (j' : Fin 128)
    (hn : n.val = t.val * 5000 + r.val) (hj : j'.val = j.val) :
    k15_pay1 (iblk15 V c 0 t) (iblk15 V c 2 t) (iblk15 V c 1 t) (iblk15 V c 3 t) (iblk15 V c 4 t) (ix2 r j)
        * k15_pay1 (iblk15 V c 0 t) (iblk15 V c 2 t) (iblk15 V c 1 t) (iblk15 V c 3 t) (iblk15 V c 4 t) (ix2 r j)
      = Cert.Spec.sq (Z2 V c) n j' := by
  rw [z_block V c t r j n j' hn hj]
  rfl

/-! ## What each tile writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Tile `t` writes back its block of the column sums of the clamped matrix. -/
theorem sum_flushed (c : Dev nD) (t : Fin cfg15.N) :
    (dat15 V c).flushed 5 t
      = ((cfg15.win 5).blk t).view.read (Elt Ideal) (fun i : S20x1x128.Idx => tileSum (Z2 V c) (i 0) (i 2)) := by
  show (cfg15.win 5).cut (grid15.coords t) ((dat15 V c).after 5 t) = _
  rw [after15_5]
  unfold out15_5
  rw [View.canon_unit_zero hz3]
  simp only [View.ld_unit_zero (S := S5000x128) hz2, View.ld_unit_zero (S := S1x128) hz2]
  obtain ⟨-, -, -, -, -, -, -, -, -, -, e0, e1, e2, -⟩ := idx_facts t
  funext y
  refine (pay2_at _ _ _ _ _ _).trans ?_
  have h0 : (y 0).val < 1 := (y 0).isLt
  show _ = ∑ r : Fin 5000, Z2 V c (tileRow _ r) _
  refine Finset.sum_congr rfl fun r _ => z_block V c t r _ _ _ ?_ ?_
  · show (win15_5.index t (0 : Fin 3) * 1 + 1 * (y 0).val) * 5000 + r.val = t.val * 5000 + r.val
    omega
  · show win15_5.index t (2 : Fin 3) * 128 + 1 * (y 2).val = (y 2).val
    omega

/-- Tile `t` writes back its block of the column sums of the clamped matrix's squares. -/
theorem sumsq_flushed (c : Dev nD) (t : Fin cfg15.N) :
    (dat15 V c).flushed 6 t
      = ((cfg15.win 6).blk t).view.read (Elt Ideal) (fun i : S20x1x128.Idx => tileSum (Cert.Spec.sq (Z2 V c)) (i 0) (i 2)) := by
  show (cfg15.win 6).cut (grid15.coords t) ((dat15 V c).after 6 t) = _
  rw [after15_6]
  unfold out15_6
  rw [View.canon_unit_zero hz3]
  simp only [View.ld_unit_zero (S := S5000x128) hz2, View.ld_unit_zero (S := S1x128) hz2]
  obtain ⟨-, -, -, -, -, -, -, -, -, -, -, -, -, e0, e1, e2⟩ := idx_facts t
  funext y
  refine (pay3_at _ _ _ _ _ _).trans ?_
  have h0 : (y 0).val < 1 := (y 0).isLt
  show _ = ∑ r : Fin 5000, Cert.Spec.sq (Z2 V c) (tileRow _ r) _
  refine Finset.sum_congr rfl fun r _ => zsq_block V c t r _ _ _ ?_ ?_
  · show (win15_6.index t (0 : Fin 3) * 1 + 1 * (y 0).val) * 5000 + r.val = t.val * 5000 + r.val
    omega
  · show win15_6.index t (2 : Fin 3) * 128 + 1 * (y 2).val = (y 2).val
    omega

/-! ## The tiles' blocks fill the arrays -/

/-- An index of the first output array is in tile `t`'s block iff each coordinate is in the block's range. -/
theorem mem_blk5 (t : Fin cfg15.N) (i : S20x1x128.Idx) :
    i ∈ ((cfg15.win 5).blk t).view.set ↔ ∀ a : Fin 3, win15_5.index t a * S1x1x128.size a ≤ (i a).val
      ∧ (i a).val < win15_5.index t a * S1x1x128.size a + S1x1x128.size a := by
  show i ∈ ((View.whole main_v296_0).slice (win15_5.rect t)).set ↔ _
  rw [View.set_slice_whole, Rect.mem_set_unit]
  exact Iff.rfl

theorem mem_blk6 (t : Fin cfg15.N) (i : S20x1x128.Idx) :
    i ∈ ((cfg15.win 6).blk t).view.set ↔ ∀ a : Fin 3, win15_6.index t a * S1x1x128.size a ≤ (i a).val
      ∧ (i a).val < win15_6.index t a * S1x1x128.size a + S1x1x128.size a := by
  show i ∈ ((View.whole main_v296_1).slice (win15_6.rect t)).set ↔ _
  rw [View.set_slice_whole, Rect.mem_set_unit]
  exact Iff.rfl

/-- Row `n` of the first output array is tile `n`'s block. -/
theorem cover5 (i : S20x1x128.Idx) : ∃ t : Fin cfg15.N, (cfg15.win 5).flush t = true ∧ i ∈ ((cfg15.win 5).blk t).view.set := by
  have h0 : (i 0).val < 20 := (i 0).isLt
  have h1 : (i 1).val < 1 := (i 1).isLt
  have h2 : (i 2).val < 128 := (i 2).isLt
  have hN : grid15.N = 20 := by decide
  obtain ⟨T, hT⟩ : ∃ T : Fin cfg15.N, T.val = (i 0).val :=
    ⟨⟨(i 0).val, by rw [show cfg15.N = 20 from hN]; exact h0⟩, rfl⟩
  refine ⟨T, flush15_5 T, ?_⟩
  rw [mem_blk5]
  obtain ⟨-, -, -, -, -, -, -, -, -, -, e0, e1, e2, -⟩ := idx_facts T
  intro a
  match a with
  | ⟨0, _⟩ =>
    show win15_5.index T (0 : Fin 3) * 1 ≤ (i 0).val ∧ (i 0).val < win15_5.index T (0 : Fin 3) * 1 + 1
    omega
  | ⟨1, _⟩ =>
    show win15_5.index T (1 : Fin 3) * 1 ≤ (i 1).val ∧ (i 1).val < win15_5.index T (1 : Fin 3) * 1 + 1
    omega
  | ⟨2, _⟩ =>
    show win15_5.index T (2 : Fin 3) * 128 ≤ (i 2).val ∧ (i 2).val < win15_5.index T (2 : Fin 3) * 128 + 128
    omega

/-- Row `n` of the second output array is tile `n`'s block. -/
theorem cover6 (i : S20x1x128.Idx) : ∃ t : Fin cfg15.N, (cfg15.win 6).flush t = true ∧ i ∈ ((cfg15.win 6).blk t).view.set := by
  have h0 : (i 0).val < 20 := (i 0).isLt
  have h1 : (i 1).val < 1 := (i 1).isLt
  have h2 : (i 2).val < 128 := (i 2).isLt
  have hN : grid15.N = 20 := by decide
  obtain ⟨T, hT⟩ : ∃ T : Fin cfg15.N, T.val = (i 0).val :=
    ⟨⟨(i 0).val, by rw [show cfg15.N = 20 from hN]; exact h0⟩, rfl⟩
  refine ⟨T, flush15_6 T, ?_⟩
  rw [mem_blk6]
  obtain ⟨-, -, -, -, -, -, -, -, -, -, -, -, -, e0, e1, e2⟩ := idx_facts T
  intro a
  match a with
  | ⟨0, _⟩ =>
    show win15_6.index T (0 : Fin 3) * 1 ≤ (i 0).val ∧ (i 0).val < win15_6.index T (0 : Fin 3) * 1 + 1
    omega
  | ⟨1, _⟩ =>
    show win15_6.index T (1 : Fin 3) * 1 ≤ (i 1).val ∧ (i 1).val < win15_6.index T (1 : Fin 3) * 1 + 1
    omega
  | ⟨2, _⟩ =>
    show win15_6.index T (2 : Fin 3) * 128 ≤ (i 2).val ∧ (i 2).val < win15_6.index T (2 : Fin 3) * 128 + 128
    omega

/-! ## The two arrays after the 20 tiles -/

/-- The first output array: per tile and column, the sum over the tile's rows of the clamped matrix. -/
theorem sum_eq (c : Dev nD) :
    (dat15 V c).arrAt 5 cfg15.N = fun i : S20x1x128.Idx => tileSum (Z2 V c) (i 0) (i 2) :=
  (dat15 V c).arrAt_eq_of_cover 5 (fun i : S20x1x128.Idx => tileSum (Z2 V c) (i 0) (i 2))
    (fun t _ => sum_flushed V c t) cover5

/-- The second output array: per tile and column, the sum over the tile's rows of the clamped matrix's squares. -/
theorem sumsq_eq (c : Dev nD) :
    (dat15 V c).arrAt 6 cfg15.N = fun i : S20x1x128.Idx => tileSum (Cert.Spec.sq (Z2 V c)) (i 0) (i 2) :=
  (dat15 V c).arrAt_eq_of_cover 6 (fun i : S20x1x128.Idx => tileSum (Cert.Spec.sq (Z2 V c)) (i 0) (i 2))
    (fun t _ => sumsq_flushed V c t) cover6

end Cert.KReg15

end
-- ==== Proof.KReg16.lean ====
/-
  The value of a layer's fourth stage on one core. The stage walks the 100000 nodes as 20 tiles of 5000 rows; row r of
  tile t is node 5000 t + r. After the 20 tiles

  * its first result is the whole matrix normalised, scaled, shifted and clamped at zero TWICE in a row, each time by a
    given row of column means, of column variances, of scales and of shifts: entry (n, j) depends on the input's entry
    (n, j) and on the eight rows at column j, and on nothing else;
  * its second result holds, tile by tile, the tile's share of the pooling per graph: entry (g, d) of tile t is the sum,
    over the tile's 5000 rows, of (one if the row's graph word is g, else zero) times the first result at (row, d).

  First the tile's two stored values at an index, over any contents of the tile's blocks; then each block as the part of
  its array the tile reads; then what a grid point writes back as a block of ONE function of the arrays; then the cover:
  node n is in tile n / 5000, tile t of the pooling is written by point t.
-/
import proofs.«412161_j3753801416792_2_alg».proof.Proof.KIFrameR16
import proofs.«412161_j3753801416792_2_alg».proof.Proof.Conv
import Idealize.ShloMosaic.Lib.Pipeline.Value
import Idealize.ShloMosaic.Lib.ValueLayout
import Idealize.ShloMosaic.PureOps.Ideal.Laws

set_option maxRecDepth 16384

noncomputable section

namespace Cert.KReg16

open Cert.KernelIdeal Cert.KernelIdeal.Gen Cert.Spec Cert.Conv Idealize.ShloMosaic Idealize.ShloMosaic.ValueIdx Idealize.ShloMosaic.TcCoe Idealize.ShloMosaic.Pipeline

/-! ## Words and rows at an index -/

/-- The reciprocal square root of a vector, at an index, is that of the entry there. -/
theorem rsqrt_apply {s : Shape} {φ : FTy} (a : FVec Ideal s φ) (i : s.Idx) : rsqrt a i = Ideal.rsqrt (a i) := rfl

/-- A literal word is the extended real it spells. -/
theorem scalar_ofBits (φ : FTy) (b : BitVec φ.bits) : Scalar.ofBits (F := Ideal) φ b = Ideal.ofBits φ b := rfl

/-- A row of 128 laid along 5000 rows reads its one row. -/
theorem row_at (v : FVec Ideal S1x128 .f32) (r : Fin 5000) (j : Fin 128) :
    broadcastTo S5000x128 v broadcasts_S1x128_S5000x128 (ix2 r j) = v (ix2 (0 : Fin 1) j) :=
  broadcastTo_1b_ab_apply v broadcasts_S1x128_S5000x128 r j

/-- The first normalise-scale-shift-clamp and the second one up to its shift, at a row and a column. -/
theorem pay3_apply (x0 : Vec Ideal S5000x128 .f32) (v2 v7 v13 v17 v23 v28 v34 : Vec Ideal S1x128 .f32) (r : Fin 5000) (j : Fin 128) :
    k16_pay3 x0 v2 v7 v13 v17 v23 v28 v34 (ix2 r j)
      = (max ((x0 (ix2 r j) - v7 (ix2 (0 : Fin 1) j)) * Ideal.rsqrt (v2 (ix2 (0 : Fin 1) j) + cEps) * v13 (ix2 (0 : Fin 1) j)
            + v17 (ix2 (0 : Fin 1) j)) 0 - v28 (ix2 (0 : Fin 1) j))
          * Ideal.rsqrt (v23 (ix2 (0 : Fin 1) j) + cEps) * v34 (ix2 (0 : Fin 1) j) := by
  unfold k16_pay3 cEps
  simp only [shapeCast_self, mulf_apply, addf_apply, subf_apply, maximumf_apply, broadcast_apply, row_at, rsqrt_apply,
    scalar_ofBits, Ideal.ofBits_zero_f32]

/-- The second step's shift and clamp. -/
theorem pay1_apply (v37 : FVec Ideal S5000x128 .f32) (v38 : Vec Ideal S1x128 .f32) (r : Fin 5000) (j : Fin 128) :
    k16_pay1 v37 v38 (ix2 r j) = max (v37 (ix2 r j) + v38 (ix2 (0 : Fin 1) j)) 0 := by
  unfold k16_pay1
  simp only [shapeCast_self, addf_apply, maximumf_apply, broadcast_apply, row_at, scalar_ofBits, Ideal.ofBits_zero_f32]

/-! ## The pooling product -/

/-- At result entry (g, d) and position q of the sum, the left factor is read at row g … -/
theorem lhs_pool_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide),
    dif_pos (show (0 : Fin S64x5000.rank) ∈ dot_S64x5000_S5000x128_S64x128_1_0_0_1_n_n.lhsNonContracting by decide)]
  rfl
/-- … and column q; -/
theorem lhs_pool_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
/-- the right factor at row q … -/
theorem rhs_pool_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
/-- … and column d. -/
theorem rhs_pool_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide),
    dif_pos (show (1 : Fin S5000x128.rank) ∈ dot_S64x5000_S5000x128_S64x128_1_0_0_1_n_n.rhsNonContracting by decide)]
  rfl

/-- A 64×5000 matrix times a 5000×128 matrix into zeros, at graph g and column d: the sum over the 5000 rows. -/
theorem pool_matmul_apply (a : FVec Ideal S64x5000 .bf16) (b : FVec Ideal S5000x128 .bf16) (g : Fin 64) (d : Fin 128) :
    matmul dot_S64x5000_S5000x128_S64x128_1_0_0_1_n_n none a b (constant (F := Ideal) S64x128 .f32 0x00000000#32) (ix2 g d)
      = ∑ r : Fin 5000, a (ix2 g r) * b (ix2 r d) := by
  show FloatOps.matmul dot_S64x5000_S5000x128_S64x128_1_0_0_1_n_n none a b (constant (F := Ideal) S64x128 .f32 0x00000000#32) (ix2 g d) = _
  rw [Ideal.matmul_constant_zero_apply, ← Equiv.sum_comp (contrEquiv1 dot_S64x5000_S5000x128_S64x128_1_0_0_1_n_n 5000 rfl rfl).symm]
  refine Finset.sum_congr rfl fun k _ => ?_
  have hk := contrEquiv1_symm_val dot_S64x5000_S5000x128_S64x128_1_0_0_1_n_n 5000 rfl rfl k
  have el : dot_S64x5000_S5000x128_S64x128_1_0_0_1_n_n.lhsIdx (ix2 g d) ((contrEquiv1 dot_S64x5000_S5000x128_S64x128_1_0_0_1_n_n 5000 rfl rfl).symm k) = ix2 g k := funext fun ax => Fin.ext (by
    match ax with
    | ⟨0, _⟩ => exact lhs_pool_0 _ _
    | ⟨1, _⟩ => exact (lhs_pool_1 _ _).trans hk)
  have er : dot_S64x5000_S5000x128_S64x128_1_0_0_1_n_n.rhsIdx (ix2 g d) ((contrEquiv1 dot_S64x5000_S5000x128_S64x128_1_0_0_1_n_n 5000 rfl rfl).symm k) = ix2 k d := funext fun ax => Fin.ext (by
    match ax with
    | ⟨0, _⟩ => exact (rhs_pool_0 _ _).trans hk
    | ⟨1, _⟩ => exact rhs_pool_1 _ _)
  rw [el, er]

/-- A column of 5000 words laid along 64 columns reads its row's word. -/
theorem col_at (v : IVec S5000x1 32) (r : Fin 5000) (g : Fin 64) :
    broadcastTo S5000x64 v broadcasts_S5000x1_S5000x64 (ix2 r g) = v (ix2 r (0 : Fin 1)) := by
  refine broadcastTo_apply v broadcasts_S5000x1_S5000x64 (ix2 r g) (ix2 r (0 : Fin 1)) fun ax => ?_
  match ax with
  | ⟨0, _⟩ => rfl
  | ⟨1, _⟩ => rfl

/-- A comparison's bit widened to a word and converted: one where the two words are equal, zero elsewhere. -/
theorem oneHot_word (w : BitVec 32) (g : Fin 64) :
    (FloatOps.sitofp (F := Ideal) .f32 ((IntOp.cmpi .eq w (BitVec.ofNat 32 g.val)).setWidth 32) : EReal) = oneHot w g := by
  unfold oneHot
  by_cases h : w = BitVec.ofNat 32 g.val
  · rw [if_pos h, IntOp.cmpi_eq.mpr h]
    show ((((1#1 : BitVec 1).setWidth 32).toInt : ℝ) : EReal) = 1
    rw [show ((1#1 : BitVec 1).setWidth 32).toInt = 1 by decide]
    simp only [Int.cast_one, EReal.coe_one]
  · rw [if_neg h, eq_zero_of_ne_one (fun e => h (IntOp.cmpi_eq.mp e))]
    show ((((0#1 : BitVec 1).setWidth 32).toInt : ℝ) : EReal) = 0
    rw [show ((0#1 : BitVec 1).setWidth 32).toInt = 0 by decide]
    simp only [Int.cast_zero, EReal.coe_zero]

/-- The tile's share of the pooling at graph g and column d: the one-hot matrix of the tile's words times the tile. -/
theorem pay2_apply (v37 : FVec Ideal S5000x128 .f32) (v38 : Vec Ideal S1x128 .f32) (v46 : Vec Ideal S5000x1 .i32)
    (u : Fin 1) (g : Fin 64) (d : Fin 128) :
    k16_pay2 v37 v38 v46 (ix3 u g d)
      = ∑ r : Fin 5000, oneHot (v46 (ix2 r (0 : Fin 1))) g * k16_pay1 v37 v38 (ix2 r d) := by
  unfold k16_pay2
  simp only [shapeCast_self]
  refine (shapeCast_ab_1ab_apply _ shapeCasts_S64x128_S1x64x128 u g d).trans ?_
  refine (pool_matmul_apply _ _ g d).trans ?_
  refine Finset.sum_congr rfl fun r _ => ?_
  refine congrArg₂ (fun a b : EReal => a * b) ?_ rfl
  refine (transpose_ix2_apply _ transposes_S5000x64_p1_0_S64x5000 g r).trans ?_
  show FloatOps.sitofp (F := Ideal) .f32 ((IntOp.cmpi .eq (broadcastTo S5000x64 v46 broadcasts_S5000x1_S5000x64 (ix2 r g))
    (iota .tc S5000x64 32 [1] iota_S5000x64_d1_w32 (ix2 r g))).setWidth 32) = _
  rw [col_at, iota_single_apply]
  exact oneHot_word _ g

/-! ## The arrays as the stage finds them -/

variable (V : (c : Dev nD) → (b : Ref sig .tc) → Buf (Elt Ideal) ((c : Thread nD τ).loc b))

/-- The stage's first result: the input matrix through the two normalise-scale-shift-clamp steps. -/
def H (c : Dev nD) : Mat 100000 128 :=
  bnRelu (bnRelu (toMat (V c main_v279_0)) (toRow (V c main_v283)) (toRow (V c main_v289)) (toRow (V c main_v292)) (toRow (V c main_v295)))
    (toRow (V c main_v300)) (toRow (V c main_v306)) (toRow (V c main_v309)) (toRow (V c main_v312))

/-- A grid point as a tile number: the grid has 20 points. -/
abbrev tileOf (t : Fin cfg16.N) : Fin 20 := ⟨t.val, Nat.lt_of_lt_of_eq t.isLt (by decide : grid16.N = 20)⟩

/-! ## What a tile stores, from what its blocks hold -/

/-- Row r, column j of what tile n stores into the first result is the twice-stepped matrix at node 5000 n + r. -/
theorem stored_of_reads (c : Dev nD) (n : Fin 20)
    (x0 : Vec Ideal S5000x128 .f32) (x1 x2 x3 x4 x5 x6 x7 x8 : Vec Ideal S1x128 .f32)
    (h0 : ∀ (r : Fin 5000) (j : Fin 128), x0 (ix2 r j) = toMat (V c main_v279_0) (tileRow n r) j)
    (h1 : ∀ j : Fin 128, x1 (ix2 (0 : Fin 1) j) = toRow (V c main_v283) j)
    (h2 : ∀ j : Fin 128, x2 (ix2 (0 : Fin 1) j) = toRow (V c main_v289) j)
    (h3 : ∀ j : Fin 128, x3 (ix2 (0 : Fin 1) j) = toRow (V c main_v292) j)
    (h4 : ∀ j : Fin 128, x4 (ix2 (0 : Fin 1) j) = toRow (V c main_v295) j)
    (h5 : ∀ j : Fin 128, x5 (ix2 (0 : Fin 1) j) = toRow (V c main_v300) j)
    (h6 : ∀ j : Fin 128, x6 (ix2 (0 : Fin 1) j) = toRow (V c main_v306) j)
    (h7 : ∀ j : Fin 128, x7 (ix2 (0 : Fin 1) j) = toRow (V c main_v309) j)
    (h8 : ∀ j : Fin 128, x8 (ix2 (0 : Fin 1) j) = toRow (V c main_v312) j)
    (r : Fin 5000) (j : Fin 128) :
    k16_pay1 (k16_pay3 x0 x2 x1 x3 x4 x6 x5 x7) x8 (ix2 r j) = H V c (tileRow n r) j := by
  rw [pay1_apply, pay3_apply, h0, h1, h2, h3, h4, h5, h6, h7, h8]
  rfl

/-- Entry (g, d) of what tile n stores into the second result is the tile's share of the pooling. -/
theorem pooled_of_reads (c : Dev nD) (n : Fin 20)
    (x0 : Vec Ideal S5000x128 .f32) (x1 x2 x3 x4 x5 x6 x7 x8 : Vec Ideal S1x128 .f32) (x9 : Vec Ideal S5000x1 .i32)
    (h0 : ∀ (r : Fin 5000) (j : Fin 128), x0 (ix2 r j) = toMat (V c main_v279_0) (tileRow n r) j)
    (h1 : ∀ j : Fin 128, x1 (ix2 (0 : Fin 1) j) = toRow (V c main_v283) j)
    (h2 : ∀ j : Fin 128, x2 (ix2 (0 : Fin 1) j) = toRow (V c main_v289) j)
    (h3 : ∀ j : Fin 128, x3 (ix2 (0 : Fin 1) j) = toRow (V c main_v292) j)
    (h4 : ∀ j : Fin 128, x4 (ix2 (0 : Fin 1) j) = toRow (V c main_v295) j)
    (h5 : ∀ j : Fin 128, x5 (ix2 (0 : Fin 1) j) = toRow (V c main_v300) j)
    (h6 : ∀ j : Fin 128, x6 (ix2 (0 : Fin 1) j) = toRow (V c main_v306) j)
    (h7 : ∀ j : Fin 128, x7 (ix2 (0 : Fin 1) j) = toRow (V c main_v309) j)
    (h8 : ∀ j : Fin 128, x8 (ix2 (0 : Fin 1) j) = toRow (V c main_v312) j)
    (h9 : ∀ r : Fin 5000, x9 (ix2 r (0 : Fin 1)) = toCol (V c main_v0) (tileRow n r))
    (u : Fin 1) (g : Fin 64) (d : Fin 128) :
    k16_pay2 (k16_pay3 x0 x2 x1 x3 x4 x6 x5 x7) x8 x9 (ix3 u g d) = poolTile (H V c) (toCol (V c main_v0)) n g d := by
  rw [pay2_apply]
  show _ = ∑ r : Fin 5000, oneHot (toCol (V c main_v0) (tileRow n r)) g * H V c (tileRow n r) d
  refine Finset.sum_congr rfl fun r _ => ?_
  rw [h9, stored_of_reads V c n x0 x1 x2 x3 x4 x5 x6 x7 x8 h0 h1 h2 h3 h4 h5 h6 h7 h8 r d]

/-! ## The printed index maps, decided over the 20 points -/

/-- The zero offsets of a whole-block access, spelt as a function. -/
theorem zero2 : (![0, 0] : Fin 2 → Nat) = fun _ => 0 := funext fun a => by fin_cases a <;> rfl
theorem zero3 : (![0, 0, 0] : Fin 3 → Nat) = fun _ => 0 := funext fun a => by fin_cases a <;> rfl

/-- The matrix's block is tile t's rows. -/
theorem index_matrix : ∀ t : Fin cfg16.N, win16_0.index t (0 : Fin 2) = t.val ∧ win16_0.index t (1 : Fin 2) = 0 :=
  (by decide +kernel : ∀ t : Fin grid16.N, _)
/-- The block of the first step's column means is the whole row at every point. -/
theorem index_mean_a : ∀ t : Fin cfg16.N, win16_1.index t (0 : Fin 2) = 0 ∧ win16_1.index t (1 : Fin 2) = 0 :=
  (by decide +kernel : ∀ t : Fin grid16.N, _)
/-- The block of the first step's column variances is the whole row at every point. -/
theorem index_var_a : ∀ t : Fin cfg16.N, win16_2.index t (0 : Fin 2) = 0 ∧ win16_2.index t (1 : Fin 2) = 0 :=
  (by decide +kernel : ∀ t : Fin grid16.N, _)
/-- The block of the first step's scales is the whole row at every point. -/
theorem index_scale_a : ∀ t : Fin cfg16.N, win16_3.index t (0 : Fin 2) = 0 ∧ win16_3.index t (1 : Fin 2) = 0 :=
  (by decide +kernel : ∀ t : Fin grid16.N, _)
/-- The block of the first step's shifts is the whole row at every point. -/
theorem index_shift_a : ∀ t : Fin cfg16.N, win16_4.index t (0 : Fin 2) = 0 ∧ win16_4.index t (1 : Fin 2) = 0 :=
  (by decide +kernel : ∀ t : Fin grid16.N, _)
/-- The block of the second step's column means is the whole row at every point. -/
theorem index_mean_b : ∀ t : Fin cfg16.N, win16_5.index t (0 : Fin 2) = 0 ∧ win16_5.index t (1 : Fin 2) = 0 :=
  (by decide +kernel : ∀ t : Fin grid16.N, _)
/-- The block of the second step's column variances is the whole row at every point. -/
theorem index_var_b : ∀ t : Fin cfg16.N, win16_6.index t (0 : Fin 2) = 0 ∧ win16_6.index t (1 : Fin 2) = 0 :=
  (by decide +kernel : ∀ t : Fin grid16.N, _)
/-- The block of the second step's scales is the whole row at every point. -/
theorem index_scale_b : ∀ t : Fin cfg16.N, win16_7.index t (0 : Fin 2) = 0 ∧ win16_7.index t (1 : Fin 2) = 0 :=
  (by decide +kernel : ∀ t : Fin grid16.N, _)
/-- The block of the second step's shifts is the whole row at every point. -/
theorem index_shift_b : ∀ t : Fin cfg16.N, win16_8.index t (0 : Fin 2) = 0 ∧ win16_8.index t (1 : Fin 2) = 0 :=
  (by decide +kernel : ∀ t : Fin grid16.N, _)
/-- The graph words' block is tile t's rows. -/
theorem index_words : ∀ t : Fin cfg16.N, win16_9.index t (0 : Fin 2) = t.val ∧ win16_9.index t (1 : Fin 2) = 0 :=
  (by decide +kernel : ∀ t : Fin grid16.N, _)
/-- The first result's block is tile t's rows. -/
theorem index_stored : ∀ t : Fin cfg16.N, win16_10.index t (0 : Fin 2) = t.val ∧ win16_10.index t (1 : Fin 2) = 0 :=
  (by decide +kernel : ∀ t : Fin grid16.N, _)
/-- The second result's block is its tile t. -/
theorem index_pooled : ∀ t : Fin cfg16.N, win16_11.index t (0 : Fin 3) = t.val ∧ win16_11.index t (1 : Fin 3) = 0 ∧ win16_11.index t (2 : Fin 3) = 0 :=
  (by decide +kernel : ∀ t : Fin grid16.N, _)

/-! ## Each block as the part of its array the tile reads -/

/-- Row r of the matrix's block at point t is node 5000 t + r of the array. -/
theorem read_matrix (c : Dev nD) (t : Fin cfg16.N) (r : Fin 5000) (j : Fin 128) :
    (iblk16 V c 0 t : Vec Ideal S5000x128 .f32) (ix2 r j) = toMat (V c main_v279_0) (tileRow (tileOf t) r) j := by
  obtain ⟨e0, e1⟩ := index_matrix t
  show _ = V c main_v279_0 (ix2 (tileRow (tileOf t) r) j)
  unfold iblk16
  rw [View.read_apply]
  show V c main_v279_0 _ = V c main_v279_0 _
  congr 1
  funext a
  apply Fin.ext
  match a with
  | ⟨0, _⟩ => show win16_0.index t (0 : Fin 2) * 5000 + 1 * r.val = t.val * 5000 + r.val; rw [e0]; omega
  | ⟨1, _⟩ => show win16_0.index t (1 : Fin 2) * 128 + 1 * j.val = j.val; rw [e1]; omega

/-- The block of the first step's column means reads the array's one row. -/
theorem read_mean_a (c : Dev nD) (t : Fin cfg16.N) (j : Fin 128) :
    (iblk16 V c 1 t : Vec Ideal S1x128 .f32) (ix2 (0 : Fin 1) j) = toRow (V c main_v283) j := by
  obtain ⟨e0, e1⟩ := index_mean_a t
  show _ = V c main_v283 (ix2 (0 : Fin 1) j)
  unfold iblk16
  rw [View.read_apply]
  show V c main_v283 _ = V c main_v283 _
  congr 1
  funext a
  apply Fin.ext
  match a with
  | ⟨0, _⟩ => show win16_1.index t (0 : Fin 2) * 1 + 1 * 0 = 0; rw [e0]
  | ⟨1, _⟩ => show win16_1.index t (1 : Fin 2) * 128 + 1 * j.val = j.val; rw [e1]; omega

/-- The block of the first step's column variances reads the array's one row. -/
theorem read_var_a (c : Dev nD) (t : Fin cfg16.N) (j : Fin 128) :
    (iblk16 V c 2 t : Vec Ideal S1x128 .f32) (ix2 (0 : Fin 1) j) = toRow (V c main_v289) j := by
  obtain ⟨e0, e1⟩ := index_var_a t
  show _ = V c main_v289 (ix2 (0 : Fin 1) j)
  unfold iblk16
  rw [View.read_apply]
  show V c main_v289 _ = V c main_v289 _
  congr 1
  funext a
  apply Fin.ext
  match a with
  | ⟨0, _⟩ => show win16_2.index t (0 : Fin 2) * 1 + 1 * 0 = 0; rw [e0]
  | ⟨1, _⟩ => show win16_2.index t (1 : Fin 2) * 128 + 1 * j.val = j.val; rw [e1]; omega

/-- The block of the first step's scales reads the array's one row. -/
theorem read_scale_a (c : Dev nD) (t : Fin cfg16.N) (j : Fin 128) :
    (iblk16 V c 3 t : Vec Ideal S1x128 .f32) (ix2 (0 : Fin 1) j) = toRow (V c main_v292) j := by
  obtain ⟨e0, e1⟩ := index_scale_a t
  show _ = V c main_v292 (ix2 (0 : Fin 1) j)
  unfold iblk16
  rw [View.read_apply]
  show V c main_v292 _ = V c main_v292 _
  congr 1
  funext a
  apply Fin.ext
  match a with
  | ⟨0, _⟩ => show win16_3.index t (0 : Fin 2) * 1 + 1 * 0 = 0; rw [e0]
  | ⟨1, _⟩ => show win16_3.index t (1 : Fin 2) * 128 + 1 * j.val = j.val; rw [e1]; omega

/-- The block of the first step's shifts reads the array's one row. -/
theorem read_shift_a (c : Dev nD) (t : Fin cfg16.N) (j : Fin 128) :
    (iblk16 V c 4 t : Vec Ideal S1x128 .f32) (ix2 (0 : Fin 1) j) = toRow (V c main_v295) j := by
  obtain ⟨e0, e1⟩ := index_shift_a t
  show _ = V c main_v295 (ix2 (0 : Fin 1) j)
  unfold iblk16
  rw [View.read_apply]
  show V c main_v295 _ = V c main_v295 _
  congr 1
  funext a
  apply Fin.ext
  match a with
  | ⟨0, _⟩ => show win16_4.index t (0 : Fin 2) * 1 + 1 * 0 = 0; rw [e0]
  | ⟨1, _⟩ => show win16_4.index t (1 : Fin 2) * 128 + 1 * j.val = j.val; rw [e1]; omega

/-- The block of the second step's column means reads the array's one row. -/
theorem read_mean_b (c : Dev nD) (t : Fin cfg16.N) (j : Fin 128) :
    (iblk16 V c 5 t : Vec Ideal S1x128 .f32) (ix2 (0 : Fin 1) j) = toRow (V c main_v300) j := by
  obtain ⟨e0, e1⟩ := index_mean_b t
  show _ = V c main_v300 (ix2 (0 : Fin 1) j)
  unfold iblk16
  rw [View.read_apply]
  show V c main_v300 _ = V c main_v300 _
  congr 1
  funext a
  apply Fin.ext
  match a with
  | ⟨0, _⟩ => show win16_5.index t (0 : Fin 2) * 1 + 1 * 0 = 0; rw [e0]
  | ⟨1, _⟩ => show win16_5.index t (1 : Fin 2) * 128 + 1 * j.val = j.val; rw [e1]; omega

/-- The block of the second step's column variances reads the array's one row. -/
theorem read_var_b (c : Dev nD) (t : Fin cfg16.N) (j : Fin 128) :
    (iblk16 V c 6 t : Vec Ideal S1x128 .f32) (ix2 (0 : Fin 1) j) = toRow (V c main_v306) j := by
  obtain ⟨e0, e1⟩ := index_var_b t
  show _ = V c main_v306 (ix2 (0 : Fin 1) j)
  unfold iblk16
  rw [View.read_apply]
  show V c main_v306 _ = V c main_v306 _
  congr 1
  funext a
  apply Fin.ext
  match a with
  | ⟨0, _⟩ => show win16_6.index t (0 : Fin 2) * 1 + 1 * 0 = 0; rw [e0]
  | ⟨1, _⟩ => show win16_6.index t (1 : Fin 2) * 128 + 1 * j.val = j.val; rw [e1]; omega

/-- The block of the second step's scales reads the array's one row. -/
theorem read_scale_b (c : Dev nD) (t : Fin cfg16.N) (j : Fin 128) :
    (iblk16 V c 7 t : Vec Ideal S1x128 .f32) (ix2 (0 : Fin 1) j) = toRow (V c main_v309) j := by
  obtain ⟨e0, e1⟩ := index_scale_b t
  show _ = V c main_v309 (ix2 (0 : Fin 1) j)
  unfold iblk16
  rw [View.read_apply]
  show V c main_v309 _ = V c main_v309 _
  congr 1
  funext a
  apply Fin.ext
  match a with
  | ⟨0, _⟩ => show win16_7.index t (0 : Fin 2) * 1 + 1 * 0 = 0; rw [e0]
  | ⟨1, _⟩ => show win16_7.index t (1 : Fin 2) * 128 + 1 * j.val = j.val; rw [e1]; omega

/-- The block of the second step's shifts reads the array's one row. -/
theorem read_shift_b (c : Dev nD) (t : Fin cfg16.N) (j : Fin 128) :
    (iblk16 V c 8 t : Vec Ideal S1x128 .f32) (ix2 (0 : Fin 1) j) = toRow (V c main_v312) j := by
  obtain ⟨e0, e1⟩ := index_shift_b t
  show _ = V c main_v312 (ix2 (0 : Fin 1) j)
  unfold iblk16
  rw [View.read_apply]
  show V c main_v312 _ = V c main_v312 _
  congr 1
  funext a
  apply Fin.ext
  match a with
  | ⟨0, _⟩ => show win16_8.index t (0 : Fin 2) * 1 + 1 * 0 = 0; rw [e0]
  | ⟨1, _⟩ => show win16_8.index t (1 : Fin 2) * 128 + 1 * j.val = j.val; rw [e1]; omega

/-- Row r of the graph words' block at point t is node 5000 t + r's word. -/
theorem read_words (c : Dev nD) (t : Fin cfg16.N) (r : Fin 5000) :
    (iblk16 V c 9 t : Vec Ideal S5000x1 .i32) (ix2 r (0 : Fin 1)) = toCol (V c main_v0) (tileRow (tileOf t) r) := by
  obtain ⟨e0, e1⟩ := index_words t
  show _ = V c main_v0 (ix2 (tileRow (tileOf t) r) (0 : Fin 1))
  unfold iblk16
  rw [View.read_apply]
  show V c main_v0 _ = V c main_v0 _
  congr 1
  funext a
  apply Fin.ext
  match a with
  | ⟨0, _⟩ => show win16_9.index t (0 : Fin 2) * 5000 + 1 * r.val = t.val * 5000 + r.val; rw [e0]; omega
  | ⟨1, _⟩ => show win16_9.index t (1 : Fin 2) * 1 + 1 * 0 = 0; rw [e1]

/-! ## What a grid point writes back: a block of one function of the arrays -/

/-- Point t writes back, into the first result, tile t's rows of the twice-stepped matrix. -/
theorem flushed_stored (c : Dev nD) (t : Fin cfg16.N) :
    (dat16 V c).flushed 10 t = ((cfg16.win 10).blk t).view.read (Elt Ideal) (ofMat (H V c)) := by
  obtain ⟨q0, q1⟩ := index_stored t
  show (cfg16.win 10).cut (grid16.coords t) ((dat16 V c).after 10 t) = _
  rw [after16_10]
  unfold out16_10
  rw [View.canon_unit_zero zero2]
  simp only [View.ld_unit_zero (S := S5000x128) zero2, View.ld_unit_zero (S := S1x128) zero2]
  funext y
  have hy0 : (y 0).val < 5000 := (y 0).isLt
  have hy1 : (y 1).val < 128 := (y 1).isLt
  have hx : (cfg16.win 10).xinj (grid16.coords t) y = ix2 (⟨(y 0).val, hy0⟩ : Fin 5000) (⟨(y 1).val, hy1⟩ : Fin 128) :=
    funext fun a => by match a with | ⟨0, _⟩ => rfl | ⟨1, _⟩ => rfl
  show k16_pay1 _ _ ((cfg16.win 10).xinj (grid16.coords t) y) = _
  rw [hx]
  refine (stored_of_reads V c (tileOf t) (iblk16 V c 0 t) (iblk16 V c 1 t) (iblk16 V c 2 t) (iblk16 V c 3 t) (iblk16 V c 4 t) (iblk16 V c 5 t) (iblk16 V c 6 t) (iblk16 V c 7 t) (iblk16 V c 8 t)
    (read_matrix V c t) (read_mean_a V c t) (read_var_a V c t) (read_scale_a V c t) (read_shift_a V c t) (read_mean_b V c t) (read_var_b V c t) (read_scale_b V c t) (read_shift_b V c t) ⟨(y 0).val, hy0⟩ ⟨(y 1).val, hy1⟩).trans ?_
  have e0 : (((cfg16.win 10).blk t).view.emb y 0 : Fin 100000) = tileRow (tileOf t) ⟨(y 0).val, hy0⟩ := Fin.ext (by
    show win16_10.index t (0 : Fin 2) * 5000 + 1 * (y 0).val = t.val * 5000 + (y 0).val; rw [q0]; omega)
  have e1 : (((cfg16.win 10).blk t).view.emb y 1 : Fin 128) = ⟨(y 1).val, hy1⟩ := Fin.ext (by
    show win16_10.index t (1 : Fin 2) * 128 + 1 * (y 1).val = (y 1).val; rw [q1]; omega)
  show _ = H V c (((cfg16.win 10).blk t).view.emb y 0) (((cfg16.win 10).blk t).view.emb y 1)
  exact (congrArg₂ (H V c) e0 e1).symm

/-- Point t writes back, into the second result, tile t's share of the pooling. -/
theorem flushed_pooled (c : Dev nD) (t : Fin cfg16.N) :
    (dat16 V c).flushed 11 t
      = ((cfg16.win 11).blk t).view.read (Elt Ideal) (fun i => poolTile (H V c) (toCol (V c main_v0)) (i 0) (i 1) (i 2)) := by
  obtain ⟨q0, q1, q2⟩ := index_pooled t
  show (cfg16.win 11).cut (grid16.coords t) ((dat16 V c).after 11 t) = _
  rw [after16_11]
  unfold out16_11
  rw [View.canon_unit_zero zero3]
  simp only [View.ld_unit_zero (S := S5000x128) zero2, View.ld_unit_zero (S := S1x128) zero2, View.ld_unit_zero (S := S5000x1) zero2]
  funext y
  have hy0 : (y 0).val < 1 := (y 0).isLt
  have hy1 : (y 1).val < 64 := (y 1).isLt
  have hy2 : (y 2).val < 128 := (y 2).isLt
  have hx : (cfg16.win 11).xinj (grid16.coords t) y
      = ix3 (⟨(y 0).val, hy0⟩ : Fin 1) (⟨(y 1).val, hy1⟩ : Fin 64) (⟨(y 2).val, hy2⟩ : Fin 128) :=
    funext fun a => by match a with | ⟨0, _⟩ => rfl | ⟨1, _⟩ => rfl | ⟨2, _⟩ => rfl
  show k16_pay2 _ _ _ ((cfg16.win 11).xinj (grid16.coords t) y) = _
  rw [hx]
  refine (pooled_of_reads V c (tileOf t) (iblk16 V c 0 t) (iblk16 V c 1 t) (iblk16 V c 2 t) (iblk16 V c 3 t) (iblk16 V c 4 t) (iblk16 V c 5 t) (iblk16 V c 6 t) (iblk16 V c 7 t) (iblk16 V c 8 t) (iblk16 V c 9 t)
    (read_matrix V c t) (read_mean_a V c t) (read_var_a V c t) (read_scale_a V c t) (read_shift_a V c t) (read_mean_b V c t) (read_var_b V c t) (read_scale_b V c t) (read_shift_b V c t) (read_words V c t) ⟨(y 0).val, hy0⟩ ⟨(y 1).val, hy1⟩ ⟨(y 2).val, hy2⟩).trans ?_
  have e0 : (((cfg16.win 11).blk t).view.emb y 0 : Fin 20) = tileOf t := Fin.ext (by
    show win16_11.index t (0 : Fin 3) * 1 + 1 * (y 0).val = t.val; rw [q0]; omega)
  have e1 : (((cfg16.win 11).blk t).view.emb y 1 : Fin 64) = ⟨(y 1).val, hy1⟩ := Fin.ext (by
    show win16_11.index t (1 : Fin 3) * 64 + 1 * (y 1).val = (y 1).val; rw [q1]; omega)
  have e2 : (((cfg16.win 11).blk t).view.emb y 2 : Fin 128) = ⟨(y 2).val, hy2⟩ := Fin.ext (by
    show win16_11.index t (2 : Fin 3) * 128 + 1 * (y 2).val = (y 2).val; rw [q2]; omega)
  show _ = poolTile (H V c) (toCol (V c main_v0)) (((cfg16.win 11).blk t).view.emb y 0) (((cfg16.win 11).blk t).view.emb y 1)
    (((cfg16.win 11).blk t).view.emb y 2)
  exact (congr (congr (congrArg (poolTile (H V c) (toCol (V c main_v0))) e0) e1) e2).symm

/-! ## The cover: every index is in some point's block -/

/-- An index of the first result is in point t's block iff each coordinate is in the block's range on its axis. -/
theorem mem_blk_stored (t : Fin cfg16.N) (i : S100000x128.Idx) :
    i ∈ ((cfg16.win 10).blk t).view.set ↔ ∀ a : Fin 2, win16_10.index t a * S5000x128.size a ≤ (i a).val
      ∧ (i a).val < win16_10.index t a * S5000x128.size a + S5000x128.size a := by
  show i ∈ ((View.whole main_v313_0).slice (win16_10.rect t)).set ↔ _
  rw [View.set_slice_whole, Rect.mem_set_unit]
  exact Iff.rfl

/-- Node n is in tile n / 5000. -/
theorem cover_stored (i : S100000x128.Idx) :
    ∃ t : Fin cfg16.N, (cfg16.win 10).flush t = true ∧ i ∈ ((cfg16.win 10).blk t).view.set := by
  have h0 : (i 0).val < 100000 := (i 0).isLt
  have h1 : (i 1).val < 128 := (i 1).isLt
  obtain ⟨t, ht⟩ : ∃ t : Fin cfg16.N, t.val = (i 0).val / 5000 :=
    ⟨⟨(i 0).val / 5000, by rw [show cfg16.N = 20 from (by decide : grid16.N = 20)]; omega⟩, rfl⟩
  obtain ⟨q0, q1⟩ := index_stored t
  refine ⟨t, flush16_10 t, ?_⟩
  rw [mem_blk_stored]
  intro a
  match a with
  | ⟨0, _⟩ =>
    show win16_10.index t (0 : Fin 2) * 5000 ≤ (i 0).val ∧ (i 0).val < win16_10.index t (0 : Fin 2) * 5000 + 5000
    rw [q0, ht]; omega
  | ⟨1, _⟩ =>
    show win16_10.index t (1 : Fin 2) * 128 ≤ (i 1).val ∧ (i 1).val < win16_10.index t (1 : Fin 2) * 128 + 128
    rw [q1]; omega

/-- An index of the second result is in point t's block iff each coordinate is in the block's range on its axis. -/
theorem mem_blk_pooled (t : Fin cfg16.N) (i : S20x64x128.Idx) :
    i ∈ ((cfg16.win 11).blk t).view.set ↔ ∀ a : Fin 3, win16_11.index t a * S1x64x128.size a ≤ (i a).val
      ∧ (i a).val < win16_11.index t a * S1x64x128.size a + S1x64x128.size a := by
  show i ∈ ((View.whole main_v313_1).slice (win16_11.rect t)).set ↔ _
  rw [View.set_slice_whole, Rect.mem_set_unit]
  exact Iff.rfl

/-- Tile t of the pooling is point t's block. -/
theorem cover_pooled (i : S20x64x128.Idx) :
    ∃ t : Fin cfg16.N, (cfg16.win 11).flush t = true ∧ i ∈ ((cfg16.win 11).blk t).view.set := by
  have h0 : (i 0).val < 20 := (i 0).isLt
  have h1 : (i 1).val < 64 := (i 1).isLt
  have h2 : (i 2).val < 128 := (i 2).isLt
  obtain ⟨t, ht⟩ : ∃ t : Fin cfg16.N, t.val = (i 0).val :=
    ⟨⟨(i 0).val, by rw [show cfg16.N = 20 from (by decide : grid16.N = 20)]; exact h0⟩, rfl⟩
  obtain ⟨q0, q1, q2⟩ := index_pooled t
  refine ⟨t, flush16_11 t, ?_⟩
  rw [mem_blk_pooled]
  intro a
  match a with
  | ⟨0, _⟩ =>
    show win16_11.index t (0 : Fin 3) * 1 ≤ (i 0).val ∧ (i 0).val < win16_11.index t (0 : Fin 3) * 1 + 1
    rw [q0, ht]; omega
  | ⟨1, _⟩ =>
    show win16_11.index t (1 : Fin 3) * 64 ≤ (i 1).val ∧ (i 1).val < win16_11.index t (1 : Fin 3) * 64 + 64
    rw [q1]; omega
  | ⟨2, _⟩ =>
    show win16_11.index t (2 : Fin 3) * 128 ≤ (i 2).val ∧ (i 2).val < win16_11.index t (2 : Fin 3) * 128 + 128
    rw [q2]; omega

/-! ## The two results after the 20 points -/

/-- THE FIRST RESULT: the twice-stepped matrix, whole. -/
theorem out_eq (c : Dev nD) : (dat16 V c).arrAt 10 cfg16.N = ofMat (H V c) :=
  (dat16 V c).arrAt_eq_of_cover 10 (ofMat (H V c)) (fun t _ => flushed_stored V c t) cover_stored

/-- THE SECOND RESULT: tile by tile, the tile's share of the pooling of the first result. -/
theorem pool_eq (c : Dev nD) :
    (dat16 V c).arrAt 11 cfg16.N = fun i => poolTile (H V c) (toCol (V c main_v0)) (i 0) (i 1) (i 2) :=
  (dat16 V c).arrAt_eq_of_cover 11 (fun i => poolTile (H V c) (toCol (V c main_v0)) (i 0) (i 1) (i 2))
    (fun t _ => flushed_pooled V c t) cover_pooled

end Cert.KReg16

end
-- ==== Proof.KChain3.lean ====
/-
  Layer 0 of the idealized kernel program, boundary by boundary: from the contents at the layer's entry to its two
  outputs, the next features and their per-tile pooled partials, as the specification's kernel-side layer function of
  the argument arrays.
-/
import proofs.«412161_j3753801416792_2_alg».proof.Proof.KIFrameW
import proofs.«412161_j3753801416792_2_alg».proof.Proof.Conv
import proofs.«412161_j3753801416792_2_alg».proof.Proof.Agg
import proofs.«412161_j3753801416792_2_alg».proof.Proof.KCarry
import proofs.«412161_j3753801416792_2_alg».proof.Proof.KHost1L3
import proofs.«412161_j3753801416792_2_alg».proof.Proof.KHostStatsL3
import proofs.«412161_j3753801416792_2_alg».proof.Proof.KReg13
import proofs.«412161_j3753801416792_2_alg».proof.Proof.KReg14
import proofs.«412161_j3753801416792_2_alg».proof.Proof.KReg15
import proofs.«412161_j3753801416792_2_alg».proof.Proof.KReg16
import proofs.«412161_j3753801416792_2_alg».proof.Proof.KChainCommon

set_option maxRecDepth 16384

noncomputable section

namespace Cert.KChain3

open Cert.KernelIdeal Cert.KernelIdeal.Gen Cert.Spec Cert.Conv Idealize.ShloMosaic Idealize.ShloMosaic.ValueIdx
  Idealize.ShloMosaic.TcCoe Idealize.SL.Sem

variable (m : (ℓ : Loc nD τ sig) → Buf (Elt Ideal) ℓ) (ρ : Dev nD → PrngReg)

/-- This layer's parameters. -/
abbrev P (c : Dev nD) : Params := Cert.KArgs.P m (3 : Fin 4) c

/-- The features the layer starts from, as the layer's entry boundary holds them. -/
def X (c : Dev nD) : Mat 100000 128 := toMat (W26 m ρ c (Proc.devRef .tc main_v235_0))

/-- Their aggregate over the edges. -/
def A (c : Dev nD) : Mat 100000 128 :=
  toMat (Cert.Agg.aggT (W26 m ρ c (Proc.devRef .tc main_v235_0)) (m ((c : Thread nD τ).loc main_arg2)) (m ((c : Thread nD τ).loc main_arg3)))

/-- The graph ids as a column of words. -/
abbrev gid (c : Dev nD) : Fin 100000 → BitVec 32 := Cert.KArgs.gid m c

/-! ## Region 1's entry: the aggregate, the scale row, the first bias row and matrix -/

/-- The features are at region 1's entry what they are at the layer's entry. -/
theorem carryX (c : Dev nD) : V27 m ρ c main_v235_0 = W26 m ρ c (Proc.devRef .tc main_v235_0) :=
  Cert.KCarry.at27_main_v235_0 m ρ c

theorem e3_h (c : Dev nD) : toMat (V27 m ρ c main_v235_0) = X m ρ c := by
  unfold X
  exact congrArg toMat (carryX m ρ c)

theorem e3_agg (c : Dev nD) : toMat (V27 m ρ c main_v246) = A m ρ c := by
  unfold A
  refine congrArg toMat ?_
  show StableHlo.after hostOps13 (W26 m ρ c) (Proc.devRef .tc main_v246) = _
  rw [Cert.KHost1L3.agg1, Cert.KCarry.at26_main_arg2, Cert.KCarry.at26_main_arg3]

theorem e3_scale (c : Dev nD) : toRow (V27 m ρ c main_v251) = fun _ => (P m c).scale := by
  show toRow (StableHlo.after hostOps13 (W26 m ρ c) (Proc.devRef .tc main_v251)) = _
  rw [Cert.KHost1L3.scale1, Cert.KCarry.at26_main_arg5]; rfl

theorem e3_b1 (c : Dev nD) : toRow (V27 m ρ c main_v254) = (P m c).b1 := by
  show toRow (StableHlo.after hostOps13 (W26 m ρ c) (Proc.devRef .tc main_v254)) = _
  rw [Cert.KHost1L3.b1, Cert.KCarry.at26_main_arg7]; rfl

theorem e3_W1 (c : Dev nD) : toMat (V27 m ρ c main_v256) = (P m c).W1 := by
  show toMat (StableHlo.after hostOps13 (W26 m ρ c) (Proc.devRef .tc main_v256)) = _
  rw [Cert.KHost1L3.W1, Cert.KCarry.at26_main_arg6]; rfl

/-- The first affine map's output as region 1 leaves it. -/
def L1 (c : Dev nD) : Mat 100000 128 := lin1K (P m c) (X m ρ c) (A m ρ c)

theorem reg1_L (c : Dev nD) : Cert.KReg13.L (V27 m ρ) c = L1 m ρ c := by
  unfold Cert.KReg13.L L1 lin1K xRow
  rw [e3_h, e3_agg, e3_scale, e3_b1, e3_W1]

theorem x4_lin (c : Dev nD) : V28 m ρ c main_v257_0 = ofMat (L1 m ρ c) :=
  ((hF13 m ρ c 5).symm.trans (Cert.KReg13.lin_eq (V27 m ρ) c)).trans (congrArg ofMat (reg1_L m ρ c))
theorem x4_sum (c : Dev nD) : V28 m ρ c main_v257_1 = fun i => tileSum (L1 m ρ c) (i 0) (i 2) :=
  ((hF13 m ρ c 6).symm.trans (Cert.KReg13.sum_eq (V27 m ρ) c)).trans (by rw [reg1_L]; first | done | rfl)
theorem x4_sumsq (c : Dev nD) : V28 m ρ c main_v257_2 = fun i => tileSum (sq (L1 m ρ c)) (i 0) (i 2) :=
  ((hF13 m ρ c 7).symm.trans (Cert.KReg13.sumsq_eq (V27 m ρ) c)).trans (by rw [reg1_L]; first | done | rfl)

/-! ## Region 2's entry -/

theorem e5_lin (c : Dev nD) : toMat (V29 m ρ c main_v257_0) = L1 m ρ c := by
  have h : V29 m ρ c main_v257_0 = V28 m ρ c main_v257_0 := Cert.KCarry.at29_main_v257_0 m ρ c
  rw [h, x4_lin]; rfl

theorem e5_mean (c : Dev nD) : toRow (V29 m ρ c main_v261) = meanK (L1 m ρ c) := by
  show toRow (StableHlo.after hostOps14 (W28 m ρ c) (Proc.devRef .tc main_v261)) = _
  rw [Cert.KHostStatsL3.mean2]
  have h : W28 m ρ c (Proc.devRef .tc main_v257_1) = _ := x4_sum m ρ c
  rw [h]; rfl

theorem e5_var (c : Dev nD) : toRow (V29 m ρ c main_v267) = varK (L1 m ρ c) := by
  show toRow (StableHlo.after hostOps14 (W28 m ρ c) (Proc.devRef .tc main_v267)) = _
  rw [Cert.KHostStatsL3.var2]
  have h1 : W28 m ρ c (Proc.devRef .tc main_v257_1) = _ := x4_sum m ρ c
  have h2 : W28 m ρ c (Proc.devRef .tc main_v257_2) = _ := x4_sumsq m ρ c
  rw [h1, h2]; rfl

theorem e5_g (c : Dev nD) : toRow (V29 m ρ c main_v270) = (P m c).g1 := by
  show toRow (StableHlo.after hostOps14 (W28 m ρ c) (Proc.devRef .tc main_v270)) = _
  rw [Cert.KHostStatsL3.g2, Cert.KCarry.at28_main_arg10]; rfl
theorem e5_be (c : Dev nD) : toRow (V29 m ρ c main_v273) = (P m c).be1 := by
  show toRow (StableHlo.after hostOps14 (W28 m ρ c) (Proc.devRef .tc main_v273)) = _
  rw [Cert.KHostStatsL3.be2, Cert.KCarry.at28_main_arg11]; rfl
theorem e5_b (c : Dev nD) : toRow (V29 m ρ c main_v276) = (P m c).b2 := by
  show toRow (StableHlo.after hostOps14 (W28 m ρ c) (Proc.devRef .tc main_v276)) = _
  rw [Cert.KHostStatsL3.b2, Cert.KCarry.at28_main_arg9]; rfl
theorem e5_W (c : Dev nD) : toMat (V29 m ρ c main_v278) = (P m c).W2 := by
  show toMat (StableHlo.after hostOps14 (W28 m ρ c) (Proc.devRef .tc main_v278)) = _
  rw [Cert.KHostStatsL3.W2, Cert.KCarry.at28_main_arg8]; rfl

/-- The second affine map's output as region 2 leaves it. -/
def L2 (c : Dev nD) : Mat 100000 128 := lin2 (P m c) (z1K (P m c) (L1 m ρ c))

theorem reg2_L (c : Dev nD) : Cert.KReg14.L2 (V29 m ρ) c = L2 m ρ c := by
  unfold Cert.KReg14.L2 L2 lin2 z1K
  rw [e5_lin, e5_mean, e5_var, e5_g, e5_be, e5_b, e5_W]

theorem x6_lin (c : Dev nD) : V30 m ρ c main_v279_0 = ofMat (L2 m ρ c) :=
  ((hF14 m ρ c 7).symm.trans (Cert.KReg14.lin_eq (V29 m ρ) c)).trans (congrArg ofMat (reg2_L m ρ c))
theorem x6_sum (c : Dev nD) : V30 m ρ c main_v279_1 = fun i => tileSum (L2 m ρ c) (i 0) (i 2) :=
  ((hF14 m ρ c 8).symm.trans (Cert.KReg14.sum_eq (V29 m ρ) c)).trans (by rw [reg2_L]; first | done | rfl)
theorem x6_sumsq (c : Dev nD) : V30 m ρ c main_v279_2 = fun i => tileSum (sq (L2 m ρ c)) (i 0) (i 2) :=
  ((hF14 m ρ c 9).symm.trans (Cert.KReg14.sumsq_eq (V29 m ρ) c)).trans (by rw [reg2_L]; first | done | rfl)

/-! ## Region 3's entry -/

theorem e7_lin (c : Dev nD) : toMat (V31 m ρ c main_v279_0) = L2 m ρ c := by
  have h : V31 m ρ c main_v279_0 = V30 m ρ c main_v279_0 := Cert.KCarry.at31_main_v279_0 m ρ c
  rw [h, x6_lin]; rfl
theorem e7_mean (c : Dev nD) : toRow (V31 m ρ c main_v283) = meanK (L2 m ρ c) := by
  show toRow (StableHlo.after hostOps15 (W30 m ρ c) (Proc.devRef .tc main_v283)) = _
  rw [Cert.KHostStatsL3.mean3]
  have h : W30 m ρ c (Proc.devRef .tc main_v279_1) = _ := x6_sum m ρ c
  rw [h]; rfl
theorem e7_var (c : Dev nD) : toRow (V31 m ρ c main_v289) = varK (L2 m ρ c) := by
  show toRow (StableHlo.after hostOps15 (W30 m ρ c) (Proc.devRef .tc main_v289)) = _
  rw [Cert.KHostStatsL3.var3]
  have h1 : W30 m ρ c (Proc.devRef .tc main_v279_1) = _ := x6_sum m ρ c
  have h2 : W30 m ρ c (Proc.devRef .tc main_v279_2) = _ := x6_sumsq m ρ c
  rw [h1, h2]; rfl
theorem e7_g (c : Dev nD) : toRow (V31 m ρ c main_v292) = (P m c).g2 := by
  show toRow (StableHlo.after hostOps15 (W30 m ρ c) (Proc.devRef .tc main_v292)) = _
  rw [Cert.KHostStatsL3.g3, Cert.KCarry.at30_main_arg12]; rfl
theorem e7_be (c : Dev nD) : toRow (V31 m ρ c main_v295) = (P m c).be2 := by
  show toRow (StableHlo.after hostOps15 (W30 m ρ c) (Proc.devRef .tc main_v295)) = _
  rw [Cert.KHostStatsL3.be3, Cert.KCarry.at30_main_arg13]; rfl

/-- The second normalisation's output. -/
def Z2 (c : Dev nD) : Mat 100000 128 := z2K (P m c) (L2 m ρ c)

theorem reg3_Z (c : Dev nD) : Cert.KReg15.Z2 (V31 m ρ) c = Z2 m ρ c := by
  unfold Cert.KReg15.Z2 Z2 z2K
  rw [e7_lin, e7_mean, e7_var, e7_g, e7_be]

theorem x8_sum (c : Dev nD) : V32 m ρ c main_v296_0 = fun i => tileSum (Z2 m ρ c) (i 0) (i 2) :=
  ((hF15 m ρ c 5).symm.trans (Cert.KReg15.sum_eq (V31 m ρ) c)).trans (by rw [reg3_Z]; first | done | rfl)
theorem x8_sumsq (c : Dev nD) : V32 m ρ c main_v296_1 = fun i => tileSum (sq (Z2 m ρ c)) (i 0) (i 2) :=
  ((hF15 m ρ c 6).symm.trans (Cert.KReg15.sumsq_eq (V31 m ρ) c)).trans (by rw [reg3_Z]; first | done | rfl)

/-! ## Region 4's entry -/

theorem e9_lin (c : Dev nD) : toMat (V33 m ρ c main_v279_0) = L2 m ρ c := by
  have h : V33 m ρ c main_v279_0 = V30 m ρ c main_v279_0 := Cert.KCarry.at33_main_v279_0 m ρ c
  rw [h, x6_lin]; rfl
theorem e9_mean2 (c : Dev nD) : toRow (V33 m ρ c main_v283) = meanK (L2 m ρ c) := by
  have h : V33 m ρ c main_v283 = V31 m ρ c main_v283 := Cert.KCarry.at33_main_v283 m ρ c
  rw [h, e7_mean]
theorem e9_var2 (c : Dev nD) : toRow (V33 m ρ c main_v289) = varK (L2 m ρ c) := by
  have h : V33 m ρ c main_v289 = V31 m ρ c main_v289 := Cert.KCarry.at33_main_v289 m ρ c
  rw [h, e7_var]
theorem e9_g2 (c : Dev nD) : toRow (V33 m ρ c main_v292) = (P m c).g2 := by
  have h : V33 m ρ c main_v292 = V31 m ρ c main_v292 := Cert.KCarry.at33_main_v292 m ρ c
  rw [h, e7_g]
theorem e9_be2 (c : Dev nD) : toRow (V33 m ρ c main_v295) = (P m c).be2 := by
  have h : V33 m ρ c main_v295 = V31 m ρ c main_v295 := Cert.KCarry.at33_main_v295 m ρ c
  rw [h, e7_be]
theorem e9_mean3 (c : Dev nD) : toRow (V33 m ρ c main_v300) = meanK (Z2 m ρ c) := by
  show toRow (StableHlo.after hostOps16 (W32 m ρ c) (Proc.devRef .tc main_v300)) = _
  rw [Cert.KHostStatsL3.mean4]
  have h : W32 m ρ c (Proc.devRef .tc main_v296_0) = _ := x8_sum m ρ c
  rw [h]; rfl
theorem e9_var3 (c : Dev nD) : toRow (V33 m ρ c main_v306) = varK (Z2 m ρ c) := by
  show toRow (StableHlo.after hostOps16 (W32 m ρ c) (Proc.devRef .tc main_v306)) = _
  rw [Cert.KHostStatsL3.var4]
  have h1 : W32 m ρ c (Proc.devRef .tc main_v296_0) = _ := x8_sum m ρ c
  have h2 : W32 m ρ c (Proc.devRef .tc main_v296_1) = _ := x8_sumsq m ρ c
  rw [h1, h2]; rfl
theorem e9_g3 (c : Dev nD) : toRow (V33 m ρ c main_v309) = (P m c).g3 := by
  show toRow (StableHlo.after hostOps16 (W32 m ρ c) (Proc.devRef .tc main_v309)) = _
  rw [Cert.KHostStatsL3.g4, Cert.KCarry.at32_main_arg14]; rfl
theorem e9_be3 (c : Dev nD) : toRow (V33 m ρ c main_v312) = (P m c).be3 := by
  show toRow (StableHlo.after hostOps16 (W32 m ρ c) (Proc.devRef .tc main_v312)) = _
  rw [Cert.KHostStatsL3.be4, Cert.KCarry.at32_main_arg15]; rfl
theorem e9_gid (c : Dev nD) : toCol (V33 m ρ c main_v0) = gid m c := by
  exact (congrArg toCol (Cert.KCarry.at33_main_v0 m ρ c)).trans (Cert.KChainCommon.gid_at1 m ρ c)

/-- THE LAYER'S OUTPUT FEATURES. -/
def Hout (c : Dev nD) : Mat 100000 128 := layerK (P m c) (X m ρ c) (A m ρ c)

theorem reg4_H (c : Dev nD) : Cert.KReg16.H (V33 m ρ) c = Hout m ρ c := by
  unfold Cert.KReg16.H Hout layerK outK
  rw [e9_lin, e9_mean2, e9_var2, e9_g2, e9_be2, e9_mean3, e9_var3, e9_g3, e9_be3]
  rfl

theorem x10_out (c : Dev nD) : V34 m ρ c main_v313_0 = ofMat (Hout m ρ c) :=
  ((hF16 m ρ c 10).symm.trans (Cert.KReg16.out_eq (V33 m ρ) c)).trans (congrArg ofMat (reg4_H m ρ c))
theorem x10_pool (c : Dev nD) : V34 m ρ c main_v313_1 = fun i => poolTile (Hout m ρ c) (gid m c) (i 0) (i 1) (i 2) :=
  ((hF16 m ρ c 11).symm.trans (Cert.KReg16.pool_eq (V33 m ρ) c)).trans (by rw [reg4_H, e9_gid])

end Cert.KChain3

end
-- ==== Proof.RefRun.lean ====
/- The reference program's run, read back as one straight line of host operations.

   @main of the reference is a pure host program: ten printed windows run in order, whose statements are
   StableHLO operations and calls of three module-local functions (one of which makes a call itself). Inlining
   every call's body at its call site, over the call's record of buffers, @main is a list of 823 operations; it
   is cut here, in program order, at the four layer outputs: four layers of 189 operations each (every one in nine pieces,
   cut after the values the layer names) and a tail of 67 (the pooled sums, then the prediction heads). Every weakly fair execution of @main terminates with each buffer at the fold of these operations'
   results over the launch contents (`run_after`), and the fold of the whole list is the folds of the five
   pieces composed (`after_ops`). -/
import proofs.«412161_j3753801416792_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order, calls inlined -/

/-- Layer 0, the neighbour aggregate: the rows gathered along the edges' sources, scatter-added at their targets; ends with the operation writing main_v9. 13 operations. -/
abbrev opsL0A : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg2 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg2 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg2 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg3 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Layer 0, (1 + eps) times the input plus the aggregate, through the first linear map: times W1, plus b1; ends with the operation writing main_v23. 15 operations. -/
abbrev opsL0B : List (HloOp τ sig (Elt F)) :=
  [ unary main_arg5 main_v10 ((extractStridedSlice S1 ![0] · slices_S4_S1_0) : (⟨S4, .f32⟩ : BufTy).Contents (Elt F) → (⟨S1, .f32⟩ : BufTy).Contents (Elt F)),
    reshape main_v10 main_v11 rfl shapeCasts_S1_S_,
    nullary main_cst_1 (constant S_ .f32 0x3F800000#32),
    binary main_cst_1 main_v11 main_v12 (addf : (⟨S_, .f32⟩ : BufTy).Contents (Elt F) → (⟨S_, .f32⟩ : BufTy).Contents (Elt F) → (⟨S_, .f32⟩ : BufTy).Contents (Elt F)),
    unary main_v12 main_v13 (broadcastInDim S100000x128 ![] bcast_S_S100000x128 : (⟨S_, .f32⟩ : BufTy).Contents (Elt F) → (⟨S100000x128, .f32⟩ : BufTy).Contents (Elt F)),
    binary main_v13 main_arg0 main_v14 (mulf : (⟨S100000x128, .f32⟩ : BufTy).Contents (Elt F) → (⟨S100000x128, .f32⟩ : BufTy).Contents (Elt F) → (⟨S100000x128, .f32⟩ : BufTy).Contents (Elt F)),
    binary main_v14 main_v9 main_v15 (addf : (⟨S100000x128, .f32⟩ : BufTy).Contents (Elt F) → (⟨S100000x128, .f32⟩ : BufTy).Contents (Elt F) → (⟨S100000x128, .f32⟩ : BufTy).Contents (Elt F)),
    unary main_arg6 main_v16 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v16 main_v17 rfl shapeCasts_S1x128x128_S128x128,
    binary main_v15 main_v17 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v19 ((extractStridedSlice S1x128 ![0, 0] · slices_S4x128_S1x128_0_0) : (⟨S4x128, .f32⟩ : BufTy).Contents (Elt F) → (⟨S1x128, .f32⟩ : BufTy).Contents (Elt F)),
    reshape main_v19 main_v20 rfl shapeCasts_S1x128_S128,
    unary main_v20 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v18 main_v22 main_v23 (addf : (⟨S100000x128, .f32⟩ : BufTy).Contents (Elt F) → (⟨S100000x128, .f32⟩ : BufTy).Contents (Elt F) → (⟨S100000x128, .f32⟩ : BufTy).Contents (Elt F)) ]

/-- Layer 0, the first normalisation's scale and shift rows, that value's column mean and its column variance (the variance's select inside); ends with the operation writing main_v31. 32 operations. -/
abbrev opsL0C : List (HloOp τ sig (Elt F)) :=
  [ unary main_arg10 main_v24 ((extractStridedSlice S1x128 ![0, 0] · slices_S4x128_S1x128_0_0) : (⟨S4x128, .f32⟩ : BufTy).Contents (Elt F) → (⟨S1x128, .f32⟩ : BufTy).Contents (Elt F)),
    reshape main_v24 main_v25 rfl shapeCasts_S1x128_S128,
    unary main_arg11 main_v26 ((extractStridedSlice S1x128 ![0, 0] · slices_S4x128_S1x128_0_0) : (⟨S4x128, .f32⟩ : BufTy).Contents (Elt F) → (⟨S1x128, .f32⟩ : BufTy).Contents (Elt F)),
    reshape main_v26 main_v27 rfl shapeCasts_S1x128_S128,
    nullary main_cst_2 (constant S_ .f32 0x00000000#32),
    binary main_v23 main_cst_2 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call0.cst (constant S_ .f32 0x00000000#32),
    TRef.binary (.of main_v23) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v23) main_call0.v4 main_call0.v5 subf,
    TRef.binary main_call0.v5 main_call0.v5 main_call0.v6 mulf,
    TRef.unary (.of main_c_4) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- Layer 0, centred, scaled by the inverse deviation, by gamma, shifted by beta, then the first relu; ends with the operation writing main_v47. 19 operations. -/
abbrev opsL0D : List (HloOp τ sig (Elt F)) :=
  [ unary main_v30 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v23 main_v33 main_v34 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v34 main_v39 main_v40 (mulf : (⟨S100000x128, .f32⟩ : BufTy).Contents (Elt F) → (⟨S100000x128, .f32⟩ : BufTy).Contents (Elt F) → (⟨S100000x128, .f32⟩ : BufTy).Contents (Elt F)),
    unary main_v25 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (mulf : (⟨S100000x128, .f32⟩ : BufTy).Contents (Elt F) → (⟨S100000x128, .f32⟩ : BufTy).Contents (Elt F) → (⟨S100000x128, .f32⟩ : BufTy).Contents (Elt F)),
    unary main_v27 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v46) main_call1.v0 main_call1.v1 maximumf ]

/-- Layer 0, through the second linear map: times W2, plus b2; ends with the operation writing main_v55. 8 operations. -/
abbrev opsL0E : List (HloOp τ sig (Elt F)) :=
  [ unary main_arg8 main_v48 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v48 main_v49 rfl shapeCasts_S1x128x128_S128x128,
    binary main_v47 main_v49 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v51 ((extractStridedSlice S1x128 ![0, 0] · slices_S4x128_S1x128_0_0) : (⟨S4x128, .f32⟩ : BufTy).Contents (Elt F) → (⟨S1x128, .f32⟩ : BufTy).Contents (Elt F)),
    reshape main_v51 main_v52 rfl shapeCasts_S1x128_S128,
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v50 main_v54 main_v55 (addf : (⟨S100000x128, .f32⟩ : BufTy).Contents (Elt F) → (⟨S100000x128, .f32⟩ : BufTy).Contents (Elt F) → (⟨S100000x128, .f32⟩ : BufTy).Contents (Elt F)) ]

/-- Layer 0, the second normalisation's scale and shift rows, that value's column mean and column variance; ends with the operation writing main_v63. 32 operations. -/
abbrev opsL0F : List (HloOp τ sig (Elt F)) :=
  [ unary main_arg12 main_v56 ((extractStridedSlice S1x128 ![0, 0] · slices_S4x128_S1x128_0_0) : (⟨S4x128, .f32⟩ : BufTy).Contents (Elt F) → (⟨S1x128, .f32⟩ : BufTy).Contents (Elt F)),
    reshape main_v56 main_v57 rfl shapeCasts_S1x128_S128,
    unary main_arg13 main_v58 ((extractStridedSlice S1x128 ![0, 0] · slices_S4x128_S1x128_0_0) : (⟨S4x128, .f32⟩ : BufTy).Contents (Elt F) → (⟨S1x128, .f32⟩ : BufTy).Contents (Elt F)),
    reshape main_v58 main_v59 rfl shapeCasts_S1x128_S128,
    nullary main_cst_6 (constant S_ .f32 0x00000000#32),
    binary main_v55 main_cst_6 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call2.cst (constant S_ .f32 0x00000000#32),
    TRef.binary (.of main_v55) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v55) main_call2.v4 main_call2.v5 subf,
    TRef.binary main_call2.v5 main_call2.v5 main_call2.v6 mulf,
    TRef.unary (.of main_c_8) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Layer 0, centred, scaled, shifted, then the second relu; ends with the operation writing main_v79. 19 operations. -/
abbrev opsL0G : List (HloOp τ sig (Elt F)) :=
  [ unary main_v62 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v55 main_v65 main_v66 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v66 main_v71 main_v72 (mulf : (⟨S100000x128, .f32⟩ : BufTy).Contents (Elt F) → (⟨S100000x128, .f32⟩ : BufTy).Contents (Elt F) → (⟨S100000x128, .f32⟩ : BufTy).Contents (Elt F)),
    unary main_v57 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_v59 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v78) main_call3.v0 main_call3.v1 maximumf ]

/-- Layer 0, the outer normalisation's scale and shift rows, the column mean and column variance of the second relu's value; ends with the operation writing main_v87. 32 operations. -/
abbrev opsL0H : List (HloOp τ sig (Elt F)) :=
  [ unary main_arg14 main_v80 ((extractStridedSlice S1x128 ![0, 0] · slices_S4x128_S1x128_0_0) : (⟨S4x128, .f32⟩ : BufTy).Contents (Elt F) → (⟨S1x128, .f32⟩ : BufTy).Contents (Elt F)),
    reshape main_v80 main_v81 rfl shapeCasts_S1x128_S128,
    unary main_arg15 main_v82 ((extractStridedSlice S1x128 ![0, 0] · slices_S4x128_S1x128_0_0) : (⟨S4x128, .f32⟩ : BufTy).Contents (Elt F) → (⟨S1x128, .f32⟩ : BufTy).Contents (Elt F)),
    reshape main_v82 main_v83 rfl shapeCasts_S1x128_S128,
    nullary main_cst_10 (constant S_ .f32 0x00000000#32),
    binary main_v79 main_cst_10 main_v84 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v85 (broadcastInDim S128 ![] bcast_S_S128 : (⟨S_, .f32⟩ : BufTy).Contents (Elt F) → (⟨S128, .f32⟩ : BufTy).Contents (Elt F)),
    binary main_v84 main_v85 main_v86 (Host.divf : (⟨S128, .f32⟩ : BufTy).Contents (Elt F) → (⟨S128, .f32⟩ : BufTy).Contents (Elt F) → (⟨S128, .f32⟩ : BufTy).Contents (Elt F)),
    nullary main_c_12 (constantI S_ 32 0#32),
    TRef.nullary main_call4.cst (constant S_ .f32 0x00000000#32),
    TRef.binary (.of main_v79) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v79) main_call4.v4 main_call4.v5 subf,
    TRef.binary main_call4.v5 main_call4.v5 main_call4.v6 mulf,
    TRef.unary (.of main_c_12) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b) ]

/-- Layer 0, centred, scaled, shifted, then the third relu: the layer's output; ends with the operation writing main_v103. 19 operations. -/
abbrev opsL0I : List (HloOp τ sig (Elt F)) :=
  [ unary main_v86 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v79 main_v89 main_v90 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v91 (broadcastInDim S128 ![] bcast_S_S128 : (⟨S_, .f32⟩ : BufTy).Contents (Elt F) → (⟨S128, .f32⟩ : BufTy).Contents (Elt F)),
    binary main_v87 main_v91 main_v92 (addf : (⟨S128, .f32⟩ : BufTy).Contents (Elt F) → (⟨S128, .f32⟩ : BufTy).Contents (Elt F) → (⟨S128, .f32⟩ : BufTy).Contents (Elt F)),
    unary main_v92 main_v93 (Host.rsqrt : (⟨S128, .f32⟩ : BufTy).Contents (Elt F) → (⟨S128, .f32⟩ : BufTy).Contents (Elt F)),
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v90 main_v95 main_v96 (mulf : (⟨S100000x128, .f32⟩ : BufTy).Contents (Elt F) → (⟨S100000x128, .f32⟩ : BufTy).Contents (Elt F) → (⟨S100000x128, .f32⟩ : BufTy).Contents (Elt F)),
    unary main_v81 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (mulf : (⟨S100000x128, .f32⟩ : BufTy).Contents (Elt F) → (⟨S100000x128, .f32⟩ : BufTy).Contents (Elt F) → (⟨S100000x128, .f32⟩ : BufTy).Contents (Elt F)),
    unary main_v83 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v102) main_call5.v0 main_call5.v1 maximumf ]

/-- Layer 0: its nine pieces in order; ends with the layer's output main_v103. -/
abbrev opsL0 : List (HloOp τ sig (Elt F)) :=
  opsL0A ++ opsL0B ++ opsL0C ++ opsL0D ++ opsL0E ++ opsL0F ++ opsL0G ++ opsL0H ++ opsL0I

/-- Layer 1, the neighbour aggregate: the rows gathered along the edges' sources, scatter-added at their targets; ends with the operation writing main_v113. 13 operations. -/
abbrev opsL1A : List (HloOp τ sig (Elt F)) :=
  [ nullary main_c_14 (constantI S_ 32 0#32),
    unary main_c_14 main_v104 (broadcastInDim S1600000 ![] bcast_S_S1600000 : (⟨S_, .i32⟩ : BufTy).Contents (Elt F) → (⟨S1600000, .i32⟩ : BufTy).Contents (Elt F)),
    binary main_arg2 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v106 (broadcastInDim S1600000 ![] bcast_S_S1600000 : (⟨S_, .i32⟩ : BufTy).Contents (Elt F) → (⟨S1600000, .i32⟩ : BufTy).Contents (Elt F)),
    binary main_arg2 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_arg2 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v103 main_v109 main_v110 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v111 (broadcastInDim S100000x128 ![] bcast_S_S100000x128 : (⟨S_, .f32⟩ : BufTy).Contents (Elt F) → (⟨S100000x128, .f32⟩ : BufTy).Contents (Elt F)),
    unary main_arg3 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v110 main_v113 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Layer 1, (1 + eps) times the input plus the aggregate, through the first linear map: times W1, plus b1; ends with the operation writing main_v127. 15 operations. -/
abbrev opsL1B : List (HloOp τ sig (Elt F)) :=
  [ unary main_arg5 main_v114 ((extractStridedSlice S1 ![1] · slices_S4_S1_1) : (⟨S4, .f32⟩ : BufTy).Contents (Elt F) → (⟨S1, .f32⟩ : BufTy).Contents (Elt F)),
    reshape main_v114 main_v115 rfl shapeCasts_S1_S_,
    nullary main_cst_17 (constant S_ .f32 0x3F800000#32),
    binary main_cst_17 main_v115 main_v116 (addf : (⟨S_, .f32⟩ : BufTy).Contents (Elt F) → (⟨S_, .f32⟩ : BufTy).Contents (Elt F) → (⟨S_, .f32⟩ : BufTy).Contents (Elt F)),
    unary main_v116 main_v117 (broadcastInDim S100000x128 ![] bcast_S_S100000x128 : (⟨S_, .f32⟩ : BufTy).Contents (Elt F) → (⟨S100000x128, .f32⟩ : BufTy).Contents (Elt F)),
    binary main_v117 main_v103 main_v118 (mulf : (⟨S100000x128, .f32⟩ : BufTy).Contents (Elt F) → (⟨S100000x128, .f32⟩ : BufTy).Contents (Elt F) → (⟨S100000x128, .f32⟩ : BufTy).Contents (Elt F)),
    binary main_v118 main_v113 main_v119 (addf : (⟨S100000x128, .f32⟩ : BufTy).Contents (Elt F) → (⟨S100000x128, .f32⟩ : BufTy).Contents (Elt F) → (⟨S100000x128, .f32⟩ : BufTy).Contents (Elt F)),
    unary main_arg6 main_v120 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v120 main_v121 rfl shapeCasts_S1x128x128_S128x128,
    binary main_v119 main_v121 main_v122 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v123 ((extractStridedSlice S1x128 ![1, 0] · slices_S4x128_S1x128_1_0) : (⟨S4x128, .f32⟩ : BufTy).Contents (Elt F) → (⟨S1x128, .f32⟩ : BufTy).Contents (Elt F)),
    reshape main_v123 main_v124 rfl shapeCasts_S1x128_S128,
    unary main_v124 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v122 main_v126 main_v127 (addf : (⟨S100000x128, .f32⟩ : BufTy).Contents (Elt F) → (⟨S100000x128, .f32⟩ : BufTy).Contents (Elt F) → (⟨S100000x128, .f32⟩ : BufTy).Contents (Elt F)) ]

/-- Layer 1, the first normalisation's scale and shift rows, that value's column mean and its column variance (the variance's select inside); ends with the operation writing main_v135. 32 operations. -/
abbrev opsL1C : List (HloOp τ sig (Elt F)) :=
  [ unary main_arg10 main_v128 ((extractStridedSlice S1x128 ![1, 0] · slices_S4x128_S1x128_1_0) : (⟨S4x128, .f32⟩ : BufTy).Contents (Elt F) → (⟨S1x128, .f32⟩ : BufTy).Contents (Elt F)),
    reshape main_v128 main_v129 rfl shapeCasts_S1x128_S128,
    unary main_arg11 main_v130 ((extractStridedSlice S1x128 ![1, 0] · slices_S4x128_S1x128_1_0) : (⟨S4x128, .f32⟩ : BufTy).Contents (Elt F) → (⟨S1x128, .f32⟩ : BufTy).Contents (Elt F)),
    reshape main_v130 main_v131 rfl shapeCasts_S1x128_S128,
    nullary main_cst_18 (constant S_ .f32 0x00000000#32),
    binary main_v127 main_cst_18 main_v132 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v133 (broadcastInDim S128 ![] bcast_S_S128 : (⟨S_, .f32⟩ : BufTy).Contents (Elt F) → (⟨S128, .f32⟩ : BufTy).Contents (Elt F)),
    binary main_v132 main_v133 main_v134 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call6.cst (constant S_ .f32 0x00000000#32),
    TRef.binary (.of main_v127) main_call6.cst main_call6.v0 (fun x v => Host.reduceAdd x v reducesTo_S100000x128_S128_d0 h_S_),
    TRef.unary main_call6.v0 main_call6.v1 (broadcastInDim S1x128 ![1] bcast_S128_S1x128_1),
    TRef.nullary main_call6.cst_0 (constant S_ .f32 0x47C35000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S100000x128 ![0, 1] bcast_S1x128_S100000x128_0_1),
    TRef.binary (.of main_v127) main_call6.v4 main_call6.v5 subf,
    TRef.binary main_call6.v5 main_call6.v5 main_call6.v6 mulf,
    TRef.unary (.of main_c_20) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b) ]

/-- Layer 1, centred, scaled by the inverse deviation, by gamma, shifted by beta, then the first relu; ends with the operation writing main_v151. 19 operations. -/
abbrev opsL1D : List (HloOp τ sig (Elt F)) :=
  [ unary main_v134 main_v136 (broadcastInDim S1x128 ![1] bcast_S128_S1x128_1 : (⟨S128, .f32⟩ : BufTy).Contents (Elt F) → (⟨S1x128, .f32⟩ : BufTy).Contents (Elt F)),
    unary main_v136 main_v137 (broadcastInDim S100000x128 ![0, 1] bcast_S1x128_S100000x128_0_1 : (⟨S1x128, .f32⟩ : BufTy).Contents (Elt F) → (⟨S100000x128, .f32⟩ : BufTy).Contents (Elt F)),
    binary main_v127 main_v137 main_v138 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v139 (broadcastInDim S128 ![] bcast_S_S128 : (⟨S_, .f32⟩ : BufTy).Contents (Elt F) → (⟨S128, .f32⟩ : BufTy).Contents (Elt F)),
    binary main_v135 main_v139 main_v140 (addf : (⟨S128, .f32⟩ : BufTy).Contents (Elt F) → (⟨S128, .f32⟩ : BufTy).Contents (Elt F) → (⟨S128, .f32⟩ : BufTy).Contents (Elt F)),
    unary main_v140 main_v141 (Host.rsqrt : (⟨S128, .f32⟩ : BufTy).Contents (Elt F) → (⟨S128, .f32⟩ : BufTy).Contents (Elt F)),
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S100000x128 ![0, 1] bcast_S1x128_S100000x128_0_1 : (⟨S1x128, .f32⟩ : BufTy).Contents (Elt F) → (⟨S100000x128, .f32⟩ : BufTy).Contents (Elt F)),
    binary main_v138 main_v143 main_v144 (mulf : (⟨S100000x128, .f32⟩ : BufTy).Contents (Elt F) → (⟨S100000x128, .f32⟩ : BufTy).Contents (Elt F) → (⟨S100000x128, .f32⟩ : BufTy).Contents (Elt F)),
    unary main_v129 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v144 main_v146 main_v147 (mulf : (⟨S100000x128, .f32⟩ : BufTy).Contents (Elt F) → (⟨S100000x128, .f32⟩ : BufTy).Contents (Elt F) → (⟨S100000x128, .f32⟩ : BufTy).Contents (Elt F)),
    unary main_v131 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v147 main_v149 main_v150 (addf : (⟨S100000x128, .f32⟩ : BufTy).Contents (Elt F) → (⟨S100000x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v150) main_call7.v0 main_call7.v1 maximumf ]

/-- Layer 1, through the second linear map: times W2, plus b2; ends with the operation writing main_v159. 8 operations. -/
abbrev opsL1E : List (HloOp τ sig (Elt F)) :=
  [ unary main_arg8 main_v152 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v152 main_v153 rfl shapeCasts_S1x128x128_S128x128,
    binary main_v151 main_v153 main_v154 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v155 ((extractStridedSlice S1x128 ![1, 0] · slices_S4x128_S1x128_1_0) : (⟨S4x128, .f32⟩ : BufTy).Contents (Elt F) → (⟨S1x128, .f32⟩ : BufTy).Contents (Elt F)),
    reshape main_v155 main_v156 rfl shapeCasts_S1x128_S128,
    unary main_v156 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v154 main_v158 main_v159 (addf : (⟨S100000x128, .f32⟩ : BufTy).Contents (Elt F) → (⟨S100000x128, .f32⟩ : BufTy).Contents (Elt F) → (⟨S100000x128, .f32⟩ : BufTy).Contents (Elt F)) ]

/-- Layer 1, the second normalisation's scale and shift rows, that value's column mean and column variance; ends with the operation writing main_v167. 32 operations. -/
abbrev opsL1F : List (HloOp τ sig (Elt F)) :=
  [ unary main_arg12 main_v160 ((extractStridedSlice S1x128 ![1, 0] · slices_S4x128_S1x128_1_0) : (⟨S4x128, .f32⟩ : BufTy).Contents (Elt F) → (⟨S1x128, .f32⟩ : BufTy).Contents (Elt F)),
    reshape main_v160 main_v161 rfl shapeCasts_S1x128_S128,
    unary main_arg13 main_v162 ((extractStridedSlice S1x128 ![1, 0] · slices_S4x128_S1x128_1_0) : (⟨S4x128, .f32⟩ : BufTy).Contents (Elt F) → (⟨S1x128, .f32⟩ : BufTy).Contents (Elt F)),
    reshape main_v162 main_v163 rfl shapeCasts_S1x128_S128,
    nullary main_cst_22 (constant S_ .f32 0x00000000#32),
    binary main_v159 main_cst_22 main_v164 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v165 (broadcastInDim S128 ![] bcast_S_S128 : (⟨S_, .f32⟩ : BufTy).Contents (Elt F) → (⟨S128, .f32⟩ : BufTy).Contents (Elt F)),
    binary main_v164 main_v165 main_v166 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary main_call8.cst (constant S_ .f32 0x00000000#32),
    TRef.binary (.of main_v159) main_call8.cst main_call8.v0 (fun x v => Host.reduceAdd x v reducesTo_S100000x128_S128_d0 h_S_),
    TRef.unary main_call8.v0 main_call8.v1 (broadcastInDim S1x128 ![1] bcast_S128_S1x128_1),
    TRef.nullary main_call8.cst_0 (constant S_ .f32 0x47C35000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S100000x128 ![0, 1] bcast_S1x128_S100000x128_0_1),
    TRef.binary (.of main_v159) main_call8.v4 main_call8.v5 subf,
    TRef.binary main_call8.v5 main_call8.v5 main_call8.v6 mulf,
    TRef.unary (.of main_c_24) main_call8.v7 (sitofp .f32),
    TRef.nullary main_call8.cst_1 (constant S_ .f32 0x47C35000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S100000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b) ]

/-- Layer 1, centred, scaled, shifted, then the second relu; ends with the operation writing main_v183. 19 operations. -/
abbrev opsL1G : List (HloOp τ sig (Elt F)) :=
  [ unary main_v166 main_v168 (broadcastInDim S1x128 ![1] bcast_S128_S1x128_1 : (⟨S128, .f32⟩ : BufTy).Contents (Elt F) → (⟨S1x128, .f32⟩ : BufTy).Contents (Elt F)),
    unary main_v168 main_v169 (broadcastInDim S100000x128 ![0, 1] bcast_S1x128_S100000x128_0_1 : (⟨S1x128, .f32⟩ : BufTy).Contents (Elt F) → (⟨S100000x128, .f32⟩ : BufTy).Contents (Elt F)),
    binary main_v159 main_v169 main_v170 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v171 (broadcastInDim S128 ![] bcast_S_S128 : (⟨S_, .f32⟩ : BufTy).Contents (Elt F) → (⟨S128, .f32⟩ : BufTy).Contents (Elt F)),
    binary main_v167 main_v171 main_v172 (addf : (⟨S128, .f32⟩ : BufTy).Contents (Elt F) → (⟨S128, .f32⟩ : BufTy).Contents (Elt F) → (⟨S128, .f32⟩ : BufTy).Contents (Elt F)),
    unary main_v172 main_v173 (Host.rsqrt : (⟨S128, .f32⟩ : BufTy).Contents (Elt F) → (⟨S128, .f32⟩ : BufTy).Contents (Elt F)),
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S100000x128 ![0, 1] bcast_S1x128_S100000x128_0_1 : (⟨S1x128, .f32⟩ : BufTy).Contents (Elt F) → (⟨S100000x128, .f32⟩ : BufTy).Contents (Elt F)),
    binary main_v170 main_v175 main_v176 (mulf : (⟨S100000x128, .f32⟩ : BufTy).Contents (Elt F) → (⟨S100000x128, .f32⟩ : BufTy).Contents (Elt F) → (⟨S100000x128, .f32⟩ : BufTy).Contents (Elt F)),
    unary main_v161 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v176 main_v178 main_v179 (mulf : (⟨S100000x128, .f32⟩ : BufTy).Contents (Elt F) → (⟨S100000x128, .f32⟩ : BufTy).Contents (Elt F) → (⟨S100000x128, .f32⟩ : BufTy).Contents (Elt F)),
    unary main_v163 main_v180 (broadcastInDim S1x128 ![1] bcast_S128_S1x128_1 : (⟨S128, .f32⟩ : BufTy).Contents (Elt F) → (⟨S1x128, .f32⟩ : BufTy).Contents (Elt F)),
    unary main_v180 main_v181 (broadcastInDim S100000x128 ![0, 1] bcast_S1x128_S100000x128_0_1 : (⟨S1x128, .f32⟩ : BufTy).Contents (Elt F) → (⟨S100000x128, .f32⟩ : BufTy).Contents (Elt F)),
    binary main_v179 main_v181 main_v182 (addf : (⟨S100000x128, .f32⟩ : BufTy).Contents (Elt F) → (⟨S100000x128, .f32⟩ : BufTy).Contents (Elt F) → (⟨S100000x128, .f32⟩ : BufTy).Contents (Elt F)),
    TRef.nullary main_call9.cst (constant S_ .f32 0x00000000#32),
    TRef.unary main_call9.cst main_call9.v0 (broadcastInDim S100000x128 ![] bcast_S_S100000x128),
    TRef.binary (.of main_v182) main_call9.v0 main_call9.v1 maximumf ]

/-- Layer 1, the outer normalisation's scale and shift rows, the column mean and column variance of the second relu's value; ends with the operation writing main_v191. 32 operations. -/
abbrev opsL1H : List (HloOp τ sig (Elt F)) :=
  [ unary main_arg14 main_v184 ((extractStridedSlice S1x128 ![1, 0] · slices_S4x128_S1x128_1_0) : (⟨S4x128, .f32⟩ : BufTy).Contents (Elt F) → (⟨S1x128, .f32⟩ : BufTy).Contents (Elt F)),
    reshape main_v184 main_v185 rfl shapeCasts_S1x128_S128,
    unary main_arg15 main_v186 ((extractStridedSlice S1x128 ![1, 0] · slices_S4x128_S1x128_1_0) : (⟨S4x128, .f32⟩ : BufTy).Contents (Elt F) → (⟨S1x128, .f32⟩ : BufTy).Contents (Elt F)),
    reshape main_v186 main_v187 rfl shapeCasts_S1x128_S128,
    nullary main_cst_26 (constant S_ .f32 0x00000000#32),
    binary main_v183 main_cst_26 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)),
    nullary main_c_28 (constantI S_ 32 0#32),
    TRef.nullary main_call10.cst (constant S_ .f32 0x00000000#32),
    TRef.binary (.of main_v183) main_call10.cst main_call10.v0 (fun x v => Host.reduceAdd x v reducesTo_S100000x128_S128_d0 h_S_),
    TRef.unary main_call10.v0 main_call10.v1 (broadcastInDim S1x128 ![1] bcast_S128_S1x128_1),
    TRef.nullary main_call10.cst_0 (constant S_ .f32 0x47C35000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S100000x128 ![0, 1] bcast_S1x128_S100000x128_0_1),
    TRef.binary (.of main_v183) main_call10.v4 main_call10.v5 subf,
    TRef.binary main_call10.v5 main_call10.v5 main_call10.v6 mulf,
    TRef.unary (.of main_c_28) main_call10.v7 (sitofp .f32),
    TRef.nullary main_call10.cst_1 (constant S_ .f32 0x47C35000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S100000x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b) ]

/-- Layer 1, centred, scaled, shifted, then the third relu: the layer's output; ends with the operation writing main_v207. 19 operations. -/
abbrev opsL1I : List (HloOp τ sig (Elt F)) :=
  [ unary main_v190 main_v192 (broadcastInDim S1x128 ![1] bcast_S128_S1x128_1 : (⟨S128, .f32⟩ : BufTy).Contents (Elt F) → (⟨S1x128, .f32⟩ : BufTy).Contents (Elt F)),
    unary main_v192 main_v193 (broadcastInDim S100000x128 ![0, 1] bcast_S1x128_S100000x128_0_1 : (⟨S1x128, .f32⟩ : BufTy).Contents (Elt F) → (⟨S100000x128, .f32⟩ : BufTy).Contents (Elt F)),
    binary main_v183 main_v193 main_v194 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v195 (broadcastInDim S128 ![] bcast_S_S128 : (⟨S_, .f32⟩ : BufTy).Contents (Elt F) → (⟨S128, .f32⟩ : BufTy).Contents (Elt F)),
    binary main_v191 main_v195 main_v196 (addf : (⟨S128, .f32⟩ : BufTy).Contents (Elt F) → (⟨S128, .f32⟩ : BufTy).Contents (Elt F) → (⟨S128, .f32⟩ : BufTy).Contents (Elt F)),
    unary main_v196 main_v197 (Host.rsqrt : (⟨S128, .f32⟩ : BufTy).Contents (Elt F) → (⟨S128, .f32⟩ : BufTy).Contents (Elt F)),
    unary main_v197 main_v198 (broadcastInDim S1x128 ![1] bcast_S128_S1x128_1 : (⟨S128, .f32⟩ : BufTy).Contents (Elt F) → (⟨S1x128, .f32⟩ : BufTy).Contents (Elt F)),
    unary main_v198 main_v199 (broadcastInDim S100000x128 ![0, 1] bcast_S1x128_S100000x128_0_1 : (⟨S1x128, .f32⟩ : BufTy).Contents (Elt F) → (⟨S100000x128, .f32⟩ : BufTy).Contents (Elt F)),
    binary main_v194 main_v199 main_v200 (mulf : (⟨S100000x128, .f32⟩ : BufTy).Contents (Elt F) → (⟨S100000x128, .f32⟩ : BufTy).Contents (Elt F) → (⟨S100000x128, .f32⟩ : BufTy).Contents (Elt F)),
    unary main_v185 main_v201 (broadcastInDim S1x128 ![1] bcast_S128_S1x128_1 : (⟨S128, .f32⟩ : BufTy).Contents (Elt F) → (⟨S1x128, .f32⟩ : BufTy).Contents (Elt F)),
    unary main_v201 main_v202 (broadcastInDim S100000x128 ![0, 1] bcast_S1x128_S100000x128_0_1 : (⟨S1x128, .f32⟩ : BufTy).Contents (Elt F) → (⟨S100000x128, .f32⟩ : BufTy).Contents (Elt F)),
    binary main_v200 main_v202 main_v203 (mulf : (⟨S100000x128, .f32⟩ : BufTy).Contents (Elt F) → (⟨S100000x128, .f32⟩ : BufTy).Contents (Elt F) → (⟨S100000x128, .f32⟩ : BufTy).Contents (Elt F)),
    unary main_v187 main_v204 (broadcastInDim S1x128 ![1] bcast_S128_S1x128_1 : (⟨S128, .f32⟩ : BufTy).Contents (Elt F) → (⟨S1x128, .f32⟩ : BufTy).Contents (Elt F)),
    unary main_v204 main_v205 (broadcastInDim S100000x128 ![0, 1] bcast_S1x128_S100000x128_0_1 : (⟨S1x128, .f32⟩ : BufTy).Contents (Elt F) → (⟨S100000x128, .f32⟩ : BufTy).Contents (Elt F)),
    binary main_v203 main_v205 main_v206 (addf : (⟨S100000x128, .f32⟩ : BufTy).Contents (Elt F) → (⟨S100000x128, .f32⟩ : BufTy).Contents (Elt F) → (⟨S100000x128, .f32⟩ : BufTy).Contents (Elt F)),
    TRef.nullary main_call11.cst (constant S_ .f32 0x00000000#32),
    TRef.unary main_call11.cst main_call11.v0 (broadcastInDim S100000x128 ![] bcast_S_S100000x128),
    TRef.binary (.of main_v206) main_call11.v0 main_call11.v1 maximumf ]

/-- Layer 1: its nine pieces in order; ends with the layer's output main_v207. -/
abbrev opsL1 : List (HloOp τ sig (Elt F)) :=
  opsL1A ++ opsL1B ++ opsL1C ++ opsL1D ++ opsL1E ++ opsL1F ++ opsL1G ++ opsL1H ++ opsL1I

/-- Layer 2, the neighbour aggregate: the rows gathered along the edges' sources, scatter-added at their targets; ends with the operation writing main_v217. 13 operations. -/
abbrev opsL2A : List (HloOp τ sig (Elt F)) :=
  [ nullary main_c_30 (constantI S_ 32 0#32),
    unary main_c_30 main_v208 (broadcastInDim S1600000 ![] bcast_S_S1600000 : (⟨S_, .i32⟩ : BufTy).Contents (Elt F) → (⟨S1600000, .i32⟩ : BufTy).Contents (Elt F)),
    binary main_arg2 main_v208 main_v209 (cmpi .slt : (⟨S1600000, .i32⟩ : BufTy).Contents (Elt F) → (⟨S1600000, .i32⟩ : BufTy).Contents (Elt F) → (⟨S1600000, .i1⟩ : BufTy).Contents (Elt F)),
    nullary main_c_31 (constantI S_ 32 100000#32),
    unary main_c_31 main_v210 (broadcastInDim S1600000 ![] bcast_S_S1600000 : (⟨S_, .i32⟩ : BufTy).Contents (Elt F) → (⟨S1600000, .i32⟩ : BufTy).Contents (Elt F)),
    binary main_arg2 main_v210 main_v211 (addi : (⟨S1600000, .i32⟩ : BufTy).Contents (Elt F) → (⟨S1600000, .i32⟩ : BufTy).Contents (Elt F) → (⟨S1600000, .i32⟩ : BufTy).Contents (Elt F)),
    ternary main_v209 main_v211 main_arg2 main_v212 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v212 main_v213 (broadcastInDim S1600000x1 ![0] bcast_S1600000_S1600000x1_0 : (⟨S1600000, .i32⟩ : BufTy).Contents (Elt F) → (⟨S1600000x1, .i32⟩ : BufTy).Contents (Elt F)),
    binary main_v207 main_v213 main_v214 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_32 (constant S_ .f32 0x00000000#32),
    unary main_cst_32 main_v215 (broadcastInDim S100000x128 ![] bcast_S_S100000x128 : (⟨S_, .f32⟩ : BufTy).Contents (Elt F) → (⟨S100000x128, .f32⟩ : BufTy).Contents (Elt F)),
    unary main_arg3 main_v216 (broadcastInDim S1600000x1 ![0] bcast_S1600000_S1600000x1_0 : (⟨S1600000, .i32⟩ : BufTy).Contents (Elt F) → (⟨S1600000x1, .i32⟩ : BufTy).Contents (Elt F)),
    ternary main_v215 main_v216 main_v214 main_v217 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Layer 2, (1 + eps) times the input plus the aggregate, through the first linear map: times W1, plus b1; ends with the operation writing main_v231. 15 operations. -/
abbrev opsL2B : List (HloOp τ sig (Elt F)) :=
  [ unary main_arg5 main_v218 ((extractStridedSlice S1 ![2] · slices_S4_S1_2) : (⟨S4, .f32⟩ : BufTy).Contents (Elt F) → (⟨S1, .f32⟩ : BufTy).Contents (Elt F)),
    reshape main_v218 main_v219 rfl shapeCasts_S1_S_,
    nullary main_cst_33 (constant S_ .f32 0x3F800000#32),
    binary main_cst_33 main_v219 main_v220 (addf : (⟨S_, .f32⟩ : BufTy).Contents (Elt F) → (⟨S_, .f32⟩ : BufTy).Contents (Elt F) → (⟨S_, .f32⟩ : BufTy).Contents (Elt F)),
    unary main_v220 main_v221 (broadcastInDim S100000x128 ![] bcast_S_S100000x128 : (⟨S_, .f32⟩ : BufTy).Contents (Elt F) → (⟨S100000x128, .f32⟩ : BufTy).Contents (Elt F)),
    binary main_v221 main_v207 main_v222 (mulf : (⟨S100000x128, .f32⟩ : BufTy).Contents (Elt F) → (⟨S100000x128, .f32⟩ : BufTy).Contents (Elt F) → (⟨S100000x128, .f32⟩ : BufTy).Contents (Elt F)),
    binary main_v222 main_v217 main_v223 (addf : (⟨S100000x128, .f32⟩ : BufTy).Contents (Elt F) → (⟨S100000x128, .f32⟩ : BufTy).Contents (Elt F) → (⟨S100000x128, .f32⟩ : BufTy).Contents (Elt F)),
    unary main_arg6 main_v224 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v224 main_v225 rfl shapeCasts_S1x128x128_S128x128,
    binary main_v223 main_v225 main_v226 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v227 ((extractStridedSlice S1x128 ![2, 0] · slices_S4x128_S1x128_2_0) : (⟨S4x128, .f32⟩ : BufTy).Contents (Elt F) → (⟨S1x128, .f32⟩ : BufTy).Contents (Elt F)),
    reshape main_v227 main_v228 rfl shapeCasts_S1x128_S128,
    unary main_v228 main_v229 (broadcastInDim S1x128 ![1] bcast_S128_S1x128_1 : (⟨S128, .f32⟩ : BufTy).Contents (Elt F) → (⟨S1x128, .f32⟩ : BufTy).Contents (Elt F)),
    unary main_v229 main_v230 (broadcastInDim S100000x128 ![0, 1] bcast_S1x128_S100000x128_0_1 : (⟨S1x128, .f32⟩ : BufTy).Contents (Elt F) → (⟨S100000x128, .f32⟩ : BufTy).Contents (Elt F)),
    binary main_v226 main_v230 main_v231 (addf : (⟨S100000x128, .f32⟩ : BufTy).Contents (Elt F) → (⟨S100000x128, .f32⟩ : BufTy).Contents (Elt F) → (⟨S100000x128, .f32⟩ : BufTy).Contents (Elt F)) ]

/-- Layer 2, the first normalisation's scale and shift rows, that value's column mean and its column variance (the variance's select inside); ends with the operation writing main_v239. 32 operations. -/
abbrev opsL2C : List (HloOp τ sig (Elt F)) :=
  [ unary main_arg10 main_v232 ((extractStridedSlice S1x128 ![2, 0] · slices_S4x128_S1x128_2_0) : (⟨S4x128, .f32⟩ : BufTy).Contents (Elt F) → (⟨S1x128, .f32⟩ : BufTy).Contents (Elt F)),
    reshape main_v232 main_v233 rfl shapeCasts_S1x128_S128,
    unary main_arg11 main_v234 ((extractStridedSlice S1x128 ![2, 0] · slices_S4x128_S1x128_2_0) : (⟨S4x128, .f32⟩ : BufTy).Contents (Elt F) → (⟨S1x128, .f32⟩ : BufTy).Contents (Elt F)),
    reshape main_v234 main_v235 rfl shapeCasts_S1x128_S128,
    nullary main_cst_34 (constant S_ .f32 0x00000000#32),
    binary main_v231 main_cst_34 main_v236 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_35 (constant S_ .f32 0x47C35000#32),
    unary main_cst_35 main_v237 (broadcastInDim S128 ![] bcast_S_S128 : (⟨S_, .f32⟩ : BufTy).Contents (Elt F) → (⟨S128, .f32⟩ : BufTy).Contents (Elt F)),
    binary main_v236 main_v237 main_v238 (Host.divf : (⟨S128, .f32⟩ : BufTy).Contents (Elt F) → (⟨S128, .f32⟩ : BufTy).Contents (Elt F) → (⟨S128, .f32⟩ : BufTy).Contents (Elt F)),
    nullary main_c_36 (constantI S_ 32 0#32),
    TRef.nullary main_call12.cst (constant S_ .f32 0x00000000#32),
    TRef.binary (.of main_v231) main_call12.cst main_call12.v0 (fun x v => Host.reduceAdd x v reducesTo_S100000x128_S128_d0 h_S_),
    TRef.unary main_call12.v0 main_call12.v1 (broadcastInDim S1x128 ![1] bcast_S128_S1x128_1),
    TRef.nullary main_call12.cst_0 (constant S_ .f32 0x47C35000#32),
    TRef.unary main_call12.cst_0 main_call12.v2 (broadcastInDim S1x128 ![] bcast_S_S1x128),
    TRef.binary main_call12.v1 main_call12.v2 main_call12.v3 Host.divf,
    TRef.unary main_call12.v3 main_call12.v4 (broadcastInDim S100000x128 ![0, 1] bcast_S1x128_S100000x128_0_1),
    TRef.binary (.of main_v231) main_call12.v4 main_call12.v5 subf,
    TRef.binary main_call12.v5 main_call12.v5 main_call12.v6 mulf,
    TRef.unary (.of main_c_36) main_call12.v7 (sitofp .f32),
    TRef.nullary main_call12.cst_1 (constant S_ .f32 0x47C35000#32),
    TRef.binary main_call12.cst_1 main_call12.v7 main_call12.v8 subf,
    TRef.nullary main_call12.cst_2 (constant S_ .f32 0x00000000#32),
    TRef.binary main_call12.v6 main_call12.cst_2 main_call12.v9 (fun x v => Host.reduceAdd x v reducesTo_S100000x128_S128_d0 h_S_),
    TRef.unary main_call12.v8 main_call12.v10 (broadcastInDim S128 ![] bcast_S_S128),
    TRef.binary main_call12.v9 main_call12.v10 main_call12.v11 Host.divf,
    TRef.nullary main_call12.cst_3 (constant S_ .f32 0x00000000#32),
    TRef.binary main_call12.v8 main_call12.cst_3 main_call12.v12 (cmpf .ogt),
    TRef.nullary main_call12.cst_4 (constant S_ .f32 0x7FC00000#32),
    TRef.unary main_call12.cst_4 main_call12.call0.v0 id,
    TRef.unary main_call12.call0.v0 main_call12.call0.v1 (broadcastInDim S128 ![] bcast_S_S128),
    TRef.ternary main_call12.v12 main_call12.v11 main_call12.call0.v1 main_call12.call0.v2 (fun p a b => select (broadcastInDim S128 ![] bcast_S_S128 p) a b) ]

/-- Layer 2, centred, scaled by the inverse deviation, by gamma, shifted by beta, then the first relu; ends with the operation writing main_v255. 19 operations. -/
abbrev opsL2D : List (HloOp τ sig (Elt F)) :=
  [ unary main_v238 main_v240 (broadcastInDim S1x128 ![1] bcast_S128_S1x128_1 : (⟨S128, .f32⟩ : BufTy).Contents (Elt F) → (⟨S1x128, .f32⟩ : BufTy).Contents (Elt F)),
    unary main_v240 main_v241 (broadcastInDim S100000x128 ![0, 1] bcast_S1x128_S100000x128_0_1 : (⟨S1x128, .f32⟩ : BufTy).Contents (Elt F) → (⟨S100000x128, .f32⟩ : BufTy).Contents (Elt F)),
    binary main_v231 main_v241 main_v242 (subf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x3727C5AC#32),
    unary main_cst_37 main_v243 (broadcastInDim S128 ![] bcast_S_S128 : (⟨S_, .f32⟩ : BufTy).Contents (Elt F) → (⟨S128, .f32⟩ : BufTy).Contents (Elt F)),
    binary main_v239 main_v243 main_v244 (addf : (⟨S128, .f32⟩ : BufTy).Contents (Elt F) → (⟨S128, .f32⟩ : BufTy).Contents (Elt F) → (⟨S128, .f32⟩ : BufTy).Contents (Elt F)),
    unary main_v244 main_v245 (Host.rsqrt : (⟨S128, .f32⟩ : BufTy).Contents (Elt F) → (⟨S128, .f32⟩ : BufTy).Contents (Elt F)),
    unary main_v245 main_v246 (broadcastInDim S1x128 ![1] bcast_S128_S1x128_1 : (⟨S128, .f32⟩ : BufTy).Contents (Elt F) → (⟨S1x128, .f32⟩ : BufTy).Contents (Elt F)),
    unary main_v246 main_v247 (broadcastInDim S100000x128 ![0, 1] bcast_S1x128_S100000x128_0_1 : (⟨S1x128, .f32⟩ : BufTy).Contents (Elt F) → (⟨S100000x128, .f32⟩ : BufTy).Contents (Elt F)),
    binary main_v242 main_v247 main_v248 (mulf : (⟨S100000x128, .f32⟩ : BufTy).Contents (Elt F) → (⟨S100000x128, .f32⟩ : BufTy).Contents (Elt F) → (⟨S100000x128, .f32⟩ : BufTy).Contents (Elt F)),
    unary main_v233 main_v249 (broadcastInDim S1x128 ![1] bcast_S128_S1x128_1 : (⟨S128, .f32⟩ : BufTy).Contents (Elt F) → (⟨S1x128, .f32⟩ : BufTy).Contents (Elt F)),
    unary main_v249 main_v250 (broadcastInDim S100000x128 ![0, 1] bcast_S1x128_S100000x128_0_1 : (⟨S1x128, .f32⟩ : BufTy).Contents (Elt F) → (⟨S100000x128, .f32⟩ : BufTy).Contents (Elt F)),
    binary main_v248 main_v250 main_v251 (mulf : (⟨S100000x128, .f32⟩ : BufTy).Contents (Elt F) → (⟨S100000x128, .f32⟩ : BufTy).Contents (Elt F) → (⟨S100000x128, .f32⟩ : BufTy).Contents (Elt F)),
    unary main_v235 main_v252 (broadcastInDim S1x128 ![1] bcast_S128_S1x128_1 : (⟨S128, .f32⟩ : BufTy).Contents (Elt F) → (⟨S1x128, .f32⟩ : BufTy).Contents (Elt F)),
    unary main_v252 main_v253 (broadcastInDim S100000x128 ![0, 1] bcast_S1x128_S100000x128_0_1 : (⟨S1x128, .f32⟩ : BufTy).Contents (Elt F) → (⟨S100000x128, .f32⟩ : BufTy).Contents (Elt F)),
    binary main_v251 main_v253 main_v254 (addf : (⟨S100000x128, .f32⟩ : BufTy).Contents (Elt F) → (⟨S100000x128, .f32⟩ : BufTy).Contents (Elt F) → (⟨S100000x128, .f32⟩ : BufTy).Contents (Elt F)),
    TRef.nullary main_call13.cst (constant S_ .f32 0x00000000#32),
    TRef.unary main_call13.cst main_call13.v0 (broadcastInDim S100000x128 ![] bcast_S_S100000x128),
    TRef.binary (.of main_v254) main_call13.v0 main_call13.v1 maximumf ]

/-- Layer 2, through the second linear map: times W2, plus b2; ends with the operation writing main_v263. 8 operations. -/
abbrev opsL2E : List (HloOp τ sig (Elt F)) :=
  [ unary main_arg8 main_v256 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v256 main_v257 rfl shapeCasts_S1x128x128_S128x128,
    binary main_v255 main_v257 main_v258 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v259 ((extractStridedSlice S1x128 ![2, 0] · slices_S4x128_S1x128_2_0) : (⟨S4x128, .f32⟩ : BufTy).Contents (Elt F) → (⟨S1x128, .f32⟩ : BufTy).Contents (Elt F)),
    reshape main_v259 main_v260 rfl shapeCasts_S1x128_S128,
    unary main_v260 main_v261 (broadcastInDim S1x128 ![1] bcast_S128_S1x128_1 : (⟨S128, .f32⟩ : BufTy).Contents (Elt F) → (⟨S1x128, .f32⟩ : BufTy).Contents (Elt F)),
    unary main_v261 main_v262 (broadcastInDim S100000x128 ![0, 1] bcast_S1x128_S100000x128_0_1 : (⟨S1x128, .f32⟩ : BufTy).Contents (Elt F) → (⟨S100000x128, .f32⟩ : BufTy).Contents (Elt F)),
    binary main_v258 main_v262 main_v263 (addf : (⟨S100000x128, .f32⟩ : BufTy).Contents (Elt F) → (⟨S100000x128, .f32⟩ : BufTy).Contents (Elt F) → (⟨S100000x128, .f32⟩ : BufTy).Contents (Elt F)) ]

/-- Layer 2, the second normalisation's scale and shift rows, that value's column mean and column variance; ends with the operation writing main_v271. 32 operations. -/
abbrev opsL2F : List (HloOp τ sig (Elt F)) :=
  [ unary main_arg12 main_v264 ((extractStridedSlice S1x128 ![2, 0] · slices_S4x128_S1x128_2_0) : (⟨S4x128, .f32⟩ : BufTy).Contents (Elt F) → (⟨S1x128, .f32⟩ : BufTy).Contents (Elt F)),
    reshape main_v264 main_v265 rfl shapeCasts_S1x128_S128,
    unary main_arg13 main_v266 ((extractStridedSlice S1x128 ![2, 0] · slices_S4x128_S1x128_2_0) : (⟨S4x128, .f32⟩ : BufTy).Contents (Elt F) → (⟨S1x128, .f32⟩ : BufTy).Contents (Elt F)),
    reshape main_v266 main_v267 rfl shapeCasts_S1x128_S128,
    nullary main_cst_38 (constant S_ .f32 0x00000000#32),
    binary main_v263 main_cst_38 main_v268 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_39 (constant S_ .f32 0x47C35000#32),
    unary main_cst_39 main_v269 (broadcastInDim S128 ![] bcast_S_S128 : (⟨S_, .f32⟩ : BufTy).Contents (Elt F) → (⟨S128, .f32⟩ : BufTy).Contents (Elt F)),
    binary main_v268 main_v269 main_v270 (Host.divf : (⟨S128, .f32⟩ : BufTy).Contents (Elt F) → (⟨S128, .f32⟩ : BufTy).Contents (Elt F) → (⟨S128, .f32⟩ : BufTy).Contents (Elt F)),
    nullary main_c_40 (constantI S_ 32 0#32),
    TRef.nullary main_call14.cst (constant S_ .f32 0x00000000#32),
    TRef.binary (.of main_v263) main_call14.cst main_call14.v0 (fun x v => Host.reduceAdd x v reducesTo_S100000x128_S128_d0 h_S_),
    TRef.unary main_call14.v0 main_call14.v1 (broadcastInDim S1x128 ![1] bcast_S128_S1x128_1),
    TRef.nullary main_call14.cst_0 (constant S_ .f32 0x47C35000#32),
    TRef.unary main_call14.cst_0 main_call14.v2 (broadcastInDim S1x128 ![] bcast_S_S1x128),
    TRef.binary main_call14.v1 main_call14.v2 main_call14.v3 Host.divf,
    TRef.unary main_call14.v3 main_call14.v4 (broadcastInDim S100000x128 ![0, 1] bcast_S1x128_S100000x128_0_1),
    TRef.binary (.of main_v263) main_call14.v4 main_call14.v5 subf,
    TRef.binary main_call14.v5 main_call14.v5 main_call14.v6 mulf,
    TRef.unary (.of main_c_40) main_call14.v7 (sitofp .f32),
    TRef.nullary main_call14.cst_1 (constant S_ .f32 0x47C35000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S100000x128_S128_d0 h_S_),
    TRef.unary main_call14.v8 main_call14.v10 (broadcastInDim S128 ![] bcast_S_S128),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14.call0.v0 id,
    TRef.unary main_call14.call0.v0 main_call14.call0.v1 (broadcastInDim S128 ![] bcast_S_S128),
    TRef.ternary main_call14.v12 main_call14.v11 main_call14.call0.v1 main_call14.call0.v2 (fun p a b => select (broadcastInDim S128 ![] bcast_S_S128 p) a b) ]

/-- Layer 2, centred, scaled, shifted, then the second relu; ends with the operation writing main_v287. 19 operations. -/
abbrev opsL2G : List (HloOp τ sig (Elt F)) :=
  [ unary main_v270 main_v272 (broadcastInDim S1x128 ![1] bcast_S128_S1x128_1 : (⟨S128, .f32⟩ : BufTy).Contents (Elt F) → (⟨S1x128, .f32⟩ : BufTy).Contents (Elt F)),
    unary main_v272 main_v273 (broadcastInDim S100000x128 ![0, 1] bcast_S1x128_S100000x128_0_1 : (⟨S1x128, .f32⟩ : BufTy).Contents (Elt F) → (⟨S100000x128, .f32⟩ : BufTy).Contents (Elt F)),
    binary main_v263 main_v273 main_v274 (subf : (⟨S100000x128, .f32⟩ : BufTy).Contents (Elt F) → (⟨S100000x128, .f32⟩ : BufTy).Contents (Elt F) → (⟨S100000x128, .f32⟩ : BufTy).Contents (Elt F)),
    nullary main_cst_41 (constant S_ .f32 0x3727C5AC#32),
    unary main_cst_41 main_v275 (broadcastInDim S128 ![] bcast_S_S128 : (⟨S_, .f32⟩ : BufTy).Contents (Elt F) → (⟨S128, .f32⟩ : BufTy).Contents (Elt F)),
    binary main_v271 main_v275 main_v276 (addf : (⟨S128, .f32⟩ : BufTy).Contents (Elt F) → (⟨S128, .f32⟩ : BufTy).Contents (Elt F) → (⟨S128, .f32⟩ : BufTy).Contents (Elt F)),
    unary main_v276 main_v277 (Host.rsqrt : (⟨S128, .f32⟩ : BufTy).Contents (Elt F) → (⟨S128, .f32⟩ : BufTy).Contents (Elt F)),
    unary main_v277 main_v278 (broadcastInDim S1x128 ![1] bcast_S128_S1x128_1 : (⟨S128, .f32⟩ : BufTy).Contents (Elt F) → (⟨S1x128, .f32⟩ : BufTy).Contents (Elt F)),
    unary main_v278 main_v279 (broadcastInDim S100000x128 ![0, 1] bcast_S1x128_S100000x128_0_1 : (⟨S1x128, .f32⟩ : BufTy).Contents (Elt F) → (⟨S100000x128, .f32⟩ : BufTy).Contents (Elt F)),
    binary main_v274 main_v279 main_v280 (mulf : (⟨S100000x128, .f32⟩ : BufTy).Contents (Elt F) → (⟨S100000x128, .f32⟩ : BufTy).Contents (Elt F) → (⟨S100000x128, .f32⟩ : BufTy).Contents (Elt F)),
    unary main_v265 main_v281 (broadcastInDim S1x128 ![1] bcast_S128_S1x128_1 : (⟨S128, .f32⟩ : BufTy).Contents (Elt F) → (⟨S1x128, .f32⟩ : BufTy).Contents (Elt F)),
    unary main_v281 main_v282 (broadcastInDim S100000x128 ![0, 1] bcast_S1x128_S100000x128_0_1 : (⟨S1x128, .f32⟩ : BufTy).Contents (Elt F) → (⟨S100000x128, .f32⟩ : BufTy).Contents (Elt F)),
    binary main_v280 main_v282 main_v283 (mulf : (⟨S100000x128, .f32⟩ : BufTy).Contents (Elt F) → (⟨S100000x128, .f32⟩ : BufTy).Contents (Elt F) → (⟨S100000x128, .f32⟩ : BufTy).Contents (Elt F)),
    unary main_v267 main_v284 (broadcastInDim S1x128 ![1] bcast_S128_S1x128_1 : (⟨S128, .f32⟩ : BufTy).Contents (Elt F) → (⟨S1x128, .f32⟩ : BufTy).Contents (Elt F)),
    unary main_v284 main_v285 (broadcastInDim S100000x128 ![0, 1] bcast_S1x128_S100000x128_0_1 : (⟨S1x128, .f32⟩ : BufTy).Contents (Elt F) → (⟨S100000x128, .f32⟩ : BufTy).Contents (Elt F)),
    binary main_v283 main_v285 main_v286 (addf : (⟨S100000x128, .f32⟩ : BufTy).Contents (Elt F) → (⟨S100000x128, .f32⟩ : BufTy).Contents (Elt F) → (⟨S100000x128, .f32⟩ : BufTy).Contents (Elt F)),
    TRef.nullary main_call15.cst (constant S_ .f32 0x00000000#32),
    TRef.unary main_call15.cst main_call15.v0 (broadcastInDim S100000x128 ![] bcast_S_S100000x128),
    TRef.binary (.of main_v286) main_call15.v0 main_call15.v1 maximumf ]

/-- Layer 2, the outer normalisation's scale and shift rows, the column mean and column variance of the second relu's value; ends with the operation writing main_v295. 32 operations. -/
abbrev opsL2H : List (HloOp τ sig (Elt F)) :=
  [ unary main_arg14 main_v288 ((extractStridedSlice S1x128 ![2, 0] · slices_S4x128_S1x128_2_0) : (⟨S4x128, .f32⟩ : BufTy).Contents (Elt F) → (⟨S1x128, .f32⟩ : BufTy).Contents (Elt F)),
    reshape main_v288 main_v289 rfl shapeCasts_S1x128_S128,
    unary main_arg15 main_v290 ((extractStridedSlice S1x128 ![2, 0] · slices_S4x128_S1x128_2_0) : (⟨S4x128, .f32⟩ : BufTy).Contents (Elt F) → (⟨S1x128, .f32⟩ : BufTy).Contents (Elt F)),
    reshape main_v290 main_v291 rfl shapeCasts_S1x128_S128,
    nullary main_cst_42 (constant S_ .f32 0x00000000#32),
    binary main_v287 main_cst_42 main_v292 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_43 (constant S_ .f32 0x47C35000#32),
    unary main_cst_43 main_v293 (broadcastInDim S128 ![] bcast_S_S128 : (⟨S_, .f32⟩ : BufTy).Contents (Elt F) → (⟨S128, .f32⟩ : BufTy).Contents (Elt F)),
    binary main_v292 main_v293 main_v294 (Host.divf : (⟨S128, .f32⟩ : BufTy).Contents (Elt F) → (⟨S128, .f32⟩ : BufTy).Contents (Elt F) → (⟨S128, .f32⟩ : BufTy).Contents (Elt F)),
    nullary main_c_44 (constantI S_ 32 0#32),
    TRef.nullary main_call16.cst (constant S_ .f32 0x00000000#32),
    TRef.binary (.of main_v287) main_call16.cst main_call16.v0 (fun x v => Host.reduceAdd x v reducesTo_S100000x128_S128_d0 h_S_),
    TRef.unary main_call16.v0 main_call16.v1 (broadcastInDim S1x128 ![1] bcast_S128_S1x128_1),
    TRef.nullary main_call16.cst_0 (constant S_ .f32 0x47C35000#32),
    TRef.unary main_call16.cst_0 main_call16.v2 (broadcastInDim S1x128 ![] bcast_S_S1x128),
    TRef.binary main_call16.v1 main_call16.v2 main_call16.v3 Host.divf,
    TRef.unary main_call16.v3 main_call16.v4 (broadcastInDim S100000x128 ![0, 1] bcast_S1x128_S100000x128_0_1),
    TRef.binary (.of main_v287) main_call16.v4 main_call16.v5 subf,
    TRef.binary main_call16.v5 main_call16.v5 main_call16.v6 mulf,
    TRef.unary (.of main_c_44) main_call16.v7 (sitofp .f32),
    TRef.nullary main_call16.cst_1 (constant S_ .f32 0x47C35000#32),
    TRef.binary main_call16.cst_1 main_call16.v7 main_call16.v8 subf,
    TRef.nullary main_call16.cst_2 (constant S_ .f32 0x00000000#32),
    TRef.binary main_call16.v6 main_call16.cst_2 main_call16.v9 (fun x v => Host.reduceAdd x v reducesTo_S100000x128_S128_d0 h_S_),
    TRef.unary main_call16.v8 main_call16.v10 (broadcastInDim S128 ![] bcast_S_S128),
    TRef.binary main_call16.v9 main_call16.v10 main_call16.v11 Host.divf,
    TRef.nullary main_call16.cst_3 (constant S_ .f32 0x00000000#32),
    TRef.binary main_call16.v8 main_call16.cst_3 main_call16.v12 (cmpf .ogt),
    TRef.nullary main_call16.cst_4 (constant S_ .f32 0x7FC00000#32),
    TRef.unary main_call16.cst_4 main_call16.call0.v0 id,
    TRef.unary main_call16.call0.v0 main_call16.call0.v1 (broadcastInDim S128 ![] bcast_S_S128),
    TRef.ternary main_call16.v12 main_call16.v11 main_call16.call0.v1 main_call16.call0.v2 (fun p a b => select (broadcastInDim S128 ![] bcast_S_S128 p) a b) ]

/-- Layer 2, centred, scaled, shifted, then the third relu: the layer's output; ends with the operation writing main_v311. 19 operations. -/
abbrev opsL2I : List (HloOp τ sig (Elt F)) :=
  [ unary main_v294 main_v296 (broadcastInDim S1x128 ![1] bcast_S128_S1x128_1 : (⟨S128, .f32⟩ : BufTy).Contents (Elt F) → (⟨S1x128, .f32⟩ : BufTy).Contents (Elt F)),
    unary main_v296 main_v297 (broadcastInDim S100000x128 ![0, 1] bcast_S1x128_S100000x128_0_1 : (⟨S1x128, .f32⟩ : BufTy).Contents (Elt F) → (⟨S100000x128, .f32⟩ : BufTy).Contents (Elt F)),
    binary main_v287 main_v297 main_v298 (subf : (⟨S100000x128, .f32⟩ : BufTy).Contents (Elt F) → (⟨S100000x128, .f32⟩ : BufTy).Contents (Elt F) → (⟨S100000x128, .f32⟩ : BufTy).Contents (Elt F)),
    nullary main_cst_45 (constant S_ .f32 0x3727C5AC#32),
    unary main_cst_45 main_v299 (broadcastInDim S128 ![] bcast_S_S128 : (⟨S_, .f32⟩ : BufTy).Contents (Elt F) → (⟨S128, .f32⟩ : BufTy).Contents (Elt F)),
    binary main_v295 main_v299 main_v300 (addf : (⟨S128, .f32⟩ : BufTy).Contents (Elt F) → (⟨S128, .f32⟩ : BufTy).Contents (Elt F) → (⟨S128, .f32⟩ : BufTy).Contents (Elt F)),
    unary main_v300 main_v301 (Host.rsqrt : (⟨S128, .f32⟩ : BufTy).Contents (Elt F) → (⟨S128, .f32⟩ : BufTy).Contents (Elt F)),
    unary main_v301 main_v302 (broadcastInDim S1x128 ![1] bcast_S128_S1x128_1 : (⟨S128, .f32⟩ : BufTy).Contents (Elt F) → (⟨S1x128, .f32⟩ : BufTy).Contents (Elt F)),
    unary main_v302 main_v303 (broadcastInDim S100000x128 ![0, 1] bcast_S1x128_S100000x128_0_1 : (⟨S1x128, .f32⟩ : BufTy).Contents (Elt F) → (⟨S100000x128, .f32⟩ : BufTy).Contents (Elt F)),
    binary main_v298 main_v303 main_v304 (mulf : (⟨S100000x128, .f32⟩ : BufTy).Contents (Elt F) → (⟨S100000x128, .f32⟩ : BufTy).Contents (Elt F) → (⟨S100000x128, .f32⟩ : BufTy).Contents (Elt F)),
    unary main_v289 main_v305 (broadcastInDim S1x128 ![1] bcast_S128_S1x128_1 : (⟨S128, .f32⟩ : BufTy).Contents (Elt F) → (⟨S1x128, .f32⟩ : BufTy).Contents (Elt F)),
    unary main_v305 main_v306 (broadcastInDim S100000x128 ![0, 1] bcast_S1x128_S100000x128_0_1 : (⟨S1x128, .f32⟩ : BufTy).Contents (Elt F) → (⟨S100000x128, .f32⟩ : BufTy).Contents (Elt F)),
    binary main_v304 main_v306 main_v307 (mulf : (⟨S100000x128, .f32⟩ : BufTy).Contents (Elt F) → (⟨S100000x128, .f32⟩ : BufTy).Contents (Elt F) → (⟨S100000x128, .f32⟩ : BufTy).Contents (Elt F)),
    unary main_v291 main_v308 (broadcastInDim S1x128 ![1] bcast_S128_S1x128_1 : (⟨S128, .f32⟩ : BufTy).Contents (Elt F) → (⟨S1x128, .f32⟩ : BufTy).Contents (Elt F)),
    unary main_v308 main_v309 (broadcastInDim S100000x128 ![0, 1] bcast_S1x128_S100000x128_0_1 : (⟨S1x128, .f32⟩ : BufTy).Contents (Elt F) → (⟨S100000x128, .f32⟩ : BufTy).Contents (Elt F)),
    binary main_v307 main_v309 main_v310 (addf : (⟨S100000x128, .f32⟩ : BufTy).Contents (Elt F) → (⟨S100000x128, .f32⟩ : BufTy).Contents (Elt F) → (⟨S100000x128, .f32⟩ : BufTy).Contents (Elt F)),
    TRef.nullary main_call17.cst (constant S_ .f32 0x00000000#32),
    TRef.unary main_call17.cst main_call17.v0 (broadcastInDim S100000x128 ![] bcast_S_S100000x128),
    TRef.binary (.of main_v310) main_call17.v0 main_call17.v1 maximumf ]

/-- Layer 2: its nine pieces in order; ends with the layer's output main_v311. -/
abbrev opsL2 : List (HloOp τ sig (Elt F)) :=
  opsL2A ++ opsL2B ++ opsL2C ++ opsL2D ++ opsL2E ++ opsL2F ++ opsL2G ++ opsL2H ++ opsL2I

/-- Layer 3, the neighbour aggregate: the rows gathered along the edges' sources, scatter-added at their targets; ends with the operation writing main_v321. 13 operations. -/
abbrev opsL3A : List (HloOp τ sig (Elt F)) :=
  [ nullary main_c_46 (constantI S_ 32 0#32),
    unary main_c_46 main_v312 (broadcastInDim S1600000 ![] bcast_S_S1600000 : (⟨S_, .i32⟩ : BufTy).Contents (Elt F) → (⟨S1600000, .i32⟩ : BufTy).Contents (Elt F)),
    binary main_arg2 main_v312 main_v313 (cmpi .slt : (⟨S1600000, .i32⟩ : BufTy).Contents (Elt F) → (⟨S1600000, .i32⟩ : BufTy).Contents (Elt F) → (⟨S1600000, .i1⟩ : BufTy).Contents (Elt F)),
    nullary main_c_47 (constantI S_ 32 100000#32),
    unary main_c_47 main_v314 (broadcastInDim S1600000 ![] bcast_S_S1600000 : (⟨S_, .i32⟩ : BufTy).Contents (Elt F) → (⟨S1600000, .i32⟩ : BufTy).Contents (Elt F)),
    binary main_arg2 main_v314 main_v315 (addi : (⟨S1600000, .i32⟩ : BufTy).Contents (Elt F) → (⟨S1600000, .i32⟩ : BufTy).Contents (Elt F) → (⟨S1600000, .i32⟩ : BufTy).Contents (Elt F)),
    ternary main_v313 main_v315 main_arg2 main_v316 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v316 main_v317 (broadcastInDim S1600000x1 ![0] bcast_S1600000_S1600000x1_0 : (⟨S1600000, .i32⟩ : BufTy).Contents (Elt F) → (⟨S1600000x1, .i32⟩ : BufTy).Contents (Elt F)),
    binary main_v311 main_v317 main_v318 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_48 (constant S_ .f32 0x00000000#32),
    unary main_cst_48 main_v319 (broadcastInDim S100000x128 ![] bcast_S_S100000x128 : (⟨S_, .f32⟩ : BufTy).Contents (Elt F) → (⟨S100000x128, .f32⟩ : BufTy).Contents (Elt F)),
    unary main_arg3 main_v320 (broadcastInDim S1600000x1 ![0] bcast_S1600000_S1600000x1_0 : (⟨S1600000, .i32⟩ : BufTy).Contents (Elt F) → (⟨S1600000x1, .i32⟩ : BufTy).Contents (Elt F)),
    ternary main_v319 main_v320 main_v318 main_v321 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Layer 3, (1 + eps) times the input plus the aggregate, through the first linear map: times W1, plus b1; ends with the operation writing main_v335. 15 operations. -/
abbrev opsL3B : List (HloOp τ sig (Elt F)) :=
  [ unary main_arg5 main_v322 ((extractStridedSlice S1 ![3] · slices_S4_S1_3) : (⟨S4, .f32⟩ : BufTy).Contents (Elt F) → (⟨S1, .f32⟩ : BufTy).Contents (Elt F)),
    reshape main_v322 main_v323 rfl shapeCasts_S1_S_,
    nullary main_cst_49 (constant S_ .f32 0x3F800000#32),
    binary main_cst_49 main_v323 main_v324 (addf : (⟨S_, .f32⟩ : BufTy).Contents (Elt F) → (⟨S_, .f32⟩ : BufTy).Contents (Elt F) → (⟨S_, .f32⟩ : BufTy).Contents (Elt F)),
    unary main_v324 main_v325 (broadcastInDim S100000x128 ![] bcast_S_S100000x128 : (⟨S_, .f32⟩ : BufTy).Contents (Elt F) → (⟨S100000x128, .f32⟩ : BufTy).Contents (Elt F)),
    binary main_v325 main_v311 main_v326 (mulf : (⟨S100000x128, .f32⟩ : BufTy).Contents (Elt F) → (⟨S100000x128, .f32⟩ : BufTy).Contents (Elt F) → (⟨S100000x128, .f32⟩ : BufTy).Contents (Elt F)),
    binary main_v326 main_v321 main_v327 (addf : (⟨S100000x128, .f32⟩ : BufTy).Contents (Elt F) → (⟨S100000x128, .f32⟩ : BufTy).Contents (Elt F) → (⟨S100000x128, .f32⟩ : BufTy).Contents (Elt F)),
    unary main_arg6 main_v328 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v328 main_v329 rfl shapeCasts_S1x128x128_S128x128,
    binary main_v327 main_v329 main_v330 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v331 ((extractStridedSlice S1x128 ![3, 0] · slices_S4x128_S1x128_3_0) : (⟨S4x128, .f32⟩ : BufTy).Contents (Elt F) → (⟨S1x128, .f32⟩ : BufTy).Contents (Elt F)),
    reshape main_v331 main_v332 rfl shapeCasts_S1x128_S128,
    unary main_v332 main_v333 (broadcastInDim S1x128 ![1] bcast_S128_S1x128_1 : (⟨S128, .f32⟩ : BufTy).Contents (Elt F) → (⟨S1x128, .f32⟩ : BufTy).Contents (Elt F)),
    unary main_v333 main_v334 (broadcastInDim S100000x128 ![0, 1] bcast_S1x128_S100000x128_0_1 : (⟨S1x128, .f32⟩ : BufTy).Contents (Elt F) → (⟨S100000x128, .f32⟩ : BufTy).Contents (Elt F)),
    binary main_v330 main_v334 main_v335 (addf : (⟨S100000x128, .f32⟩ : BufTy).Contents (Elt F) → (⟨S100000x128, .f32⟩ : BufTy).Contents (Elt F) → (⟨S100000x128, .f32⟩ : BufTy).Contents (Elt F)) ]

/-- Layer 3, the first normalisation's scale and shift rows, that value's column mean and its column variance (the variance's select inside); ends with the operation writing main_v343. 32 operations. -/
abbrev opsL3C : List (HloOp τ sig (Elt F)) :=
  [ unary main_arg10 main_v336 ((extractStridedSlice S1x128 ![3, 0] · slices_S4x128_S1x128_3_0) : (⟨S4x128, .f32⟩ : BufTy).Contents (Elt F) → (⟨S1x128, .f32⟩ : BufTy).Contents (Elt F)),
    reshape main_v336 main_v337 rfl shapeCasts_S1x128_S128,
    unary main_arg11 main_v338 ((extractStridedSlice S1x128 ![3, 0] · slices_S4x128_S1x128_3_0) : (⟨S4x128, .f32⟩ : BufTy).Contents (Elt F) → (⟨S1x128, .f32⟩ : BufTy).Contents (Elt F)),
    reshape main_v338 main_v339 rfl shapeCasts_S1x128_S128,
    nullary main_cst_50 (constant S_ .f32 0x00000000#32),
    binary main_v335 main_cst_50 main_v340 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_51 (constant S_ .f32 0x47C35000#32),
    unary main_cst_51 main_v341 (broadcastInDim S128 ![] bcast_S_S128 : (⟨S_, .f32⟩ : BufTy).Contents (Elt F) → (⟨S128, .f32⟩ : BufTy).Contents (Elt F)),
    binary main_v340 main_v341 main_v342 (Host.divf : (⟨S128, .f32⟩ : BufTy).Contents (Elt F) → (⟨S128, .f32⟩ : BufTy).Contents (Elt F) → (⟨S128, .f32⟩ : BufTy).Contents (Elt F)),
    nullary main_c_52 (constantI S_ 32 0#32),
    TRef.nullary main_call18.cst (constant S_ .f32 0x00000000#32),
    TRef.binary (.of main_v335) main_call18.cst main_call18.v0 (fun x v => Host.reduceAdd x v reducesTo_S100000x128_S128_d0 h_S_),
    TRef.unary main_call18.v0 main_call18.v1 (broadcastInDim S1x128 ![1] bcast_S128_S1x128_1),
    TRef.nullary main_call18.cst_0 (constant S_ .f32 0x47C35000#32),
    TRef.unary main_call18.cst_0 main_call18.v2 (broadcastInDim S1x128 ![] bcast_S_S1x128),
    TRef.binary main_call18.v1 main_call18.v2 main_call18.v3 Host.divf,
    TRef.unary main_call18.v3 main_call18.v4 (broadcastInDim S100000x128 ![0, 1] bcast_S1x128_S100000x128_0_1),
    TRef.binary (.of main_v335) main_call18.v4 main_call18.v5 subf,
    TRef.binary main_call18.v5 main_call18.v5 main_call18.v6 mulf,
    TRef.unary (.of main_c_52) main_call18.v7 (sitofp .f32),
    TRef.nullary main_call18.cst_1 (constant S_ .f32 0x47C35000#32),
    TRef.binary main_call18.cst_1 main_call18.v7 main_call18.v8 subf,
    TRef.nullary main_call18.cst_2 (constant S_ .f32 0x00000000#32),
    TRef.binary main_call18.v6 main_call18.cst_2 main_call18.v9 (fun x v => Host.reduceAdd x v reducesTo_S100000x128_S128_d0 h_S_),
    TRef.unary main_call18.v8 main_call18.v10 (broadcastInDim S128 ![] bcast_S_S128),
    TRef.binary main_call18.v9 main_call18.v10 main_call18.v11 Host.divf,
    TRef.nullary main_call18.cst_3 (constant S_ .f32 0x00000000#32),
    TRef.binary main_call18.v8 main_call18.cst_3 main_call18.v12 (cmpf .ogt),
    TRef.nullary main_call18.cst_4 (constant S_ .f32 0x7FC00000#32),
    TRef.unary main_call18.cst_4 main_call18.call0.v0 id,
    TRef.unary main_call18.call0.v0 main_call18.call0.v1 (broadcastInDim S128 ![] bcast_S_S128),
    TRef.ternary main_call18.v12 main_call18.v11 main_call18.call0.v1 main_call18.call0.v2 (fun p a b => select (broadcastInDim S128 ![] bcast_S_S128 p) a b) ]

/-- Layer 3, centred, scaled by the inverse deviation, by gamma, shifted by beta, then the first relu; ends with the operation writing main_v359. 19 operations. -/
abbrev opsL3D : List (HloOp τ sig (Elt F)) :=
  [ unary main_v342 main_v344 (broadcastInDim S1x128 ![1] bcast_S128_S1x128_1 : (⟨S128, .f32⟩ : BufTy).Contents (Elt F) → (⟨S1x128, .f32⟩ : BufTy).Contents (Elt F)),
    unary main_v344 main_v345 (broadcastInDim S100000x128 ![0, 1] bcast_S1x128_S100000x128_0_1 : (⟨S1x128, .f32⟩ : BufTy).Contents (Elt F) → (⟨S100000x128, .f32⟩ : BufTy).Contents (Elt F)),
    binary main_v335 main_v345 main_v346 (subf : (⟨S100000x128, .f32⟩ : BufTy).Contents (Elt F) → (⟨S100000x128, .f32⟩ : BufTy).Contents (Elt F) → (⟨S100000x128, .f32⟩ : BufTy).Contents (Elt F)),
    nullary main_cst_53 (constant S_ .f32 0x3727C5AC#32),
    unary main_cst_53 main_v347 (broadcastInDim S128 ![] bcast_S_S128 : (⟨S_, .f32⟩ : BufTy).Contents (Elt F) → (⟨S128, .f32⟩ : BufTy).Contents (Elt F)),
    binary main_v343 main_v347 main_v348 (addf : (⟨S128, .f32⟩ : BufTy).Contents (Elt F) → (⟨S128, .f32⟩ : BufTy).Contents (Elt F) → (⟨S128, .f32⟩ : BufTy).Contents (Elt F)),
    unary main_v348 main_v349 (Host.rsqrt : (⟨S128, .f32⟩ : BufTy).Contents (Elt F) → (⟨S128, .f32⟩ : BufTy).Contents (Elt F)),
    unary main_v349 main_v350 (broadcastInDim S1x128 ![1] bcast_S128_S1x128_1 : (⟨S128, .f32⟩ : BufTy).Contents (Elt F) → (⟨S1x128, .f32⟩ : BufTy).Contents (Elt F)),
    unary main_v350 main_v351 (broadcastInDim S100000x128 ![0, 1] bcast_S1x128_S100000x128_0_1 : (⟨S1x128, .f32⟩ : BufTy).Contents (Elt F) → (⟨S100000x128, .f32⟩ : BufTy).Contents (Elt F)),
    binary main_v346 main_v351 main_v352 (mulf : (⟨S100000x128, .f32⟩ : BufTy).Contents (Elt F) → (⟨S100000x128, .f32⟩ : BufTy).Contents (Elt F) → (⟨S100000x128, .f32⟩ : BufTy).Contents (Elt F)),
    unary main_v337 main_v353 (broadcastInDim S1x128 ![1] bcast_S128_S1x128_1 : (⟨S128, .f32⟩ : BufTy).Contents (Elt F) → (⟨S1x128, .f32⟩ : BufTy).Contents (Elt F)),
    unary main_v353 main_v354 (broadcastInDim S100000x128 ![0, 1] bcast_S1x128_S100000x128_0_1 : (⟨S1x128, .f32⟩ : BufTy).Contents (Elt F) → (⟨S100000x128, .f32⟩ : BufTy).Contents (Elt F)),
    binary main_v352 main_v354 main_v355 (mulf : (⟨S100000x128, .f32⟩ : BufTy).Contents (Elt F) → (⟨S100000x128, .f32⟩ : BufTy).Contents (Elt F) → (⟨S100000x128, .f32⟩ : BufTy).Contents (Elt F)),
    unary main_v339 main_v356 (broadcastInDim S1x128 ![1] bcast_S128_S1x128_1 : (⟨S128, .f32⟩ : BufTy).Contents (Elt F) → (⟨S1x128, .f32⟩ : BufTy).Contents (Elt F)),
    unary main_v356 main_v357 (broadcastInDim S100000x128 ![0, 1] bcast_S1x128_S100000x128_0_1 : (⟨S1x128, .f32⟩ : BufTy).Contents (Elt F) → (⟨S100000x128, .f32⟩ : BufTy).Contents (Elt F)),
    binary main_v355 main_v357 main_v358 (addf : (⟨S100000x128, .f32⟩ : BufTy).Contents (Elt F) → (⟨S100000x128, .f32⟩ : BufTy).Contents (Elt F) → (⟨S100000x128, .f32⟩ : BufTy).Contents (Elt F)),
    TRef.nullary main_call19.cst (constant S_ .f32 0x00000000#32),
    TRef.unary main_call19.cst main_call19.v0 (broadcastInDim S100000x128 ![] bcast_S_S100000x128),
    TRef.binary (.of main_v358) main_call19.v0 main_call19.v1 maximumf ]

/-- Layer 3, through the second linear map: times W2, plus b2; ends with the operation writing main_v367. 8 operations. -/
abbrev opsL3E : List (HloOp τ sig (Elt F)) :=
  [ unary main_arg8 main_v360 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v360 main_v361 rfl shapeCasts_S1x128x128_S128x128,
    binary main_v359 main_v361 main_v362 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v363 ((extractStridedSlice S1x128 ![3, 0] · slices_S4x128_S1x128_3_0) : (⟨S4x128, .f32⟩ : BufTy).Contents (Elt F) → (⟨S1x128, .f32⟩ : BufTy).Contents (Elt F)),
    reshape main_v363 main_v364 rfl shapeCasts_S1x128_S128,
    unary main_v364 main_v365 (broadcastInDim S1x128 ![1] bcast_S128_S1x128_1 : (⟨S128, .f32⟩ : BufTy).Contents (Elt F) → (⟨S1x128, .f32⟩ : BufTy).Contents (Elt F)),
    unary main_v365 main_v366 (broadcastInDim S100000x128 ![0, 1] bcast_S1x128_S100000x128_0_1 : (⟨S1x128, .f32⟩ : BufTy).Contents (Elt F) → (⟨S100000x128, .f32⟩ : BufTy).Contents (Elt F)),
    binary main_v362 main_v366 main_v367 (addf : (⟨S100000x128, .f32⟩ : BufTy).Contents (Elt F) → (⟨S100000x128, .f32⟩ : BufTy).Contents (Elt F) → (⟨S100000x128, .f32⟩ : BufTy).Contents (Elt F)) ]

/-- Layer 3, the second normalisation's scale and shift rows, that value's column mean and column variance; ends with the operation writing main_v375. 32 operations. -/
abbrev opsL3F : List (HloOp τ sig (Elt F)) :=
  [ unary main_arg12 main_v368 ((extractStridedSlice S1x128 ![3, 0] · slices_S4x128_S1x128_3_0) : (⟨S4x128, .f32⟩ : BufTy).Contents (Elt F) → (⟨S1x128, .f32⟩ : BufTy).Contents (Elt F)),
    reshape main_v368 main_v369 rfl shapeCasts_S1x128_S128,
    unary main_arg13 main_v370 ((extractStridedSlice S1x128 ![3, 0] · slices_S4x128_S1x128_3_0) : (⟨S4x128, .f32⟩ : BufTy).Contents (Elt F) → (⟨S1x128, .f32⟩ : BufTy).Contents (Elt F)),
    reshape main_v370 main_v371 rfl shapeCasts_S1x128_S128,
    nullary main_cst_54 (constant S_ .f32 0x00000000#32),
    binary main_v367 main_cst_54 main_v372 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_55 (constant S_ .f32 0x47C35000#32),
    unary main_cst_55 main_v373 (broadcastInDim S128 ![] bcast_S_S128 : (⟨S_, .f32⟩ : BufTy).Contents (Elt F) → (⟨S128, .f32⟩ : BufTy).Contents (Elt F)),
    binary main_v372 main_v373 main_v374 (Host.divf : (⟨S128, .f32⟩ : BufTy).Contents (Elt F) → (⟨S128, .f32⟩ : BufTy).Contents (Elt F) → (⟨S128, .f32⟩ : BufTy).Contents (Elt F)),
    nullary main_c_56 (constantI S_ 32 0#32),
    TRef.nullary main_call20.cst (constant S_ .f32 0x00000000#32),
    TRef.binary (.of main_v367) main_call20.cst main_call20.v0 (fun x v => Host.reduceAdd x v reducesTo_S100000x128_S128_d0 h_S_),
    TRef.unary main_call20.v0 main_call20.v1 (broadcastInDim S1x128 ![1] bcast_S128_S1x128_1),
    TRef.nullary main_call20.cst_0 (constant S_ .f32 0x47C35000#32),
    TRef.unary main_call20.cst_0 main_call20.v2 (broadcastInDim S1x128 ![] bcast_S_S1x128),
    TRef.binary main_call20.v1 main_call20.v2 main_call20.v3 Host.divf,
    TRef.unary main_call20.v3 main_call20.v4 (broadcastInDim S100000x128 ![0, 1] bcast_S1x128_S100000x128_0_1),
    TRef.binary (.of main_v367) main_call20.v4 main_call20.v5 subf,
    TRef.binary main_call20.v5 main_call20.v5 main_call20.v6 mulf,
    TRef.unary (.of main_c_56) main_call20.v7 (sitofp .f32),
    TRef.nullary main_call20.cst_1 (constant S_ .f32 0x47C35000#32),
    TRef.binary main_call20.cst_1 main_call20.v7 main_call20.v8 subf,
    TRef.nullary main_call20.cst_2 (constant S_ .f32 0x00000000#32),
    TRef.binary main_call20.v6 main_call20.cst_2 main_call20.v9 (fun x v => Host.reduceAdd x v reducesTo_S100000x128_S128_d0 h_S_),
    TRef.unary main_call20.v8 main_call20.v10 (broadcastInDim S128 ![] bcast_S_S128),
    TRef.binary main_call20.v9 main_call20.v10 main_call20.v11 Host.divf,
    TRef.nullary main_call20.cst_3 (constant S_ .f32 0x00000000#32),
    TRef.binary main_call20.v8 main_call20.cst_3 main_call20.v12 (cmpf .ogt),
    TRef.nullary main_call20.cst_4 (constant S_ .f32 0x7FC00000#32),
    TRef.unary main_call20.cst_4 main_call20.call0.v0 id,
    TRef.unary main_call20.call0.v0 main_call20.call0.v1 (broadcastInDim S128 ![] bcast_S_S128),
    TRef.ternary main_call20.v12 main_call20.v11 main_call20.call0.v1 main_call20.call0.v2 (fun p a b => select (broadcastInDim S128 ![] bcast_S_S128 p) a b) ]

/-- Layer 3, centred, scaled, shifted, then the second relu; ends with the operation writing main_v391. 19 operations. -/
abbrev opsL3G : List (HloOp τ sig (Elt F)) :=
  [ unary main_v374 main_v376 (broadcastInDim S1x128 ![1] bcast_S128_S1x128_1 : (⟨S128, .f32⟩ : BufTy).Contents (Elt F) → (⟨S1x128, .f32⟩ : BufTy).Contents (Elt F)),
    unary main_v376 main_v377 (broadcastInDim S100000x128 ![0, 1] bcast_S1x128_S100000x128_0_1 : (⟨S1x128, .f32⟩ : BufTy).Contents (Elt F) → (⟨S100000x128, .f32⟩ : BufTy).Contents (Elt F)),
    binary main_v367 main_v377 main_v378 (subf : (⟨S100000x128, .f32⟩ : BufTy).Contents (Elt F) → (⟨S100000x128, .f32⟩ : BufTy).Contents (Elt F) → (⟨S100000x128, .f32⟩ : BufTy).Contents (Elt F)),
    nullary main_cst_57 (constant S_ .f32 0x3727C5AC#32),
    unary main_cst_57 main_v379 (broadcastInDim S128 ![] bcast_S_S128 : (⟨S_, .f32⟩ : BufTy).Contents (Elt F) → (⟨S128, .f32⟩ : BufTy).Contents (Elt F)),
    binary main_v375 main_v379 main_v380 (addf : (⟨S128, .f32⟩ : BufTy).Contents (Elt F) → (⟨S128, .f32⟩ : BufTy).Contents (Elt F) → (⟨S128, .f32⟩ : BufTy).Contents (Elt F)),
    unary main_v380 main_v381 (Host.rsqrt : (⟨S128, .f32⟩ : BufTy).Contents (Elt F) → (⟨S128, .f32⟩ : BufTy).Contents (Elt F)),
    unary main_v381 main_v382 (broadcastInDim S1x128 ![1] bcast_S128_S1x128_1 : (⟨S128, .f32⟩ : BufTy).Contents (Elt F) → (⟨S1x128, .f32⟩ : BufTy).Contents (Elt F)),
    unary main_v382 main_v383 (broadcastInDim S100000x128 ![0, 1] bcast_S1x128_S100000x128_0_1 : (⟨S1x128, .f32⟩ : BufTy).Contents (Elt F) → (⟨S100000x128, .f32⟩ : BufTy).Contents (Elt F)),
    binary main_v378 main_v383 main_v384 (mulf : (⟨S100000x128, .f32⟩ : BufTy).Contents (Elt F) → (⟨S100000x128, .f32⟩ : BufTy).Contents (Elt F) → (⟨S100000x128, .f32⟩ : BufTy).Contents (Elt F)),
    unary main_v369 main_v385 (broadcastInDim S1x128 ![1] bcast_S128_S1x128_1 : (⟨S128, .f32⟩ : BufTy).Contents (Elt F) → (⟨S1x128, .f32⟩ : BufTy).Contents (Elt F)),
    unary main_v385 main_v386 (broadcastInDim S100000x128 ![0, 1] bcast_S1x128_S100000x128_0_1 : (⟨S1x128, .f32⟩ : BufTy).Contents (Elt F) → (⟨S100000x128, .f32⟩ : BufTy).Contents (Elt F)),
    binary main_v384 main_v386 main_v387 (mulf : (⟨S100000x128, .f32⟩ : BufTy).Contents (Elt F) → (⟨S100000x128, .f32⟩ : BufTy).Contents (Elt F) → (⟨S100000x128, .f32⟩ : BufTy).Contents (Elt F)),
    unary main_v371 main_v388 (broadcastInDim S1x128 ![1] bcast_S128_S1x128_1 : (⟨S128, .f32⟩ : BufTy).Contents (Elt F) → (⟨S1x128, .f32⟩ : BufTy).Contents (Elt F)),
    unary main_v388 main_v389 (broadcastInDim S100000x128 ![0, 1] bcast_S1x128_S100000x128_0_1 : (⟨S1x128, .f32⟩ : BufTy).Contents (Elt F) → (⟨S100000x128, .f32⟩ : BufTy).Contents (Elt F)),
    binary main_v387 main_v389 main_v390 (addf : (⟨S100000x128, .f32⟩ : BufTy).Contents (Elt F) → (⟨S100000x128, .f32⟩ : BufTy).Contents (Elt F) → (⟨S100000x128, .f32⟩ : BufTy).Contents (Elt F)),
    TRef.nullary main_call21.cst (constant S_ .f32 0x00000000#32),
    TRef.unary main_call21.cst main_call21.v0 (broadcastInDim S100000x128 ![] bcast_S_S100000x128),
    TRef.binary (.of main_v390) main_call21.v0 main_call21.v1 maximumf ]

/-- Layer 3, the outer normalisation's scale and shift rows, the column mean and column variance of the second relu's value; ends with the operation writing main_v399. 32 operations. -/
abbrev opsL3H : List (HloOp τ sig (Elt F)) :=
  [ unary main_arg14 main_v392 ((extractStridedSlice S1x128 ![3, 0] · slices_S4x128_S1x128_3_0) : (⟨S4x128, .f32⟩ : BufTy).Contents (Elt F) → (⟨S1x128, .f32⟩ : BufTy).Contents (Elt F)),
    reshape main_v392 main_v393 rfl shapeCasts_S1x128_S128,
    unary main_arg15 main_v394 ((extractStridedSlice S1x128 ![3, 0] · slices_S4x128_S1x128_3_0) : (⟨S4x128, .f32⟩ : BufTy).Contents (Elt F) → (⟨S1x128, .f32⟩ : BufTy).Contents (Elt F)),
    reshape main_v394 main_v395 rfl shapeCasts_S1x128_S128,
    nullary main_cst_58 (constant S_ .f32 0x00000000#32),
    binary main_v391 main_cst_58 main_v396 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_59 (constant S_ .f32 0x47C35000#32),
    unary main_cst_59 main_v397 (broadcastInDim S128 ![] bcast_S_S128 : (⟨S_, .f32⟩ : BufTy).Contents (Elt F) → (⟨S128, .f32⟩ : BufTy).Contents (Elt F)),
    binary main_v396 main_v397 main_v398 (Host.divf : (⟨S128, .f32⟩ : BufTy).Contents (Elt F) → (⟨S128, .f32⟩ : BufTy).Contents (Elt F) → (⟨S128, .f32⟩ : BufTy).Contents (Elt F)),
    nullary main_c_60 (constantI S_ 32 0#32),
    TRef.nullary main_call22.cst (constant S_ .f32 0x00000000#32),
    TRef.binary (.of main_v391) main_call22.cst main_call22.v0 (fun x v => Host.reduceAdd x v reducesTo_S100000x128_S128_d0 h_S_),
    TRef.unary main_call22.v0 main_call22.v1 (broadcastInDim S1x128 ![1] bcast_S128_S1x128_1),
    TRef.nullary main_call22.cst_0 (constant S_ .f32 0x47C35000#32),
    TRef.unary main_call22.cst_0 main_call22.v2 (broadcastInDim S1x128 ![] bcast_S_S1x128),
    TRef.binary main_call22.v1 main_call22.v2 main_call22.v3 Host.divf,
    TRef.unary main_call22.v3 main_call22.v4 (broadcastInDim S100000x128 ![0, 1] bcast_S1x128_S100000x128_0_1),
    TRef.binary (.of main_v391) main_call22.v4 main_call22.v5 subf,
    TRef.binary main_call22.v5 main_call22.v5 main_call22.v6 mulf,
    TRef.unary (.of main_c_60) main_call22.v7 (sitofp .f32),
    TRef.nullary main_call22.cst_1 (constant S_ .f32 0x47C35000#32),
    TRef.binary main_call22.cst_1 main_call22.v7 main_call22.v8 subf,
    TRef.nullary main_call22.cst_2 (constant S_ .f32 0x00000000#32),
    TRef.binary main_call22.v6 main_call22.cst_2 main_call22.v9 (fun x v => Host.reduceAdd x v reducesTo_S100000x128_S128_d0 h_S_),
    TRef.unary main_call22.v8 main_call22.v10 (broadcastInDim S128 ![] bcast_S_S128),
    TRef.binary main_call22.v9 main_call22.v10 main_call22.v11 Host.divf,
    TRef.nullary main_call22.cst_3 (constant S_ .f32 0x00000000#32),
    TRef.binary main_call22.v8 main_call22.cst_3 main_call22.v12 (cmpf .ogt),
    TRef.nullary main_call22.cst_4 (constant S_ .f32 0x7FC00000#32),
    TRef.unary main_call22.cst_4 main_call22.call0.v0 id,
    TRef.unary main_call22.call0.v0 main_call22.call0.v1 (broadcastInDim S128 ![] bcast_S_S128),
    TRef.ternary main_call22.v12 main_call22.v11 main_call22.call0.v1 main_call22.call0.v2 (fun p a b => select (broadcastInDim S128 ![] bcast_S_S128 p) a b) ]

/-- Layer 3, centred, scaled, shifted, then the third relu: the layer's output; ends with the operation writing main_v415. 19 operations. -/
abbrev opsL3I : List (HloOp τ sig (Elt F)) :=
  [ unary main_v398 main_v400 (broadcastInDim S1x128 ![1] bcast_S128_S1x128_1 : (⟨S128, .f32⟩ : BufTy).Contents (Elt F) → (⟨S1x128, .f32⟩ : BufTy).Contents (Elt F)),
    unary main_v400 main_v401 (broadcastInDim S100000x128 ![0, 1] bcast_S1x128_S100000x128_0_1 : (⟨S1x128, .f32⟩ : BufTy).Contents (Elt F) → (⟨S100000x128, .f32⟩ : BufTy).Contents (Elt F)),
    binary main_v391 main_v401 main_v402 (subf : (⟨S100000x128, .f32⟩ : BufTy).Contents (Elt F) → (⟨S100000x128, .f32⟩ : BufTy).Contents (Elt F) → (⟨S100000x128, .f32⟩ : BufTy).Contents (Elt F)),
    nullary main_cst_61 (constant S_ .f32 0x3727C5AC#32),
    unary main_cst_61 main_v403 (broadcastInDim S128 ![] bcast_S_S128 : (⟨S_, .f32⟩ : BufTy).Contents (Elt F) → (⟨S128, .f32⟩ : BufTy).Contents (Elt F)),
    binary main_v399 main_v403 main_v404 (addf : (⟨S128, .f32⟩ : BufTy).Contents (Elt F) → (⟨S128, .f32⟩ : BufTy).Contents (Elt F) → (⟨S128, .f32⟩ : BufTy).Contents (Elt F)),
    unary main_v404 main_v405 (Host.rsqrt : (⟨S128, .f32⟩ : BufTy).Contents (Elt F) → (⟨S128, .f32⟩ : BufTy).Contents (Elt F)),
    unary main_v405 main_v406 (broadcastInDim S1x128 ![1] bcast_S128_S1x128_1 : (⟨S128, .f32⟩ : BufTy).Contents (Elt F) → (⟨S1x128, .f32⟩ : BufTy).Contents (Elt F)),
    unary main_v406 main_v407 (broadcastInDim S100000x128 ![0, 1] bcast_S1x128_S100000x128_0_1 : (⟨S1x128, .f32⟩ : BufTy).Contents (Elt F) → (⟨S100000x128, .f32⟩ : BufTy).Contents (Elt F)),
    binary main_v402 main_v407 main_v408 (mulf : (⟨S100000x128, .f32⟩ : BufTy).Contents (Elt F) → (⟨S100000x128, .f32⟩ : BufTy).Contents (Elt F) → (⟨S100000x128, .f32⟩ : BufTy).Contents (Elt F)),
    unary main_v393 main_v409 (broadcastInDim S1x128 ![1] bcast_S128_S1x128_1 : (⟨S128, .f32⟩ : BufTy).Contents (Elt F) → (⟨S1x128, .f32⟩ : BufTy).Contents (Elt F)),
    unary main_v409 main_v410 (broadcastInDim S100000x128 ![0, 1] bcast_S1x128_S100000x128_0_1 : (⟨S1x128, .f32⟩ : BufTy).Contents (Elt F) → (⟨S100000x128, .f32⟩ : BufTy).Contents (Elt F)),
    binary main_v408 main_v410 main_v411 (mulf : (⟨S100000x128, .f32⟩ : BufTy).Contents (Elt F) → (⟨S100000x128, .f32⟩ : BufTy).Contents (Elt F) → (⟨S100000x128, .f32⟩ : BufTy).Contents (Elt F)),
    unary main_v395 main_v412 (broadcastInDim S1x128 ![1] bcast_S128_S1x128_1 : (⟨S128, .f32⟩ : BufTy).Contents (Elt F) → (⟨S1x128, .f32⟩ : BufTy).Contents (Elt F)),
    unary main_v412 main_v413 (broadcastInDim S100000x128 ![0, 1] bcast_S1x128_S100000x128_0_1 : (⟨S1x128, .f32⟩ : BufTy).Contents (Elt F) → (⟨S100000x128, .f32⟩ : BufTy).Contents (Elt F)),
    binary main_v411 main_v413 main_v414 (addf : (⟨S100000x128, .f32⟩ : BufTy).Contents (Elt F) → (⟨S100000x128, .f32⟩ : BufTy).Contents (Elt F) → (⟨S100000x128, .f32⟩ : BufTy).Contents (Elt F)),
    TRef.nullary main_call23.cst (constant S_ .f32 0x00000000#32),
    TRef.unary main_call23.cst main_call23.v0 (broadcastInDim S100000x128 ![] bcast_S_S100000x128),
    TRef.binary (.of main_v414) main_call23.v0 main_call23.v1 maximumf ]

/-- Layer 3: its nine pieces in order; ends with the layer's output main_v415. -/
abbrev opsL3 : List (HloOp τ sig (Elt F)) :=
  opsL3A ++ opsL3B ++ opsL3C ++ opsL3D ++ opsL3E ++ opsL3F ++ opsL3G ++ opsL3H ++ opsL3I

/-- The five pooled sums: the input and each layer's output scatter-added by graph; ends with the operation writing main_v430. 20 operations. -/
abbrev opsTailPool : List (HloOp τ sig (Elt F)) :=
  [ nullary main_cst_62 (constant S_ .f32 0x00000000#32),
    unary main_cst_62 main_v416 (broadcastInDim S64x128 ![] bcast_S_S64x128 : (⟨S_, .f32⟩ : BufTy).Contents (Elt F) → (⟨S64x128, .f32⟩ : BufTy).Contents (Elt F)),
    unary main_arg4 main_v417 (broadcastInDim S100000x1 ![0] bcast_S100000_S100000x1_0 : (⟨S100000, .i32⟩ : BufTy).Contents (Elt F) → (⟨S100000x1, .i32⟩ : BufTy).Contents (Elt F)),
    ternary main_v416 main_v417 main_arg0 main_v418 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_63 (constant S_ .f32 0x00000000#32),
    unary main_cst_63 main_v419 (broadcastInDim S64x128 ![] bcast_S_S64x128 : (⟨S_, .f32⟩ : BufTy).Contents (Elt F) → (⟨S64x128, .f32⟩ : BufTy).Contents (Elt F)),
    unary main_arg4 main_v420 (broadcastInDim S100000x1 ![0] bcast_S100000_S100000x1_0 : (⟨S100000, .i32⟩ : BufTy).Contents (Elt F) → (⟨S100000x1, .i32⟩ : BufTy).Contents (Elt F)),
    ternary main_v419 main_v420 main_v103 main_v421 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_64 (constant S_ .f32 0x00000000#32),
    unary main_cst_64 main_v422 (broadcastInDim S64x128 ![] bcast_S_S64x128 : (⟨S_, .f32⟩ : BufTy).Contents (Elt F) → (⟨S64x128, .f32⟩ : BufTy).Contents (Elt F)),
    unary main_arg4 main_v423 (broadcastInDim S100000x1 ![0] bcast_S100000_S100000x1_0 : (⟨S100000, .i32⟩ : BufTy).Contents (Elt F) → (⟨S100000x1, .i32⟩ : BufTy).Contents (Elt F)),
    ternary main_v422 main_v423 main_v207 main_v424 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_65 (constant S_ .f32 0x00000000#32),
    unary main_cst_65 main_v425 (broadcastInDim S64x128 ![] bcast_S_S64x128 : (⟨S_, .f32⟩ : BufTy).Contents (Elt F) → (⟨S64x128, .f32⟩ : BufTy).Contents (Elt F)),
    unary main_arg4 main_v426 (broadcastInDim S100000x1 ![0] bcast_S100000_S100000x1_0 : (⟨S100000, .i32⟩ : BufTy).Contents (Elt F) → (⟨S100000x1, .i32⟩ : BufTy).Contents (Elt F)),
    ternary main_v425 main_v426 main_v311 main_v427 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_66 (constant S_ .f32 0x00000000#32),
    unary main_cst_66 main_v428 (broadcastInDim S64x128 ![] bcast_S_S64x128 : (⟨S_, .f32⟩ : BufTy).Contents (Elt F) → (⟨S64x128, .f32⟩ : BufTy).Contents (Elt F)),
    unary main_arg4 main_v429 (broadcastInDim S100000x1 ![0] bcast_S100000_S100000x1_0 : (⟨S100000, .i32⟩ : BufTy).Contents (Elt F) → (⟨S100000x1, .i32⟩ : BufTy).Contents (Elt F)),
    ternary main_v428 main_v429 main_v415 main_v430 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ]

/-- The prediction heads: each pooled sum through its linear map, the five added up; ends with the result main_v476. 47 operations. -/
abbrev opsTailHead : List (HloOp τ sig (Elt F)) :=
  [ unary main_arg16 main_v431 ((extractStridedSlice S1x128x64 ![0, 0, 0] · slices_S5x128x64_S1x128x64_0_0_0) : (⟨S5x128x64, .f32⟩ : BufTy).Contents (Elt F) → (⟨S1x128x64, .f32⟩ : BufTy).Contents (Elt F)),
    reshape main_v431 main_v432 rfl shapeCasts_S1x128x64_S128x64,
    binary main_v418 main_v432 main_v433 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v434 ((extractStridedSlice S1x64 ![0, 0] · slices_S5x64_S1x64_0_0) : (⟨S5x64, .f32⟩ : BufTy).Contents (Elt F) → (⟨S1x64, .f32⟩ : BufTy).Contents (Elt F)),
    reshape main_v434 main_v435 rfl shapeCasts_S1x64_S64,
    unary main_v435 main_v436 (broadcastInDim S1x64 ![1] bcast_S64_S1x64_1 : (⟨S64, .f32⟩ : BufTy).Contents (Elt F) → (⟨S1x64, .f32⟩ : BufTy).Contents (Elt F)),
    unary main_v436 main_v437 (broadcastInDim S64x64 ![0, 1] bcast_S1x64_S64x64_0_1 : (⟨S1x64, .f32⟩ : BufTy).Contents (Elt F) → (⟨S64x64, .f32⟩ : BufTy).Contents (Elt F)),
    binary main_v433 main_v437 main_v438 (addf : (⟨S64x64, .f32⟩ : BufTy).Contents (Elt F) → (⟨S64x64, .f32⟩ : BufTy).Contents (Elt F) → (⟨S64x64, .f32⟩ : BufTy).Contents (Elt F)),
    nullary main_cst_67 (constant S_ .f32 0x00000000#32),
    unary main_cst_67 main_v439 (broadcastInDim S64x64 ![] bcast_S_S64x64 : (⟨S_, .f32⟩ : BufTy).Contents (Elt F) → (⟨S64x64, .f32⟩ : BufTy).Contents (Elt F)),
    binary main_v439 main_v438 main_v440 (addf : (⟨S64x64, .f32⟩ : BufTy).Contents (Elt F) → (⟨S64x64, .f32⟩ : BufTy).Contents (Elt F) → (⟨S64x64, .f32⟩ : BufTy).Contents (Elt F)),
    unary main_arg16 main_v441 ((extractStridedSlice S1x128x64 ![1, 0, 0] · slices_S5x128x64_S1x128x64_1_0_0) : (⟨S5x128x64, .f32⟩ : BufTy).Contents (Elt F) → (⟨S1x128x64, .f32⟩ : BufTy).Contents (Elt F)),
    reshape main_v441 main_v442 rfl shapeCasts_S1x128x64_S128x64,
    binary main_v421 main_v442 main_v443 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v444 ((extractStridedSlice S1x64 ![1, 0] · slices_S5x64_S1x64_1_0) : (⟨S5x64, .f32⟩ : BufTy).Contents (Elt F) → (⟨S1x64, .f32⟩ : BufTy).Contents (Elt F)),
    reshape main_v444 main_v445 rfl shapeCasts_S1x64_S64,
    unary main_v445 main_v446 (broadcastInDim S1x64 ![1] bcast_S64_S1x64_1 : (⟨S64, .f32⟩ : BufTy).Contents (Elt F) → (⟨S1x64, .f32⟩ : BufTy).Contents (Elt F)),
    unary main_v446 main_v447 (broadcastInDim S64x64 ![0, 1] bcast_S1x64_S64x64_0_1 : (⟨S1x64, .f32⟩ : BufTy).Contents (Elt F) → (⟨S64x64, .f32⟩ : BufTy).Contents (Elt F)),
    binary main_v443 main_v447 main_v448 (addf : (⟨S64x64, .f32⟩ : BufTy).Contents (Elt F) → (⟨S64x64, .f32⟩ : BufTy).Contents (Elt F) → (⟨S64x64, .f32⟩ : BufTy).Contents (Elt F)),
    binary main_v440 main_v448 main_v449 (addf : (⟨S64x64, .f32⟩ : BufTy).Contents (Elt F) → (⟨S64x64, .f32⟩ : BufTy).Contents (Elt F) → (⟨S64x64, .f32⟩ : BufTy).Contents (Elt F)),
    unary main_arg16 main_v450 ((extractStridedSlice S1x128x64 ![2, 0, 0] · slices_S5x128x64_S1x128x64_2_0_0) : (⟨S5x128x64, .f32⟩ : BufTy).Contents (Elt F) → (⟨S1x128x64, .f32⟩ : BufTy).Contents (Elt F)),
    reshape main_v450 main_v451 rfl shapeCasts_S1x128x64_S128x64,
    binary main_v424 main_v451 main_v452 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v453 ((extractStridedSlice S1x64 ![2, 0] · slices_S5x64_S1x64_2_0) : (⟨S5x64, .f32⟩ : BufTy).Contents (Elt F) → (⟨S1x64, .f32⟩ : BufTy).Contents (Elt F)),
    reshape main_v453 main_v454 rfl shapeCasts_S1x64_S64,
    unary main_v454 main_v455 (broadcastInDim S1x64 ![1] bcast_S64_S1x64_1 : (⟨S64, .f32⟩ : BufTy).Contents (Elt F) → (⟨S1x64, .f32⟩ : BufTy).Contents (Elt F)),
    unary main_v455 main_v456 (broadcastInDim S64x64 ![0, 1] bcast_S1x64_S64x64_0_1 : (⟨S1x64, .f32⟩ : BufTy).Contents (Elt F) → (⟨S64x64, .f32⟩ : BufTy).Contents (Elt F)),
    binary main_v452 main_v456 main_v457 (addf : (⟨S64x64, .f32⟩ : BufTy).Contents (Elt F) → (⟨S64x64, .f32⟩ : BufTy).Contents (Elt F) → (⟨S64x64, .f32⟩ : BufTy).Contents (Elt F)),
    binary main_v449 main_v457 main_v458 (addf : (⟨S64x64, .f32⟩ : BufTy).Contents (Elt F) → (⟨S64x64, .f32⟩ : BufTy).Contents (Elt F) → (⟨S64x64, .f32⟩ : BufTy).Contents (Elt F)),
    unary main_arg16 main_v459 ((extractStridedSlice S1x128x64 ![3, 0, 0] · slices_S5x128x64_S1x128x64_3_0_0) : (⟨S5x128x64, .f32⟩ : BufTy).Contents (Elt F) → (⟨S1x128x64, .f32⟩ : BufTy).Contents (Elt F)),
    reshape main_v459 main_v460 rfl shapeCasts_S1x128x64_S128x64,
    binary main_v427 main_v460 main_v461 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v462 ((extractStridedSlice S1x64 ![3, 0] · slices_S5x64_S1x64_3_0) : (⟨S5x64, .f32⟩ : BufTy).Contents (Elt F) → (⟨S1x64, .f32⟩ : BufTy).Contents (Elt F)),
    reshape main_v462 main_v463 rfl shapeCasts_S1x64_S64,
    unary main_v463 main_v464 (broadcastInDim S1x64 ![1] bcast_S64_S1x64_1 : (⟨S64, .f32⟩ : BufTy).Contents (Elt F) → (⟨S1x64, .f32⟩ : BufTy).Contents (Elt F)),
    unary main_v464 main_v465 (broadcastInDim S64x64 ![0, 1] bcast_S1x64_S64x64_0_1 : (⟨S1x64, .f32⟩ : BufTy).Contents (Elt F) → (⟨S64x64, .f32⟩ : BufTy).Contents (Elt F)),
    binary main_v461 main_v465 main_v466 (addf : (⟨S64x64, .f32⟩ : BufTy).Contents (Elt F) → (⟨S64x64, .f32⟩ : BufTy).Contents (Elt F) → (⟨S64x64, .f32⟩ : BufTy).Contents (Elt F)),
    binary main_v458 main_v466 main_v467 (addf : (⟨S64x64, .f32⟩ : BufTy).Contents (Elt F) → (⟨S64x64, .f32⟩ : BufTy).Contents (Elt F) → (⟨S64x64, .f32⟩ : BufTy).Contents (Elt F)),
    unary main_arg16 main_v468 ((extractStridedSlice S1x128x64 ![4, 0, 0] · slices_S5x128x64_S1x128x64_4_0_0) : (⟨S5x128x64, .f32⟩ : BufTy).Contents (Elt F) → (⟨S1x128x64, .f32⟩ : BufTy).Contents (Elt F)),
    reshape main_v468 main_v469 rfl shapeCasts_S1x128x64_S128x64,
    binary main_v430 main_v469 main_v470 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v471 ((extractStridedSlice S1x64 ![4, 0] · slices_S5x64_S1x64_4_0) : (⟨S5x64, .f32⟩ : BufTy).Contents (Elt F) → (⟨S1x64, .f32⟩ : BufTy).Contents (Elt F)),
    reshape main_v471 main_v472 rfl shapeCasts_S1x64_S64,
    unary main_v472 main_v473 (broadcastInDim S1x64 ![1] bcast_S64_S1x64_1 : (⟨S64, .f32⟩ : BufTy).Contents (Elt F) → (⟨S1x64, .f32⟩ : BufTy).Contents (Elt F)),
    unary main_v473 main_v474 (broadcastInDim S64x64 ![0, 1] bcast_S1x64_S64x64_0_1 : (⟨S1x64, .f32⟩ : BufTy).Contents (Elt F) → (⟨S64x64, .f32⟩ : BufTy).Contents (Elt F)),
    binary main_v470 main_v474 main_v475 (addf : (⟨S64x64, .f32⟩ : BufTy).Contents (Elt F) → (⟨S64x64, .f32⟩ : BufTy).Contents (Elt F) → (⟨S64x64, .f32⟩ : BufTy).Contents (Elt F)),
    binary main_v467 main_v475 main_v476 (addf : (⟨S64x64, .f32⟩ : BufTy).Contents (Elt F) → (⟨S64x64, .f32⟩ : BufTy).Contents (Elt F) → (⟨S64x64, .f32⟩ : BufTy).Contents (Elt F)) ]

/-- The tail: the pooled sums, then the prediction heads. -/
abbrev opsTail : List (HloOp τ sig (Elt F)) := opsTailPool ++ opsTailHead

/-- @main's 823 operations in order. -/
abbrev ops : List (HloOp τ sig (Elt F)) := opsL0 ++ opsL1 ++ opsL2 ++ opsL3 ++ opsTail

/-! ## The fold of a joined line

`after` folds the operations' results over the contents from the left, so the fold of two lines joined is
the second's fold of the first's: by induction on the first line. -/

/-- The contents after two lines run one after the other: the second's fold over the first's. -/
theorem after_append : ∀ (a b : List (HloOp τ sig (Elt F))) (V : Valuation τ sig (Elt F)),
    after (a ++ b) V = after b (after a V)
  | [], _, _ => rfl
  | op :: a, b, V => by rw [List.cons_append, after_cons, after_cons, after_append a b]

/-- Nine lines joined fold one after the other (the lines are variables here: nothing to unfold). -/
private theorem after_append₉ (a b c d e f g h i : List (HloOp τ sig (Elt F))) (V : Valuation τ sig (Elt F)) :
    after (a ++ b ++ c ++ d ++ e ++ f ++ g ++ h ++ i) V
      = after i (after h (after g (after f (after e (after d (after c (after b (after a V)))))))) := by
  simp only [after_append]

/-- Layer 0's fold is its nine pieces' folds composed. -/
theorem after_opsL0 (V : Valuation τ sig (Elt F)) :
    after opsL0 V = after opsL0I (after opsL0H (after opsL0G (after opsL0F (after opsL0E (after opsL0D (after opsL0C
      (after opsL0B (after opsL0A V)))))))) := after_append₉ _ _ _ _ _ _ _ _ _ V
/-- Layer 1's fold is its nine pieces' folds composed. -/
theorem after_opsL1 (V : Valuation τ sig (Elt F)) :
    after opsL1 V = after opsL1I (after opsL1H (after opsL1G (after opsL1F (after opsL1E (after opsL1D (after opsL1C
      (after opsL1B (after opsL1A V)))))))) := after_append₉ _ _ _ _ _ _ _ _ _ V
/-- Layer 2's fold is its nine pieces' folds composed. -/
theorem after_opsL2 (V : Valuation τ sig (Elt F)) :
    after opsL2 V = after opsL2I (after opsL2H (after opsL2G (after opsL2F (after opsL2E (after opsL2D (after opsL2C
      (after opsL2B (after opsL2A V)))))))) := after_append₉ _ _ _ _ _ _ _ _ _ V
/-- Layer 3's fold is its nine pieces' folds composed. -/
theorem after_opsL3 (V : Valuation τ sig (Elt F)) :
    after opsL3 V = after opsL3I (after opsL3H (after opsL3G (after opsL3F (after opsL3E (after opsL3D (after opsL3C
      (after opsL3B (after opsL3A V)))))))) := after_append₉ _ _ _ _ _ _ _ _ _ V
/-- The tail's fold: the heads' fold of the pooled sums'. -/
theorem after_opsTail (V : Valuation τ sig (Elt F)) :
    after opsTail V = after opsTailHead (after opsTailPool V) := after_append _ _ V

/-- The whole line's fold: the tail's of layer 3's of layer 2's of layer 1's of layer 0's. -/
theorem after_ops (V : Valuation τ sig (Elt F)) :
    after ops V = after opsTail (after opsL3 (after opsL2 (after opsL1 (after opsL0 V)))) :=
  (after_append _ opsTail V).trans <| congrArg (after opsTail) <|
    (after_append _ opsL3 V).trans <| congrArg (after opsL3) <|
      (after_append _ opsL2 V).trans <| congrArg (after opsL2) <| after_append opsL0 opsL1 V

/-! ## @main is that line

Each layer is two consecutive printed windows, the tail the last two. A pair of windows run in order equals
the layer's line by computation: the windows' and the three functions' definitions unfold at their uses (a
call's body over the call's record, the inner call's over the record's own record), the joined pieces
compute to one literal list and `seq` of it to its chain of `hlo` steps, and sequencing computes through
each step (a function's return continues with what follows its call), so both sides are the same chain. The
chains are a few hundred steps deep, hence the recursion bound. -/

set_option maxRecDepth 65536 in
set_option maxHeartbeats 4000000 in
/-- Windows 0 and 1 are layer 0's line. -/
theorem layer0_eq (c : Dev nD) : (main_part0 (F := F) c >>= fun _ => main_part1 (F := F) c) = seq opsL0 := rfl

set_option maxRecDepth 65536 in
set_option maxHeartbeats 4000000 in
/-- Windows 2 and 3 are layer 1's line. -/
theorem layer1_eq (c : Dev nD) : (main_part2 (F := F) c >>= fun _ => main_part3 (F := F) c) = seq opsL1 := rfl

set_option maxRecDepth 65536 in
set_option maxHeartbeats 4000000 in
/-- Windows 4 and 5 are layer 2's line. -/
theorem layer2_eq (c : Dev nD) : (main_part4 (F := F) c >>= fun _ => main_part5 (F := F) c) = seq opsL2 := rfl

set_option maxRecDepth 65536 in
set_option maxHeartbeats 4000000 in
/-- Windows 6 and 7 are layer 3's line. -/
theorem layer3_eq (c : Dev nD) : (main_part6 (F := F) c >>= fun _ => main_part7 (F := F) c) = seq opsL3 := rfl

set_option maxRecDepth 65536 in
set_option maxHeartbeats 4000000 in
/-- Windows 8 and 9 are the tail's line. -/
theorem tail_eq (c : Dev nD) : (main_part8 (F := F) c >>= fun _ => main_part9 (F := F) c) = seq opsTail := rfl

/-- Five lines joined run one after the other (the lines are variables here: nothing to unfold). -/
private theorem seq_append₅ {Λ : Labels} (a b c d e : List (HloOp τ sig (Elt F))) :
    (seq (a ++ b ++ c ++ d ++ e) : Prog (TpuEff nD τ sig (Elt F) Λ .tc) PUnit)
      = seq a >>= fun _ => seq b >>= fun _ => seq c >>= fun _ => seq d >>= fun _ => seq e := by
  simp only [seq_append, bind_assoc]

/-- @main is the line `ops`: its ten windows regrouped two by two, each pair its layer's line, the five lines joined. -/
theorem main_eq (c : Dev nD) : main (F := F) c = seq ops :=
  calc main (F := F) c
      = (main_part0 (F := F) c >>= fun _ => main_part1 (F := F) c) >>= fun _ =>
          (main_part2 (F := F) c >>= fun _ => main_part3 (F := F) c) >>= fun _ =>
            (main_part4 (F := F) c >>= fun _ => main_part5 (F := F) c) >>= fun _ =>
              (main_part6 (F := F) c >>= fun _ => main_part7 (F := F) c) >>= fun _ =>
                (main_part8 (F := F) c >>= fun _ => main_part9 (F := F) c) := by simp only [main, bind_assoc]
    _ = seq opsL0 >>= fun _ => seq opsL1 >>= fun _ => seq opsL2 >>= fun _ => seq opsL3 >>= fun _ => seq opsTail := by
          simp only [layer0_eq c, layer1_eq c, layer2_eq c, layer3_eq c, tail_eq c]
    _ = seq ops := (seq_append₅ opsL0 opsL1 opsL2 opsL3 opsTail).symm

/-! ## The run -/

theorem scopedRefs_eq : (Finset.univ.filter fun b : Ref sig .tc => b.isScoped) = ∅ := by decide
theorem scopedSems_eq : (Finset.univ.filter fun sm : SemLoc sig => sm.isScoped .tc) = ∅ := by decide

/-! Every operation names TensorCore buffers only and allocates none: each layer's pieces unfolded to their
literal lists, the conjunction over the list read off operation by operation. -/

set_option maxRecDepth 65536 in
set_option maxHeartbeats 4000000 in
theorem opsL0_sub : (opsL0 : List (HloOp τ sig (Elt F))).Forall fun op => op.bufs ⊆ tcRefs τ sig := by
  simp only [opsL0, List.forall_append, opsL0A, opsL0B, opsL0C, opsL0D, opsL0E, opsL0F, opsL0G, opsL0H, opsL0I, List.Forall,
    nullary_bufs_sub, unary_bufs_sub, binary_bufs_sub, ternary_bufs_sub, reshape_bufs_sub, and_self]

set_option maxRecDepth 65536 in
set_option maxHeartbeats 4000000 in
theorem opsL0_fresh : (opsL0 : List (HloOp τ sig (Elt F))).Forall fun op => op.fresh = ∅ := by
  simp only [opsL0, List.forall_append, opsL0A, opsL0B, opsL0C, opsL0D, opsL0E, opsL0F, opsL0G, opsL0H, opsL0I, List.Forall]
  repeat' constructor

set_option maxRecDepth 65536 in
set_option maxHeartbeats 4000000 in
theorem opsL1_sub : (opsL1 : List (HloOp τ sig (Elt F))).Forall fun op => op.bufs ⊆ tcRefs τ sig := by
  simp only [opsL1, List.forall_append, opsL1A, opsL1B, opsL1C, opsL1D, opsL1E, opsL1F, opsL1G, opsL1H, opsL1I, List.Forall,
    nullary_bufs_sub, unary_bufs_sub, binary_bufs_sub, ternary_bufs_sub, reshape_bufs_sub, and_self]

set_option maxRecDepth 65536 in
set_option maxHeartbeats 4000000 in
theorem opsL1_fresh : (opsL1 : List (HloOp τ sig (Elt F))).Forall fun op => op.fresh = ∅ := by
  simp only [opsL1, List.forall_append, opsL1A, opsL1B, opsL1C, opsL1D, opsL1E, opsL1F, opsL1G, opsL1H, opsL1I, List.Forall]
  repeat' constructor

set_option maxRecDepth 65536 in
set_option maxHeartbeats 4000000 in
theorem opsL2_sub : (opsL2 : List (HloOp τ sig (Elt F))).Forall fun op => op.bufs ⊆ tcRefs τ sig := by
  simp only [opsL2, List.forall_append, opsL2A, opsL2B, opsL2C, opsL2D, opsL2E, opsL2F, opsL2G, opsL2H, opsL2I, List.Forall,
    nullary_bufs_sub, unary_bufs_sub, binary_bufs_sub, ternary_bufs_sub, reshape_bufs_sub, and_self]

set_option maxRecDepth 65536 in
set_option maxHeartbeats 4000000 in
theorem opsL2_fresh : (opsL2 : List (HloOp τ sig (Elt F))).Forall fun op => op.fresh = ∅ := by
  simp only [opsL2, List.forall_append, opsL2A, opsL2B, opsL2C, opsL2D, opsL2E, opsL2F, opsL2G, opsL2H, opsL2I, List.Forall]
  repeat' constructor

set_option maxRecDepth 65536 in
set_option maxHeartbeats 4000000 in
theorem opsL3_sub : (opsL3 : List (HloOp τ sig (Elt F))).Forall fun op => op.bufs ⊆ tcRefs τ sig := by
  simp only [opsL3, List.forall_append, opsL3A, opsL3B, opsL3C, opsL3D, opsL3E, opsL3F, opsL3G, opsL3H, opsL3I, List.Forall,
    nullary_bufs_sub, unary_bufs_sub, binary_bufs_sub, ternary_bufs_sub, reshape_bufs_sub, and_self]

set_option maxRecDepth 65536 in
set_option maxHeartbeats 4000000 in
theorem opsL3_fresh : (opsL3 : List (HloOp τ sig (Elt F))).Forall fun op => op.fresh = ∅ := by
  simp only [opsL3, List.forall_append, opsL3A, opsL3B, opsL3C, opsL3D, opsL3E, opsL3F, opsL3G, opsL3H, opsL3I, List.Forall]
  repeat' constructor

set_option maxRecDepth 65536 in
set_option maxHeartbeats 4000000 in
theorem opsTail_sub : (opsTail : List (HloOp τ sig (Elt F))).Forall fun op => op.bufs ⊆ tcRefs τ sig := by
  simp only [opsTail, List.forall_append, opsTailPool, opsTailHead, List.Forall,
    nullary_bufs_sub, unary_bufs_sub, binary_bufs_sub, ternary_bufs_sub, reshape_bufs_sub, and_self]

set_option maxRecDepth 65536 in
set_option maxHeartbeats 4000000 in
theorem opsTail_fresh : (opsTail : List (HloOp τ sig (Elt F))).Forall fun op => op.fresh = ∅ := by
  simp only [opsTail, List.forall_append, opsTailPool, opsTailHead, List.Forall]
  repeat' constructor

/-- Every operation of the line names TensorCore buffers only. -/
theorem ops_sub : (ops : List (HloOp τ sig (Elt F))).Forall fun op => op.bufs ⊆ tcRefs τ sig :=
  List.forall_append.mpr ⟨List.forall_append.mpr ⟨List.forall_append.mpr ⟨List.forall_append.mpr
    ⟨opsL0_sub, opsL1_sub⟩, opsL2_sub⟩, opsL3_sub⟩, opsTail_sub⟩

/-- No operation of the line allocates a buffer: each determines its results. -/
theorem ops_fresh : ∀ op ∈ (ops : List (HloOp τ sig (Elt F))), op.fresh = ∅ :=
  List.forall_iff_forall_mem.mp <| List.forall_append.mpr ⟨List.forall_append.mpr ⟨List.forall_append.mpr
    ⟨List.forall_append.mpr ⟨opsL0_fresh, opsL1_fresh⟩, opsL2_fresh⟩, opsL3_fresh⟩, opsTail_fresh⟩

/-- On every device, for any float values, from any memory with zero counters: every weakly fair execution of
    @main terminates, and every final state has each TensorCore buffer at the fold of the line's results over
    the launch contents. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.Head.lean ====
/-
  The prediction heads.

  Both programs end with the same operations: for k = 0 … 4 the k-th pooled feature matrix (64 graphs by 128
  features) times the k-th 128 by 64 weight matrix, plus the k-th bias row on every row; the five terms are added
  left to right starting from zero. Those operations are ONE function `headT` of the five pooled matrices, the
  stacked weights and the stacked biases, and the last host stretch of each program is that function of the
  program's own buffers. `headT` is never read at an index: two runs whose pooled matrices, weights and biases agree
  have equal heads by congruence.

  The kernel's fifth pooled matrix is a host sum over the 20 tiles' partial pools; read at (g, d) it is the sum over
  the tiles of the partial pools at (t, g, d).
-/
import proofs.«412161_j3753801416792_2_alg».proof.KernelIdeal
import proofs.«412161_j3753801416792_2_alg».proof.Proof.Gen.KernelIdeal.Launch
import proofs.«412161_j3753801416792_2_alg».proof.Proof.Gen.ReferenceIdeal
import proofs.«412161_j3753801416792_2_alg».proof.Proof.Conv
import proofs.«412161_j3753801416792_2_alg».proof.Proof.RefRun
import Idealize.ShloMosaic.Lib.StableHlo.Run
import Idealize.ShloMosaic.Lib.IdealHost

noncomputable section

namespace Cert.Head

open scoped BigOperators

/-! ## The reference's last operations -/

section Reference

open Cert.ReferenceIdeal Cert.ReferenceIdeal.Gen Idealize.ShloMosaic Idealize.ShloMosaic.StableHlo

variable {F : FTy → Type} [FloatOps F]

/-- The reference's operations from the first weight slice to the last sum, in program order. 47 operations. -/
abbrev refHeadOps : List (HloOp τ sig (Elt F)) :=
  [ unary main_arg16 main_v431 ((extractStridedSlice S1x128x64 ![0, 0, 0] · slices_S5x128x64_S1x128x64_0_0_0) : (⟨S5x128x64, .f32⟩ : BufTy).Contents (Elt F) → (⟨S1x128x64, .f32⟩ : BufTy).Contents (Elt F)),
    reshape main_v431 main_v432 rfl shapeCasts_S1x128x64_S128x64,
    binary main_v418 main_v432 main_v433 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v434 ((extractStridedSlice S1x64 ![0, 0] · slices_S5x64_S1x64_0_0) : (⟨S5x64, .f32⟩ : BufTy).Contents (Elt F) → (⟨S1x64, .f32⟩ : BufTy).Contents (Elt F)),
    reshape main_v434 main_v435 rfl shapeCasts_S1x64_S64,
    unary main_v435 main_v436 (broadcastInDim S1x64 ![1] bcast_S64_S1x64_1 : (⟨S64, .f32⟩ : BufTy).Contents (Elt F) → (⟨S1x64, .f32⟩ : BufTy).Contents (Elt F)),
    unary main_v436 main_v437 (broadcastInDim S64x64 ![0, 1] bcast_S1x64_S64x64_0_1 : (⟨S1x64, .f32⟩ : BufTy).Contents (Elt F) → (⟨S64x64, .f32⟩ : BufTy).Contents (Elt F)),
    binary main_v433 main_v437 main_v438 (addf : (⟨S64x64, .f32⟩ : BufTy).Contents (Elt F) → (⟨S64x64, .f32⟩ : BufTy).Contents (Elt F) → (⟨S64x64, .f32⟩ : BufTy).Contents (Elt F)),
    nullary main_cst_67 (constant S_ .f32 0x00000000#32),
    unary main_cst_67 main_v439 (broadcastInDim S64x64 ![] bcast_S_S64x64 : (⟨S_, .f32⟩ : BufTy).Contents (Elt F) → (⟨S64x64, .f32⟩ : BufTy).Contents (Elt F)),
    binary main_v439 main_v438 main_v440 (addf : (⟨S64x64, .f32⟩ : BufTy).Contents (Elt F) → (⟨S64x64, .f32⟩ : BufTy).Contents (Elt F) → (⟨S64x64, .f32⟩ : BufTy).Contents (Elt F)),
    unary main_arg16 main_v441 ((extractStridedSlice S1x128x64 ![1, 0, 0] · slices_S5x128x64_S1x128x64_1_0_0) : (⟨S5x128x64, .f32⟩ : BufTy).Contents (Elt F) → (⟨S1x128x64, .f32⟩ : BufTy).Contents (Elt F)),
    reshape main_v441 main_v442 rfl shapeCasts_S1x128x64_S128x64,
    binary main_v421 main_v442 main_v443 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v444 ((extractStridedSlice S1x64 ![1, 0] · slices_S5x64_S1x64_1_0) : (⟨S5x64, .f32⟩ : BufTy).Contents (Elt F) → (⟨S1x64, .f32⟩ : BufTy).Contents (Elt F)),
    reshape main_v444 main_v445 rfl shapeCasts_S1x64_S64,
    unary main_v445 main_v446 (broadcastInDim S1x64 ![1] bcast_S64_S1x64_1 : (⟨S64, .f32⟩ : BufTy).Contents (Elt F) → (⟨S1x64, .f32⟩ : BufTy).Contents (Elt F)),
    unary main_v446 main_v447 (broadcastInDim S64x64 ![0, 1] bcast_S1x64_S64x64_0_1 : (⟨S1x64, .f32⟩ : BufTy).Contents (Elt F) → (⟨S64x64, .f32⟩ : BufTy).Contents (Elt F)),
    binary main_v443 main_v447 main_v448 (addf : (⟨S64x64, .f32⟩ : BufTy).Contents (Elt F) → (⟨S64x64, .f32⟩ : BufTy).Contents (Elt F) → (⟨S64x64, .f32⟩ : BufTy).Contents (Elt F)),
    binary main_v440 main_v448 main_v449 (addf : (⟨S64x64, .f32⟩ : BufTy).Contents (Elt F) → (⟨S64x64, .f32⟩ : BufTy).Contents (Elt F) → (⟨S64x64, .f32⟩ : BufTy).Contents (Elt F)),
    unary main_arg16 main_v450 ((extractStridedSlice S1x128x64 ![2, 0, 0] · slices_S5x128x64_S1x128x64_2_0_0) : (⟨S5x128x64, .f32⟩ : BufTy).Contents (Elt F) → (⟨S1x128x64, .f32⟩ : BufTy).Contents (Elt F)),
    reshape main_v450 main_v451 rfl shapeCasts_S1x128x64_S128x64,
    binary main_v424 main_v451 main_v452 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v453 ((extractStridedSlice S1x64 ![2, 0] · slices_S5x64_S1x64_2_0) : (⟨S5x64, .f32⟩ : BufTy).Contents (Elt F) → (⟨S1x64, .f32⟩ : BufTy).Contents (Elt F)),
    reshape main_v453 main_v454 rfl shapeCasts_S1x64_S64,
    unary main_v454 main_v455 (broadcastInDim S1x64 ![1] bcast_S64_S1x64_1 : (⟨S64, .f32⟩ : BufTy).Contents (Elt F) → (⟨S1x64, .f32⟩ : BufTy).Contents (Elt F)),
    unary main_v455 main_v456 (broadcastInDim S64x64 ![0, 1] bcast_S1x64_S64x64_0_1 : (⟨S1x64, .f32⟩ : BufTy).Contents (Elt F) → (⟨S64x64, .f32⟩ : BufTy).Contents (Elt F)),
    binary main_v452 main_v456 main_v457 (addf : (⟨S64x64, .f32⟩ : BufTy).Contents (Elt F) → (⟨S64x64, .f32⟩ : BufTy).Contents (Elt F) → (⟨S64x64, .f32⟩ : BufTy).Contents (Elt F)),
    binary main_v449 main_v457 main_v458 (addf : (⟨S64x64, .f32⟩ : BufTy).Contents (Elt F) → (⟨S64x64, .f32⟩ : BufTy).Contents (Elt F) → (⟨S64x64, .f32⟩ : BufTy).Contents (Elt F)),
    unary main_arg16 main_v459 ((extractStridedSlice S1x128x64 ![3, 0, 0] · slices_S5x128x64_S1x128x64_3_0_0) : (⟨S5x128x64, .f32⟩ : BufTy).Contents (Elt F) → (⟨S1x128x64, .f32⟩ : BufTy).Contents (Elt F)),
    reshape main_v459 main_v460 rfl shapeCasts_S1x128x64_S128x64,
    binary main_v427 main_v460 main_v461 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v462 ((extractStridedSlice S1x64 ![3, 0] · slices_S5x64_S1x64_3_0) : (⟨S5x64, .f32⟩ : BufTy).Contents (Elt F) → (⟨S1x64, .f32⟩ : BufTy).Contents (Elt F)),
    reshape main_v462 main_v463 rfl shapeCasts_S1x64_S64,
    unary main_v463 main_v464 (broadcastInDim S1x64 ![1] bcast_S64_S1x64_1 : (⟨S64, .f32⟩ : BufTy).Contents (Elt F) → (⟨S1x64, .f32⟩ : BufTy).Contents (Elt F)),
    unary main_v464 main_v465 (broadcastInDim S64x64 ![0, 1] bcast_S1x64_S64x64_0_1 : (⟨S1x64, .f32⟩ : BufTy).Contents (Elt F) → (⟨S64x64, .f32⟩ : BufTy).Contents (Elt F)),
    binary main_v461 main_v465 main_v466 (addf : (⟨S64x64, .f32⟩ : BufTy).Contents (Elt F) → (⟨S64x64, .f32⟩ : BufTy).Contents (Elt F) → (⟨S64x64, .f32⟩ : BufTy).Contents (Elt F)),
    binary main_v458 main_v466 main_v467 (addf : (⟨S64x64, .f32⟩ : BufTy).Contents (Elt F) → (⟨S64x64, .f32⟩ : BufTy).Contents (Elt F) → (⟨S64x64, .f32⟩ : BufTy).Contents (Elt F)),
    unary main_arg16 main_v468 ((extractStridedSlice S1x128x64 ![4, 0, 0] · slices_S5x128x64_S1x128x64_4_0_0) : (⟨S5x128x64, .f32⟩ : BufTy).Contents (Elt F) → (⟨S1x128x64, .f32⟩ : BufTy).Contents (Elt F)),
    reshape main_v468 main_v469 rfl shapeCasts_S1x128x64_S128x64,
    binary main_v430 main_v469 main_v470 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg17 main_v471 ((extractStridedSlice S1x64 ![4, 0] · slices_S5x64_S1x64_4_0) : (⟨S5x64, .f32⟩ : BufTy).Contents (Elt F) → (⟨S1x64, .f32⟩ : BufTy).Contents (Elt F)),
    reshape main_v471 main_v472 rfl shapeCasts_S1x64_S64,
    unary main_v472 main_v473 (broadcastInDim S1x64 ![1] bcast_S64_S1x64_1 : (⟨S64, .f32⟩ : BufTy).Contents (Elt F) → (⟨S1x64, .f32⟩ : BufTy).Contents (Elt F)),
    unary main_v473 main_v474 (broadcastInDim S64x64 ![0, 1] bcast_S1x64_S64x64_0_1 : (⟨S1x64, .f32⟩ : BufTy).Contents (Elt F) → (⟨S64x64, .f32⟩ : BufTy).Contents (Elt F)),
    binary main_v470 main_v474 main_v475 (addf : (⟨S64x64, .f32⟩ : BufTy).Contents (Elt F) → (⟨S64x64, .f32⟩ : BufTy).Contents (Elt F) → (⟨S64x64, .f32⟩ : BufTy).Contents (Elt F)),
    binary main_v467 main_v475 main_v476 (addf : (⟨S64x64, .f32⟩ : BufTy).Contents (Elt F) → (⟨S64x64, .f32⟩ : BufTy).Contents (Elt F) → (⟨S64x64, .f32⟩ : BufTy).Contents (Elt F)) ]

/-- These are the run's own last operations: the same list, element for element. -/
theorem refHeadOps_eq : (refHeadOps (F := F)) = Cert.ReferenceIdeal.RefRun.opsTailHead := rfl

end Reference

/-! ## The heads as one function -/

section Heads

open Cert.KernelIdeal Idealize.ShloMosaic Idealize.ShloMosaic.StableHlo Idealize.ShloMosaic.ValueIdx

/-- One head: the pooled features times the head's weight matrix (a one-matrix slice of the stack, reshaped to a
    matrix), plus the head's bias (a one-row slice of the stack, reshaped to a vector, then broadcast to every row). -/
def headTerm (p : FVec Ideal S64x128 .f32) (w : FVec Ideal S1x128x64 .f32) (b : FVec Ideal S1x64 .f32) :
    FVec Ideal S64x64 .f32 :=
  addf
    (Host.dotGeneral dot_S64x128_S128x64_S64x64_1_0_0_1_n_n none p
      (fun i => shapeCast S128x64 w Gen.shapeCasts_S1x128x64_S128x64 i))
    (broadcastInDim S64x64 ![0, 1] Gen.bcast_S1x64_S64x64_0_1
      (broadcastInDim S1x64 ![1] Gen.bcast_S64_S1x64_1 (fun i => shapeCast S64 b Gen.shapeCasts_S1x64_S64 i)))

/-- The five heads added left to right from a zero matrix: head k takes the k-th pooled matrix, the k-th weight
    matrix and the k-th bias row. -/
def headT (p0 p1 p2 p3 p4 : FVec Ideal S64x128 .f32) (pw : FVec Ideal S5x128x64 .f32) (pb : FVec Ideal S5x64 .f32) :
    FVec Ideal S64x64 .f32 :=
  addf
    (addf
      (addf
        (addf
          (addf (broadcastInDim S64x64 ![] Gen.bcast_S_S64x64 (constant (F := Ideal) S_ .f32 0x00000000#32))
            (headTerm p0 (extractStridedSlice S1x128x64 ![0, 0, 0] pw Gen.slices_S5x128x64_S1x128x64_0_0_0)
              (extractStridedSlice S1x64 ![0, 0] pb Gen.slices_S5x64_S1x64_0_0)))
          (headTerm p1 (extractStridedSlice S1x128x64 ![1, 0, 0] pw Gen.slices_S5x128x64_S1x128x64_1_0_0)
            (extractStridedSlice S1x64 ![1, 0] pb Gen.slices_S5x64_S1x64_1_0)))
        (headTerm p2 (extractStridedSlice S1x128x64 ![2, 0, 0] pw Gen.slices_S5x128x64_S1x128x64_2_0_0)
          (extractStridedSlice S1x64 ![2, 0] pb Gen.slices_S5x64_S1x64_2_0)))
      (headTerm p3 (extractStridedSlice S1x128x64 ![3, 0, 0] pw Gen.slices_S5x128x64_S1x128x64_3_0_0)
        (extractStridedSlice S1x64 ![3, 0] pb Gen.slices_S5x64_S1x64_3_0)))
    (headTerm p4 (extractStridedSlice S1x128x64 ![4, 0, 0] pw Gen.slices_S5x128x64_S1x128x64_4_0_0)
      (extractStridedSlice S1x64 ![4, 0] pb Gen.slices_S5x64_S1x64_4_0))

/-! ## The kernel's last host stretch -/

/-- The kernel's fifth pooled matrix is the host sum, from a zero scalar, of the 20 tiles' partial pools. -/
theorem kernel_pooled5_term (V : Valuation Cert.KernelIdeal.τ Cert.KernelIdeal.sig (Elt Ideal)) :
    (after (Cert.KernelIdeal.Gen.hostOps17 (F := Ideal)) V (Proc.devRef .tc main_v314) : FVec Ideal S64x128 .f32)
      = Host.reduceAdd (V (Proc.devRef .tc main_v313_1)) (constant (F := Ideal) S_ .f32 0x00000000#32)
          Gen.reducesTo_S20x64x128_S64x128_d0 Gen.h_S_ := by
  after_results_simp

/-- The kernel's result is the heads of its five pooled matrices, its weights and its biases. -/
theorem kernel_head (V : Valuation Cert.KernelIdeal.τ Cert.KernelIdeal.sig (Elt Ideal)) :
    (after (Cert.KernelIdeal.Gen.hostOps17 (F := Ideal)) V (Proc.devRef .tc main_v360) : FVec Ideal S64x64 .f32)
      = headT (V (Proc.devRef .tc main_v2)) (V (Proc.devRef .tc main_v80)) (V (Proc.devRef .tc main_v158))
          (V (Proc.devRef .tc main_v236)) (after (Cert.KernelIdeal.Gen.hostOps17 (F := Ideal)) V (Proc.devRef .tc main_v314))
          (V (Proc.devRef .tc main_arg16)) (V (Proc.devRef .tc main_arg17)) := by
  rw [kernel_pooled5_term]
  after_results_simp
  rfl

/-- Over the result index (g, d), the source index whose tile coordinate is t is (t, g, d). -/
theorem lift_tile (h : S20x64x128.Reduces [0] S64x128) (g : Fin 64) (d : Fin 128) (t : Fin 20) :
    h.lift (ix2 g d) t = ix3 t g d := by
  funext c
  match c with
  | ⟨0, _⟩ => exact Fin.ext rfl
  | ⟨1, _⟩ => exact Fin.ext rfl
  | ⟨2, _⟩ => exact Fin.ext rfl

/-- The kernel's fifth pooled matrix at (g, d) is the sum over the 20 tiles of the partial pools at (t, g, d). -/
theorem kernel_pooled5 (V : Valuation Cert.KernelIdeal.τ Cert.KernelIdeal.sig (Elt Ideal)) :
    Cert.Conv.toMat (after (Cert.KernelIdeal.Gen.hostOps17 (F := Ideal)) V (Proc.devRef .tc main_v314) : FVec Ideal S64x128 .f32)
      = (fun g d => ∑ t : Fin 20, V (Proc.devRef .tc main_v313_1) (ix3 t g d) : Fin 64 → Fin 128 → EReal) := by
  rw [kernel_pooled5_term]
  funext g d
  have h : S20x64x128.Reduces [0] S64x128 := by decide
  show Host.reduceAdd (V (Proc.devRef .tc main_v313_1)) (constant (F := Ideal) S_ .f32 0x00000000#32)
      Gen.reducesTo_S20x64x128_S64x128_d0 Gen.h_S_ (ix2 g d) = _
  rw [hostReduceAdd_apply, Ideal.hostReduceAdd_single Gen.reducesTo_S20x64x128_S64x128_d0 h, constant_apply,
    Ideal.ofBits_zero_f32, zero_add]
  exact Finset.sum_congr rfl fun t _ => congrArg _ (lift_tile h g d t)

end Heads

/-! ## The reference's last operations are the same heads -/

section RefHead

open Idealize.ShloMosaic Idealize.ShloMosaic.StableHlo

/-- The reference's result is the heads of its five pooled matrices, its weights and its biases. -/
theorem ref_head (V' : Valuation Cert.ReferenceIdeal.τ Cert.ReferenceIdeal.sig (Elt Ideal)) :
    (after (refHeadOps (F := Ideal)) V' (Proc.devRef .tc Cert.ReferenceIdeal.main_v476) : FVec Ideal Cert.KernelIdeal.S64x64 .f32)
      = headT (V' (Proc.devRef .tc Cert.ReferenceIdeal.main_v418)) (V' (Proc.devRef .tc Cert.ReferenceIdeal.main_v421))
          (V' (Proc.devRef .tc Cert.ReferenceIdeal.main_v424)) (V' (Proc.devRef .tc Cert.ReferenceIdeal.main_v427))
          (V' (Proc.devRef .tc Cert.ReferenceIdeal.main_v430)) (V' (Proc.devRef .tc Cert.ReferenceIdeal.main_arg16))
          (V' (Proc.devRef .tc Cert.ReferenceIdeal.main_arg17)) := by
  after_results_simp
  rfl

end RefHead

end Cert.Head

end
-- ==== Proof.KFinal.lean ====
/-
  The idealized kernel program's five results, as functions of the argument arrays: the four layers chained (each
  layer's entry features are the previous layer's output), the pooled features of every layer as the sum of the tiles'
  partials, and the prediction heads applied to the five pooled matrices.
-/
import proofs.«412161_j3753801416792_2_alg».proof.Proof.KChain0
import proofs.«412161_j3753801416792_2_alg».proof.Proof.KChain1
import proofs.«412161_j3753801416792_2_alg».proof.Proof.KChain2
import proofs.«412161_j3753801416792_2_alg».proof.Proof.KChain3
import proofs.«412161_j3753801416792_2_alg».proof.Proof.KHost1L1
import proofs.«412161_j3753801416792_2_alg».proof.Proof.KHost1L2
import proofs.«412161_j3753801416792_2_alg».proof.Proof.KHost1L3
import proofs.«412161_j3753801416792_2_alg».proof.Proof.Head
import proofs.«412161_j3753801416792_2_alg».proof.Proof.Bridge

set_option maxRecDepth 16384

noncomputable section

namespace Cert.KFinal

open Cert.KernelIdeal Cert.KernelIdeal.Gen Cert.Spec Cert.Conv Cert.Bridge Idealize.ShloMosaic Idealize.ShloMosaic.ValueIdx
  Idealize.ShloMosaic.TcCoe Idealize.SL.Sem

variable (m : (ℓ : Loc nD τ sig) → Buf (Elt Ideal) ℓ) (ρ : Dev nD → PrngReg)

/-- The argument arrays as the specification sees them. -/
abbrev args (c : Dev nD) : Args := Cert.KArgs.args m c

/-! ## The four layers chained -/

theorem X0_eq (c : Dev nD) : Cert.KChain0.X m ρ c = (args m c).h0 :=
  congrArg toMat (Cert.KCarry.at2_main_arg0 m ρ c)
theorem A0_eq (c : Dev nD) : Cert.KChain0.A m ρ c = aggM (args m c) (args m c).h0 := by
  unfold Cert.KChain0.A aggM
  rw [Cert.KCarry.at2_main_arg0]
  exact congrArg (fun h => toMat (Cert.Agg.aggT h _ _)) (ofMat_toMat _).symm
theorem H1_eq (c : Dev nD) : Cert.KChain0.Hout m ρ c = hK1 (args m c) := by
  unfold Cert.KChain0.Hout hK1; rw [X0_eq, A0_eq]; rfl

theorem X1_eq (c : Dev nD) : Cert.KChain1.X m ρ c = hK1 (args m c) := by
  unfold Cert.KChain1.X
  have h : W10 m ρ c (Proc.devRef .tc main_v79_0) = _ := Cert.KChain0.x10_out m ρ c
  rw [h, toMat_ofMat, H1_eq]
theorem A1_eq (c : Dev nD) : Cert.KChain1.A m ρ c = aggM (args m c) (hK1 (args m c)) := by
  unfold Cert.KChain1.A aggM
  have h : W10 m ρ c (Proc.devRef .tc main_v79_0) = _ := Cert.KChain0.x10_out m ρ c
  rw [h, H1_eq]; rfl
theorem H2_eq (c : Dev nD) : Cert.KChain1.Hout m ρ c = hK2 (args m c) := by
  unfold Cert.KChain1.Hout hK2; rw [X1_eq, A1_eq]; rfl

theorem X2_eq (c : Dev nD) : Cert.KChain2.X m ρ c = hK2 (args m c) := by
  unfold Cert.KChain2.X
  have h : W18 m ρ c (Proc.devRef .tc main_v157_0) = _ := Cert.KChain1.x10_out m ρ c
  rw [h, toMat_ofMat, H2_eq]
theorem A2_eq (c : Dev nD) : Cert.KChain2.A m ρ c = aggM (args m c) (hK2 (args m c)) := by
  unfold Cert.KChain2.A aggM
  have h : W18 m ρ c (Proc.devRef .tc main_v157_0) = _ := Cert.KChain1.x10_out m ρ c
  rw [h, H2_eq]; rfl
theorem H3_eq (c : Dev nD) : Cert.KChain2.Hout m ρ c = hK3 (args m c) := by
  unfold Cert.KChain2.Hout hK3; rw [X2_eq, A2_eq]; rfl

theorem X3_eq (c : Dev nD) : Cert.KChain3.X m ρ c = hK3 (args m c) := by
  unfold Cert.KChain3.X
  have h : W26 m ρ c (Proc.devRef .tc main_v235_0) = _ := Cert.KChain2.x10_out m ρ c
  rw [h, toMat_ofMat, H3_eq]
theorem A3_eq (c : Dev nD) : Cert.KChain3.A m ρ c = aggM (args m c) (hK3 (args m c)) := by
  unfold Cert.KChain3.A aggM
  have h : W26 m ρ c (Proc.devRef .tc main_v235_0) = _ := Cert.KChain2.x10_out m ρ c
  rw [h, H3_eq]; rfl
theorem H4_eq (c : Dev nD) : Cert.KChain3.Hout m ρ c = hK4 (args m c) := by
  unfold Cert.KChain3.Hout hK4; rw [X3_eq, A3_eq]; rfl

/-! ## The pooled features: the tiles' partials added -/

theorem sum_tiles_pool (h : Mat 100000 128) (g : Fin 100000 → BitVec 32) (p : S20x64x128.Idx → EReal)
    (hp : p = fun i => poolTile h g (i 0) (i 1) (i 2)) :
    (fun (a : Fin 64) (d : Fin 128) => ∑ t : Fin 20, (p (ix3 t a d) : EReal)) = poolK h g := by
  subst hp; rfl

theorem p0 (c : Dev nD) : toMat (W3 m ρ c (Proc.devRef .tc main_v2)) = poolK (args m c).h0 (args m c).gid := by
  show toMat (StableHlo.after hostOps1 (W2 m ρ c) (Proc.devRef .tc main_v2)) = _
  rw [Cert.KHost1.pooled1]
  exact sum_tiles_pool _ _ _ (Cert.KChainCommon.pool0 m ρ c)

theorem p1 (c : Dev nD) : toMat (W11 m ρ c (Proc.devRef .tc main_v80)) = poolK (hK1 (args m c)) (args m c).gid := by
  show toMat (StableHlo.after hostOps5 (W10 m ρ c) (Proc.devRef .tc main_v80)) = _
  rw [Cert.KHost1L1.pooled1]
  exact sum_tiles_pool _ _ _ ((Cert.KChain0.x10_pool m ρ c).trans (by rw [H1_eq]; rfl))

theorem p2 (c : Dev nD) : toMat (W19 m ρ c (Proc.devRef .tc main_v158)) = poolK (hK2 (args m c)) (args m c).gid := by
  show toMat (StableHlo.after hostOps9 (W18 m ρ c) (Proc.devRef .tc main_v158)) = _
  rw [Cert.KHost1L2.pooled1]
  exact sum_tiles_pool _ _ _ ((Cert.KChain1.x10_pool m ρ c).trans (by rw [H2_eq]; rfl))

theorem p3 (c : Dev nD) : toMat (W27 m ρ c (Proc.devRef .tc main_v236)) = poolK (hK3 (args m c)) (args m c).gid := by
  show toMat (StableHlo.after hostOps13 (W26 m ρ c) (Proc.devRef .tc main_v236)) = _
  rw [Cert.KHost1L3.pooled1]
  exact sum_tiles_pool _ _ _ ((Cert.KChain2.x10_pool m ρ c).trans (by rw [H3_eq]; rfl))

theorem p4 (c : Dev nD) : toMat (W35 m ρ c (Proc.devRef .tc main_v314)) = poolK (hK4 (args m c)) (args m c).gid := by
  show toMat (StableHlo.after hostOps17 (W34 m ρ c) (Proc.devRef .tc main_v314)) = _
  rw [Cert.Head.kernel_pooled5]
  exact sum_tiles_pool _ _ _ ((Cert.KChain3.x10_pool m ρ c).trans (by rw [H4_eq]; rfl))

/-- A pooled matrix as the array that holds it. -/
theorem arr_of_toMat (v : S64x128.Idx → EReal) (x : Mat 64 128) (h : toMat v = x) : v = ofMat x :=
  (ofMat_toMat v).symm.trans (congrArg ofMat h)

/-! ## The five results -/

theorem results (c : Dev nD) :
    W35 m ρ c (Proc.devRef .tc main_v360)
        = Cert.Head.headT (ofMat (poolK (args m c).h0 (args m c).gid)) (ofMat (poolK (hK1 (args m c)) (args m c).gid))
            (ofMat (poolK (hK2 (args m c)) (args m c).gid)) (ofMat (poolK (hK3 (args m c)) (args m c).gid))
            (ofMat (poolK (hK4 (args m c)) (args m c).gid))
            (m ((c : Thread nD τ).loc main_arg16)) (m ((c : Thread nD τ).loc main_arg17))
      ∧ W35 m ρ c (Proc.devRef .tc main_v80) = ofMat (poolK (hK1 (args m c)) (args m c).gid)
      ∧ W35 m ρ c (Proc.devRef .tc main_v158) = ofMat (poolK (hK2 (args m c)) (args m c).gid)
      ∧ W35 m ρ c (Proc.devRef .tc main_v236) = ofMat (poolK (hK3 (args m c)) (args m c).gid)
      ∧ W35 m ρ c (Proc.devRef .tc main_v314) = ofMat (poolK (hK4 (args m c)) (args m c).gid) := by
  have e0 := arr_of_toMat _ _ (p0 m ρ c)
  have e1 := arr_of_toMat _ _ (p1 m ρ c)
  have e2 := arr_of_toMat _ _ (p2 m ρ c)
  have e3 := arr_of_toMat _ _ (p3 m ρ c)
  have e4 := arr_of_toMat _ _ (p4 m ρ c)
  refine ⟨?_, (Cert.KCarry.at35_main_v80 m ρ c).trans e1, (Cert.KCarry.at35_main_v158 m ρ c).trans e2,
    (Cert.KCarry.at35_main_v236 m ρ c).trans e3, e4⟩
  show StableHlo.after hostOps17 (W34 m ρ c) (Proc.devRef .tc main_v360) = _
  rw [Cert.Head.kernel_head, Cert.KCarry.at34_main_v2, Cert.KCarry.at34_main_v80, Cert.KCarry.at34_main_v158,
    Cert.KCarry.at34_main_v236, Cert.KCarry.at34_main_arg16, Cert.KCarry.at34_main_arg17, e0, e1, e2, e3]
  exact congrArg (fun p => Cert.Head.headT _ _ _ _ p _ _) e4

end Cert.KFinal

end
-- ==== Proof.RefKeep.lean ====
/-
  For each piece of the reference's line: the buffers its operations write, in order, and the fact that every other
  buffer holds after the piece what it held before it. Then the same for each layer (its nine pieces' lists joined),
  for the tail, and for the whole line; in particular the eighteen arguments, which no operation writes, hold at the
  end what they held at the start.
-/
import proofs.«412161_j3753801416792_2_alg».proof.Proof.RefRun

set_option maxRecDepth 65536

noncomputable section

namespace Cert.ReferenceIdeal.RefKeep

open Cert.ReferenceIdeal Cert.ReferenceIdeal.Gen Cert.ReferenceIdeal.RefRun Idealize.ShloMosaic Idealize.ShloMosaic.TcCoe Idealize.ShloMosaic.StableHlo

variable {F : FTy → Type} [FloatOps F]

/-- Two lines joined keep what each keeps: a buffer outside both lists of written buffers holds after the second line
    what it held after the first, and after the first what it held before. -/
theorem keep_append {a b : List (HloOp τ sig (Elt F))} {Wa Wb : List (Ref sig .tc)}
    (ha : ∀ (V : Valuation τ sig (Elt F)) (r : Ref sig .tc), r ∉ Wa → after a V (Proc.devRef .tc r) = V (Proc.devRef .tc r))
    (hb : ∀ (V : Valuation τ sig (Elt F)) (r : Ref sig .tc), r ∉ Wb → after b V (Proc.devRef .tc r) = V (Proc.devRef .tc r))
    (V : Valuation τ sig (Elt F)) (r : Ref sig .tc) (hr : r ∉ Wa ++ Wb) :
    after (a ++ b) V (Proc.devRef .tc r) = V (Proc.devRef .tc r) := by
  rw [RefRun.after_append, hb _ r (fun h => hr (List.mem_append_right _ h)), ha V r (fun h => hr (List.mem_append_left _ h))]

/-- The buffers piece L0A writes. -/
abbrev writtenL0A : List (Ref sig .tc) := [main_c, main_v0, main_v1, main_c_0, main_v2, main_v3, main_v4, main_v5, main_v6, main_cst, main_v7, main_v8, main_v9]
/-- A buffer piece L0A does not write keeps its contents across it. -/
theorem keepL0A (V : Valuation τ sig (Elt F)) (b : Ref sig .tc) (hb : b ∉ writtenL0A) :
    after opsL0A V (Proc.devRef .tc b) = V (Proc.devRef .tc b) :=
  after_of_forall_not_mem (b := Proc.devRef .tc b) _ _ (List.forall_iff_forall_mem.mp (by
    simp only [opsL0A, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0B writes. -/
abbrev writtenL0B : List (Ref sig .tc) := [main_v10, main_v11, main_cst_1, main_v12, main_v13, main_v14, main_v15, main_v16, main_v17, main_v18, main_v19, main_v20, main_v21, main_v22, main_v23]
/-- A buffer piece L0B does not write keeps its contents across it. -/
theorem keepL0B (V : Valuation τ sig (Elt F)) (b : Ref sig .tc) (hb : b ∉ writtenL0B) :
    after opsL0B V (Proc.devRef .tc b) = V (Proc.devRef .tc b) :=
  after_of_forall_not_mem (b := Proc.devRef .tc b) _ _ (List.forall_iff_forall_mem.mp (by
    simp only [opsL0B, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0C writes. -/
abbrev writtenL0C : List (Ref sig .tc) := [main_v24, main_v25, main_v26, main_v27, main_cst_2, main_v28, main_cst_3, main_v29, main_v30, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v31]
/-- A buffer piece L0C does not write keeps its contents across it. -/
theorem keepL0C (V : Valuation τ sig (Elt F)) (b : Ref sig .tc) (hb : b ∉ writtenL0C) :
    after opsL0C V (Proc.devRef .tc b) = V (Proc.devRef .tc b) :=
  after_of_forall_not_mem (b := Proc.devRef .tc b) _ _ (List.forall_iff_forall_mem.mp (by
    simp only [opsL0C, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0D writes. -/
abbrev writtenL0D : List (Ref sig .tc) := [main_v32, main_v33, main_v34, main_cst_5, main_v35, main_v36, main_v37, main_v38, main_v39, main_v40, main_v41, main_v42, main_v43, main_v44, main_v45, main_v46, main_call1_cst, main_call1_v0, main_v47]
/-- A buffer piece L0D does not write keeps its contents across it. -/
theorem keepL0D (V : Valuation τ sig (Elt F)) (b : Ref sig .tc) (hb : b ∉ writtenL0D) :
    after opsL0D V (Proc.devRef .tc b) = V (Proc.devRef .tc b) :=
  after_of_forall_not_mem (b := Proc.devRef .tc b) _ _ (List.forall_iff_forall_mem.mp (by
    simp only [opsL0D, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0E writes. -/
abbrev writtenL0E : List (Ref sig .tc) := [main_v48, main_v49, main_v50, main_v51, main_v52, main_v53, main_v54, main_v55]
/-- A buffer piece L0E does not write keeps its contents across it. -/
theorem keepL0E (V : Valuation τ sig (Elt F)) (b : Ref sig .tc) (hb : b ∉ writtenL0E) :
    after opsL0E V (Proc.devRef .tc b) = V (Proc.devRef .tc b) :=
  after_of_forall_not_mem (b := Proc.devRef .tc b) _ _ (List.forall_iff_forall_mem.mp (by
    simp only [opsL0E, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0F writes. -/
abbrev writtenL0F : List (Ref sig .tc) := [main_v56, main_v57, main_v58, main_v59, main_cst_6, main_v60, main_cst_7, main_v61, main_v62, main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v63]
/-- A buffer piece L0F does not write keeps its contents across it. -/
theorem keepL0F (V : Valuation τ sig (Elt F)) (b : Ref sig .tc) (hb : b ∉ writtenL0F) :
    after opsL0F V (Proc.devRef .tc b) = V (Proc.devRef .tc b) :=
  after_of_forall_not_mem (b := Proc.devRef .tc b) _ _ (List.forall_iff_forall_mem.mp (by
    simp only [opsL0F, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0G writes. -/
abbrev writtenL0G : List (Ref sig .tc) := [main_v64, main_v65, main_v66, main_cst_9, main_v67, main_v68, main_v69, main_v70, main_v71, main_v72, main_v73, main_v74, main_v75, main_v76, main_v77, main_v78, main_call3_cst, main_call3_v0, main_v79]
/-- A buffer piece L0G does not write keeps its contents across it. -/
theorem keepL0G (V : Valuation τ sig (Elt F)) (b : Ref sig .tc) (hb : b ∉ writtenL0G) :
    after opsL0G V (Proc.devRef .tc b) = V (Proc.devRef .tc b) :=
  after_of_forall_not_mem (b := Proc.devRef .tc b) _ _ (List.forall_iff_forall_mem.mp (by
    simp only [opsL0G, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0H writes. -/
abbrev writtenL0H : List (Ref sig .tc) := [main_v80, main_v81, main_v82, main_v83, main_cst_10, main_v84, main_cst_11, main_v85, main_v86, main_c_12, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v87]
/-- A buffer piece L0H does not write keeps its contents across it. -/
theorem keepL0H (V : Valuation τ sig (Elt F)) (b : Ref sig .tc) (hb : b ∉ writtenL0H) :
    after opsL0H V (Proc.devRef .tc b) = V (Proc.devRef .tc b) :=
  after_of_forall_not_mem (b := Proc.devRef .tc b) _ _ (List.forall_iff_forall_mem.mp (by
    simp only [opsL0H, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L0I writes. -/
abbrev writtenL0I : List (Ref sig .tc) := [main_v88, main_v89, main_v90, main_cst_13, main_v91, main_v92, main_v93, main_v94, main_v95, main_v96, main_v97, main_v98, main_v99, main_v100, main_v101, main_v102, main_call5_cst, main_call5_v0, main_v103]
/-- A buffer piece L0I does not write keeps its contents across it. -/
theorem keepL0I (V : Valuation τ sig (Elt F)) (b : Ref sig .tc) (hb : b ∉ writtenL0I) :
    after opsL0I V (Proc.devRef .tc b) = V (Proc.devRef .tc b) :=
  after_of_forall_not_mem (b := Proc.devRef .tc b) _ _ (List.forall_iff_forall_mem.mp (by
    simp only [opsL0I, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers layer 0 writes: its nine pieces' lists in order. -/
abbrev writtenL0 : List (Ref sig .tc) :=
  writtenL0A ++ writtenL0B ++ writtenL0C ++ writtenL0D ++ writtenL0E ++ writtenL0F ++ writtenL0G ++ writtenL0H ++ writtenL0I
/-- A buffer layer 0 does not write keeps its contents across it. -/
theorem keepL0 (V : Valuation τ sig (Elt F)) (b : Ref sig .tc) (hb : b ∉ writtenL0) :
    after opsL0 V (Proc.devRef .tc b) = V (Proc.devRef .tc b) :=
  keep_append (keep_append (keep_append (keep_append (keep_append (keep_append (keep_append (keep_append (keepL0A) keepL0B) keepL0C) keepL0D) keepL0E) keepL0F) keepL0G) keepL0H) keepL0I V b hb

/-- The buffers piece L1A writes. -/
abbrev writtenL1A : List (Ref sig .tc) := [main_c_14, main_v104, main_v105, main_c_15, main_v106, main_v107, main_v108, main_v109, main_v110, main_cst_16, main_v111, main_v112, main_v113]
/-- A buffer piece L1A does not write keeps its contents across it. -/
theorem keepL1A (V : Valuation τ sig (Elt F)) (b : Ref sig .tc) (hb : b ∉ writtenL1A) :
    after opsL1A V (Proc.devRef .tc b) = V (Proc.devRef .tc b) :=
  after_of_forall_not_mem (b := Proc.devRef .tc b) _ _ (List.forall_iff_forall_mem.mp (by
    simp only [opsL1A, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1B writes. -/
abbrev writtenL1B : List (Ref sig .tc) := [main_v114, main_v115, main_cst_17, main_v116, main_v117, main_v118, main_v119, main_v120, main_v121, main_v122, main_v123, main_v124, main_v125, main_v126, main_v127]
/-- A buffer piece L1B does not write keeps its contents across it. -/
theorem keepL1B (V : Valuation τ sig (Elt F)) (b : Ref sig .tc) (hb : b ∉ writtenL1B) :
    after opsL1B V (Proc.devRef .tc b) = V (Proc.devRef .tc b) :=
  after_of_forall_not_mem (b := Proc.devRef .tc b) _ _ (List.forall_iff_forall_mem.mp (by
    simp only [opsL1B, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1C writes. -/
abbrev writtenL1C : List (Ref sig .tc) := [main_v128, main_v129, main_v130, main_v131, main_cst_18, main_v132, main_cst_19, main_v133, main_v134, main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v135]
/-- A buffer piece L1C does not write keeps its contents across it. -/
theorem keepL1C (V : Valuation τ sig (Elt F)) (b : Ref sig .tc) (hb : b ∉ writtenL1C) :
    after opsL1C V (Proc.devRef .tc b) = V (Proc.devRef .tc b) :=
  after_of_forall_not_mem (b := Proc.devRef .tc b) _ _ (List.forall_iff_forall_mem.mp (by
    simp only [opsL1C, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1D writes. -/
abbrev writtenL1D : List (Ref sig .tc) := [main_v136, main_v137, main_v138, main_cst_21, main_v139, main_v140, main_v141, main_v142, main_v143, main_v144, main_v145, main_v146, main_v147, main_v148, main_v149, main_v150, main_call7_cst, main_call7_v0, main_v151]
/-- A buffer piece L1D does not write keeps its contents across it. -/
theorem keepL1D (V : Valuation τ sig (Elt F)) (b : Ref sig .tc) (hb : b ∉ writtenL1D) :
    after opsL1D V (Proc.devRef .tc b) = V (Proc.devRef .tc b) :=
  after_of_forall_not_mem (b := Proc.devRef .tc b) _ _ (List.forall_iff_forall_mem.mp (by
    simp only [opsL1D, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1E writes. -/
abbrev writtenL1E : List (Ref sig .tc) := [main_v152, main_v153, main_v154, main_v155, main_v156, main_v157, main_v158, main_v159]
/-- A buffer piece L1E does not write keeps its contents across it. -/
theorem keepL1E (V : Valuation τ sig (Elt F)) (b : Ref sig .tc) (hb : b ∉ writtenL1E) :
    after opsL1E V (Proc.devRef .tc b) = V (Proc.devRef .tc b) :=
  after_of_forall_not_mem (b := Proc.devRef .tc b) _ _ (List.forall_iff_forall_mem.mp (by
    simp only [opsL1E, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1F writes. -/
abbrev writtenL1F : List (Ref sig .tc) := [main_v160, main_v161, main_v162, main_v163, main_cst_22, main_v164, main_cst_23, main_v165, main_v166, main_c_24, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v167]
/-- A buffer piece L1F does not write keeps its contents across it. -/
theorem keepL1F (V : Valuation τ sig (Elt F)) (b : Ref sig .tc) (hb : b ∉ writtenL1F) :
    after opsL1F V (Proc.devRef .tc b) = V (Proc.devRef .tc b) :=
  after_of_forall_not_mem (b := Proc.devRef .tc b) _ _ (List.forall_iff_forall_mem.mp (by
    simp only [opsL1F, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1G writes. -/
abbrev writtenL1G : List (Ref sig .tc) := [main_v168, main_v169, main_v170, main_cst_25, main_v171, main_v172, main_v173, main_v174, main_v175, main_v176, main_v177, main_v178, main_v179, main_v180, main_v181, main_v182, main_call9_cst, main_call9_v0, main_v183]
/-- A buffer piece L1G does not write keeps its contents across it. -/
theorem keepL1G (V : Valuation τ sig (Elt F)) (b : Ref sig .tc) (hb : b ∉ writtenL1G) :
    after opsL1G V (Proc.devRef .tc b) = V (Proc.devRef .tc b) :=
  after_of_forall_not_mem (b := Proc.devRef .tc b) _ _ (List.forall_iff_forall_mem.mp (by
    simp only [opsL1G, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1H writes. -/
abbrev writtenL1H : List (Ref sig .tc) := [main_v184, main_v185, main_v186, main_v187, main_cst_26, main_v188, main_cst_27, main_v189, main_v190, main_c_28, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v191]
/-- A buffer piece L1H does not write keeps its contents across it. -/
theorem keepL1H (V : Valuation τ sig (Elt F)) (b : Ref sig .tc) (hb : b ∉ writtenL1H) :
    after opsL1H V (Proc.devRef .tc b) = V (Proc.devRef .tc b) :=
  after_of_forall_not_mem (b := Proc.devRef .tc b) _ _ (List.forall_iff_forall_mem.mp (by
    simp only [opsL1H, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L1I writes. -/
abbrev writtenL1I : List (Ref sig .tc) := [main_v192, main_v193, main_v194, main_cst_29, main_v195, main_v196, main_v197, main_v198, main_v199, main_v200, main_v201, main_v202, main_v203, main_v204, main_v205, main_v206, main_call11_cst, main_call11_v0, main_v207]
/-- A buffer piece L1I does not write keeps its contents across it. -/
theorem keepL1I (V : Valuation τ sig (Elt F)) (b : Ref sig .tc) (hb : b ∉ writtenL1I) :
    after opsL1I V (Proc.devRef .tc b) = V (Proc.devRef .tc b) :=
  after_of_forall_not_mem (b := Proc.devRef .tc b) _ _ (List.forall_iff_forall_mem.mp (by
    simp only [opsL1I, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers layer 1 writes: its nine pieces' lists in order. -/
abbrev writtenL1 : List (Ref sig .tc) :=
  writtenL1A ++ writtenL1B ++ writtenL1C ++ writtenL1D ++ writtenL1E ++ writtenL1F ++ writtenL1G ++ writtenL1H ++ writtenL1I
/-- A buffer layer 1 does not write keeps its contents across it. -/
theorem keepL1 (V : Valuation τ sig (Elt F)) (b : Ref sig .tc) (hb : b ∉ writtenL1) :
    after opsL1 V (Proc.devRef .tc b) = V (Proc.devRef .tc b) :=
  keep_append (keep_append (keep_append (keep_append (keep_append (keep_append (keep_append (keep_append (keepL1A) keepL1B) keepL1C) keepL1D) keepL1E) keepL1F) keepL1G) keepL1H) keepL1I V b hb

/-- The buffers piece L2A writes. -/
abbrev writtenL2A : List (Ref sig .tc) := [main_c_30, main_v208, main_v209, main_c_31, main_v210, main_v211, main_v212, main_v213, main_v214, main_cst_32, main_v215, main_v216, main_v217]
/-- A buffer piece L2A does not write keeps its contents across it. -/
theorem keepL2A (V : Valuation τ sig (Elt F)) (b : Ref sig .tc) (hb : b ∉ writtenL2A) :
    after opsL2A V (Proc.devRef .tc b) = V (Proc.devRef .tc b) :=
  after_of_forall_not_mem (b := Proc.devRef .tc b) _ _ (List.forall_iff_forall_mem.mp (by
    simp only [opsL2A, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2B writes. -/
abbrev writtenL2B : List (Ref sig .tc) := [main_v218, main_v219, main_cst_33, main_v220, main_v221, main_v222, main_v223, main_v224, main_v225, main_v226, main_v227, main_v228, main_v229, main_v230, main_v231]
/-- A buffer piece L2B does not write keeps its contents across it. -/
theorem keepL2B (V : Valuation τ sig (Elt F)) (b : Ref sig .tc) (hb : b ∉ writtenL2B) :
    after opsL2B V (Proc.devRef .tc b) = V (Proc.devRef .tc b) :=
  after_of_forall_not_mem (b := Proc.devRef .tc b) _ _ (List.forall_iff_forall_mem.mp (by
    simp only [opsL2B, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2C writes. -/
abbrev writtenL2C : List (Ref sig .tc) := [main_v232, main_v233, main_v234, main_v235, main_cst_34, main_v236, main_cst_35, main_v237, main_v238, main_c_36, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v239]
/-- A buffer piece L2C does not write keeps its contents across it. -/
theorem keepL2C (V : Valuation τ sig (Elt F)) (b : Ref sig .tc) (hb : b ∉ writtenL2C) :
    after opsL2C V (Proc.devRef .tc b) = V (Proc.devRef .tc b) :=
  after_of_forall_not_mem (b := Proc.devRef .tc b) _ _ (List.forall_iff_forall_mem.mp (by
    simp only [opsL2C, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2D writes. -/
abbrev writtenL2D : List (Ref sig .tc) := [main_v240, main_v241, main_v242, main_cst_37, main_v243, main_v244, main_v245, main_v246, main_v247, main_v248, main_v249, main_v250, main_v251, main_v252, main_v253, main_v254, main_call13_cst, main_call13_v0, main_v255]
/-- A buffer piece L2D does not write keeps its contents across it. -/
theorem keepL2D (V : Valuation τ sig (Elt F)) (b : Ref sig .tc) (hb : b ∉ writtenL2D) :
    after opsL2D V (Proc.devRef .tc b) = V (Proc.devRef .tc b) :=
  after_of_forall_not_mem (b := Proc.devRef .tc b) _ _ (List.forall_iff_forall_mem.mp (by
    simp only [opsL2D, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2E writes. -/
abbrev writtenL2E : List (Ref sig .tc) := [main_v256, main_v257, main_v258, main_v259, main_v260, main_v261, main_v262, main_v263]
/-- A buffer piece L2E does not write keeps its contents across it. -/
theorem keepL2E (V : Valuation τ sig (Elt F)) (b : Ref sig .tc) (hb : b ∉ writtenL2E) :
    after opsL2E V (Proc.devRef .tc b) = V (Proc.devRef .tc b) :=
  after_of_forall_not_mem (b := Proc.devRef .tc b) _ _ (List.forall_iff_forall_mem.mp (by
    simp only [opsL2E, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2F writes. -/
abbrev writtenL2F : List (Ref sig .tc) := [main_v264, main_v265, main_v266, main_v267, main_cst_38, main_v268, main_cst_39, main_v269, main_v270, main_c_40, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v271]
/-- A buffer piece L2F does not write keeps its contents across it. -/
theorem keepL2F (V : Valuation τ sig (Elt F)) (b : Ref sig .tc) (hb : b ∉ writtenL2F) :
    after opsL2F V (Proc.devRef .tc b) = V (Proc.devRef .tc b) :=
  after_of_forall_not_mem (b := Proc.devRef .tc b) _ _ (List.forall_iff_forall_mem.mp (by
    simp only [opsL2F, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2G writes. -/
abbrev writtenL2G : List (Ref sig .tc) := [main_v272, main_v273, main_v274, main_cst_41, main_v275, main_v276, main_v277, main_v278, main_v279, main_v280, main_v281, main_v282, main_v283, main_v284, main_v285, main_v286, main_call15_cst, main_call15_v0, main_v287]
/-- A buffer piece L2G does not write keeps its contents across it. -/
theorem keepL2G (V : Valuation τ sig (Elt F)) (b : Ref sig .tc) (hb : b ∉ writtenL2G) :
    after opsL2G V (Proc.devRef .tc b) = V (Proc.devRef .tc b) :=
  after_of_forall_not_mem (b := Proc.devRef .tc b) _ _ (List.forall_iff_forall_mem.mp (by
    simp only [opsL2G, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2H writes. -/
abbrev writtenL2H : List (Ref sig .tc) := [main_v288, main_v289, main_v290, main_v291, main_cst_42, main_v292, main_cst_43, main_v293, main_v294, main_c_44, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v295]
/-- A buffer piece L2H does not write keeps its contents across it. -/
theorem keepL2H (V : Valuation τ sig (Elt F)) (b : Ref sig .tc) (hb : b ∉ writtenL2H) :
    after opsL2H V (Proc.devRef .tc b) = V (Proc.devRef .tc b) :=
  after_of_forall_not_mem (b := Proc.devRef .tc b) _ _ (List.forall_iff_forall_mem.mp (by
    simp only [opsL2H, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L2I writes. -/
abbrev writtenL2I : List (Ref sig .tc) := [main_v296, main_v297, main_v298, main_cst_45, main_v299, main_v300, main_v301, main_v302, main_v303, main_v304, main_v305, main_v306, main_v307, main_v308, main_v309, main_v310, main_call17_cst, main_call17_v0, main_v311]
/-- A buffer piece L2I does not write keeps its contents across it. -/
theorem keepL2I (V : Valuation τ sig (Elt F)) (b : Ref sig .tc) (hb : b ∉ writtenL2I) :
    after opsL2I V (Proc.devRef .tc b) = V (Proc.devRef .tc b) :=
  after_of_forall_not_mem (b := Proc.devRef .tc b) _ _ (List.forall_iff_forall_mem.mp (by
    simp only [opsL2I, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers layer 2 writes: its nine pieces' lists in order. -/
abbrev writtenL2 : List (Ref sig .tc) :=
  writtenL2A ++ writtenL2B ++ writtenL2C ++ writtenL2D ++ writtenL2E ++ writtenL2F ++ writtenL2G ++ writtenL2H ++ writtenL2I
/-- A buffer layer 2 does not write keeps its contents across it. -/
theorem keepL2 (V : Valuation τ sig (Elt F)) (b : Ref sig .tc) (hb : b ∉ writtenL2) :
    after opsL2 V (Proc.devRef .tc b) = V (Proc.devRef .tc b) :=
  keep_append (keep_append (keep_append (keep_append (keep_append (keep_append (keep_append (keep_append (keepL2A) keepL2B) keepL2C) keepL2D) keepL2E) keepL2F) keepL2G) keepL2H) keepL2I V b hb

/-- The buffers piece L3A writes. -/
abbrev writtenL3A : List (Ref sig .tc) := [main_c_46, main_v312, main_v313, main_c_47, main_v314, main_v315, main_v316, main_v317, main_v318, main_cst_48, main_v319, main_v320, main_v321]
/-- A buffer piece L3A does not write keeps its contents across it. -/
theorem keepL3A (V : Valuation τ sig (Elt F)) (b : Ref sig .tc) (hb : b ∉ writtenL3A) :
    after opsL3A V (Proc.devRef .tc b) = V (Proc.devRef .tc b) :=
  after_of_forall_not_mem (b := Proc.devRef .tc b) _ _ (List.forall_iff_forall_mem.mp (by
    simp only [opsL3A, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3B writes. -/
abbrev writtenL3B : List (Ref sig .tc) := [main_v322, main_v323, main_cst_49, main_v324, main_v325, main_v326, main_v327, main_v328, main_v329, main_v330, main_v331, main_v332, main_v333, main_v334, main_v335]
/-- A buffer piece L3B does not write keeps its contents across it. -/
theorem keepL3B (V : Valuation τ sig (Elt F)) (b : Ref sig .tc) (hb : b ∉ writtenL3B) :
    after opsL3B V (Proc.devRef .tc b) = V (Proc.devRef .tc b) :=
  after_of_forall_not_mem (b := Proc.devRef .tc b) _ _ (List.forall_iff_forall_mem.mp (by
    simp only [opsL3B, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3C writes. -/
abbrev writtenL3C : List (Ref sig .tc) := [main_v336, main_v337, main_v338, main_v339, main_cst_50, main_v340, main_cst_51, main_v341, main_v342, main_c_52, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v343]
/-- A buffer piece L3C does not write keeps its contents across it. -/
theorem keepL3C (V : Valuation τ sig (Elt F)) (b : Ref sig .tc) (hb : b ∉ writtenL3C) :
    after opsL3C V (Proc.devRef .tc b) = V (Proc.devRef .tc b) :=
  after_of_forall_not_mem (b := Proc.devRef .tc b) _ _ (List.forall_iff_forall_mem.mp (by
    simp only [opsL3C, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3D writes. -/
abbrev writtenL3D : List (Ref sig .tc) := [main_v344, main_v345, main_v346, main_cst_53, main_v347, main_v348, main_v349, main_v350, main_v351, main_v352, main_v353, main_v354, main_v355, main_v356, main_v357, main_v358, main_call19_cst, main_call19_v0, main_v359]
/-- A buffer piece L3D does not write keeps its contents across it. -/
theorem keepL3D (V : Valuation τ sig (Elt F)) (b : Ref sig .tc) (hb : b ∉ writtenL3D) :
    after opsL3D V (Proc.devRef .tc b) = V (Proc.devRef .tc b) :=
  after_of_forall_not_mem (b := Proc.devRef .tc b) _ _ (List.forall_iff_forall_mem.mp (by
    simp only [opsL3D, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3E writes. -/
abbrev writtenL3E : List (Ref sig .tc) := [main_v360, main_v361, main_v362, main_v363, main_v364, main_v365, main_v366, main_v367]
/-- A buffer piece L3E does not write keeps its contents across it. -/
theorem keepL3E (V : Valuation τ sig (Elt F)) (b : Ref sig .tc) (hb : b ∉ writtenL3E) :
    after opsL3E V (Proc.devRef .tc b) = V (Proc.devRef .tc b) :=
  after_of_forall_not_mem (b := Proc.devRef .tc b) _ _ (List.forall_iff_forall_mem.mp (by
    simp only [opsL3E, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3F writes. -/
abbrev writtenL3F : List (Ref sig .tc) := [main_v368, main_v369, main_v370, main_v371, main_cst_54, main_v372, main_cst_55, main_v373, main_v374, main_c_56, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v375]
/-- A buffer piece L3F does not write keeps its contents across it. -/
theorem keepL3F (V : Valuation τ sig (Elt F)) (b : Ref sig .tc) (hb : b ∉ writtenL3F) :
    after opsL3F V (Proc.devRef .tc b) = V (Proc.devRef .tc b) :=
  after_of_forall_not_mem (b := Proc.devRef .tc b) _ _ (List.forall_iff_forall_mem.mp (by
    simp only [opsL3F, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3G writes. -/
abbrev writtenL3G : List (Ref sig .tc) := [main_v376, main_v377, main_v378, main_cst_57, main_v379, main_v380, main_v381, main_v382, main_v383, main_v384, main_v385, main_v386, main_v387, main_v388, main_v389, main_v390, main_call21_cst, main_call21_v0, main_v391]
/-- A buffer piece L3G does not write keeps its contents across it. -/
theorem keepL3G (V : Valuation τ sig (Elt F)) (b : Ref sig .tc) (hb : b ∉ writtenL3G) :
    after opsL3G V (Proc.devRef .tc b) = V (Proc.devRef .tc b) :=
  after_of_forall_not_mem (b := Proc.devRef .tc b) _ _ (List.forall_iff_forall_mem.mp (by
    simp only [opsL3G, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3H writes. -/
abbrev writtenL3H : List (Ref sig .tc) := [main_v392, main_v393, main_v394, main_v395, main_cst_58, main_v396, main_cst_59, main_v397, main_v398, main_c_60, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v399]
/-- A buffer piece L3H does not write keeps its contents across it. -/
theorem keepL3H (V : Valuation τ sig (Elt F)) (b : Ref sig .tc) (hb : b ∉ writtenL3H) :
    after opsL3H V (Proc.devRef .tc b) = V (Proc.devRef .tc b) :=
  after_of_forall_not_mem (b := Proc.devRef .tc b) _ _ (List.forall_iff_forall_mem.mp (by
    simp only [opsL3H, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece L3I writes. -/
abbrev writtenL3I : List (Ref sig .tc) := [main_v400, main_v401, main_v402, main_cst_61, main_v403, main_v404, main_v405, main_v406, main_v407, main_v408, main_v409, main_v410, main_v411, main_v412, main_v413, main_v414, main_call23_cst, main_call23_v0, main_v415]
/-- A buffer piece L3I does not write keeps its contents across it. -/
theorem keepL3I (V : Valuation τ sig (Elt F)) (b : Ref sig .tc) (hb : b ∉ writtenL3I) :
    after opsL3I V (Proc.devRef .tc b) = V (Proc.devRef .tc b) :=
  after_of_forall_not_mem (b := Proc.devRef .tc b) _ _ (List.forall_iff_forall_mem.mp (by
    simp only [opsL3I, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers layer 3 writes: its nine pieces' lists in order. -/
abbrev writtenL3 : List (Ref sig .tc) :=
  writtenL3A ++ writtenL3B ++ writtenL3C ++ writtenL3D ++ writtenL3E ++ writtenL3F ++ writtenL3G ++ writtenL3H ++ writtenL3I
/-- A buffer layer 3 does not write keeps its contents across it. -/
theorem keepL3 (V : Valuation τ sig (Elt F)) (b : Ref sig .tc) (hb : b ∉ writtenL3) :
    after opsL3 V (Proc.devRef .tc b) = V (Proc.devRef .tc b) :=
  keep_append (keep_append (keep_append (keep_append (keep_append (keep_append (keep_append (keep_append (keepL3A) keepL3B) keepL3C) keepL3D) keepL3E) keepL3F) keepL3G) keepL3H) keepL3I V b hb

/-- The buffers piece TailPool writes. -/
abbrev writtenTailPool : List (Ref sig .tc) := [main_cst_62, main_v416, main_v417, main_v418, main_cst_63, main_v419, main_v420, main_v421, main_cst_64, main_v422, main_v423, main_v424, main_cst_65, main_v425, main_v426, main_v427, main_cst_66, main_v428, main_v429, main_v430]
/-- A buffer piece TailPool does not write keeps its contents across it. -/
theorem keepTailPool (V : Valuation τ sig (Elt F)) (b : Ref sig .tc) (hb : b ∉ writtenTailPool) :
    after opsTailPool V (Proc.devRef .tc b) = V (Proc.devRef .tc b) :=
  after_of_forall_not_mem (b := Proc.devRef .tc b) _ _ (List.forall_iff_forall_mem.mp (by
    simp only [opsTailPool, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers piece TailHead writes. -/
abbrev writtenTailHead : List (Ref sig .tc) := [main_v431, main_v432, main_v433, main_v434, main_v435, main_v436, main_v437, main_v438, main_cst_67, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476]
/-- A buffer piece TailHead does not write keeps its contents across it. -/
theorem keepTailHead (V : Valuation τ sig (Elt F)) (b : Ref sig .tc) (hb : b ∉ writtenTailHead) :
    after opsTailHead V (Proc.devRef .tc b) = V (Proc.devRef .tc b) :=
  after_of_forall_not_mem (b := Proc.devRef .tc b) _ _ (List.forall_iff_forall_mem.mp (by
    simp only [opsTailHead, List.Forall, TRef.nullary, TRef.unary, TRef.binary, TRef.ternary, nullary_writes, unary_writes,
      binary_writes, ternary_writes, reshape_writes, Finset.mem_singleton]
    repeat' apply And.intro
    all_goals (apply devRef_ne_of_ne; intro e; subst e; exact hb (by decide))))

/-- The buffers the tail writes. -/
abbrev writtenTail : List (Ref sig .tc) := writtenTailPool ++ writtenTailHead
/-- A buffer the tail does not write keeps its contents across it. -/
theorem keepTail (V : Valuation τ sig (Elt F)) (b : Ref sig .tc) (hb : b ∉ writtenTail) :
    after opsTail V (Proc.devRef .tc b) = V (Proc.devRef .tc b) :=
  keep_append keepTailPool keepTailHead V b hb

/-- A buffer no operation of the line writes holds at the end what it held at the start. -/
theorem keepAll (V : Valuation τ sig (Elt F)) (b : Ref sig .tc)
    (hb : b ∉ writtenL0 ++ writtenL1 ++ writtenL2 ++ writtenL3 ++ writtenTail) :
    after ops V (Proc.devRef .tc b) = V (Proc.devRef .tc b) :=
  keep_append (keep_append (keep_append (keep_append keepL0 keepL1) keepL2) keepL3) keepTail V b hb

/-- The eighteen arguments hold at the end what they held at the start: none is among the written buffers. -/
theorem arg_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13)
    ∧ after ops V (Proc.devRef .tc main_arg14) = V (Proc.devRef .tc main_arg14)
    ∧ after ops V (Proc.devRef .tc main_arg15) = V (Proc.devRef .tc main_arg15)
    ∧ after ops V (Proc.devRef .tc main_arg16) = V (Proc.devRef .tc main_arg16)
    ∧ after ops V (Proc.devRef .tc main_arg17) = V (Proc.devRef .tc main_arg17) :=
  ⟨keepAll V main_arg0 (by decide),
   keepAll V main_arg1 (by decide),
   keepAll V main_arg2 (by decide),
   keepAll V main_arg3 (by decide),
   keepAll V main_arg4 (by decide),
   keepAll V main_arg5 (by decide),
   keepAll V main_arg6 (by decide),
   keepAll V main_arg7 (by decide),
   keepAll V main_arg8 (by decide),
   keepAll V main_arg9 (by decide),
   keepAll V main_arg10 (by decide),
   keepAll V main_arg11 (by decide),
   keepAll V main_arg12 (by decide),
   keepAll V main_arg13 (by decide),
   keepAll V main_arg14 (by decide),
   keepAll V main_arg15 (by decide),
   keepAll V main_arg16 (by decide),
   keepAll V main_arg17 (by decide)⟩

end Cert.ReferenceIdeal.RefKeep

end
-- ==== Proof.RefAffine.lean ====
/-
  The reference's edge aggregate and its two affine maps in layer 0, read for arbitrary contents of the buffers
  they read.

  * The aggregate: the rows of the features gathered along the edges' sources and added at their targets. It is
    the same composition of the same operations as the shared aggregation function, so the two are equal as
    they stand.
  * The first affine map: ((1 + eps) h + agg) W1 + b1, where eps, W1 and b1 are entry 0, matrix 0 and row 0 of
    their stacks: at (n, j) the sum over k of ((1 + eps) h(n, k) + agg(n, k)) W1(k, j), plus b1(j).
  * The second affine map: z W2 + b2 likewise.

  Each layout operation is read at an index: a slice shifts by its offsets, a reshape keeps the row-major
  position, a broadcast reads the operand at the coordinates it names; the matrix product at (n, j) is the sum
  over the contracted coordinate. The large operands stay variables throughout, and the program's buffers enter
  only in the three final statements.
-/
import proofs.«412161_j3753801416792_2_alg».proof.Proof.Gen.ReferenceIdeal
import Idealize.ShloMosaic.Lib.StableHlo.Run
import proofs.«412161_j3753801416792_2_alg».proof.Proof.RefRun
import proofs.«412161_j3753801416792_2_alg».proof.Proof.Conv
import proofs.«412161_j3753801416792_2_alg».proof.Proof.Agg
import Idealize.ShloMosaic.Lib.StackMember
import Idealize.ShloMosaic.Lib.Pipeline.Value
import Idealize.ShloMosaic.Lib.ValueIdx
import Idealize.ShloMosaic.PureOps.Ideal.Laws

noncomputable section

namespace Cert.RefAffine

open Cert.ReferenceIdeal Cert.ReferenceIdeal.RefRun Cert.Spec Cert.Conv Idealize.ShloMosaic Idealize.ShloMosaic.ValueIdx Idealize.ShloMosaic.StableHlo

/-- The scalar (1 + eps), broadcast: at every index the word of one plus entry `l` of the vector of eps. -/
theorem scale_apply (l : Fin 4) (e : FVec Ideal S4 .f32) {off : Fin S4.rank → ℕ} (hoff : off 0 = l.val)
    {hs : S4.Slices off S1} {hc : S1.ShapeCasts S_} {hb : S_.BroadcastsInDim S100000x128 ![]} (i : S100000x128.Idx) :
    broadcastInDim S100000x128 ![] hb
      (addf (constant (F := Ideal) S_ .f32 0x3F800000#32) (shapeCast S_ (extractStridedSlice S1 off e hs) hc)) i
      = Ideal.ofBits .f32 0x3F800000#32 + e (ix1 l) := by
  rw [broadcastInDim_apply _ hb _ i (fun a => a.elim0) (fun a => a.elim0)]
  rw [addf_apply, constant_apply]
  congr 1
  rw [shapeCast_apply _ hc _ (ix1 (0 : Fin 1)) (by decide)]
  exact extractStridedSlice_apply off e hs _ (ix1 l) (fun a => by
    match a with
    | ⟨0, _⟩ => show l.val = off 0 + 0; omega)

/-- Matrix `l` of a stack of four 128 by 128 matrices, as a matrix: its (k, j) entry. -/
theorem weight_apply (l : Fin 4) (W : FVec Ideal S4x128x128 .f32) {off : Fin S4x128x128.rank → ℕ}
    (hoff0 : off 0 = l.val) (hoff1 : off 1 = 0) (hoff2 : off 2 = 0)
    {hs : S4x128x128.Slices off S1x128x128} {hc : S1x128x128.ShapeCasts S128x128} (k j : Fin 128) :
    shapeCast S128x128 (extractStridedSlice S1x128x128 off W hs) hc (ix2 k j) = W (ix3 l k j) := by
  rw [shapeCast_apply _ hc _ (ix3 (0 : Fin 1) k j) (by
    rw [Shape.rowMajor_val_three, Shape.rowMajor_val_two]
    show (0 * 128 + k.val) * 128 + j.val = k.val * 128 + j.val
    omega)]
  exact extractStridedSlice_apply off W hs _ (ix3 l k j) (fun a => by
    match a with
    | ⟨0, _⟩ => show l.val = off 0 + 0; omega
    | ⟨1, _⟩ => show k.val = off 1 + k.val; omega
    | ⟨2, _⟩ => show j.val = off 2 + j.val; omega)

/-- Row `l` of a stack of four rows of 128, broadcast down the 100000 rows: its (n, j) entry. -/
theorem bias_apply (l : Fin 4) (b : FVec Ideal S4x128 .f32) {off : Fin S4x128.rank → ℕ}
    (hoff0 : off 0 = l.val) (hoff1 : off 1 = 0)
    {hs : S4x128.Slices off S1x128} {hc : S1x128.ShapeCasts S128} {hb1 : S128.BroadcastsInDim S1x128 ![1]}
    {hb2 : S1x128.BroadcastsInDim S100000x128 ![0, 1]} (n : Fin 100000) (j : Fin 128) :
    broadcastInDim S100000x128 ![0, 1] hb2
      (broadcastInDim S1x128 ![1] hb1 (shapeCast S128 (extractStridedSlice S1x128 off b hs) hc)) (ix2 n j)
      = b (ix2 l j) := by
  rw [broadcastInDim_apply _ hb2 _ (ix2 n j) (ix2 (0 : Fin 1) j) (fun a => by
    match a with
    | ⟨0, _⟩ => rfl
    | ⟨1, _⟩ => rfl)]
  rw [broadcastInDim_apply _ hb1 _ (ix2 (0 : Fin 1) j) (ix1 j) (fun a => by
    match a with
    | ⟨0, _⟩ => rfl)]
  rw [shapeCast_apply _ hc _ (ix2 (0 : Fin 1) j) (by
    rw [Shape.rowMajor_val_two, Shape.rowMajor_val_one]
    show 0 * 128 + j.val = j.val
    omega)]
  exact extractStridedSlice_apply off b hs _ (ix2 l j) (fun a => by
    match a with
    | ⟨0, _⟩ => show l.val = off 0 + 0; omega
    | ⟨1, _⟩ => show j.val = off 1 + j.val; omega)

/-- The product of a 100000 by 128 matrix with a 128 by 128 matrix, contracting columns against rows: its (n, j)
    entry is the sum over k of the products of the (n, k) and (k, j) entries. -/
theorem dot_apply {d : DotDims S100000x128 S128x128 S100000x128} (hd : d = DotDims.plain 100000 128 128)
    (x : FVec Ideal S100000x128 .f32) (w : FVec Ideal S128x128 .f32) (n : Fin 100000) (j : Fin 128) :
    Host.dotGeneral (F := Ideal) d none x w (ix2 n j) = ∑ k : Fin 128, x (ix2 n k) * w (ix2 k j) := by
  subst hd
  exact StackMember.dotGeneral_plain_apply none x w n j

set_option maxHeartbeats 400000 in
/-- The first affine map of a layer, read as a matrix: ((1 + eps) h + agg) W + b, with eps, W, b entry, matrix and
    row `l` of their stacks. -/
theorem linB_aux (l : Fin 4) (e : FVec Ideal S4 .f32) (h agg : FVec Ideal S100000x128 .f32)
    (W : FVec Ideal S4x128x128 .f32) (b : FVec Ideal S4x128 .f32)
    {off5 : Fin S4.rank → ℕ} {off6 : Fin S4x128x128.rank → ℕ} {off7 : Fin S4x128.rank → ℕ}
    (h5 : off5 0 = l.val) (h60 : off6 0 = l.val) (h61 : off6 1 = 0) (h62 : off6 2 = 0)
    (h70 : off7 0 = l.val) (h71 : off7 1 = 0)
    {hs5 : S4.Slices off5 S1} {hc5 : S1.ShapeCasts S_} {hb5 : S_.BroadcastsInDim S100000x128 ![]}
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none
          (addf (mulf (broadcastInDim S100000x128 ![] hb5
              (addf (constant (F := Ideal) S_ .f32 0x3F800000#32) (shapeCast S_ (extractStridedSlice S1 off5 e hs5) hc5))) h) agg)
          (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (fun n k => (Ideal.ofBits .f32 0x3F800000#32 + e (ix1 l)) * toMat h n k + toMat agg n k)
          (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62, addf_apply, mulf_apply, scale_apply l e h5]

set_option maxHeartbeats 400000 in
/-- The second affine map of a layer, read as a matrix: z W + b, with W, b matrix and row `l` of their stacks. -/
theorem linE_aux (l : Fin 4) (z : FVec Ideal S100000x128 .f32)
    (W : FVec Ideal S4x128x128 .f32) (b : FVec Ideal S4x128 .f32)
    {off6 : Fin S4x128x128.rank → ℕ} {off7 : Fin S4x128.rank → ℕ}
    (h60 : off6 0 = l.val) (h61 : off6 1 = 0) (h62 : off6 2 = 0) (h70 : off7 0 = l.val) (h71 : off7 1 = 0)
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none z (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (toMat z) (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62]

variable (V : Valuation τ sig (Elt Ideal))

set_option maxHeartbeats 400000 in
/-- Layer 0's first affine map, for any contents of the buffers it reads. -/
theorem linB : toMat (after opsL0B V (Proc.devRef .tc main_v23))
    = lin (fun n k => (Ideal.ofBits .f32 0x3F800000#32 + V (Proc.devRef .tc main_arg5) (ix1 (0 : Fin 4)))
              * toMat (V (Proc.devRef .tc main_arg0)) n k + toMat (V (Proc.devRef .tc main_v9)) n k)
        (fun k j => V (Proc.devRef .tc main_arg6) (ix3 (0 : Fin 4) k j))
        (fun j => V (Proc.devRef .tc main_arg7) (ix2 (0 : Fin 4) j)) := by
  after_results
  exact linB_aux (0 : Fin 4) _ _ _ _ _ (by rfl) (by rfl) (by rfl) (by rfl) (by rfl) (by rfl) (by rfl)

set_option maxHeartbeats 400000 in
/-- Layer 0's second affine map, for any contents of the buffers it reads. -/
theorem linE : toMat (after opsL0E V (Proc.devRef .tc main_v55))
    = lin (toMat (V (Proc.devRef .tc main_v47)))
        (fun k j => V (Proc.devRef .tc main_arg8) (ix3 (0 : Fin 4) k j))
        (fun j => V (Proc.devRef .tc main_arg9) (ix2 (0 : Fin 4) j)) := by
  after_results
  exact linE_aux (0 : Fin 4) _ _ _ (by rfl) (by rfl) (by rfl) (by rfl) (by rfl) (by rfl)

set_option maxHeartbeats 400000 in
/-- Layer 0's edge aggregate, for any contents of the buffers it reads: the shared aggregation of the features
    along the edges. -/
theorem aggA [Cert.KernelIdeal.Facts₀] : after opsL0A V (Proc.devRef .tc main_v9)
    = Cert.Agg.aggT (V (Proc.devRef .tc main_arg0)) (V (Proc.devRef .tc main_arg2)) (V (Proc.devRef .tc main_arg3)) := by
  after_results
  rfl

end Cert.RefAffine

end
-- ==== Proof.RefStats.lean ====
/-
  The reference's column statistics, read for an arbitrary valuation.

  Each layer of the reference normalises three matrices of 100000 rows and 128 columns. Before each normalisation
  it takes, per column, the mean (the column sum divided by the node count) and the variance (an outlined function:
  the column mean again, the deviations from it, their squares, the column sums of the squares divided by the node
  count minus a correction that is the integer zero, guarded by "the divisor is positive" with a not-a-number
  fallback), and it slices one row out of each of two parameter tables of four rows.

  The variance function's body is first stated once as a term of its argument, a variable matrix, and read at a
  column: the divisor is the real number 100000, so the guard holds, the fallback is never read, and the value is
  the mean of the squared deviations from the mean. Then, for each of the layer's three segments of operations,
  the fold of the segment over an arbitrary valuation is identified at four buffers (mean, variance, the two
  parameter rows) with those terms of the valuation's entries, and read at a column.
-/
import proofs.«412161_j3753801416792_2_alg».proof.Proof.Gen.ReferenceIdeal
import proofs.«412161_j3753801416792_2_alg».proof.Proof.RefRun
import proofs.«412161_j3753801416792_2_alg».proof.Proof.Conv
import proofs.«412161_j3753801416792_2_alg».proof.Proof.LibReal
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.RefStats
open Cert.ReferenceIdeal Cert.ReferenceIdeal.Gen Cert.ReferenceIdeal.RefRun Cert.Spec Cert.Conv Idealize.ShloMosaic Idealize.ShloMosaic.ValueIdx Idealize.ShloMosaic.StableHlo

/-! ## The outlined variance function as one term of its argument -/

/-- The column reduction's shape fact in the form that names the inserted index. -/
theorem reduces0 : S100000x128.Reduces [0] S128 := by decide

/-- Over column `j`, the index with row `k` inserted is `(k, j)`. -/
theorem lift_eq (j : Fin 128) (k : Fin 100000) : reduces0.lift (ix1 j) k = ix2 k j := by
  funext c
  match c with
  | ⟨0, _⟩ => rfl
  | ⟨1, _⟩ => rfl

/-- A host column sum from the zero word, read at a column: the sum over all rows. -/
theorem colSum_apply (x : FVec Ideal S100000x128 .f32) (j : Fin 128) :
    Host.reduceAdd x (constant (F := Ideal) S_ .f32 0x00000000#32) reducesTo_S100000x128_S128_d0 h_S_ (ix1 j)
      = ∑ n : Fin 100000, x (ix2 n j) := by
  rw [hostReduceAdd_apply, Ideal.hostReduceAdd_single reducesTo_S100000x128_S128_d0 reduces0, constant_apply,
    Ideal.ofBits_zero_f32, zero_add]
  exact Finset.sum_congr rfl fun k _ => congrArg x (lift_eq j k)

/-- The node count is the real number 100000, which is positive. -/
theorem cN_pos : (0 : EReal) < cN := by
  unfold cN
  rw [Cert.LibReal.ofBits_100000]
  exact_mod_cast (by norm_num : (0 : ℝ) < 100000)

/-- The column mean as the main program spells it. -/
def meanTerm (x : FVec Ideal S100000x128 .f32) : FVec Ideal S128 .f32 :=
  Host.divf (Host.reduceAdd x (constant (F := Ideal) S_ .f32 0x00000000#32) reducesTo_S100000x128_S128_d0 h_S_)
    (broadcastInDim S128 ![] bcast_S_S128 (constant (F := Ideal) S_ .f32 0x47C35000#32))

theorem meanTerm_apply (x : FVec Ideal S100000x128 .f32) (j : Fin 128) :
    meanTerm x (ix1 j) = meanR (toMat x) j := by
  unfold meanTerm
  rw [hostDivf_apply, colSum_apply, broadcastInDim_scalar_apply, constant_apply]
  rfl

/-- The column mean inside the variance function: a one-row matrix. -/
def varMean (x : FVec Ideal S100000x128 .f32) : FVec Ideal S1x128 .f32 :=
  Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))

theorem varMean_apply (x : FVec Ideal S100000x128 .f32) (j : Fin 128) :
    varMean x (ix2 (0 : Fin 1) j) = meanR (toMat x) j := by
  unfold varMean
  rw [hostDivf_apply, broadcastInDim_apply _ bcast_S128_S1x128_1 _ _ (ix1 j) (fun a => by
      match a with
      | ⟨0, _⟩ => rfl),
    colSum_apply, broadcastInDim_scalar_apply, constant_apply]
  rfl

/-- The deviations from the column mean. -/
def varDev (x : FVec Ideal S100000x128 .f32) : FVec Ideal S100000x128 .f32 :=
  subf x (broadcastInDim S100000x128 ![0, 1] bcast_S1x128_S100000x128_0_1 (varMean x))

theorem varDev_apply (x : FVec Ideal S100000x128 .f32) (n : Fin 100000) (j : Fin 128) :
    varDev x (ix2 n j) = x (ix2 n j) - meanR (toMat x) j := by
  unfold varDev
  rw [subf_apply, broadcastInDim_apply _ bcast_S1x128_S100000x128_0_1 _ _ (ix2 (0 : Fin 1) j) (fun a => by
      match a with
      | ⟨0, _⟩ => rfl
      | ⟨1, _⟩ => rfl),
    varMean_apply]

/-- The divisor: the node count minus the correction, which is the integer zero. -/
def varDen : FVec Ideal S_ .f32 :=
  subf (constant (F := Ideal) S_ .f32 0x47C35000#32) (sitofp .f32 (constantI S_ 32 0#32))

theorem varDen_apply : varDen ix0 = cN := by
  unfold varDen
  rw [subf_apply, constant_apply, sitofp_apply, constantI_apply]
  show Ideal.ofBits .f32 0x47C35000#32 - (((0#32 : BitVec 32).toInt : ℝ) : EReal) = cN
  rw [BitVec.toInt_zero, Int.cast_zero, EReal.coe_zero, sub_zero]
  rfl

/-- The variance function's body as one term of its argument. -/
def varTerm (x : FVec Ideal S100000x128 .f32) : FVec Ideal S128 .f32 :=
  select
    (broadcastInDim S128 ![] bcast_S_S128 (cmpf .ogt varDen (constant (F := Ideal) S_ .f32 0x00000000#32)))
    (Host.divf
      (Host.reduceAdd (mulf (varDev x) (varDev x)) (constant (F := Ideal) S_ .f32 0x00000000#32)
        reducesTo_S100000x128_S128_d0 h_S_)
      (broadcastInDim S128 ![] bcast_S_S128 varDen))
    (broadcastInDim S128 ![] bcast_S_S128 (id (constant (F := Ideal) S_ .f32 0x7FC00000#32)))

/-- At a column it is the mean of the squared deviations: the divisor is positive, so the guard holds and the
    not-a-number word is never read. -/
theorem varTerm_apply (x : FVec Ideal S100000x128 .f32) (j : Fin 128) :
    varTerm x (ix1 j) = varR (toMat x) j := by
  have hp : (cmpf .ogt varDen (constant (F := Ideal) S_ .f32 0x00000000#32)) ix0 = 1#1 := by
    rw [cmpf_apply, varDen_apply, constant_apply, Ideal.ofBits_zero_f32, Ideal.cmpf_def]
    show BitVec.ofBool (decide ((0 : EReal) < cN)) = 1#1
    rw [decide_eq_true cN_pos]
    rfl
  unfold varTerm
  rw [select_apply, broadcastInDim_scalar_apply, hp, select_one, hostDivf_apply, colSum_apply,
    broadcastInDim_scalar_apply, varDen_apply]
  simp only [mulf_apply, varDev_apply]
  rfl

/-- One row of a four-row parameter table as a vector: the slice of that row, with its unit axis dropped. -/
def rowTerm (p : FVec Ideal S4x128 .f32) {o : ℕ} (h : S4x128.Slices ![o, 0] S1x128) : FVec Ideal S128 .f32 :=
  shapeCast S128 (extractStridedSlice S1x128 ![o, 0] p h) shapeCasts_S1x128_S128

theorem rowTerm_apply (p : FVec Ideal S4x128 .f32) {o : ℕ} (h : S4x128.Slices ![o, 0] S1x128) (r : Fin 4)
    (hr : r.val = o) (j : Fin 128) : rowTerm p h (ix1 j) = p (ix2 r j) := by
  unfold rowTerm
  rw [shapeCast_1a_a_apply, slice2_axis0_apply o p h (0 : Fin 1) j r (by rw [hr]; rfl)]

/-! ## Segment C: the statistics of main_v23 -/

section C
variable (V : Valuation τ sig (Elt Ideal))

theorem v30_eq : (after opsL0C V (Proc.devRef .tc main_v30) : S128.Idx → EReal)
    = meanTerm (V (Proc.devRef .tc main_v23)) := by
  after_results_simp
  rfl

theorem v31_eq : (after opsL0C V (Proc.devRef .tc main_v31) : S128.Idx → EReal)
    = varTerm (V (Proc.devRef .tc main_v23)) := by
  after_results_simp
  simp only [TRef.ofBuf, TRef.toBuf, cast_eq]
  rfl

theorem v25_eq : (after opsL0C V (Proc.devRef .tc main_v25) : S128.Idx → EReal)
    = rowTerm (V (Proc.devRef .tc main_arg10)) slices_S4x128_S1x128_0_0 := by
  after_results_simp
  rfl

theorem v27_eq : (after opsL0C V (Proc.devRef .tc main_v27) : S128.Idx → EReal)
    = rowTerm (V (Proc.devRef .tc main_arg11)) slices_S4x128_S1x128_0_0 := by
  after_results_simp
  rfl

theorem meanC : toRow1 (after opsL0C V (Proc.devRef .tc main_v30)) = meanR (toMat (V (Proc.devRef .tc main_v23))) := by
  funext j
  show (after opsL0C V (Proc.devRef .tc main_v30) : S128.Idx → EReal) (ix1 j) = _
  rw [v30_eq, meanTerm_apply]

theorem varC : toRow1 (after opsL0C V (Proc.devRef .tc main_v31)) = varR (toMat (V (Proc.devRef .tc main_v23))) := by
  funext j
  show (after opsL0C V (Proc.devRef .tc main_v31) : S128.Idx → EReal) (ix1 j) = _
  rw [v31_eq, varTerm_apply]

theorem gC : toRow1 (after opsL0C V (Proc.devRef .tc main_v25))
    = fun j => V (Proc.devRef .tc main_arg10) (ix2 (0 : Fin 4) j) := by
  funext j
  show (after opsL0C V (Proc.devRef .tc main_v25) : S128.Idx → EReal) (ix1 j) = _
  rw [v25_eq]
  exact rowTerm_apply _ slices_S4x128_S1x128_0_0 (0 : Fin 4) rfl j

theorem beC : toRow1 (after opsL0C V (Proc.devRef .tc main_v27))
    = fun j => V (Proc.devRef .tc main_arg11) (ix2 (0 : Fin 4) j) := by
  funext j
  show (after opsL0C V (Proc.devRef .tc main_v27) : S128.Idx → EReal) (ix1 j) = _
  rw [v27_eq]
  exact rowTerm_apply _ slices_S4x128_S1x128_0_0 (0 : Fin 4) rfl j

end C

/-! ## Segment F: the statistics of main_v55 -/

section F
variable (V : Valuation τ sig (Elt Ideal))

theorem v62_eq : (after opsL0F V (Proc.devRef .tc main_v62) : S128.Idx → EReal)
    = meanTerm (V (Proc.devRef .tc main_v55)) := by
  after_results_simp
  rfl

theorem v63_eq : (after opsL0F V (Proc.devRef .tc main_v63) : S128.Idx → EReal)
    = varTerm (V (Proc.devRef .tc main_v55)) := by
  after_results_simp
  simp only [TRef.ofBuf, TRef.toBuf, cast_eq]
  rfl

theorem v57_eq : (after opsL0F V (Proc.devRef .tc main_v57) : S128.Idx → EReal)
    = rowTerm (V (Proc.devRef .tc main_arg12)) slices_S4x128_S1x128_0_0 := by
  after_results_simp
  rfl

theorem v59_eq : (after opsL0F V (Proc.devRef .tc main_v59) : S128.Idx → EReal)
    = rowTerm (V (Proc.devRef .tc main_arg13)) slices_S4x128_S1x128_0_0 := by
  after_results_simp
  rfl

theorem meanF : toRow1 (after opsL0F V (Proc.devRef .tc main_v62)) = meanR (toMat (V (Proc.devRef .tc main_v55))) := by
  funext j
  show (after opsL0F V (Proc.devRef .tc main_v62) : S128.Idx → EReal) (ix1 j) = _
  rw [v62_eq, meanTerm_apply]

theorem varF : toRow1 (after opsL0F V (Proc.devRef .tc main_v63)) = varR (toMat (V (Proc.devRef .tc main_v55))) := by
  funext j
  show (after opsL0F V (Proc.devRef .tc main_v63) : S128.Idx → EReal) (ix1 j) = _
  rw [v63_eq, varTerm_apply]

theorem gF : toRow1 (after opsL0F V (Proc.devRef .tc main_v57))
    = fun j => V (Proc.devRef .tc main_arg12) (ix2 (0 : Fin 4) j) := by
  funext j
  show (after opsL0F V (Proc.devRef .tc main_v57) : S128.Idx → EReal) (ix1 j) = _
  rw [v57_eq]
  exact rowTerm_apply _ slices_S4x128_S1x128_0_0 (0 : Fin 4) rfl j

theorem beF : toRow1 (after opsL0F V (Proc.devRef .tc main_v59))
    = fun j => V (Proc.devRef .tc main_arg13) (ix2 (0 : Fin 4) j) := by
  funext j
  show (after opsL0F V (Proc.devRef .tc main_v59) : S128.Idx → EReal) (ix1 j) = _
  rw [v59_eq]
  exact rowTerm_apply _ slices_S4x128_S1x128_0_0 (0 : Fin 4) rfl j

end F

/-! ## Segment H: the statistics of main_v79 -/

section H
variable (V : Valuation τ sig (Elt Ideal))

theorem v86_eq : (after opsL0H V (Proc.devRef .tc main_v86) : S128.Idx → EReal)
    = meanTerm (V (Proc.devRef .tc main_v79)) := by
  after_results_simp
  rfl

theorem v87_eq : (after opsL0H V (Proc.devRef .tc main_v87) : S128.Idx → EReal)
    = varTerm (V (Proc.devRef .tc main_v79)) := by
  after_results_simp
  simp only [TRef.ofBuf, TRef.toBuf, cast_eq]
  rfl

theorem v81_eq : (after opsL0H V (Proc.devRef .tc main_v81) : S128.Idx → EReal)
    = rowTerm (V (Proc.devRef .tc main_arg14)) slices_S4x128_S1x128_0_0 := by
  after_results_simp
  rfl

theorem v83_eq : (after opsL0H V (Proc.devRef .tc main_v83) : S128.Idx → EReal)
    = rowTerm (V (Proc.devRef .tc main_arg15)) slices_S4x128_S1x128_0_0 := by
  after_results_simp
  rfl

theorem meanH : toRow1 (after opsL0H V (Proc.devRef .tc main_v86)) = meanR (toMat (V (Proc.devRef .tc main_v79))) := by
  funext j
  show (after opsL0H V (Proc.devRef .tc main_v86) : S128.Idx → EReal) (ix1 j) = _
  rw [v86_eq, meanTerm_apply]

theorem varH : toRow1 (after opsL0H V (Proc.devRef .tc main_v87)) = varR (toMat (V (Proc.devRef .tc main_v79))) := by
  funext j
  show (after opsL0H V (Proc.devRef .tc main_v87) : S128.Idx → EReal) (ix1 j) = _
  rw [v87_eq, varTerm_apply]

theorem gH : toRow1 (after opsL0H V (Proc.devRef .tc main_v81))
    = fun j => V (Proc.devRef .tc main_arg14) (ix2 (0 : Fin 4) j) := by
  funext j
  show (after opsL0H V (Proc.devRef .tc main_v81) : S128.Idx → EReal) (ix1 j) = _
  rw [v81_eq]
  exact rowTerm_apply _ slices_S4x128_S1x128_0_0 (0 : Fin 4) rfl j

theorem beH : toRow1 (after opsL0H V (Proc.devRef .tc main_v83))
    = fun j => V (Proc.devRef .tc main_arg15) (ix2 (0 : Fin 4) j) := by
  funext j
  show (after opsL0H V (Proc.devRef .tc main_v83) : S128.Idx → EReal) (ix1 j) = _
  rw [v83_eq]
  exact rowTerm_apply _ slices_S4x128_S1x128_0_0 (0 : Fin 4) rfl j

end H

end Cert.RefStats

end
-- ==== Proof.RefNorm.lean ====
/-
  The reference's normalisations, read for an arbitrary valuation.

  Each layer of the reference normalises three matrices of 100000 rows and 128 columns. A normalisation takes the
  matrix, its column mean and its column variance (both computed before it), and two parameter rows; it subtracts
  the mean from every row, multiplies by the reciprocal square root of the variance plus a small constant, multiplies
  by the first parameter row, adds the second, and clamps below at zero (an outlined function: the maximum with a
  broadcast zero). Every row operand is spelled as a broadcast of 128 entries to one row and then to all rows, so the
  value at entry (n, j) reads each row operand at j: it is

      max ((x n j - mu j) * rsqrt (var j + eps) * g j + be j) 0.

  Each statement is about the fold of a segment of the reference's operations over an arbitrary valuation, and
  speaks of the valuation's entries at the segment's operands only.
-/
import proofs.«412161_j3753801416792_2_alg».proof.Proof.Gen.ReferenceIdeal
import proofs.«412161_j3753801416792_2_alg».proof.Proof.RefRun
import proofs.«412161_j3753801416792_2_alg».proof.Proof.Conv
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

noncomputable section

namespace Cert.RefNorm

open Cert.ReferenceIdeal Cert.ReferenceIdeal.RefRun Cert.Spec Cert.Conv Idealize.ShloMosaic Idealize.ShloMosaic.ValueIdx Idealize.ShloMosaic.StableHlo

/-! ## Normalise, scale, shift, clamp -/

/-- A row broadcast to one row and then down all rows reads the row's entry in the column. -/
theorem rowBcast_apply {α : Type} (X : S128.Idx → α) (n : Fin 100000) (j : Fin 128) :
    broadcastInDim S100000x128 ![0, 1] Gen.bcast_S1x128_S100000x128_0_1
      (broadcastInDim S1x128 ![1] Gen.bcast_S128_S1x128_1 X) (ix2 n j) = X (ix1 j) := by
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The host's reciprocal square root at an index is the extended reals' reciprocal square root of the entry. -/
theorem hostRsqrt_apply {s : Shape} {φ : FTy} (x : FVec Ideal s φ) (i : s.Idx) :
    Host.rsqrt x i = Ideal.rsqrt (x i) := rfl

set_option maxHeartbeats 4000000 in
/-- The first normalisation of the layer: the first affine map's output minus its column mean, times the
    reciprocal square root of its column variance plus the offset, scaled, shifted, clamped below at zero. -/
theorem normD (V : Valuation τ sig (Elt Ideal)) :
    toMat (after opsL0D V (Proc.devRef .tc main_v47))
      = bnRelu (toMat (V (Proc.devRef .tc main_v23))) (toRow1 (V (Proc.devRef .tc main_v30)))
          (toRow1 (V (Proc.devRef .tc main_v31))) (toRow1 (V (Proc.devRef .tc main_v25)))
          (toRow1 (V (Proc.devRef .tc main_v27))) := by
  funext n j
  unfold toMat bnRelu toRow1
  dsimp only [opsL0D]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The second normalisation of the layer, of the second affine map's output, by its own column statistics and
    its own scale and shift rows. -/
theorem normG (V : Valuation τ sig (Elt Ideal)) :
    toMat (after opsL0G V (Proc.devRef .tc main_v79))
      = bnRelu (toMat (V (Proc.devRef .tc main_v55))) (toRow1 (V (Proc.devRef .tc main_v62)))
          (toRow1 (V (Proc.devRef .tc main_v63))) (toRow1 (V (Proc.devRef .tc main_v57)))
          (toRow1 (V (Proc.devRef .tc main_v59))) := by
  funext n j
  unfold toMat bnRelu toRow1
  dsimp only [opsL0G]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The third normalisation of the layer, of the second normalisation's output: the layer's output. -/
theorem normI (V : Valuation τ sig (Elt Ideal)) :
    toMat (after opsL0I V (Proc.devRef .tc main_v103))
      = bnRelu (toMat (V (Proc.devRef .tc main_v79))) (toRow1 (V (Proc.devRef .tc main_v86)))
          (toRow1 (V (Proc.devRef .tc main_v87))) (toRow1 (V (Proc.devRef .tc main_v81)))
          (toRow1 (V (Proc.devRef .tc main_v83))) := by
  funext n j
  unfold toMat bnRelu toRow1
  dsimp only [opsL0I]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

end Cert.RefNorm

end
-- ==== Proof.RefArgs.lean ====
/-
  The reference's arguments as the specification sees them.

  The specification's two sides are functions of the input features as a matrix, the two edge-index arrays, the graph
  id of every node, and four layers' parameters. Here these are read off the reference's argument arrays: layer i's
  parameters are row i of each stacked parameter array (the features' scale is one plus row i of the first).

  Every stage of the reference leaves the argument arrays alone, so the contents after any stage hold the same
  argument arrays as the contents at the start, and therefore give the same parameters and the same edge arrays. One
  layer read at such contents is then the specification's layer as a function of the arguments at the start: the
  parameters are carried over, and the aggregate of features that read as a matrix x is the specification's aggregate
  of x.
-/
import proofs.«412161_j3753801416792_2_alg».proof.Proof.Gen.ReferenceIdeal
import proofs.«412161_j3753801416792_2_alg».proof.Proof.Spec
import proofs.«412161_j3753801416792_2_alg».proof.Proof.Conv
import proofs.«412161_j3753801416792_2_alg».proof.Proof.Agg
import proofs.«412161_j3753801416792_2_alg».proof.Proof.Bridge
import Idealize.ShloMosaic.Lib.ValueIdx

noncomputable section

namespace Cert.RefArgs

open Cert.ReferenceIdeal Cert.Spec Cert.Conv Idealize.ShloMosaic Idealize.ShloMosaic.ValueIdx Idealize.ShloMosaic.StableHlo

/-- Layer i's parameters as the reference reads them: row i of each stacked parameter array; the features' scale is
    one plus the layer's entry of the first array. -/
def P (V : Valuation τ sig (Elt Ideal)) (i : Fin 4) : Params where
  scale := Ideal.ofBits .f32 0x3F800000#32 + V (Proc.devRef .tc main_arg5) (ix1 i)
  W1 := fun k j => V (Proc.devRef .tc main_arg6) (ix3 i k j)
  b1 := fun j => V (Proc.devRef .tc main_arg7) (ix2 i j)
  g1 := fun j => V (Proc.devRef .tc main_arg10) (ix2 i j)
  be1 := fun j => V (Proc.devRef .tc main_arg11) (ix2 i j)
  W2 := fun k j => V (Proc.devRef .tc main_arg8) (ix3 i k j)
  b2 := fun j => V (Proc.devRef .tc main_arg9) (ix2 i j)
  g2 := fun j => V (Proc.devRef .tc main_arg12) (ix2 i j)
  be2 := fun j => V (Proc.devRef .tc main_arg13) (ix2 i j)
  g3 := fun j => V (Proc.devRef .tc main_arg14) (ix2 i j)
  be3 := fun j => V (Proc.devRef .tc main_arg15) (ix2 i j)

/-- The argument arrays as the specification sees them: the features as a matrix, the two edge-index arrays, the
    graph ids by node, and the four layers' parameters. -/
def args [Cert.KernelIdeal.Facts₀] (V : Valuation τ sig (Elt Ideal)) : Cert.Bridge.Args where
  h0 := toMat (V (Proc.devRef .tc main_arg0))
  src := V (Proc.devRef .tc main_arg2)
  dst := V (Proc.devRef .tc main_arg3)
  gid := fun n => V (Proc.devRef .tc main_arg4) (ix1 n)
  P := fun i => P V i

/-! ## Contents that hold the same argument arrays -/

/-- The argument arrays the program reads. -/
def argRefs : List (Ref sig .tc) :=
  [main_arg0, main_arg2, main_arg3, main_arg4, main_arg5, main_arg6, main_arg7, main_arg8, main_arg9, main_arg10,
    main_arg11, main_arg12, main_arg13, main_arg14, main_arg15, main_arg16, main_arg17]

/-- Two contents hold the same argument arrays. -/
def ArgsEq (U V : Valuation τ sig (Elt Ideal)) : Prop :=
  ∀ b ∈ argRefs, U (Proc.devRef .tc b) = V (Proc.devRef .tc b)

theorem ArgsEq.refl (V : Valuation τ sig (Elt Ideal)) : ArgsEq V V := fun _ _ => rfl

theorem ArgsEq.trans {U V W : Valuation τ sig (Elt Ideal)} (h₁ : ArgsEq U V) (h₂ : ArgsEq V W) : ArgsEq U W :=
  fun b hb => (h₁ b hb).trans (h₂ b hb)

/-- Contents that hold the same argument arrays give the same parameters. -/
theorem P_eq {U V : Valuation τ sig (Elt Ideal)} (h : ArgsEq U V) (i : Fin 4) : P U i = P V i := by
  unfold P
  rw [h main_arg5 (by decide), h main_arg6 (by decide), h main_arg7 (by decide), h main_arg8 (by decide),
    h main_arg9 (by decide), h main_arg10 (by decide), h main_arg11 (by decide), h main_arg12 (by decide),
    h main_arg13 (by decide), h main_arg14 (by decide), h main_arg15 (by decide)]

/-- An array whose matrix reading is `m` is `m` read back as an array. -/
theorem eq_ofMat {n d : ℕ} {x : (⟨2, ![n, d]⟩ : Shape).Idx → EReal} {m : Mat n d} (h : toMat x = m) : x = ofMat m := by
  rw [← h, ofMat_toMat]

/-- One layer's step. If a layer's output `y` is the specification's layer at contents `U` of the features `f`, their
    aggregate over `U`'s edge arrays and `U`'s parameters, `U` holds the argument arrays of `V`, and `f` reads as the
    matrix `x`, then `y` is the layer of `x` and its aggregate as functions of `V`'s arguments. -/
theorem layer_step [Cert.KernelIdeal.Facts₀] {U V : Valuation τ sig (Elt Ideal)} (hUV : ArgsEq U V) (i : Fin 4)
    (f : FVec Ideal Cert.KernelIdeal.S100000x128 .f32) {y x : Mat 100000 128}
    (hL : y = layerR (P U i) (toMat f)
      (toMat (Cert.Agg.aggT f (U (Proc.devRef .tc main_arg2)) (U (Proc.devRef .tc main_arg3)))))
    (hx : toMat f = x) :
    y = layerR ((args V).P i) x (Cert.Bridge.aggM (args V) x) := by
  have hf : f = ofMat x := eq_ofMat hx
  rw [hL, P_eq hUV i, hUV main_arg2 (by decide), hUV main_arg3 (by decide), hf]
  rfl

end Cert.RefArgs

end
-- ==== Proof.RefChain0.lean ====
/-
  The reference's run of one layer, assembled: the nine segments of the layer's straight line are read one after the
  other, each by its own lemma at the contents the previous segments left, and every operand a segment reads that an
  earlier segment did not write (the features, the edge lists, the stacked parameters; a value an earlier segment
  named) is carried across by the fact that a segment leaves the buffers it does not write alone. The result is the
  specification's layer at the launch contents.
-/
import proofs.«412161_j3753801416792_2_alg».proof.Proof.Gen.ReferenceIdeal
import proofs.«412161_j3753801416792_2_alg».proof.Proof.Spec
import proofs.«412161_j3753801416792_2_alg».proof.Proof.Conv
import proofs.«412161_j3753801416792_2_alg».proof.Proof.Agg
import proofs.«412161_j3753801416792_2_alg».proof.Proof.RefRun
import proofs.«412161_j3753801416792_2_alg».proof.Proof.RefKeep
import proofs.«412161_j3753801416792_2_alg».proof.Proof.RefAffine
import proofs.«412161_j3753801416792_2_alg».proof.Proof.RefStats
import proofs.«412161_j3753801416792_2_alg».proof.Proof.RefNorm
import proofs.«412161_j3753801416792_2_alg».proof.Proof.RefArgs
import Idealize.ShloMosaic.Lib.StableHlo.Run
import Idealize.ShloMosaic.Lib.ValueIdx

noncomputable section

namespace Cert.RefChain0

open Cert.ReferenceIdeal Cert.ReferenceIdeal.RefRun Cert.ReferenceIdeal.RefKeep Cert.RefAffine Cert.RefStats Cert.RefNorm
  Cert.Spec Cert.Conv Idealize.ShloMosaic Idealize.ShloMosaic.ValueIdx Idealize.ShloMosaic.StableHlo

/-- The layer's parameters as the reference reads them: this layer's row of each stacked parameter array. -/
abbrev P (V : Valuation τ sig (Elt Ideal)) : Params := Cert.RefArgs.P V (0 : Fin 4)

variable (V : Valuation τ sig (Elt Ideal))

/-! ### The contents after each of the layer's nine segments -/

/-- After the aggregate. -/
abbrev UA : Valuation τ sig (Elt Ideal) := after opsL0A V
/-- After the first affine map. -/
abbrev UB : Valuation τ sig (Elt Ideal) := after opsL0B (UA V)
/-- After the first statistics. -/
abbrev UC : Valuation τ sig (Elt Ideal) := after opsL0C (UB V)
/-- After the first normalisation. -/
abbrev UD : Valuation τ sig (Elt Ideal) := after opsL0D (UC V)
/-- After the second affine map. -/
abbrev UE : Valuation τ sig (Elt Ideal) := after opsL0E (UD V)
/-- After the second statistics. -/
abbrev UF : Valuation τ sig (Elt Ideal) := after opsL0F (UE V)
/-- After the second normalisation. -/
abbrev UG : Valuation τ sig (Elt Ideal) := after opsL0G (UF V)
/-- After the third statistics. -/
abbrev UH : Valuation τ sig (Elt Ideal) := after opsL0H (UG V)
/-- After the third normalisation: the layer's end. -/
abbrev UI : Valuation τ sig (Elt Ideal) := after opsL0I (UH V)

/-- The layer's fold ends at the last of these. -/
theorem after_eq_UI : after opsL0 V = UI V := after_opsL0 V

/-! ### A buffer no segment so far writes still holds the launch contents -/

theorem keptA (b : Ref sig .tc) (hA : b ∉ writtenL0A) : UA V (Proc.devRef .tc b) = V (Proc.devRef .tc b) :=
  keepL0A V b hA
theorem keptB (b : Ref sig .tc) (hA : b ∉ writtenL0A) (hB : b ∉ writtenL0B) :
    UB V (Proc.devRef .tc b) = V (Proc.devRef .tc b) :=
  (keepL0B (UA V) b hB).trans (keptA V b hA)
theorem keptC (b : Ref sig .tc) (hA : b ∉ writtenL0A) (hB : b ∉ writtenL0B) (hC : b ∉ writtenL0C) :
    UC V (Proc.devRef .tc b) = V (Proc.devRef .tc b) :=
  (keepL0C (UB V) b hC).trans (keptB V b hA hB)
theorem keptD (b : Ref sig .tc) (hA : b ∉ writtenL0A) (hB : b ∉ writtenL0B) (hC : b ∉ writtenL0C)
    (hD : b ∉ writtenL0D) : UD V (Proc.devRef .tc b) = V (Proc.devRef .tc b) :=
  (keepL0D (UC V) b hD).trans (keptC V b hA hB hC)
theorem keptE (b : Ref sig .tc) (hA : b ∉ writtenL0A) (hB : b ∉ writtenL0B) (hC : b ∉ writtenL0C)
    (hD : b ∉ writtenL0D) (hE : b ∉ writtenL0E) : UE V (Proc.devRef .tc b) = V (Proc.devRef .tc b) :=
  (keepL0E (UD V) b hE).trans (keptD V b hA hB hC hD)
theorem keptF (b : Ref sig .tc) (hA : b ∉ writtenL0A) (hB : b ∉ writtenL0B) (hC : b ∉ writtenL0C)
    (hD : b ∉ writtenL0D) (hE : b ∉ writtenL0E) (hF : b ∉ writtenL0F) :
    UF V (Proc.devRef .tc b) = V (Proc.devRef .tc b) :=
  (keepL0F (UE V) b hF).trans (keptE V b hA hB hC hD hE)
theorem keptG (b : Ref sig .tc) (hA : b ∉ writtenL0A) (hB : b ∉ writtenL0B) (hC : b ∉ writtenL0C)
    (hD : b ∉ writtenL0D) (hE : b ∉ writtenL0E) (hF : b ∉ writtenL0F) (hG : b ∉ writtenL0G) :
    UG V (Proc.devRef .tc b) = V (Proc.devRef .tc b) :=
  (keepL0G (UF V) b hG).trans (keptF V b hA hB hC hD hE hF)

/-! ### The values the layer names, one segment at a time -/

section
variable [Cert.KernelIdeal.Facts₀]

/-- The aggregate. -/
theorem e9 : UA V (Proc.devRef .tc main_v9)
    = Cert.Agg.aggT (V (Proc.devRef .tc main_arg0)) (V (Proc.devRef .tc main_arg2)) (V (Proc.devRef .tc main_arg3)) :=
  aggA V

/-- The first affine map's value. -/
theorem e23 : toMat (UB V (Proc.devRef .tc main_v23))
    = lin1R (P V) (toMat (V (Proc.devRef .tc main_arg0)))
        (toMat (Cert.Agg.aggT (V (Proc.devRef .tc main_arg0)) (V (Proc.devRef .tc main_arg2)) (V (Proc.devRef .tc main_arg3)))) := by
  have h := linB (UA V)
  rw [keptA V main_arg5 (by decide), keptA V main_arg0 (by decide), keptA V main_arg6 (by decide),
    keptA V main_arg7 (by decide), e9 V] at h
  exact h

end

/-- The first normalisation's mean. -/
theorem e30 : toRow1 (UC V (Proc.devRef .tc main_v30)) = meanR (toMat (UB V (Proc.devRef .tc main_v23))) := meanC (UB V)
/-- The first normalisation's variance. -/
theorem e31 : toRow1 (UC V (Proc.devRef .tc main_v31)) = varR (toMat (UB V (Proc.devRef .tc main_v23))) := varC (UB V)
/-- The first normalisation's scale row. -/
theorem e25 : toRow1 (UC V (Proc.devRef .tc main_v25)) = (P V).g1 := by
  have h := gC (UB V)
  rw [keptB V main_arg10 (by decide) (by decide)] at h
  exact h
/-- The first normalisation's shift row. -/
theorem e27 : toRow1 (UC V (Proc.devRef .tc main_v27)) = (P V).be1 := by
  have h := beC (UB V)
  rw [keptB V main_arg11 (by decide) (by decide)] at h
  exact h

/-- The first normalised value. -/
theorem e47 : toMat (UD V (Proc.devRef .tc main_v47)) = z1R (P V) (toMat (UB V (Proc.devRef .tc main_v23))) := by
  have k : UC V (Proc.devRef .tc main_v23) = UB V (Proc.devRef .tc main_v23) := keepL0C (UB V) main_v23 (by decide)
  have h := normD (UC V)
  rw [k, e30 V, e31 V, e25 V, e27 V] at h
  exact h

/-- The second affine map's value. -/
theorem e55 : toMat (UE V (Proc.devRef .tc main_v55)) = lin2 (P V) (toMat (UD V (Proc.devRef .tc main_v47))) := by
  have h := linE (UD V)
  rw [keptD V main_arg8 (by decide) (by decide) (by decide) (by decide), keptD V main_arg9 (by decide) (by decide) (by decide) (by decide)] at h
  exact h

/-- The second normalisation's mean. -/
theorem e62 : toRow1 (UF V (Proc.devRef .tc main_v62)) = meanR (toMat (UE V (Proc.devRef .tc main_v55))) := meanF (UE V)
/-- The second normalisation's variance. -/
theorem e63 : toRow1 (UF V (Proc.devRef .tc main_v63)) = varR (toMat (UE V (Proc.devRef .tc main_v55))) := varF (UE V)
/-- The second normalisation's scale row. -/
theorem e57 : toRow1 (UF V (Proc.devRef .tc main_v57)) = (P V).g2 := by
  have h := gF (UE V)
  rw [keptE V main_arg12 (by decide) (by decide) (by decide) (by decide) (by decide)] at h
  exact h
/-- The second normalisation's shift row. -/
theorem e59 : toRow1 (UF V (Proc.devRef .tc main_v59)) = (P V).be2 := by
  have h := beF (UE V)
  rw [keptE V main_arg13 (by decide) (by decide) (by decide) (by decide) (by decide)] at h
  exact h

/-- The second normalised value. -/
theorem e79 : toMat (UG V (Proc.devRef .tc main_v79)) = z2R (P V) (toMat (UE V (Proc.devRef .tc main_v55))) := by
  have k : UF V (Proc.devRef .tc main_v55) = UE V (Proc.devRef .tc main_v55) := keepL0F (UE V) main_v55 (by decide)
  have h := normG (UF V)
  rw [k, e62 V, e63 V, e57 V, e59 V] at h
  exact h

/-- The third normalisation's mean. -/
theorem e86 : toRow1 (UH V (Proc.devRef .tc main_v86)) = meanR (toMat (UG V (Proc.devRef .tc main_v79))) := meanH (UG V)
/-- The third normalisation's variance. -/
theorem e87 : toRow1 (UH V (Proc.devRef .tc main_v87)) = varR (toMat (UG V (Proc.devRef .tc main_v79))) := varH (UG V)
/-- The third normalisation's scale row. -/
theorem e81 : toRow1 (UH V (Proc.devRef .tc main_v81)) = (P V).g3 := by
  have h := gH (UG V)
  rw [keptG V main_arg14 (by decide) (by decide) (by decide) (by decide) (by decide) (by decide) (by decide)] at h
  exact h
/-- The third normalisation's shift row. -/
theorem e83 : toRow1 (UH V (Proc.devRef .tc main_v83)) = (P V).be3 := by
  have h := beH (UG V)
  rw [keptG V main_arg15 (by decide) (by decide) (by decide) (by decide) (by decide) (by decide) (by decide)] at h
  exact h

/-- The layer's output. -/
theorem e103 : toMat (UI V (Proc.devRef .tc main_v103)) = outR (P V) (toMat (UG V (Proc.devRef .tc main_v79))) := by
  have k : UH V (Proc.devRef .tc main_v79) = UG V (Proc.devRef .tc main_v79) := keepL0H (UG V) main_v79 (by decide)
  have h := normI (UH V)
  rw [k, e86 V, e87 V, e81 V, e83 V] at h
  exact h

/-- THE LAYER: the reference's output of this layer is the specification's layer at the contents, before the
    layer, of the features, the edge lists and this layer's row of the parameters. -/
theorem layer [Cert.KernelIdeal.Facts₀] :
    toMat (after opsL0 V (Proc.devRef .tc main_v103))
      = layerR (P V) (toMat (V (Proc.devRef .tc main_arg0)))
          (toMat (Cert.Agg.aggT (V (Proc.devRef .tc main_arg0)) (V (Proc.devRef .tc main_arg2)) (V (Proc.devRef .tc main_arg3)))) := by
  rw [after_eq_UI, e103, e79, e55, e47, e23]
  rfl

end Cert.RefChain0

end
-- ==== Proof.RefAffineL1.lean ====
/-
  The reference's edge aggregate and its two affine maps in layer 1, read for arbitrary contents of the buffers
  they read.

  * The aggregate: the rows of the features gathered along the edges' sources and added at their targets. It is
    the same composition of the same operations as the shared aggregation function, so the two are equal as
    they stand.
  * The first affine map: ((1 + eps) h + agg) W1 + b1, where eps, W1 and b1 are entry 1, matrix 1 and row 1 of
    their stacks: at (n, j) the sum over k of ((1 + eps) h(n, k) + agg(n, k)) W1(k, j), plus b1(j).
  * The second affine map: z W2 + b2 likewise.

  Each layout operation is read at an index: a slice shifts by its offsets, a reshape keeps the row-major
  position, a broadcast reads the operand at the coordinates it names; the matrix product at (n, j) is the sum
  over the contracted coordinate. The large operands stay variables throughout, and the program's buffers enter
  only in the three final statements.
-/
import proofs.«412161_j3753801416792_2_alg».proof.Proof.Gen.ReferenceIdeal
import Idealize.ShloMosaic.Lib.StableHlo.Run
import proofs.«412161_j3753801416792_2_alg».proof.Proof.RefRun
import proofs.«412161_j3753801416792_2_alg».proof.Proof.Conv
import proofs.«412161_j3753801416792_2_alg».proof.Proof.Agg
import Idealize.ShloMosaic.Lib.StackMember
import Idealize.ShloMosaic.Lib.Pipeline.Value
import Idealize.ShloMosaic.Lib.ValueIdx
import Idealize.ShloMosaic.PureOps.Ideal.Laws

noncomputable section

namespace Cert.RefAffineL1

open Cert.ReferenceIdeal Cert.ReferenceIdeal.RefRun Cert.Spec Cert.Conv Idealize.ShloMosaic Idealize.ShloMosaic.ValueIdx Idealize.ShloMosaic.StableHlo

/-- The scalar (1 + eps), broadcast: at every index the word of one plus entry `l` of the vector of eps. -/
theorem scale_apply (l : Fin 4) (e : FVec Ideal S4 .f32) {off : Fin S4.rank → ℕ} (hoff : off 0 = l.val)
    {hs : S4.Slices off S1} {hc : S1.ShapeCasts S_} {hb : S_.BroadcastsInDim S100000x128 ![]} (i : S100000x128.Idx) :
    broadcastInDim S100000x128 ![] hb
      (addf (constant (F := Ideal) S_ .f32 0x3F800000#32) (shapeCast S_ (extractStridedSlice S1 off e hs) hc)) i
      = Ideal.ofBits .f32 0x3F800000#32 + e (ix1 l) := by
  rw [broadcastInDim_apply _ hb _ i (fun a => a.elim0) (fun a => a.elim0)]
  rw [addf_apply, constant_apply]
  congr 1
  rw [shapeCast_apply _ hc _ (ix1 (0 : Fin 1)) (by decide)]
  exact extractStridedSlice_apply off e hs _ (ix1 l) (fun a => by
    match a with
    | ⟨0, _⟩ => show l.val = off 0 + 0; omega)

/-- Matrix `l` of a stack of four 128 by 128 matrices, as a matrix: its (k, j) entry. -/
theorem weight_apply (l : Fin 4) (W : FVec Ideal S4x128x128 .f32) {off : Fin S4x128x128.rank → ℕ}
    (hoff0 : off 0 = l.val) (hoff1 : off 1 = 0) (hoff2 : off 2 = 0)
    {hs : S4x128x128.Slices off S1x128x128} {hc : S1x128x128.ShapeCasts S128x128} (k j : Fin 128) :
    shapeCast S128x128 (extractStridedSlice S1x128x128 off W hs) hc (ix2 k j) = W (ix3 l k j) := by
  rw [shapeCast_apply _ hc _ (ix3 (0 : Fin 1) k j) (by
    rw [Shape.rowMajor_val_three, Shape.rowMajor_val_two]
    show (0 * 128 + k.val) * 128 + j.val = k.val * 128 + j.val
    omega)]
  exact extractStridedSlice_apply off W hs _ (ix3 l k j) (fun a => by
    match a with
    | ⟨0, _⟩ => show l.val = off 0 + 0; omega
    | ⟨1, _⟩ => show k.val = off 1 + k.val; omega
    | ⟨2, _⟩ => show j.val = off 2 + j.val; omega)

/-- Row `l` of a stack of four rows of 128, broadcast down the 100000 rows: its (n, j) entry. -/
theorem bias_apply (l : Fin 4) (b : FVec Ideal S4x128 .f32) {off : Fin S4x128.rank → ℕ}
    (hoff0 : off 0 = l.val) (hoff1 : off 1 = 0)
    {hs : S4x128.Slices off S1x128} {hc : S1x128.ShapeCasts S128} {hb1 : S128.BroadcastsInDim S1x128 ![1]}
    {hb2 : S1x128.BroadcastsInDim S100000x128 ![0, 1]} (n : Fin 100000) (j : Fin 128) :
    broadcastInDim S100000x128 ![0, 1] hb2
      (broadcastInDim S1x128 ![1] hb1 (shapeCast S128 (extractStridedSlice S1x128 off b hs) hc)) (ix2 n j)
      = b (ix2 l j) := by
  rw [broadcastInDim_apply _ hb2 _ (ix2 n j) (ix2 (0 : Fin 1) j) (fun a => by
    match a with
    | ⟨0, _⟩ => rfl
    | ⟨1, _⟩ => rfl)]
  rw [broadcastInDim_apply _ hb1 _ (ix2 (0 : Fin 1) j) (ix1 j) (fun a => by
    match a with
    | ⟨0, _⟩ => rfl)]
  rw [shapeCast_apply _ hc _ (ix2 (0 : Fin 1) j) (by
    rw [Shape.rowMajor_val_two, Shape.rowMajor_val_one]
    show 0 * 128 + j.val = j.val
    omega)]
  exact extractStridedSlice_apply off b hs _ (ix2 l j) (fun a => by
    match a with
    | ⟨0, _⟩ => show l.val = off 0 + 0; omega
    | ⟨1, _⟩ => show j.val = off 1 + j.val; omega)

/-- The product of a 100000 by 128 matrix with a 128 by 128 matrix, contracting columns against rows: its (n, j)
    entry is the sum over k of the products of the (n, k) and (k, j) entries. -/
theorem dot_apply {d : DotDims S100000x128 S128x128 S100000x128} (hd : d = DotDims.plain 100000 128 128)
    (x : FVec Ideal S100000x128 .f32) (w : FVec Ideal S128x128 .f32) (n : Fin 100000) (j : Fin 128) :
    Host.dotGeneral (F := Ideal) d none x w (ix2 n j) = ∑ k : Fin 128, x (ix2 n k) * w (ix2 k j) := by
  subst hd
  exact StackMember.dotGeneral_plain_apply none x w n j

set_option maxHeartbeats 400000 in
/-- The first affine map of a layer, read as a matrix: ((1 + eps) h + agg) W + b, with eps, W, b entry, matrix and
    row `l` of their stacks. -/
theorem linB_aux (l : Fin 4) (e : FVec Ideal S4 .f32) (h agg : FVec Ideal S100000x128 .f32)
    (W : FVec Ideal S4x128x128 .f32) (b : FVec Ideal S4x128 .f32)
    {off5 : Fin S4.rank → ℕ} {off6 : Fin S4x128x128.rank → ℕ} {off7 : Fin S4x128.rank → ℕ}
    (h5 : off5 0 = l.val) (h60 : off6 0 = l.val) (h61 : off6 1 = 0) (h62 : off6 2 = 0)
    (h70 : off7 0 = l.val) (h71 : off7 1 = 0)
    {hs5 : S4.Slices off5 S1} {hc5 : S1.ShapeCasts S_} {hb5 : S_.BroadcastsInDim S100000x128 ![]}
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none
          (addf (mulf (broadcastInDim S100000x128 ![] hb5
              (addf (constant (F := Ideal) S_ .f32 0x3F800000#32) (shapeCast S_ (extractStridedSlice S1 off5 e hs5) hc5))) h) agg)
          (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (fun n k => (Ideal.ofBits .f32 0x3F800000#32 + e (ix1 l)) * toMat h n k + toMat agg n k)
          (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62, addf_apply, mulf_apply, scale_apply l e h5]

set_option maxHeartbeats 400000 in
/-- The second affine map of a layer, read as a matrix: z W + b, with W, b matrix and row `l` of their stacks. -/
theorem linE_aux (l : Fin 4) (z : FVec Ideal S100000x128 .f32)
    (W : FVec Ideal S4x128x128 .f32) (b : FVec Ideal S4x128 .f32)
    {off6 : Fin S4x128x128.rank → ℕ} {off7 : Fin S4x128.rank → ℕ}
    (h60 : off6 0 = l.val) (h61 : off6 1 = 0) (h62 : off6 2 = 0) (h70 : off7 0 = l.val) (h71 : off7 1 = 0)
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none z (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (toMat z) (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62]

variable (V : Valuation τ sig (Elt Ideal))

set_option maxHeartbeats 400000 in
/-- Layer 1's first affine map, for any contents of the buffers it reads. -/
theorem linB : toMat (after opsL1B V (Proc.devRef .tc main_v127))
    = lin (fun n k => (Ideal.ofBits .f32 0x3F800000#32 + V (Proc.devRef .tc main_arg5) (ix1 (1 : Fin 4)))
              * toMat (V (Proc.devRef .tc main_v103)) n k + toMat (V (Proc.devRef .tc main_v113)) n k)
        (fun k j => V (Proc.devRef .tc main_arg6) (ix3 (1 : Fin 4) k j))
        (fun j => V (Proc.devRef .tc main_arg7) (ix2 (1 : Fin 4) j)) := by
  after_results
  exact linB_aux (1 : Fin 4) _ _ _ _ _ (by rfl) (by rfl) (by rfl) (by rfl) (by rfl) (by rfl) (by rfl)

set_option maxHeartbeats 400000 in
/-- Layer 1's second affine map, for any contents of the buffers it reads. -/
theorem linE : toMat (after opsL1E V (Proc.devRef .tc main_v159))
    = lin (toMat (V (Proc.devRef .tc main_v151)))
        (fun k j => V (Proc.devRef .tc main_arg8) (ix3 (1 : Fin 4) k j))
        (fun j => V (Proc.devRef .tc main_arg9) (ix2 (1 : Fin 4) j)) := by
  after_results
  exact linE_aux (1 : Fin 4) _ _ _ (by rfl) (by rfl) (by rfl) (by rfl) (by rfl) (by rfl)

set_option maxHeartbeats 400000 in
/-- Layer 1's edge aggregate, for any contents of the buffers it reads: the shared aggregation of the features
    along the edges. -/
theorem aggA [Cert.KernelIdeal.Facts₀] : after opsL1A V (Proc.devRef .tc main_v113)
    = Cert.Agg.aggT (V (Proc.devRef .tc main_v103)) (V (Proc.devRef .tc main_arg2)) (V (Proc.devRef .tc main_arg3)) := by
  after_results
  rfl

end Cert.RefAffineL1

end
-- ==== Proof.RefStatsL1.lean ====
/-
  The reference's column statistics, read for an arbitrary valuation.

  Each layer of the reference normalises three matrices of 100000 rows and 128 columns. Before each normalisation
  it takes, per column, the mean (the column sum divided by the node count) and the variance (an outlined function:
  the column mean again, the deviations from it, their squares, the column sums of the squares divided by the node
  count minus a correction that is the integer zero, guarded by "the divisor is positive" with a not-a-number
  fallback), and it slices one row out of each of two parameter tables of four rows.

  The variance function's body is first stated once as a term of its argument, a variable matrix, and read at a
  column: the divisor is the real number 100000, so the guard holds, the fallback is never read, and the value is
  the mean of the squared deviations from the mean. Then, for each of the layer's three segments of operations,
  the fold of the segment over an arbitrary valuation is identified at four buffers (mean, variance, the two
  parameter rows) with those terms of the valuation's entries, and read at a column.
-/
import proofs.«412161_j3753801416792_2_alg».proof.Proof.Gen.ReferenceIdeal
import proofs.«412161_j3753801416792_2_alg».proof.Proof.RefRun
import proofs.«412161_j3753801416792_2_alg».proof.Proof.Conv
import proofs.«412161_j3753801416792_2_alg».proof.Proof.LibReal
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.RefStatsL1
open Cert.ReferenceIdeal Cert.ReferenceIdeal.Gen Cert.ReferenceIdeal.RefRun Cert.Spec Cert.Conv Idealize.ShloMosaic Idealize.ShloMosaic.ValueIdx Idealize.ShloMosaic.StableHlo

/-! ## The outlined variance function as one term of its argument -/

/-- The column reduction's shape fact in the form that names the inserted index. -/
theorem reduces0 : S100000x128.Reduces [0] S128 := by decide

/-- Over column `j`, the index with row `k` inserted is `(k, j)`. -/
theorem lift_eq (j : Fin 128) (k : Fin 100000) : reduces0.lift (ix1 j) k = ix2 k j := by
  funext c
  match c with
  | ⟨0, _⟩ => rfl
  | ⟨1, _⟩ => rfl

/-- A host column sum from the zero word, read at a column: the sum over all rows. -/
theorem colSum_apply (x : FVec Ideal S100000x128 .f32) (j : Fin 128) :
    Host.reduceAdd x (constant (F := Ideal) S_ .f32 0x00000000#32) reducesTo_S100000x128_S128_d0 h_S_ (ix1 j)
      = ∑ n : Fin 100000, x (ix2 n j) := by
  rw [hostReduceAdd_apply, Ideal.hostReduceAdd_single reducesTo_S100000x128_S128_d0 reduces0, constant_apply,
    Ideal.ofBits_zero_f32, zero_add]
  exact Finset.sum_congr rfl fun k _ => congrArg x (lift_eq j k)

/-- The node count is the real number 100000, which is positive. -/
theorem cN_pos : (0 : EReal) < cN := by
  unfold cN
  rw [Cert.LibReal.ofBits_100000]
  exact_mod_cast (by norm_num : (0 : ℝ) < 100000)

/-- The column mean as the main program spells it. -/
def meanTerm (x : FVec Ideal S100000x128 .f32) : FVec Ideal S128 .f32 :=
  Host.divf (Host.reduceAdd x (constant (F := Ideal) S_ .f32 0x00000000#32) reducesTo_S100000x128_S128_d0 h_S_)
    (broadcastInDim S128 ![] bcast_S_S128 (constant (F := Ideal) S_ .f32 0x47C35000#32))

theorem meanTerm_apply (x : FVec Ideal S100000x128 .f32) (j : Fin 128) :
    meanTerm x (ix1 j) = meanR (toMat x) j := by
  unfold meanTerm
  rw [hostDivf_apply, colSum_apply, broadcastInDim_scalar_apply, constant_apply]
  rfl

/-- The column mean inside the variance function: a one-row matrix. -/
def varMean (x : FVec Ideal S100000x128 .f32) : FVec Ideal S1x128 .f32 :=
  Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))

theorem varMean_apply (x : FVec Ideal S100000x128 .f32) (j : Fin 128) :
    varMean x (ix2 (0 : Fin 1) j) = meanR (toMat x) j := by
  unfold varMean
  rw [hostDivf_apply, broadcastInDim_apply _ bcast_S128_S1x128_1 _ _ (ix1 j) (fun a => by
      match a with
      | ⟨0, _⟩ => rfl),
    colSum_apply, broadcastInDim_scalar_apply, constant_apply]
  rfl

/-- The deviations from the column mean. -/
def varDev (x : FVec Ideal S100000x128 .f32) : FVec Ideal S100000x128 .f32 :=
  subf x (broadcastInDim S100000x128 ![0, 1] bcast_S1x128_S100000x128_0_1 (varMean x))

theorem varDev_apply (x : FVec Ideal S100000x128 .f32) (n : Fin 100000) (j : Fin 128) :
    varDev x (ix2 n j) = x (ix2 n j) - meanR (toMat x) j := by
  unfold varDev
  rw [subf_apply, broadcastInDim_apply _ bcast_S1x128_S100000x128_0_1 _ _ (ix2 (0 : Fin 1) j) (fun a => by
      match a with
      | ⟨0, _⟩ => rfl
      | ⟨1, _⟩ => rfl),
    varMean_apply]

/-- The divisor: the node count minus the correction, which is the integer zero. -/
def varDen : FVec Ideal S_ .f32 :=
  subf (constant (F := Ideal) S_ .f32 0x47C35000#32) (sitofp .f32 (constantI S_ 32 0#32))

theorem varDen_apply : varDen ix0 = cN := by
  unfold varDen
  rw [subf_apply, constant_apply, sitofp_apply, constantI_apply]
  show Ideal.ofBits .f32 0x47C35000#32 - (((0#32 : BitVec 32).toInt : ℝ) : EReal) = cN
  rw [BitVec.toInt_zero, Int.cast_zero, EReal.coe_zero, sub_zero]
  rfl

/-- The variance function's body as one term of its argument. -/
def varTerm (x : FVec Ideal S100000x128 .f32) : FVec Ideal S128 .f32 :=
  select
    (broadcastInDim S128 ![] bcast_S_S128 (cmpf .ogt varDen (constant (F := Ideal) S_ .f32 0x00000000#32)))
    (Host.divf
      (Host.reduceAdd (mulf (varDev x) (varDev x)) (constant (F := Ideal) S_ .f32 0x00000000#32)
        reducesTo_S100000x128_S128_d0 h_S_)
      (broadcastInDim S128 ![] bcast_S_S128 varDen))
    (broadcastInDim S128 ![] bcast_S_S128 (id (constant (F := Ideal) S_ .f32 0x7FC00000#32)))

/-- At a column it is the mean of the squared deviations: the divisor is positive, so the guard holds and the
    not-a-number word is never read. -/
theorem varTerm_apply (x : FVec Ideal S100000x128 .f32) (j : Fin 128) :
    varTerm x (ix1 j) = varR (toMat x) j := by
  have hp : (cmpf .ogt varDen (constant (F := Ideal) S_ .f32 0x00000000#32)) ix0 = 1#1 := by
    rw [cmpf_apply, varDen_apply, constant_apply, Ideal.ofBits_zero_f32, Ideal.cmpf_def]
    show BitVec.ofBool (decide ((0 : EReal) < cN)) = 1#1
    rw [decide_eq_true cN_pos]
    rfl
  unfold varTerm
  rw [select_apply, broadcastInDim_scalar_apply, hp, select_one, hostDivf_apply, colSum_apply,
    broadcastInDim_scalar_apply, varDen_apply]
  simp only [mulf_apply, varDev_apply]
  rfl

/-- One row of a four-row parameter table as a vector: the slice of that row, with its unit axis dropped. -/
def rowTerm (p : FVec Ideal S4x128 .f32) {o : ℕ} (h : S4x128.Slices ![o, 0] S1x128) : FVec Ideal S128 .f32 :=
  shapeCast S128 (extractStridedSlice S1x128 ![o, 0] p h) shapeCasts_S1x128_S128

theorem rowTerm_apply (p : FVec Ideal S4x128 .f32) {o : ℕ} (h : S4x128.Slices ![o, 0] S1x128) (r : Fin 4)
    (hr : r.val = o) (j : Fin 128) : rowTerm p h (ix1 j) = p (ix2 r j) := by
  unfold rowTerm
  rw [shapeCast_1a_a_apply, slice2_axis0_apply o p h (0 : Fin 1) j r (by rw [hr]; rfl)]

/-! ## Segment C: the statistics of main_v127 -/

section C
variable (V : Valuation τ sig (Elt Ideal))

theorem v30_eq : (after opsL1C V (Proc.devRef .tc main_v134) : S128.Idx → EReal)
    = meanTerm (V (Proc.devRef .tc main_v127)) := by
  after_results_simp
  rfl

theorem v31_eq : (after opsL1C V (Proc.devRef .tc main_v135) : S128.Idx → EReal)
    = varTerm (V (Proc.devRef .tc main_v127)) := by
  after_results_simp
  simp only [TRef.ofBuf, TRef.toBuf, cast_eq]
  rfl

theorem v25_eq : (after opsL1C V (Proc.devRef .tc main_v129) : S128.Idx → EReal)
    = rowTerm (V (Proc.devRef .tc main_arg10)) slices_S4x128_S1x128_1_0 := by
  after_results_simp
  rfl

theorem v27_eq : (after opsL1C V (Proc.devRef .tc main_v131) : S128.Idx → EReal)
    = rowTerm (V (Proc.devRef .tc main_arg11)) slices_S4x128_S1x128_1_0 := by
  after_results_simp
  rfl

theorem meanC : toRow1 (after opsL1C V (Proc.devRef .tc main_v134)) = meanR (toMat (V (Proc.devRef .tc main_v127))) := by
  funext j
  show (after opsL1C V (Proc.devRef .tc main_v134) : S128.Idx → EReal) (ix1 j) = _
  rw [v30_eq, meanTerm_apply]

theorem varC : toRow1 (after opsL1C V (Proc.devRef .tc main_v135)) = varR (toMat (V (Proc.devRef .tc main_v127))) := by
  funext j
  show (after opsL1C V (Proc.devRef .tc main_v135) : S128.Idx → EReal) (ix1 j) = _
  rw [v31_eq, varTerm_apply]

theorem gC : toRow1 (after opsL1C V (Proc.devRef .tc main_v129))
    = fun j => V (Proc.devRef .tc main_arg10) (ix2 (1 : Fin 4) j) := by
  funext j
  show (after opsL1C V (Proc.devRef .tc main_v129) : S128.Idx → EReal) (ix1 j) = _
  rw [v25_eq]
  exact rowTerm_apply _ slices_S4x128_S1x128_1_0 (1 : Fin 4) rfl j

theorem beC : toRow1 (after opsL1C V (Proc.devRef .tc main_v131))
    = fun j => V (Proc.devRef .tc main_arg11) (ix2 (1 : Fin 4) j) := by
  funext j
  show (after opsL1C V (Proc.devRef .tc main_v131) : S128.Idx → EReal) (ix1 j) = _
  rw [v27_eq]
  exact rowTerm_apply _ slices_S4x128_S1x128_1_0 (1 : Fin 4) rfl j

end C

/-! ## Segment F: the statistics of main_v159 -/

section F
variable (V : Valuation τ sig (Elt Ideal))

theorem v62_eq : (after opsL1F V (Proc.devRef .tc main_v166) : S128.Idx → EReal)
    = meanTerm (V (Proc.devRef .tc main_v159)) := by
  after_results_simp
  rfl

theorem v63_eq : (after opsL1F V (Proc.devRef .tc main_v167) : S128.Idx → EReal)
    = varTerm (V (Proc.devRef .tc main_v159)) := by
  after_results_simp
  simp only [TRef.ofBuf, TRef.toBuf, cast_eq]
  rfl

theorem v57_eq : (after opsL1F V (Proc.devRef .tc main_v161) : S128.Idx → EReal)
    = rowTerm (V (Proc.devRef .tc main_arg12)) slices_S4x128_S1x128_1_0 := by
  after_results_simp
  rfl

theorem v59_eq : (after opsL1F V (Proc.devRef .tc main_v163) : S128.Idx → EReal)
    = rowTerm (V (Proc.devRef .tc main_arg13)) slices_S4x128_S1x128_1_0 := by
  after_results_simp
  rfl

theorem meanF : toRow1 (after opsL1F V (Proc.devRef .tc main_v166)) = meanR (toMat (V (Proc.devRef .tc main_v159))) := by
  funext j
  show (after opsL1F V (Proc.devRef .tc main_v166) : S128.Idx → EReal) (ix1 j) = _
  rw [v62_eq, meanTerm_apply]

theorem varF : toRow1 (after opsL1F V (Proc.devRef .tc main_v167)) = varR (toMat (V (Proc.devRef .tc main_v159))) := by
  funext j
  show (after opsL1F V (Proc.devRef .tc main_v167) : S128.Idx → EReal) (ix1 j) = _
  rw [v63_eq, varTerm_apply]

theorem gF : toRow1 (after opsL1F V (Proc.devRef .tc main_v161))
    = fun j => V (Proc.devRef .tc main_arg12) (ix2 (1 : Fin 4) j) := by
  funext j
  show (after opsL1F V (Proc.devRef .tc main_v161) : S128.Idx → EReal) (ix1 j) = _
  rw [v57_eq]
  exact rowTerm_apply _ slices_S4x128_S1x128_1_0 (1 : Fin 4) rfl j

theorem beF : toRow1 (after opsL1F V (Proc.devRef .tc main_v163))
    = fun j => V (Proc.devRef .tc main_arg13) (ix2 (1 : Fin 4) j) := by
  funext j
  show (after opsL1F V (Proc.devRef .tc main_v163) : S128.Idx → EReal) (ix1 j) = _
  rw [v59_eq]
  exact rowTerm_apply _ slices_S4x128_S1x128_1_0 (1 : Fin 4) rfl j

end F

/-! ## Segment H: the statistics of main_v183 -/

section H
variable (V : Valuation τ sig (Elt Ideal))

theorem v86_eq : (after opsL1H V (Proc.devRef .tc main_v190) : S128.Idx → EReal)
    = meanTerm (V (Proc.devRef .tc main_v183)) := by
  after_results_simp
  rfl

theorem v87_eq : (after opsL1H V (Proc.devRef .tc main_v191) : S128.Idx → EReal)
    = varTerm (V (Proc.devRef .tc main_v183)) := by
  after_results_simp
  simp only [TRef.ofBuf, TRef.toBuf, cast_eq]
  rfl

theorem v81_eq : (after opsL1H V (Proc.devRef .tc main_v185) : S128.Idx → EReal)
    = rowTerm (V (Proc.devRef .tc main_arg14)) slices_S4x128_S1x128_1_0 := by
  after_results_simp
  rfl

theorem v83_eq : (after opsL1H V (Proc.devRef .tc main_v187) : S128.Idx → EReal)
    = rowTerm (V (Proc.devRef .tc main_arg15)) slices_S4x128_S1x128_1_0 := by
  after_results_simp
  rfl

theorem meanH : toRow1 (after opsL1H V (Proc.devRef .tc main_v190)) = meanR (toMat (V (Proc.devRef .tc main_v183))) := by
  funext j
  show (after opsL1H V (Proc.devRef .tc main_v190) : S128.Idx → EReal) (ix1 j) = _
  rw [v86_eq, meanTerm_apply]

theorem varH : toRow1 (after opsL1H V (Proc.devRef .tc main_v191)) = varR (toMat (V (Proc.devRef .tc main_v183))) := by
  funext j
  show (after opsL1H V (Proc.devRef .tc main_v191) : S128.Idx → EReal) (ix1 j) = _
  rw [v87_eq, varTerm_apply]

theorem gH : toRow1 (after opsL1H V (Proc.devRef .tc main_v185))
    = fun j => V (Proc.devRef .tc main_arg14) (ix2 (1 : Fin 4) j) := by
  funext j
  show (after opsL1H V (Proc.devRef .tc main_v185) : S128.Idx → EReal) (ix1 j) = _
  rw [v81_eq]
  exact rowTerm_apply _ slices_S4x128_S1x128_1_0 (1 : Fin 4) rfl j

theorem beH : toRow1 (after opsL1H V (Proc.devRef .tc main_v187))
    = fun j => V (Proc.devRef .tc main_arg15) (ix2 (1 : Fin 4) j) := by
  funext j
  show (after opsL1H V (Proc.devRef .tc main_v187) : S128.Idx → EReal) (ix1 j) = _
  rw [v83_eq]
  exact rowTerm_apply _ slices_S4x128_S1x128_1_0 (1 : Fin 4) rfl j

end H

end Cert.RefStatsL1

end
-- ==== Proof.RefNormL1.lean ====
/-
  The reference's normalisations, read for an arbitrary valuation.

  Each layer of the reference normalises three matrices of 100000 rows and 128 columns. A normalisation takes the
  matrix, its column mean and its column variance (both computed before it), and two parameter rows; it subtracts
  the mean from every row, multiplies by the reciprocal square root of the variance plus a small constant, multiplies
  by the first parameter row, adds the second, and clamps below at zero (an outlined function: the maximum with a
  broadcast zero). Every row operand is spelled as a broadcast of 128 entries to one row and then to all rows, so the
  value at entry (n, j) reads each row operand at j: it is

      max ((x n j - mu j) * rsqrt (var j + eps) * g j + be j) 0.

  Each statement is about the fold of a segment of the reference's operations over an arbitrary valuation, and
  speaks of the valuation's entries at the segment's operands only.
-/
import proofs.«412161_j3753801416792_2_alg».proof.Proof.Gen.ReferenceIdeal
import proofs.«412161_j3753801416792_2_alg».proof.Proof.RefRun
import proofs.«412161_j3753801416792_2_alg».proof.Proof.Conv
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

noncomputable section

namespace Cert.RefNormL1

open Cert.ReferenceIdeal Cert.ReferenceIdeal.RefRun Cert.Spec Cert.Conv Idealize.ShloMosaic Idealize.ShloMosaic.ValueIdx Idealize.ShloMosaic.StableHlo

/-! ## Normalise, scale, shift, clamp -/

/-- A row broadcast to one row and then down all rows reads the row's entry in the column. -/
theorem rowBcast_apply {α : Type} (X : S128.Idx → α) (n : Fin 100000) (j : Fin 128) :
    broadcastInDim S100000x128 ![0, 1] Gen.bcast_S1x128_S100000x128_0_1
      (broadcastInDim S1x128 ![1] Gen.bcast_S128_S1x128_1 X) (ix2 n j) = X (ix1 j) := by
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The host's reciprocal square root at an index is the extended reals' reciprocal square root of the entry. -/
theorem hostRsqrt_apply {s : Shape} {φ : FTy} (x : FVec Ideal s φ) (i : s.Idx) :
    Host.rsqrt x i = Ideal.rsqrt (x i) := rfl

set_option maxHeartbeats 4000000 in
/-- The first normalisation of the layer: the first affine map's output minus its column mean, times the
    reciprocal square root of its column variance plus the offset, scaled, shifted, clamped below at zero. -/
theorem normD (V : Valuation τ sig (Elt Ideal)) :
    toMat (after opsL1D V (Proc.devRef .tc main_v151))
      = bnRelu (toMat (V (Proc.devRef .tc main_v127))) (toRow1 (V (Proc.devRef .tc main_v134)))
          (toRow1 (V (Proc.devRef .tc main_v135))) (toRow1 (V (Proc.devRef .tc main_v129)))
          (toRow1 (V (Proc.devRef .tc main_v131))) := by
  funext n j
  unfold toMat bnRelu toRow1
  dsimp only [opsL1D]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The second normalisation of the layer, of the second affine map's output, by its own column statistics and
    its own scale and shift rows. -/
theorem normG (V : Valuation τ sig (Elt Ideal)) :
    toMat (after opsL1G V (Proc.devRef .tc main_v183))
      = bnRelu (toMat (V (Proc.devRef .tc main_v159))) (toRow1 (V (Proc.devRef .tc main_v166)))
          (toRow1 (V (Proc.devRef .tc main_v167))) (toRow1 (V (Proc.devRef .tc main_v161)))
          (toRow1 (V (Proc.devRef .tc main_v163))) := by
  funext n j
  unfold toMat bnRelu toRow1
  dsimp only [opsL1G]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The third normalisation of the layer, of the second normalisation's output: the layer's output. -/
theorem normI (V : Valuation τ sig (Elt Ideal)) :
    toMat (after opsL1I V (Proc.devRef .tc main_v207))
      = bnRelu (toMat (V (Proc.devRef .tc main_v183))) (toRow1 (V (Proc.devRef .tc main_v190)))
          (toRow1 (V (Proc.devRef .tc main_v191))) (toRow1 (V (Proc.devRef .tc main_v185)))
          (toRow1 (V (Proc.devRef .tc main_v187))) := by
  funext n j
  unfold toMat bnRelu toRow1
  dsimp only [opsL1I]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

end Cert.RefNormL1

end
-- ==== Proof.RefChain1.lean ====
/-
  The reference's run of one layer, assembled: the nine segments of the layer's straight line are read one after the
  other, each by its own lemma at the contents the previous segments left, and every operand a segment reads that an
  earlier segment did not write (the features, the edge lists, the stacked parameters; a value an earlier segment
  named) is carried across by the fact that a segment leaves the buffers it does not write alone. The result is the
  specification's layer at the launch contents.
-/
import proofs.«412161_j3753801416792_2_alg».proof.Proof.Gen.ReferenceIdeal
import proofs.«412161_j3753801416792_2_alg».proof.Proof.Spec
import proofs.«412161_j3753801416792_2_alg».proof.Proof.Conv
import proofs.«412161_j3753801416792_2_alg».proof.Proof.Agg
import proofs.«412161_j3753801416792_2_alg».proof.Proof.RefRun
import proofs.«412161_j3753801416792_2_alg».proof.Proof.RefKeep
import proofs.«412161_j3753801416792_2_alg».proof.Proof.RefAffineL1
import proofs.«412161_j3753801416792_2_alg».proof.Proof.RefStatsL1
import proofs.«412161_j3753801416792_2_alg».proof.Proof.RefNormL1
import proofs.«412161_j3753801416792_2_alg».proof.Proof.RefArgs
import Idealize.ShloMosaic.Lib.StableHlo.Run
import Idealize.ShloMosaic.Lib.ValueIdx

noncomputable section

namespace Cert.RefChain1

open Cert.ReferenceIdeal Cert.ReferenceIdeal.RefRun Cert.ReferenceIdeal.RefKeep Cert.RefAffineL1 Cert.RefStatsL1 Cert.RefNormL1
  Cert.Spec Cert.Conv Idealize.ShloMosaic Idealize.ShloMosaic.ValueIdx Idealize.ShloMosaic.StableHlo

/-- The layer's parameters as the reference reads them: this layer's row of each stacked parameter array. -/
abbrev P (V : Valuation τ sig (Elt Ideal)) : Params := Cert.RefArgs.P V (1 : Fin 4)

variable (V : Valuation τ sig (Elt Ideal))

/-! ### The contents after each of the layer's nine segments -/

/-- After the aggregate. -/
abbrev UA : Valuation τ sig (Elt Ideal) := after opsL1A V
/-- After the first affine map. -/
abbrev UB : Valuation τ sig (Elt Ideal) := after opsL1B (UA V)
/-- After the first statistics. -/
abbrev UC : Valuation τ sig (Elt Ideal) := after opsL1C (UB V)
/-- After the first normalisation. -/
abbrev UD : Valuation τ sig (Elt Ideal) := after opsL1D (UC V)
/-- After the second affine map. -/
abbrev UE : Valuation τ sig (Elt Ideal) := after opsL1E (UD V)
/-- After the second statistics. -/
abbrev UF : Valuation τ sig (Elt Ideal) := after opsL1F (UE V)
/-- After the second normalisation. -/
abbrev UG : Valuation τ sig (Elt Ideal) := after opsL1G (UF V)
/-- After the third statistics. -/
abbrev UH : Valuation τ sig (Elt Ideal) := after opsL1H (UG V)
/-- After the third normalisation: the layer's end. -/
abbrev UI : Valuation τ sig (Elt Ideal) := after opsL1I (UH V)

/-- The layer's fold ends at the last of these. -/
theorem after_eq_UI : after opsL1 V = UI V := after_opsL1 V

/-! ### A buffer no segment so far writes still holds the launch contents -/

theorem keptA (b : Ref sig .tc) (hA : b ∉ writtenL1A) : UA V (Proc.devRef .tc b) = V (Proc.devRef .tc b) :=
  keepL1A V b hA
theorem keptB (b : Ref sig .tc) (hA : b ∉ writtenL1A) (hB : b ∉ writtenL1B) :
    UB V (Proc.devRef .tc b) = V (Proc.devRef .tc b) :=
  (keepL1B (UA V) b hB).trans (keptA V b hA)
theorem keptC (b : Ref sig .tc) (hA : b ∉ writtenL1A) (hB : b ∉ writtenL1B) (hC : b ∉ writtenL1C) :
    UC V (Proc.devRef .tc b) = V (Proc.devRef .tc b) :=
  (keepL1C (UB V) b hC).trans (keptB V b hA hB)
theorem keptD (b : Ref sig .tc) (hA : b ∉ writtenL1A) (hB : b ∉ writtenL1B) (hC : b ∉ writtenL1C)
    (hD : b ∉ writtenL1D) : UD V (Proc.devRef .tc b) = V (Proc.devRef .tc b) :=
  (keepL1D (UC V) b hD).trans (keptC V b hA hB hC)
theorem keptE (b : Ref sig .tc) (hA : b ∉ writtenL1A) (hB : b ∉ writtenL1B) (hC : b ∉ writtenL1C)
    (hD : b ∉ writtenL1D) (hE : b ∉ writtenL1E) : UE V (Proc.devRef .tc b) = V (Proc.devRef .tc b) :=
  (keepL1E (UD V) b hE).trans (keptD V b hA hB hC hD)
theorem keptF (b : Ref sig .tc) (hA : b ∉ writtenL1A) (hB : b ∉ writtenL1B) (hC : b ∉ writtenL1C)
    (hD : b ∉ writtenL1D) (hE : b ∉ writtenL1E) (hF : b ∉ writtenL1F) :
    UF V (Proc.devRef .tc b) = V (Proc.devRef .tc b) :=
  (keepL1F (UE V) b hF).trans (keptE V b hA hB hC hD hE)
theorem keptG (b : Ref sig .tc) (hA : b ∉ writtenL1A) (hB : b ∉ writtenL1B) (hC : b ∉ writtenL1C)
    (hD : b ∉ writtenL1D) (hE : b ∉ writtenL1E) (hF : b ∉ writtenL1F) (hG : b ∉ writtenL1G) :
    UG V (Proc.devRef .tc b) = V (Proc.devRef .tc b) :=
  (keepL1G (UF V) b hG).trans (keptF V b hA hB hC hD hE hF)

/-! ### The values the layer names, one segment at a time -/

section
variable [Cert.KernelIdeal.Facts₀]

/-- The aggregate. -/
theorem e9 : UA V (Proc.devRef .tc main_v113)
    = Cert.Agg.aggT (V (Proc.devRef .tc main_v103)) (V (Proc.devRef .tc main_arg2)) (V (Proc.devRef .tc main_arg3)) :=
  aggA V

/-- The first affine map's value. -/
theorem e23 : toMat (UB V (Proc.devRef .tc main_v127))
    = lin1R (P V) (toMat (V (Proc.devRef .tc main_v103)))
        (toMat (Cert.Agg.aggT (V (Proc.devRef .tc main_v103)) (V (Proc.devRef .tc main_arg2)) (V (Proc.devRef .tc main_arg3)))) := by
  have h := linB (UA V)
  rw [keptA V main_arg5 (by decide), keptA V main_v103 (by decide), keptA V main_arg6 (by decide),
    keptA V main_arg7 (by decide), e9 V] at h
  exact h

end

/-- The first normalisation's mean. -/
theorem e30 : toRow1 (UC V (Proc.devRef .tc main_v134)) = meanR (toMat (UB V (Proc.devRef .tc main_v127))) := meanC (UB V)
/-- The first normalisation's variance. -/
theorem e31 : toRow1 (UC V (Proc.devRef .tc main_v135)) = varR (toMat (UB V (Proc.devRef .tc main_v127))) := varC (UB V)
/-- The first normalisation's scale row. -/
theorem e25 : toRow1 (UC V (Proc.devRef .tc main_v129)) = (P V).g1 := by
  have h := gC (UB V)
  rw [keptB V main_arg10 (by decide) (by decide)] at h
  exact h
/-- The first normalisation's shift row. -/
theorem e27 : toRow1 (UC V (Proc.devRef .tc main_v131)) = (P V).be1 := by
  have h := beC (UB V)
  rw [keptB V main_arg11 (by decide) (by decide)] at h
  exact h

/-- The first normalised value. -/
theorem e47 : toMat (UD V (Proc.devRef .tc main_v151)) = z1R (P V) (toMat (UB V (Proc.devRef .tc main_v127))) := by
  have k : UC V (Proc.devRef .tc main_v127) = UB V (Proc.devRef .tc main_v127) := keepL1C (UB V) main_v127 (by decide)
  have h := normD (UC V)
  rw [k, e30 V, e31 V, e25 V, e27 V] at h
  exact h

/-- The second affine map's value. -/
theorem e55 : toMat (UE V (Proc.devRef .tc main_v159)) = lin2 (P V) (toMat (UD V (Proc.devRef .tc main_v151))) := by
  have h := linE (UD V)
  rw [keptD V main_arg8 (by decide) (by decide) (by decide) (by decide), keptD V main_arg9 (by decide) (by decide) (by decide) (by decide)] at h
  exact h

/-- The second normalisation's mean. -/
theorem e62 : toRow1 (UF V (Proc.devRef .tc main_v166)) = meanR (toMat (UE V (Proc.devRef .tc main_v159))) := meanF (UE V)
/-- The second normalisation's variance. -/
theorem e63 : toRow1 (UF V (Proc.devRef .tc main_v167)) = varR (toMat (UE V (Proc.devRef .tc main_v159))) := varF (UE V)
/-- The second normalisation's scale row. -/
theorem e57 : toRow1 (UF V (Proc.devRef .tc main_v161)) = (P V).g2 := by
  have h := gF (UE V)
  rw [keptE V main_arg12 (by decide) (by decide) (by decide) (by decide) (by decide)] at h
  exact h
/-- The second normalisation's shift row. -/
theorem e59 : toRow1 (UF V (Proc.devRef .tc main_v163)) = (P V).be2 := by
  have h := beF (UE V)
  rw [keptE V main_arg13 (by decide) (by decide) (by decide) (by decide) (by decide)] at h
  exact h

/-- The second normalised value. -/
theorem e79 : toMat (UG V (Proc.devRef .tc main_v183)) = z2R (P V) (toMat (UE V (Proc.devRef .tc main_v159))) := by
  have k : UF V (Proc.devRef .tc main_v159) = UE V (Proc.devRef .tc main_v159) := keepL1F (UE V) main_v159 (by decide)
  have h := normG (UF V)
  rw [k, e62 V, e63 V, e57 V, e59 V] at h
  exact h

/-- The third normalisation's mean. -/
theorem e86 : toRow1 (UH V (Proc.devRef .tc main_v190)) = meanR (toMat (UG V (Proc.devRef .tc main_v183))) := meanH (UG V)
/-- The third normalisation's variance. -/
theorem e87 : toRow1 (UH V (Proc.devRef .tc main_v191)) = varR (toMat (UG V (Proc.devRef .tc main_v183))) := varH (UG V)
/-- The third normalisation's scale row. -/
theorem e81 : toRow1 (UH V (Proc.devRef .tc main_v185)) = (P V).g3 := by
  have h := gH (UG V)
  rw [keptG V main_arg14 (by decide) (by decide) (by decide) (by decide) (by decide) (by decide) (by decide)] at h
  exact h
/-- The third normalisation's shift row. -/
theorem e83 : toRow1 (UH V (Proc.devRef .tc main_v187)) = (P V).be3 := by
  have h := beH (UG V)
  rw [keptG V main_arg15 (by decide) (by decide) (by decide) (by decide) (by decide) (by decide) (by decide)] at h
  exact h

/-- The layer's output. -/
theorem e103 : toMat (UI V (Proc.devRef .tc main_v207)) = outR (P V) (toMat (UG V (Proc.devRef .tc main_v183))) := by
  have k : UH V (Proc.devRef .tc main_v183) = UG V (Proc.devRef .tc main_v183) := keepL1H (UG V) main_v183 (by decide)
  have h := normI (UH V)
  rw [k, e86 V, e87 V, e81 V, e83 V] at h
  exact h

/-- THE LAYER: the reference's output of this layer is the specification's layer at the contents, before the
    layer, of the features, the edge lists and this layer's row of the parameters. -/
theorem layer [Cert.KernelIdeal.Facts₀] :
    toMat (after opsL1 V (Proc.devRef .tc main_v207))
      = layerR (P V) (toMat (V (Proc.devRef .tc main_v103)))
          (toMat (Cert.Agg.aggT (V (Proc.devRef .tc main_v103)) (V (Proc.devRef .tc main_arg2)) (V (Proc.devRef .tc main_arg3)))) := by
  rw [after_eq_UI, e103, e79, e55, e47, e23]
  rfl

end Cert.RefChain1

end
-- ==== Proof.RefAffineL2.lean ====
/-
  The reference's edge aggregate and its two affine maps in layer 2, read for arbitrary contents of the buffers
  they read.

  * The aggregate: the rows of the features gathered along the edges' sources and added at their targets. It is
    the same composition of the same operations as the shared aggregation function, so the two are equal as
    they stand.
  * The first affine map: ((1 + eps) h + agg) W1 + b1, where eps, W1 and b1 are entry 2, matrix 2 and row 2 of
    their stacks: at (n, j) the sum over k of ((1 + eps) h(n, k) + agg(n, k)) W1(k, j), plus b1(j).
  * The second affine map: z W2 + b2 likewise.

  Each layout operation is read at an index: a slice shifts by its offsets, a reshape keeps the row-major
  position, a broadcast reads the operand at the coordinates it names; the matrix product at (n, j) is the sum
  over the contracted coordinate. The large operands stay variables throughout, and the program's buffers enter
  only in the three final statements.
-/
import proofs.«412161_j3753801416792_2_alg».proof.Proof.Gen.ReferenceIdeal
import Idealize.ShloMosaic.Lib.StableHlo.Run
import proofs.«412161_j3753801416792_2_alg».proof.Proof.RefRun
import proofs.«412161_j3753801416792_2_alg».proof.Proof.Conv
import proofs.«412161_j3753801416792_2_alg».proof.Proof.Agg
import Idealize.ShloMosaic.Lib.StackMember
import Idealize.ShloMosaic.Lib.Pipeline.Value
import Idealize.ShloMosaic.Lib.ValueIdx
import Idealize.ShloMosaic.PureOps.Ideal.Laws

noncomputable section

namespace Cert.RefAffineL2

open Cert.ReferenceIdeal Cert.ReferenceIdeal.RefRun Cert.Spec Cert.Conv Idealize.ShloMosaic Idealize.ShloMosaic.ValueIdx Idealize.ShloMosaic.StableHlo

/-- The scalar (1 + eps), broadcast: at every index the word of one plus entry `l` of the vector of eps. -/
theorem scale_apply (l : Fin 4) (e : FVec Ideal S4 .f32) {off : Fin S4.rank → ℕ} (hoff : off 0 = l.val)
    {hs : S4.Slices off S1} {hc : S1.ShapeCasts S_} {hb : S_.BroadcastsInDim S100000x128 ![]} (i : S100000x128.Idx) :
    broadcastInDim S100000x128 ![] hb
      (addf (constant (F := Ideal) S_ .f32 0x3F800000#32) (shapeCast S_ (extractStridedSlice S1 off e hs) hc)) i
      = Ideal.ofBits .f32 0x3F800000#32 + e (ix1 l) := by
  rw [broadcastInDim_apply _ hb _ i (fun a => a.elim0) (fun a => a.elim0)]
  rw [addf_apply, constant_apply]
  congr 1
  rw [shapeCast_apply _ hc _ (ix1 (0 : Fin 1)) (by decide)]
  exact extractStridedSlice_apply off e hs _ (ix1 l) (fun a => by
    match a with
    | ⟨0, _⟩ => show l.val = off 0 + 0; omega)

/-- Matrix `l` of a stack of four 128 by 128 matrices, as a matrix: its (k, j) entry. -/
theorem weight_apply (l : Fin 4) (W : FVec Ideal S4x128x128 .f32) {off : Fin S4x128x128.rank → ℕ}
    (hoff0 : off 0 = l.val) (hoff1 : off 1 = 0) (hoff2 : off 2 = 0)
    {hs : S4x128x128.Slices off S1x128x128} {hc : S1x128x128.ShapeCasts S128x128} (k j : Fin 128) :
    shapeCast S128x128 (extractStridedSlice S1x128x128 off W hs) hc (ix2 k j) = W (ix3 l k j) := by
  rw [shapeCast_apply _ hc _ (ix3 (0 : Fin 1) k j) (by
    rw [Shape.rowMajor_val_three, Shape.rowMajor_val_two]
    show (0 * 128 + k.val) * 128 + j.val = k.val * 128 + j.val
    omega)]
  exact extractStridedSlice_apply off W hs _ (ix3 l k j) (fun a => by
    match a with
    | ⟨0, _⟩ => show l.val = off 0 + 0; omega
    | ⟨1, _⟩ => show k.val = off 1 + k.val; omega
    | ⟨2, _⟩ => show j.val = off 2 + j.val; omega)

/-- Row `l` of a stack of four rows of 128, broadcast down the 100000 rows: its (n, j) entry. -/
theorem bias_apply (l : Fin 4) (b : FVec Ideal S4x128 .f32) {off : Fin S4x128.rank → ℕ}
    (hoff0 : off 0 = l.val) (hoff1 : off 1 = 0)
    {hs : S4x128.Slices off S1x128} {hc : S1x128.ShapeCasts S128} {hb1 : S128.BroadcastsInDim S1x128 ![1]}
    {hb2 : S1x128.BroadcastsInDim S100000x128 ![0, 1]} (n : Fin 100000) (j : Fin 128) :
    broadcastInDim S100000x128 ![0, 1] hb2
      (broadcastInDim S1x128 ![1] hb1 (shapeCast S128 (extractStridedSlice S1x128 off b hs) hc)) (ix2 n j)
      = b (ix2 l j) := by
  rw [broadcastInDim_apply _ hb2 _ (ix2 n j) (ix2 (0 : Fin 1) j) (fun a => by
    match a with
    | ⟨0, _⟩ => rfl
    | ⟨1, _⟩ => rfl)]
  rw [broadcastInDim_apply _ hb1 _ (ix2 (0 : Fin 1) j) (ix1 j) (fun a => by
    match a with
    | ⟨0, _⟩ => rfl)]
  rw [shapeCast_apply _ hc _ (ix2 (0 : Fin 1) j) (by
    rw [Shape.rowMajor_val_two, Shape.rowMajor_val_one]
    show 0 * 128 + j.val = j.val
    omega)]
  exact extractStridedSlice_apply off b hs _ (ix2 l j) (fun a => by
    match a with
    | ⟨0, _⟩ => show l.val = off 0 + 0; omega
    | ⟨1, _⟩ => show j.val = off 1 + j.val; omega)

/-- The product of a 100000 by 128 matrix with a 128 by 128 matrix, contracting columns against rows: its (n, j)
    entry is the sum over k of the products of the (n, k) and (k, j) entries. -/
theorem dot_apply {d : DotDims S100000x128 S128x128 S100000x128} (hd : d = DotDims.plain 100000 128 128)
    (x : FVec Ideal S100000x128 .f32) (w : FVec Ideal S128x128 .f32) (n : Fin 100000) (j : Fin 128) :
    Host.dotGeneral (F := Ideal) d none x w (ix2 n j) = ∑ k : Fin 128, x (ix2 n k) * w (ix2 k j) := by
  subst hd
  exact StackMember.dotGeneral_plain_apply none x w n j

set_option maxHeartbeats 400000 in
/-- The first affine map of a layer, read as a matrix: ((1 + eps) h + agg) W + b, with eps, W, b entry, matrix and
    row `l` of their stacks. -/
theorem linB_aux (l : Fin 4) (e : FVec Ideal S4 .f32) (h agg : FVec Ideal S100000x128 .f32)
    (W : FVec Ideal S4x128x128 .f32) (b : FVec Ideal S4x128 .f32)
    {off5 : Fin S4.rank → ℕ} {off6 : Fin S4x128x128.rank → ℕ} {off7 : Fin S4x128.rank → ℕ}
    (h5 : off5 0 = l.val) (h60 : off6 0 = l.val) (h61 : off6 1 = 0) (h62 : off6 2 = 0)
    (h70 : off7 0 = l.val) (h71 : off7 1 = 0)
    {hs5 : S4.Slices off5 S1} {hc5 : S1.ShapeCasts S_} {hb5 : S_.BroadcastsInDim S100000x128 ![]}
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none
          (addf (mulf (broadcastInDim S100000x128 ![] hb5
              (addf (constant (F := Ideal) S_ .f32 0x3F800000#32) (shapeCast S_ (extractStridedSlice S1 off5 e hs5) hc5))) h) agg)
          (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (fun n k => (Ideal.ofBits .f32 0x3F800000#32 + e (ix1 l)) * toMat h n k + toMat agg n k)
          (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62, addf_apply, mulf_apply, scale_apply l e h5]

set_option maxHeartbeats 400000 in
/-- The second affine map of a layer, read as a matrix: z W + b, with W, b matrix and row `l` of their stacks. -/
theorem linE_aux (l : Fin 4) (z : FVec Ideal S100000x128 .f32)
    (W : FVec Ideal S4x128x128 .f32) (b : FVec Ideal S4x128 .f32)
    {off6 : Fin S4x128x128.rank → ℕ} {off7 : Fin S4x128.rank → ℕ}
    (h60 : off6 0 = l.val) (h61 : off6 1 = 0) (h62 : off6 2 = 0) (h70 : off7 0 = l.val) (h71 : off7 1 = 0)
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none z (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (toMat z) (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62]

variable (V : Valuation τ sig (Elt Ideal))

set_option maxHeartbeats 400000 in
/-- Layer 2's first affine map, for any contents of the buffers it reads. -/
theorem linB : toMat (after opsL2B V (Proc.devRef .tc main_v231))
    = lin (fun n k => (Ideal.ofBits .f32 0x3F800000#32 + V (Proc.devRef .tc main_arg5) (ix1 (2 : Fin 4)))
              * toMat (V (Proc.devRef .tc main_v207)) n k + toMat (V (Proc.devRef .tc main_v217)) n k)
        (fun k j => V (Proc.devRef .tc main_arg6) (ix3 (2 : Fin 4) k j))
        (fun j => V (Proc.devRef .tc main_arg7) (ix2 (2 : Fin 4) j)) := by
  after_results
  exact linB_aux (2 : Fin 4) _ _ _ _ _ (by rfl) (by rfl) (by rfl) (by rfl) (by rfl) (by rfl) (by rfl)

set_option maxHeartbeats 400000 in
/-- Layer 2's second affine map, for any contents of the buffers it reads. -/
theorem linE : toMat (after opsL2E V (Proc.devRef .tc main_v263))
    = lin (toMat (V (Proc.devRef .tc main_v255)))
        (fun k j => V (Proc.devRef .tc main_arg8) (ix3 (2 : Fin 4) k j))
        (fun j => V (Proc.devRef .tc main_arg9) (ix2 (2 : Fin 4) j)) := by
  after_results
  exact linE_aux (2 : Fin 4) _ _ _ (by rfl) (by rfl) (by rfl) (by rfl) (by rfl) (by rfl)

set_option maxHeartbeats 400000 in
/-- Layer 2's edge aggregate, for any contents of the buffers it reads: the shared aggregation of the features
    along the edges. -/
theorem aggA [Cert.KernelIdeal.Facts₀] : after opsL2A V (Proc.devRef .tc main_v217)
    = Cert.Agg.aggT (V (Proc.devRef .tc main_v207)) (V (Proc.devRef .tc main_arg2)) (V (Proc.devRef .tc main_arg3)) := by
  after_results
  rfl

end Cert.RefAffineL2

end
-- ==== Proof.RefStatsL2.lean ====
/-
  The reference's column statistics, read for an arbitrary valuation.

  Each layer of the reference normalises three matrices of 100000 rows and 128 columns. Before each normalisation
  it takes, per column, the mean (the column sum divided by the node count) and the variance (an outlined function:
  the column mean again, the deviations from it, their squares, the column sums of the squares divided by the node
  count minus a correction that is the integer zero, guarded by "the divisor is positive" with a not-a-number
  fallback), and it slices one row out of each of two parameter tables of four rows.

  The variance function's body is first stated once as a term of its argument, a variable matrix, and read at a
  column: the divisor is the real number 100000, so the guard holds, the fallback is never read, and the value is
  the mean of the squared deviations from the mean. Then, for each of the layer's three segments of operations,
  the fold of the segment over an arbitrary valuation is identified at four buffers (mean, variance, the two
  parameter rows) with those terms of the valuation's entries, and read at a column.
-/
import proofs.«412161_j3753801416792_2_alg».proof.Proof.Gen.ReferenceIdeal
import proofs.«412161_j3753801416792_2_alg».proof.Proof.RefRun
import proofs.«412161_j3753801416792_2_alg».proof.Proof.Conv
import proofs.«412161_j3753801416792_2_alg».proof.Proof.LibReal
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.RefStatsL2
open Cert.ReferenceIdeal Cert.ReferenceIdeal.Gen Cert.ReferenceIdeal.RefRun Cert.Spec Cert.Conv Idealize.ShloMosaic Idealize.ShloMosaic.ValueIdx Idealize.ShloMosaic.StableHlo

/-! ## The outlined variance function as one term of its argument -/

/-- The column reduction's shape fact in the form that names the inserted index. -/
theorem reduces0 : S100000x128.Reduces [0] S128 := by decide

/-- Over column `j`, the index with row `k` inserted is `(k, j)`. -/
theorem lift_eq (j : Fin 128) (k : Fin 100000) : reduces0.lift (ix1 j) k = ix2 k j := by
  funext c
  match c with
  | ⟨0, _⟩ => rfl
  | ⟨1, _⟩ => rfl

/-- A host column sum from the zero word, read at a column: the sum over all rows. -/
theorem colSum_apply (x : FVec Ideal S100000x128 .f32) (j : Fin 128) :
    Host.reduceAdd x (constant (F := Ideal) S_ .f32 0x00000000#32) reducesTo_S100000x128_S128_d0 h_S_ (ix1 j)
      = ∑ n : Fin 100000, x (ix2 n j) := by
  rw [hostReduceAdd_apply, Ideal.hostReduceAdd_single reducesTo_S100000x128_S128_d0 reduces0, constant_apply,
    Ideal.ofBits_zero_f32, zero_add]
  exact Finset.sum_congr rfl fun k _ => congrArg x (lift_eq j k)

/-- The node count is the real number 100000, which is positive. -/
theorem cN_pos : (0 : EReal) < cN := by
  unfold cN
  rw [Cert.LibReal.ofBits_100000]
  exact_mod_cast (by norm_num : (0 : ℝ) < 100000)

/-- The column mean as the main program spells it. -/
def meanTerm (x : FVec Ideal S100000x128 .f32) : FVec Ideal S128 .f32 :=
  Host.divf (Host.reduceAdd x (constant (F := Ideal) S_ .f32 0x00000000#32) reducesTo_S100000x128_S128_d0 h_S_)
    (broadcastInDim S128 ![] bcast_S_S128 (constant (F := Ideal) S_ .f32 0x47C35000#32))

theorem meanTerm_apply (x : FVec Ideal S100000x128 .f32) (j : Fin 128) :
    meanTerm x (ix1 j) = meanR (toMat x) j := by
  unfold meanTerm
  rw [hostDivf_apply, colSum_apply, broadcastInDim_scalar_apply, constant_apply]
  rfl

/-- The column mean inside the variance function: a one-row matrix. -/
def varMean (x : FVec Ideal S100000x128 .f32) : FVec Ideal S1x128 .f32 :=
  Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))

theorem varMean_apply (x : FVec Ideal S100000x128 .f32) (j : Fin 128) :
    varMean x (ix2 (0 : Fin 1) j) = meanR (toMat x) j := by
  unfold varMean
  rw [hostDivf_apply, broadcastInDim_apply _ bcast_S128_S1x128_1 _ _ (ix1 j) (fun a => by
      match a with
      | ⟨0, _⟩ => rfl),
    colSum_apply, broadcastInDim_scalar_apply, constant_apply]
  rfl

/-- The deviations from the column mean. -/
def varDev (x : FVec Ideal S100000x128 .f32) : FVec Ideal S100000x128 .f32 :=
  subf x (broadcastInDim S100000x128 ![0, 1] bcast_S1x128_S100000x128_0_1 (varMean x))

theorem varDev_apply (x : FVec Ideal S100000x128 .f32) (n : Fin 100000) (j : Fin 128) :
    varDev x (ix2 n j) = x (ix2 n j) - meanR (toMat x) j := by
  unfold varDev
  rw [subf_apply, broadcastInDim_apply _ bcast_S1x128_S100000x128_0_1 _ _ (ix2 (0 : Fin 1) j) (fun a => by
      match a with
      | ⟨0, _⟩ => rfl
      | ⟨1, _⟩ => rfl),
    varMean_apply]

/-- The divisor: the node count minus the correction, which is the integer zero. -/
def varDen : FVec Ideal S_ .f32 :=
  subf (constant (F := Ideal) S_ .f32 0x47C35000#32) (sitofp .f32 (constantI S_ 32 0#32))

theorem varDen_apply : varDen ix0 = cN := by
  unfold varDen
  rw [subf_apply, constant_apply, sitofp_apply, constantI_apply]
  show Ideal.ofBits .f32 0x47C35000#32 - (((0#32 : BitVec 32).toInt : ℝ) : EReal) = cN
  rw [BitVec.toInt_zero, Int.cast_zero, EReal.coe_zero, sub_zero]
  rfl

/-- The variance function's body as one term of its argument. -/
def varTerm (x : FVec Ideal S100000x128 .f32) : FVec Ideal S128 .f32 :=
  select
    (broadcastInDim S128 ![] bcast_S_S128 (cmpf .ogt varDen (constant (F := Ideal) S_ .f32 0x00000000#32)))
    (Host.divf
      (Host.reduceAdd (mulf (varDev x) (varDev x)) (constant (F := Ideal) S_ .f32 0x00000000#32)
        reducesTo_S100000x128_S128_d0 h_S_)
      (broadcastInDim S128 ![] bcast_S_S128 varDen))
    (broadcastInDim S128 ![] bcast_S_S128 (id (constant (F := Ideal) S_ .f32 0x7FC00000#32)))

/-- At a column it is the mean of the squared deviations: the divisor is positive, so the guard holds and the
    not-a-number word is never read. -/
theorem varTerm_apply (x : FVec Ideal S100000x128 .f32) (j : Fin 128) :
    varTerm x (ix1 j) = varR (toMat x) j := by
  have hp : (cmpf .ogt varDen (constant (F := Ideal) S_ .f32 0x00000000#32)) ix0 = 1#1 := by
    rw [cmpf_apply, varDen_apply, constant_apply, Ideal.ofBits_zero_f32, Ideal.cmpf_def]
    show BitVec.ofBool (decide ((0 : EReal) < cN)) = 1#1
    rw [decide_eq_true cN_pos]
    rfl
  unfold varTerm
  rw [select_apply, broadcastInDim_scalar_apply, hp, select_one, hostDivf_apply, colSum_apply,
    broadcastInDim_scalar_apply, varDen_apply]
  simp only [mulf_apply, varDev_apply]
  rfl

/-- One row of a four-row parameter table as a vector: the slice of that row, with its unit axis dropped. -/
def rowTerm (p : FVec Ideal S4x128 .f32) {o : ℕ} (h : S4x128.Slices ![o, 0] S1x128) : FVec Ideal S128 .f32 :=
  shapeCast S128 (extractStridedSlice S1x128 ![o, 0] p h) shapeCasts_S1x128_S128

theorem rowTerm_apply (p : FVec Ideal S4x128 .f32) {o : ℕ} (h : S4x128.Slices ![o, 0] S1x128) (r : Fin 4)
    (hr : r.val = o) (j : Fin 128) : rowTerm p h (ix1 j) = p (ix2 r j) := by
  unfold rowTerm
  rw [shapeCast_1a_a_apply, slice2_axis0_apply o p h (0 : Fin 1) j r (by rw [hr]; rfl)]

/-! ## Segment C: the statistics of main_v231 -/

section C
variable (V : Valuation τ sig (Elt Ideal))

theorem v30_eq : (after opsL2C V (Proc.devRef .tc main_v238) : S128.Idx → EReal)
    = meanTerm (V (Proc.devRef .tc main_v231)) := by
  after_results_simp
  rfl

theorem v31_eq : (after opsL2C V (Proc.devRef .tc main_v239) : S128.Idx → EReal)
    = varTerm (V (Proc.devRef .tc main_v231)) := by
  after_results_simp
  simp only [TRef.ofBuf, TRef.toBuf, cast_eq]
  rfl

theorem v25_eq : (after opsL2C V (Proc.devRef .tc main_v233) : S128.Idx → EReal)
    = rowTerm (V (Proc.devRef .tc main_arg10)) slices_S4x128_S1x128_2_0 := by
  after_results_simp
  rfl

theorem v27_eq : (after opsL2C V (Proc.devRef .tc main_v235) : S128.Idx → EReal)
    = rowTerm (V (Proc.devRef .tc main_arg11)) slices_S4x128_S1x128_2_0 := by
  after_results_simp
  rfl

theorem meanC : toRow1 (after opsL2C V (Proc.devRef .tc main_v238)) = meanR (toMat (V (Proc.devRef .tc main_v231))) := by
  funext j
  show (after opsL2C V (Proc.devRef .tc main_v238) : S128.Idx → EReal) (ix1 j) = _
  rw [v30_eq, meanTerm_apply]

theorem varC : toRow1 (after opsL2C V (Proc.devRef .tc main_v239)) = varR (toMat (V (Proc.devRef .tc main_v231))) := by
  funext j
  show (after opsL2C V (Proc.devRef .tc main_v239) : S128.Idx → EReal) (ix1 j) = _
  rw [v31_eq, varTerm_apply]

theorem gC : toRow1 (after opsL2C V (Proc.devRef .tc main_v233))
    = fun j => V (Proc.devRef .tc main_arg10) (ix2 (2 : Fin 4) j) := by
  funext j
  show (after opsL2C V (Proc.devRef .tc main_v233) : S128.Idx → EReal) (ix1 j) = _
  rw [v25_eq]
  exact rowTerm_apply _ slices_S4x128_S1x128_2_0 (2 : Fin 4) rfl j

theorem beC : toRow1 (after opsL2C V (Proc.devRef .tc main_v235))
    = fun j => V (Proc.devRef .tc main_arg11) (ix2 (2 : Fin 4) j) := by
  funext j
  show (after opsL2C V (Proc.devRef .tc main_v235) : S128.Idx → EReal) (ix1 j) = _
  rw [v27_eq]
  exact rowTerm_apply _ slices_S4x128_S1x128_2_0 (2 : Fin 4) rfl j

end C

/-! ## Segment F: the statistics of main_v263 -/

section F
variable (V : Valuation τ sig (Elt Ideal))

theorem v62_eq : (after opsL2F V (Proc.devRef .tc main_v270) : S128.Idx → EReal)
    = meanTerm (V (Proc.devRef .tc main_v263)) := by
  after_results_simp
  rfl

theorem v63_eq : (after opsL2F V (Proc.devRef .tc main_v271) : S128.Idx → EReal)
    = varTerm (V (Proc.devRef .tc main_v263)) := by
  after_results_simp
  simp only [TRef.ofBuf, TRef.toBuf, cast_eq]
  rfl

theorem v57_eq : (after opsL2F V (Proc.devRef .tc main_v265) : S128.Idx → EReal)
    = rowTerm (V (Proc.devRef .tc main_arg12)) slices_S4x128_S1x128_2_0 := by
  after_results_simp
  rfl

theorem v59_eq : (after opsL2F V (Proc.devRef .tc main_v267) : S128.Idx → EReal)
    = rowTerm (V (Proc.devRef .tc main_arg13)) slices_S4x128_S1x128_2_0 := by
  after_results_simp
  rfl

theorem meanF : toRow1 (after opsL2F V (Proc.devRef .tc main_v270)) = meanR (toMat (V (Proc.devRef .tc main_v263))) := by
  funext j
  show (after opsL2F V (Proc.devRef .tc main_v270) : S128.Idx → EReal) (ix1 j) = _
  rw [v62_eq, meanTerm_apply]

theorem varF : toRow1 (after opsL2F V (Proc.devRef .tc main_v271)) = varR (toMat (V (Proc.devRef .tc main_v263))) := by
  funext j
  show (after opsL2F V (Proc.devRef .tc main_v271) : S128.Idx → EReal) (ix1 j) = _
  rw [v63_eq, varTerm_apply]

theorem gF : toRow1 (after opsL2F V (Proc.devRef .tc main_v265))
    = fun j => V (Proc.devRef .tc main_arg12) (ix2 (2 : Fin 4) j) := by
  funext j
  show (after opsL2F V (Proc.devRef .tc main_v265) : S128.Idx → EReal) (ix1 j) = _
  rw [v57_eq]
  exact rowTerm_apply _ slices_S4x128_S1x128_2_0 (2 : Fin 4) rfl j

theorem beF : toRow1 (after opsL2F V (Proc.devRef .tc main_v267))
    = fun j => V (Proc.devRef .tc main_arg13) (ix2 (2 : Fin 4) j) := by
  funext j
  show (after opsL2F V (Proc.devRef .tc main_v267) : S128.Idx → EReal) (ix1 j) = _
  rw [v59_eq]
  exact rowTerm_apply _ slices_S4x128_S1x128_2_0 (2 : Fin 4) rfl j

end F

/-! ## Segment H: the statistics of main_v287 -/

section H
variable (V : Valuation τ sig (Elt Ideal))

theorem v86_eq : (after opsL2H V (Proc.devRef .tc main_v294) : S128.Idx → EReal)
    = meanTerm (V (Proc.devRef .tc main_v287)) := by
  after_results_simp
  rfl

theorem v87_eq : (after opsL2H V (Proc.devRef .tc main_v295) : S128.Idx → EReal)
    = varTerm (V (Proc.devRef .tc main_v287)) := by
  after_results_simp
  simp only [TRef.ofBuf, TRef.toBuf, cast_eq]
  rfl

theorem v81_eq : (after opsL2H V (Proc.devRef .tc main_v289) : S128.Idx → EReal)
    = rowTerm (V (Proc.devRef .tc main_arg14)) slices_S4x128_S1x128_2_0 := by
  after_results_simp
  rfl

theorem v83_eq : (after opsL2H V (Proc.devRef .tc main_v291) : S128.Idx → EReal)
    = rowTerm (V (Proc.devRef .tc main_arg15)) slices_S4x128_S1x128_2_0 := by
  after_results_simp
  rfl

theorem meanH : toRow1 (after opsL2H V (Proc.devRef .tc main_v294)) = meanR (toMat (V (Proc.devRef .tc main_v287))) := by
  funext j
  show (after opsL2H V (Proc.devRef .tc main_v294) : S128.Idx → EReal) (ix1 j) = _
  rw [v86_eq, meanTerm_apply]

theorem varH : toRow1 (after opsL2H V (Proc.devRef .tc main_v295)) = varR (toMat (V (Proc.devRef .tc main_v287))) := by
  funext j
  show (after opsL2H V (Proc.devRef .tc main_v295) : S128.Idx → EReal) (ix1 j) = _
  rw [v87_eq, varTerm_apply]

theorem gH : toRow1 (after opsL2H V (Proc.devRef .tc main_v289))
    = fun j => V (Proc.devRef .tc main_arg14) (ix2 (2 : Fin 4) j) := by
  funext j
  show (after opsL2H V (Proc.devRef .tc main_v289) : S128.Idx → EReal) (ix1 j) = _
  rw [v81_eq]
  exact rowTerm_apply _ slices_S4x128_S1x128_2_0 (2 : Fin 4) rfl j

theorem beH : toRow1 (after opsL2H V (Proc.devRef .tc main_v291))
    = fun j => V (Proc.devRef .tc main_arg15) (ix2 (2 : Fin 4) j) := by
  funext j
  show (after opsL2H V (Proc.devRef .tc main_v291) : S128.Idx → EReal) (ix1 j) = _
  rw [v83_eq]
  exact rowTerm_apply _ slices_S4x128_S1x128_2_0 (2 : Fin 4) rfl j

end H

end Cert.RefStatsL2

end
-- ==== Proof.RefNormL2.lean ====
/-
  The reference's normalisations, read for an arbitrary valuation.

  Each layer of the reference normalises three matrices of 100000 rows and 128 columns. A normalisation takes the
  matrix, its column mean and its column variance (both computed before it), and two parameter rows; it subtracts
  the mean from every row, multiplies by the reciprocal square root of the variance plus a small constant, multiplies
  by the first parameter row, adds the second, and clamps below at zero (an outlined function: the maximum with a
  broadcast zero). Every row operand is spelled as a broadcast of 128 entries to one row and then to all rows, so the
  value at entry (n, j) reads each row operand at j: it is

      max ((x n j - mu j) * rsqrt (var j + eps) * g j + be j) 0.

  Each statement is about the fold of a segment of the reference's operations over an arbitrary valuation, and
  speaks of the valuation's entries at the segment's operands only.
-/
import proofs.«412161_j3753801416792_2_alg».proof.Proof.Gen.ReferenceIdeal
import proofs.«412161_j3753801416792_2_alg».proof.Proof.RefRun
import proofs.«412161_j3753801416792_2_alg».proof.Proof.Conv
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

noncomputable section

namespace Cert.RefNormL2

open Cert.ReferenceIdeal Cert.ReferenceIdeal.RefRun Cert.Spec Cert.Conv Idealize.ShloMosaic Idealize.ShloMosaic.ValueIdx Idealize.ShloMosaic.StableHlo

/-! ## Normalise, scale, shift, clamp -/

/-- A row broadcast to one row and then down all rows reads the row's entry in the column. -/
theorem rowBcast_apply {α : Type} (X : S128.Idx → α) (n : Fin 100000) (j : Fin 128) :
    broadcastInDim S100000x128 ![0, 1] Gen.bcast_S1x128_S100000x128_0_1
      (broadcastInDim S1x128 ![1] Gen.bcast_S128_S1x128_1 X) (ix2 n j) = X (ix1 j) := by
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The host's reciprocal square root at an index is the extended reals' reciprocal square root of the entry. -/
theorem hostRsqrt_apply {s : Shape} {φ : FTy} (x : FVec Ideal s φ) (i : s.Idx) :
    Host.rsqrt x i = Ideal.rsqrt (x i) := rfl

set_option maxHeartbeats 4000000 in
/-- The first normalisation of the layer: the first affine map's output minus its column mean, times the
    reciprocal square root of its column variance plus the offset, scaled, shifted, clamped below at zero. -/
theorem normD (V : Valuation τ sig (Elt Ideal)) :
    toMat (after opsL2D V (Proc.devRef .tc main_v255))
      = bnRelu (toMat (V (Proc.devRef .tc main_v231))) (toRow1 (V (Proc.devRef .tc main_v238)))
          (toRow1 (V (Proc.devRef .tc main_v239))) (toRow1 (V (Proc.devRef .tc main_v233)))
          (toRow1 (V (Proc.devRef .tc main_v235))) := by
  funext n j
  unfold toMat bnRelu toRow1
  dsimp only [opsL2D]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The second normalisation of the layer, of the second affine map's output, by its own column statistics and
    its own scale and shift rows. -/
theorem normG (V : Valuation τ sig (Elt Ideal)) :
    toMat (after opsL2G V (Proc.devRef .tc main_v287))
      = bnRelu (toMat (V (Proc.devRef .tc main_v263))) (toRow1 (V (Proc.devRef .tc main_v270)))
          (toRow1 (V (Proc.devRef .tc main_v271))) (toRow1 (V (Proc.devRef .tc main_v265)))
          (toRow1 (V (Proc.devRef .tc main_v267))) := by
  funext n j
  unfold toMat bnRelu toRow1
  dsimp only [opsL2G]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The third normalisation of the layer, of the second normalisation's output: the layer's output. -/
theorem normI (V : Valuation τ sig (Elt Ideal)) :
    toMat (after opsL2I V (Proc.devRef .tc main_v311))
      = bnRelu (toMat (V (Proc.devRef .tc main_v287))) (toRow1 (V (Proc.devRef .tc main_v294)))
          (toRow1 (V (Proc.devRef .tc main_v295))) (toRow1 (V (Proc.devRef .tc main_v289)))
          (toRow1 (V (Proc.devRef .tc main_v291))) := by
  funext n j
  unfold toMat bnRelu toRow1
  dsimp only [opsL2I]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

end Cert.RefNormL2

end
-- ==== Proof.RefChain2.lean ====
/-
  The reference's run of one layer, assembled: the nine segments of the layer's straight line are read one after the
  other, each by its own lemma at the contents the previous segments left, and every operand a segment reads that an
  earlier segment did not write (the features, the edge lists, the stacked parameters; a value an earlier segment
  named) is carried across by the fact that a segment leaves the buffers it does not write alone. The result is the
  specification's layer at the launch contents.
-/
import proofs.«412161_j3753801416792_2_alg».proof.Proof.Gen.ReferenceIdeal
import proofs.«412161_j3753801416792_2_alg».proof.Proof.Spec
import proofs.«412161_j3753801416792_2_alg».proof.Proof.Conv
import proofs.«412161_j3753801416792_2_alg».proof.Proof.Agg
import proofs.«412161_j3753801416792_2_alg».proof.Proof.RefRun
import proofs.«412161_j3753801416792_2_alg».proof.Proof.RefKeep
import proofs.«412161_j3753801416792_2_alg».proof.Proof.RefAffineL2
import proofs.«412161_j3753801416792_2_alg».proof.Proof.RefStatsL2
import proofs.«412161_j3753801416792_2_alg».proof.Proof.RefNormL2
import proofs.«412161_j3753801416792_2_alg».proof.Proof.RefArgs
import Idealize.ShloMosaic.Lib.StableHlo.Run
import Idealize.ShloMosaic.Lib.ValueIdx

noncomputable section

namespace Cert.RefChain2

open Cert.ReferenceIdeal Cert.ReferenceIdeal.RefRun Cert.ReferenceIdeal.RefKeep Cert.RefAffineL2 Cert.RefStatsL2 Cert.RefNormL2
  Cert.Spec Cert.Conv Idealize.ShloMosaic Idealize.ShloMosaic.ValueIdx Idealize.ShloMosaic.StableHlo

/-- The layer's parameters as the reference reads them: this layer's row of each stacked parameter array. -/
abbrev P (V : Valuation τ sig (Elt Ideal)) : Params := Cert.RefArgs.P V (2 : Fin 4)

variable (V : Valuation τ sig (Elt Ideal))

/-! ### The contents after each of the layer's nine segments -/

/-- After the aggregate. -/
abbrev UA : Valuation τ sig (Elt Ideal) := after opsL2A V
/-- After the first affine map. -/
abbrev UB : Valuation τ sig (Elt Ideal) := after opsL2B (UA V)
/-- After the first statistics. -/
abbrev UC : Valuation τ sig (Elt Ideal) := after opsL2C (UB V)
/-- After the first normalisation. -/
abbrev UD : Valuation τ sig (Elt Ideal) := after opsL2D (UC V)
/-- After the second affine map. -/
abbrev UE : Valuation τ sig (Elt Ideal) := after opsL2E (UD V)
/-- After the second statistics. -/
abbrev UF : Valuation τ sig (Elt Ideal) := after opsL2F (UE V)
/-- After the second normalisation. -/
abbrev UG : Valuation τ sig (Elt Ideal) := after opsL2G (UF V)
/-- After the third statistics. -/
abbrev UH : Valuation τ sig (Elt Ideal) := after opsL2H (UG V)
/-- After the third normalisation: the layer's end. -/
abbrev UI : Valuation τ sig (Elt Ideal) := after opsL2I (UH V)

/-- The layer's fold ends at the last of these. -/
theorem after_eq_UI : after opsL2 V = UI V := after_opsL2 V

/-! ### A buffer no segment so far writes still holds the launch contents -/

theorem keptA (b : Ref sig .tc) (hA : b ∉ writtenL2A) : UA V (Proc.devRef .tc b) = V (Proc.devRef .tc b) :=
  keepL2A V b hA
theorem keptB (b : Ref sig .tc) (hA : b ∉ writtenL2A) (hB : b ∉ writtenL2B) :
    UB V (Proc.devRef .tc b) = V (Proc.devRef .tc b) :=
  (keepL2B (UA V) b hB).trans (keptA V b hA)
theorem keptC (b : Ref sig .tc) (hA : b ∉ writtenL2A) (hB : b ∉ writtenL2B) (hC : b ∉ writtenL2C) :
    UC V (Proc.devRef .tc b) = V (Proc.devRef .tc b) :=
  (keepL2C (UB V) b hC).trans (keptB V b hA hB)
theorem keptD (b : Ref sig .tc) (hA : b ∉ writtenL2A) (hB : b ∉ writtenL2B) (hC : b ∉ writtenL2C)
    (hD : b ∉ writtenL2D) : UD V (Proc.devRef .tc b) = V (Proc.devRef .tc b) :=
  (keepL2D (UC V) b hD).trans (keptC V b hA hB hC)
theorem keptE (b : Ref sig .tc) (hA : b ∉ writtenL2A) (hB : b ∉ writtenL2B) (hC : b ∉ writtenL2C)
    (hD : b ∉ writtenL2D) (hE : b ∉ writtenL2E) : UE V (Proc.devRef .tc b) = V (Proc.devRef .tc b) :=
  (keepL2E (UD V) b hE).trans (keptD V b hA hB hC hD)
theorem keptF (b : Ref sig .tc) (hA : b ∉ writtenL2A) (hB : b ∉ writtenL2B) (hC : b ∉ writtenL2C)
    (hD : b ∉ writtenL2D) (hE : b ∉ writtenL2E) (hF : b ∉ writtenL2F) :
    UF V (Proc.devRef .tc b) = V (Proc.devRef .tc b) :=
  (keepL2F (UE V) b hF).trans (keptE V b hA hB hC hD hE)
theorem keptG (b : Ref sig .tc) (hA : b ∉ writtenL2A) (hB : b ∉ writtenL2B) (hC : b ∉ writtenL2C)
    (hD : b ∉ writtenL2D) (hE : b ∉ writtenL2E) (hF : b ∉ writtenL2F) (hG : b ∉ writtenL2G) :
    UG V (Proc.devRef .tc b) = V (Proc.devRef .tc b) :=
  (keepL2G (UF V) b hG).trans (keptF V b hA hB hC hD hE hF)

/-! ### The values the layer names, one segment at a time -/

section
variable [Cert.KernelIdeal.Facts₀]

/-- The aggregate. -/
theorem e9 : UA V (Proc.devRef .tc main_v217)
    = Cert.Agg.aggT (V (Proc.devRef .tc main_v207)) (V (Proc.devRef .tc main_arg2)) (V (Proc.devRef .tc main_arg3)) :=
  aggA V

/-- The first affine map's value. -/
theorem e23 : toMat (UB V (Proc.devRef .tc main_v231))
    = lin1R (P V) (toMat (V (Proc.devRef .tc main_v207)))
        (toMat (Cert.Agg.aggT (V (Proc.devRef .tc main_v207)) (V (Proc.devRef .tc main_arg2)) (V (Proc.devRef .tc main_arg3)))) := by
  have h := linB (UA V)
  rw [keptA V main_arg5 (by decide), keptA V main_v207 (by decide), keptA V main_arg6 (by decide),
    keptA V main_arg7 (by decide), e9 V] at h
  exact h

end

/-- The first normalisation's mean. -/
theorem e30 : toRow1 (UC V (Proc.devRef .tc main_v238)) = meanR (toMat (UB V (Proc.devRef .tc main_v231))) := meanC (UB V)
/-- The first normalisation's variance. -/
theorem e31 : toRow1 (UC V (Proc.devRef .tc main_v239)) = varR (toMat (UB V (Proc.devRef .tc main_v231))) := varC (UB V)
/-- The first normalisation's scale row. -/
theorem e25 : toRow1 (UC V (Proc.devRef .tc main_v233)) = (P V).g1 := by
  have h := gC (UB V)
  rw [keptB V main_arg10 (by decide) (by decide)] at h
  exact h
/-- The first normalisation's shift row. -/
theorem e27 : toRow1 (UC V (Proc.devRef .tc main_v235)) = (P V).be1 := by
  have h := beC (UB V)
  rw [keptB V main_arg11 (by decide) (by decide)] at h
  exact h

/-- The first normalised value. -/
theorem e47 : toMat (UD V (Proc.devRef .tc main_v255)) = z1R (P V) (toMat (UB V (Proc.devRef .tc main_v231))) := by
  have k : UC V (Proc.devRef .tc main_v231) = UB V (Proc.devRef .tc main_v231) := keepL2C (UB V) main_v231 (by decide)
  have h := normD (UC V)
  rw [k, e30 V, e31 V, e25 V, e27 V] at h
  exact h

/-- The second affine map's value. -/
theorem e55 : toMat (UE V (Proc.devRef .tc main_v263)) = lin2 (P V) (toMat (UD V (Proc.devRef .tc main_v255))) := by
  have h := linE (UD V)
  rw [keptD V main_arg8 (by decide) (by decide) (by decide) (by decide), keptD V main_arg9 (by decide) (by decide) (by decide) (by decide)] at h
  exact h

/-- The second normalisation's mean. -/
theorem e62 : toRow1 (UF V (Proc.devRef .tc main_v270)) = meanR (toMat (UE V (Proc.devRef .tc main_v263))) := meanF (UE V)
/-- The second normalisation's variance. -/
theorem e63 : toRow1 (UF V (Proc.devRef .tc main_v271)) = varR (toMat (UE V (Proc.devRef .tc main_v263))) := varF (UE V)
/-- The second normalisation's scale row. -/
theorem e57 : toRow1 (UF V (Proc.devRef .tc main_v265)) = (P V).g2 := by
  have h := gF (UE V)
  rw [keptE V main_arg12 (by decide) (by decide) (by decide) (by decide) (by decide)] at h
  exact h
/-- The second normalisation's shift row. -/
theorem e59 : toRow1 (UF V (Proc.devRef .tc main_v267)) = (P V).be2 := by
  have h := beF (UE V)
  rw [keptE V main_arg13 (by decide) (by decide) (by decide) (by decide) (by decide)] at h
  exact h

/-- The second normalised value. -/
theorem e79 : toMat (UG V (Proc.devRef .tc main_v287)) = z2R (P V) (toMat (UE V (Proc.devRef .tc main_v263))) := by
  have k : UF V (Proc.devRef .tc main_v263) = UE V (Proc.devRef .tc main_v263) := keepL2F (UE V) main_v263 (by decide)
  have h := normG (UF V)
  rw [k, e62 V, e63 V, e57 V, e59 V] at h
  exact h

/-- The third normalisation's mean. -/
theorem e86 : toRow1 (UH V (Proc.devRef .tc main_v294)) = meanR (toMat (UG V (Proc.devRef .tc main_v287))) := meanH (UG V)
/-- The third normalisation's variance. -/
theorem e87 : toRow1 (UH V (Proc.devRef .tc main_v295)) = varR (toMat (UG V (Proc.devRef .tc main_v287))) := varH (UG V)
/-- The third normalisation's scale row. -/
theorem e81 : toRow1 (UH V (Proc.devRef .tc main_v289)) = (P V).g3 := by
  have h := gH (UG V)
  rw [keptG V main_arg14 (by decide) (by decide) (by decide) (by decide) (by decide) (by decide) (by decide)] at h
  exact h
/-- The third normalisation's shift row. -/
theorem e83 : toRow1 (UH V (Proc.devRef .tc main_v291)) = (P V).be3 := by
  have h := beH (UG V)
  rw [keptG V main_arg15 (by decide) (by decide) (by decide) (by decide) (by decide) (by decide) (by decide)] at h
  exact h

/-- The layer's output. -/
theorem e103 : toMat (UI V (Proc.devRef .tc main_v311)) = outR (P V) (toMat (UG V (Proc.devRef .tc main_v287))) := by
  have k : UH V (Proc.devRef .tc main_v287) = UG V (Proc.devRef .tc main_v287) := keepL2H (UG V) main_v287 (by decide)
  have h := normI (UH V)
  rw [k, e86 V, e87 V, e81 V, e83 V] at h
  exact h

/-- THE LAYER: the reference's output of this layer is the specification's layer at the contents, before the
    layer, of the features, the edge lists and this layer's row of the parameters. -/
theorem layer [Cert.KernelIdeal.Facts₀] :
    toMat (after opsL2 V (Proc.devRef .tc main_v311))
      = layerR (P V) (toMat (V (Proc.devRef .tc main_v207)))
          (toMat (Cert.Agg.aggT (V (Proc.devRef .tc main_v207)) (V (Proc.devRef .tc main_arg2)) (V (Proc.devRef .tc main_arg3)))) := by
  rw [after_eq_UI, e103, e79, e55, e47, e23]
  rfl

end Cert.RefChain2

end
-- ==== Proof.RefAffineL3.lean ====
/-
  The reference's edge aggregate and its two affine maps in layer 3, read for arbitrary contents of the buffers
  they read.

  * The aggregate: the rows of the features gathered along the edges' sources and added at their targets. It is
    the same composition of the same operations as the shared aggregation function, so the two are equal as
    they stand.
  * The first affine map: ((1 + eps) h + agg) W1 + b1, where eps, W1 and b1 are entry 3, matrix 3 and row 3 of
    their stacks: at (n, j) the sum over k of ((1 + eps) h(n, k) + agg(n, k)) W1(k, j), plus b1(j).
  * The second affine map: z W2 + b2 likewise.

  Each layout operation is read at an index: a slice shifts by its offsets, a reshape keeps the row-major
  position, a broadcast reads the operand at the coordinates it names; the matrix product at (n, j) is the sum
  over the contracted coordinate. The large operands stay variables throughout, and the program's buffers enter
  only in the three final statements.
-/
import proofs.«412161_j3753801416792_2_alg».proof.Proof.Gen.ReferenceIdeal
import Idealize.ShloMosaic.Lib.StableHlo.Run
import proofs.«412161_j3753801416792_2_alg».proof.Proof.RefRun
import proofs.«412161_j3753801416792_2_alg».proof.Proof.Conv
import proofs.«412161_j3753801416792_2_alg».proof.Proof.Agg
import Idealize.ShloMosaic.Lib.StackMember
import Idealize.ShloMosaic.Lib.Pipeline.Value
import Idealize.ShloMosaic.Lib.ValueIdx
import Idealize.ShloMosaic.PureOps.Ideal.Laws

noncomputable section

namespace Cert.RefAffineL3

open Cert.ReferenceIdeal Cert.ReferenceIdeal.RefRun Cert.Spec Cert.Conv Idealize.ShloMosaic Idealize.ShloMosaic.ValueIdx Idealize.ShloMosaic.StableHlo

/-- The scalar (1 + eps), broadcast: at every index the word of one plus entry `l` of the vector of eps. -/
theorem scale_apply (l : Fin 4) (e : FVec Ideal S4 .f32) {off : Fin S4.rank → ℕ} (hoff : off 0 = l.val)
    {hs : S4.Slices off S1} {hc : S1.ShapeCasts S_} {hb : S_.BroadcastsInDim S100000x128 ![]} (i : S100000x128.Idx) :
    broadcastInDim S100000x128 ![] hb
      (addf (constant (F := Ideal) S_ .f32 0x3F800000#32) (shapeCast S_ (extractStridedSlice S1 off e hs) hc)) i
      = Ideal.ofBits .f32 0x3F800000#32 + e (ix1 l) := by
  rw [broadcastInDim_apply _ hb _ i (fun a => a.elim0) (fun a => a.elim0)]
  rw [addf_apply, constant_apply]
  congr 1
  rw [shapeCast_apply _ hc _ (ix1 (0 : Fin 1)) (by decide)]
  exact extractStridedSlice_apply off e hs _ (ix1 l) (fun a => by
    match a with
    | ⟨0, _⟩ => show l.val = off 0 + 0; omega)

/-- Matrix `l` of a stack of four 128 by 128 matrices, as a matrix: its (k, j) entry. -/
theorem weight_apply (l : Fin 4) (W : FVec Ideal S4x128x128 .f32) {off : Fin S4x128x128.rank → ℕ}
    (hoff0 : off 0 = l.val) (hoff1 : off 1 = 0) (hoff2 : off 2 = 0)
    {hs : S4x128x128.Slices off S1x128x128} {hc : S1x128x128.ShapeCasts S128x128} (k j : Fin 128) :
    shapeCast S128x128 (extractStridedSlice S1x128x128 off W hs) hc (ix2 k j) = W (ix3 l k j) := by
  rw [shapeCast_apply _ hc _ (ix3 (0 : Fin 1) k j) (by
    rw [Shape.rowMajor_val_three, Shape.rowMajor_val_two]
    show (0 * 128 + k.val) * 128 + j.val = k.val * 128 + j.val
    omega)]
  exact extractStridedSlice_apply off W hs _ (ix3 l k j) (fun a => by
    match a with
    | ⟨0, _⟩ => show l.val = off 0 + 0; omega
    | ⟨1, _⟩ => show k.val = off 1 + k.val; omega
    | ⟨2, _⟩ => show j.val = off 2 + j.val; omega)

/-- Row `l` of a stack of four rows of 128, broadcast down the 100000 rows: its (n, j) entry. -/
theorem bias_apply (l : Fin 4) (b : FVec Ideal S4x128 .f32) {off : Fin S4x128.rank → ℕ}
    (hoff0 : off 0 = l.val) (hoff1 : off 1 = 0)
    {hs : S4x128.Slices off S1x128} {hc : S1x128.ShapeCasts S128} {hb1 : S128.BroadcastsInDim S1x128 ![1]}
    {hb2 : S1x128.BroadcastsInDim S100000x128 ![0, 1]} (n : Fin 100000) (j : Fin 128) :
    broadcastInDim S100000x128 ![0, 1] hb2
      (broadcastInDim S1x128 ![1] hb1 (shapeCast S128 (extractStridedSlice S1x128 off b hs) hc)) (ix2 n j)
      = b (ix2 l j) := by
  rw [broadcastInDim_apply _ hb2 _ (ix2 n j) (ix2 (0 : Fin 1) j) (fun a => by
    match a with
    | ⟨0, _⟩ => rfl
    | ⟨1, _⟩ => rfl)]
  rw [broadcastInDim_apply _ hb1 _ (ix2 (0 : Fin 1) j) (ix1 j) (fun a => by
    match a with
    | ⟨0, _⟩ => rfl)]
  rw [shapeCast_apply _ hc _ (ix2 (0 : Fin 1) j) (by
    rw [Shape.rowMajor_val_two, Shape.rowMajor_val_one]
    show 0 * 128 + j.val = j.val
    omega)]
  exact extractStridedSlice_apply off b hs _ (ix2 l j) (fun a => by
    match a with
    | ⟨0, _⟩ => show l.val = off 0 + 0; omega
    | ⟨1, _⟩ => show j.val = off 1 + j.val; omega)

/-- The product of a 100000 by 128 matrix with a 128 by 128 matrix, contracting columns against rows: its (n, j)
    entry is the sum over k of the products of the (n, k) and (k, j) entries. -/
theorem dot_apply {d : DotDims S100000x128 S128x128 S100000x128} (hd : d = DotDims.plain 100000 128 128)
    (x : FVec Ideal S100000x128 .f32) (w : FVec Ideal S128x128 .f32) (n : Fin 100000) (j : Fin 128) :
    Host.dotGeneral (F := Ideal) d none x w (ix2 n j) = ∑ k : Fin 128, x (ix2 n k) * w (ix2 k j) := by
  subst hd
  exact StackMember.dotGeneral_plain_apply none x w n j

set_option maxHeartbeats 400000 in
/-- The first affine map of a layer, read as a matrix: ((1 + eps) h + agg) W + b, with eps, W, b entry, matrix and
    row `l` of their stacks. -/
theorem linB_aux (l : Fin 4) (e : FVec Ideal S4 .f32) (h agg : FVec Ideal S100000x128 .f32)
    (W : FVec Ideal S4x128x128 .f32) (b : FVec Ideal S4x128 .f32)
    {off5 : Fin S4.rank → ℕ} {off6 : Fin S4x128x128.rank → ℕ} {off7 : Fin S4x128.rank → ℕ}
    (h5 : off5 0 = l.val) (h60 : off6 0 = l.val) (h61 : off6 1 = 0) (h62 : off6 2 = 0)
    (h70 : off7 0 = l.val) (h71 : off7 1 = 0)
    {hs5 : S4.Slices off5 S1} {hc5 : S1.ShapeCasts S_} {hb5 : S_.BroadcastsInDim S100000x128 ![]}
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none
          (addf (mulf (broadcastInDim S100000x128 ![] hb5
              (addf (constant (F := Ideal) S_ .f32 0x3F800000#32) (shapeCast S_ (extractStridedSlice S1 off5 e hs5) hc5))) h) agg)
          (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (fun n k => (Ideal.ofBits .f32 0x3F800000#32 + e (ix1 l)) * toMat h n k + toMat agg n k)
          (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62, addf_apply, mulf_apply, scale_apply l e h5]

set_option maxHeartbeats 400000 in
/-- The second affine map of a layer, read as a matrix: z W + b, with W, b matrix and row `l` of their stacks. -/
theorem linE_aux (l : Fin 4) (z : FVec Ideal S100000x128 .f32)
    (W : FVec Ideal S4x128x128 .f32) (b : FVec Ideal S4x128 .f32)
    {off6 : Fin S4x128x128.rank → ℕ} {off7 : Fin S4x128.rank → ℕ}
    (h60 : off6 0 = l.val) (h61 : off6 1 = 0) (h62 : off6 2 = 0) (h70 : off7 0 = l.val) (h71 : off7 1 = 0)
    {hs6 : S4x128x128.Slices off6 S1x128x128} {hc6 : S1x128x128.ShapeCasts S128x128}
    {d : DotDims S100000x128 S128x128 S100000x128} (hd : d = DotDims.plain 100000 128 128)
    {hs7 : S4x128.Slices off7 S1x128} {hc7 : S1x128.ShapeCasts S128} {hb71 : S128.BroadcastsInDim S1x128 ![1]}
    {hb72 : S1x128.BroadcastsInDim S100000x128 ![0, 1]} :
    toMat (addf
        (Host.dotGeneral (F := Ideal) d none z (shapeCast S128x128 (extractStridedSlice S1x128x128 off6 W hs6) hc6))
        (broadcastInDim S100000x128 ![0, 1] hb72
          (broadcastInDim S1x128 ![1] hb71 (shapeCast S128 (extractStridedSlice S1x128 off7 b hs7) hc7))))
      = lin (toMat z) (fun k j => W (ix3 l k j)) (fun j => b (ix2 l j)) := by
  funext n j
  simp only [toMat, lin]
  rw [addf_apply, dot_apply hd, bias_apply l b h70 h71]
  congr 1
  refine Finset.sum_congr rfl fun k _ => ?_
  rw [weight_apply l W h60 h61 h62]

variable (V : Valuation τ sig (Elt Ideal))

set_option maxHeartbeats 400000 in
/-- Layer 3's first affine map, for any contents of the buffers it reads. -/
theorem linB : toMat (after opsL3B V (Proc.devRef .tc main_v335))
    = lin (fun n k => (Ideal.ofBits .f32 0x3F800000#32 + V (Proc.devRef .tc main_arg5) (ix1 (3 : Fin 4)))
              * toMat (V (Proc.devRef .tc main_v311)) n k + toMat (V (Proc.devRef .tc main_v321)) n k)
        (fun k j => V (Proc.devRef .tc main_arg6) (ix3 (3 : Fin 4) k j))
        (fun j => V (Proc.devRef .tc main_arg7) (ix2 (3 : Fin 4) j)) := by
  after_results
  exact linB_aux (3 : Fin 4) _ _ _ _ _ (by rfl) (by rfl) (by rfl) (by rfl) (by rfl) (by rfl) (by rfl)

set_option maxHeartbeats 400000 in
/-- Layer 3's second affine map, for any contents of the buffers it reads. -/
theorem linE : toMat (after opsL3E V (Proc.devRef .tc main_v367))
    = lin (toMat (V (Proc.devRef .tc main_v359)))
        (fun k j => V (Proc.devRef .tc main_arg8) (ix3 (3 : Fin 4) k j))
        (fun j => V (Proc.devRef .tc main_arg9) (ix2 (3 : Fin 4) j)) := by
  after_results
  exact linE_aux (3 : Fin 4) _ _ _ (by rfl) (by rfl) (by rfl) (by rfl) (by rfl) (by rfl)

set_option maxHeartbeats 400000 in
/-- Layer 3's edge aggregate, for any contents of the buffers it reads: the shared aggregation of the features
    along the edges. -/
theorem aggA [Cert.KernelIdeal.Facts₀] : after opsL3A V (Proc.devRef .tc main_v321)
    = Cert.Agg.aggT (V (Proc.devRef .tc main_v311)) (V (Proc.devRef .tc main_arg2)) (V (Proc.devRef .tc main_arg3)) := by
  after_results
  rfl

end Cert.RefAffineL3

end
-- ==== Proof.RefStatsL3.lean ====
/-
  The reference's column statistics, read for an arbitrary valuation.

  Each layer of the reference normalises three matrices of 100000 rows and 128 columns. Before each normalisation
  it takes, per column, the mean (the column sum divided by the node count) and the variance (an outlined function:
  the column mean again, the deviations from it, their squares, the column sums of the squares divided by the node
  count minus a correction that is the integer zero, guarded by "the divisor is positive" with a not-a-number
  fallback), and it slices one row out of each of two parameter tables of four rows.

  The variance function's body is first stated once as a term of its argument, a variable matrix, and read at a
  column: the divisor is the real number 100000, so the guard holds, the fallback is never read, and the value is
  the mean of the squared deviations from the mean. Then, for each of the layer's three segments of operations,
  the fold of the segment over an arbitrary valuation is identified at four buffers (mean, variance, the two
  parameter rows) with those terms of the valuation's entries, and read at a column.
-/
import proofs.«412161_j3753801416792_2_alg».proof.Proof.Gen.ReferenceIdeal
import proofs.«412161_j3753801416792_2_alg».proof.Proof.RefRun
import proofs.«412161_j3753801416792_2_alg».proof.Proof.Conv
import proofs.«412161_j3753801416792_2_alg».proof.Proof.LibReal
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.RefStatsL3
open Cert.ReferenceIdeal Cert.ReferenceIdeal.Gen Cert.ReferenceIdeal.RefRun Cert.Spec Cert.Conv Idealize.ShloMosaic Idealize.ShloMosaic.ValueIdx Idealize.ShloMosaic.StableHlo

/-! ## The outlined variance function as one term of its argument -/

/-- The column reduction's shape fact in the form that names the inserted index. -/
theorem reduces0 : S100000x128.Reduces [0] S128 := by decide

/-- Over column `j`, the index with row `k` inserted is `(k, j)`. -/
theorem lift_eq (j : Fin 128) (k : Fin 100000) : reduces0.lift (ix1 j) k = ix2 k j := by
  funext c
  match c with
  | ⟨0, _⟩ => rfl
  | ⟨1, _⟩ => rfl

/-- A host column sum from the zero word, read at a column: the sum over all rows. -/
theorem colSum_apply (x : FVec Ideal S100000x128 .f32) (j : Fin 128) :
    Host.reduceAdd x (constant (F := Ideal) S_ .f32 0x00000000#32) reducesTo_S100000x128_S128_d0 h_S_ (ix1 j)
      = ∑ n : Fin 100000, x (ix2 n j) := by
  rw [hostReduceAdd_apply, Ideal.hostReduceAdd_single reducesTo_S100000x128_S128_d0 reduces0, constant_apply,
    Ideal.ofBits_zero_f32, zero_add]
  exact Finset.sum_congr rfl fun k _ => congrArg x (lift_eq j k)

/-- The node count is the real number 100000, which is positive. -/
theorem cN_pos : (0 : EReal) < cN := by
  unfold cN
  rw [Cert.LibReal.ofBits_100000]
  exact_mod_cast (by norm_num : (0 : ℝ) < 100000)

/-- The column mean as the main program spells it. -/
def meanTerm (x : FVec Ideal S100000x128 .f32) : FVec Ideal S128 .f32 :=
  Host.divf (Host.reduceAdd x (constant (F := Ideal) S_ .f32 0x00000000#32) reducesTo_S100000x128_S128_d0 h_S_)
    (broadcastInDim S128 ![] bcast_S_S128 (constant (F := Ideal) S_ .f32 0x47C35000#32))

theorem meanTerm_apply (x : FVec Ideal S100000x128 .f32) (j : Fin 128) :
    meanTerm x (ix1 j) = meanR (toMat x) j := by
  unfold meanTerm
  rw [hostDivf_apply, colSum_apply, broadcastInDim_scalar_apply, constant_apply]
  rfl

/-- The column mean inside the variance function: a one-row matrix. -/
def varMean (x : FVec Ideal S100000x128 .f32) : FVec Ideal S1x128 .f32 :=
  Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))

theorem varMean_apply (x : FVec Ideal S100000x128 .f32) (j : Fin 128) :
    varMean x (ix2 (0 : Fin 1) j) = meanR (toMat x) j := by
  unfold varMean
  rw [hostDivf_apply, broadcastInDim_apply _ bcast_S128_S1x128_1 _ _ (ix1 j) (fun a => by
      match a with
      | ⟨0, _⟩ => rfl),
    colSum_apply, broadcastInDim_scalar_apply, constant_apply]
  rfl

/-- The deviations from the column mean. -/
def varDev (x : FVec Ideal S100000x128 .f32) : FVec Ideal S100000x128 .f32 :=
  subf x (broadcastInDim S100000x128 ![0, 1] bcast_S1x128_S100000x128_0_1 (varMean x))

theorem varDev_apply (x : FVec Ideal S100000x128 .f32) (n : Fin 100000) (j : Fin 128) :
    varDev x (ix2 n j) = x (ix2 n j) - meanR (toMat x) j := by
  unfold varDev
  rw [subf_apply, broadcastInDim_apply _ bcast_S1x128_S100000x128_0_1 _ _ (ix2 (0 : Fin 1) j) (fun a => by
      match a with
      | ⟨0, _⟩ => rfl
      | ⟨1, _⟩ => rfl),
    varMean_apply]

/-- The divisor: the node count minus the correction, which is the integer zero. -/
def varDen : FVec Ideal S_ .f32 :=
  subf (constant (F := Ideal) S_ .f32 0x47C35000#32) (sitofp .f32 (constantI S_ 32 0#32))

theorem varDen_apply : varDen ix0 = cN := by
  unfold varDen
  rw [subf_apply, constant_apply, sitofp_apply, constantI_apply]
  show Ideal.ofBits .f32 0x47C35000#32 - (((0#32 : BitVec 32).toInt : ℝ) : EReal) = cN
  rw [BitVec.toInt_zero, Int.cast_zero, EReal.coe_zero, sub_zero]
  rfl

/-- The variance function's body as one term of its argument. -/
def varTerm (x : FVec Ideal S100000x128 .f32) : FVec Ideal S128 .f32 :=
  select
    (broadcastInDim S128 ![] bcast_S_S128 (cmpf .ogt varDen (constant (F := Ideal) S_ .f32 0x00000000#32)))
    (Host.divf
      (Host.reduceAdd (mulf (varDev x) (varDev x)) (constant (F := Ideal) S_ .f32 0x00000000#32)
        reducesTo_S100000x128_S128_d0 h_S_)
      (broadcastInDim S128 ![] bcast_S_S128 varDen))
    (broadcastInDim S128 ![] bcast_S_S128 (id (constant (F := Ideal) S_ .f32 0x7FC00000#32)))

/-- At a column it is the mean of the squared deviations: the divisor is positive, so the guard holds and the
    not-a-number word is never read. -/
theorem varTerm_apply (x : FVec Ideal S100000x128 .f32) (j : Fin 128) :
    varTerm x (ix1 j) = varR (toMat x) j := by
  have hp : (cmpf .ogt varDen (constant (F := Ideal) S_ .f32 0x00000000#32)) ix0 = 1#1 := by
    rw [cmpf_apply, varDen_apply, constant_apply, Ideal.ofBits_zero_f32, Ideal.cmpf_def]
    show BitVec.ofBool (decide ((0 : EReal) < cN)) = 1#1
    rw [decide_eq_true cN_pos]
    rfl
  unfold varTerm
  rw [select_apply, broadcastInDim_scalar_apply, hp, select_one, hostDivf_apply, colSum_apply,
    broadcastInDim_scalar_apply, varDen_apply]
  simp only [mulf_apply, varDev_apply]
  rfl

/-- One row of a four-row parameter table as a vector: the slice of that row, with its unit axis dropped. -/
def rowTerm (p : FVec Ideal S4x128 .f32) {o : ℕ} (h : S4x128.Slices ![o, 0] S1x128) : FVec Ideal S128 .f32 :=
  shapeCast S128 (extractStridedSlice S1x128 ![o, 0] p h) shapeCasts_S1x128_S128

theorem rowTerm_apply (p : FVec Ideal S4x128 .f32) {o : ℕ} (h : S4x128.Slices ![o, 0] S1x128) (r : Fin 4)
    (hr : r.val = o) (j : Fin 128) : rowTerm p h (ix1 j) = p (ix2 r j) := by
  unfold rowTerm
  rw [shapeCast_1a_a_apply, slice2_axis0_apply o p h (0 : Fin 1) j r (by rw [hr]; rfl)]

/-! ## Segment C: the statistics of main_v335 -/

section C
variable (V : Valuation τ sig (Elt Ideal))

theorem v30_eq : (after opsL3C V (Proc.devRef .tc main_v342) : S128.Idx → EReal)
    = meanTerm (V (Proc.devRef .tc main_v335)) := by
  after_results_simp
  rfl

theorem v31_eq : (after opsL3C V (Proc.devRef .tc main_v343) : S128.Idx → EReal)
    = varTerm (V (Proc.devRef .tc main_v335)) := by
  after_results_simp
  simp only [TRef.ofBuf, TRef.toBuf, cast_eq]
  rfl

theorem v25_eq : (after opsL3C V (Proc.devRef .tc main_v337) : S128.Idx → EReal)
    = rowTerm (V (Proc.devRef .tc main_arg10)) slices_S4x128_S1x128_3_0 := by
  after_results_simp
  rfl

theorem v27_eq : (after opsL3C V (Proc.devRef .tc main_v339) : S128.Idx → EReal)
    = rowTerm (V (Proc.devRef .tc main_arg11)) slices_S4x128_S1x128_3_0 := by
  after_results_simp
  rfl

theorem meanC : toRow1 (after opsL3C V (Proc.devRef .tc main_v342)) = meanR (toMat (V (Proc.devRef .tc main_v335))) := by
  funext j
  show (after opsL3C V (Proc.devRef .tc main_v342) : S128.Idx → EReal) (ix1 j) = _
  rw [v30_eq, meanTerm_apply]

theorem varC : toRow1 (after opsL3C V (Proc.devRef .tc main_v343)) = varR (toMat (V (Proc.devRef .tc main_v335))) := by
  funext j
  show (after opsL3C V (Proc.devRef .tc main_v343) : S128.Idx → EReal) (ix1 j) = _
  rw [v31_eq, varTerm_apply]

theorem gC : toRow1 (after opsL3C V (Proc.devRef .tc main_v337))
    = fun j => V (Proc.devRef .tc main_arg10) (ix2 (3 : Fin 4) j) := by
  funext j
  show (after opsL3C V (Proc.devRef .tc main_v337) : S128.Idx → EReal) (ix1 j) = _
  rw [v25_eq]
  exact rowTerm_apply _ slices_S4x128_S1x128_3_0 (3 : Fin 4) rfl j

theorem beC : toRow1 (after opsL3C V (Proc.devRef .tc main_v339))
    = fun j => V (Proc.devRef .tc main_arg11) (ix2 (3 : Fin 4) j) := by
  funext j
  show (after opsL3C V (Proc.devRef .tc main_v339) : S128.Idx → EReal) (ix1 j) = _
  rw [v27_eq]
  exact rowTerm_apply _ slices_S4x128_S1x128_3_0 (3 : Fin 4) rfl j

end C

/-! ## Segment F: the statistics of main_v367 -/

section F
variable (V : Valuation τ sig (Elt Ideal))

theorem v62_eq : (after opsL3F V (Proc.devRef .tc main_v374) : S128.Idx → EReal)
    = meanTerm (V (Proc.devRef .tc main_v367)) := by
  after_results_simp
  rfl

theorem v63_eq : (after opsL3F V (Proc.devRef .tc main_v375) : S128.Idx → EReal)
    = varTerm (V (Proc.devRef .tc main_v367)) := by
  after_results_simp
  simp only [TRef.ofBuf, TRef.toBuf, cast_eq]
  rfl

theorem v57_eq : (after opsL3F V (Proc.devRef .tc main_v369) : S128.Idx → EReal)
    = rowTerm (V (Proc.devRef .tc main_arg12)) slices_S4x128_S1x128_3_0 := by
  after_results_simp
  rfl

theorem v59_eq : (after opsL3F V (Proc.devRef .tc main_v371) : S128.Idx → EReal)
    = rowTerm (V (Proc.devRef .tc main_arg13)) slices_S4x128_S1x128_3_0 := by
  after_results_simp
  rfl

theorem meanF : toRow1 (after opsL3F V (Proc.devRef .tc main_v374)) = meanR (toMat (V (Proc.devRef .tc main_v367))) := by
  funext j
  show (after opsL3F V (Proc.devRef .tc main_v374) : S128.Idx → EReal) (ix1 j) = _
  rw [v62_eq, meanTerm_apply]

theorem varF : toRow1 (after opsL3F V (Proc.devRef .tc main_v375)) = varR (toMat (V (Proc.devRef .tc main_v367))) := by
  funext j
  show (after opsL3F V (Proc.devRef .tc main_v375) : S128.Idx → EReal) (ix1 j) = _
  rw [v63_eq, varTerm_apply]

theorem gF : toRow1 (after opsL3F V (Proc.devRef .tc main_v369))
    = fun j => V (Proc.devRef .tc main_arg12) (ix2 (3 : Fin 4) j) := by
  funext j
  show (after opsL3F V (Proc.devRef .tc main_v369) : S128.Idx → EReal) (ix1 j) = _
  rw [v57_eq]
  exact rowTerm_apply _ slices_S4x128_S1x128_3_0 (3 : Fin 4) rfl j

theorem beF : toRow1 (after opsL3F V (Proc.devRef .tc main_v371))
    = fun j => V (Proc.devRef .tc main_arg13) (ix2 (3 : Fin 4) j) := by
  funext j
  show (after opsL3F V (Proc.devRef .tc main_v371) : S128.Idx → EReal) (ix1 j) = _
  rw [v59_eq]
  exact rowTerm_apply _ slices_S4x128_S1x128_3_0 (3 : Fin 4) rfl j

end F

/-! ## Segment H: the statistics of main_v391 -/

section H
variable (V : Valuation τ sig (Elt Ideal))

theorem v86_eq : (after opsL3H V (Proc.devRef .tc main_v398) : S128.Idx → EReal)
    = meanTerm (V (Proc.devRef .tc main_v391)) := by
  after_results_simp
  rfl

theorem v87_eq : (after opsL3H V (Proc.devRef .tc main_v399) : S128.Idx → EReal)
    = varTerm (V (Proc.devRef .tc main_v391)) := by
  after_results_simp
  simp only [TRef.ofBuf, TRef.toBuf, cast_eq]
  rfl

theorem v81_eq : (after opsL3H V (Proc.devRef .tc main_v393) : S128.Idx → EReal)
    = rowTerm (V (Proc.devRef .tc main_arg14)) slices_S4x128_S1x128_3_0 := by
  after_results_simp
  rfl

theorem v83_eq : (after opsL3H V (Proc.devRef .tc main_v395) : S128.Idx → EReal)
    = rowTerm (V (Proc.devRef .tc main_arg15)) slices_S4x128_S1x128_3_0 := by
  after_results_simp
  rfl

theorem meanH : toRow1 (after opsL3H V (Proc.devRef .tc main_v398)) = meanR (toMat (V (Proc.devRef .tc main_v391))) := by
  funext j
  show (after opsL3H V (Proc.devRef .tc main_v398) : S128.Idx → EReal) (ix1 j) = _
  rw [v86_eq, meanTerm_apply]

theorem varH : toRow1 (after opsL3H V (Proc.devRef .tc main_v399)) = varR (toMat (V (Proc.devRef .tc main_v391))) := by
  funext j
  show (after opsL3H V (Proc.devRef .tc main_v399) : S128.Idx → EReal) (ix1 j) = _
  rw [v87_eq, varTerm_apply]

theorem gH : toRow1 (after opsL3H V (Proc.devRef .tc main_v393))
    = fun j => V (Proc.devRef .tc main_arg14) (ix2 (3 : Fin 4) j) := by
  funext j
  show (after opsL3H V (Proc.devRef .tc main_v393) : S128.Idx → EReal) (ix1 j) = _
  rw [v81_eq]
  exact rowTerm_apply _ slices_S4x128_S1x128_3_0 (3 : Fin 4) rfl j

theorem beH : toRow1 (after opsL3H V (Proc.devRef .tc main_v395))
    = fun j => V (Proc.devRef .tc main_arg15) (ix2 (3 : Fin 4) j) := by
  funext j
  show (after opsL3H V (Proc.devRef .tc main_v395) : S128.Idx → EReal) (ix1 j) = _
  rw [v83_eq]
  exact rowTerm_apply _ slices_S4x128_S1x128_3_0 (3 : Fin 4) rfl j

end H

end Cert.RefStatsL3

end
-- ==== Proof.RefNormL3.lean ====
/-
  The reference's normalisations, read for an arbitrary valuation.

  Each layer of the reference normalises three matrices of 100000 rows and 128 columns. A normalisation takes the
  matrix, its column mean and its column variance (both computed before it), and two parameter rows; it subtracts
  the mean from every row, multiplies by the reciprocal square root of the variance plus a small constant, multiplies
  by the first parameter row, adds the second, and clamps below at zero (an outlined function: the maximum with a
  broadcast zero). Every row operand is spelled as a broadcast of 128 entries to one row and then to all rows, so the
  value at entry (n, j) reads each row operand at j: it is

      max ((x n j - mu j) * rsqrt (var j + eps) * g j + be j) 0.

  Each statement is about the fold of a segment of the reference's operations over an arbitrary valuation, and
  speaks of the valuation's entries at the segment's operands only.
-/
import proofs.«412161_j3753801416792_2_alg».proof.Proof.Gen.ReferenceIdeal
import proofs.«412161_j3753801416792_2_alg».proof.Proof.RefRun
import proofs.«412161_j3753801416792_2_alg».proof.Proof.Conv
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

noncomputable section

namespace Cert.RefNormL3

open Cert.ReferenceIdeal Cert.ReferenceIdeal.RefRun Cert.Spec Cert.Conv Idealize.ShloMosaic Idealize.ShloMosaic.ValueIdx Idealize.ShloMosaic.StableHlo

/-! ## Normalise, scale, shift, clamp -/

/-- A row broadcast to one row and then down all rows reads the row's entry in the column. -/
theorem rowBcast_apply {α : Type} (X : S128.Idx → α) (n : Fin 100000) (j : Fin 128) :
    broadcastInDim S100000x128 ![0, 1] Gen.bcast_S1x128_S100000x128_0_1
      (broadcastInDim S1x128 ![1] Gen.bcast_S128_S1x128_1 X) (ix2 n j) = X (ix1 j) := by
  rw [broadcastInDim_apply _ _ _ _ (ix2 (0 : Fin 1) j) (fun a => by match a with | ⟨0, _⟩ => rfl | ⟨1, _⟩ => rfl),
    broadcastInDim_apply _ _ _ _ (ix1 j) (fun a => by match a with | ⟨0, _⟩ => rfl)]

/-- The host's reciprocal square root at an index is the extended reals' reciprocal square root of the entry. -/
theorem hostRsqrt_apply {s : Shape} {φ : FTy} (x : FVec Ideal s φ) (i : s.Idx) :
    Host.rsqrt x i = Ideal.rsqrt (x i) := rfl

set_option maxHeartbeats 4000000 in
/-- The first normalisation of the layer: the first affine map's output minus its column mean, times the
    reciprocal square root of its column variance plus the offset, scaled, shifted, clamped below at zero. -/
theorem normD (V : Valuation τ sig (Elt Ideal)) :
    toMat (after opsL3D V (Proc.devRef .tc main_v359))
      = bnRelu (toMat (V (Proc.devRef .tc main_v335))) (toRow1 (V (Proc.devRef .tc main_v342)))
          (toRow1 (V (Proc.devRef .tc main_v343))) (toRow1 (V (Proc.devRef .tc main_v337)))
          (toRow1 (V (Proc.devRef .tc main_v339))) := by
  funext n j
  unfold toMat bnRelu toRow1
  dsimp only [opsL3D]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The second normalisation of the layer, of the second affine map's output, by its own column statistics and
    its own scale and shift rows. -/
theorem normG (V : Valuation τ sig (Elt Ideal)) :
    toMat (after opsL3G V (Proc.devRef .tc main_v391))
      = bnRelu (toMat (V (Proc.devRef .tc main_v367))) (toRow1 (V (Proc.devRef .tc main_v374)))
          (toRow1 (V (Proc.devRef .tc main_v375))) (toRow1 (V (Proc.devRef .tc main_v369)))
          (toRow1 (V (Proc.devRef .tc main_v371))) := by
  funext n j
  unfold toMat bnRelu toRow1
  dsimp only [opsL3G]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

set_option maxHeartbeats 4000000 in
/-- The third normalisation of the layer, of the second normalisation's output: the layer's output. -/
theorem normI (V : Valuation τ sig (Elt Ideal)) :
    toMat (after opsL3I V (Proc.devRef .tc main_v415))
      = bnRelu (toMat (V (Proc.devRef .tc main_v391))) (toRow1 (V (Proc.devRef .tc main_v398)))
          (toRow1 (V (Proc.devRef .tc main_v399))) (toRow1 (V (Proc.devRef .tc main_v393)))
          (toRow1 (V (Proc.devRef .tc main_v395))) := by
  funext n j
  unfold toMat bnRelu toRow1
  dsimp only [opsL3I]
  after_results_simp
  simp only [TRef.ofBuf, TRef.toBuf, cast_eq]
  simp only [maximumf_apply, addf_apply, mulf_apply, subf_apply]
  rw [rowBcast_apply _ n j, rowBcast_apply _ n j, rowBcast_apply _ n j, rowBcast_apply _ n j,
    broadcastInDim_scalar_apply]
  simp only [hostRsqrt_apply, addf_apply, constant_apply, Ideal.ofBits_zero_f32, cEps]
  rw [broadcastInDim_scalar_apply, constant_apply]

end Cert.RefNormL3

end
-- ==== Proof.RefChain3.lean ====
/-
  The reference's run of one layer, assembled: the nine segments of the layer's straight line are read one after the
  other, each by its own lemma at the contents the previous segments left, and every operand a segment reads that an
  earlier segment did not write (the features, the edge lists, the stacked parameters; a value an earlier segment
  named) is carried across by the fact that a segment leaves the buffers it does not write alone. The result is the
  specification's layer at the launch contents.
-/
import proofs.«412161_j3753801416792_2_alg».proof.Proof.Gen.ReferenceIdeal
import proofs.«412161_j3753801416792_2_alg».proof.Proof.Spec
import proofs.«412161_j3753801416792_2_alg».proof.Proof.Conv
import proofs.«412161_j3753801416792_2_alg».proof.Proof.Agg
import proofs.«412161_j3753801416792_2_alg».proof.Proof.RefRun
import proofs.«412161_j3753801416792_2_alg».proof.Proof.RefKeep
import proofs.«412161_j3753801416792_2_alg».proof.Proof.RefAffineL3
import proofs.«412161_j3753801416792_2_alg».proof.Proof.RefStatsL3
import proofs.«412161_j3753801416792_2_alg».proof.Proof.RefNormL3
import proofs.«412161_j3753801416792_2_alg».proof.Proof.RefArgs
import Idealize.ShloMosaic.Lib.StableHlo.Run
import Idealize.ShloMosaic.Lib.ValueIdx

noncomputable section

namespace Cert.RefChain3

open Cert.ReferenceIdeal Cert.ReferenceIdeal.RefRun Cert.ReferenceIdeal.RefKeep Cert.RefAffineL3 Cert.RefStatsL3 Cert.RefNormL3
  Cert.Spec Cert.Conv Idealize.ShloMosaic Idealize.ShloMosaic.ValueIdx Idealize.ShloMosaic.StableHlo

/-- The layer's parameters as the reference reads them: this layer's row of each stacked parameter array. -/
abbrev P (V : Valuation τ sig (Elt Ideal)) : Params := Cert.RefArgs.P V (3 : Fin 4)

variable (V : Valuation τ sig (Elt Ideal))

/-! ### The contents after each of the layer's nine segments -/

/-- After the aggregate. -/
abbrev UA : Valuation τ sig (Elt Ideal) := after opsL3A V
/-- After the first affine map. -/
abbrev UB : Valuation τ sig (Elt Ideal) := after opsL3B (UA V)
/-- After the first statistics. -/
abbrev UC : Valuation τ sig (Elt Ideal) := after opsL3C (UB V)
/-- After the first normalisation. -/
abbrev UD : Valuation τ sig (Elt Ideal) := after opsL3D (UC V)
/-- After the second affine map. -/
abbrev UE : Valuation τ sig (Elt Ideal) := after opsL3E (UD V)
/-- After the second statistics. -/
abbrev UF : Valuation τ sig (Elt Ideal) := after opsL3F (UE V)
/-- After the second normalisation. -/
abbrev UG : Valuation τ sig (Elt Ideal) := after opsL3G (UF V)
/-- After the third statistics. -/
abbrev UH : Valuation τ sig (Elt Ideal) := after opsL3H (UG V)
/-- After the third normalisation: the layer's end. -/
abbrev UI : Valuation τ sig (Elt Ideal) := after opsL3I (UH V)

/-- The layer's fold ends at the last of these. -/
theorem after_eq_UI : after opsL3 V = UI V := after_opsL3 V

/-! ### A buffer no segment so far writes still holds the launch contents -/

theorem keptA (b : Ref sig .tc) (hA : b ∉ writtenL3A) : UA V (Proc.devRef .tc b) = V (Proc.devRef .tc b) :=
  keepL3A V b hA
theorem keptB (b : Ref sig .tc) (hA : b ∉ writtenL3A) (hB : b ∉ writtenL3B) :
    UB V (Proc.devRef .tc b) = V (Proc.devRef .tc b) :=
  (keepL3B (UA V) b hB).trans (keptA V b hA)
theorem keptC (b : Ref sig .tc) (hA : b ∉ writtenL3A) (hB : b ∉ writtenL3B) (hC : b ∉ writtenL3C) :
    UC V (Proc.devRef .tc b) = V (Proc.devRef .tc b) :=
  (keepL3C (UB V) b hC).trans (keptB V b hA hB)
theorem keptD (b : Ref sig .tc) (hA : b ∉ writtenL3A) (hB : b ∉ writtenL3B) (hC : b ∉ writtenL3C)
    (hD : b ∉ writtenL3D) : UD V (Proc.devRef .tc b) = V (Proc.devRef .tc b) :=
  (keepL3D (UC V) b hD).trans (keptC V b hA hB hC)
theorem keptE (b : Ref sig .tc) (hA : b ∉ writtenL3A) (hB : b ∉ writtenL3B) (hC : b ∉ writtenL3C)
    (hD : b ∉ writtenL3D) (hE : b ∉ writtenL3E) : UE V (Proc.devRef .tc b) = V (Proc.devRef .tc b) :=
  (keepL3E (UD V) b hE).trans (keptD V b hA hB hC hD)
theorem keptF (b : Ref sig .tc) (hA : b ∉ writtenL3A) (hB : b ∉ writtenL3B) (hC : b ∉ writtenL3C)
    (hD : b ∉ writtenL3D) (hE : b ∉ writtenL3E) (hF : b ∉ writtenL3F) :
    UF V (Proc.devRef .tc b) = V (Proc.devRef .tc b) :=
  (keepL3F (UE V) b hF).trans (keptE V b hA hB hC hD hE)
theorem keptG (b : Ref sig .tc) (hA : b ∉ writtenL3A) (hB : b ∉ writtenL3B) (hC : b ∉ writtenL3C)
    (hD : b ∉ writtenL3D) (hE : b ∉ writtenL3E) (hF : b ∉ writtenL3F) (hG : b ∉ writtenL3G) :
    UG V (Proc.devRef .tc b) = V (Proc.devRef .tc b) :=
  (keepL3G (UF V) b hG).trans (keptF V b hA hB hC hD hE hF)

/-! ### The values the layer names, one segment at a time -/

section
variable [Cert.KernelIdeal.Facts₀]

/-- The aggregate. -/
theorem e9 : UA V (Proc.devRef .tc main_v321)
    = Cert.Agg.aggT (V (Proc.devRef .tc main_v311)) (V (Proc.devRef .tc main_arg2)) (V (Proc.devRef .tc main_arg3)) :=
  aggA V

/-- The first affine map's value. -/
theorem e23 : toMat (UB V (Proc.devRef .tc main_v335))
    = lin1R (P V) (toMat (V (Proc.devRef .tc main_v311)))
        (toMat (Cert.Agg.aggT (V (Proc.devRef .tc main_v311)) (V (Proc.devRef .tc main_arg2)) (V (Proc.devRef .tc main_arg3)))) := by
  have h := linB (UA V)
  rw [keptA V main_arg5 (by decide), keptA V main_v311 (by decide), keptA V main_arg6 (by decide),
    keptA V main_arg7 (by decide), e9 V] at h
  exact h

end

/-- The first normalisation's mean. -/
theorem e30 : toRow1 (UC V (Proc.devRef .tc main_v342)) = meanR (toMat (UB V (Proc.devRef .tc main_v335))) := meanC (UB V)
/-- The first normalisation's variance. -/
theorem e31 : toRow1 (UC V (Proc.devRef .tc main_v343)) = varR (toMat (UB V (Proc.devRef .tc main_v335))) := varC (UB V)
/-- The first normalisation's scale row. -/
theorem e25 : toRow1 (UC V (Proc.devRef .tc main_v337)) = (P V).g1 := by
  have h := gC (UB V)
  rw [keptB V main_arg10 (by decide) (by decide)] at h
  exact h
/-- The first normalisation's shift row. -/
theorem e27 : toRow1 (UC V (Proc.devRef .tc main_v339)) = (P V).be1 := by
  have h := beC (UB V)
  rw [keptB V main_arg11 (by decide) (by decide)] at h
  exact h

/-- The first normalised value. -/
theorem e47 : toMat (UD V (Proc.devRef .tc main_v359)) = z1R (P V) (toMat (UB V (Proc.devRef .tc main_v335))) := by
  have k : UC V (Proc.devRef .tc main_v335) = UB V (Proc.devRef .tc main_v335) := keepL3C (UB V) main_v335 (by decide)
  have h := normD (UC V)
  rw [k, e30 V, e31 V, e25 V, e27 V] at h
  exact h

/-- The second affine map's value. -/
theorem e55 : toMat (UE V (Proc.devRef .tc main_v367)) = lin2 (P V) (toMat (UD V (Proc.devRef .tc main_v359))) := by
  have h := linE (UD V)
  rw [keptD V main_arg8 (by decide) (by decide) (by decide) (by decide), keptD V main_arg9 (by decide) (by decide) (by decide) (by decide)] at h
  exact h

/-- The second normalisation's mean. -/
theorem e62 : toRow1 (UF V (Proc.devRef .tc main_v374)) = meanR (toMat (UE V (Proc.devRef .tc main_v367))) := meanF (UE V)
/-- The second normalisation's variance. -/
theorem e63 : toRow1 (UF V (Proc.devRef .tc main_v375)) = varR (toMat (UE V (Proc.devRef .tc main_v367))) := varF (UE V)
/-- The second normalisation's scale row. -/
theorem e57 : toRow1 (UF V (Proc.devRef .tc main_v369)) = (P V).g2 := by
  have h := gF (UE V)
  rw [keptE V main_arg12 (by decide) (by decide) (by decide) (by decide) (by decide)] at h
  exact h
/-- The second normalisation's shift row. -/
theorem e59 : toRow1 (UF V (Proc.devRef .tc main_v371)) = (P V).be2 := by
  have h := beF (UE V)
  rw [keptE V main_arg13 (by decide) (by decide) (by decide) (by decide) (by decide)] at h
  exact h

/-- The second normalised value. -/
theorem e79 : toMat (UG V (Proc.devRef .tc main_v391)) = z2R (P V) (toMat (UE V (Proc.devRef .tc main_v367))) := by
  have k : UF V (Proc.devRef .tc main_v367) = UE V (Proc.devRef .tc main_v367) := keepL3F (UE V) main_v367 (by decide)
  have h := normG (UF V)
  rw [k, e62 V, e63 V, e57 V, e59 V] at h
  exact h

/-- The third normalisation's mean. -/
theorem e86 : toRow1 (UH V (Proc.devRef .tc main_v398)) = meanR (toMat (UG V (Proc.devRef .tc main_v391))) := meanH (UG V)
/-- The third normalisation's variance. -/
theorem e87 : toRow1 (UH V (Proc.devRef .tc main_v399)) = varR (toMat (UG V (Proc.devRef .tc main_v391))) := varH (UG V)
/-- The third normalisation's scale row. -/
theorem e81 : toRow1 (UH V (Proc.devRef .tc main_v393)) = (P V).g3 := by
  have h := gH (UG V)
  rw [keptG V main_arg14 (by decide) (by decide) (by decide) (by decide) (by decide) (by decide) (by decide)] at h
  exact h
/-- The third normalisation's shift row. -/
theorem e83 : toRow1 (UH V (Proc.devRef .tc main_v395)) = (P V).be3 := by
  have h := beH (UG V)
  rw [keptG V main_arg15 (by decide) (by decide) (by decide) (by decide) (by decide) (by decide) (by decide)] at h
  exact h

/-- The layer's output. -/
theorem e103 : toMat (UI V (Proc.devRef .tc main_v415)) = outR (P V) (toMat (UG V (Proc.devRef .tc main_v391))) := by
  have k : UH V (Proc.devRef .tc main_v391) = UG V (Proc.devRef .tc main_v391) := keepL3H (UG V) main_v391 (by decide)
  have h := normI (UH V)
  rw [k, e86 V, e87 V, e81 V, e83 V] at h
  exact h

/-- THE LAYER: the reference's output of this layer is the specification's layer at the contents, before the
    layer, of the features, the edge lists and this layer's row of the parameters. -/
theorem layer [Cert.KernelIdeal.Facts₀] :
    toMat (after opsL3 V (Proc.devRef .tc main_v415))
      = layerR (P V) (toMat (V (Proc.devRef .tc main_v311)))
          (toMat (Cert.Agg.aggT (V (Proc.devRef .tc main_v311)) (V (Proc.devRef .tc main_arg2)) (V (Proc.devRef .tc main_arg3)))) := by
  rw [after_eq_UI, e103, e79, e55, e47, e23]
  rfl

end Cert.RefChain3

end
-- ==== Proof.LibScatter.lean ====
/-
  The accumulating scatter read at one index, for the two shapes jax.ops.segment_sum prints: the scatter indices
  are an [R, 1] column of words (the index vector on axis 1, its one component naming operand axis 0, which is the
  inserted window axis), and the updates are

  * an [R, C] array of rows (update window axis 1): update entry (e, k) lands at operand entry (word e, k);
  * an [R] array of scalars (no window axis): update entry e lands at operand entry (word e).

  The word is read SIGNED and is NOT clamped: an entry whose word is negative or past the operand's rows lands
  nowhere and is dropped. So the scatter-add at operand index i is the operand's entry plus the sum, over the
  positions e whose word IS i's row, of the update entries of those positions.
-/
import Idealize.ShloMosaic.PureOps
import Idealize.ShloMosaic.PureOps.Ideal
import Idealize.ShloMosaic.Lib.ValueIdx

namespace Cert.LibScatter

open Idealize.ShloMosaic Idealize.ShloMosaic.ValueIdx

/-- An update index lands at operand index `i` exactly when, on every operand axis, the window's start (read signed,
    not clamped) plus the window coordinate is `i`'s coordinate: the bounds test of the landing index is then
    `i`'s own range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hb
      intro a
      have hi := congrFun (Option.some.inj h) a
      have hv := congrArg Fin.val hi
      simp only at hv
      have := hb a
      omega
    · exact absurd h (by simp)
  · intro h
    have hb : ∀ a, 0 ≤ d.start j idx a + (d.window j a : ℤ) ∧ d.start j idx a + (d.window j a : ℤ) < s.size a := by
      intro a
      have := (i a).isLt
      rw [h a]
      omega
    rw [dif_pos hb]
    congr 1
    funext a
    refine Fin.ext ?_
    show (d.start j idx a + (d.window j a : ℤ)).toNat = (i a).val
    rw [h a]
    exact Int.toNat_natCast _

/-- THE LANDING INDEX, rows: update entry (e, k) of an [R, C] array of rows lands at operand index `i` of the
    [N, C] operand exactly when the word at (e, 0), read signed, is `i`'s row and `k` is `i`'s column. The
    hypotheses are the printed dimension numbers (update window axis 1, operand axis 0 inserted and named by the
    scatter-dims-to-operand-dims map, the index vector on axis 1). On operand axis 0 the start is the word and the
    window coordinate zero; on operand axis 1 the start is zero and the window coordinate is `k`. A word that is
    negative or at least `N` is the row of no `i`: the entry is dropped. -/
theorem resultIdx?_rows_col_iff {N C R w : Nat}
    (d : ScatterDims ⟨2, ![N, C]⟩ ⟨2, ![R, 1]⟩ ⟨2, ![R, C]⟩)
    (hwin : d.updateWindowDims = [1]) (hins : d.insertedWindowDims = [0])
    (hsd : d.scatterDimsToOperandDims = [0]) (hivd : d.indexVectorDim = 1)
    (idx : IVec ⟨2, ![R, 1]⟩ w) (e : Fin R) (k : Fin C) (i : (⟨2, ![N, C]⟩ : Shape).Idx) :
    d.resultIdx? (ix2 e k) idx = some i ↔ ((idx (ix2 e (0 : Fin 1))).toInt = ((i 0).val : ℤ) ∧ i 1 = k) := by
  rw [resultIdx?_eq_some_iff]
  obtain ⟨uw, iw, sd, iv, wf⟩ := d
  simp only at hwin hins hsd hivd
  subst hwin hins hsd hivd
  have hs0 : ScatterDims.start ⟨[1], [0], [0], 1, wf⟩ (ix2 e k) idx 0 = (idx (ix2 e (0 : Fin 1))).toInt := by
    unfold ScatterDims.start
    rw [dif_pos (List.mem_singleton.mpr rfl)]
    refine congrArg (fun p => (idx p).toInt) ?_
    funext b
    refine Fin.ext ?_
    match b with
    | ⟨0, _⟩ => rfl
    | ⟨1, _⟩ => rfl
  have hs1 : ScatterDims.start ⟨[1], [0], [0], 1, wf⟩ (ix2 e k) idx 1 = 0 := by
    unfold ScatterDims.start
    rw [dif_neg (show (1 : Fin 2) ∉ [0] from by decide)]
  have hw0 : ScatterDims.window ⟨[1], [0], [0], 1, wf⟩ (ix2 e k) 0 = 0 := by
    unfold ScatterDims.window
    exact dif_neg (show (0 : Fin 2) ∉ (List.finRange 2).filter (· ∉ [(0 : Fin 2)]) from by decide)
  have hw1 : ScatterDims.window ⟨[1], [0], [0], 1, wf⟩ (ix2 e k) 1 = k.val := by
    unfold ScatterDims.window
    refine (dif_pos (show (1 : Fin 2) ∈ (List.finRange 2).filter (· ∉ [(0 : Fin 2)]) from by decide)).trans ?_
    rfl
  constructor
  · intro h
    have h0 := h 0
    have h1 := h 1
    rw [hs0, hw0] at h0
    rw [hs1, hw1] at h1
    refine ⟨by simpa using h0, Fin.ext ?_⟩
    have : ((k.val : ℕ) : ℤ) = ((i 1).val : ℤ) := by simpa using h1
    exact (Int.ofNat_inj.mp this).symm
  · rintro ⟨h0, h1⟩ a
    match a with
    | ⟨0, _⟩ =>
      show ScatterDims.start _ (ix2 e k) idx 0 + (ScatterDims.window _ (ix2 e k) 0 : ℤ) = ((i 0).val : ℤ)
      rw [hs0, hw0, h0]; simp
    | ⟨1, _⟩ =>
      show ScatterDims.start _ (ix2 e k) idx 1 + (ScatterDims.window _ (ix2 e k) 1 : ℤ) = ((i 1).val : ℤ)
      rw [hs1, hw1, h1]; simp

/-- THE LANDING INDEX, scalars: update entry `e` of an [R] array of scalars lands at operand index `i` of the
    [N] operand exactly when the word at (e, 0), read signed, is `i`'s coordinate (no update window axis; operand
    axis 0 inserted and named by the scatter-dims-to-operand-dims map, the index vector on axis 1). -/
theorem resultIdx?_col_iff {N R w : Nat}
    (d : ScatterDims ⟨1, ![N]⟩ ⟨2, ![R, 1]⟩ ⟨1, ![R]⟩)
    (hwin : d.updateWindowDims = []) (hins : d.insertedWindowDims = [0])
    (hsd : d.scatterDimsToOperandDims = [0]) (hivd : d.indexVectorDim = 1)
    (idx : IVec ⟨2, ![R, 1]⟩ w) (e : Fin R) (i : (⟨1, ![N]⟩ : Shape).Idx) :
    d.resultIdx? (ix1 e) idx = some i ↔ (idx (ix2 e (0 : Fin 1))).toInt = ((i 0).val : ℤ) := by
  rw [resultIdx?_eq_some_iff]
  obtain ⟨uw, iw, sd, iv, wf⟩ := d
  simp only at hwin hins hsd hivd
  subst hwin hins hsd hivd
  have hs0 : ScatterDims.start ⟨[], [0], [0], 1, wf⟩ (ix1 e) idx 0 = (idx (ix2 e (0 : Fin 1))).toInt := by
    unfold ScatterDims.start
    rw [dif_pos (List.mem_singleton.mpr rfl)]
    refine congrArg (fun p => (idx p).toInt) ?_
    funext b
    refine Fin.ext ?_
    match b with
    | ⟨0, _⟩ => rfl
    | ⟨1, _⟩ => rfl
  have hw0 : ScatterDims.window ⟨[], [0], [0], 1, wf⟩ (ix1 e) 0 = 0 := by
    unfold ScatterDims.window
    exact dif_neg (show (0 : Fin 1) ∉ (List.finRange 1).filter (· ∉ [(0 : Fin 1)]) from by decide)
  constructor
  · intro h
    have h0 := h 0
    rw [hs0, hw0] at h0
    simpa using h0
  · intro h0 a
    match a with
    | ⟨0, _⟩ =>
      show ScatterDims.start _ (ix1 e) idx 0 + (ScatterDims.window _ (ix1 e) 0 : ℤ) = ((i 0).val : ℤ)
      rw [hs0, hw0, h0]; simp

/-- THE SCATTER-ADD OF ROWS at an index: the operand's entry plus the sum, over the positions `e` whose word is
    the index's row, of the update entry of `e` in the index's column. The update indices landing at `i` are
    re-indexed by their first coordinate: (e, k) lands at `i` only for k = i's column. -/
theorem hostScatterAdd_rows_col_apply {N C R w : Nat}
    (d : ScatterDims ⟨2, ![N, C]⟩ ⟨2, ![R, 1]⟩ ⟨2, ![R, C]⟩)
    (hwin : d.updateWindowDims = [1]) (hins : d.insertedWindowDims = [0])
    (hsd : d.scatterDimsToOperandDims = [0]) (hivd : d.indexVectorDim = 1)
    (x : (⟨2, ![N, C]⟩ : Shape).Idx → EReal) (idx : IVec ⟨2, ![R, 1]⟩ w)
    (upd : (⟨2, ![R, C]⟩ : Shape).Idx → EReal) (i : (⟨2, ![N, C]⟩ : Shape).Idx) :
    Ideal.hostScatterAdd d x idx upd i
      = x i + ∑ e ∈ Finset.univ.filter (fun e : Fin R => (idx (ix2 e (0 : Fin 1))).toInt = ((i 0).val : ℤ)),
          upd (ix2 e (i 1)) := by
  unfold Ideal.hostScatterAdd
  congr 1
  have hmem : ∀ j : (⟨2, ![R, C]⟩ : Shape).Idx, d.resultIdx? j idx = some i ↔
      ((idx (ix2 (j 0) (0 : Fin 1))).toInt = ((i 0).val : ℤ) ∧ i 1 = j 1) := by
    intro j
    exact (iff_of_eq (congrArg (fun q => d.resultIdx? q idx = some i) (eq_ix2 j))).trans
      (resultIdx?_rows_col_iff d hwin hins hsd hivd idx (j 0) (j 1) i)
  refine Finset.sum_bij' (fun j _ => (j 0 : Fin R)) (fun e _ => ix2 e (i 1)) ?_ ?_ ?_ ?_ ?_
  · intro j hj
    exact Finset.mem_filter.mpr ⟨Finset.mem_univ _, ((hmem j).mp (Finset.mem_filter.mp hj).2).1⟩
  · intro e he
    exact Finset.mem_filter.mpr ⟨Finset.mem_univ _, (hmem _).mpr ⟨(Finset.mem_filter.mp he).2, rfl⟩⟩
  · intro j hj
    have h1 := ((hmem j).mp (Finset.mem_filter.mp hj).2).2
    exact (congrArg (ix2 (j 0)) h1).trans (eq_ix2 j).symm
  · intro e _
    rfl
  · intro j hj
    have h1 := ((hmem j).mp (Finset.mem_filter.mp hj).2).2
    exact congrArg upd ((eq_ix2 j).trans (congrArg (ix2 (j 0)) h1).symm)

/-- THE SCATTER-ADD OF SCALARS at an index: the operand's entry plus the sum, over the positions `e` whose word is
    the index's coordinate, of the update entry of `e`. -/
theorem hostScatterAdd_col_apply {N R w : Nat}
    (d : ScatterDims ⟨1, ![N]⟩ ⟨2, ![R, 1]⟩ ⟨1, ![R]⟩)
    (hwin : d.updateWindowDims = []) (hins : d.insertedWindowDims = [0])
    (hsd : d.scatterDimsToOperandDims = [0]) (hivd : d.indexVectorDim = 1)
    (x : (⟨1, ![N]⟩ : Shape).Idx → EReal) (idx : IVec ⟨2, ![R, 1]⟩ w)
    (upd : (⟨1, ![R]⟩ : Shape).Idx → EReal) (i : (⟨1, ![N]⟩ : Shape).Idx) :
    Ideal.hostScatterAdd d x idx upd i
      = x i + ∑ e ∈ Finset.univ.filter (fun e : Fin R => (idx (ix2 e (0 : Fin 1))).toInt = ((i 0).val : ℤ)),
          upd (ix1 e) := by
  unfold Ideal.hostScatterAdd
  congr 1
  have hmem : ∀ j : (⟨1, ![R]⟩ : Shape).Idx, d.resultIdx? j idx = some i ↔
      (idx (ix2 (j 0) (0 : Fin 1))).toInt = ((i 0).val : ℤ) := by
    intro j
    exact (iff_of_eq (congrArg (fun q => d.resultIdx? q idx = some i) (eq_ix1 j))).trans
      (resultIdx?_col_iff d hwin hins hsd hivd idx (j 0) i)
  refine Finset.sum_bij' (fun j _ => (j 0 : Fin R)) (fun e _ => ix1 e) ?_ ?_ ?_ ?_ ?_
  · intro j hj
    exact Finset.mem_filter.mpr ⟨Finset.mem_univ _, (hmem j).mp (Finset.mem_filter.mp hj).2⟩
  · intro e he
    exact Finset.mem_filter.mpr ⟨Finset.mem_univ _, (hmem _).mpr (Finset.mem_filter.mp he).2⟩
  · intro j _
    exact (eq_ix1 j).symm
  · intro e _
    rfl
  · intro j _
    exact congrArg upd (eq_ix1 j)

end Cert.LibScatter
-- ==== Proof.RefPool.lean ====
/-
  The reference's pooling, read for an arbitrary valuation.

  After the four layers the reference pools five feature matrices of 100000 rows and 128 columns per graph: into a
  zero matrix of 64 rows it adds row n of the features at the row named by the signed word of n in the column of
  graph ids (a word that is negative or at least 64 names no row, and that row of the features is dropped). Entry
  (g, d) of the result is the sum of column d over the nodes whose id, read as a signed integer, is g.

  The scatter-add is first read at an entry for a variable column of ids and a variable feature matrix; then, for
  each of the five results, the fold of the pooling operations over an arbitrary valuation is that term of the
  valuation's entries at the ids and at the features.
-/
import proofs.«412161_j3753801416792_2_alg».proof.Proof.Gen.ReferenceIdeal
import proofs.«412161_j3753801416792_2_alg».proof.Proof.RefRun
import proofs.«412161_j3753801416792_2_alg».proof.Proof.Conv
import proofs.«412161_j3753801416792_2_alg».proof.Proof.LibScatter
import Idealize.ShloMosaic.Lib.StableHlo.Run
import Idealize.ShloMosaic.Lib.IdealHost
import Idealize.ShloMosaic.Lib.ValueIdx
import Idealize.ShloMosaic.Lib.Pipeline.Value
import Idealize.ShloMosaic.PureOps.Ideal.Laws

noncomputable section

namespace Cert.RefPool

open Cert.ReferenceIdeal Cert.ReferenceIdeal.RefRun Cert.Spec Cert.Conv Idealize.ShloMosaic Idealize.ShloMosaic.ValueIdx Idealize.ShloMosaic.StableHlo

/-- The scatter-add of all rows into a zero array of 64 rows, the row of position `n` named by the signed word of
    `n` in a column of words: entry `(g, d)` is the sum of column `d` over the positions whose word is `g`. -/
theorem scatterPool_apply (gid : S100000.Idx → BitVec 32) (h : S100000x128.Idx → EReal) (g : Fin 64) (d : Fin 128) :
    Host.scatterAdd (F := Ideal) (φ := .f32) scatter_S64x128_S100000x1_S100000x128_1_0_0_1
        (broadcastInDim S64x128 ![] Gen.bcast_S_S64x128 (constant (F := Ideal) S_ .f32 0x00000000#32))
        (broadcastInDim S100000x1 ![0] Gen.bcast_S100000_S100000x1_0 gid) h (ix2 g d)
      = ∑ n ∈ Finset.univ.filter (fun n : Fin 100000 => (gid (ix1 n)).toInt = (g.val : ℤ)), h (ix2 n d) := by
  unfold Host.scatterAdd
  rw [Ideal.hostScatterAdd_def,
    Cert.LibScatter.hostScatterAdd_rows_col_apply scatter_S64x128_S100000x1_S100000x128_1_0_0_1 rfl rfl rfl rfl,
    broadcastInDim_scalar_apply, constant_apply, Ideal.ofBits_zero_f32, zero_add]
  refine Finset.sum_congr (Finset.filter_congr fun e _ => ?_) (fun e _ => rfl)
  rw [broadcastInDim_apply _ _ _ _ (ix1 e) (fun a => by match a with | ⟨0, _⟩ => rfl)]

set_option maxHeartbeats 4000000 in
/-- The input features pooled per graph. -/
theorem pool0 (V : Valuation τ sig (Elt Ideal)) :
    toMat (after opsTailPool V (Proc.devRef .tc main_v418))
      = poolR (toMat (V (Proc.devRef .tc main_arg0))) (fun n => V (Proc.devRef .tc main_arg4) (ix1 n)) := by
  funext g d
  unfold toMat poolR
  dsimp only [opsTailPool]
  after_results_simp
  exact scatterPool_apply _ _ g d

set_option maxHeartbeats 4000000 in
/-- The first layer's output pooled per graph. -/
theorem pool1 (V : Valuation τ sig (Elt Ideal)) :
    toMat (after opsTailPool V (Proc.devRef .tc main_v421))
      = poolR (toMat (V (Proc.devRef .tc main_v103))) (fun n => V (Proc.devRef .tc main_arg4) (ix1 n)) := by
  funext g d
  unfold toMat poolR
  dsimp only [opsTailPool]
  after_results_simp
  exact scatterPool_apply _ _ g d

set_option maxHeartbeats 4000000 in
/-- The second layer's output pooled per graph. -/
theorem pool2 (V : Valuation τ sig (Elt Ideal)) :
    toMat (after opsTailPool V (Proc.devRef .tc main_v424))
      = poolR (toMat (V (Proc.devRef .tc main_v207))) (fun n => V (Proc.devRef .tc main_arg4) (ix1 n)) := by
  funext g d
  unfold toMat poolR
  dsimp only [opsTailPool]
  after_results_simp
  exact scatterPool_apply _ _ g d

set_option maxHeartbeats 4000000 in
/-- The third layer's output pooled per graph. -/
theorem pool3 (V : Valuation τ sig (Elt Ideal)) :
    toMat (after opsTailPool V (Proc.devRef .tc main_v427))
      = poolR (toMat (V (Proc.devRef .tc main_v311))) (fun n => V (Proc.devRef .tc main_arg4) (ix1 n)) := by
  funext g d
  unfold toMat poolR
  dsimp only [opsTailPool]
  after_results_simp
  exact scatterPool_apply _ _ g d

set_option maxHeartbeats 4000000 in
/-- The fourth layer's output pooled per graph. -/
theorem pool4 (V : Valuation τ sig (Elt Ideal)) :
    toMat (after opsTailPool V (Proc.devRef .tc main_v430))
      = poolR (toMat (V (Proc.devRef .tc main_v415))) (fun n => V (Proc.devRef .tc main_arg4) (ix1 n)) := by
  funext g d
  unfold toMat poolR
  dsimp only [opsTailPool]
  after_results_simp
  exact scatterPool_apply _ _ g d

end Cert.RefPool

end
-- ==== Proof.RefFinal.lean ====
/-
  The reference's results as functions of its arguments.

  The reference runs four layers and then pools and applies the prediction heads. Naming the contents after each stage,
  layer k read at the contents before it is the specification's layer of the previous features and their aggregate; the
  arguments it reads are those at the start, because no stage writes an argument array; so, one layer after the other,
  the features after layer k are the specification's k-th features of the arguments. Each layer's output is not written
  again by the later layers, so after the last layer all five feature matrices are in place; the pooled sums read them
  there; the heads' operations leave the pooled sums alone, and the first result is the shared head function of the
  five pooled matrices and the head parameters.
-/
import proofs.«412161_j3753801416792_2_alg».proof.Proof.RefRun
import proofs.«412161_j3753801416792_2_alg».proof.Proof.RefKeep
import proofs.«412161_j3753801416792_2_alg».proof.Proof.RefChain0
import proofs.«412161_j3753801416792_2_alg».proof.Proof.RefChain1
import proofs.«412161_j3753801416792_2_alg».proof.Proof.RefChain2
import proofs.«412161_j3753801416792_2_alg».proof.Proof.RefChain3
import proofs.«412161_j3753801416792_2_alg».proof.Proof.RefPool
import proofs.«412161_j3753801416792_2_alg».proof.Proof.Bridge
import proofs.«412161_j3753801416792_2_alg».proof.Proof.Head
import proofs.«412161_j3753801416792_2_alg».proof.Proof.RefArgs
import Idealize.ShloMosaic.Lib.StableHlo.Run

-- deciding that none of seventeen argument arrays is among a layer's 189 written buffers recurses past the default depth
set_option maxRecDepth 65536

noncomputable section

namespace Cert.RefFinal

open Cert.ReferenceIdeal Cert.ReferenceIdeal.RefRun Cert.ReferenceIdeal.RefKeep Cert.RefArgs Cert.Spec Cert.Conv
  Idealize.ShloMosaic Idealize.ShloMosaic.ValueIdx Idealize.ShloMosaic.StableHlo

/-! ## The contents after each stage -/

/-- After layer 0. -/
abbrev W1 (V : Valuation τ sig (Elt Ideal)) : Valuation τ sig (Elt Ideal) := after opsL0 V
/-- After layer 1. -/
abbrev W2 (V : Valuation τ sig (Elt Ideal)) : Valuation τ sig (Elt Ideal) := after opsL1 (W1 V)
/-- After layer 2. -/
abbrev W3 (V : Valuation τ sig (Elt Ideal)) : Valuation τ sig (Elt Ideal) := after opsL2 (W2 V)
/-- After layer 3. -/
abbrev W4 (V : Valuation τ sig (Elt Ideal)) : Valuation τ sig (Elt Ideal) := after opsL3 (W3 V)
/-- After the pooled sums. -/
abbrev WT (V : Valuation τ sig (Elt Ideal)) : Valuation τ sig (Elt Ideal) := after opsTailPool (W4 V)

/-- The whole run ends at the heads' fold of the last of these. -/
theorem after_eq (V : Valuation τ sig (Elt Ideal)) : after ops V = after opsTailHead (WT V) :=
  (after_ops V).trans (after_opsTail _)

/-! ## No stage writes an argument array -/

theorem args_L0 : ∀ b ∈ argRefs, b ∉ writtenL0 := by decide
theorem args_L1 : ∀ b ∈ argRefs, b ∉ writtenL1 := by decide
theorem args_L2 : ∀ b ∈ argRefs, b ∉ writtenL2 := by decide
theorem args_L3 : ∀ b ∈ argRefs, b ∉ writtenL3 := by decide
theorem args_TailPool : ∀ b ∈ argRefs, b ∉ writtenTailPool := by decide

variable (V : Valuation τ sig (Elt Ideal))

theorem args1 : ArgsEq (W1 V) V := fun b hb => keepL0 V b (args_L0 b hb)
theorem args2 : ArgsEq (W2 V) V := ArgsEq.trans (fun b hb => keepL1 (W1 V) b (args_L1 b hb)) (args1 V)
theorem args3 : ArgsEq (W3 V) V := ArgsEq.trans (fun b hb => keepL2 (W2 V) b (args_L2 b hb)) (args2 V)
theorem args4 : ArgsEq (W4 V) V := ArgsEq.trans (fun b hb => keepL3 (W3 V) b (args_L3 b hb)) (args3 V)
theorem argsT : ArgsEq (WT V) V := ArgsEq.trans (fun b hb => keepTailPool (W4 V) b (args_TailPool b hb)) (args4 V)

/-! ## The features after each layer -/

section
variable [Cert.KernelIdeal.Facts₀]

theorem feat1 : toMat (W1 V (Proc.devRef .tc main_v103)) = Cert.Bridge.hR1 (args V) :=
  layer_step (ArgsEq.refl V) 0 (V (Proc.devRef .tc main_arg0)) (Cert.RefChain0.layer V) rfl

theorem feat2 : toMat (W2 V (Proc.devRef .tc main_v207)) = Cert.Bridge.hR2 (args V) :=
  layer_step (args1 V) 1 (W1 V (Proc.devRef .tc main_v103)) (Cert.RefChain1.layer (W1 V)) (feat1 V)

theorem feat3 : toMat (W3 V (Proc.devRef .tc main_v311)) = Cert.Bridge.hR3 (args V) :=
  layer_step (args2 V) 2 (W2 V (Proc.devRef .tc main_v207)) (Cert.RefChain2.layer (W2 V)) (feat2 V)

theorem feat4 : toMat (W4 V (Proc.devRef .tc main_v415)) = Cert.Bridge.hR4 (args V) :=
  layer_step (args3 V) 3 (W3 V (Proc.devRef .tc main_v311)) (Cert.RefChain3.layer (W3 V)) (feat3 V)

end

/-! ## Each layer's output is still there after the last layer -/

theorem carry1 : W4 V (Proc.devRef .tc main_v103) = W1 V (Proc.devRef .tc main_v103) :=
  ((keepL3 (W3 V) main_v103 (by decide)).trans (keepL2 (W2 V) main_v103 (by decide))).trans
    (keepL1 (W1 V) main_v103 (by decide))
theorem carry2 : W4 V (Proc.devRef .tc main_v207) = W2 V (Proc.devRef .tc main_v207) :=
  (keepL3 (W3 V) main_v207 (by decide)).trans (keepL2 (W2 V) main_v207 (by decide))
theorem carry3 : W4 V (Proc.devRef .tc main_v311) = W3 V (Proc.devRef .tc main_v311) :=
  keepL3 (W3 V) main_v311 (by decide)

/-! ## The pooled sums -/

section
variable [Cert.KernelIdeal.Facts₀]

theorem pooled0 : toMat (WT V (Proc.devRef .tc main_v418)) = poolR (args V).h0 (args V).gid := by
  have h := Cert.RefPool.pool0 (W4 V)
  rw [args4 V main_arg0 (by decide), args4 V main_arg4 (by decide)] at h
  exact h

theorem pooled1 : toMat (WT V (Proc.devRef .tc main_v421)) = poolR (Cert.Bridge.hR1 (args V)) (args V).gid := by
  have h := Cert.RefPool.pool1 (W4 V)
  rw [carry1 V, feat1 V, args4 V main_arg4 (by decide)] at h
  exact h

theorem pooled2 : toMat (WT V (Proc.devRef .tc main_v424)) = poolR (Cert.Bridge.hR2 (args V)) (args V).gid := by
  have h := Cert.RefPool.pool2 (W4 V)
  rw [carry2 V, feat2 V, args4 V main_arg4 (by decide)] at h
  exact h

theorem pooled3 : toMat (WT V (Proc.devRef .tc main_v427)) = poolR (Cert.Bridge.hR3 (args V)) (args V).gid := by
  have h := Cert.RefPool.pool3 (W4 V)
  rw [carry3 V, feat3 V, args4 V main_arg4 (by decide)] at h
  exact h

theorem pooled4 : toMat (WT V (Proc.devRef .tc main_v430)) = poolR (Cert.Bridge.hR4 (args V)) (args V).gid := by
  have h := Cert.RefPool.pool4 (W4 V)
  rw [feat4 V, args4 V main_arg4 (by decide)] at h
  exact h

/-! ## The results -/

/-- The reference's five results as functions of its arguments: the heads of the five pooled feature matrices, and
    the pooled features of layers 1 to 4. -/
theorem results :
    after ops V (Proc.devRef .tc main_v476)
        = Cert.Head.headT (ofMat (poolR (args V).h0 (args V).gid)) (ofMat (poolR (Cert.Bridge.hR1 (args V)) (args V).gid))
            (ofMat (poolR (Cert.Bridge.hR2 (args V)) (args V).gid)) (ofMat (poolR (Cert.Bridge.hR3 (args V)) (args V).gid))
            (ofMat (poolR (Cert.Bridge.hR4 (args V)) (args V).gid))
            (V (Proc.devRef .tc main_arg16)) (V (Proc.devRef .tc main_arg17))
      ∧ after ops V (Proc.devRef .tc main_v421) = ofMat (poolR (Cert.Bridge.hR1 (args V)) (args V).gid)
      ∧ after ops V (Proc.devRef .tc main_v424) = ofMat (poolR (Cert.Bridge.hR2 (args V)) (args V).gid)
      ∧ after ops V (Proc.devRef .tc main_v427) = ofMat (poolR (Cert.Bridge.hR3 (args V)) (args V).gid)
      ∧ after ops V (Proc.devRef .tc main_v430) = ofMat (poolR (Cert.Bridge.hR4 (args V)) (args V).gid) := by
  rw [after_eq V]
  refine ⟨?_, ?_, ?_, ?_, ?_⟩
  · have h := Cert.Head.ref_head (WT V)
    rw [eq_ofMat (pooled0 V), eq_ofMat (pooled1 V), eq_ofMat (pooled2 V), eq_ofMat (pooled3 V), eq_ofMat (pooled4 V),
      argsT V main_arg16 (by decide), argsT V main_arg17 (by decide), Cert.Head.refHeadOps_eq] at h
    exact h
  · exact (keepTailHead (WT V) main_v421 (by decide)).trans (eq_ofMat (pooled1 V))
  · exact (keepTailHead (WT V) main_v424 (by decide)).trans (eq_ofMat (pooled2 V))
  · exact (keepTailHead (WT V) main_v427 (by decide)).trans (eq_ofMat (pooled3 V))
  · exact (keepTailHead (WT V) main_v430 (by decide)).trans (eq_ofMat (pooled4 V))

end

end Cert.RefFinal

end
-- ==== Proof.lean ====
/-
  The certificate: the idealized kernel program and the idealized reference compute the same five results.

  Both run (the kernel program by its launch over 17 kernel regions and 18 stretches of host operations, the reference
  as one sequence of host operations) and leave their arguments unchanged. Read at the extended reals, from memories
  that agree on the arguments, the kernel's results are the prediction heads of the pooled features of five feature
  matrices h0 … h4 and the pooled h1 … h4, with h(k+1) the kernel's layer function of h(k); the reference's are the same
  with its own layer and pooling functions. Under the precondition every argument entry is a real number; then the two
  layer functions agree (the variance law, the tile sums) and keep the features real, and the two ways of pooling agree
  for any features: so the results are equal, entry by entry.
-/
import proofs.«412161_j3753801416792_2_alg».proof.Defs
import proofs.«412161_j3753801416792_2_alg».proof.Proof.Gen.Kernel
import proofs.«412161_j3753801416792_2_alg».proof.Proof.KBFrameRun
import proofs.«412161_j3753801416792_2_alg».proof.Proof.Gen.KernelIdeal
import proofs.«412161_j3753801416792_2_alg».proof.Proof.KIFrameRun
import proofs.«412161_j3753801416792_2_alg».proof.Proof.Gen.ReferenceIdeal
import proofs.«412161_j3753801416792_2_alg».proof.Proof.Gen.Pre_finite_inputs
import proofs.«412161_j3753801416792_2_alg».proof.Proof.KRun
import proofs.«412161_j3753801416792_2_alg».proof.Proof.KFinal
import proofs.«412161_j3753801416792_2_alg».proof.Proof.KArgs
import proofs.«412161_j3753801416792_2_alg».proof.Proof.RefRun
import proofs.«412161_j3753801416792_2_alg».proof.Proof.RefKeep
import proofs.«412161_j3753801416792_2_alg».proof.Proof.RefFinal
import proofs.«412161_j3753801416792_2_alg».proof.Proof.Bridge
import Idealize.ShloMosaic.Adequacy
import Idealize.ShloMosaic.Init

set_option maxRecDepth 16384

noncomputable section

namespace Cert.Proof

open Idealize.ShloMosaic Idealize.SL.Sem

/-- The kernel program as printed runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono
    (fun r h c => by
      have k := Cert.ReferenceIdeal.RefKeep.arg_kept (F := Ideal) (StableHlo.launchContents m c)
      exact ⟨(h c _).trans k.1, (h c _).trans k.2.1, (h c _).trans k.2.2.1, (h c _).trans k.2.2.2.1,
        (h c _).trans k.2.2.2.2.1, (h c _).trans k.2.2.2.2.2.1, (h c _).trans k.2.2.2.2.2.2.1,
        (h c _).trans k.2.2.2.2.2.2.2.1, (h c _).trans k.2.2.2.2.2.2.2.2.1, (h c _).trans k.2.2.2.2.2.2.2.2.2.1,
        (h c _).trans k.2.2.2.2.2.2.2.2.2.2.1, (h c _).trans k.2.2.2.2.2.2.2.2.2.2.2.1,
        (h c _).trans k.2.2.2.2.2.2.2.2.2.2.2.2.1, (h c _).trans k.2.2.2.2.2.2.2.2.2.2.2.2.2.1,
        (h c _).trans k.2.2.2.2.2.2.2.2.2.2.2.2.2.2.1, (h c _).trans k.2.2.2.2.2.2.2.2.2.2.2.2.2.2.2.1,
        (h c _).trans k.2.2.2.2.2.2.2.2.2.2.2.2.2.2.2.2.1, (h c _).trans k.2.2.2.2.2.2.2.2.2.2.2.2.2.2.2.2.2⟩)
    (Cert.ReferenceIdeal.RefRun.run_after (F := Ideal) m ρ)

open Cert.Spec Cert.Conv Idealize.ShloMosaic.ValueIdx in
/-- Memories that agree on the arguments give the two programs the same data: the reference's arguments, read at its
    launch contents, are the kernel program's. -/
theorem args_agree [Cert.KernelIdeal.Facts₀]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.RefArgs.args (StableHlo.launchContents m' c) = Cert.KArgs.args m c := by
  unfold Cert.RefArgs.args Cert.KArgs.args Cert.RefArgs.P Cert.KArgs.P Cert.KArgs.gid
  simp only [StableHlo.launchContents]
  rw [h0, h2, h3, h4, h5, h6, h7, h8, h9, h10, h11, h12, h13, h14, h15]
  first | done | rfl

/-- The ledger is empty: the idealized kernel program is the printed one read at the extended reals. -/
theorem preserves : Cert.preserves_Kernel_KernelIdeal := trivial

open Cert.Spec Cert.Conv Cert.Bridge in
/-- From memories that agree on the arguments both programs end with equal results. The witnesses are the kernel
    program's results themselves, as its launch names them at the last boundary; the reference's results are brought to
    them through the two programs' functions of the argument arrays and their agreement on real arguments. -/
theorem algebraic : Cert.algebraic_KernelIdeal_ReferenceIdeal := by
  intro m ρ m' ρ' hpre hagree
  refine ⟨fun c => Cert.KernelIdeal.Gen.W35 m ρ c (Proc.devRef .tc Cert.KernelIdeal.main_v360),
    fun c => Cert.KernelIdeal.Gen.W35 m ρ c (Proc.devRef .tc Cert.KernelIdeal.main_v80),
    fun c => Cert.KernelIdeal.Gen.W35 m ρ c (Proc.devRef .tc Cert.KernelIdeal.main_v158),
    fun c => Cert.KernelIdeal.Gen.W35 m ρ c (Proc.devRef .tc Cert.KernelIdeal.main_v236),
    fun c => Cert.KernelIdeal.Gen.W35 m ρ c (Proc.devRef .tc Cert.KernelIdeal.main_v314),
    Cert.KernelIdeal.KRun.run (F := Ideal) m ρ, ?_⟩
  refine (θ_run Cert.ReferenceIdeal.defs _ _).mono (fun r h c => ?_)
    (Cert.ReferenceIdeal.RefRun.run_after (F := Ideal) m' ρ')
  -- the reference's contents at launch, and that they hold the kernel program's arguments
  obtain ⟨a0, a1, a2, a3, a4, a5, a6, a7, a8, a9, a10, a11, a12, a13, a14, a15, a16, a17⟩ := hagree c
  have hV := args_agree m m' c a0 a2 a3 a4 a5 a6 a7 a8 a9 a10 a11 a12 a13 a14 a15
  have h16 : StableHlo.launchContents m' c (Proc.devRef .tc Cert.ReferenceIdeal.main_arg16) = m ((c.tc : Thread Cert.KernelIdeal.nD Cert.KernelIdeal.τ).loc Cert.KernelIdeal.main_arg16) := a16
  have h17 : StableHlo.launchContents m' c (Proc.devRef .tc Cert.ReferenceIdeal.main_arg17) = m ((c.tc : Thread Cert.KernelIdeal.nD Cert.KernelIdeal.τ).loc Cert.KernelIdeal.main_arg17) := a17
  have hreal := Cert.KArgs.real_args m hpre c
  have hK := Cert.KFinal.results m ρ c
  have hR := Cert.RefFinal.results (StableHlo.launchContents m' c)
  have k := Cert.ReferenceIdeal.RefKeep.arg_kept (F := Ideal) (StableHlo.launchContents m' c)
  rw [hV] at hR
  have e0 := Cert.Bridge.pool0_eq (Cert.KArgs.args m c)
  have e1 := Cert.Bridge.pool1_eq (Cert.KArgs.args m c) hreal
  have e2 := Cert.Bridge.pool2_eq (Cert.KArgs.args m c) hreal
  have e3 := Cert.Bridge.pool3_eq (Cert.KArgs.args m c) hreal
  have e4 := Cert.Bridge.pool4_eq (Cert.KArgs.args m c) hreal
  refine ⟨(h c _).trans (hR.1.trans ?_), (h c _).trans (hR.2.1.trans ?_), (h c _).trans (hR.2.2.1.trans ?_),
    (h c _).trans (hR.2.2.2.1.trans ?_), (h c _).trans (hR.2.2.2.2.trans ?_),
    (h c _).trans k.1, (h c _).trans k.2.1, (h c _).trans k.2.2.1, (h c _).trans k.2.2.2.1,
    (h c _).trans k.2.2.2.2.1, (h c _).trans k.2.2.2.2.2.1, (h c _).trans k.2.2.2.2.2.2.1,
    (h c _).trans k.2.2.2.2.2.2.2.1, (h c _).trans k.2.2.2.2.2.2.2.2.1, (h c _).trans k.2.2.2.2.2.2.2.2.2.1,
    (h c _).trans k.2.2.2.2.2.2.2.2.2.2.1, (h c _).trans k.2.2.2.2.2.2.2.2.2.2.2.1,
    (h c _).trans k.2.2.2.2.2.2.2.2.2.2.2.2.1, (h c _).trans k.2.2.2.2.2.2.2.2.2.2.2.2.2.1,
    (h c _).trans k.2.2.2.2.2.2.2.2.2.2.2.2.2.2.1, (h c _).trans k.2.2.2.2.2.2.2.2.2.2.2.2.2.2.2.1,
    (h c _).trans k.2.2.2.2.2.2.2.2.2.2.2.2.2.2.2.2.1, (h c _).trans k.2.2.2.2.2.2.2.2.2.2.2.2.2.2.2.2.2⟩
  · show _ = Cert.KernelIdeal.Gen.W35 m ρ c (Proc.devRef .tc Cert.KernelIdeal.main_v360)
    rw [hK.1, h16, h17, e0, e1, e2, e3, e4]
  · show _ = Cert.KernelIdeal.Gen.W35 m ρ c (Proc.devRef .tc Cert.KernelIdeal.main_v80)
    rw [hK.2.1, e1]
  · show _ = Cert.KernelIdeal.Gen.W35 m ρ c (Proc.devRef .tc Cert.KernelIdeal.main_v158)
    rw [hK.2.2.1, e2]
  · show _ = Cert.KernelIdeal.Gen.W35 m ρ c (Proc.devRef .tc Cert.KernelIdeal.main_v236)
    rw [hK.2.2.2.1, e3]
  · show _ = Cert.KernelIdeal.Gen.W35 m ρ c (Proc.devRef .tc Cert.KernelIdeal.main_v314)
    rw [hK.2.2.2.2, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
